-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 1024]⟩ ⟨2, ![2048, 1024]⟩ (Layout.meshBlock [2, 2] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 4096]⟩ ⟨2, ![2048, 4096]⟩ (Layout.meshBlock [2, 2] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 4096]⟩ ⟨2, ![1024, 4096]⟩ (Layout.meshBlock [2, 2] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x1024 : Shape := ⟨2, ![1024, 1024]⟩
abbrev S1024x4096 : Shape := ⟨2, ![1024, 4096]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_

variable [Facts]

def fn {F : FTy → Type} [FloatOps F] (main_arg0 : FVec F S1024x1024 .f32) (main_arg1 : FVec F S1024x4096 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  main_v8
-- ==== Pre_finite_inputs_ReferenceIdeal.lean ====
abbrev S2048x1024 : Shape := ⟨2, ![2048, 1024]⟩
abbrev S2048x4096 : Shape := ⟨2, ![2048, 4096]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_

variable [Facts]

def fn {F : FTy → Type} [FloatOps F] (main_arg0 : FVec F S2048x1024 .f32) (main_arg1 : FVec F S2048x4096 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x4096 .f32 := Host.absf main_arg1
  let main_cst_0 : FVec F S_ .f32 := constant S_ .f32 0x7F800000#32
  let main_v5 : FVec F S2048x4096 .f32 := broadcastInDim S2048x4096 ![] bcast_S_S2048x4096 main_cst_0
  let main_v6 : IVec S2048x4096 1 := cmpf .olt main_v4 main_v5
  let main_c_1 : IVec S_ 1 := constantI S_ 1 1#1
  let main_v7 : IVec S_ 1 := (fun x v => Host.reduce IntOp.andi x v reducesTo_S2048x4096_S_d0_1 h_S_) main_v6 main_c_1
  let main_v8 : IVec S_ 1 := andi main_v3 main_v7
  main_v8
-- ==== Kernel.lean ====
abbrev S1024x1024 : Shape := ⟨2, ![1024, 1024]⟩
abbrev S1024x4096 : Shape := ⟨2, ![1024, 4096]⟩
abbrev S512x4096 : Shape := ⟨2, ![512, 4096]⟩
abbrev S16x512x128 : Shape := ⟨3, ![16, 512, 128]⟩
abbrev S8 : Shape := ⟨1, ![8]⟩
abbrev S16 : Shape := ⟨1, ![16]⟩
abbrev S1 : Shape := ⟨1, ![1]⟩
abbrev S_ : Shape := ⟨0, ![]⟩
abbrev S1024x512 : Shape := ⟨2, ![1024, 512]⟩
abbrev S512x512 : Shape := ⟨2, ![512, 512]⟩
abbrev S512x128 : Shape := ⟨2, ![512, 128]⟩
abbrev S1x512x128 : Shape := ⟨3, ![1, 512, 128]⟩

abbrev nBuf : Space → Nat
  | .hbm => 3
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S1024x4096, .f32⟩
  | .hbm, ⟨2, _⟩ => ⟨S512x4096, .f32⟩
  | .local _ .vmem, ⟨0, _⟩ => ⟨S1024x1024, .f32⟩
  | .local _ .vmem, ⟨1, _⟩ => ⟨S1024x4096, .f32⟩
  | .local _ .vmem, ⟨2, _⟩ => ⟨S512x4096, .f32⟩
  | .local _ .vmem, ⟨3, _⟩ => ⟨S16x512x128, .bf16⟩
  | .local _ .vmem, ⟨4, _⟩ => ⟨S16x512x128, .bf16⟩
  | .local _ .vmem, ⟨5, _⟩ => ⟨S16x512x128, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 81 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | _ => false

abbrev sig : RefSig :=
  (ofTc nBuf bufTy 1 81 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_33 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_32 : BitVec 32 := 2#32
  let v41 : BitVec 32 := Scalar.muli v2 c2_i32_32
  let v42 : BitVec 32 := Scalar.addi c0_i32_33 v41
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_34 : BitVec 32 := 1#32
  let v43 : BitVec 32 := Scalar.muli v6 c1_i32_34
  let v44 : BitVec 32 := Scalar.addi v42 v43
  v44.toNat
def k0_dev2 (d0 : Dev nD) : Nat :=
  let c0_i32_37 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_36 : BitVec 32 := 2#32
  let v45 : BitVec 32 := Scalar.muli v7 c2_i32_36
  let v46 : BitVec 32 := Scalar.addi c0_i32_37 v45
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_38 : BitVec 32 := 1#32
  let v47 : BitVec 32 := Scalar.muli v5 c1_i32_38
  let v48 : BitVec 32 := Scalar.addi v46 v47
  v48.toNat
def k0_dev3 (d0 : Dev nD) : Nat :=
  let c0_i32_58 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_57 : BitVec 32 := 2#32
  let v66 : BitVec 32 := Scalar.muli v2 c2_i32_57
  let v67 : BitVec 32 := Scalar.addi c0_i32_58 v66
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_59 : BitVec 32 := 1#32
  let v68 : BitVec 32 := Scalar.muli v6 c1_i32_59
  let v69 : BitVec 32 := Scalar.addi v67 v68
  v69.toNat
def k0_dev4 (d0 : Dev nD) : Nat :=
  let c0_i32_69 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_68 : BitVec 32 := 2#32
  let v78 : BitVec 32 := Scalar.muli v2 c2_i32_68
  let v79 : BitVec 32 := Scalar.addi c0_i32_69 v78
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_70 : BitVec 32 := 1#32
  let v80 : BitVec 32 := Scalar.muli v6 c1_i32_70
  let v81 : BitVec 32 := Scalar.addi v79 v80
  v81.toNat
def k0_dev5 (d0 : Dev nD) : Nat :=
  let c0_i32_80 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_79 : BitVec 32 := 2#32
  let v90 : BitVec 32 := Scalar.muli v2 c2_i32_79
  let v91 : BitVec 32 := Scalar.addi c0_i32_80 v90
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_81 : BitVec 32 := 1#32
  let v92 : BitVec 32 := Scalar.muli v6 c1_i32_81
  let v93 : BitVec 32 := Scalar.addi v91 v92
  v93.toNat
def k0_dev6 (d0 : Dev nD) : Nat :=
  let c0_i32_91 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_90 : BitVec 32 := 2#32
  let v102 : BitVec 32 := Scalar.muli v2 c2_i32_90
  let v103 : BitVec 32 := Scalar.addi c0_i32_91 v102
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_92 : BitVec 32 := 1#32
  let v104 : BitVec 32 := Scalar.muli v6 c1_i32_92
  let v105 : BitVec 32 := Scalar.addi v103 v104
  v105.toNat
def k0_dev7 (d0 : Dev nD) : Nat :=
  let c0_i32_107 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_106 : BitVec 32 := 2#32
  let v119 : BitVec 32 := Scalar.muli v2 c2_i32_106
  let v120 : BitVec 32 := Scalar.addi c0_i32_107 v119
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_108 : BitVec 32 := 1#32
  let v121 : BitVec 32 := Scalar.muli v6 c1_i32_108
  let v122 : BitVec 32 := Scalar.addi v120 v121
  v122.toNat
def k0_dev8 (d0 : Dev nD) : Nat :=
  let c0_i32_118 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_117 : BitVec 32 := 2#32
  let v131 : BitVec 32 := Scalar.muli v2 c2_i32_117
  let v132 : BitVec 32 := Scalar.addi c0_i32_118 v131
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_119 : BitVec 32 := 1#32
  let v133 : BitVec 32 := Scalar.muli v6 c1_i32_119
  let v134 : BitVec 32 := Scalar.addi v132 v133
  v134.toNat
def k0_dev9 (d0 : Dev nD) : Nat :=
  let c0_i32_129 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_128 : BitVec 32 := 2#32
  let v143 : BitVec 32 := Scalar.muli v2 c2_i32_128
  let v144 : BitVec 32 := Scalar.addi c0_i32_129 v143
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_130 : BitVec 32 := 1#32
  let v145 : BitVec 32 := Scalar.muli v6 c1_i32_130
  let v146 : BitVec 32 := Scalar.addi v144 v145
  v146.toNat
def k0_dev10 (d0 : Dev nD) : Nat :=
  let c0_i32_140 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_139 : BitVec 32 := 2#32
  let v155 : BitVec 32 := Scalar.muli v2 c2_i32_139
  let v156 : BitVec 32 := Scalar.addi c0_i32_140 v155
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_141 : BitVec 32 := 1#32
  let v157 : BitVec 32 := Scalar.muli v6 c1_i32_141
  let v158 : BitVec 32 := Scalar.addi v156 v157
  v158.toNat
def k0_dev11 (d0 : Dev nD) : Nat :=
  let c0_i32_155 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_154 : BitVec 32 := 2#32
  let v172 : BitVec 32 := Scalar.muli v2 c2_i32_154
  let v173 : BitVec 32 := Scalar.addi c0_i32_155 v172
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_156 : BitVec 32 := 1#32
  let v174 : BitVec 32 := Scalar.muli v6 c1_i32_156
  let v175 : BitVec 32 := Scalar.addi v173 v174
  v175.toNat
def k0_dev12 (d0 : Dev nD) : Nat :=
  let c0_i32_165 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_164 : BitVec 32 := 2#32
  let v184 : BitVec 32 := Scalar.muli v2 c2_i32_164
  let v185 : BitVec 32 := Scalar.addi c0_i32_165 v184
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_166 : BitVec 32 := 1#32
  let v186 : BitVec 32 := Scalar.muli v6 c1_i32_166
  let v187 : BitVec 32 := Scalar.addi v185 v186
  v187.toNat
def k0_dev13 (d0 : Dev nD) : Nat :=
  let c0_i32_175 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_174 : BitVec 32 := 2#32
  let v196 : BitVec 32 := Scalar.muli v2 c2_i32_174
  let v197 : BitVec 32 := Scalar.addi c0_i32_175 v196
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_176 : BitVec 32 := 1#32
  let v198 : BitVec 32 := Scalar.muli v6 c1_i32_176
  let v199 : BitVec 32 := Scalar.addi v197 v198
  v199.toNat
def k0_dev14 (d0 : Dev nD) : Nat :=
  let c0_i32_185 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_184 : BitVec 32 := 2#32
  let v208 : BitVec 32 := Scalar.muli v2 c2_i32_184
  let v209 : BitVec 32 := Scalar.addi c0_i32_185 v208
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_186 : BitVec 32 := 1#32
  let v210 : BitVec 32 := Scalar.muli v6 c1_i32_186
  let v211 : BitVec 32 := Scalar.addi v209 v210
  v211.toNat
def k0_dev15 (d0 : Dev nD) : Nat :=
  let c0_i32_200 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_199 : BitVec 32 := 2#32
  let v225 : BitVec 32 := Scalar.muli v2 c2_i32_199
  let v226 : BitVec 32 := Scalar.addi c0_i32_200 v225
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_201 : BitVec 32 := 1#32
  let v227 : BitVec 32 := Scalar.muli v6 c1_i32_201
  let v228 : BitVec 32 := Scalar.addi v226 v227
  v228.toNat
def k0_dev16 (d0 : Dev nD) : Nat :=
  let c0_i32_210 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_209 : BitVec 32 := 2#32
  let v237 : BitVec 32 := Scalar.muli v2 c2_i32_209
  let v238 : BitVec 32 := Scalar.addi c0_i32_210 v237
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_211 : BitVec 32 := 1#32
  let v239 : BitVec 32 := Scalar.muli v6 c1_i32_211
  let v240 : BitVec 32 := Scalar.addi v238 v239
  v240.toNat
def k0_dev17 (d0 : Dev nD) : Nat :=
  let c0_i32_220 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_219 : BitVec 32 := 2#32
  let v249 : BitVec 32 := Scalar.muli v2 c2_i32_219
  let v250 : BitVec 32 := Scalar.addi c0_i32_220 v249
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_221 : BitVec 32 := 1#32
  let v251 : BitVec 32 := Scalar.muli v6 c1_i32_221
  let v252 : BitVec 32 := Scalar.addi v250 v251
  v252.toNat
def k0_dev18 (d0 : Dev nD) : Nat :=
  let c0_i32_230 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_229 : BitVec 32 := 2#32
  let v261 : BitVec 32 := Scalar.muli v2 c2_i32_229
  let v262 : BitVec 32 := Scalar.addi c0_i32_230 v261
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_231 : BitVec 32 := 1#32
  let v263 : BitVec 32 := Scalar.muli v6 c1_i32_231
  let v264 : BitVec 32 := Scalar.addi v262 v263
  v264.toNat
def k0_dev19 (d0 : Dev nD) : Nat :=
  let c0_i32_265 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_264 : BitVec 32 := 2#32
  let v298 : BitVec 32 := Scalar.muli v7 c2_i32_264
  let v299 : BitVec 32 := Scalar.addi c0_i32_265 v298
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_266 : BitVec 32 := 1#32
  let v300 : BitVec 32 := Scalar.muli v5 c1_i32_266
  let v301 : BitVec 32 := Scalar.addi v299 v300
  v301.toNat
def k0_dev20 (d0 : Dev nD) : Nat :=
  let c0_i32_290 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_289 : BitVec 32 := 2#32
  let v325 : BitVec 32 := Scalar.muli v7 c2_i32_289
  let v326 : BitVec 32 := Scalar.addi c0_i32_290 v325
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_291 : BitVec 32 := 1#32
  let v327 : BitVec 32 := Scalar.muli v5 c1_i32_291
  let v328 : BitVec 32 := Scalar.addi v326 v327
  v328.toNat
def k0_dev21 (d0 : Dev nD) : Nat :=
  let c0_i32_315 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_314 : BitVec 32 := 2#32
  let v352 : BitVec 32 := Scalar.muli v7 c2_i32_314
  let v353 : BitVec 32 := Scalar.addi c0_i32_315 v352
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_316 : BitVec 32 := 1#32
  let v354 : BitVec 32 := Scalar.muli v5 c1_i32_316
  let v355 : BitVec 32 := Scalar.addi v353 v354
  v355.toNat
def k0_dev22 (d0 : Dev nD) : Nat :=
  let c0_i32_340 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_339 : BitVec 32 := 2#32
  let v379 : BitVec 32 := Scalar.muli v7 c2_i32_339
  let v380 : BitVec 32 := Scalar.addi c0_i32_340 v379
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_341 : BitVec 32 := 1#32
  let v381 : BitVec 32 := Scalar.muli v5 c1_i32_341
  let v382 : BitVec 32 := Scalar.addi v380 v381
  v382.toNat
def k0_dev23 (d0 : Dev nD) : Nat :=
  let c0_i32_382 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_381 : BitVec 32 := 2#32
  let v426 : BitVec 32 := Scalar.muli v7 c2_i32_381
  let v427 : BitVec 32 := Scalar.addi c0_i32_382 v426
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_383 : BitVec 32 := 1#32
  let v428 : BitVec 32 := Scalar.muli v5 c1_i32_383
  let v429 : BitVec 32 := Scalar.addi v427 v428
  v429.toNat
def k0_dev24 (d0 : Dev nD) : Nat :=
  let c0_i32_407 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_406 : BitVec 32 := 2#32
  let v453 : BitVec 32 := Scalar.muli v7 c2_i32_406
  let v454 : BitVec 32 := Scalar.addi c0_i32_407 v453
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_408 : BitVec 32 := 1#32
  let v455 : BitVec 32 := Scalar.muli v5 c1_i32_408
  let v456 : BitVec 32 := Scalar.addi v454 v455
  v456.toNat
def k0_dev25 (d0 : Dev nD) : Nat :=
  let c0_i32_432 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_431 : BitVec 32 := 2#32
  let v480 : BitVec 32 := Scalar.muli v7 c2_i32_431
  let v481 : BitVec 32 := Scalar.addi c0_i32_432 v480
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_433 : BitVec 32 := 1#32
  let v482 : BitVec 32 := Scalar.muli v5 c1_i32_433
  let v483 : BitVec 32 := Scalar.addi v481 v482
  v483.toNat
def k0_dev26 (d0 : Dev nD) : Nat :=
  let c0_i32_457 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_456 : BitVec 32 := 2#32
  let v507 : BitVec 32 := Scalar.muli v7 c2_i32_456
  let v508 : BitVec 32 := Scalar.addi c0_i32_457 v507
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_458 : BitVec 32 := 1#32
  let v509 : BitVec 32 := Scalar.muli v5 c1_i32_458
  let v510 : BitVec 32 := Scalar.addi v508 v509
  v510.toNat
def k0_dev27 (d0 : Dev nD) : Nat :=
  let c0_i32_498 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_497 : BitVec 32 := 2#32
  let v554 : BitVec 32 := Scalar.muli v7 c2_i32_497
  let v555 : BitVec 32 := Scalar.addi c0_i32_498 v554
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_499 : BitVec 32 := 1#32
  let v556 : BitVec 32 := Scalar.muli v5 c1_i32_499
  let v557 : BitVec 32 := Scalar.addi v555 v556
  v557.toNat
def k0_dev28 (d0 : Dev nD) : Nat :=
  let c0_i32_523 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_522 : BitVec 32 := 2#32
  let v581 : BitVec 32 := Scalar.muli v7 c2_i32_522
  let v582 : BitVec 32 := Scalar.addi c0_i32_523 v581
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_524 : BitVec 32 := 1#32
  let v583 : BitVec 32 := Scalar.muli v5 c1_i32_524
  let v584 : BitVec 32 := Scalar.addi v582 v583
  v584.toNat
def k0_dev29 (d0 : Dev nD) : Nat :=
  let c0_i32_548 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_547 : BitVec 32 := 2#32
  let v608 : BitVec 32 := Scalar.muli v7 c2_i32_547
  let v609 : BitVec 32 := Scalar.addi c0_i32_548 v608
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_549 : BitVec 32 := 1#32
  let v610 : BitVec 32 := Scalar.muli v5 c1_i32_549
  let v611 : BitVec 32 := Scalar.addi v609 v610
  v611.toNat
def k0_dev30 (d0 : Dev nD) : Nat :=
  let c0_i32_573 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_572 : BitVec 32 := 2#32
  let v635 : BitVec 32 := Scalar.muli v7 c2_i32_572
  let v636 : BitVec 32 := Scalar.addi c0_i32_573 v635
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_574 : BitVec 32 := 1#32
  let v637 : BitVec 32 := Scalar.muli v5 c1_i32_574
  let v638 : BitVec 32 := Scalar.addi v636 v637
  v638.toNat
def k0_dev31 (d0 : Dev nD) : Nat :=
  let c0_i32_614 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_613 : BitVec 32 := 2#32
  let v682 : BitVec 32 := Scalar.muli v7 c2_i32_613
  let v683 : BitVec 32 := Scalar.addi c0_i32_614 v682
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_615 : BitVec 32 := 1#32
  let v684 : BitVec 32 := Scalar.muli v5 c1_i32_615
  let v685 : BitVec 32 := Scalar.addi v683 v684
  v685.toNat
def k0_dev32 (d0 : Dev nD) : Nat :=
  let c0_i32_639 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_638 : BitVec 32 := 2#32
  let v709 : BitVec 32 := Scalar.muli v7 c2_i32_638
  let v710 : BitVec 32 := Scalar.addi c0_i32_639 v709
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_640 : BitVec 32 := 1#32
  let v711 : BitVec 32 := Scalar.muli v5 c1_i32_640
  let v712 : BitVec 32 := Scalar.addi v710 v711
  v712.toNat
def k0_dev33 (d0 : Dev nD) : Nat :=
  let c0_i32_664 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_663 : BitVec 32 := 2#32
  let v736 : BitVec 32 := Scalar.muli v7 c2_i32_663
  let v737 : BitVec 32 := Scalar.addi c0_i32_664 v736
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_665 : BitVec 32 := 1#32
  let v738 : BitVec 32 := Scalar.muli v5 c1_i32_665
  let v739 : BitVec 32 := Scalar.addi v737 v738
  v739.toNat
def k0_dev34 (d0 : Dev nD) : Nat :=
  let c0_i32_689 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_688 : BitVec 32 := 2#32
  let v763 : BitVec 32 := Scalar.muli v7 c2_i32_688
  let v764 : BitVec 32 := Scalar.addi c0_i32_689 v763
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_690 : BitVec 32 := 1#32
  let v765 : BitVec 32 := Scalar.muli v5 c1_i32_690
  let v766 : BitVec 32 := Scalar.addi v764 v765
  v766.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

class Facts₀ : Prop where
  inb_S8_S1_0 : ∀ a, (![0] : Fin 1 → Nat) a + S1.size a ≤ S8.size a
  squeezes_S1_S_ : S1.Squeezes S_
  inb_S1024x4096_S1024x512_0_0 : ∀ a, (![0, 0] : Fin 2 → Nat) a + S1024x512.size a ≤ S1024x4096.size a
  inb_S8_S1_4 : ∀ a, (![4] : Fin 1 → Nat) a + S1.size a ≤ S8.size a
  inb_S1024x4096_S1024x512_0_2048 : ∀ a, (![0, 2048] : Fin 2 → Nat) a + S1024x512.size a ≤ S1024x4096.size a
  inb_S8_S1_1 : ∀ a, (![1] : Fin 1 → Nat) a + S1.size a ≤ S8.size a
  inb_S1024x4096_S1024x512_0_512 : ∀ a, (![0, 512] : Fin 2 → Nat) a + S1024x512.size a ≤ S1024x4096.size a
  inb_S8_S1_5 : ∀ a, (![5] : Fin 1 → Nat) a + S1.size a ≤ S8.size a
  inb_S1024x4096_S1024x512_0_2560 : ∀ a, (![0, 2560] : Fin 2 → Nat) a + S1024x512.size a ≤ S1024x4096.size a
  inb_S8_S1_2 : ∀ a, (![2] : Fin 1 → Nat) a + S1.size a ≤ S8.size a
  inb_S1024x4096_S1024x512_0_1024 : ∀ a, (![0, 1024] : Fin 2 → Nat) a + S1024x512.size a ≤ S1024x4096.size a
  inb_S8_S1_6 : ∀ a, (![6] : Fin 1 → Nat) a + S1.size a ≤ S8.size a
  inb_S1024x4096_S1024x512_0_3072 : ∀ a, (![0, 3072] : Fin 2 → Nat) a + S1024x512.size a ≤ S1024x4096.size a
  inb_S8_S1_3 : ∀ a, (![3] : Fin 1 → Nat) a + S1.size a ≤ S8.size a
  inb_S1024x4096_S1024x512_0_1536 : ∀ a, (![0, 1536] : Fin 2 → Nat) a + S1024x512.size a ≤ S1024x4096.size a
  inb_S8_S1_7 : ∀ a, (![7] : Fin 1 → Nat) a + S1.size a ≤ S8.size a
  inb_S1024x4096_S1024x512_0_3584 : ∀ a, (![0, 3584] : Fin 2 → Nat) a + S1024x512.size a ≤ S1024x4096.size a
  hamt_1 : (1#32 : BitVec 32).msb = false
  hamt_2 : (2#32 : BitVec 32).msb = false
  inb_S1024x1024_S1024x512_0_0 : ∀ a, (![0, 0] : Fin 2 → Nat) a + S1024x512.size a ≤ S1024x1024.size a
  h_S1024x512 : 0 < S1024x512.numel
  shapeCasts_S1024x512_S1024x512 : S1024x512.ShapeCasts S1024x512
  inb_S1024x1024_S1024x512_0_512 : ∀ a, (![0, 512] : Fin 2 → Nat) a + S1024x512.size a ≤ S1024x1024.size a
  bitsLt_bf16_f32 : FTy.bits .bf16 < FTy.bits .f32
  slices_S512x512_o0_0_S512x128 : S512x512.Slices ![0, 0] S512x128
  inb_S16x512x128_S1x512x128_0_0_0 : ∀ a, (![0, 0, 0] : Fin 3 → Nat) a + S1x512x128.size a ≤ S16x512x128.size a
  h_S1x512x128 : 0 < S1x512x128.numel
  shapeCasts_S1x512x128_S512x128 : S1x512x128.ShapeCasts S512x128
  shapeCasts_S512x128_S1x512x128 : S512x128.ShapeCasts S1x512x128
  packedbf16_S16x512x128_S1x512x128_0_0_0 : (Rect.unit (s := S16x512x128) ![0, 0, 0] S1x512x128.size inb_S16x512x128_S1x512x128_0_0_0).PackedRows (EltTy.packing .bf16)
  slices_S512x512_o0_128_S512x128 : S512x512.Slices ![0, 128] S512x128
  inb_S16x512x128_S1x512x128_1_0_0 : ∀ a, (![1, 0, 0] : Fin 3 → Nat) a + S1x512x128.size a ≤ S16x512x128.size a
  packedbf16_S16x512x128_S1x512x128_1_0_0 : (Rect.unit (s := S16x512x128) ![1, 0, 0] S1x512x128.size inb_S16x512x128_S1x512x128_1_0_0).PackedRows (EltTy.packing .bf16)
  slices_S512x512_o0_256_S512x128 : S512x512.Slices ![0, 256] S512x128
  inb_S16x512x128_S1x512x128_2_0_0 : ∀ a, (![2, 0, 0] : Fin 3 → Nat) a + S1x512x128.size a ≤ S16x512x128.size a
  packedbf16_S16x512x128_S1x512x128_2_0_0 : (Rect.unit (s := S16x512x128) ![2, 0, 0] S1x512x128.size inb_S16x512x128_S1x512x128_2_0_0).PackedRows (EltTy.packing .bf16)
  slices_S512x512_o0_384_S512x128 : S512x512.Slices ![0, 384] S512x128
  inb_S16x512x128_S1x512x128_3_0_0 : ∀ a, (![3, 0, 0] : Fin 3 → Nat) a + S1x512x128.size a ≤ S16x512x128.size a
  packedbf16_S16x512x128_S1x512x128_3_0_0 : (Rect.unit (s := S16x512x128) ![3, 0, 0] S1x512x128.size inb_S16x512x128_S1x512x128_3_0_0).PackedRows (EltTy.packing .bf16)
  inb_S16_S1_0 : ∀ a, (![0] : Fin 1 → Nat) a + S1.size a ≤ S16.size a
  squeezes_S1x512x128_S512x128 : S1x512x128.Squeezes S512x128
  wordsbf16_S16x512x128_S1x512x128_0_0_0 : (Rect.unit (s := S16x512x128) ![0, 0, 0] S1x512x128.size inb_S16x512x128_S1x512x128_0_0_0).WholeWords (EltTy.packing .bf16)
  inb_S16_S1_1 : ∀ a, (![1] : Fin 1 → Nat) a + S1.size a ≤ S16.size a
  wordsbf16_S16x512x128_S1x512x128_1_0_0 : (Rect.unit (s := S16x512x128) ![1, 0, 0] S1x512x128.size inb_S16x512x128_S1x512x128_1_0_0).WholeWords (EltTy.packing .bf16)
  inb_S16_S1_2 : ∀ a, (![2] : Fin 1 → Nat) a + S1.size a ≤ S16.size a
  wordsbf16_S16x512x128_S1x512x128_2_0_0 : (Rect.unit (s := S16x512x128) ![2, 0, 0] S1x512x128.size inb_S16x512x128_S1x512x128_2_0_0).WholeWords (EltTy.packing .bf16)
  inb_S16_S1_3 : ∀ a, (![3] : Fin 1 → Nat) a + S1.size a ≤ S16.size a
  wordsbf16_S16x512x128_S1x512x128_3_0_0 : (Rect.unit (s := S16x512x128) ![3, 0, 0] S1x512x128.size inb_S16x512x128_S1x512x128_3_0_0).WholeWords (EltTy.packing .bf16)
  inb_S16x512x128_S1x512x128_4_0_0 : ∀ a, (![4, 0, 0] : Fin 3 → Nat) a + S1x512x128.size a ≤ S16x512x128.size a
  packedbf16_S16x512x128_S1x512x128_4_0_0 : (Rect.unit (s := S16x512x128) ![4, 0, 0] S1x512x128.size inb_S16x512x128_S1x512x128_4_0_0).PackedRows (EltTy.packing .bf16)
  inb_S16x512x128_S1x512x128_5_0_0 : ∀ a, (![5, 0, 0] : Fin 3 → Nat) a + S1x512x128.size a ≤ S16x512x128.size a
  packedbf16_S16x512x128_S1x512x128_5_0_0 : (Rect.unit (s := S16x512x128) ![5, 0, 0] S1x512x128.size inb_S16x512x128_S1x512x128_5_0_0).PackedRows (EltTy.packing .bf16)
  inb_S16x512x128_S1x512x128_6_0_0 : ∀ a, (![6, 0, 0] : Fin 3 → Nat) a + S1x512x128.size a ≤ S16x512x128.size a
  packedbf16_S16x512x128_S1x512x128_6_0_0 : (Rect.unit (s := S16x512x128) ![6, 0, 0] S1x512x128.size inb_S16x512x128_S1x512x128_6_0_0).PackedRows (EltTy.packing .bf16)
  inb_S16x512x128_S1x512x128_7_0_0 : ∀ a, (![7, 0, 0] : Fin 3 → Nat) a + S1x512x128.size a ≤ S16x512x128.size a
  packedbf16_S16x512x128_S1x512x128_7_0_0 : (Rect.unit (s := S16x512x128) ![7, 0, 0] S1x512x128.size inb_S16x512x128_S1x512x128_7_0_0).PackedRows (EltTy.packing .bf16)
  inb_S16_S1_4 : ∀ a, (![4] : Fin 1 → Nat) a + S1.size a ≤ S16.size a
  wordsbf16_S16x512x128_S1x512x128_4_0_0 : (Rect.unit (s := S16x512x128) ![4, 0, 0] S1x512x128.size inb_S16x512x128_S1x512x128_4_0_0).WholeWords (EltTy.packing .bf16)
  inb_S16_S1_5 : ∀ a, (![5] : Fin 1 → Nat) a + S1.size a ≤ S16.size a
  wordsbf16_S16x512x128_S1x512x128_5_0_0 : (Rect.unit (s := S16x512x128) ![5, 0, 0] S1x512x128.size inb_S16x512x128_S1x512x128_5_0_0).WholeWords (EltTy.packing .bf16)
  inb_S16_S1_6 : ∀ a, (![6] : Fin 1 → Nat) a + S1.size a ≤ S16.size a
  wordsbf16_S16x512x128_S1x512x128_6_0_0 : (Rect.unit (s := S16x512x128) ![6, 0, 0] S1x512x128.size inb_S16x512x128_S1x512x128_6_0_0).WholeWords (EltTy.packing .bf16)
  inb_S16_S1_7 : ∀ a, (![7] : Fin 1 → Nat) a + S1.size a ≤ S16.size a
  wordsbf16_S16x512x128_S1x512x128_7_0_0 : (Rect.unit (s := S16x512x128) ![7, 0, 0] S1x512x128.size inb_S16x512x128_S1x512x128_7_0_0).WholeWords (EltTy.packing .bf16)
  inb_S16x512x128_S1x512x128_8_0_0 : ∀ a, (![8, 0, 0] : Fin 3 → Nat) a + S1x512x128.size a ≤ S16x512x128.size a
  packedbf16_S16x512x128_S1x512x128_8_0_0 : (Rect.unit (s := S16x512x128) ![8, 0, 0] S1x512x128.size inb_S16x512x128_S1x512x128_8_0_0).PackedRows (EltTy.packing .bf16)
  inb_S16x512x128_S1x512x128_9_0_0 : ∀ a, (![9, 0, 0] : Fin 3 → Nat) a + S1x512x128.size a ≤ S16x512x128.size a
  packedbf16_S16x512x128_S1x512x128_9_0_0 : (Rect.unit (s := S16x512x128) ![9, 0, 0] S1x512x128.size inb_S16x512x128_S1x512x128_9_0_0).PackedRows (EltTy.packing .bf16)
  inb_S16x512x128_S1x512x128_10_0_0 : ∀ a, (![10, 0, 0] : Fin 3 → Nat) a + S1x512x128.size a ≤ S16x512x128.size a
  packedbf16_S16x512x128_S1x512x128_10_0_0 : (Rect.unit (s := S16x512x128) ![10, 0, 0] S1x512x128.size inb_S16x512x128_S1x512x128_10_0_0).PackedRows (EltTy.packing .bf16)
  inb_S16x512x128_S1x512x128_11_0_0 : ∀ a, (![11, 0, 0] : Fin 3 → Nat) a + S1x512x128.size a ≤ S16x512x128.size a
  packedbf16_S16x512x128_S1x512x128_11_0_0 : (Rect.unit (s := S16x512x128) ![11, 0, 0] S1x512x128.size inb_S16x512x128_S1x512x128_11_0_0).PackedRows (EltTy.packing .bf16)
  inb_S16_S1_8 : ∀ a, (![8] : Fin 1 → Nat) a + S1.size a ≤ S16.size a
  wordsbf16_S16x512x128_S1x512x128_8_0_0 : (Rect.unit (s := S16x512x128) ![8, 0, 0] S1x512x128.size inb_S16x512x128_S1x512x128_8_0_0).WholeWords (EltTy.packing .bf16)
  inb_S16_S1_9 : ∀ a, (![9] : Fin 1 → Nat) a + S1.size a ≤ S16.size a
  wordsbf16_S16x512x128_S1x512x128_9_0_0 : (Rect.unit (s := S16x512x128) ![9, 0, 0] S1x512x128.size inb_S16x512x128_S1x512x128_9_0_0).WholeWords (EltTy.packing .bf16)
  inb_S16_S1_10 : ∀ a, (![10] : Fin 1 → Nat) a + S1.size a ≤ S16.size a
  wordsbf16_S16x512x128_S1x512x128_10_0_0 : (Rect.unit (s := S16x512x128) ![10, 0, 0] S1x512x128.size inb_S16x512x128_S1x512x128_10_0_0).WholeWords (EltTy.packing .bf16)
  inb_S16_S1_11 : ∀ a, (![11] : Fin 1 → Nat) a + S1.size a ≤ S16.size a
  wordsbf16_S16x512x128_S1x512x128_11_0_0 : (Rect.unit (s := S16x512x128) ![11, 0, 0] S1x512x128.size inb_S16x512x128_S1x512x128_11_0_0).WholeWords (EltTy.packing .bf16)
  inb_S16x512x128_S1x512x128_12_0_0 : ∀ a, (![12, 0, 0] : Fin 3 → Nat) a + S1x512x128.size a ≤ S16x512x128.size a
  packedbf16_S16x512x128_S1x512x128_12_0_0 : (Rect.unit (s := S16x512x128) ![12, 0, 0] S1x512x128.size inb_S16x512x128_S1x512x128_12_0_0).PackedRows (EltTy.packing .bf16)
  inb_S16x512x128_S1x512x128_13_0_0 : ∀ a, (![13, 0, 0] : Fin 3 → Nat) a + S1x512x128.size a ≤ S16x512x128.size a
  packedbf16_S16x512x128_S1x512x128_13_0_0 : (Rect.unit (s := S16x512x128) ![13, 0, 0] S1x512x128.size inb_S16x512x128_S1x512x128_13_0_0).PackedRows (EltTy.packing .bf16)
  inb_S16x512x128_S1x512x128_14_0_0 : ∀ a, (![14, 0, 0] : Fin 3 → Nat) a + S1x512x128.size a ≤ S16x512x128.size a
  packedbf16_S16x512x128_S1x512x128_14_0_0 : (Rect.unit (s := S16x512x128) ![14, 0, 0] S1x512x128.size inb_S16x512x128_S1x512x128_14_0_0).PackedRows (EltTy.packing .bf16)
  inb_S16x512x128_S1x512x128_15_0_0 : ∀ a, (![15, 0, 0] : Fin 3 → Nat) a + S1x512x128.size a ≤ S16x512x128.size a
  packedbf16_S16x512x128_S1x512x128_15_0_0 : (Rect.unit (s := S16x512x128) ![15, 0, 0] S1x512x128.size inb_S16x512x128_S1x512x128_15_0_0).PackedRows (EltTy.packing .bf16)
  inb_S16_S1_12 : ∀ a, (![12] : Fin 1 → Nat) a + S1.size a ≤ S16.size a
  wordsbf16_S16x512x128_S1x512x128_12_0_0 : (Rect.unit (s := S16x512x128) ![12, 0, 0] S1x512x128.size inb_S16x512x128_S1x512x128_12_0_0).WholeWords (EltTy.packing .bf16)
  inb_S16_S1_13 : ∀ a, (![13] : Fin 1 → Nat) a + S1.size a ≤ S16.size a
  wordsbf16_S16x512x128_S1x512x128_13_0_0 : (Rect.unit (s := S16x512x128) ![13, 0, 0] S1x512x128.size inb_S16x512x128_S1x512x128_13_0_0).WholeWords (EltTy.packing .bf16)
  inb_S16_S1_14 : ∀ a, (![14] : Fin 1 → Nat) a + S1.size a ≤ S16.size a
  wordsbf16_S16x512x128_S1x512x128_14_0_0 : (Rect.unit (s := S16x512x128) ![14, 0, 0] S1x512x128.size inb_S16x512x128_S1x512x128_14_0_0).WholeWords (EltTy.packing .bf16)
  inb_S16_S1_15 : ∀ a, (![15] : Fin 1 → Nat) a + S1.size a ≤ S16.size a
  wordsbf16_S16x512x128_S1x512x128_15_0_0 : (Rect.unit (s := S16x512x128) ![15, 0, 0] S1x512x128.size inb_S16x512x128_S1x512x128_15_0_0).WholeWords (EltTy.packing .bf16)
  inb_S512x4096_S512x512_0_0 : ∀ a, (![0, 0] : Fin 2 → Nat) a + S512x512.size a ≤ S512x4096.size a
  h_S512x512 : 0 < S512x512.numel
  shapeCasts_S512x512_S512x512 : S512x512.ShapeCasts S512x512
  inb_S512x4096_S512x512_0_2048 : ∀ a, (![0, 2048] : Fin 2 → Nat) a + S512x512.size a ≤ S512x4096.size a
  inb_S512x4096_S512x128_0_0 : ∀ a, (![0, 0] : Fin 2 → Nat) a + S512x128.size a ≤ S512x4096.size a
  h_S512x128 : 0 < S512x128.numel
  shapeCasts_S512x128_S512x128 : S512x128.ShapeCasts S512x128
  inb_S512x4096_S512x128_0_2048 : ∀ a, (![0, 2048] : Fin 2 → Nat) a + S512x128.size a ≤ S512x4096.size a
  inb_S512x4096_S512x128_0_128 : ∀ a, (![0, 128] : Fin 2 → Nat) a + S512x128.size a ≤ S512x4096.size a
  inb_S512x4096_S512x128_0_2176 : ∀ a, (![0, 2176] : Fin 2 → Nat) a + S512x128.size a ≤ S512x4096.size a
  inb_S512x4096_S512x128_0_256 : ∀ a, (![0, 256] : Fin 2 → Nat) a + S512x128.size a ≤ S512x4096.size a
  inb_S512x4096_S512x128_0_2304 : ∀ a, (![0, 2304] : Fin 2 → Nat) a + S512x128.size a ≤ S512x4096.size a
  inb_S512x4096_S512x128_0_384 : ∀ a, (![0, 384] : Fin 2 → Nat) a + S512x128.size a ≤ S512x4096.size a
  inb_S512x4096_S512x128_0_2432 : ∀ a, (![0, 2432] : Fin 2 → Nat) a + S512x128.size a ≤ S512x4096.size a
  inb_S512x4096_S512x512_0_512 : ∀ a, (![0, 512] : Fin 2 → Nat) a + S512x512.size a ≤ S512x4096.size a
  inb_S512x4096_S512x512_0_2560 : ∀ a, (![0, 2560] : Fin 2 → Nat) a + S512x512.size a ≤ S512x4096.size a
  inb_S512x4096_S512x128_0_512 : ∀ a, (![0, 512] : Fin 2 → Nat) a + S512x128.size a ≤ S512x4096.size a
  inb_S512x4096_S512x128_0_2560 : ∀ a, (![0, 2560] : Fin 2 → Nat) a + S512x128.size a ≤ S512x4096.size a
  inb_S512x4096_S512x128_0_640 : ∀ a, (![0, 640] : Fin 2 → Nat) a + S512x128.size a ≤ S512x4096.size a
  inb_S512x4096_S512x128_0_2688 : ∀ a, (![0, 2688] : Fin 2 → Nat) a + S512x128.size a ≤ S512x4096.size a
  inb_S512x4096_S512x128_0_768 : ∀ a, (![0, 768] : Fin 2 → Nat) a + S512x128.size a ≤ S512x4096.size a
  inb_S512x4096_S512x128_0_2816 : ∀ a, (![0, 2816] : Fin 2 → Nat) a + S512x128.size a ≤ S512x4096.size a
  inb_S512x4096_S512x128_0_896 : ∀ a, (![0, 896] : Fin 2 → Nat) a + S512x128.size a ≤ S512x4096.size a
  inb_S512x4096_S512x128_0_2944 : ∀ a, (![0, 2944] : Fin 2 → Nat) a + S512x128.size a ≤ S512x4096.size a
  inb_S512x4096_S512x512_0_1024 : ∀ a, (![0, 1024] : Fin 2 → Nat) a + S512x512.size a ≤ S512x4096.size a
  inb_S512x4096_S512x512_0_3072 : ∀ a, (![0, 3072] : Fin 2 → Nat) a + S512x512.size a ≤ S512x4096.size a
  inb_S512x4096_S512x128_0_1024 : ∀ a, (![0, 1024] : Fin 2 → Nat) a + S512x128.size a ≤ S512x4096.size a
  inb_S512x4096_S512x128_0_3072 : ∀ a, (![0, 3072] : Fin 2 → Nat) a + S512x128.size a ≤ S512x4096.size a
  inb_S512x4096_S512x128_0_1152 : ∀ a, (![0, 1152] : Fin 2 → Nat) a + S512x128.size a ≤ S512x4096.size a
  inb_S512x4096_S512x128_0_3200 : ∀ a, (![0, 3200] : Fin 2 → Nat) a + S512x128.size a ≤ S512x4096.size a
  inb_S512x4096_S512x128_0_1280 : ∀ a, (![0, 1280] : Fin 2 → Nat) a + S512x128.size a ≤ S512x4096.size a
  inb_S512x4096_S512x128_0_3328 : ∀ a, (![0, 3328] : Fin 2 → Nat) a + S512x128.size a ≤ S512x4096.size a
  inb_S512x4096_S512x128_0_1408 : ∀ a, (![0, 1408] : Fin 2 → Nat) a + S512x128.size a ≤ S512x4096.size a
  inb_S512x4096_S512x128_0_3456 : ∀ a, (![0, 3456] : Fin 2 → Nat) a + S512x128.size a ≤ S512x4096.size a
  inb_S512x4096_S512x512_0_1536 : ∀ a, (![0, 1536] : Fin 2 → Nat) a + S512x512.size a ≤ S512x4096.size a
  inb_S512x4096_S512x512_0_3584 : ∀ a, (![0, 3584] : Fin 2 → Nat) a + S512x512.size a ≤ S512x4096.size a
  inb_S512x4096_S512x128_0_1536 : ∀ a, (![0, 1536] : Fin 2 → Nat) a + S512x128.size a ≤ S512x4096.size a
  inb_S512x4096_S512x128_0_3584 : ∀ a, (![0, 3584] : Fin 2 → Nat) a + S512x128.size a ≤ S512x4096.size a
  inb_S512x4096_S512x128_0_1664 : ∀ a, (![0, 1664] : Fin 2 → Nat) a + S512x128.size a ≤ S512x4096.size a
  inb_S512x4096_S512x128_0_3712 : ∀ a, (![0, 3712] : Fin 2 → Nat) a + S512x128.size a ≤ S512x4096.size a
  inb_S512x4096_S512x128_0_1792 : ∀ a, (![0, 1792] : Fin 2 → Nat) a + S512x128.size a ≤ S512x4096.size a
  inb_S512x4096_S512x128_0_3840 : ∀ a, (![0, 3840] : Fin 2 → Nat) a + S512x128.size a ≤ S512x4096.size a
  inb_S512x4096_S512x128_0_1920 : ∀ a, (![0, 1920] : Fin 2 → Nat) a + S512x128.size a ≤ S512x4096.size a
  inb_S512x4096_S512x128_0_3968 : ∀ a, (![0, 3968] : Fin 2 → Nat) a + S512x128.size a ≤ S512x4096.size a
  dot_S1024x512_S1024x512_S512x512_0_0_1_1_n_n_wf : DotDims.WF S1024x512 S1024x512 S512x512 [0] [0] [1] [1] [] []
  hcc0_scratch5 : 1 + S8.numel ≤ 81
  hcc0_scratch6 : 9 + S8.numel ≤ 81
  hcc0_scratch7 : 17 + S16.numel ≤ 81
  hcc0_scratch8 : 33 + S16.numel ≤ 81
  hcc0_scratch9 : 49 + S16.numel ≤ 81
  hcc0_scratch10 : 65 + S16.numel ≤ 81
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  hstage0_0 : ∀ j, (stage0_0 j).IsWhole

variable [Facts₀]

abbrev cc0_scratch5 : DmaSems sig S8 := SemArray.consecutive 1 S8 hcc0_scratch5
abbrev cc0_scratch6 : DmaSems sig S8 := SemArray.consecutive 9 S8 hcc0_scratch6
abbrev cc0_scratch7 : DmaSems sig S16 := SemArray.consecutive 17 S16 hcc0_scratch7
abbrev cc0_scratch8 : DmaSems sig S16 := SemArray.consecutive 33 S16 hcc0_scratch8
abbrev cc0_scratch9 : DmaSems sig S16 := SemArray.consecutive 49 S16 hcc0_scratch9
abbrev cc0_scratch10 : DmaSems sig S16 := SemArray.consecutive 65 S16 hcc0_scratch10
def dot_S1024x512_S1024x512_S512x512_0_0_1_1_n_n : DotDims S1024x512 S1024x512 S512x512 where
  lhsContracting := [0]
  rhsContracting := [0]
  lhsNonContracting := [1]
  rhsNonContracting := [1]
  lhsBatch := []
  rhsBatch := []
  wf := dot_S1024x512_S1024x512_S512x512_0_0_1_1_n_n_wf

abbrev win0_0 : Pipeline.Window sig grid0 :=
  Pipeline.Window.whole (Memref.whole main_arg0) false false (stage0_0 0) (sem0_0 0) (Memref.isWhole_whole _) (hstage0_0 0)

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S2048x1024 : Shape := ⟨2, ![2048, 1024]⟩
abbrev S2048x4096 : Shape := ⟨2, ![2048, 4096]⟩
abbrev S1024x2048 : Shape := ⟨2, ![1024, 2048]⟩
abbrev S1024x4096 : Shape := ⟨2, ![1024, 4096]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S1024x2048, .f32⟩
  | .hbm, ⟨3, _⟩ => ⟨S1024x4096, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  transposes_S2048x1024_S1024x2048_1_0 : S2048x1024.Transposes [1, 0] S1024x2048
  dot_S1024x2048_S2048x4096_S1024x4096_1_0_0_1_n_n_wf : DotDims.WF S1024x2048 S2048x4096 S1024x4096 [1] [0] [0] [1] [] []

variable [Facts₀]

def dot_S1024x2048_S2048x4096_S1024x4096_1_0_0_1_n_n : DotDims S1024x2048 S2048x4096 S1024x4096 where
  lhsContracting := [1]
  rhsContracting := [0]
  lhsNonContracting := [0]
  rhsNonContracting := [1]
  lhsBatch := []
  rhsBatch := []
  wf := dot_S1024x2048_S2048x4096_S1024x4096_1_0_0_1_n_n_wf

class Facts : Prop extends Facts₀ where

variable [Facts]
-- ==== Proof.Spec.lean ====
import Idealize.ShloMosaic.Lib.Layout
import Idealize.ShloMosaic.Lib.ValueIdx
import Idealize.ShloMosaic.PureOps.Ideal

/-! The result as a function of the argument blocks.

The whole result is the product of the transpose of `x` (2048 × 1024) with `dy` (2048 × 4096): entry `(i, j)` is the sum over
the 2048 rows `k` of `x k i * dy k j`. The rows `k` are cut in two halves of 1024 along the second mesh axis, and so are the result's
rows `i` (two halves of 512). A device whose second mesh coordinate is `y` ends with rows `512 y …  512 y + 511` of the result:
its own half of the sum over `k` plus the other half, which its neighbour along that axis computes from its own blocks. -/

noncomputable section

open scoped BigOperators

namespace Cert.Spec

open Idealize.ShloMosaic Idealize.ShloMosaic.ValueIdx

/-- Rows `512 y + r` (`r < 512`) of the product of the transposed block `X` (1024 × 1024) with the block `DY` (1024 × 4096):
    one device's share of the sum over the contracted rows. -/
def part (y : Fin 2) (X : (⟨2, ![1024, 1024]⟩ : Shape).Idx → EReal) (DY : (⟨2, ![1024, 4096]⟩ : Shape).Idx → EReal) :
    (⟨2, ![512, 4096]⟩ : Shape).Idx → EReal :=
  fun i => ∑ k : Fin 1024, X (ix2 k (⟨512 * y.val + (i 0).val, by have := (i 0).isLt; have := y.isLt; simp at *; omega⟩ : Fin 1024)) * DY (ix2 k (i 1))

/-- What a device at second mesh coordinate `y` ends with: its own share plus its neighbour's along that axis. -/
def kernOut (y : Fin 2) (Xc : (⟨2, ![1024, 1024]⟩ : Shape).Idx → EReal) (DYc : (⟨2, ![1024, 4096]⟩ : Shape).Idx → EReal)
    (Xn : (⟨2, ![1024, 1024]⟩ : Shape).Idx → EReal) (DYn : (⟨2, ![1024, 4096]⟩ : Shape).Idx → EReal) :
    (⟨2, ![512, 4096]⟩ : Shape).Idx → EReal :=
  fun i => part y Xc DYc i + part y Xn DYn i

/-- The same, told apart by where the other share comes from: a device at first mesh coordinate `xh` gets the columns of the half
    `(column / 2048 = xh)` straight from its neighbour along the second axis (blocks `Xn`, `DYn`) and the other half forwarded by its
    neighbour along the first axis, which got it from ITS neighbour along the second axis (blocks `Xf`, `DYf`). -/
def kernOut2 (xh : ℕ) (y : Fin 2) (Xc : (⟨2, ![1024, 1024]⟩ : Shape).Idx → EReal) (DYc : (⟨2, ![1024, 4096]⟩ : Shape).Idx → EReal)
    (Xn : (⟨2, ![1024, 1024]⟩ : Shape).Idx → EReal) (DYn : (⟨2, ![1024, 4096]⟩ : Shape).Idx → EReal)
    (Xf : (⟨2, ![1024, 1024]⟩ : Shape).Idx → EReal) (DYf : (⟨2, ![1024, 4096]⟩ : Shape).Idx → EReal) :
    (⟨2, ![512, 4096]⟩ : Shape).Idx → EReal :=
  fun i => part y Xc DYc i + (if (i 1).val / 2048 = xh then part y Xn DYn i else part y Xf DYf i)

/-- Where both sources hold the same blocks (the arrays are cut along the second mesh axis only) the two descriptions agree. -/
theorem kernOut2_same (xh : ℕ) (y : Fin 2) (Xc : (⟨2, ![1024, 1024]⟩ : Shape).Idx → EReal) (DYc : (⟨2, ![1024, 4096]⟩ : Shape).Idx → EReal)
    (Xn : (⟨2, ![1024, 1024]⟩ : Shape).Idx → EReal) (DYn : (⟨2, ![1024, 4096]⟩ : Shape).Idx → EReal) :
    kernOut2 xh y Xc DYc Xn DYn Xn DYn = kernOut y Xc DYc Xn DYn := by
  funext i; unfold kernOut2 kernOut; rw [ite_self]

/-- The whole result: the transposed `X` (2048 × 1024) times `DY` (2048 × 4096). -/
def refOut (X : (⟨2, ![2048, 1024]⟩ : Shape).Idx → EReal) (DY : (⟨2, ![2048, 4096]⟩ : Shape).Idx → EReal) :
    (⟨2, ![1024, 4096]⟩ : Shape).Idx → EReal :=
  fun i => ∑ k : Fin 2048, X (ix2 k (i 0)) * DY (ix2 k (i 1))

end Cert.Spec

end
-- ==== Proof.RefValue.lean ====
import proofs.«901046_g7700000000001047_dist_rsdw_v7x_xy2x2_y_m1024_d1024_f4096_f32_1_alg».proof.Proof.Gen.ReferenceIdeal.Read
import proofs.«901046_g7700000000001047_dist_rsdw_v7x_xy2x2_y_m1024_d1024_f4096_f32_1_alg».proof.Proof.Spec
import proofs.«901046_g7700000000001047_dist_rsdw_v7x_xy2x2_y_m1024_d1024_f4096_f32_1_alg».proof.Defs
import proofs.«901046_g7700000000001047_dist_rsdw_v7x_xy2x2_y_m1024_d1024_f4096_f32_1_alg».proof.Proof.Gen.Pre_finite_inputs_ReferenceIdeal
import Idealize.ShloMosaic.Lib.ValueIdx
import Idealize.ShloMosaic.Lib.Layout
import Idealize.ShloMosaic.PureOps.Ideal.Laws
import Mathlib.Algebra.BigOperators.Fin

/-! The one-device program computes the whole product.

Its first operation transposes `x`, its second contracts the transposed array's second axis with the first axis of `dy`:
entry `(i, j)` of the result is the sum over the 2048 rows `k` of `x k i * dy k j`, which is `Cert.Spec.refOut`. -/

noncomputable section

open scoped BigOperators

namespace Cert.RefValue

open Idealize.ShloMosaic Idealize.ShloMosaic.TcCoe Idealize.SL.Sem Idealize.ShloMosaic.ValueIdx
open Cert.ReferenceIdeal Cert.ReferenceIdeal.Gen

/-- The transposed array at `(i, k)` is `x` at `(k, i)`. -/
theorem lhs_idx (i : S1024x4096.Idx) (k : Fin 2048) :
    Read.idx_main_v0 (Read.lidx_main_v1 i k) = ix2 k (i 0) :=
  funext fun a => Fin.ext (by
    match a with
    | ⟨0, _⟩ => rfl
    | ⟨1, _⟩ => rfl)

/-- The right operand is read at `(k, j)`. -/
theorem rhs_idx (i : S1024x4096.Idx) (k : Fin 2048) :
    Read.ridx_main_v1 i k = ix2 k (i 1) :=
  funext fun a => Fin.ext (by
    match a with
    | ⟨0, _⟩ => rfl
    | ⟨1, _⟩ => rfl)

/-- The program's result, as a function of its two arguments, is the product of the transposed `x` with `dy`. -/
theorem val_eq_refOut (x0 : (⟨S2048x1024, .f32⟩ : BufTy).Contents (Elt Ideal)) (x1 : (⟨S2048x4096, .f32⟩ : BufTy).Contents (Elt Ideal)) :
    Read.val_main_v1 (F := Ideal) x0 x1 = Cert.Spec.refOut x0 x1 := by
  funext i
  rw [Read.val_main_v1_apply]
  unfold Cert.Spec.refOut
  refine Finset.sum_congr rfl fun k _ => ?_
  rw [Read.val_main_v0_apply, lhs_idx, rhs_idx]
  rfl

/-- Every weakly fair execution of the one-device program terminates with its result holding the whole product of its
    two arguments, and the arguments unchanged. -/
theorem ref_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v1)
        = Cert.Spec.refOut (m' (((0 : Dev Cert.ReferenceIdeal.nD).tc : Thread Cert.ReferenceIdeal.nD Cert.ReferenceIdeal.τ).loc Cert.ReferenceIdeal.main_arg0))
            (m' (((0 : Dev Cert.ReferenceIdeal.nD).tc : Thread Cert.ReferenceIdeal.nD Cert.ReferenceIdeal.τ).loc Cert.ReferenceIdeal.main_arg1))
      ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
      ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) :=
  (θ_run Cert.ReferenceIdeal.defs _ _).mono
    (fun _ h => ⟨(h 0).1.trans ((Read.val_main_v1_eq _ _).trans (val_eq_refOut _ _)), (h 0).2⟩)
    (Cert.ReferenceIdeal.Value.run (F := Ideal) m' g')

/-- The one-device program terminates and leaves its arguments as they were: its run with the result dropped. -/
theorem frame_ref : Cert.frame_ReferenceIdeal (hReferenceIdeal := Cert.ReferenceIdeal.Gen.facts)
    (hPre_finite_inputs_ReferenceIdeal := Cert.Pre_finite_inputs_ReferenceIdeal.Gen.facts) := fun m ρ _ =>
  (θ_run Cert.ReferenceIdeal.defs _ _).mono (fun _ h c => (h c).2) (Cert.ReferenceIdeal.Value.run (F := Ideal) m ρ)

/-! ## Each device's rows of the whole product

The sum over the 2048 contracted rows splits into the rows `k < 1024` and the rows `k ≥ 1024`: the two blocks of `x` and `dy` along the
second mesh axis. A device holds one of the blocks and its neighbour along that axis the other, so the rows of the product a
device ends with are its own share plus its neighbour's. -/

/-- A sum over 2048 rows is the sum over the first 1024 plus the sum over the last 1024. -/
theorem sum_two_halves (f : Fin 2048 → EReal) :
    ∑ k : Fin 2048, f k
      = ∑ k : Fin 1024, f ⟨k.val, by omega⟩ + ∑ k : Fin 1024, f ⟨1024 + k.val, by omega⟩ :=
  Fin.sum_univ_add (a := 1024) (b := 1024) f

/-- The block coordinates a device of the 2 × 2 mesh has for an array whose first dimension is cut along the second mesh axis. -/
abbrev Coords : Type := (b : Fin 2) → Fin (Layout.cutSize [2, 2] ((![[1], []] : Fin 2 → List Nat) b))

/-- Entry `(k, r)` of block `j` of `x` (cut in two along its rows) is entry `(1024 j + k, r)` of `x`. -/
theorem blockX_apply (X : (⟨2, ![2048, 1024]⟩ : Shape).Idx → EReal) (j : Coords) (k r : Fin 1024) (q : Fin 2048)
    (hq : q.val = (j 0).val * 1024 + k.val) :
    (Layout.blockN ⟨2, ![1024, 1024]⟩ ⟨2, ![2048, 1024]⟩ j X) (ix2 k r) = X (ix2 q r) := by
  show X _ = X _
  congr 1
  funext a
  apply Fin.ext
  match a with
  | ⟨0, _⟩ => show (j 0).val * 1024 + k.val = q.val; omega
  | ⟨1, _⟩ =>
    have h1 : (j 1).val < 1 := (j 1).isLt
    show (j 1).val * 1024 + r.val = r.val; omega

/-- Entry `(k, l)` of block `j` of `dy` (cut in two along its rows) is entry `(1024 j + k, l)` of `dy`. -/
theorem blockDY_apply (DY : (⟨2, ![2048, 4096]⟩ : Shape).Idx → EReal) (j : Coords) (k : Fin 1024) (l : Fin 4096) (q : Fin 2048)
    (hq : q.val = (j 0).val * 1024 + k.val) :
    (Layout.blockN ⟨2, ![1024, 4096]⟩ ⟨2, ![2048, 4096]⟩ j DY) (ix2 k l) = DY (ix2 q l) := by
  show DY _ = DY _
  congr 1
  funext a
  apply Fin.ext
  match a with
  | ⟨0, _⟩ => show (j 0).val * 1024 + k.val = q.val; omega
  | ⟨1, _⟩ =>
    have h1 : (j 1).val < 1 := (j 1).isLt
    show (j 1).val * 4096 + l.val = l.val; omega

/-- The same sum with the two halves named by their first rows, in either order. -/
theorem sum_two_halves' (f : Fin 2048 → EReal) (a b : Nat) (hab : (a = 0 ∧ b = 1024) ∨ (a = 1024 ∧ b = 0)) :
    ∑ k : Fin 2048, f k
      = ∑ k : Fin 1024, f ⟨a + k.val, by omega⟩ + ∑ k : Fin 1024, f ⟨b + k.val, by omega⟩ := by
  rcases hab with ⟨rfl, rfl⟩ | ⟨rfl, rfl⟩
  · rw [sum_two_halves]
    simp only [Nat.zero_add]
  · rw [sum_two_halves, add_comm]
    simp only [Nat.zero_add]

/-- Entry `i` of block `j` of the whole result (cut in two along its rows): the sum over all 2048 rows `k`, at row
    `512 j + i 0` of the transposed `x`. -/
theorem refOut_block_apply (X : (⟨2, ![2048, 1024]⟩ : Shape).Idx → EReal) (DY : (⟨2, ![2048, 4096]⟩ : Shape).Idx → EReal) (j : Coords)
    (h : Layout.TilesN ⟨2, ![512, 4096]⟩ ⟨2, ![1024, 4096]⟩ (fun b => Layout.cutSize [2, 2] ((![[1], []] : Fin 2 → List Nat) b)))
    (i : (⟨2, ![512, 4096]⟩ : Shape).Idx) (R : Fin 1024) (hR : R.val = (j 0).val * 512 + (i 0).val) :
    Layout.blockN ⟨2, ![512, 4096]⟩ ⟨2, ![1024, 4096]⟩ j (Cert.Spec.refOut X DY) h i
      = ∑ k : Fin 2048, X (ix2 k R) * DY (ix2 k (i 1)) := by
  have e0 : h.idx j i 0 = R := Fin.ext (by show (j 0).val * 512 + (i 0).val = R.val; omega)
  have e1 : h.idx j i 1 = i 1 := Fin.ext (by
    have h1 : (j 1).val < 1 := (j 1).isLt
    show (j 1).val * 4096 + (i 1).val = (i 1).val; omega)
  show ∑ k : Fin 2048, X (ix2 k (h.idx j i 0)) * DY (ix2 k (h.idx j i 1)) = _
  rw [e0, e1]

/-- One device's share, read off the whole arrays: the rows `o … o + 1023` of the sum, `o` the first row of its blocks. -/
theorem part_eq (X : (⟨2, ![2048, 1024]⟩ : Shape).Idx → EReal) (DY : (⟨2, ![2048, 4096]⟩ : Shape).Idx → EReal) (j : Coords) (y : Fin 2)
    (i : (⟨2, ![512, 4096]⟩ : Shape).Idx) (R : Fin 1024) (hR : R.val = 512 * y.val + (i 0).val)
    (o : Nat) (ho : o = (j 0).val * 1024) (ho' : o + 1024 ≤ 2048) :
    Cert.Spec.part y (Layout.blockN ⟨2, ![1024, 1024]⟩ ⟨2, ![2048, 1024]⟩ j X) (Layout.blockN ⟨2, ![1024, 4096]⟩ ⟨2, ![2048, 4096]⟩ j DY) i
      = ∑ k : Fin 1024, X (ix2 (⟨o + k.val, by omega⟩ : Fin 2048) R) * DY (ix2 (⟨o + k.val, by omega⟩ : Fin 2048) (i 1)) := by
  unfold Cert.Spec.part
  refine Finset.sum_congr rfl fun k _ => ?_
  rw [blockX_apply X j k _ ⟨o + k.val, by omega⟩ (by show o + k.val = _; omega),
    blockDY_apply DY j k (i 1) ⟨o + k.val, by omega⟩ (by show o + k.val = _; omega)]
  have eR : (⟨512 * y.val + (i 0).val, by have := (i 0).isLt; have := y.isLt; simp at *; omega⟩ : Fin 1024) = R := Fin.ext hR.symm
  rw [eR]

/-- Rows `512 y …` of the whole product are the sum of the two shares: the one from the rows `k` of the blocks `jc`, and the one from
    the other half of the rows, the blocks `jn`. Addition of extended reals is commutative and associative, so the halves may come
    in either order and nothing need be finite. -/
theorem block_split (X : (⟨2, ![2048, 1024]⟩ : Shape).Idx → EReal) (DY : (⟨2, ![2048, 4096]⟩ : Shape).Idx → EReal) (jc jn : Coords) (y : Fin 2)
    (hc : (jc 0).val = y.val) (hn : (jn 0).val = 1 - y.val) :
    Layout.blockN ⟨2, ![512, 4096]⟩ ⟨2, ![1024, 4096]⟩ jc (Cert.Spec.refOut X DY)
      = Cert.Spec.kernOut y (Layout.blockN ⟨2, ![1024, 1024]⟩ ⟨2, ![2048, 1024]⟩ jc X) (Layout.blockN ⟨2, ![1024, 4096]⟩ ⟨2, ![2048, 4096]⟩ jc DY)
          (Layout.blockN ⟨2, ![1024, 1024]⟩ ⟨2, ![2048, 1024]⟩ jn X) (Layout.blockN ⟨2, ![1024, 4096]⟩ ⟨2, ![2048, 4096]⟩ jn DY) := by
  funext i
  have hy : y.val < 2 := y.isLt
  have h0 : (i 0).val < 512 := (i 0).isLt
  rw [refOut_block_apply X DY jc _ i ⟨512 * y.val + (i 0).val, by omega⟩ (by show 512 * y.val + (i 0).val = _; omega)]
  rw [sum_two_halves' _ ((jc 0).val * 1024) ((jn 0).val * 1024) (by omega)]
  show _ = Cert.Spec.part y _ _ i + Cert.Spec.part y _ _ i
  rw [part_eq X DY jc y i ⟨512 * y.val + (i 0).val, by omega⟩ rfl _ rfl (by omega),
    part_eq X DY jn y i ⟨512 * y.val + (i 0).val, by omega⟩ rfl _ rfl (by omega)]

/-- On the 2 × 2 mesh, device `c` (second coordinate `c % 2`) holds rows `512 (c % 2) …` of the whole product as the sum of its own
    share and that of its neighbour `n` along the second mesh axis, which holds the other half of the contracted rows. -/
theorem ref_block (X : (⟨2, ![2048, 1024]⟩ : Shape).Idx → EReal) (DY : (⟨2, ![2048, 4096]⟩ : Shape).Idx → EReal) (c n : Fin 4)
    (hn : n.val = 2 * (c.val / 2) + 1 - c.val % 2) :
    Layout.blockN ⟨2, ![512, 4096]⟩ ⟨2, ![1024, 4096]⟩ (Layout.meshBlock [2, 2] ![[1], []] c) (Cert.Spec.refOut X DY)
      = Cert.Spec.kernOut ⟨c.val % 2, Nat.mod_lt _ (by decide)⟩
          (Layout.blockN ⟨2, ![1024, 1024]⟩ ⟨2, ![2048, 1024]⟩ (Layout.meshBlock [2, 2] ![[1], []] c) X)
          (Layout.blockN ⟨2, ![1024, 4096]⟩ ⟨2, ![2048, 4096]⟩ (Layout.meshBlock [2, 2] ![[1], []] c) DY)
          (Layout.blockN ⟨2, ![1024, 1024]⟩ ⟨2, ![2048, 1024]⟩ (Layout.meshBlock [2, 2] ![[1], []] n) X)
          (Layout.blockN ⟨2, ![1024, 4096]⟩ ⟨2, ![2048, 4096]⟩ (Layout.meshBlock [2, 2] ![[1], []] n) DY) := by
  have hcv : c.val < 4 := c.isLt
  refine block_split X DY (Layout.meshBlock [2, 2] ![[1], []] c) (Layout.meshBlock [2, 2] ![[1], []] n) ⟨c.val % 2, Nat.mod_lt _ (by decide)⟩ ?_ ?_
  · show (c.val / 1) % 2 * 1 + 0 = c.val % 2
    omega
  · show (n.val / 1) % 2 * 1 + 0 = 1 - c.val % 2
    omega

end Cert.RefValue

end
-- ==== Proof.BasicK.lean ====
import proofs.«901046_g7700000000001047_dist_rsdw_v7x_xy2x2_y_m1024_d1024_f4096_f32_1_alg».proof.Proof.Gen.Kernel
import proofs.«901046_g7700000000001047_dist_rsdw_v7x_xy2x2_y_m1024_d1024_f4096_f32_1_alg».proof.Proof.Gen.Kernel.Skeleton
import proofs.«901046_g7700000000001047_dist_rsdw_v7x_xy2x2_y_m1024_d1024_f4096_f32_1_alg».proof.Proof.Gen.Kernel.Launch
import proofs.«901046_g7700000000001047_dist_rsdw_v7x_xy2x2_y_m1024_d1024_f4096_f32_1_alg».proof.Proof.Gen.Kernel.Points
import Idealize.ShloMosaic.Lib.Pipeline.Launch
import Idealize.ShloMosaic.Lib.Pipeline.Kit
import Idealize.ShloMosaic.Lib.Tactic

/-! The mesh, the cells and the buffers of the exchange.

Four devices in a 2 × 2 mesh, device `c` at coordinates `(c / 2, c % 2)`. Each device has two neighbours: the one along the second
axis (same first coordinate), with which it exchanges the partial products of the rows it does not keep, and the one along the first
axis (same second coordinate), to which it forwards what it received. Both maps are involutions. Every exchange moves one of sixteen
column chunks (512 × 128) through a slot of a sixteen-slot buffer, each slot with a semaphore of its own on each side. -/

set_option maxRecDepth 16384

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The algebra: the pipeline's rounds, the exchange's rounds (duties named by a Boolean), the local transfers' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

instance ER_landsIn : (ER : Emb UB (MT nD τ sig Unit (Elt F) ℕ UU ℕ)).LandsIn (upEmb : UEmb _ (MT nD τ sig Unit (Elt F) ℕ UU ℕ)) := by
  unfold ER embR; infer_instance

/-! ## The two neighbours -/

/-- The neighbour along the second mesh axis: `(i, j) ↦ (i, 1 - j)`. -/
def ynb (c : Dev nD) : Dev nD := ⟨2 * (c.val / 2) + 1 - c.val % 2, by have := c.isLt; revert this; generalize c.val = v; decide +revert⟩
/-- The neighbour along the first mesh axis: `(i, j) ↦ (1 - i, j)`. -/
def xnb (c : Dev nD) : Dev nD := ⟨c.val % 2 + 2 - 2 * (c.val / 2), by have := c.isLt; revert this; generalize c.val = v; decide +revert⟩

theorem ynb_ynb (c : Dev nD) : ynb (ynb c) = c := by revert c; decide
theorem xnb_xnb (c : Dev nD) : xnb (xnb c) = c := by revert c; decide
theorem ynb_ne (c : Dev nD) : ynb c ≠ c := by revert c; decide
theorem xnb_ne (c : Dev nD) : xnb c ≠ c := by revert c; decide
theorem ynb_ne_xnb (c : Dev nD) : ynb c ≠ xnb c := by revert c; decide
theorem xnb_ynb (c : Dev nD) : xnb (ynb c) = ynb (xnb c) := by revert c; decide

def ysw : Dev nD ≃ Dev nD := ⟨ynb, ynb, ynb_ynb, ynb_ynb⟩
def xsw : Dev nD ≃ Dev nD := ⟨xnb, xnb, xnb_xnb, xnb_xnb⟩

/-- The printed device chains: the first barrier signal and the sixteen chunk transfers name the neighbour along the second axis, the
    second signal and the sixteen forwards the neighbour along the first. -/
theorem dev1_eq (c : Dev nD) : (⟨k0_dev1 c, k0_dev1_lt c⟩ : Dev nD) = ynb c := Fin.ext (k0_dev1_eq c)
theorem dev2_eq (c : Dev nD) : (⟨k0_dev2 c, k0_dev2_lt c⟩ : Dev nD) = xnb c := Fin.ext (k0_dev2_eq c)
theorem dev3_eq (c : Dev nD) : (⟨k0_dev3 c, k0_dev3_lt c⟩ : Dev nD) = ynb c := Fin.ext (k0_dev3_eq c)
theorem dev4_eq (c : Dev nD) : (⟨k0_dev4 c, k0_dev4_lt c⟩ : Dev nD) = ynb c := Fin.ext (k0_dev4_eq c)
theorem dev5_eq (c : Dev nD) : (⟨k0_dev5 c, k0_dev5_lt c⟩ : Dev nD) = ynb c := Fin.ext (k0_dev5_eq c)
theorem dev6_eq (c : Dev nD) : (⟨k0_dev6 c, k0_dev6_lt c⟩ : Dev nD) = ynb c := Fin.ext (k0_dev6_eq c)
theorem dev7_eq (c : Dev nD) : (⟨k0_dev7 c, k0_dev7_lt c⟩ : Dev nD) = ynb c := Fin.ext (k0_dev7_eq c)
theorem dev8_eq (c : Dev nD) : (⟨k0_dev8 c, k0_dev8_lt c⟩ : Dev nD) = ynb c := Fin.ext (k0_dev8_eq c)
theorem dev9_eq (c : Dev nD) : (⟨k0_dev9 c, k0_dev9_lt c⟩ : Dev nD) = ynb c := Fin.ext (k0_dev9_eq c)
theorem dev10_eq (c : Dev nD) : (⟨k0_dev10 c, k0_dev10_lt c⟩ : Dev nD) = ynb c := Fin.ext (k0_dev10_eq c)
theorem dev11_eq (c : Dev nD) : (⟨k0_dev11 c, k0_dev11_lt c⟩ : Dev nD) = ynb c := Fin.ext (k0_dev11_eq c)
theorem dev12_eq (c : Dev nD) : (⟨k0_dev12 c, k0_dev12_lt c⟩ : Dev nD) = ynb c := Fin.ext (k0_dev12_eq c)
theorem dev13_eq (c : Dev nD) : (⟨k0_dev13 c, k0_dev13_lt c⟩ : Dev nD) = ynb c := Fin.ext (k0_dev13_eq c)
theorem dev14_eq (c : Dev nD) : (⟨k0_dev14 c, k0_dev14_lt c⟩ : Dev nD) = ynb c := Fin.ext (k0_dev14_eq c)
theorem dev15_eq (c : Dev nD) : (⟨k0_dev15 c, k0_dev15_lt c⟩ : Dev nD) = ynb c := Fin.ext (k0_dev15_eq c)
theorem dev16_eq (c : Dev nD) : (⟨k0_dev16 c, k0_dev16_lt c⟩ : Dev nD) = ynb c := Fin.ext (k0_dev16_eq c)
theorem dev17_eq (c : Dev nD) : (⟨k0_dev17 c, k0_dev17_lt c⟩ : Dev nD) = ynb c := Fin.ext (k0_dev17_eq c)
theorem dev18_eq (c : Dev nD) : (⟨k0_dev18 c, k0_dev18_lt c⟩ : Dev nD) = ynb c := Fin.ext (k0_dev18_eq c)
theorem dev19_eq (c : Dev nD) : (⟨k0_dev19 c, k0_dev19_lt c⟩ : Dev nD) = xnb c := Fin.ext (k0_dev19_eq c)
theorem dev20_eq (c : Dev nD) : (⟨k0_dev20 c, k0_dev20_lt c⟩ : Dev nD) = xnb c := Fin.ext (k0_dev20_eq c)
theorem dev21_eq (c : Dev nD) : (⟨k0_dev21 c, k0_dev21_lt c⟩ : Dev nD) = xnb c := Fin.ext (k0_dev21_eq c)
theorem dev22_eq (c : Dev nD) : (⟨k0_dev22 c, k0_dev22_lt c⟩ : Dev nD) = xnb c := Fin.ext (k0_dev22_eq c)
theorem dev23_eq (c : Dev nD) : (⟨k0_dev23 c, k0_dev23_lt c⟩ : Dev nD) = xnb c := Fin.ext (k0_dev23_eq c)
theorem dev24_eq (c : Dev nD) : (⟨k0_dev24 c, k0_dev24_lt c⟩ : Dev nD) = xnb c := Fin.ext (k0_dev24_eq c)
theorem dev25_eq (c : Dev nD) : (⟨k0_dev25 c, k0_dev25_lt c⟩ : Dev nD) = xnb c := Fin.ext (k0_dev25_eq c)
theorem dev26_eq (c : Dev nD) : (⟨k0_dev26 c, k0_dev26_lt c⟩ : Dev nD) = xnb c := Fin.ext (k0_dev26_eq c)
theorem dev27_eq (c : Dev nD) : (⟨k0_dev27 c, k0_dev27_lt c⟩ : Dev nD) = xnb c := Fin.ext (k0_dev27_eq c)
theorem dev28_eq (c : Dev nD) : (⟨k0_dev28 c, k0_dev28_lt c⟩ : Dev nD) = xnb c := Fin.ext (k0_dev28_eq c)
theorem dev29_eq (c : Dev nD) : (⟨k0_dev29 c, k0_dev29_lt c⟩ : Dev nD) = xnb c := Fin.ext (k0_dev29_eq c)
theorem dev30_eq (c : Dev nD) : (⟨k0_dev30 c, k0_dev30_lt c⟩ : Dev nD) = xnb c := Fin.ext (k0_dev30_eq c)
theorem dev31_eq (c : Dev nD) : (⟨k0_dev31 c, k0_dev31_lt c⟩ : Dev nD) = xnb c := Fin.ext (k0_dev31_eq c)
theorem dev32_eq (c : Dev nD) : (⟨k0_dev32 c, k0_dev32_lt c⟩ : Dev nD) = xnb c := Fin.ext (k0_dev32_eq c)
theorem dev33_eq (c : Dev nD) : (⟨k0_dev33 c, k0_dev33_lt c⟩ : Dev nD) = xnb c := Fin.ext (k0_dev33_eq c)
theorem dev34_eq (c : Dev nD) : (⟨k0_dev34 c, k0_dev34_lt c⟩ : Dev nD) = xnb c := Fin.ext (k0_dev34_eq c)

/-! ## Slots and semaphores -/

/-- Slot `j` of the buffer of outgoing chunks, -/
def sslot : Fin 16 → Memref sig .tc .vmem S512x128 .bf16
  | 0 => ((Memref.whole cc0_scratch2 : Memref sig .tc .vmem S16x512x128 .bf16).slice (Rect.unit (s := S16x512x128) ![0, 0, 0] S1x512x128.size inb_S16x512x128_S1x512x128_0_0_0) (fun _ => rfl)).squeeze S512x128 squeezes_S1x512x128_S512x128
  | 1 => ((Memref.whole cc0_scratch2 : Memref sig .tc .vmem S16x512x128 .bf16).slice (Rect.unit (s := S16x512x128) ![1, 0, 0] S1x512x128.size inb_S16x512x128_S1x512x128_1_0_0) (fun _ => rfl)).squeeze S512x128 squeezes_S1x512x128_S512x128
  | 2 => ((Memref.whole cc0_scratch2 : Memref sig .tc .vmem S16x512x128 .bf16).slice (Rect.unit (s := S16x512x128) ![2, 0, 0] S1x512x128.size inb_S16x512x128_S1x512x128_2_0_0) (fun _ => rfl)).squeeze S512x128 squeezes_S1x512x128_S512x128
  | 3 => ((Memref.whole cc0_scratch2 : Memref sig .tc .vmem S16x512x128 .bf16).slice (Rect.unit (s := S16x512x128) ![3, 0, 0] S1x512x128.size inb_S16x512x128_S1x512x128_3_0_0) (fun _ => rfl)).squeeze S512x128 squeezes_S1x512x128_S512x128
  | 4 => ((Memref.whole cc0_scratch2 : Memref sig .tc .vmem S16x512x128 .bf16).slice (Rect.unit (s := S16x512x128) ![4, 0, 0] S1x512x128.size inb_S16x512x128_S1x512x128_4_0_0) (fun _ => rfl)).squeeze S512x128 squeezes_S1x512x128_S512x128
  | 5 => ((Memref.whole cc0_scratch2 : Memref sig .tc .vmem S16x512x128 .bf16).slice (Rect.unit (s := S16x512x128) ![5, 0, 0] S1x512x128.size inb_S16x512x128_S1x512x128_5_0_0) (fun _ => rfl)).squeeze S512x128 squeezes_S1x512x128_S512x128
  | 6 => ((Memref.whole cc0_scratch2 : Memref sig .tc .vmem S16x512x128 .bf16).slice (Rect.unit (s := S16x512x128) ![6, 0, 0] S1x512x128.size inb_S16x512x128_S1x512x128_6_0_0) (fun _ => rfl)).squeeze S512x128 squeezes_S1x512x128_S512x128
  | 7 => ((Memref.whole cc0_scratch2 : Memref sig .tc .vmem S16x512x128 .bf16).slice (Rect.unit (s := S16x512x128) ![7, 0, 0] S1x512x128.size inb_S16x512x128_S1x512x128_7_0_0) (fun _ => rfl)).squeeze S512x128 squeezes_S1x512x128_S512x128
  | 8 => ((Memref.whole cc0_scratch2 : Memref sig .tc .vmem S16x512x128 .bf16).slice (Rect.unit (s := S16x512x128) ![8, 0, 0] S1x512x128.size inb_S16x512x128_S1x512x128_8_0_0) (fun _ => rfl)).squeeze S512x128 squeezes_S1x512x128_S512x128
  | 9 => ((Memref.whole cc0_scratch2 : Memref sig .tc .vmem S16x512x128 .bf16).slice (Rect.unit (s := S16x512x128) ![9, 0, 0] S1x512x128.size inb_S16x512x128_S1x512x128_9_0_0) (fun _ => rfl)).squeeze S512x128 squeezes_S1x512x128_S512x128
  | 10 => ((Memref.whole cc0_scratch2 : Memref sig .tc .vmem S16x512x128 .bf16).slice (Rect.unit (s := S16x512x128) ![10, 0, 0] S1x512x128.size inb_S16x512x128_S1x512x128_10_0_0) (fun _ => rfl)).squeeze S512x128 squeezes_S1x512x128_S512x128
  | 11 => ((Memref.whole cc0_scratch2 : Memref sig .tc .vmem S16x512x128 .bf16).slice (Rect.unit (s := S16x512x128) ![11, 0, 0] S1x512x128.size inb_S16x512x128_S1x512x128_11_0_0) (fun _ => rfl)).squeeze S512x128 squeezes_S1x512x128_S512x128
  | 12 => ((Memref.whole cc0_scratch2 : Memref sig .tc .vmem S16x512x128 .bf16).slice (Rect.unit (s := S16x512x128) ![12, 0, 0] S1x512x128.size inb_S16x512x128_S1x512x128_12_0_0) (fun _ => rfl)).squeeze S512x128 squeezes_S1x512x128_S512x128
  | 13 => ((Memref.whole cc0_scratch2 : Memref sig .tc .vmem S16x512x128 .bf16).slice (Rect.unit (s := S16x512x128) ![13, 0, 0] S1x512x128.size inb_S16x512x128_S1x512x128_13_0_0) (fun _ => rfl)).squeeze S512x128 squeezes_S1x512x128_S512x128
  | 14 => ((Memref.whole cc0_scratch2 : Memref sig .tc .vmem S16x512x128 .bf16).slice (Rect.unit (s := S16x512x128) ![14, 0, 0] S1x512x128.size inb_S16x512x128_S1x512x128_14_0_0) (fun _ => rfl)).squeeze S512x128 squeezes_S1x512x128_S512x128
  | 15 => ((Memref.whole cc0_scratch2 : Memref sig .tc .vmem S16x512x128 .bf16).slice (Rect.unit (s := S16x512x128) ![15, 0, 0] S1x512x128.size inb_S16x512x128_S1x512x128_15_0_0) (fun _ => rfl)).squeeze S512x128 squeezes_S1x512x128_S512x128
  | ⟨_ + 16, h⟩ => absurd h (by omega)

/-- of the buffer the neighbour along the second axis writes, -/
def yslot : Fin 16 → Memref sig .tc .vmem S512x128 .bf16
  | 0 => ((Memref.whole cc0_scratch3 : Memref sig .tc .vmem S16x512x128 .bf16).slice (Rect.unit (s := S16x512x128) ![0, 0, 0] S1x512x128.size inb_S16x512x128_S1x512x128_0_0_0) (fun _ => rfl)).squeeze S512x128 squeezes_S1x512x128_S512x128
  | 1 => ((Memref.whole cc0_scratch3 : Memref sig .tc .vmem S16x512x128 .bf16).slice (Rect.unit (s := S16x512x128) ![1, 0, 0] S1x512x128.size inb_S16x512x128_S1x512x128_1_0_0) (fun _ => rfl)).squeeze S512x128 squeezes_S1x512x128_S512x128
  | 2 => ((Memref.whole cc0_scratch3 : Memref sig .tc .vmem S16x512x128 .bf16).slice (Rect.unit (s := S16x512x128) ![2, 0, 0] S1x512x128.size inb_S16x512x128_S1x512x128_2_0_0) (fun _ => rfl)).squeeze S512x128 squeezes_S1x512x128_S512x128
  | 3 => ((Memref.whole cc0_scratch3 : Memref sig .tc .vmem S16x512x128 .bf16).slice (Rect.unit (s := S16x512x128) ![3, 0, 0] S1x512x128.size inb_S16x512x128_S1x512x128_3_0_0) (fun _ => rfl)).squeeze S512x128 squeezes_S1x512x128_S512x128
  | 4 => ((Memref.whole cc0_scratch3 : Memref sig .tc .vmem S16x512x128 .bf16).slice (Rect.unit (s := S16x512x128) ![4, 0, 0] S1x512x128.size inb_S16x512x128_S1x512x128_4_0_0) (fun _ => rfl)).squeeze S512x128 squeezes_S1x512x128_S512x128
  | 5 => ((Memref.whole cc0_scratch3 : Memref sig .tc .vmem S16x512x128 .bf16).slice (Rect.unit (s := S16x512x128) ![5, 0, 0] S1x512x128.size inb_S16x512x128_S1x512x128_5_0_0) (fun _ => rfl)).squeeze S512x128 squeezes_S1x512x128_S512x128
  | 6 => ((Memref.whole cc0_scratch3 : Memref sig .tc .vmem S16x512x128 .bf16).slice (Rect.unit (s := S16x512x128) ![6, 0, 0] S1x512x128.size inb_S16x512x128_S1x512x128_6_0_0) (fun _ => rfl)).squeeze S512x128 squeezes_S1x512x128_S512x128
  | 7 => ((Memref.whole cc0_scratch3 : Memref sig .tc .vmem S16x512x128 .bf16).slice (Rect.unit (s := S16x512x128) ![7, 0, 0] S1x512x128.size inb_S16x512x128_S1x512x128_7_0_0) (fun _ => rfl)).squeeze S512x128 squeezes_S1x512x128_S512x128
  | 8 => ((Memref.whole cc0_scratch3 : Memref sig .tc .vmem S16x512x128 .bf16).slice (Rect.unit (s := S16x512x128) ![8, 0, 0] S1x512x128.size inb_S16x512x128_S1x512x128_8_0_0) (fun _ => rfl)).squeeze S512x128 squeezes_S1x512x128_S512x128
  | 9 => ((Memref.whole cc0_scratch3 : Memref sig .tc .vmem S16x512x128 .bf16).slice (Rect.unit (s := S16x512x128) ![9, 0, 0] S1x512x128.size inb_S16x512x128_S1x512x128_9_0_0) (fun _ => rfl)).squeeze S512x128 squeezes_S1x512x128_S512x128
  | 10 => ((Memref.whole cc0_scratch3 : Memref sig .tc .vmem S16x512x128 .bf16).slice (Rect.unit (s := S16x512x128) ![10, 0, 0] S1x512x128.size inb_S16x512x128_S1x512x128_10_0_0) (fun _ => rfl)).squeeze S512x128 squeezes_S1x512x128_S512x128
  | 11 => ((Memref.whole cc0_scratch3 : Memref sig .tc .vmem S16x512x128 .bf16).slice (Rect.unit (s := S16x512x128) ![11, 0, 0] S1x512x128.size inb_S16x512x128_S1x512x128_11_0_0) (fun _ => rfl)).squeeze S512x128 squeezes_S1x512x128_S512x128
  | 12 => ((Memref.whole cc0_scratch3 : Memref sig .tc .vmem S16x512x128 .bf16).slice (Rect.unit (s := S16x512x128) ![12, 0, 0] S1x512x128.size inb_S16x512x128_S1x512x128_12_0_0) (fun _ => rfl)).squeeze S512x128 squeezes_S1x512x128_S512x128
  | 13 => ((Memref.whole cc0_scratch3 : Memref sig .tc .vmem S16x512x128 .bf16).slice (Rect.unit (s := S16x512x128) ![13, 0, 0] S1x512x128.size inb_S16x512x128_S1x512x128_13_0_0) (fun _ => rfl)).squeeze S512x128 squeezes_S1x512x128_S512x128
  | 14 => ((Memref.whole cc0_scratch3 : Memref sig .tc .vmem S16x512x128 .bf16).slice (Rect.unit (s := S16x512x128) ![14, 0, 0] S1x512x128.size inb_S16x512x128_S1x512x128_14_0_0) (fun _ => rfl)).squeeze S512x128 squeezes_S1x512x128_S512x128
  | 15 => ((Memref.whole cc0_scratch3 : Memref sig .tc .vmem S16x512x128 .bf16).slice (Rect.unit (s := S16x512x128) ![15, 0, 0] S1x512x128.size inb_S16x512x128_S1x512x128_15_0_0) (fun _ => rfl)).squeeze S512x128 squeezes_S1x512x128_S512x128
  | ⟨_ + 16, h⟩ => absurd h (by omega)

/-- of the buffer the neighbour along the first axis writes. -/
def xslot : Fin 16 → Memref sig .tc .vmem S512x128 .bf16
  | 0 => ((Memref.whole cc0_scratch4 : Memref sig .tc .vmem S16x512x128 .bf16).slice (Rect.unit (s := S16x512x128) ![0, 0, 0] S1x512x128.size inb_S16x512x128_S1x512x128_0_0_0) (fun _ => rfl)).squeeze S512x128 squeezes_S1x512x128_S512x128
  | 1 => ((Memref.whole cc0_scratch4 : Memref sig .tc .vmem S16x512x128 .bf16).slice (Rect.unit (s := S16x512x128) ![1, 0, 0] S1x512x128.size inb_S16x512x128_S1x512x128_1_0_0) (fun _ => rfl)).squeeze S512x128 squeezes_S1x512x128_S512x128
  | 2 => ((Memref.whole cc0_scratch4 : Memref sig .tc .vmem S16x512x128 .bf16).slice (Rect.unit (s := S16x512x128) ![2, 0, 0] S1x512x128.size inb_S16x512x128_S1x512x128_2_0_0) (fun _ => rfl)).squeeze S512x128 squeezes_S1x512x128_S512x128
  | 3 => ((Memref.whole cc0_scratch4 : Memref sig .tc .vmem S16x512x128 .bf16).slice (Rect.unit (s := S16x512x128) ![3, 0, 0] S1x512x128.size inb_S16x512x128_S1x512x128_3_0_0) (fun _ => rfl)).squeeze S512x128 squeezes_S1x512x128_S512x128
  | 4 => ((Memref.whole cc0_scratch4 : Memref sig .tc .vmem S16x512x128 .bf16).slice (Rect.unit (s := S16x512x128) ![4, 0, 0] S1x512x128.size inb_S16x512x128_S1x512x128_4_0_0) (fun _ => rfl)).squeeze S512x128 squeezes_S1x512x128_S512x128
  | 5 => ((Memref.whole cc0_scratch4 : Memref sig .tc .vmem S16x512x128 .bf16).slice (Rect.unit (s := S16x512x128) ![5, 0, 0] S1x512x128.size inb_S16x512x128_S1x512x128_5_0_0) (fun _ => rfl)).squeeze S512x128 squeezes_S1x512x128_S512x128
  | 6 => ((Memref.whole cc0_scratch4 : Memref sig .tc .vmem S16x512x128 .bf16).slice (Rect.unit (s := S16x512x128) ![6, 0, 0] S1x512x128.size inb_S16x512x128_S1x512x128_6_0_0) (fun _ => rfl)).squeeze S512x128 squeezes_S1x512x128_S512x128
  | 7 => ((Memref.whole cc0_scratch4 : Memref sig .tc .vmem S16x512x128 .bf16).slice (Rect.unit (s := S16x512x128) ![7, 0, 0] S1x512x128.size inb_S16x512x128_S1x512x128_7_0_0) (fun _ => rfl)).squeeze S512x128 squeezes_S1x512x128_S512x128
  | 8 => ((Memref.whole cc0_scratch4 : Memref sig .tc .vmem S16x512x128 .bf16).slice (Rect.unit (s := S16x512x128) ![8, 0, 0] S1x512x128.size inb_S16x512x128_S1x512x128_8_0_0) (fun _ => rfl)).squeeze S512x128 squeezes_S1x512x128_S512x128
  | 9 => ((Memref.whole cc0_scratch4 : Memref sig .tc .vmem S16x512x128 .bf16).slice (Rect.unit (s := S16x512x128) ![9, 0, 0] S1x512x128.size inb_S16x512x128_S1x512x128_9_0_0) (fun _ => rfl)).squeeze S512x128 squeezes_S1x512x128_S512x128
  | 10 => ((Memref.whole cc0_scratch4 : Memref sig .tc .vmem S16x512x128 .bf16).slice (Rect.unit (s := S16x512x128) ![10, 0, 0] S1x512x128.size inb_S16x512x128_S1x512x128_10_0_0) (fun _ => rfl)).squeeze S512x128 squeezes_S1x512x128_S512x128
  | 11 => ((Memref.whole cc0_scratch4 : Memref sig .tc .vmem S16x512x128 .bf16).slice (Rect.unit (s := S16x512x128) ![11, 0, 0] S1x512x128.size inb_S16x512x128_S1x512x128_11_0_0) (fun _ => rfl)).squeeze S512x128 squeezes_S1x512x128_S512x128
  | 12 => ((Memref.whole cc0_scratch4 : Memref sig .tc .vmem S16x512x128 .bf16).slice (Rect.unit (s := S16x512x128) ![12, 0, 0] S1x512x128.size inb_S16x512x128_S1x512x128_12_0_0) (fun _ => rfl)).squeeze S512x128 squeezes_S1x512x128_S512x128
  | 13 => ((Memref.whole cc0_scratch4 : Memref sig .tc .vmem S16x512x128 .bf16).slice (Rect.unit (s := S16x512x128) ![13, 0, 0] S1x512x128.size inb_S16x512x128_S1x512x128_13_0_0) (fun _ => rfl)).squeeze S512x128 squeezes_S1x512x128_S512x128
  | 14 => ((Memref.whole cc0_scratch4 : Memref sig .tc .vmem S16x512x128 .bf16).slice (Rect.unit (s := S16x512x128) ![14, 0, 0] S1x512x128.size inb_S16x512x128_S1x512x128_14_0_0) (fun _ => rfl)).squeeze S512x128 squeezes_S1x512x128_S512x128
  | 15 => ((Memref.whole cc0_scratch4 : Memref sig .tc .vmem S16x512x128 .bf16).slice (Rect.unit (s := S16x512x128) ![15, 0, 0] S1x512x128.size inb_S16x512x128_S1x512x128_15_0_0) (fun _ => rfl)).squeeze S512x128 squeezes_S1x512x128_S512x128
  | ⟨_ + 16, h⟩ => absurd h (by omega)

def ysendS : Fin 16 → DmaSem sig
  | 0 => ((cc0_scratch7.slice (Rect.unit (s := S16) ![0] S1.size inb_S16_S1_0)).squeeze S_ squeezes_S1_S_).sem
  | 1 => ((cc0_scratch7.slice (Rect.unit (s := S16) ![1] S1.size inb_S16_S1_1)).squeeze S_ squeezes_S1_S_).sem
  | 2 => ((cc0_scratch7.slice (Rect.unit (s := S16) ![2] S1.size inb_S16_S1_2)).squeeze S_ squeezes_S1_S_).sem
  | 3 => ((cc0_scratch7.slice (Rect.unit (s := S16) ![3] S1.size inb_S16_S1_3)).squeeze S_ squeezes_S1_S_).sem
  | 4 => ((cc0_scratch7.slice (Rect.unit (s := S16) ![4] S1.size inb_S16_S1_4)).squeeze S_ squeezes_S1_S_).sem
  | 5 => ((cc0_scratch7.slice (Rect.unit (s := S16) ![5] S1.size inb_S16_S1_5)).squeeze S_ squeezes_S1_S_).sem
  | 6 => ((cc0_scratch7.slice (Rect.unit (s := S16) ![6] S1.size inb_S16_S1_6)).squeeze S_ squeezes_S1_S_).sem
  | 7 => ((cc0_scratch7.slice (Rect.unit (s := S16) ![7] S1.size inb_S16_S1_7)).squeeze S_ squeezes_S1_S_).sem
  | 8 => ((cc0_scratch7.slice (Rect.unit (s := S16) ![8] S1.size inb_S16_S1_8)).squeeze S_ squeezes_S1_S_).sem
  | 9 => ((cc0_scratch7.slice (Rect.unit (s := S16) ![9] S1.size inb_S16_S1_9)).squeeze S_ squeezes_S1_S_).sem
  | 10 => ((cc0_scratch7.slice (Rect.unit (s := S16) ![10] S1.size inb_S16_S1_10)).squeeze S_ squeezes_S1_S_).sem
  | 11 => ((cc0_scratch7.slice (Rect.unit (s := S16) ![11] S1.size inb_S16_S1_11)).squeeze S_ squeezes_S1_S_).sem
  | 12 => ((cc0_scratch7.slice (Rect.unit (s := S16) ![12] S1.size inb_S16_S1_12)).squeeze S_ squeezes_S1_S_).sem
  | 13 => ((cc0_scratch7.slice (Rect.unit (s := S16) ![13] S1.size inb_S16_S1_13)).squeeze S_ squeezes_S1_S_).sem
  | 14 => ((cc0_scratch7.slice (Rect.unit (s := S16) ![14] S1.size inb_S16_S1_14)).squeeze S_ squeezes_S1_S_).sem
  | 15 => ((cc0_scratch7.slice (Rect.unit (s := S16) ![15] S1.size inb_S16_S1_15)).squeeze S_ squeezes_S1_S_).sem
  | ⟨_ + 16, h⟩ => absurd h (by omega)

def yrecvS : Fin 16 → DmaSem sig
  | 0 => ((cc0_scratch8.slice (Rect.unit (s := S16) ![0] S1.size inb_S16_S1_0)).squeeze S_ squeezes_S1_S_).sem
  | 1 => ((cc0_scratch8.slice (Rect.unit (s := S16) ![1] S1.size inb_S16_S1_1)).squeeze S_ squeezes_S1_S_).sem
  | 2 => ((cc0_scratch8.slice (Rect.unit (s := S16) ![2] S1.size inb_S16_S1_2)).squeeze S_ squeezes_S1_S_).sem
  | 3 => ((cc0_scratch8.slice (Rect.unit (s := S16) ![3] S1.size inb_S16_S1_3)).squeeze S_ squeezes_S1_S_).sem
  | 4 => ((cc0_scratch8.slice (Rect.unit (s := S16) ![4] S1.size inb_S16_S1_4)).squeeze S_ squeezes_S1_S_).sem
  | 5 => ((cc0_scratch8.slice (Rect.unit (s := S16) ![5] S1.size inb_S16_S1_5)).squeeze S_ squeezes_S1_S_).sem
  | 6 => ((cc0_scratch8.slice (Rect.unit (s := S16) ![6] S1.size inb_S16_S1_6)).squeeze S_ squeezes_S1_S_).sem
  | 7 => ((cc0_scratch8.slice (Rect.unit (s := S16) ![7] S1.size inb_S16_S1_7)).squeeze S_ squeezes_S1_S_).sem
  | 8 => ((cc0_scratch8.slice (Rect.unit (s := S16) ![8] S1.size inb_S16_S1_8)).squeeze S_ squeezes_S1_S_).sem
  | 9 => ((cc0_scratch8.slice (Rect.unit (s := S16) ![9] S1.size inb_S16_S1_9)).squeeze S_ squeezes_S1_S_).sem
  | 10 => ((cc0_scratch8.slice (Rect.unit (s := S16) ![10] S1.size inb_S16_S1_10)).squeeze S_ squeezes_S1_S_).sem
  | 11 => ((cc0_scratch8.slice (Rect.unit (s := S16) ![11] S1.size inb_S16_S1_11)).squeeze S_ squeezes_S1_S_).sem
  | 12 => ((cc0_scratch8.slice (Rect.unit (s := S16) ![12] S1.size inb_S16_S1_12)).squeeze S_ squeezes_S1_S_).sem
  | 13 => ((cc0_scratch8.slice (Rect.unit (s := S16) ![13] S1.size inb_S16_S1_13)).squeeze S_ squeezes_S1_S_).sem
  | 14 => ((cc0_scratch8.slice (Rect.unit (s := S16) ![14] S1.size inb_S16_S1_14)).squeeze S_ squeezes_S1_S_).sem
  | 15 => ((cc0_scratch8.slice (Rect.unit (s := S16) ![15] S1.size inb_S16_S1_15)).squeeze S_ squeezes_S1_S_).sem
  | ⟨_ + 16, h⟩ => absurd h (by omega)

def fsendS : Fin 16 → DmaSem sig
  | 0 => ((cc0_scratch9.slice (Rect.unit (s := S16) ![0] S1.size inb_S16_S1_0)).squeeze S_ squeezes_S1_S_).sem
  | 1 => ((cc0_scratch9.slice (Rect.unit (s := S16) ![1] S1.size inb_S16_S1_1)).squeeze S_ squeezes_S1_S_).sem
  | 2 => ((cc0_scratch9.slice (Rect.unit (s := S16) ![2] S1.size inb_S16_S1_2)).squeeze S_ squeezes_S1_S_).sem
  | 3 => ((cc0_scratch9.slice (Rect.unit (s := S16) ![3] S1.size inb_S16_S1_3)).squeeze S_ squeezes_S1_S_).sem
  | 4 => ((cc0_scratch9.slice (Rect.unit (s := S16) ![4] S1.size inb_S16_S1_4)).squeeze S_ squeezes_S1_S_).sem
  | 5 => ((cc0_scratch9.slice (Rect.unit (s := S16) ![5] S1.size inb_S16_S1_5)).squeeze S_ squeezes_S1_S_).sem
  | 6 => ((cc0_scratch9.slice (Rect.unit (s := S16) ![6] S1.size inb_S16_S1_6)).squeeze S_ squeezes_S1_S_).sem
  | 7 => ((cc0_scratch9.slice (Rect.unit (s := S16) ![7] S1.size inb_S16_S1_7)).squeeze S_ squeezes_S1_S_).sem
  | 8 => ((cc0_scratch9.slice (Rect.unit (s := S16) ![8] S1.size inb_S16_S1_8)).squeeze S_ squeezes_S1_S_).sem
  | 9 => ((cc0_scratch9.slice (Rect.unit (s := S16) ![9] S1.size inb_S16_S1_9)).squeeze S_ squeezes_S1_S_).sem
  | 10 => ((cc0_scratch9.slice (Rect.unit (s := S16) ![10] S1.size inb_S16_S1_10)).squeeze S_ squeezes_S1_S_).sem
  | 11 => ((cc0_scratch9.slice (Rect.unit (s := S16) ![11] S1.size inb_S16_S1_11)).squeeze S_ squeezes_S1_S_).sem
  | 12 => ((cc0_scratch9.slice (Rect.unit (s := S16) ![12] S1.size inb_S16_S1_12)).squeeze S_ squeezes_S1_S_).sem
  | 13 => ((cc0_scratch9.slice (Rect.unit (s := S16) ![13] S1.size inb_S16_S1_13)).squeeze S_ squeezes_S1_S_).sem
  | 14 => ((cc0_scratch9.slice (Rect.unit (s := S16) ![14] S1.size inb_S16_S1_14)).squeeze S_ squeezes_S1_S_).sem
  | 15 => ((cc0_scratch9.slice (Rect.unit (s := S16) ![15] S1.size inb_S16_S1_15)).squeeze S_ squeezes_S1_S_).sem
  | ⟨_ + 16, h⟩ => absurd h (by omega)

def xrecvS : Fin 16 → DmaSem sig
  | 0 => ((cc0_scratch10.slice (Rect.unit (s := S16) ![0] S1.size inb_S16_S1_0)).squeeze S_ squeezes_S1_S_).sem
  | 1 => ((cc0_scratch10.slice (Rect.unit (s := S16) ![1] S1.size inb_S16_S1_1)).squeeze S_ squeezes_S1_S_).sem
  | 2 => ((cc0_scratch10.slice (Rect.unit (s := S16) ![2] S1.size inb_S16_S1_2)).squeeze S_ squeezes_S1_S_).sem
  | 3 => ((cc0_scratch10.slice (Rect.unit (s := S16) ![3] S1.size inb_S16_S1_3)).squeeze S_ squeezes_S1_S_).sem
  | 4 => ((cc0_scratch10.slice (Rect.unit (s := S16) ![4] S1.size inb_S16_S1_4)).squeeze S_ squeezes_S1_S_).sem
  | 5 => ((cc0_scratch10.slice (Rect.unit (s := S16) ![5] S1.size inb_S16_S1_5)).squeeze S_ squeezes_S1_S_).sem
  | 6 => ((cc0_scratch10.slice (Rect.unit (s := S16) ![6] S1.size inb_S16_S1_6)).squeeze S_ squeezes_S1_S_).sem
  | 7 => ((cc0_scratch10.slice (Rect.unit (s := S16) ![7] S1.size inb_S16_S1_7)).squeeze S_ squeezes_S1_S_).sem
  | 8 => ((cc0_scratch10.slice (Rect.unit (s := S16) ![8] S1.size inb_S16_S1_8)).squeeze S_ squeezes_S1_S_).sem
  | 9 => ((cc0_scratch10.slice (Rect.unit (s := S16) ![9] S1.size inb_S16_S1_9)).squeeze S_ squeezes_S1_S_).sem
  | 10 => ((cc0_scratch10.slice (Rect.unit (s := S16) ![10] S1.size inb_S16_S1_10)).squeeze S_ squeezes_S1_S_).sem
  | 11 => ((cc0_scratch10.slice (Rect.unit (s := S16) ![11] S1.size inb_S16_S1_11)).squeeze S_ squeezes_S1_S_).sem
  | 12 => ((cc0_scratch10.slice (Rect.unit (s := S16) ![12] S1.size inb_S16_S1_12)).squeeze S_ squeezes_S1_S_).sem
  | 13 => ((cc0_scratch10.slice (Rect.unit (s := S16) ![13] S1.size inb_S16_S1_13)).squeeze S_ squeezes_S1_S_).sem
  | 14 => ((cc0_scratch10.slice (Rect.unit (s := S16) ![14] S1.size inb_S16_S1_14)).squeeze S_ squeezes_S1_S_).sem
  | 15 => ((cc0_scratch10.slice (Rect.unit (s := S16) ![15] S1.size inb_S16_S1_15)).squeeze S_ squeezes_S1_S_).sem
  | ⟨_ + 16, h⟩ => absurd h (by omega)

/-- The eight semaphores of the local copies of `dy` into its buffer, and the eight of the local copies of the result out of its buffer. -/
def copyS : Fin 8 → DmaSem sig
  | 0 => ((cc0_scratch5.slice (Rect.unit (s := S8) ![0] S1.size inb_S8_S1_0)).squeeze S_ squeezes_S1_S_).sem
  | 1 => ((cc0_scratch5.slice (Rect.unit (s := S8) ![1] S1.size inb_S8_S1_1)).squeeze S_ squeezes_S1_S_).sem
  | 2 => ((cc0_scratch5.slice (Rect.unit (s := S8) ![2] S1.size inb_S8_S1_2)).squeeze S_ squeezes_S1_S_).sem
  | 3 => ((cc0_scratch5.slice (Rect.unit (s := S8) ![3] S1.size inb_S8_S1_3)).squeeze S_ squeezes_S1_S_).sem
  | 4 => ((cc0_scratch5.slice (Rect.unit (s := S8) ![4] S1.size inb_S8_S1_4)).squeeze S_ squeezes_S1_S_).sem
  | 5 => ((cc0_scratch5.slice (Rect.unit (s := S8) ![5] S1.size inb_S8_S1_5)).squeeze S_ squeezes_S1_S_).sem
  | 6 => ((cc0_scratch5.slice (Rect.unit (s := S8) ![6] S1.size inb_S8_S1_6)).squeeze S_ squeezes_S1_S_).sem
  | 7 => ((cc0_scratch5.slice (Rect.unit (s := S8) ![7] S1.size inb_S8_S1_7)).squeeze S_ squeezes_S1_S_).sem
  | ⟨_ + 8, h⟩ => absurd h (by omega)

def outS : Fin 8 → DmaSem sig
  | 0 => ((cc0_scratch6.slice (Rect.unit (s := S8) ![0] S1.size inb_S8_S1_0)).squeeze S_ squeezes_S1_S_).sem
  | 1 => ((cc0_scratch6.slice (Rect.unit (s := S8) ![1] S1.size inb_S8_S1_1)).squeeze S_ squeezes_S1_S_).sem
  | 2 => ((cc0_scratch6.slice (Rect.unit (s := S8) ![2] S1.size inb_S8_S1_2)).squeeze S_ squeezes_S1_S_).sem
  | 3 => ((cc0_scratch6.slice (Rect.unit (s := S8) ![3] S1.size inb_S8_S1_3)).squeeze S_ squeezes_S1_S_).sem
  | 4 => ((cc0_scratch6.slice (Rect.unit (s := S8) ![4] S1.size inb_S8_S1_4)).squeeze S_ squeezes_S1_S_).sem
  | 5 => ((cc0_scratch6.slice (Rect.unit (s := S8) ![5] S1.size inb_S8_S1_5)).squeeze S_ squeezes_S1_S_).sem
  | 6 => ((cc0_scratch6.slice (Rect.unit (s := S8) ![6] S1.size inb_S8_S1_6)).squeeze S_ squeezes_S1_S_).sem
  | 7 => ((cc0_scratch6.slice (Rect.unit (s := S8) ![7] S1.size inb_S8_S1_7)).squeeze S_ squeezes_S1_S_).sem
  | ⟨_ + 8, h⟩ => absurd h (by omega)

theorem copyS_val (j : Fin 8) : (copyS j).val = 1 + j.val := by fin_cases j <;> rfl
theorem outS_val (j : Fin 8) : (outS j).val = 9 + j.val := by fin_cases j <;> rfl

/-- The four kinds of transfer semaphore by number: outgoing chunk, incoming chunk, outgoing forward, incoming forward. -/
def xsem : Fin 4 → Fin 16 → DmaSem sig := fun k j => match k with | 0 => ysendS j | 1 => yrecvS j | 2 => fsendS j | 3 => xrecvS j
/-- A device's cells under the rounds discipline: the barrier's, and the sixty-four transfer cells. -/
def csem : Option (Fin 4 × Fin 16) → SemLoc sig
  | none => .reg ((SemArray.scalar (sig.barrier 0 rfl) : Sems sig S_).sem)
  | some (k, j) => .dma (xsem k j)
abbrev kcell (ck : Dev nD × Option (Fin 4 × Fin 16)) : GSem nD τ sig := ((ck.1 : Thread nD τ), csem ck.2)

/-- The runtime's barrier semaphore (not scoped to the launch). -/
abbrev barS : Sem sig := (SemArray.scalar (sig.barrier 0 rfl) : Sems sig S_).sem

abbrev barCell (c : Dev nD) : GSem nD τ sig := ((c : Thread nD τ), .reg barS)
abbrev ysendCell (c : Dev nD) (j : Fin 16) : GSem nD τ sig := ((c : Thread nD τ), .dma (ysendS j))
abbrev yrecvCell (c : Dev nD) (j : Fin 16) : GSem nD τ sig := ((c : Thread nD τ), .dma (yrecvS j))
abbrev fsendCell (c : Dev nD) (j : Fin 16) : GSem nD τ sig := ((c : Thread nD τ), .dma (fsendS j))
abbrev xrecvCell (c : Dev nD) (j : Fin 16) : GSem nD τ sig := ((c : Thread nD τ), .dma (xrecvS j))

theorem ysendS_val (j : Fin 16) : (ysendS j).val = 17 + j.val := by fin_cases j <;> rfl
theorem yrecvS_val (j : Fin 16) : (yrecvS j).val = 33 + j.val := by fin_cases j <;> rfl
theorem fsendS_val (j : Fin 16) : (fsendS j).val = 49 + j.val := by fin_cases j <;> rfl
theorem xrecvS_val (j : Fin 16) : (xrecvS j).val = 65 + j.val := by fin_cases j <;> rfl

/-- A chunk's credit on a DMA semaphore. -/
abbrev N : ℕ := (yslot 0).view.dmaCredit
theorem N_pos : 0 < N := View.dmaCredit_pos _ (by decide)

end Cert.Kernel.Hand

end
-- ==== Proof.SchedK.lean ====
import proofs.«901046_g7700000000001047_dist_rsdw_v7x_xy2x2_y_m1024_d1024_f4096_f32_1_alg».proof.Proof.Gen.Kernel
import proofs.«901046_g7700000000001047_dist_rsdw_v7x_xy2x2_y_m1024_d1024_f4096_f32_1_alg».proof.Proof.Gen.Kernel.Skeleton
import proofs.«901046_g7700000000001047_dist_rsdw_v7x_xy2x2_y_m1024_d1024_f4096_f32_1_alg».proof.Proof.Gen.Kernel.Launch
import proofs.«901046_g7700000000001047_dist_rsdw_v7x_xy2x2_y_m1024_d1024_f4096_f32_1_alg».proof.Proof.Gen.Kernel.Points
import proofs.«901046_g7700000000001047_dist_rsdw_v7x_xy2x2_y_m1024_d1024_f4096_f32_1_alg».proof.Proof.BasicK
import Idealize.ShloMosaic.Lib.Pipeline.Launch
import Idealize.ShloMosaic.Lib.Pipeline.Kit
import Idealize.ShloMosaic.Lib.Tactic

/-! The exchange as rounds.

Every cell has one round. A device's barrier cell has two duties of one unit: its neighbour along the second axis pays the first and hands
over its own receive buffer for the chunks, its neighbour along the first axis pays the second and hands over its receive buffer for the
forwards. Each of the sixty-four transfer cells of a device has one duty of a
chunk's credit: a send cell gives the source slot back (a forward's source is lent at half its share, the other half stays with the device, which reads the
slot while the forward flies), a receive cell gives the written slot at its contents. The contents are parameters
here: what a device's outgoing slots hold when sent, and what its two receive buffers' slots hold when written. -/

set_option maxRecDepth 16384

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (Sb : (c : Dev nD) → (j : Fin 16) → Buf (Elt F) ((sslot j).view.loc (c : Thread nD τ)))
variable (Yc : (c : Dev nD) → (j : Fin 16) → Buf (Elt F) ((yslot j).view.loc (c : Thread nD τ)))
variable (Xc : (c : Dev nD) → (j : Fin 16) → Buf (Elt F) ((xslot j).view.loc (c : Thread nD τ)))

/-- What the neighbour `n` along the second axis hands over with its barrier signal: its sixteen chunk slots, at any contents, and that
    their receive cells are at round 0. -/
def barPayY (n : Dev nD) : sProp 𝕄 :=
  iprop(∃ f, (Memref.whole cc0_scratch3 : Memref sig .tc .vmem S16x512x128 .bf16).view.loc (n : Thread nD τ) ↦{fullShare} f)
/-- The same for the neighbour along the first axis and its buffer of incoming forwards. -/
def barPayX (n : Dev nD) : sProp 𝕄 :=
  iprop(∃ f, (Memref.whole cc0_scratch4 : Memref sig .tc .vmem S16x512x128 .bf16).view.loc (n : Thread nD τ) ↦{fullShare} f)

def ysendPay (c : Dev nD) (j : Fin 16) : sProp 𝕄 := (sslot j).view.loc (c : Thread nD τ) ↦[(sslot j).view.set]{fullShare} Sb c j
def yrecvPay (c : Dev nD) (j : Fin 16) : sProp 𝕄 := (yslot j).view.loc (c : Thread nD τ) ↦[(yslot j).view.set]{fullShare} Yc c j
def fsendPay (c : Dev nD) (j : Fin 16) : sProp 𝕄 := (yslot j).view.loc (c : Thread nD τ) ↦[(yslot j).view.set]{fullShare.left} Yc c j
def xrecvPay (c : Dev nD) (j : Fin 16) : sProp 𝕄 := (xslot j).view.loc (c : Thread nD τ) ↦[(xslot j).view.set]{fullShare} Xc c j

/-- Whether a cell is one of the sixty-four transfer cells: DMA semaphores 17 to 80. -/
abbrev IsBar (g : GSem nD τ sig) : Prop := g.1.2 = .tc ∧ g.2 = .reg barS
abbrev IsXfer (g : GSem nD τ sig) : Prop := g.1.2 = .tc ∧ ∃ n : DmaSem sig, g.2 = .dma n ∧ 17 ≤ n.val

def xferPay (c : Dev nD) (n : DmaSem sig) : sProp 𝕄 :=
  if h : 17 ≤ n.val ∧ n.val < 33 then ysendPay Sb c ⟨n.val - 17, by omega⟩
  else if h : 33 ≤ n.val ∧ n.val < 49 then yrecvPay Yc c ⟨n.val - 33, by omega⟩
  else if h : 49 ≤ n.val ∧ n.val < 65 then fsendPay Yc c ⟨n.val - 49, by omega⟩
  else if h : 65 ≤ n.val ∧ n.val < 81 then xrecvPay Xc c ⟨n.val - 65, by omega⟩
  else iprop(emp)

def xRd : Rounds.Schedule (GSem nD τ sig) Bool 𝕄 where
  duties g r := if r = 0 ∧ IsBar g then Finset.univ else if r = 0 ∧ IsXfer g then {false} else ∅
  unitless _ := False
  amount g _ _ := if g.2 = .reg barS then 1 else N
  payload g _ d := match g.2 with
    | .reg s => if s = barS then (if d then barPayX (xnb g.1.1) else barPayY (ynb g.1.1)) else iprop(emp)
    | .dma n => xferPay Sb Yc Xc g.1.1 n
  amount_pos g _ _ _ := by
    by_cases h : g.2 = .reg barS
    · rw [if_pos h]; exact Nat.one_pos
    · rw [if_neg h]; exact N_pos

set_option synthInstance.maxHeartbeats 2000000 in
set_option synthInstance.maxSize 8192 in
set_option maxHeartbeats 2000000 in
instance xRd_payload_storable (g : GSem nD τ sig) (r : ℕ) (d : Bool) :
    BI.Storable (upEmb : UEmb _ 𝕄) ((xRd (F := F) Sb Yc Xc).payload g r d) := by
  show BI.Storable upEmb (match g.2 with
    | .reg s => if s = barS then (if d then barPayX (xnb g.1.1) else barPayY (ynb g.1.1)) else iprop(emp)
    | .dma n => xferPay Sb Yc Xc g.1.1 n)
  unfold xferPay barPayX barPayY ysendPay yrecvPay fsendPay xrecvPay
  (repeat' split) <;> infer_instance

/-! ## The tables -/

section Tables
variable (c : Dev nD) (j : Fin 16)

theorem dma_ne_bar (n : DmaSem sig) : (SemLoc.dma n : SemLoc sig) ≠ .reg barS := fun h => by cases h

theorem not_bar_ysend : ¬ IsBar (ysendCell c j) := fun h => dma_ne_bar _ h.2
theorem isXfer_ysend : IsXfer (ysendCell c j) := ⟨rfl, ysendS j, rfl, by rw [ysendS_val]; omega⟩
omit [FloatOps F] in
theorem duties_ysend : (xRd (F := F) Sb Yc Xc).duties (ysendCell c j) 0 = {false} := by
  dsimp only [xRd]; rw [if_neg (fun h => not_bar_ysend c j h.2)]; exact if_pos ⟨rfl, isXfer_ysend c j⟩
omit [FloatOps F] in
theorem amount_ysend (d : Bool) : (xRd (F := F) Sb Yc Xc).amount (ysendCell c j) 0 d = N := by dsimp only [xRd]; exact if_neg (dma_ne_bar _)
omit [FloatOps F] in
theorem expect_ysend : (xRd (F := F) Sb Yc Xc).expect (ysendCell c j) 0 = N := by
  unfold Schedule.expect Schedule.amountOf; rw [duties_ysend, Finset.sum_singleton, amount_ysend]
omit [FloatOps F] in
theorem payload_ysend (d : Bool) : (xRd (F := F) Sb Yc Xc).payload (ysendCell c j) 0 d = ((sslot j).view.loc (c : Thread nD τ) ↦[(sslot j).view.set]{fullShare} Sb c j : sProp 𝕄) := by
  show xferPay Sb Yc Xc c (ysendS j) = _
  fin_cases j <;> rfl
omit [FloatOps F] in
theorem rest_ysend : bigSep ((xRd (F := F) Sb Yc Xc).duties (ysendCell c j) 0 \ ∅) (fun d => (xRd (F := F) Sb Yc Xc).payload (ysendCell c j) 0 d) = ((sslot j).view.loc (c : Thread nD τ) ↦[(sslot j).view.set]{fullShare} Sb c j : sProp 𝕄) := by
  rw [Finset.sdiff_empty, duties_ysend, bigSep_singleton, payload_ysend]

theorem not_bar_yrecv : ¬ IsBar (yrecvCell c j) := fun h => dma_ne_bar _ h.2
theorem isXfer_yrecv : IsXfer (yrecvCell c j) := ⟨rfl, yrecvS j, rfl, by rw [yrecvS_val]; omega⟩
omit [FloatOps F] in
theorem duties_yrecv : (xRd (F := F) Sb Yc Xc).duties (yrecvCell c j) 0 = {false} := by
  dsimp only [xRd]; rw [if_neg (fun h => not_bar_yrecv c j h.2)]; exact if_pos ⟨rfl, isXfer_yrecv c j⟩
omit [FloatOps F] in
theorem amount_yrecv (d : Bool) : (xRd (F := F) Sb Yc Xc).amount (yrecvCell c j) 0 d = N := by dsimp only [xRd]; exact if_neg (dma_ne_bar _)
omit [FloatOps F] in
theorem expect_yrecv : (xRd (F := F) Sb Yc Xc).expect (yrecvCell c j) 0 = N := by
  unfold Schedule.expect Schedule.amountOf; rw [duties_yrecv, Finset.sum_singleton, amount_yrecv]
omit [FloatOps F] in
theorem payload_yrecv (d : Bool) : (xRd (F := F) Sb Yc Xc).payload (yrecvCell c j) 0 d = ((yslot j).view.loc (c : Thread nD τ) ↦[(yslot j).view.set]{fullShare} Yc c j : sProp 𝕄) := by
  show xferPay Sb Yc Xc c (yrecvS j) = _
  fin_cases j <;> rfl
omit [FloatOps F] in
theorem rest_yrecv : bigSep ((xRd (F := F) Sb Yc Xc).duties (yrecvCell c j) 0 \ ∅) (fun d => (xRd (F := F) Sb Yc Xc).payload (yrecvCell c j) 0 d) = ((yslot j).view.loc (c : Thread nD τ) ↦[(yslot j).view.set]{fullShare} Yc c j : sProp 𝕄) := by
  rw [Finset.sdiff_empty, duties_yrecv, bigSep_singleton, payload_yrecv]

theorem not_bar_fsend : ¬ IsBar (fsendCell c j) := fun h => dma_ne_bar _ h.2
theorem isXfer_fsend : IsXfer (fsendCell c j) := ⟨rfl, fsendS j, rfl, by rw [fsendS_val]; omega⟩
omit [FloatOps F] in
theorem duties_fsend : (xRd (F := F) Sb Yc Xc).duties (fsendCell c j) 0 = {false} := by
  dsimp only [xRd]; rw [if_neg (fun h => not_bar_fsend c j h.2)]; exact if_pos ⟨rfl, isXfer_fsend c j⟩
omit [FloatOps F] in
theorem amount_fsend (d : Bool) : (xRd (F := F) Sb Yc Xc).amount (fsendCell c j) 0 d = N := by dsimp only [xRd]; exact if_neg (dma_ne_bar _)
omit [FloatOps F] in
theorem expect_fsend : (xRd (F := F) Sb Yc Xc).expect (fsendCell c j) 0 = N := by
  unfold Schedule.expect Schedule.amountOf; rw [duties_fsend, Finset.sum_singleton, amount_fsend]
omit [FloatOps F] in
theorem payload_fsend (d : Bool) : (xRd (F := F) Sb Yc Xc).payload (fsendCell c j) 0 d = ((yslot j).view.loc (c : Thread nD τ) ↦[(yslot j).view.set]{fullShare.left} Yc c j : sProp 𝕄) := by
  show xferPay Sb Yc Xc c (fsendS j) = _
  fin_cases j <;> rfl
omit [FloatOps F] in
theorem rest_fsend : bigSep ((xRd (F := F) Sb Yc Xc).duties (fsendCell c j) 0 \ ∅) (fun d => (xRd (F := F) Sb Yc Xc).payload (fsendCell c j) 0 d) = ((yslot j).view.loc (c : Thread nD τ) ↦[(yslot j).view.set]{fullShare.left} Yc c j : sProp 𝕄) := by
  rw [Finset.sdiff_empty, duties_fsend, bigSep_singleton, payload_fsend]

theorem not_bar_xrecv : ¬ IsBar (xrecvCell c j) := fun h => dma_ne_bar _ h.2
theorem isXfer_xrecv : IsXfer (xrecvCell c j) := ⟨rfl, xrecvS j, rfl, by rw [xrecvS_val]; omega⟩
omit [FloatOps F] in
theorem duties_xrecv : (xRd (F := F) Sb Yc Xc).duties (xrecvCell c j) 0 = {false} := by
  dsimp only [xRd]; rw [if_neg (fun h => not_bar_xrecv c j h.2)]; exact if_pos ⟨rfl, isXfer_xrecv c j⟩
omit [FloatOps F] in
theorem amount_xrecv (d : Bool) : (xRd (F := F) Sb Yc Xc).amount (xrecvCell c j) 0 d = N := by dsimp only [xRd]; exact if_neg (dma_ne_bar _)
omit [FloatOps F] in
theorem expect_xrecv : (xRd (F := F) Sb Yc Xc).expect (xrecvCell c j) 0 = N := by
  unfold Schedule.expect Schedule.amountOf; rw [duties_xrecv, Finset.sum_singleton, amount_xrecv]
omit [FloatOps F] in
theorem payload_xrecv (d : Bool) : (xRd (F := F) Sb Yc Xc).payload (xrecvCell c j) 0 d = ((xslot j).view.loc (c : Thread nD τ) ↦[(xslot j).view.set]{fullShare} Xc c j : sProp 𝕄) := by
  show xferPay Sb Yc Xc c (xrecvS j) = _
  fin_cases j <;> rfl
omit [FloatOps F] in
theorem rest_xrecv : bigSep ((xRd (F := F) Sb Yc Xc).duties (xrecvCell c j) 0 \ ∅) (fun d => (xRd (F := F) Sb Yc Xc).payload (xrecvCell c j) 0 d) = ((xslot j).view.loc (c : Thread nD τ) ↦[(xslot j).view.set]{fullShare} Xc c j : sProp 𝕄) := by
  rw [Finset.sdiff_empty, duties_xrecv, bigSep_singleton, payload_xrecv]

omit [FloatOps F] in
theorem duties_bar : (xRd (F := F) Sb Yc Xc).duties (barCell c) 0 = Finset.univ := by dsimp only [xRd]; exact if_pos ⟨rfl, rfl, rfl⟩
omit [FloatOps F] in
theorem duties_later (g : GSem nD τ sig) : ∀ r, 1 ≤ r → (xRd (F := F) Sb Yc Xc).duties g r = ∅ :=
  fun r hr => by dsimp only [xRd]; rw [if_neg fun h => by omega, if_neg fun h => by omega]
omit [FloatOps F] in
theorem amount_bar (d : Bool) : (xRd (F := F) Sb Yc Xc).amount (barCell c) 0 d = 1 := by dsimp only [xRd]; exact if_pos rfl
omit [FloatOps F] in
theorem expect_bar : (xRd (F := F) Sb Yc Xc).expect (barCell c) 0 = 2 := by
  unfold Schedule.expect Schedule.amountOf
  rw [duties_bar, Finset.sum_congr rfl fun d _ => amount_bar Sb Yc Xc c d, Finset.sum_const, Finset.card_univ, Fintype.card_bool, smul_eq_mul]
omit [FloatOps F] in
/-- At the wait: the duty the neighbour along the second axis pays hands over that neighbour's slots, -/
theorem payload_bar_false : (xRd (F := F) Sb Yc Xc).payload (barCell c) 0 false = (iprop(∃ f, (Memref.whole cc0_scratch3 : Memref sig .tc .vmem S16x512x128 .bf16).view.loc (ynb c : Thread nD τ) ↦{fullShare} f) : sProp 𝕄) := by
  show (if barS = barS then (if false = true then barPayX (xnb c) else barPayY (ynb c)) else iprop(emp)) = _
  rw [if_pos rfl, if_neg Bool.false_ne_true]; rfl
omit [FloatOps F] in
/-- the other duty the other neighbour's. -/
theorem payload_bar_true : (xRd (F := F) Sb Yc Xc).payload (barCell c) 0 true = (iprop(∃ f, (Memref.whole cc0_scratch4 : Memref sig .tc .vmem S16x512x128 .bf16).view.loc (xnb c : Thread nD τ) ↦{fullShare} f) : sProp 𝕄) := by
  show (if barS = barS then (if true = true then barPayX (xnb c) else barPayY (ynb c)) else iprop(emp)) = _
  rw [if_pos rfl, if_pos rfl]; rfl
omit [FloatOps F] in
/-- At the signals: what this device hands its two neighbours is its own slots. -/
theorem payload_bar_false_at : (xRd (F := F) Sb Yc Xc).payload (barCell (ynb c)) 0 false = (iprop(∃ f, (Memref.whole cc0_scratch3 : Memref sig .tc .vmem S16x512x128 .bf16).view.loc (c : Thread nD τ) ↦{fullShare} f) : sProp 𝕄) := by
  rw [payload_bar_false, ynb_ynb]
omit [FloatOps F] in
theorem payload_bar_true_at : (xRd (F := F) Sb Yc Xc).payload (barCell (xnb c)) 0 true = (iprop(∃ f, (Memref.whole cc0_scratch4 : Memref sig .tc .vmem S16x512x128 .bf16).view.loc (c : Thread nD τ) ↦{fullShare} f) : sProp 𝕄) := by
  rw [payload_bar_true, xnb_xnb]

end Tables

end Cert.Kernel.Hand

end
-- ==== Proof.ProtoK.lean ====
import proofs.«901046_g7700000000001047_dist_rsdw_v7x_xy2x2_y_m1024_d1024_f4096_f32_1_alg».proof.Proof.Gen.Kernel
import proofs.«901046_g7700000000001047_dist_rsdw_v7x_xy2x2_y_m1024_d1024_f4096_f32_1_alg».proof.Proof.Gen.Kernel.Skeleton
import proofs.«901046_g7700000000001047_dist_rsdw_v7x_xy2x2_y_m1024_d1024_f4096_f32_1_alg».proof.Proof.Gen.Kernel.Launch
import proofs.«901046_g7700000000001047_dist_rsdw_v7x_xy2x2_y_m1024_d1024_f4096_f32_1_alg».proof.Proof.Gen.Kernel.Points
import proofs.«901046_g7700000000001047_dist_rsdw_v7x_xy2x2_y_m1024_d1024_f4096_f32_1_alg».proof.Proof.SchedK
import Idealize.ShloMosaic.Lib.Pipeline.Launch
import Idealize.ShloMosaic.Lib.Pipeline.Kit
import Idealize.ShloMosaic.Lib.Tactic

/-! What a device's body starts from and ends with: the interface between the launch and the body.

A device's body starts holding: the invariants of its own sixty-five cells and of the thirty-four cells of its neighbours it pays into;
its position at round 0 of each of its own cells; the one-shot tokens of the duties it pays (two barrier units, sixteen chunks into the
neighbour along the second axis, sixteen forwards into the neighbour along the first, and its own thirty-two send cells' duties); the
credit of its barrier cell and of its thirty-two receive cells; the sixteen semaphores of its local copies at zero; its scratch buffers;
and the two arrays in device memory the kernel routes itself, the second argument and the result. It ends with every semaphore of its
own at zero, the second argument as it was and the result at its final contents. -/

set_option maxRecDepth 16384

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (Sb : (c : Dev nD) → (j : Fin 16) → Buf (Elt F) ((sslot j).view.loc (c : Thread nD τ)))
variable (Yc : (c : Dev nD) → (j : Fin 16) → Buf (Elt F) ((yslot j).view.loc (c : Thread nD τ)))
variable (Xc : (c : Dev nD) → (j : Fin 16) → Buf (Elt F) ((xslot j).view.loc (c : Thread nD τ)))
variable (OutP : (c : Dev nD) → Buf (Elt F) ((c : Thread nD τ).loc main_v1) → Prop)

/-- The memory at launch: arbitrary contents, every semaphore counter zero, arbitrary generator registers. -/
def s₀ : MemSt nD τ sig (Elt F) := ⟨m, fun _ => 0, ρ⟩

/-- The staged first argument. -/
def xstg (c : Dev nD) : (cc0_stg0_0 : Ref sig .tc).ty.Contents (Elt F) :=
  (win0_0.blk (0 : Fin 1)).view.read (Elt F) (m ((c : Thread nD τ).loc main_arg0))

/-! ## What each device owes at launch; the levels

The sum is written so that each payment, in program order (the two barrier signals, the sixteen chunks, the sixteen forwards), takes off
its last summand. -/

def O₀ (c : Dev nD) : CellTallies nD τ sig Unit :=
  tallyAt (xrecvCell (xnb c) 15) () N + tallyAt (xrecvCell (xnb c) 14) () N + tallyAt (xrecvCell (xnb c) 13) () N + tallyAt (xrecvCell (xnb c) 12) () N + tallyAt (xrecvCell (xnb c) 11) () N + tallyAt (xrecvCell (xnb c) 10) () N + tallyAt (xrecvCell (xnb c) 9) () N + tallyAt (xrecvCell (xnb c) 8) () N + tallyAt (xrecvCell (xnb c) 7) () N + tallyAt (xrecvCell (xnb c) 6) () N + tallyAt (xrecvCell (xnb c) 5) () N + tallyAt (xrecvCell (xnb c) 4) () N + tallyAt (xrecvCell (xnb c) 3) () N + tallyAt (xrecvCell (xnb c) 2) () N + tallyAt (xrecvCell (xnb c) 1) () N + tallyAt (xrecvCell (xnb c) 0) () N
    + tallyAt (yrecvCell (ynb c) 15) () N + tallyAt (yrecvCell (ynb c) 14) () N + tallyAt (yrecvCell (ynb c) 13) () N + tallyAt (yrecvCell (ynb c) 12) () N + tallyAt (yrecvCell (ynb c) 11) () N + tallyAt (yrecvCell (ynb c) 10) () N + tallyAt (yrecvCell (ynb c) 9) () N + tallyAt (yrecvCell (ynb c) 8) () N + tallyAt (yrecvCell (ynb c) 7) () N + tallyAt (yrecvCell (ynb c) 6) () N + tallyAt (yrecvCell (ynb c) 5) () N + tallyAt (yrecvCell (ynb c) 4) () N + tallyAt (yrecvCell (ynb c) 3) () N + tallyAt (yrecvCell (ynb c) 2) () N + tallyAt (yrecvCell (ynb c) 1) () N + tallyAt (yrecvCell (ynb c) 0) () N
    + tallyAt (barCell (xnb c)) () 1 + tallyAt (barCell (ynb c)) () 1

def L (g : GSem nD τ sig) : Finset Unit := if g.1.2 = .tc then {()} else ∅
/-- The barrier cells at 1, the chunks' receive cells at 2, the forwards' receive cells at 3, everything else at 0: a device waits on a cell
    only while everything it still owes lies above it. -/
def lv (g : GSem nD τ sig) (_ : Unit) : ℕ := match g.2 with
  | .reg s => if s = barS then 1 else 0
  | .dma n => if 33 ≤ n.val ∧ n.val < 49 then 2 else if 65 ≤ n.val then 3 else 0

theorem L_of_ne (g : GSem nD τ sig) (h : g.1.2 ≠ .tc) : L g = ∅ := if_neg h
theorem L_tc (c : Dev nD) (sm : SemLoc sig) : L ((c : Thread nD τ), sm) = {()} := if_pos rfl

/-! ## The ghost state a body starts from -/

section Ghost
variable (K : Dev nD × Option (Fin 4 × Fin 16) → ℕ) (c : Dev nD)

/-- The invariants of the device's own cells, -/
def invsOwn : sProp 𝕄 :=
  iprop(cellInv ER (xRd Sb Yc Xc) (K (c, none)) (barCell c)
    ∗ cellInv ER (xRd Sb Yc Xc) (K (c, some (0, 0))) (ysendCell c 0) ∗ cellInv ER (xRd Sb Yc Xc) (K (c, some (0, 1))) (ysendCell c 1) ∗ cellInv ER (xRd Sb Yc Xc) (K (c, some (0, 2))) (ysendCell c 2) ∗ cellInv ER (xRd Sb Yc Xc) (K (c, some (0, 3))) (ysendCell c 3) ∗ cellInv ER (xRd Sb Yc Xc) (K (c, some (0, 4))) (ysendCell c 4) ∗ cellInv ER (xRd Sb Yc Xc) (K (c, some (0, 5))) (ysendCell c 5) ∗ cellInv ER (xRd Sb Yc Xc) (K (c, some (0, 6))) (ysendCell c 6) ∗ cellInv ER (xRd Sb Yc Xc) (K (c, some (0, 7))) (ysendCell c 7) ∗ cellInv ER (xRd Sb Yc Xc) (K (c, some (0, 8))) (ysendCell c 8) ∗ cellInv ER (xRd Sb Yc Xc) (K (c, some (0, 9))) (ysendCell c 9) ∗ cellInv ER (xRd Sb Yc Xc) (K (c, some (0, 10))) (ysendCell c 10) ∗ cellInv ER (xRd Sb Yc Xc) (K (c, some (0, 11))) (ysendCell c 11) ∗ cellInv ER (xRd Sb Yc Xc) (K (c, some (0, 12))) (ysendCell c 12) ∗ cellInv ER (xRd Sb Yc Xc) (K (c, some (0, 13))) (ysendCell c 13) ∗ cellInv ER (xRd Sb Yc Xc) (K (c, some (0, 14))) (ysendCell c 14) ∗ cellInv ER (xRd Sb Yc Xc) (K (c, some (0, 15))) (ysendCell c 15)
    ∗ cellInv ER (xRd Sb Yc Xc) (K (c, some (1, 0))) (yrecvCell c 0) ∗ cellInv ER (xRd Sb Yc Xc) (K (c, some (1, 1))) (yrecvCell c 1) ∗ cellInv ER (xRd Sb Yc Xc) (K (c, some (1, 2))) (yrecvCell c 2) ∗ cellInv ER (xRd Sb Yc Xc) (K (c, some (1, 3))) (yrecvCell c 3) ∗ cellInv ER (xRd Sb Yc Xc) (K (c, some (1, 4))) (yrecvCell c 4) ∗ cellInv ER (xRd Sb Yc Xc) (K (c, some (1, 5))) (yrecvCell c 5) ∗ cellInv ER (xRd Sb Yc Xc) (K (c, some (1, 6))) (yrecvCell c 6) ∗ cellInv ER (xRd Sb Yc Xc) (K (c, some (1, 7))) (yrecvCell c 7) ∗ cellInv ER (xRd Sb Yc Xc) (K (c, some (1, 8))) (yrecvCell c 8) ∗ cellInv ER (xRd Sb Yc Xc) (K (c, some (1, 9))) (yrecvCell c 9) ∗ cellInv ER (xRd Sb Yc Xc) (K (c, some (1, 10))) (yrecvCell c 10) ∗ cellInv ER (xRd Sb Yc Xc) (K (c, some (1, 11))) (yrecvCell c 11) ∗ cellInv ER (xRd Sb Yc Xc) (K (c, some (1, 12))) (yrecvCell c 12) ∗ cellInv ER (xRd Sb Yc Xc) (K (c, some (1, 13))) (yrecvCell c 13) ∗ cellInv ER (xRd Sb Yc Xc) (K (c, some (1, 14))) (yrecvCell c 14) ∗ cellInv ER (xRd Sb Yc Xc) (K (c, some (1, 15))) (yrecvCell c 15)
    ∗ cellInv ER (xRd Sb Yc Xc) (K (c, some (2, 0))) (fsendCell c 0) ∗ cellInv ER (xRd Sb Yc Xc) (K (c, some (2, 1))) (fsendCell c 1) ∗ cellInv ER (xRd Sb Yc Xc) (K (c, some (2, 2))) (fsendCell c 2) ∗ cellInv ER (xRd Sb Yc Xc) (K (c, some (2, 3))) (fsendCell c 3) ∗ cellInv ER (xRd Sb Yc Xc) (K (c, some (2, 4))) (fsendCell c 4) ∗ cellInv ER (xRd Sb Yc Xc) (K (c, some (2, 5))) (fsendCell c 5) ∗ cellInv ER (xRd Sb Yc Xc) (K (c, some (2, 6))) (fsendCell c 6) ∗ cellInv ER (xRd Sb Yc Xc) (K (c, some (2, 7))) (fsendCell c 7) ∗ cellInv ER (xRd Sb Yc Xc) (K (c, some (2, 8))) (fsendCell c 8) ∗ cellInv ER (xRd Sb Yc Xc) (K (c, some (2, 9))) (fsendCell c 9) ∗ cellInv ER (xRd Sb Yc Xc) (K (c, some (2, 10))) (fsendCell c 10) ∗ cellInv ER (xRd Sb Yc Xc) (K (c, some (2, 11))) (fsendCell c 11) ∗ cellInv ER (xRd Sb Yc Xc) (K (c, some (2, 12))) (fsendCell c 12) ∗ cellInv ER (xRd Sb Yc Xc) (K (c, some (2, 13))) (fsendCell c 13) ∗ cellInv ER (xRd Sb Yc Xc) (K (c, some (2, 14))) (fsendCell c 14) ∗ cellInv ER (xRd Sb Yc Xc) (K (c, some (2, 15))) (fsendCell c 15)
    ∗ cellInv ER (xRd Sb Yc Xc) (K (c, some (3, 0))) (xrecvCell c 0) ∗ cellInv ER (xRd Sb Yc Xc) (K (c, some (3, 1))) (xrecvCell c 1) ∗ cellInv ER (xRd Sb Yc Xc) (K (c, some (3, 2))) (xrecvCell c 2) ∗ cellInv ER (xRd Sb Yc Xc) (K (c, some (3, 3))) (xrecvCell c 3) ∗ cellInv ER (xRd Sb Yc Xc) (K (c, some (3, 4))) (xrecvCell c 4) ∗ cellInv ER (xRd Sb Yc Xc) (K (c, some (3, 5))) (xrecvCell c 5) ∗ cellInv ER (xRd Sb Yc Xc) (K (c, some (3, 6))) (xrecvCell c 6) ∗ cellInv ER (xRd Sb Yc Xc) (K (c, some (3, 7))) (xrecvCell c 7) ∗ cellInv ER (xRd Sb Yc Xc) (K (c, some (3, 8))) (xrecvCell c 8) ∗ cellInv ER (xRd Sb Yc Xc) (K (c, some (3, 9))) (xrecvCell c 9) ∗ cellInv ER (xRd Sb Yc Xc) (K (c, some (3, 10))) (xrecvCell c 10) ∗ cellInv ER (xRd Sb Yc Xc) (K (c, some (3, 11))) (xrecvCell c 11) ∗ cellInv ER (xRd Sb Yc Xc) (K (c, some (3, 12))) (xrecvCell c 12) ∗ cellInv ER (xRd Sb Yc Xc) (K (c, some (3, 13))) (xrecvCell c 13) ∗ cellInv ER (xRd Sb Yc Xc) (K (c, some (3, 14))) (xrecvCell c 14) ∗ cellInv ER (xRd Sb Yc Xc) (K (c, some (3, 15))) (xrecvCell c 15))
/-- and of the neighbours' cells it pays into. -/
def invsPeer : sProp 𝕄 :=
  iprop(cellInv ER (xRd Sb Yc Xc) (K (ynb c, none)) (barCell (ynb c)) ∗ cellInv ER (xRd Sb Yc Xc) (K (xnb c, none)) (barCell (xnb c))
    ∗ cellInv ER (xRd Sb Yc Xc) (K (ynb c, some (1, 0))) (yrecvCell (ynb c) 0) ∗ cellInv ER (xRd Sb Yc Xc) (K (ynb c, some (1, 1))) (yrecvCell (ynb c) 1) ∗ cellInv ER (xRd Sb Yc Xc) (K (ynb c, some (1, 2))) (yrecvCell (ynb c) 2) ∗ cellInv ER (xRd Sb Yc Xc) (K (ynb c, some (1, 3))) (yrecvCell (ynb c) 3) ∗ cellInv ER (xRd Sb Yc Xc) (K (ynb c, some (1, 4))) (yrecvCell (ynb c) 4) ∗ cellInv ER (xRd Sb Yc Xc) (K (ynb c, some (1, 5))) (yrecvCell (ynb c) 5) ∗ cellInv ER (xRd Sb Yc Xc) (K (ynb c, some (1, 6))) (yrecvCell (ynb c) 6) ∗ cellInv ER (xRd Sb Yc Xc) (K (ynb c, some (1, 7))) (yrecvCell (ynb c) 7) ∗ cellInv ER (xRd Sb Yc Xc) (K (ynb c, some (1, 8))) (yrecvCell (ynb c) 8) ∗ cellInv ER (xRd Sb Yc Xc) (K (ynb c, some (1, 9))) (yrecvCell (ynb c) 9) ∗ cellInv ER (xRd Sb Yc Xc) (K (ynb c, some (1, 10))) (yrecvCell (ynb c) 10) ∗ cellInv ER (xRd Sb Yc Xc) (K (ynb c, some (1, 11))) (yrecvCell (ynb c) 11) ∗ cellInv ER (xRd Sb Yc Xc) (K (ynb c, some (1, 12))) (yrecvCell (ynb c) 12) ∗ cellInv ER (xRd Sb Yc Xc) (K (ynb c, some (1, 13))) (yrecvCell (ynb c) 13) ∗ cellInv ER (xRd Sb Yc Xc) (K (ynb c, some (1, 14))) (yrecvCell (ynb c) 14) ∗ cellInv ER (xRd Sb Yc Xc) (K (ynb c, some (1, 15))) (yrecvCell (ynb c) 15)
    ∗ cellInv ER (xRd Sb Yc Xc) (K (xnb c, some (3, 0))) (xrecvCell (xnb c) 0) ∗ cellInv ER (xRd Sb Yc Xc) (K (xnb c, some (3, 1))) (xrecvCell (xnb c) 1) ∗ cellInv ER (xRd Sb Yc Xc) (K (xnb c, some (3, 2))) (xrecvCell (xnb c) 2) ∗ cellInv ER (xRd Sb Yc Xc) (K (xnb c, some (3, 3))) (xrecvCell (xnb c) 3) ∗ cellInv ER (xRd Sb Yc Xc) (K (xnb c, some (3, 4))) (xrecvCell (xnb c) 4) ∗ cellInv ER (xRd Sb Yc Xc) (K (xnb c, some (3, 5))) (xrecvCell (xnb c) 5) ∗ cellInv ER (xRd Sb Yc Xc) (K (xnb c, some (3, 6))) (xrecvCell (xnb c) 6) ∗ cellInv ER (xRd Sb Yc Xc) (K (xnb c, some (3, 7))) (xrecvCell (xnb c) 7) ∗ cellInv ER (xRd Sb Yc Xc) (K (xnb c, some (3, 8))) (xrecvCell (xnb c) 8) ∗ cellInv ER (xRd Sb Yc Xc) (K (xnb c, some (3, 9))) (xrecvCell (xnb c) 9) ∗ cellInv ER (xRd Sb Yc Xc) (K (xnb c, some (3, 10))) (xrecvCell (xnb c) 10) ∗ cellInv ER (xRd Sb Yc Xc) (K (xnb c, some (3, 11))) (xrecvCell (xnb c) 11) ∗ cellInv ER (xRd Sb Yc Xc) (K (xnb c, some (3, 12))) (xrecvCell (xnb c) 12) ∗ cellInv ER (xRd Sb Yc Xc) (K (xnb c, some (3, 13))) (xrecvCell (xnb c) 13) ∗ cellInv ER (xRd Sb Yc Xc) (K (xnb c, some (3, 14))) (xrecvCell (xnb c) 14) ∗ cellInv ER (xRd Sb Yc Xc) (K (xnb c, some (3, 15))) (xrecvCell (xnb c) 15))

set_option synthInstance.maxSize 16384 in
set_option synthInstance.maxHeartbeats 4000000 in
set_option maxHeartbeats 4000000 in
instance invsOwn_persistent : BI.Persistent (invsOwn Sb Yc Xc K c) := by unfold invsOwn; infer_instance
set_option synthInstance.maxSize 16384 in
set_option synthInstance.maxHeartbeats 4000000 in
set_option maxHeartbeats 4000000 in
instance invsPeer_persistent : BI.Persistent (invsPeer Sb Yc Xc K c) := by unfold invsPeer; infer_instance

/-- Its positions: round 0 of each of its own cells, nothing taken; listed in the order the body waits on them (the barrier, the chunks'
    receive cells, the forwards' receive cells, then each chunk's and forward's send cell in turn). -/
def posOwn : sProp 𝕄 :=
  iprop(atPos ER (barCell c) 0 ∅ 0
    ∗ atPos ER (yrecvCell c 0) 0 ∅ 0 ∗ atPos ER (yrecvCell c 1) 0 ∅ 0 ∗ atPos ER (yrecvCell c 2) 0 ∅ 0 ∗ atPos ER (yrecvCell c 3) 0 ∅ 0 ∗ atPos ER (yrecvCell c 4) 0 ∅ 0 ∗ atPos ER (yrecvCell c 5) 0 ∅ 0 ∗ atPos ER (yrecvCell c 6) 0 ∅ 0 ∗ atPos ER (yrecvCell c 7) 0 ∅ 0 ∗ atPos ER (yrecvCell c 8) 0 ∅ 0 ∗ atPos ER (yrecvCell c 9) 0 ∅ 0 ∗ atPos ER (yrecvCell c 10) 0 ∅ 0 ∗ atPos ER (yrecvCell c 11) 0 ∅ 0 ∗ atPos ER (yrecvCell c 12) 0 ∅ 0 ∗ atPos ER (yrecvCell c 13) 0 ∅ 0 ∗ atPos ER (yrecvCell c 14) 0 ∅ 0 ∗ atPos ER (yrecvCell c 15) 0 ∅ 0
    ∗ atPos ER (xrecvCell c 0) 0 ∅ 0 ∗ atPos ER (xrecvCell c 1) 0 ∅ 0 ∗ atPos ER (xrecvCell c 2) 0 ∅ 0 ∗ atPos ER (xrecvCell c 3) 0 ∅ 0 ∗ atPos ER (xrecvCell c 4) 0 ∅ 0 ∗ atPos ER (xrecvCell c 5) 0 ∅ 0 ∗ atPos ER (xrecvCell c 6) 0 ∅ 0 ∗ atPos ER (xrecvCell c 7) 0 ∅ 0 ∗ atPos ER (xrecvCell c 8) 0 ∅ 0 ∗ atPos ER (xrecvCell c 9) 0 ∅ 0 ∗ atPos ER (xrecvCell c 10) 0 ∅ 0 ∗ atPos ER (xrecvCell c 11) 0 ∅ 0 ∗ atPos ER (xrecvCell c 12) 0 ∅ 0 ∗ atPos ER (xrecvCell c 13) 0 ∅ 0 ∗ atPos ER (xrecvCell c 14) 0 ∅ 0 ∗ atPos ER (xrecvCell c 15) 0 ∅ 0
    ∗ atPos ER (ysendCell c 0) 0 ∅ 0 ∗ atPos ER (fsendCell c 0) 0 ∅ 0 ∗ atPos ER (ysendCell c 1) 0 ∅ 0 ∗ atPos ER (fsendCell c 1) 0 ∅ 0 ∗ atPos ER (ysendCell c 2) 0 ∅ 0 ∗ atPos ER (fsendCell c 2) 0 ∅ 0 ∗ atPos ER (ysendCell c 3) 0 ∅ 0 ∗ atPos ER (fsendCell c 3) 0 ∅ 0 ∗ atPos ER (ysendCell c 4) 0 ∅ 0 ∗ atPos ER (fsendCell c 4) 0 ∅ 0 ∗ atPos ER (ysendCell c 5) 0 ∅ 0 ∗ atPos ER (fsendCell c 5) 0 ∅ 0 ∗ atPos ER (ysendCell c 6) 0 ∅ 0 ∗ atPos ER (fsendCell c 6) 0 ∅ 0 ∗ atPos ER (ysendCell c 7) 0 ∅ 0 ∗ atPos ER (fsendCell c 7) 0 ∅ 0 ∗ atPos ER (ysendCell c 8) 0 ∅ 0 ∗ atPos ER (fsendCell c 8) 0 ∅ 0 ∗ atPos ER (ysendCell c 9) 0 ∅ 0 ∗ atPos ER (fsendCell c 9) 0 ∅ 0 ∗ atPos ER (ysendCell c 10) 0 ∅ 0 ∗ atPos ER (fsendCell c 10) 0 ∅ 0 ∗ atPos ER (ysendCell c 11) 0 ∅ 0 ∗ atPos ER (fsendCell c 11) 0 ∅ 0 ∗ atPos ER (ysendCell c 12) 0 ∅ 0 ∗ atPos ER (fsendCell c 12) 0 ∅ 0 ∗ atPos ER (ysendCell c 13) 0 ∅ 0 ∗ atPos ER (fsendCell c 13) 0 ∅ 0 ∗ atPos ER (ysendCell c 14) 0 ∅ 0 ∗ atPos ER (fsendCell c 14) 0 ∅ 0 ∗ atPos ER (ysendCell c 15) 0 ∅ 0 ∗ atPos ER (fsendCell c 15) 0 ∅ 0)

/-- Round 0 reached: of the cells it pays into, of its own send cells (it pays those itself), and of its own receive cells (it tells its
    neighbours so with the barrier signal). -/
def reachedAll : sProp 𝕄 :=
  iprop(reached ER (barCell (ynb c)) 0 ∗ reached ER (barCell (xnb c)) 0
    ∗ reached ER (yrecvCell (ynb c) 0) 0 ∗ reached ER (yrecvCell (ynb c) 1) 0 ∗ reached ER (yrecvCell (ynb c) 2) 0 ∗ reached ER (yrecvCell (ynb c) 3) 0 ∗ reached ER (yrecvCell (ynb c) 4) 0 ∗ reached ER (yrecvCell (ynb c) 5) 0 ∗ reached ER (yrecvCell (ynb c) 6) 0 ∗ reached ER (yrecvCell (ynb c) 7) 0 ∗ reached ER (yrecvCell (ynb c) 8) 0 ∗ reached ER (yrecvCell (ynb c) 9) 0 ∗ reached ER (yrecvCell (ynb c) 10) 0 ∗ reached ER (yrecvCell (ynb c) 11) 0 ∗ reached ER (yrecvCell (ynb c) 12) 0 ∗ reached ER (yrecvCell (ynb c) 13) 0 ∗ reached ER (yrecvCell (ynb c) 14) 0 ∗ reached ER (yrecvCell (ynb c) 15) 0
    ∗ reached ER (xrecvCell (xnb c) 0) 0 ∗ reached ER (xrecvCell (xnb c) 1) 0 ∗ reached ER (xrecvCell (xnb c) 2) 0 ∗ reached ER (xrecvCell (xnb c) 3) 0 ∗ reached ER (xrecvCell (xnb c) 4) 0 ∗ reached ER (xrecvCell (xnb c) 5) 0 ∗ reached ER (xrecvCell (xnb c) 6) 0 ∗ reached ER (xrecvCell (xnb c) 7) 0 ∗ reached ER (xrecvCell (xnb c) 8) 0 ∗ reached ER (xrecvCell (xnb c) 9) 0 ∗ reached ER (xrecvCell (xnb c) 10) 0 ∗ reached ER (xrecvCell (xnb c) 11) 0 ∗ reached ER (xrecvCell (xnb c) 12) 0 ∗ reached ER (xrecvCell (xnb c) 13) 0 ∗ reached ER (xrecvCell (xnb c) 14) 0 ∗ reached ER (xrecvCell (xnb c) 15) 0
    ∗ reached ER (ysendCell c 0) 0 ∗ reached ER (ysendCell c 1) 0 ∗ reached ER (ysendCell c 2) 0 ∗ reached ER (ysendCell c 3) 0 ∗ reached ER (ysendCell c 4) 0 ∗ reached ER (ysendCell c 5) 0 ∗ reached ER (ysendCell c 6) 0 ∗ reached ER (ysendCell c 7) 0 ∗ reached ER (ysendCell c 8) 0 ∗ reached ER (ysendCell c 9) 0 ∗ reached ER (ysendCell c 10) 0 ∗ reached ER (ysendCell c 11) 0 ∗ reached ER (ysendCell c 12) 0 ∗ reached ER (ysendCell c 13) 0 ∗ reached ER (ysendCell c 14) 0 ∗ reached ER (ysendCell c 15) 0
    ∗ reached ER (yrecvCell c 0) 0 ∗ reached ER (yrecvCell c 1) 0 ∗ reached ER (yrecvCell c 2) 0 ∗ reached ER (yrecvCell c 3) 0 ∗ reached ER (yrecvCell c 4) 0 ∗ reached ER (yrecvCell c 5) 0 ∗ reached ER (yrecvCell c 6) 0 ∗ reached ER (yrecvCell c 7) 0 ∗ reached ER (yrecvCell c 8) 0 ∗ reached ER (yrecvCell c 9) 0 ∗ reached ER (yrecvCell c 10) 0 ∗ reached ER (yrecvCell c 11) 0 ∗ reached ER (yrecvCell c 12) 0 ∗ reached ER (yrecvCell c 13) 0 ∗ reached ER (yrecvCell c 14) 0 ∗ reached ER (yrecvCell c 15) 0
    ∗ reached ER (fsendCell c 0) 0 ∗ reached ER (fsendCell c 1) 0 ∗ reached ER (fsendCell c 2) 0 ∗ reached ER (fsendCell c 3) 0 ∗ reached ER (fsendCell c 4) 0 ∗ reached ER (fsendCell c 5) 0 ∗ reached ER (fsendCell c 6) 0 ∗ reached ER (fsendCell c 7) 0 ∗ reached ER (fsendCell c 8) 0 ∗ reached ER (fsendCell c 9) 0 ∗ reached ER (fsendCell c 10) 0 ∗ reached ER (fsendCell c 11) 0 ∗ reached ER (fsendCell c 12) 0 ∗ reached ER (fsendCell c 13) 0 ∗ reached ER (fsendCell c 14) 0 ∗ reached ER (fsendCell c 15) 0
    ∗ reached ER (xrecvCell c 0) 0 ∗ reached ER (xrecvCell c 1) 0 ∗ reached ER (xrecvCell c 2) 0 ∗ reached ER (xrecvCell c 3) 0 ∗ reached ER (xrecvCell c 4) 0 ∗ reached ER (xrecvCell c 5) 0 ∗ reached ER (xrecvCell c 6) 0 ∗ reached ER (xrecvCell c 7) 0 ∗ reached ER (xrecvCell c 8) 0 ∗ reached ER (xrecvCell c 9) 0 ∗ reached ER (xrecvCell c 10) 0 ∗ reached ER (xrecvCell c 11) 0 ∗ reached ER (xrecvCell c 12) 0 ∗ reached ER (xrecvCell c 13) 0 ∗ reached ER (xrecvCell c 14) 0 ∗ reached ER (xrecvCell c 15) 0)

set_option synthInstance.maxSize 16384 in
set_option synthInstance.maxHeartbeats 4000000 in
set_option maxHeartbeats 4000000 in
instance reachedAll_persistent : BI.Persistent (reachedAll (F := F) c) := by unfold reachedAll; infer_instance

/-- The tokens of the duties it pays, in the order it pays them: a chunk's two cells together, then a forward's two cells together. -/
def payToks : sProp 𝕄 :=
  iprop(dutyTok ER (barCell (ynb c)) 0 false ∗ dutyTok ER (barCell (xnb c)) 0 true
    ∗ dutyTok ER (ysendCell c 0) 0 false ∗ dutyTok ER (yrecvCell (ynb c) 0) 0 false ∗ dutyTok ER (ysendCell c 1) 0 false ∗ dutyTok ER (yrecvCell (ynb c) 1) 0 false ∗ dutyTok ER (ysendCell c 2) 0 false ∗ dutyTok ER (yrecvCell (ynb c) 2) 0 false ∗ dutyTok ER (ysendCell c 3) 0 false ∗ dutyTok ER (yrecvCell (ynb c) 3) 0 false ∗ dutyTok ER (ysendCell c 4) 0 false ∗ dutyTok ER (yrecvCell (ynb c) 4) 0 false ∗ dutyTok ER (ysendCell c 5) 0 false ∗ dutyTok ER (yrecvCell (ynb c) 5) 0 false ∗ dutyTok ER (ysendCell c 6) 0 false ∗ dutyTok ER (yrecvCell (ynb c) 6) 0 false ∗ dutyTok ER (ysendCell c 7) 0 false ∗ dutyTok ER (yrecvCell (ynb c) 7) 0 false ∗ dutyTok ER (ysendCell c 8) 0 false ∗ dutyTok ER (yrecvCell (ynb c) 8) 0 false ∗ dutyTok ER (ysendCell c 9) 0 false ∗ dutyTok ER (yrecvCell (ynb c) 9) 0 false ∗ dutyTok ER (ysendCell c 10) 0 false ∗ dutyTok ER (yrecvCell (ynb c) 10) 0 false ∗ dutyTok ER (ysendCell c 11) 0 false ∗ dutyTok ER (yrecvCell (ynb c) 11) 0 false ∗ dutyTok ER (ysendCell c 12) 0 false ∗ dutyTok ER (yrecvCell (ynb c) 12) 0 false ∗ dutyTok ER (ysendCell c 13) 0 false ∗ dutyTok ER (yrecvCell (ynb c) 13) 0 false ∗ dutyTok ER (ysendCell c 14) 0 false ∗ dutyTok ER (yrecvCell (ynb c) 14) 0 false ∗ dutyTok ER (ysendCell c 15) 0 false ∗ dutyTok ER (yrecvCell (ynb c) 15) 0 false
    ∗ dutyTok ER (fsendCell c 0) 0 false ∗ dutyTok ER (xrecvCell (xnb c) 0) 0 false ∗ dutyTok ER (fsendCell c 1) 0 false ∗ dutyTok ER (xrecvCell (xnb c) 1) 0 false ∗ dutyTok ER (fsendCell c 2) 0 false ∗ dutyTok ER (xrecvCell (xnb c) 2) 0 false ∗ dutyTok ER (fsendCell c 3) 0 false ∗ dutyTok ER (xrecvCell (xnb c) 3) 0 false ∗ dutyTok ER (fsendCell c 4) 0 false ∗ dutyTok ER (xrecvCell (xnb c) 4) 0 false ∗ dutyTok ER (fsendCell c 5) 0 false ∗ dutyTok ER (xrecvCell (xnb c) 5) 0 false ∗ dutyTok ER (fsendCell c 6) 0 false ∗ dutyTok ER (xrecvCell (xnb c) 6) 0 false ∗ dutyTok ER (fsendCell c 7) 0 false ∗ dutyTok ER (xrecvCell (xnb c) 7) 0 false ∗ dutyTok ER (fsendCell c 8) 0 false ∗ dutyTok ER (xrecvCell (xnb c) 8) 0 false ∗ dutyTok ER (fsendCell c 9) 0 false ∗ dutyTok ER (xrecvCell (xnb c) 9) 0 false ∗ dutyTok ER (fsendCell c 10) 0 false ∗ dutyTok ER (xrecvCell (xnb c) 10) 0 false ∗ dutyTok ER (fsendCell c 11) 0 false ∗ dutyTok ER (xrecvCell (xnb c) 11) 0 false ∗ dutyTok ER (fsendCell c 12) 0 false ∗ dutyTok ER (xrecvCell (xnb c) 12) 0 false ∗ dutyTok ER (fsendCell c 13) 0 false ∗ dutyTok ER (xrecvCell (xnb c) 13) 0 false ∗ dutyTok ER (fsendCell c 14) 0 false ∗ dutyTok ER (xrecvCell (xnb c) 14) 0 false ∗ dutyTok ER (fsendCell c 15) 0 false ∗ dutyTok ER (xrecvCell (xnb c) 15) 0 false)

def ghost : sProp 𝕄 := iprop(invsOwn Sb Yc Xc K c ∗ invsPeer Sb Yc Xc K c ∗ reachedAll c ∗ posOwn c ∗ payToks c)

end Ghost

/-- The credit dealt at launch: two barrier units, a chunk on each of the thirty-two receive cells. -/
def creds (c : Dev nD) : sProp 𝕄 :=
  iprop(cred (tallyAt (barCell c) () 2)
    ∗ cred (tallyAt (yrecvCell c 0) () N) ∗ cred (tallyAt (yrecvCell c 1) () N) ∗ cred (tallyAt (yrecvCell c 2) () N) ∗ cred (tallyAt (yrecvCell c 3) () N) ∗ cred (tallyAt (yrecvCell c 4) () N) ∗ cred (tallyAt (yrecvCell c 5) () N) ∗ cred (tallyAt (yrecvCell c 6) () N) ∗ cred (tallyAt (yrecvCell c 7) () N) ∗ cred (tallyAt (yrecvCell c 8) () N) ∗ cred (tallyAt (yrecvCell c 9) () N) ∗ cred (tallyAt (yrecvCell c 10) () N) ∗ cred (tallyAt (yrecvCell c 11) () N) ∗ cred (tallyAt (yrecvCell c 12) () N) ∗ cred (tallyAt (yrecvCell c 13) () N) ∗ cred (tallyAt (yrecvCell c 14) () N) ∗ cred (tallyAt (yrecvCell c 15) () N)
    ∗ cred (tallyAt (xrecvCell c 0) () N) ∗ cred (tallyAt (xrecvCell c 1) () N) ∗ cred (tallyAt (xrecvCell c 2) () N) ∗ cred (tallyAt (xrecvCell c 3) () N) ∗ cred (tallyAt (xrecvCell c 4) () N) ∗ cred (tallyAt (xrecvCell c 5) () N) ∗ cred (tallyAt (xrecvCell c 6) () N) ∗ cred (tallyAt (xrecvCell c 7) () N) ∗ cred (tallyAt (xrecvCell c 8) () N) ∗ cred (tallyAt (xrecvCell c 9) () N) ∗ cred (tallyAt (xrecvCell c 10) () N) ∗ cred (tallyAt (xrecvCell c 11) () N) ∗ cred (tallyAt (xrecvCell c 12) () N) ∗ cred (tallyAt (xrecvCell c 13) () N) ∗ cred (tallyAt (xrecvCell c 14) () N) ∗ cred (tallyAt (xrecvCell c 15) () N))

/-- The sixteen semaphores of the local copies, at zero. -/
def locals0 (c : Dev nD) : sProp 𝕄 :=
  iprop(semVal ((c : Thread nD τ), SemLoc.dma (copyS 0)) 0 ∗ semVal ((c : Thread nD τ), SemLoc.dma (copyS 1)) 0 ∗ semVal ((c : Thread nD τ), SemLoc.dma (copyS 2)) 0 ∗ semVal ((c : Thread nD τ), SemLoc.dma (copyS 3)) 0 ∗ semVal ((c : Thread nD τ), SemLoc.dma (copyS 4)) 0 ∗ semVal ((c : Thread nD τ), SemLoc.dma (copyS 5)) 0 ∗ semVal ((c : Thread nD τ), SemLoc.dma (copyS 6)) 0 ∗ semVal ((c : Thread nD τ), SemLoc.dma (copyS 7)) 0
    ∗ semVal ((c : Thread nD τ), SemLoc.dma (outS 0)) 0 ∗ semVal ((c : Thread nD τ), SemLoc.dma (outS 1)) 0 ∗ semVal ((c : Thread nD τ), SemLoc.dma (outS 2)) 0 ∗ semVal ((c : Thread nD τ), SemLoc.dma (outS 3)) 0 ∗ semVal ((c : Thread nD τ), SemLoc.dma (outS 4)) 0 ∗ semVal ((c : Thread nD τ), SemLoc.dma (outS 5)) 0 ∗ semVal ((c : Thread nD τ), SemLoc.dma (outS 6)) 0 ∗ semVal ((c : Thread nD τ), SemLoc.dma (outS 7)) 0)
/-- The sixty-four transfer semaphores, at zero. -/
def xfers0 (c : Dev nD) : sProp 𝕄 :=
  iprop(semVal (ysendCell c 0) 0 ∗ semVal (ysendCell c 1) 0 ∗ semVal (ysendCell c 2) 0 ∗ semVal (ysendCell c 3) 0 ∗ semVal (ysendCell c 4) 0 ∗ semVal (ysendCell c 5) 0 ∗ semVal (ysendCell c 6) 0 ∗ semVal (ysendCell c 7) 0 ∗ semVal (ysendCell c 8) 0 ∗ semVal (ysendCell c 9) 0 ∗ semVal (ysendCell c 10) 0 ∗ semVal (ysendCell c 11) 0 ∗ semVal (ysendCell c 12) 0 ∗ semVal (ysendCell c 13) 0 ∗ semVal (ysendCell c 14) 0 ∗ semVal (ysendCell c 15) 0
    ∗ semVal (yrecvCell c 0) 0 ∗ semVal (yrecvCell c 1) 0 ∗ semVal (yrecvCell c 2) 0 ∗ semVal (yrecvCell c 3) 0 ∗ semVal (yrecvCell c 4) 0 ∗ semVal (yrecvCell c 5) 0 ∗ semVal (yrecvCell c 6) 0 ∗ semVal (yrecvCell c 7) 0 ∗ semVal (yrecvCell c 8) 0 ∗ semVal (yrecvCell c 9) 0 ∗ semVal (yrecvCell c 10) 0 ∗ semVal (yrecvCell c 11) 0 ∗ semVal (yrecvCell c 12) 0 ∗ semVal (yrecvCell c 13) 0 ∗ semVal (yrecvCell c 14) 0 ∗ semVal (yrecvCell c 15) 0
    ∗ semVal (fsendCell c 0) 0 ∗ semVal (fsendCell c 1) 0 ∗ semVal (fsendCell c 2) 0 ∗ semVal (fsendCell c 3) 0 ∗ semVal (fsendCell c 4) 0 ∗ semVal (fsendCell c 5) 0 ∗ semVal (fsendCell c 6) 0 ∗ semVal (fsendCell c 7) 0 ∗ semVal (fsendCell c 8) 0 ∗ semVal (fsendCell c 9) 0 ∗ semVal (fsendCell c 10) 0 ∗ semVal (fsendCell c 11) 0 ∗ semVal (fsendCell c 12) 0 ∗ semVal (fsendCell c 13) 0 ∗ semVal (fsendCell c 14) 0 ∗ semVal (fsendCell c 15) 0
    ∗ semVal (xrecvCell c 0) 0 ∗ semVal (xrecvCell c 1) 0 ∗ semVal (xrecvCell c 2) 0 ∗ semVal (xrecvCell c 3) 0 ∗ semVal (xrecvCell c 4) 0 ∗ semVal (xrecvCell c 5) 0 ∗ semVal (xrecvCell c 6) 0 ∗ semVal (xrecvCell c 7) 0 ∗ semVal (xrecvCell c 8) 0 ∗ semVal (xrecvCell c 9) 0 ∗ semVal (xrecvCell c 10) 0 ∗ semVal (xrecvCell c 11) 0 ∗ semVal (xrecvCell c 12) 0 ∗ semVal (xrecvCell c 13) 0 ∗ semVal (xrecvCell c 14) 0 ∗ semVal (xrecvCell c 15) 0)

/-- The two device-memory arrays the kernel routes itself: the second argument as launched and the result at contents `o`. -/
def hbm (c : Dev nD) (o : Buf (Elt F) ((c : Thread nD τ).loc main_v1)) : sProp 𝕄 :=
  iprop((((c : Thread nD τ).loc main_arg1) ↦{fullShare} m ((c : Thread nD τ).loc main_arg1)) ∗ (((c : Thread nD τ).loc main_v1) ↦{fullShare} o))

/-- The five scratch buffers, whole, at any contents. -/
def scratch (c : Dev nD) : sProp 𝕄 :=
  iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f))

/-- What device `c`'s body starts from, less the scratch buffers. -/
def start (c : Dev nD) : sProp 𝕄 :=
  iprop((∃ K, ghost Sb Yc Xc K c) ∗ creds c ∗ levAts L lv ∗ locals0 c ∗ hbm m c (m ((c : Thread nD τ).loc main_v1)))

def Φ₀ (c : Dev nD) : sProp 𝕄 := iprop(start m Sb Yc Xc c ∗ scratch c)
/-- After the point: every semaphore of the kernel's own at zero, the scratch buffers, the result at contents the predicate holds of. -/
def Φ₁ (c : Dev nD) : sProp 𝕄 :=
  iprop(locals0 c ∗ xfers0 c ∗ scratch c ∗ ∃ o : Buf (Elt F) ((c : Thread nD τ).loc main_v1), ⌜OutP c o⌝ ∗ hbm m c o)

def dats (_ : Fin 1) (c : Dev nD) : Dat τ (Elt F) Unit ℕ UU ℕ cfg0 c where
  A w := m ((cfg0.win w).arr.view.loc (c : Thread nD τ))
  after w _ := match w with
    | ⟨0, _⟩ => xstg m c
  Φ t := match t with
    | ⟨0, _⟩ => Φ₀ m Sb Yc Xc c
    | ⟨_ + 1, _⟩ => Φ₁ m OutP c
  q _ := fullShare
  owed t := match t with
    | ⟨0, _⟩ => O₀ c
    | ⟨_ + 1, _⟩ => 0

abbrev 𝒱₀ : Variants := Variants.none

end Cert.Kernel.Hand

end
-- ==== Proof.LedgerK.lean ====
import proofs.«901046_g7700000000001047_dist_rsdw_v7x_xy2x2_y_m1024_d1024_f4096_f32_1_alg».proof.Proof.Gen.Kernel
import proofs.«901046_g7700000000001047_dist_rsdw_v7x_xy2x2_y_m1024_d1024_f4096_f32_1_alg».proof.Proof.Gen.Kernel.Skeleton
import proofs.«901046_g7700000000001047_dist_rsdw_v7x_xy2x2_y_m1024_d1024_f4096_f32_1_alg».proof.Proof.Gen.Kernel.Launch
import proofs.«901046_g7700000000001047_dist_rsdw_v7x_xy2x2_y_m1024_d1024_f4096_f32_1_alg».proof.Proof.Gen.Kernel.Points
import proofs.«901046_g7700000000001047_dist_rsdw_v7x_xy2x2_y_m1024_d1024_f4096_f32_1_alg».proof.Proof.SchedK
import Idealize.ShloMosaic.Lib.Pipeline.Launch
import Idealize.ShloMosaic.Lib.Pipeline.Kit
import Idealize.ShloMosaic.Lib.Tactic

import proofs.«901046_g7700000000001047_dist_rsdw_v7x_xy2x2_y_m1024_d1024_f4096_f32_1_alg».proof.Proof.ProtoK

/-! The levels' ledger and the credit dealt at launch.

A device may wait on one of its cells only while everything it still owes lies strictly above that cell in the levels: the local
copies, the send cells and the staging cell at 0, the barrier cells at 1, the chunks' receive cells at 2, the forwards' receive cells
at 3. What a device owes is a sum of one-cell tallies, so the condition is checked summand by summand. At launch every cell is dealt
the credit the devices owe it in all: a barrier cell two units (one from each neighbour), a receive cell one chunk. -/

set_option maxRecDepth 16384

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (Sb : (c : Dev nD) → (j : Fin 16) → Buf (Elt F) ((sslot j).view.loc (c : Thread nD τ)))
variable (Yc : (c : Dev nD) → (j : Fin 16) → Buf (Elt F) ((yslot j).view.loc (c : Thread nD τ)))
variable (Xc : (c : Dev nD) → (j : Fin 16) → Buf (Elt F) ((xslot j).view.loc (c : Thread nD τ)))
variable (OutP : (c : Dev nD) → Buf (Elt F) ((c : Thread nD τ).loc main_v1) → Prop)

/-! ## The levels of our cells -/

theorem lv_bar (c : Dev nD) : lv (barCell c) () = 1 := by
  show (if barS = barS then 1 else 0) = 1
  exact if_pos rfl
theorem lv_yrecv (c : Dev nD) (j : Fin 16) : lv (yrecvCell c j) () = 2 := by
  show (if 33 ≤ (yrecvS j).val ∧ (yrecvS j).val < 49 then 2 else if 65 ≤ (yrecvS j).val then 3 else 0) = 2
  rw [yrecvS_val, if_pos (by have := j.isLt; omega)]
theorem lv_xrecv (c : Dev nD) (j : Fin 16) : lv (xrecvCell c j) () = 3 := by
  show (if 33 ≤ (xrecvS j).val ∧ (xrecvS j).val < 49 then 2 else if 65 ≤ (xrecvS j).val then 3 else 0) = 3
  rw [xrecvS_val, if_neg (by omega), if_pos (by omega)]
theorem lv_ysend (c : Dev nD) (j : Fin 16) : lv (ysendCell c j) () = 0 := by
  show (if 33 ≤ (ysendS j).val ∧ (ysendS j).val < 49 then 2 else if 65 ≤ (ysendS j).val then 3 else 0) = 0
  rw [ysendS_val, if_neg (by have := j.isLt; omega), if_neg (by have := j.isLt; omega)]
theorem lv_fsend (c : Dev nD) (j : Fin 16) : lv (fsendCell c j) () = 0 := by
  show (if 33 ≤ (fsendS j).val ∧ (fsendS j).val < 49 then 2 else if 65 ≤ (fsendS j).val then 3 else 0) = 0
  rw [fsendS_val, if_neg (by omega), if_neg (by have := j.isLt; omega)]
theorem lv_copy (c : Dev nD) (j : Fin 8) : lv ((c : Thread nD τ), SemLoc.dma (copyS j)) () = 0 := by
  show (if 33 ≤ (copyS j).val ∧ (copyS j).val < 49 then 2 else if 65 ≤ (copyS j).val then 3 else 0) = 0
  rw [copyS_val, if_neg (by have := j.isLt; omega), if_neg (by have := j.isLt; omega)]
theorem lv_out (c : Dev nD) (j : Fin 8) : lv ((c : Thread nD τ), SemLoc.dma (outS j)) () = 0 := by
  show (if 33 ≤ (outS j).val ∧ (outS j).val < 49 then 2 else if 65 ≤ (outS j).val then 3 else 0) = 0
  rw [outS_val, if_neg (by have := j.isLt; omega), if_neg (by have := j.isLt; omega)]
/-- The staging cell of the one pipelined window: DMA semaphore 0. -/
theorem lv_stage (c : Dev nD) : lv ((c : Thread nD τ), SemLoc.dma (0 : DmaSem sig)) () = 0 := rfl

/-- The level of a cell by its semaphore alone: the device plays no part. -/
def lvS : SemLoc sig → ℕ
  | .reg s => if s = barS then 1 else 0
  | .dma n => if 33 ≤ n.val ∧ n.val < 49 then 2 else if 65 ≤ n.val then 3 else 0

theorem lv_eq (g : GSem nD τ sig) (u : Unit) : lv g u = lvS g.2 := by
  unfold lv lvS; rfl

theorem lvS_bar : lvS (.reg barS) = 1 := (lv_eq (barCell (0 : Dev nD)) ()).symm.trans (lv_bar 0)
theorem lvS_yrecv (j : Fin 16) : lvS (.dma (yrecvS j)) = 2 := (lv_eq (yrecvCell (0 : Dev nD) j) ()).symm.trans (lv_yrecv 0 j)
theorem lvS_xrecv (j : Fin 16) : lvS (.dma (xrecvS j)) = 3 := (lv_eq (xrecvCell (0 : Dev nD) j) ()).symm.trans (lv_xrecv 0 j)
theorem lvS_ysend (j : Fin 16) : lvS (.dma (ysendS j)) = 0 := (lv_eq (ysendCell (0 : Dev nD) j) ()).symm.trans (lv_ysend 0 j)
theorem lvS_fsend (j : Fin 16) : lvS (.dma (fsendS j)) = 0 := (lv_eq (fsendCell (0 : Dev nD) j) ()).symm.trans (lv_fsend 0 j)
theorem lvS_copy (j : Fin 8) : lvS (.dma (copyS j)) = 0 := (lv_eq (((0 : Dev nD) : Thread nD τ), SemLoc.dma (copyS j)) ()).symm.trans (lv_copy 0 j)
theorem lvS_out (j : Fin 8) : lvS (.dma (outS j)) = 0 := (lv_eq (((0 : Dev nD) : Thread nD τ), SemLoc.dma (outS j)) ()).symm.trans (lv_out 0 j)
theorem lvS_stage : lvS (.dma (0 : DmaSem sig)) = 0 := rfl

/-! ## Everything owed lies above the cell waited on -/

/-- Every cell `O` owes something to is a TensorCore's and lies strictly above the cell `sm` of device `c`. -/
def Below (c : Dev nD) (sm : SemLoc sig) (O : CellTallies nD τ sig Unit) : Prop :=
  ∀ (g : GSem nD τ sig) (i : Unit), 0 < O g i → i ∈ L g ∧ lv ((c : Thread nD τ), sm) () < lv g i

omit [FloatOps F] in
/-- Then the device may wait on `sm` while owing `O`. -/
theorem mayWait_below (c : Dev nD) (sm : SemLoc sig) (O : CellTallies nD τ sig Unit) (h : Below c sm O) :
    (levAts L lv : sProp 𝕄) ⊢ MayWait (c : Thread nD τ) sm () O :=
  Pipeline.mayWait_of_levAts (by rw [L_tc]; exact Finset.mem_singleton_self _) h

theorem below_zero (c : Dev nD) (sm : SemLoc sig) : Below c sm 0 :=
  fun g i h => absurd h (Nat.lt_irrefl 0)

theorem below_tally (c : Dev nD) (sm : SemLoc sig) (g : GSem nD τ sig) (n : ℕ)
    (hg : g.1.2 = .tc ∧ lv ((c : Thread nD τ), sm) () < lv g ()) : Below c sm (tallyAt g () n) := fun g' i h => by
  obtain ⟨rfl, rfl⟩ := Pipeline.tallyAt_pos h
  exact ⟨by unfold L; rw [if_pos hg.1]; exact Finset.mem_singleton_self _, hg.2⟩

/-- The same by the semaphores' levels: however the cell waited on is spelled, its level is computed from the semaphore. -/
theorem below_tally_S (c : Dev nD) (sm : SemLoc sig) (g : GSem nD τ sig) (n : ℕ)
    (hg : g.1.2 = .tc) (h : lvS sm < lvS g.2) : Below c sm (tallyAt g () n) :=
  below_tally c sm g n ⟨hg, by rw [lv_eq, lv_eq]; exact h⟩

theorem below_sum (c : Dev nD) (sm : SemLoc sig) (O₁ O₂ : CellTallies nD τ sig Unit)
    (h₁ : Below c sm O₁) (h₂ : Below c sm O₂) : Below c sm (O₁ + O₂) := fun g i h => by
  rcases Pipeline.add_pos_cases h with h | h
  · exact h₁ g i h
  · exact h₂ g i h

theorem below_add (c : Dev nD) (sm : SemLoc sig) (O : CellTallies nD τ sig Unit) (g : GSem nD τ sig) (n : ℕ)
    (hO : Below c sm O) (hg : g.1.2 = .tc ∧ lv ((c : Thread nD τ), sm) () < lv g ()) : Below c sm (O + tallyAt g () n) :=
  below_sum c sm O _ hO (below_tally c sm g n hg)

theorem below_add_iff (c : Dev nD) (sm : SemLoc sig) (O₁ O₂ : CellTallies nD τ sig Unit) :
    Below c sm (O₁ + O₂) ↔ Below c sm O₁ ∧ Below c sm O₂ :=
  ⟨fun h => ⟨fun g i hp => h g i (by rw [Pi.add_apply, Finsupp.add_apply]; exact Nat.lt_of_lt_of_le hp (Nat.le_add_right _ _)),
      fun g i hp => h g i (by rw [Pi.add_apply, Finsupp.add_apply]; exact Nat.lt_of_lt_of_le hp (Nat.le_add_left _ _))⟩,
    fun h => below_sum c sm O₁ O₂ h.1 h.2⟩

theorem below_zero_iff (c : Dev nD) (sm : SemLoc sig) : Below c sm 0 ↔ True := ⟨fun _ => trivial, fun _ => below_zero c sm⟩

/-- Decides `Below c sm O` for `O` a sum, in any grouping, of one-cell tallies at barrier and receive cells (or `0`), and `sm` one of
    our cells however it is spelled: the sum is split into its summands, each is settled by the two semaphores' levels — computed
    outright when both are closed terms, through the table above when an index is a variable. -/
scoped macro "below" : tactic => `(tactic|
  ((try unfold O₀)
   (try simp only [below_add_iff, below_zero_iff, and_true, true_and])
   (repeat' apply And.intro)
   all_goals (refine below_tally_S _ _ _ _ rfl ?_
              (try dsimp only)
              first
                | decide
                | (simp only [lvS_bar, lvS_yrecv, lvS_xrecv, lvS_ysend, lvS_fsend, lvS_copy, lvS_out, lvS_stage]; decide))))

example (c : Dev nD) : Below c (.dma (copyS 3)) (O₀ c) := by below
example (c : Dev nD) : Below c (.reg barS) (tallyAt (yrecvCell (ynb c) 0) () N + tallyAt (yrecvCell (ynb c) 1) () N + tallyAt (yrecvCell (ynb c) 2) () N + tallyAt (yrecvCell (ynb c) 3) () N + tallyAt (yrecvCell (ynb c) 4) () N + tallyAt (yrecvCell (ynb c) 5) () N + tallyAt (yrecvCell (ynb c) 6) () N + tallyAt (yrecvCell (ynb c) 7) () N + tallyAt (yrecvCell (ynb c) 8) () N + tallyAt (yrecvCell (ynb c) 9) () N + tallyAt (yrecvCell (ynb c) 10) () N + tallyAt (yrecvCell (ynb c) 11) () N + tallyAt (yrecvCell (ynb c) 12) () N + tallyAt (yrecvCell (ynb c) 13) () N + tallyAt (yrecvCell (ynb c) 14) () N + tallyAt (yrecvCell (ynb c) 15) () N + tallyAt (xrecvCell (xnb c) 0) () N + tallyAt (xrecvCell (xnb c) 1) () N + tallyAt (xrecvCell (xnb c) 2) () N + tallyAt (xrecvCell (xnb c) 3) () N + tallyAt (xrecvCell (xnb c) 4) () N + tallyAt (xrecvCell (xnb c) 5) () N + tallyAt (xrecvCell (xnb c) 6) () N + tallyAt (xrecvCell (xnb c) 7) () N + tallyAt (xrecvCell (xnb c) 8) () N + tallyAt (xrecvCell (xnb c) 9) () N + tallyAt (xrecvCell (xnb c) 10) () N + tallyAt (xrecvCell (xnb c) 11) () N + tallyAt (xrecvCell (xnb c) 12) () N + tallyAt (xrecvCell (xnb c) 13) () N + tallyAt (xrecvCell (xnb c) 14) () N + tallyAt (xrecvCell (xnb c) 15) () N) := by below
example (c : Dev nD) : Below c (.dma (yrecvS 5)) (tallyAt (xrecvCell (xnb c) 0) () N + tallyAt (xrecvCell (xnb c) 1) () N + tallyAt (xrecvCell (xnb c) 2) () N + tallyAt (xrecvCell (xnb c) 3) () N + tallyAt (xrecvCell (xnb c) 4) () N + tallyAt (xrecvCell (xnb c) 5) () N + tallyAt (xrecvCell (xnb c) 6) () N + tallyAt (xrecvCell (xnb c) 7) () N + tallyAt (xrecvCell (xnb c) 8) () N + tallyAt (xrecvCell (xnb c) 9) () N + tallyAt (xrecvCell (xnb c) 10) () N + tallyAt (xrecvCell (xnb c) 11) () N + tallyAt (xrecvCell (xnb c) 12) () N + tallyAt (xrecvCell (xnb c) 13) () N + tallyAt (xrecvCell (xnb c) 14) () N + tallyAt (xrecvCell (xnb c) 15) () N) := by below
example (c : Dev nD) : Below c (.dma (0 : DmaSem sig)) (O₀ c) := by below
example (c : Dev nD) : Below c (barCell c).2 (tallyAt (xrecvCell (xnb c) 15) () N + tallyAt (xrecvCell (xnb c) 14) () N + tallyAt (xrecvCell (xnb c) 13) () N + tallyAt (xrecvCell (xnb c) 12) () N + tallyAt (xrecvCell (xnb c) 11) () N + tallyAt (xrecvCell (xnb c) 10) () N + tallyAt (xrecvCell (xnb c) 9) () N + tallyAt (xrecvCell (xnb c) 8) () N + tallyAt (xrecvCell (xnb c) 7) () N + tallyAt (xrecvCell (xnb c) 6) () N + tallyAt (xrecvCell (xnb c) 5) () N + tallyAt (xrecvCell (xnb c) 4) () N + tallyAt (xrecvCell (xnb c) 3) () N + tallyAt (xrecvCell (xnb c) 2) () N + tallyAt (xrecvCell (xnb c) 1) () N + tallyAt (xrecvCell (xnb c) 0) () N + tallyAt (yrecvCell (ynb c) 15) () N + tallyAt (yrecvCell (ynb c) 14) () N + tallyAt (yrecvCell (ynb c) 13) () N + tallyAt (yrecvCell (ynb c) 12) () N + tallyAt (yrecvCell (ynb c) 11) () N + tallyAt (yrecvCell (ynb c) 10) () N + tallyAt (yrecvCell (ynb c) 9) () N + tallyAt (yrecvCell (ynb c) 8) () N + tallyAt (yrecvCell (ynb c) 7) () N + tallyAt (yrecvCell (ynb c) 6) () N + tallyAt (yrecvCell (ynb c) 5) () N + tallyAt (yrecvCell (ynb c) 4) () N + tallyAt (yrecvCell (ynb c) 3) () N + tallyAt (yrecvCell (ynb c) 2) () N + tallyAt (yrecvCell (ynb c) 1) () N + tallyAt (yrecvCell (ynb c) 0) () N) := by below
example (c : Dev nD) : Below c (SemLoc.reg ((SemArray.scalar (sig.barrier 0 (id rfl)) : Sems sig S_).sem)) (tallyAt (xrecvCell (xnb c) 15) () N + tallyAt (xrecvCell (xnb c) 14) () N + tallyAt (xrecvCell (xnb c) 13) () N + tallyAt (xrecvCell (xnb c) 12) () N + tallyAt (xrecvCell (xnb c) 11) () N + tallyAt (xrecvCell (xnb c) 10) () N + tallyAt (xrecvCell (xnb c) 9) () N + tallyAt (xrecvCell (xnb c) 8) () N + tallyAt (xrecvCell (xnb c) 7) () N + tallyAt (xrecvCell (xnb c) 6) () N + tallyAt (xrecvCell (xnb c) 5) () N + tallyAt (xrecvCell (xnb c) 4) () N + tallyAt (xrecvCell (xnb c) 3) () N + tallyAt (xrecvCell (xnb c) 2) () N + tallyAt (xrecvCell (xnb c) 1) () N + tallyAt (xrecvCell (xnb c) 0) () N + tallyAt (yrecvCell (ynb c) 15) () N + tallyAt (yrecvCell (ynb c) 14) () N + tallyAt (yrecvCell (ynb c) 13) () N + tallyAt (yrecvCell (ynb c) 12) () N + tallyAt (yrecvCell (ynb c) 11) () N + tallyAt (yrecvCell (ynb c) 10) () N + tallyAt (yrecvCell (ynb c) 9) () N + tallyAt (yrecvCell (ynb c) 8) () N + tallyAt (yrecvCell (ynb c) 7) () N + tallyAt (yrecvCell (ynb c) 6) () N + tallyAt (yrecvCell (ynb c) 5) () N + tallyAt (yrecvCell (ynb c) 4) () N + tallyAt (yrecvCell (ynb c) 3) () N + tallyAt (yrecvCell (ynb c) 2) () N + tallyAt (yrecvCell (ynb c) 1) () N + tallyAt (yrecvCell (ynb c) 0) () N) := by below
example (c : Dev nD) : Below c (yrecvCell c 5).2 (tallyAt (xrecvCell (xnb c) 0) () N + tallyAt (xrecvCell (xnb c) 1) () N + tallyAt (xrecvCell (xnb c) 2) () N + tallyAt (xrecvCell (xnb c) 3) () N + tallyAt (xrecvCell (xnb c) 4) () N + tallyAt (xrecvCell (xnb c) 5) () N + tallyAt (xrecvCell (xnb c) 6) () N + tallyAt (xrecvCell (xnb c) 7) () N + tallyAt (xrecvCell (xnb c) 8) () N + tallyAt (xrecvCell (xnb c) 9) () N + tallyAt (xrecvCell (xnb c) 10) () N + tallyAt (xrecvCell (xnb c) 11) () N + tallyAt (xrecvCell (xnb c) 12) () N + tallyAt (xrecvCell (xnb c) 13) () N + tallyAt (xrecvCell (xnb c) 14) () N + tallyAt (xrecvCell (xnb c) 15) () N) := by below
example (c : Dev nD) : Below c (SemLoc.dma ((cc0_scratch8.slice (Rect.unit (s := S16) ![5] S1.size inb_S16_S1_5)).squeeze S_ squeezes_S1_S_).sem) (tallyAt (xrecvCell (xnb c) 0) () N + tallyAt (xrecvCell (xnb c) 1) () N + tallyAt (xrecvCell (xnb c) 2) () N + tallyAt (xrecvCell (xnb c) 3) () N + tallyAt (xrecvCell (xnb c) 4) () N + tallyAt (xrecvCell (xnb c) 5) () N + tallyAt (xrecvCell (xnb c) 6) () N + tallyAt (xrecvCell (xnb c) 7) () N + tallyAt (xrecvCell (xnb c) 8) () N + tallyAt (xrecvCell (xnb c) 9) () N + tallyAt (xrecvCell (xnb c) 10) () N + tallyAt (xrecvCell (xnb c) 11) () N + tallyAt (xrecvCell (xnb c) 12) () N + tallyAt (xrecvCell (xnb c) 13) () N + tallyAt (xrecvCell (xnb c) 14) () N + tallyAt (xrecvCell (xnb c) 15) () N) := by below
example (c : Dev nD) : Below c (SemLoc.dma ((cc0_scratch5.slice (Rect.unit (s := S8) ![3] S1.size inb_S8_S1_3)).squeeze S_ squeezes_S1_S_).sem) (O₀ c) := by below
example (c : Dev nD) : Below c (SemLoc.dma (⟨38, by decide⟩ : DmaSem sig)) (tallyAt (xrecvCell (xnb c) 0) () N + tallyAt (xrecvCell (xnb c) 1) () N + tallyAt (xrecvCell (xnb c) 2) () N + tallyAt (xrecvCell (xnb c) 3) () N + tallyAt (xrecvCell (xnb c) 4) () N + tallyAt (xrecvCell (xnb c) 5) () N + tallyAt (xrecvCell (xnb c) 6) () N + tallyAt (xrecvCell (xnb c) 7) () N + tallyAt (xrecvCell (xnb c) 8) () N + tallyAt (xrecvCell (xnb c) 9) () N + tallyAt (xrecvCell (xnb c) 10) () N + tallyAt (xrecvCell (xnb c) 11) () N + tallyAt (xrecvCell (xnb c) 12) () N + tallyAt (xrecvCell (xnb c) 13) () N + tallyAt (xrecvCell (xnb c) 14) () N + tallyAt (xrecvCell (xnb c) 15) () N) := by below
example (c : Dev nD) : Below c (SemLoc.dma (⟨20, by decide⟩ : DmaSem sig)) (O₀ c) := by below
example (c : Dev nD) (j : Fin 16) : Below c (.dma (yrecvS j)) (tallyAt (xrecvCell (xnb c) j) () N + tallyAt (xrecvCell (xnb c) 3) () N) := by below
example (c : Dev nD) (j : Fin 8) : Below c (copyS j |> SemLoc.dma) (O₀ c) := by below
example (c : Dev nD) : Below c (.dma (outS 2)) 0 := by below
example (c : Dev nD) : Below c (.dma (fsendS 2)) (tallyAt (barCell (xnb c)) () 1) := by below
example (c : Dev nD) : Below c (.dma (ysendS 7)) (tallyAt (xrecvCell (xnb c) 3) () N + (tallyAt (barCell c) () 1 + 0)) := by below

/-! ## The staging cell's waits -/

/-- The pipelined window's one staging semaphore is DMA semaphore 0, at level 0; the device waits on it owing what it owes at
    launch, or nothing. -/
theorem waits (c : Dev nD) : (levAts L lv : sProp 𝕄) ⊢ Pipeline.cellsWaits cfgs (dats m Sb Yc Xc OutP) () 0 c :=
  Pipeline.cellsWaits_intro cfgs (dats m Sb Yc Xc OutP) () 0 c fun w s t => by
    have hs : ((cfgs (0 : Fin 1)).win w).sem s = (0 : DmaSem sig) := by fin_cases w; fin_cases s; rfl
    rw [hs]
    rcases t with ⟨_ | _, ht⟩
    · exact mayWait_below c _ _ (by show Below c _ (O₀ c); below)
    · exact mayWait_below c _ _ (below_zero c _)

/-! ## The credit dealt at launch -/

theorem sep_assoc_eq (P Q R : sProp 𝕄) : iprop((P ∗ Q) ∗ R) = iprop(P ∗ Q ∗ R) := BI.Entails.antisymm sep_assoc sep_assoc'

omit [FloatOps F] in
/-- When every device `d` owes `k` units to the cell `sm` of its neighbour `σ d`, `σ` an involution, the cell `sm` of device `c` is dealt
    `k` units at launch: those its neighbour `σ c` owes it. -/
theorem launchCred_tally (σ : Dev nD → Dev nD) (hσ : ∀ d, σ (σ d) = d) (sm : SemLoc sig) (k : ℕ) (c : Dev nD) :
    (Pipeline.launchCred (fun d => tallyAt ((σ d : Thread nD τ), sm) () k) c : sProp 𝕄) ⊢ cred (tallyAt ((c : Thread nD τ), sm) () k) := by
  refine (Pipeline.launchCred_elim _ c sm).trans ?_
  have e : launchCredit (Pipeline.owing fun d => tallyAt ((σ d : Thread nD τ), sm) () k) 0 ((c : Thread nD τ), sm) = Finsupp.single () k := by
    refine Finsupp.ext fun u => ?_
    cases u
    rw [Pipeline.launchCredit_owing, Finsupp.single_eq_same, Finset.sum_eq_single (σ c)]
    · rw [hσ]; exact tallyAt_self _ _ _
    · intro d _ hd
      rw [tallyAt_apply, if_neg]
      rintro ⟨h, _⟩
      exact hd (by
        have hc : c = σ d := Fin.ext (congrArg (fun g : GSem nD τ sig => g.1.1.val) h)
        rw [hc, hσ])
    · intro h; exact absurd (Finset.mem_univ _) h
  rw [e]
  exact BI.Entails.refl _

theorem cred_add_eq (T₁ T₂ : CellTallies nD τ sig Unit) : (iprop(cred T₁ ∗ cred T₂) : sProp 𝕄) = cred (T₁ + T₂) :=
  BI.Entails.antisymm (cred_add T₁ T₂).2 (cred_add T₁ T₂).1

/-- A sum of thirty-four terms listed last to first is the sum listed first to last: addition is commutative and associative. -/
theorem sum_rearrange {M : Type} [AddCommMonoid M] (b₁ b₂ : M) (y x : Fin 16 → M) :
    x 15 + (x 14 + (x 13 + (x 12 + (x 11 + (x 10 + (x 9 + (x 8 + (x 7 + (x 6 + (x 5 + (x 4 + (x 3 + (x 2 + (x 1 + (x 0 + (y 15 + (y 14 + (y 13 + (y 12 + (y 11 + (y 10 + (y 9 + (y 8 + (y 7 + (y 6 + (y 5 + (y 4 + (y 3 + (y 2 + (y 1 + (y 0 + (b₁ + b₂))))))))))))))))))))))))))))))))
      = (b₁ + b₂) + (y 0 + (y 1 + (y 2 + (y 3 + (y 4 + (y 5 + (y 6 + (y 7 + (y 8 + (y 9 + (y 10 + (y 11 + (y 12 + (y 13 + (y 14 + (y 15 + (x 0 + (x 1 + (x 2 + (x 3 + (x 4 + (x 5 + (x 6 + (x 7 + (x 8 + (x 9 + (x 10 + (x 11 + (x 12 + (x 13 + (x 14 + (x 15)))))))))))))))))))))))))))))))) := by
  ac_rfl

theorem cred_add_eq' (T₁ T₂ : CellTallies nD τ sig Unit) : (BI.sep (cred T₁) (cred T₂) : sProp 𝕄) = cred (T₁ + T₂) := cred_add_eq T₁ T₂

/-- At launch device `c` is dealt two units on its barrier cell — one owed by each neighbour — and one chunk on each of its
    thirty-two receive cells, owed by the neighbour that writes the slot. The credits come out in the order the dues are listed;
    tokens of credit add up, and a sum of tallies does not depend on the order of its summands. -/
theorem creds_intro (c : Dev nD) : (Pipeline.launchCred O₀ c : sProp 𝕄) ⊢ creds c := by
  delta O₀
  simp only [Pipeline.launchCred_add, sep_assoc_eq]
  apply BI.Entails.trans
  ·
    iterate 16 apply BI.sep_mono (launchCred_tally xnb xnb_xnb _ N c)
    iterate 16 apply BI.sep_mono (launchCred_tally ynb ynb_ynb _ N c)
    exact BI.sep_mono (launchCred_tally xnb xnb_xnb (.reg barS) 1 c) (launchCred_tally ynb ynb_ynb (.reg barS) 1 c)
  ·
    unfold creds
    simp only [cred_add_eq, cred_add_eq']
    have key : ∀ A B : CellTallies nD τ sig Unit, A = B → (cred A : sProp 𝕄) ⊢ cred B := fun A B h => h ▸ BI.Entails.refl _
    refine key _ _ ?_
    have e2 : (tallyAt (barCell c) () 2 : CellTallies nD τ sig Unit) = tallyAt (barCell c) () 1 + tallyAt (barCell c) () 1 :=
      (tallyAt_add _ _ 1 1).symm
    rw [e2]
    exact sum_rearrange (tallyAt (barCell c) () 1) (tallyAt (barCell c) () 1) (fun j => tallyAt (yrecvCell c j) () N) (fun j => tallyAt (xrecvCell c j) () N)

end Cert.Kernel.Hand

end
-- ==== Proof.SlotsK.lean ====
import proofs.«901046_g7700000000001047_dist_rsdw_v7x_xy2x2_y_m1024_d1024_f4096_f32_1_alg».proof.Proof.BasicK
import Idealize.ShloMosaic.Rules.PointsTo
import Idealize.ShloMosaic.Lib.Exec.Geometry

/-! Splitting a whole sixteen-slot buffer into its slots, and joining the slots back.

The index set of a buffer of shape 16 × 512 × 128 is the disjoint union of the sixteen sets "first coordinate is j". Slot j of each of the
three buffers is the unit-stride rectangle at offset (j, 0, 0) of sizes (1, 512, 128), with the leading axis dropped: dropping an axis of
size one keeps the element set, so the slot's elements are exactly the indices whose first coordinate is j. Holding the whole buffer is
therefore holding the sixteen slots side by side, at the same contents; and sixteen slots held at sixteen different contents glue into
one whole buffer, whose contents are, at each index, those of the slot the index lies in. -/

set_option maxRecDepth 16384

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Sixteen classes of a key -/

section Classes

variable {ℓ : Loc nD τ sig} (key : Idx ℓ → ℕ) (K : Fin 16 → Finset (Idx ℓ)) {q : PosShare TreeShare}

/-- The indices whose key is at least `k`. -/
def keyFrom (k : ℕ) : Finset (Idx ℓ) := Finset.univ.filter fun x => k ≤ key x

theorem mem_keyFrom {k : ℕ} {x : Idx ℓ} : x ∈ keyFrom key k ↔ k ≤ key x := by
  simp [keyFrom]

theorem keyFrom_zero : keyFrom key 0 = Finset.univ := by
  ext x; simp [mem_keyFrom]

variable (hkey : ∀ x, key x < 16) (hK : ∀ (j : Fin 16) x, x ∈ K j ↔ key x = j.val)
include hkey hK

theorem keyFrom_last : keyFrom key 15 = K 15 := by
  ext x; rw [mem_keyFrom, hK]; have := hkey x; show _ ↔ key x = 15; omega

theorem class_subset (j : Fin 16) (k : ℕ) (h : j.val = k) : K j ⊆ keyFrom key k := by
  intro x hx; rw [hK] at hx; rw [mem_keyFrom]; omega

theorem keyFrom_sdiff (j : Fin 16) (k : ℕ) (h : j.val = k) : keyFrom key k \ K j = keyFrom key (k + 1) := by
  ext x; rw [Finset.mem_sdiff, mem_keyFrom, mem_keyFrom, hK]; omega

theorem class_disjoint (j : Fin 16) (k : ℕ) (h : j.val = k) : Disjoint (K j) (keyFrom key (k + 1)) := by
  rw [Finset.disjoint_left]; intro x hx; rw [hK] at hx; rw [mem_keyFrom]; omega

theorem class_union (j : Fin 16) (k : ℕ) (h : j.val = k) : K j ∪ keyFrom key (k + 1) = keyFrom key k := by
  ext x; rw [Finset.mem_union, mem_keyFrom, mem_keyFrom, hK]; omega

/-- One class off the front, at the same contents. -/
theorem split_step (j : Fin 16) (k : ℕ) (h : j.val = k) (f : Buf (Elt F) ℓ) :
    (ℓ ↦[keyFrom key k]{q} f : sProp 𝕄) ⊢ iprop((ℓ ↦[K j]{q} f) ∗ ℓ ↦[keyFrom key (k + 1)]{q} f) := by
  have h1 := (pointsTo_split_subset (Val := Elt F) (U := UU) (Ix := Unit) (Name := ℕ) (Lvl := ℕ) (q := q) (f := f) (class_subset key K hkey hK j k h)).1
  rw [keyFrom_sdiff key K hkey hK j k h] at h1
  exact h1

/-- One class back on the front, each side at contents of its own. -/
theorem join_step (j : Fin 16) (k : ℕ) (h : j.val = k) :
    (iprop((∃ f, ℓ ↦[K j]{q} f) ∗ (∃ g, ℓ ↦[keyFrom key (k + 1)]{q} g)) : sProp 𝕄) ⊢ iprop(∃ g, ℓ ↦[keyFrom key k]{q} g) := by
  iintro ⟨⟨%f, Hf⟩, ⟨%g, Hg⟩⟩
  iexists (keyFrom key (k + 1)).piecewise g f
  have h1 := pointsTo_join (Val := Elt F) (U := UU) (Ix := Unit) (Name := ℕ) (Lvl := ℕ) (q := q) (f := f) (g := g) (class_disjoint key K hkey hK j k h)
  rw [class_union key K hkey hK j k h] at h1
  iapply h1
  isplitl [Hf]
  · iexact Hf
  · iexact Hg

end Classes

section Chains

variable {ℓ : Loc nD τ sig} (key : Idx ℓ → ℕ) (K : Fin 16 → Finset (Idx ℓ)) {q : PosShare TreeShare}
variable (hkey : ∀ x, key x < 16) (hK : ∀ (j : Fin 16) x, x ∈ K j ↔ key x = j.val)
include hkey hK

/-- The whole buffer is its sixteen classes side by side, at the same contents. -/
theorem classes_split (f : Buf (Elt F) ℓ) :
    (ℓ ↦{q} f : sProp 𝕄) ⊢ iprop((ℓ ↦[K 0]{q} f) ∗ (ℓ ↦[K 1]{q} f) ∗ (ℓ ↦[K 2]{q} f) ∗ (ℓ ↦[K 3]{q} f) ∗ (ℓ ↦[K 4]{q} f) ∗ (ℓ ↦[K 5]{q} f) ∗ (ℓ ↦[K 6]{q} f) ∗ (ℓ ↦[K 7]{q} f) ∗ (ℓ ↦[K 8]{q} f) ∗ (ℓ ↦[K 9]{q} f) ∗ (ℓ ↦[K 10]{q} f) ∗ (ℓ ↦[K 11]{q} f) ∗ (ℓ ↦[K 12]{q} f) ∗ (ℓ ↦[K 13]{q} f) ∗ (ℓ ↦[K 14]{q} f) ∗ (ℓ ↦[K 15]{q} f)) := by
  have h0 : (ℓ ↦{q} f : sProp 𝕄) ⊢ ℓ ↦[keyFrom key 0]{q} f := Entails.of_eq (by rw [keyFrom_zero])
  have h15 : (ℓ ↦[keyFrom key 15]{q} f : sProp 𝕄) ⊢ ℓ ↦[K 15]{q} f := Entails.of_eq (by rw [keyFrom_last key K hkey hK])
  refine h0.trans ?_
  refine (split_step key K hkey hK 0 0 rfl f).trans (sep_mono_r ?_)
  refine (split_step key K hkey hK 1 1 rfl f).trans (sep_mono_r ?_)
  refine (split_step key K hkey hK 2 2 rfl f).trans (sep_mono_r ?_)
  refine (split_step key K hkey hK 3 3 rfl f).trans (sep_mono_r ?_)
  refine (split_step key K hkey hK 4 4 rfl f).trans (sep_mono_r ?_)
  refine (split_step key K hkey hK 5 5 rfl f).trans (sep_mono_r ?_)
  refine (split_step key K hkey hK 6 6 rfl f).trans (sep_mono_r ?_)
  refine (split_step key K hkey hK 7 7 rfl f).trans (sep_mono_r ?_)
  refine (split_step key K hkey hK 8 8 rfl f).trans (sep_mono_r ?_)
  refine (split_step key K hkey hK 9 9 rfl f).trans (sep_mono_r ?_)
  refine (split_step key K hkey hK 10 10 rfl f).trans (sep_mono_r ?_)
  refine (split_step key K hkey hK 11 11 rfl f).trans (sep_mono_r ?_)
  refine (split_step key K hkey hK 12 12 rfl f).trans (sep_mono_r ?_)
  refine (split_step key K hkey hK 13 13 rfl f).trans (sep_mono_r ?_)
  refine (split_step key K hkey hK 14 14 rfl f).trans (sep_mono_r ?_)
  exact h15

/-- Sixteen classes, each at contents of its own, are the whole buffer at the glued contents. -/
theorem classes_join :
    (iprop((∃ f, ℓ ↦[K 0]{q} f) ∗ (∃ f, ℓ ↦[K 1]{q} f) ∗ (∃ f, ℓ ↦[K 2]{q} f) ∗ (∃ f, ℓ ↦[K 3]{q} f) ∗ (∃ f, ℓ ↦[K 4]{q} f) ∗ (∃ f, ℓ ↦[K 5]{q} f) ∗ (∃ f, ℓ ↦[K 6]{q} f) ∗ (∃ f, ℓ ↦[K 7]{q} f) ∗ (∃ f, ℓ ↦[K 8]{q} f) ∗ (∃ f, ℓ ↦[K 9]{q} f) ∗ (∃ f, ℓ ↦[K 10]{q} f) ∗ (∃ f, ℓ ↦[K 11]{q} f) ∗ (∃ f, ℓ ↦[K 12]{q} f) ∗ (∃ f, ℓ ↦[K 13]{q} f) ∗ (∃ f, ℓ ↦[K 14]{q} f) ∗ (∃ f, ℓ ↦[K 15]{q} f)) : sProp 𝕄) ⊢ iprop(∃ f, ℓ ↦{q} f) := by
  have h15 : (iprop(∃ f, ℓ ↦[K 15]{q} f) : sProp 𝕄) ⊢ iprop(∃ g, ℓ ↦[keyFrom key 15]{q} g) := Entails.of_eq (by rw [keyFrom_last key K hkey hK])
  have h14 := (sep_mono_r h15).trans (join_step (F := F) key K hkey hK (q := q) 14 14 rfl)
  have h13 := (sep_mono_r h14).trans (join_step (F := F) key K hkey hK (q := q) 13 13 rfl)
  have h12 := (sep_mono_r h13).trans (join_step (F := F) key K hkey hK (q := q) 12 12 rfl)
  have h11 := (sep_mono_r h12).trans (join_step (F := F) key K hkey hK (q := q) 11 11 rfl)
  have h10 := (sep_mono_r h11).trans (join_step (F := F) key K hkey hK (q := q) 10 10 rfl)
  have h9 := (sep_mono_r h10).trans (join_step (F := F) key K hkey hK (q := q) 9 9 rfl)
  have h8 := (sep_mono_r h9).trans (join_step (F := F) key K hkey hK (q := q) 8 8 rfl)
  have h7 := (sep_mono_r h8).trans (join_step (F := F) key K hkey hK (q := q) 7 7 rfl)
  have h6 := (sep_mono_r h7).trans (join_step (F := F) key K hkey hK (q := q) 6 6 rfl)
  have h5 := (sep_mono_r h6).trans (join_step (F := F) key K hkey hK (q := q) 5 5 rfl)
  have h4 := (sep_mono_r h5).trans (join_step (F := F) key K hkey hK (q := q) 4 4 rfl)
  have h3 := (sep_mono_r h4).trans (join_step (F := F) key K hkey hK (q := q) 3 3 rfl)
  have h2 := (sep_mono_r h3).trans (join_step (F := F) key K hkey hK (q := q) 2 2 rfl)
  have h1 := (sep_mono_r h2).trans (join_step (F := F) key K hkey hK (q := q) 1 1 rfl)
  have h0 := (sep_mono_r h1).trans (join_step (F := F) key K hkey hK (q := q) 0 0 rfl)
  have htop : (iprop(∃ g, ℓ ↦[keyFrom key 0]{q} g) : sProp 𝕄) ⊢ iprop(∃ f, ℓ ↦{q} f) := Entails.of_eq (by rw [keyFrom_zero])
  exact h0.trans htop

end Chains

section ChainsFramed

variable {ℓ : Loc nD τ sig} (key : Idx ℓ → ℕ) (K : Fin 16 → Finset (Idx ℓ)) {q : PosShare TreeShare}
variable (hkey : ∀ x, key x < 16) (hK : ∀ (j : Fin 16) x, x ∈ K j ↔ key x = j.val)
include hkey hK

/-- The same with more conjuncts after the sixteenth class: they are carried along. -/
theorem classes_join_frame (R : sProp 𝕄) :
    (iprop((∃ f, ℓ ↦[K 0]{q} f) ∗ (∃ f, ℓ ↦[K 1]{q} f) ∗ (∃ f, ℓ ↦[K 2]{q} f) ∗ (∃ f, ℓ ↦[K 3]{q} f) ∗ (∃ f, ℓ ↦[K 4]{q} f) ∗ (∃ f, ℓ ↦[K 5]{q} f) ∗ (∃ f, ℓ ↦[K 6]{q} f) ∗ (∃ f, ℓ ↦[K 7]{q} f) ∗ (∃ f, ℓ ↦[K 8]{q} f) ∗ (∃ f, ℓ ↦[K 9]{q} f) ∗ (∃ f, ℓ ↦[K 10]{q} f) ∗ (∃ f, ℓ ↦[K 11]{q} f) ∗ (∃ f, ℓ ↦[K 12]{q} f) ∗ (∃ f, ℓ ↦[K 13]{q} f) ∗ (∃ f, ℓ ↦[K 14]{q} f) ∗ (∃ f, ℓ ↦[K 15]{q} f) ∗ R) : sProp 𝕄) ⊢ iprop((∃ f, ℓ ↦{q} f) ∗ R) := by
  have b15 : (iprop(∃ f, ℓ ↦[K 15]{q} f) : sProp 𝕄) ⊢ iprop(∃ g, ℓ ↦[keyFrom key 15]{q} g) := Entails.of_eq (by rw [keyFrom_last key K hkey hK])
  have h15 : (iprop((∃ f, ℓ ↦[K 15]{q} f) ∗ R) : sProp 𝕄) ⊢ iprop((∃ g, ℓ ↦[keyFrom key 15]{q} g) ∗ R) := sep_mono_l b15
  have h14 := (sep_mono_r h15).trans (sep_assoc'.trans (sep_mono_l (Q := R) (join_step (F := F) key K hkey hK (q := q) 14 14 rfl)))
  have h13 := (sep_mono_r h14).trans (sep_assoc'.trans (sep_mono_l (Q := R) (join_step (F := F) key K hkey hK (q := q) 13 13 rfl)))
  have h12 := (sep_mono_r h13).trans (sep_assoc'.trans (sep_mono_l (Q := R) (join_step (F := F) key K hkey hK (q := q) 12 12 rfl)))
  have h11 := (sep_mono_r h12).trans (sep_assoc'.trans (sep_mono_l (Q := R) (join_step (F := F) key K hkey hK (q := q) 11 11 rfl)))
  have h10 := (sep_mono_r h11).trans (sep_assoc'.trans (sep_mono_l (Q := R) (join_step (F := F) key K hkey hK (q := q) 10 10 rfl)))
  have h9 := (sep_mono_r h10).trans (sep_assoc'.trans (sep_mono_l (Q := R) (join_step (F := F) key K hkey hK (q := q) 9 9 rfl)))
  have h8 := (sep_mono_r h9).trans (sep_assoc'.trans (sep_mono_l (Q := R) (join_step (F := F) key K hkey hK (q := q) 8 8 rfl)))
  have h7 := (sep_mono_r h8).trans (sep_assoc'.trans (sep_mono_l (Q := R) (join_step (F := F) key K hkey hK (q := q) 7 7 rfl)))
  have h6 := (sep_mono_r h7).trans (sep_assoc'.trans (sep_mono_l (Q := R) (join_step (F := F) key K hkey hK (q := q) 6 6 rfl)))
  have h5 := (sep_mono_r h6).trans (sep_assoc'.trans (sep_mono_l (Q := R) (join_step (F := F) key K hkey hK (q := q) 5 5 rfl)))
  have h4 := (sep_mono_r h5).trans (sep_assoc'.trans (sep_mono_l (Q := R) (join_step (F := F) key K hkey hK (q := q) 4 4 rfl)))
  have h3 := (sep_mono_r h4).trans (sep_assoc'.trans (sep_mono_l (Q := R) (join_step (F := F) key K hkey hK (q := q) 3 3 rfl)))
  have h2 := (sep_mono_r h3).trans (sep_assoc'.trans (sep_mono_l (Q := R) (join_step (F := F) key K hkey hK (q := q) 2 2 rfl)))
  have h1 := (sep_mono_r h2).trans (sep_assoc'.trans (sep_mono_l (Q := R) (join_step (F := F) key K hkey hK (q := q) 1 1 rfl)))
  have h0 := (sep_mono_r h1).trans (sep_assoc'.trans (sep_mono_l (Q := R) (join_step (F := F) key K hkey hK (q := q) 0 0 rfl)))
  have htop : (iprop(∃ g, ℓ ↦[keyFrom key 0]{q} g) : sProp 𝕄) ⊢ iprop(∃ f, ℓ ↦{q} f) := Entails.of_eq (by rw [keyFrom_zero])
  exact h0.trans (sep_mono_l htop)

end ChainsFramed

/-! ## The first coordinate, and the slots' element sets -/

/-- The first coordinate of an index of a sixteen-slot buffer. -/
def lead (x : S16x512x128.Idx) : ℕ := (x (0 : Fin 3)).val

theorem lead_lt (x : S16x512x128.Idx) : lead x < 16 := (x (0 : Fin 3)).isLt

/-- An index lies in the rectangle at offset `(n, 0, 0)` of sizes `(1, 512, 128)` exactly when its first coordinate is `n`: the other
    two axes are taken whole. -/
theorem mem_unit_lead (n : ℕ) (inb : ∀ a, (![n, 0, 0] : Fin 3 → Nat) a + S1x512x128.size a ≤ S16x512x128.size a) (x : S16x512x128.Idx) :
    x ∈ (Rect.unit (s := S16x512x128) ![n, 0, 0] S1x512x128.size inb).set ↔ lead x = n := by
  rw [Rect.mem_set_unit]
  unfold lead
  constructor
  · intro h
    have h0 : n ≤ (x (0 : Fin 3)).val ∧ (x (0 : Fin 3)).val < n + 1 := h (0 : Fin 3)
    omega
  · intro h a
    have h1 : (x (1 : Fin 3)).val < 512 := (x (1 : Fin 3)).isLt
    have h2 : (x (2 : Fin 3)).val < 128 := (x (2 : Fin 3)).isLt
    fin_cases a
    · exact (show n ≤ (x (0 : Fin 3)).val ∧ (x (0 : Fin 3)).val < n + 1 by omega)
    · exact (show 0 ≤ (x (1 : Fin 3)).val ∧ (x (1 : Fin 3)).val < 0 + 512 by omega)
    · exact (show 0 ≤ (x (2 : Fin 3)).val ∧ (x (2 : Fin 3)).val < 0 + 128 by omega)

/-- The elements of the rectangle at offset `(n, 0, 0)` of sizes `(1, 512, 128)`, its leading axis dropped: first coordinate `n`. -/
theorem mem_srect (n : ℕ) (inb : ∀ a, (![n, 0, 0] : Fin 3 → Nat) a + S1x512x128.size a ≤ S16x512x128.size a) (x : S16x512x128.Idx) :
    x ∈ (((Memref.whole cc0_scratch2 : Memref sig .tc .vmem S16x512x128 .bf16).slice (Rect.unit (s := S16x512x128) ![n, 0, 0] S1x512x128.size inb) (fun _ => rfl)).squeeze S512x128 squeezes_S1x512x128_S512x128).view.set ↔ lead x = n :=
  (Finset.ext_iff.mp ((Memref.set_view_squeeze _ _).trans (View.set_slice_whole _ _)) x).trans (mem_unit_lead n inb x)

/-- The sixteen slots' element sets, as sets of indices of the one buffer. -/
def sset (c : Dev nD) : Fin 16 → Finset (Idx ((c : Thread nD τ).loc cc0_scratch2))
  | 0 => (sslot 0).view.set
  | 1 => (sslot 1).view.set
  | 2 => (sslot 2).view.set
  | 3 => (sslot 3).view.set
  | 4 => (sslot 4).view.set
  | 5 => (sslot 5).view.set
  | 6 => (sslot 6).view.set
  | 7 => (sslot 7).view.set
  | 8 => (sslot 8).view.set
  | 9 => (sslot 9).view.set
  | 10 => (sslot 10).view.set
  | 11 => (sslot 11).view.set
  | 12 => (sslot 12).view.set
  | 13 => (sslot 13).view.set
  | 14 => (sslot 14).view.set
  | 15 => (sslot 15).view.set
  | ⟨_ + 16, h⟩ => absurd h (by omega)

theorem mem_sset (c : Dev nD) (j : Fin 16) (x : Idx ((c : Thread nD τ).loc cc0_scratch2)) : x ∈ sset c j ↔ lead x = j.val := by
  fin_cases j <;> exact mem_srect _ _ x

/-- The elements of the rectangle at offset `(n, 0, 0)` of sizes `(1, 512, 128)`, its leading axis dropped: first coordinate `n`. -/
theorem mem_yrect (n : ℕ) (inb : ∀ a, (![n, 0, 0] : Fin 3 → Nat) a + S1x512x128.size a ≤ S16x512x128.size a) (x : S16x512x128.Idx) :
    x ∈ (((Memref.whole cc0_scratch3 : Memref sig .tc .vmem S16x512x128 .bf16).slice (Rect.unit (s := S16x512x128) ![n, 0, 0] S1x512x128.size inb) (fun _ => rfl)).squeeze S512x128 squeezes_S1x512x128_S512x128).view.set ↔ lead x = n :=
  (Finset.ext_iff.mp ((Memref.set_view_squeeze _ _).trans (View.set_slice_whole _ _)) x).trans (mem_unit_lead n inb x)

/-- The sixteen slots' element sets, as sets of indices of the one buffer. -/
def yset (c : Dev nD) : Fin 16 → Finset (Idx ((c : Thread nD τ).loc cc0_scratch3))
  | 0 => (yslot 0).view.set
  | 1 => (yslot 1).view.set
  | 2 => (yslot 2).view.set
  | 3 => (yslot 3).view.set
  | 4 => (yslot 4).view.set
  | 5 => (yslot 5).view.set
  | 6 => (yslot 6).view.set
  | 7 => (yslot 7).view.set
  | 8 => (yslot 8).view.set
  | 9 => (yslot 9).view.set
  | 10 => (yslot 10).view.set
  | 11 => (yslot 11).view.set
  | 12 => (yslot 12).view.set
  | 13 => (yslot 13).view.set
  | 14 => (yslot 14).view.set
  | 15 => (yslot 15).view.set
  | ⟨_ + 16, h⟩ => absurd h (by omega)

theorem mem_yset (c : Dev nD) (j : Fin 16) (x : Idx ((c : Thread nD τ).loc cc0_scratch3)) : x ∈ yset c j ↔ lead x = j.val := by
  fin_cases j <;> exact mem_yrect _ _ x

/-- The elements of the rectangle at offset `(n, 0, 0)` of sizes `(1, 512, 128)`, its leading axis dropped: first coordinate `n`. -/
theorem mem_xrect (n : ℕ) (inb : ∀ a, (![n, 0, 0] : Fin 3 → Nat) a + S1x512x128.size a ≤ S16x512x128.size a) (x : S16x512x128.Idx) :
    x ∈ (((Memref.whole cc0_scratch4 : Memref sig .tc .vmem S16x512x128 .bf16).slice (Rect.unit (s := S16x512x128) ![n, 0, 0] S1x512x128.size inb) (fun _ => rfl)).squeeze S512x128 squeezes_S1x512x128_S512x128).view.set ↔ lead x = n :=
  (Finset.ext_iff.mp ((Memref.set_view_squeeze _ _).trans (View.set_slice_whole _ _)) x).trans (mem_unit_lead n inb x)

/-- The sixteen slots' element sets, as sets of indices of the one buffer. -/
def xset (c : Dev nD) : Fin 16 → Finset (Idx ((c : Thread nD τ).loc cc0_scratch4))
  | 0 => (xslot 0).view.set
  | 1 => (xslot 1).view.set
  | 2 => (xslot 2).view.set
  | 3 => (xslot 3).view.set
  | 4 => (xslot 4).view.set
  | 5 => (xslot 5).view.set
  | 6 => (xslot 6).view.set
  | 7 => (xslot 7).view.set
  | 8 => (xslot 8).view.set
  | 9 => (xslot 9).view.set
  | 10 => (xslot 10).view.set
  | 11 => (xslot 11).view.set
  | 12 => (xslot 12).view.set
  | 13 => (xslot 13).view.set
  | 14 => (xslot 14).view.set
  | 15 => (xslot 15).view.set
  | ⟨_ + 16, h⟩ => absurd h (by omega)

theorem mem_xset (c : Dev nD) (j : Fin 16) (x : Idx ((c : Thread nD τ).loc cc0_scratch4)) : x ∈ xset c j ↔ lead x = j.val := by
  fin_cases j <;> exact mem_xrect _ _ x

/-! ## Every slot lives in its buffer -/

theorem sslot_loc (c : Dev nD) (j : Fin 16) : (sslot j).view.loc (c : Thread nD τ) = (c : Thread nD τ).loc cc0_scratch2 := by
  fin_cases j <;> rfl

theorem yslot_loc (c : Dev nD) (j : Fin 16) : (yslot j).view.loc (c : Thread nD τ) = (c : Thread nD τ).loc cc0_scratch3 := by
  fin_cases j <;> rfl

theorem xslot_loc (c : Dev nD) (j : Fin 16) : (xslot j).view.loc (c : Thread nD τ) = (c : Thread nD τ).loc cc0_scratch4 := by
  fin_cases j <;> rfl

/-! ## The three buffers -/

/-- The buffer of outgoing chunks, held whole, is its sixteen slots side by side at the same contents. -/
theorem sslots_split (c : Dev nD) (f : Buf (Elt F) ((c : Thread nD τ).loc cc0_scratch2)) :
    (((c : Thread nD τ).loc cc0_scratch2) ↦{fullShare} f : sProp 𝕄) ⊢
      iprop(((sslot 0).view.loc (c : Thread nD τ) ↦[(sslot 0).view.set]{fullShare} f) ∗ ((sslot 1).view.loc (c : Thread nD τ) ↦[(sslot 1).view.set]{fullShare} f) ∗ ((sslot 2).view.loc (c : Thread nD τ) ↦[(sslot 2).view.set]{fullShare} f) ∗ ((sslot 3).view.loc (c : Thread nD τ) ↦[(sslot 3).view.set]{fullShare} f) ∗ ((sslot 4).view.loc (c : Thread nD τ) ↦[(sslot 4).view.set]{fullShare} f) ∗ ((sslot 5).view.loc (c : Thread nD τ) ↦[(sslot 5).view.set]{fullShare} f) ∗ ((sslot 6).view.loc (c : Thread nD τ) ↦[(sslot 6).view.set]{fullShare} f) ∗ ((sslot 7).view.loc (c : Thread nD τ) ↦[(sslot 7).view.set]{fullShare} f) ∗ ((sslot 8).view.loc (c : Thread nD τ) ↦[(sslot 8).view.set]{fullShare} f) ∗ ((sslot 9).view.loc (c : Thread nD τ) ↦[(sslot 9).view.set]{fullShare} f) ∗ ((sslot 10).view.loc (c : Thread nD τ) ↦[(sslot 10).view.set]{fullShare} f) ∗ ((sslot 11).view.loc (c : Thread nD τ) ↦[(sslot 11).view.set]{fullShare} f) ∗ ((sslot 12).view.loc (c : Thread nD τ) ↦[(sslot 12).view.set]{fullShare} f) ∗ ((sslot 13).view.loc (c : Thread nD τ) ↦[(sslot 13).view.set]{fullShare} f) ∗ ((sslot 14).view.loc (c : Thread nD τ) ↦[(sslot 14).view.set]{fullShare} f) ∗ ((sslot 15).view.loc (c : Thread nD τ) ↦[(sslot 15).view.set]{fullShare} f)) :=
  classes_split (F := F) (ℓ := (c : Thread nD τ).loc cc0_scratch2) (fun x => lead x) (sset c) (fun x => lead_lt x) (mem_sset c) f

/-- Its sixteen slots, each at contents of its own, are the buffer held whole at the glued contents. -/
theorem sslots_join (c : Dev nD) :
    (iprop((∃ f, (sslot 0).view.loc (c : Thread nD τ) ↦[(sslot 0).view.set]{fullShare} f) ∗ (∃ f, (sslot 1).view.loc (c : Thread nD τ) ↦[(sslot 1).view.set]{fullShare} f) ∗ (∃ f, (sslot 2).view.loc (c : Thread nD τ) ↦[(sslot 2).view.set]{fullShare} f) ∗ (∃ f, (sslot 3).view.loc (c : Thread nD τ) ↦[(sslot 3).view.set]{fullShare} f) ∗ (∃ f, (sslot 4).view.loc (c : Thread nD τ) ↦[(sslot 4).view.set]{fullShare} f) ∗ (∃ f, (sslot 5).view.loc (c : Thread nD τ) ↦[(sslot 5).view.set]{fullShare} f) ∗ (∃ f, (sslot 6).view.loc (c : Thread nD τ) ↦[(sslot 6).view.set]{fullShare} f) ∗ (∃ f, (sslot 7).view.loc (c : Thread nD τ) ↦[(sslot 7).view.set]{fullShare} f) ∗ (∃ f, (sslot 8).view.loc (c : Thread nD τ) ↦[(sslot 8).view.set]{fullShare} f) ∗ (∃ f, (sslot 9).view.loc (c : Thread nD τ) ↦[(sslot 9).view.set]{fullShare} f) ∗ (∃ f, (sslot 10).view.loc (c : Thread nD τ) ↦[(sslot 10).view.set]{fullShare} f) ∗ (∃ f, (sslot 11).view.loc (c : Thread nD τ) ↦[(sslot 11).view.set]{fullShare} f) ∗ (∃ f, (sslot 12).view.loc (c : Thread nD τ) ↦[(sslot 12).view.set]{fullShare} f) ∗ (∃ f, (sslot 13).view.loc (c : Thread nD τ) ↦[(sslot 13).view.set]{fullShare} f) ∗ (∃ f, (sslot 14).view.loc (c : Thread nD τ) ↦[(sslot 14).view.set]{fullShare} f) ∗ (∃ f, (sslot 15).view.loc (c : Thread nD τ) ↦[(sslot 15).view.set]{fullShare} f)) : sProp 𝕄) ⊢
      iprop(∃ f, ((c : Thread nD τ).loc cc0_scratch2) ↦{fullShare} f) :=
  classes_join (F := F) (ℓ := (c : Thread nD τ).loc cc0_scratch2) (fun x => lead x) (sset c) (fun x => lead_lt x) (mem_sset c)

/-- The buffer the neighbour along the second axis writes, held whole, is its sixteen slots side by side at the same contents. -/
theorem yslots_split (c : Dev nD) (f : Buf (Elt F) ((c : Thread nD τ).loc cc0_scratch3)) :
    (((c : Thread nD τ).loc cc0_scratch3) ↦{fullShare} f : sProp 𝕄) ⊢
      iprop(((yslot 0).view.loc (c : Thread nD τ) ↦[(yslot 0).view.set]{fullShare} f) ∗ ((yslot 1).view.loc (c : Thread nD τ) ↦[(yslot 1).view.set]{fullShare} f) ∗ ((yslot 2).view.loc (c : Thread nD τ) ↦[(yslot 2).view.set]{fullShare} f) ∗ ((yslot 3).view.loc (c : Thread nD τ) ↦[(yslot 3).view.set]{fullShare} f) ∗ ((yslot 4).view.loc (c : Thread nD τ) ↦[(yslot 4).view.set]{fullShare} f) ∗ ((yslot 5).view.loc (c : Thread nD τ) ↦[(yslot 5).view.set]{fullShare} f) ∗ ((yslot 6).view.loc (c : Thread nD τ) ↦[(yslot 6).view.set]{fullShare} f) ∗ ((yslot 7).view.loc (c : Thread nD τ) ↦[(yslot 7).view.set]{fullShare} f) ∗ ((yslot 8).view.loc (c : Thread nD τ) ↦[(yslot 8).view.set]{fullShare} f) ∗ ((yslot 9).view.loc (c : Thread nD τ) ↦[(yslot 9).view.set]{fullShare} f) ∗ ((yslot 10).view.loc (c : Thread nD τ) ↦[(yslot 10).view.set]{fullShare} f) ∗ ((yslot 11).view.loc (c : Thread nD τ) ↦[(yslot 11).view.set]{fullShare} f) ∗ ((yslot 12).view.loc (c : Thread nD τ) ↦[(yslot 12).view.set]{fullShare} f) ∗ ((yslot 13).view.loc (c : Thread nD τ) ↦[(yslot 13).view.set]{fullShare} f) ∗ ((yslot 14).view.loc (c : Thread nD τ) ↦[(yslot 14).view.set]{fullShare} f) ∗ ((yslot 15).view.loc (c : Thread nD τ) ↦[(yslot 15).view.set]{fullShare} f)) :=
  classes_split (F := F) (ℓ := (c : Thread nD τ).loc cc0_scratch3) (fun x => lead x) (yset c) (fun x => lead_lt x) (mem_yset c) f

/-- Its sixteen slots, each at contents of its own, are the buffer held whole at the glued contents. -/
theorem yslots_join (c : Dev nD) :
    (iprop((∃ f, (yslot 0).view.loc (c : Thread nD τ) ↦[(yslot 0).view.set]{fullShare} f) ∗ (∃ f, (yslot 1).view.loc (c : Thread nD τ) ↦[(yslot 1).view.set]{fullShare} f) ∗ (∃ f, (yslot 2).view.loc (c : Thread nD τ) ↦[(yslot 2).view.set]{fullShare} f) ∗ (∃ f, (yslot 3).view.loc (c : Thread nD τ) ↦[(yslot 3).view.set]{fullShare} f) ∗ (∃ f, (yslot 4).view.loc (c : Thread nD τ) ↦[(yslot 4).view.set]{fullShare} f) ∗ (∃ f, (yslot 5).view.loc (c : Thread nD τ) ↦[(yslot 5).view.set]{fullShare} f) ∗ (∃ f, (yslot 6).view.loc (c : Thread nD τ) ↦[(yslot 6).view.set]{fullShare} f) ∗ (∃ f, (yslot 7).view.loc (c : Thread nD τ) ↦[(yslot 7).view.set]{fullShare} f) ∗ (∃ f, (yslot 8).view.loc (c : Thread nD τ) ↦[(yslot 8).view.set]{fullShare} f) ∗ (∃ f, (yslot 9).view.loc (c : Thread nD τ) ↦[(yslot 9).view.set]{fullShare} f) ∗ (∃ f, (yslot 10).view.loc (c : Thread nD τ) ↦[(yslot 10).view.set]{fullShare} f) ∗ (∃ f, (yslot 11).view.loc (c : Thread nD τ) ↦[(yslot 11).view.set]{fullShare} f) ∗ (∃ f, (yslot 12).view.loc (c : Thread nD τ) ↦[(yslot 12).view.set]{fullShare} f) ∗ (∃ f, (yslot 13).view.loc (c : Thread nD τ) ↦[(yslot 13).view.set]{fullShare} f) ∗ (∃ f, (yslot 14).view.loc (c : Thread nD τ) ↦[(yslot 14).view.set]{fullShare} f) ∗ (∃ f, (yslot 15).view.loc (c : Thread nD τ) ↦[(yslot 15).view.set]{fullShare} f)) : sProp 𝕄) ⊢
      iprop(∃ f, ((c : Thread nD τ).loc cc0_scratch3) ↦{fullShare} f) :=
  classes_join (F := F) (ℓ := (c : Thread nD τ).loc cc0_scratch3) (fun x => lead x) (yset c) (fun x => lead_lt x) (mem_yset c)

/-- The buffer the neighbour along the first axis writes, held whole, is its sixteen slots side by side at the same contents. -/
theorem xslots_split (c : Dev nD) (f : Buf (Elt F) ((c : Thread nD τ).loc cc0_scratch4)) :
    (((c : Thread nD τ).loc cc0_scratch4) ↦{fullShare} f : sProp 𝕄) ⊢
      iprop(((xslot 0).view.loc (c : Thread nD τ) ↦[(xslot 0).view.set]{fullShare} f) ∗ ((xslot 1).view.loc (c : Thread nD τ) ↦[(xslot 1).view.set]{fullShare} f) ∗ ((xslot 2).view.loc (c : Thread nD τ) ↦[(xslot 2).view.set]{fullShare} f) ∗ ((xslot 3).view.loc (c : Thread nD τ) ↦[(xslot 3).view.set]{fullShare} f) ∗ ((xslot 4).view.loc (c : Thread nD τ) ↦[(xslot 4).view.set]{fullShare} f) ∗ ((xslot 5).view.loc (c : Thread nD τ) ↦[(xslot 5).view.set]{fullShare} f) ∗ ((xslot 6).view.loc (c : Thread nD τ) ↦[(xslot 6).view.set]{fullShare} f) ∗ ((xslot 7).view.loc (c : Thread nD τ) ↦[(xslot 7).view.set]{fullShare} f) ∗ ((xslot 8).view.loc (c : Thread nD τ) ↦[(xslot 8).view.set]{fullShare} f) ∗ ((xslot 9).view.loc (c : Thread nD τ) ↦[(xslot 9).view.set]{fullShare} f) ∗ ((xslot 10).view.loc (c : Thread nD τ) ↦[(xslot 10).view.set]{fullShare} f) ∗ ((xslot 11).view.loc (c : Thread nD τ) ↦[(xslot 11).view.set]{fullShare} f) ∗ ((xslot 12).view.loc (c : Thread nD τ) ↦[(xslot 12).view.set]{fullShare} f) ∗ ((xslot 13).view.loc (c : Thread nD τ) ↦[(xslot 13).view.set]{fullShare} f) ∗ ((xslot 14).view.loc (c : Thread nD τ) ↦[(xslot 14).view.set]{fullShare} f) ∗ ((xslot 15).view.loc (c : Thread nD τ) ↦[(xslot 15).view.set]{fullShare} f)) :=
  classes_split (F := F) (ℓ := (c : Thread nD τ).loc cc0_scratch4) (fun x => lead x) (xset c) (fun x => lead_lt x) (mem_xset c) f

/-- Its sixteen slots, each at contents of its own, are the buffer held whole at the glued contents. -/
theorem xslots_join (c : Dev nD) :
    (iprop((∃ f, (xslot 0).view.loc (c : Thread nD τ) ↦[(xslot 0).view.set]{fullShare} f) ∗ (∃ f, (xslot 1).view.loc (c : Thread nD τ) ↦[(xslot 1).view.set]{fullShare} f) ∗ (∃ f, (xslot 2).view.loc (c : Thread nD τ) ↦[(xslot 2).view.set]{fullShare} f) ∗ (∃ f, (xslot 3).view.loc (c : Thread nD τ) ↦[(xslot 3).view.set]{fullShare} f) ∗ (∃ f, (xslot 4).view.loc (c : Thread nD τ) ↦[(xslot 4).view.set]{fullShare} f) ∗ (∃ f, (xslot 5).view.loc (c : Thread nD τ) ↦[(xslot 5).view.set]{fullShare} f) ∗ (∃ f, (xslot 6).view.loc (c : Thread nD τ) ↦[(xslot 6).view.set]{fullShare} f) ∗ (∃ f, (xslot 7).view.loc (c : Thread nD τ) ↦[(xslot 7).view.set]{fullShare} f) ∗ (∃ f, (xslot 8).view.loc (c : Thread nD τ) ↦[(xslot 8).view.set]{fullShare} f) ∗ (∃ f, (xslot 9).view.loc (c : Thread nD τ) ↦[(xslot 9).view.set]{fullShare} f) ∗ (∃ f, (xslot 10).view.loc (c : Thread nD τ) ↦[(xslot 10).view.set]{fullShare} f) ∗ (∃ f, (xslot 11).view.loc (c : Thread nD τ) ↦[(xslot 11).view.set]{fullShare} f) ∗ (∃ f, (xslot 12).view.loc (c : Thread nD τ) ↦[(xslot 12).view.set]{fullShare} f) ∗ (∃ f, (xslot 13).view.loc (c : Thread nD τ) ↦[(xslot 13).view.set]{fullShare} f) ∗ (∃ f, (xslot 14).view.loc (c : Thread nD τ) ↦[(xslot 14).view.set]{fullShare} f) ∗ (∃ f, (xslot 15).view.loc (c : Thread nD τ) ↦[(xslot 15).view.set]{fullShare} f)) : sProp 𝕄) ⊢
      iprop(∃ f, ((c : Thread nD τ).loc cc0_scratch4) ↦{fullShare} f) :=
  classes_join (F := F) (ℓ := (c : Thread nD τ).loc cc0_scratch4) (fun x => lead x) (xset c) (fun x => lead_lt x) (mem_xset c)

/-! ## Contents off a slot are irrelevant; what a transfer lands -/

/-- Contents that agree on a slot's elements give the same points-to of the slot. -/
theorem slot_congr (v : Memref sig .tc .vmem S512x128 .bf16) (c : Dev nD) {q : PosShare TreeShare}
    {f g : Buf (Elt F) (v.view.loc (c : Thread nD τ))} (h : ∀ i ∈ v.view.set, f i = g i) :
    (v.view.loc (c : Thread nD τ) ↦[v.view.set]{q} f : sProp 𝕄) = v.view.loc (c : Thread nD τ) ↦[v.view.set]{q} g :=
  pointsTo_congr h

/-- A whole-slot write over two prior contents agrees on the slot's elements. -/
theorem slot_write_agree (v : Memref sig .tc .vmem S512x128 .bf16) (fd fd' : v.view.ty.Contents (Elt F))
    (w : S512x128.Idx → Elt F .bf16) :
    ∀ i ∈ v.view.set, v.view.write (Elt F) fd w Finset.univ i = v.view.write (Elt F) fd' w Finset.univ i :=
  fun i hi => View.write_congr (fun _ _ _ => rfl) fun hn => absurd hi hn

/-- So what a transfer lands in a slot does not depend on what the slot held before. -/
theorem slot_landing_congr (v : Memref sig .tc .vmem S512x128 .bf16) (c : Dev nD) {q : PosShare TreeShare}
    (fd fd' : Buf (Elt F) (v.view.loc (c : Thread nD τ))) (w : S512x128.Idx → Elt F .bf16) :
    (v.view.loc (c : Thread nD τ) ↦[v.view.set]{q} v.view.write (Elt F) fd w Finset.univ : sProp 𝕄)
      = v.view.loc (c : Thread nD τ) ↦[v.view.set]{q} v.view.write (Elt F) fd' w Finset.univ :=
  pointsTo_congr (slot_write_agree v fd fd' w)

/-- Reading a slot back after a whole-slot write gives what was written. -/
theorem slot_read_write (v : Memref sig .tc .vmem S512x128 .bf16) (fd : v.view.ty.Contents (Elt F))
    (w : S512x128.Idx → Elt F .bf16) :
    v.view.read (Elt F) (v.view.write (Elt F) fd w Finset.univ) = w :=
  View.read_write_univ fd w

/-- The same with more conjuncts after the sixteenth slot. -/
theorem sslots_join_frame (c : Dev nD) (R : sProp 𝕄) :
    (iprop((∃ f, (sslot 0).view.loc (c : Thread nD τ) ↦[(sslot 0).view.set]{fullShare} f) ∗ (∃ f, (sslot 1).view.loc (c : Thread nD τ) ↦[(sslot 1).view.set]{fullShare} f) ∗ (∃ f, (sslot 2).view.loc (c : Thread nD τ) ↦[(sslot 2).view.set]{fullShare} f) ∗ (∃ f, (sslot 3).view.loc (c : Thread nD τ) ↦[(sslot 3).view.set]{fullShare} f) ∗ (∃ f, (sslot 4).view.loc (c : Thread nD τ) ↦[(sslot 4).view.set]{fullShare} f) ∗ (∃ f, (sslot 5).view.loc (c : Thread nD τ) ↦[(sslot 5).view.set]{fullShare} f) ∗ (∃ f, (sslot 6).view.loc (c : Thread nD τ) ↦[(sslot 6).view.set]{fullShare} f) ∗ (∃ f, (sslot 7).view.loc (c : Thread nD τ) ↦[(sslot 7).view.set]{fullShare} f) ∗ (∃ f, (sslot 8).view.loc (c : Thread nD τ) ↦[(sslot 8).view.set]{fullShare} f) ∗ (∃ f, (sslot 9).view.loc (c : Thread nD τ) ↦[(sslot 9).view.set]{fullShare} f) ∗ (∃ f, (sslot 10).view.loc (c : Thread nD τ) ↦[(sslot 10).view.set]{fullShare} f) ∗ (∃ f, (sslot 11).view.loc (c : Thread nD τ) ↦[(sslot 11).view.set]{fullShare} f) ∗ (∃ f, (sslot 12).view.loc (c : Thread nD τ) ↦[(sslot 12).view.set]{fullShare} f) ∗ (∃ f, (sslot 13).view.loc (c : Thread nD τ) ↦[(sslot 13).view.set]{fullShare} f) ∗ (∃ f, (sslot 14).view.loc (c : Thread nD τ) ↦[(sslot 14).view.set]{fullShare} f) ∗ (∃ f, (sslot 15).view.loc (c : Thread nD τ) ↦[(sslot 15).view.set]{fullShare} f) ∗ R) : sProp 𝕄) ⊢
      iprop((∃ f, ((c : Thread nD τ).loc cc0_scratch2) ↦{fullShare} f) ∗ R) :=
  classes_join_frame (F := F) (ℓ := (c : Thread nD τ).loc cc0_scratch2) (fun x => lead x) (sset c) (fun x => lead_lt x) (mem_sset c) R

/-- The same with more conjuncts after the sixteenth slot. -/
theorem yslots_join_frame (c : Dev nD) (R : sProp 𝕄) :
    (iprop((∃ f, (yslot 0).view.loc (c : Thread nD τ) ↦[(yslot 0).view.set]{fullShare} f) ∗ (∃ f, (yslot 1).view.loc (c : Thread nD τ) ↦[(yslot 1).view.set]{fullShare} f) ∗ (∃ f, (yslot 2).view.loc (c : Thread nD τ) ↦[(yslot 2).view.set]{fullShare} f) ∗ (∃ f, (yslot 3).view.loc (c : Thread nD τ) ↦[(yslot 3).view.set]{fullShare} f) ∗ (∃ f, (yslot 4).view.loc (c : Thread nD τ) ↦[(yslot 4).view.set]{fullShare} f) ∗ (∃ f, (yslot 5).view.loc (c : Thread nD τ) ↦[(yslot 5).view.set]{fullShare} f) ∗ (∃ f, (yslot 6).view.loc (c : Thread nD τ) ↦[(yslot 6).view.set]{fullShare} f) ∗ (∃ f, (yslot 7).view.loc (c : Thread nD τ) ↦[(yslot 7).view.set]{fullShare} f) ∗ (∃ f, (yslot 8).view.loc (c : Thread nD τ) ↦[(yslot 8).view.set]{fullShare} f) ∗ (∃ f, (yslot 9).view.loc (c : Thread nD τ) ↦[(yslot 9).view.set]{fullShare} f) ∗ (∃ f, (yslot 10).view.loc (c : Thread nD τ) ↦[(yslot 10).view.set]{fullShare} f) ∗ (∃ f, (yslot 11).view.loc (c : Thread nD τ) ↦[(yslot 11).view.set]{fullShare} f) ∗ (∃ f, (yslot 12).view.loc (c : Thread nD τ) ↦[(yslot 12).view.set]{fullShare} f) ∗ (∃ f, (yslot 13).view.loc (c : Thread nD τ) ↦[(yslot 13).view.set]{fullShare} f) ∗ (∃ f, (yslot 14).view.loc (c : Thread nD τ) ↦[(yslot 14).view.set]{fullShare} f) ∗ (∃ f, (yslot 15).view.loc (c : Thread nD τ) ↦[(yslot 15).view.set]{fullShare} f) ∗ R) : sProp 𝕄) ⊢
      iprop((∃ f, ((c : Thread nD τ).loc cc0_scratch3) ↦{fullShare} f) ∗ R) :=
  classes_join_frame (F := F) (ℓ := (c : Thread nD τ).loc cc0_scratch3) (fun x => lead x) (yset c) (fun x => lead_lt x) (mem_yset c) R

/-- The same with more conjuncts after the sixteenth slot. -/
theorem xslots_join_frame (c : Dev nD) (R : sProp 𝕄) :
    (iprop((∃ f, (xslot 0).view.loc (c : Thread nD τ) ↦[(xslot 0).view.set]{fullShare} f) ∗ (∃ f, (xslot 1).view.loc (c : Thread nD τ) ↦[(xslot 1).view.set]{fullShare} f) ∗ (∃ f, (xslot 2).view.loc (c : Thread nD τ) ↦[(xslot 2).view.set]{fullShare} f) ∗ (∃ f, (xslot 3).view.loc (c : Thread nD τ) ↦[(xslot 3).view.set]{fullShare} f) ∗ (∃ f, (xslot 4).view.loc (c : Thread nD τ) ↦[(xslot 4).view.set]{fullShare} f) ∗ (∃ f, (xslot 5).view.loc (c : Thread nD τ) ↦[(xslot 5).view.set]{fullShare} f) ∗ (∃ f, (xslot 6).view.loc (c : Thread nD τ) ↦[(xslot 6).view.set]{fullShare} f) ∗ (∃ f, (xslot 7).view.loc (c : Thread nD τ) ↦[(xslot 7).view.set]{fullShare} f) ∗ (∃ f, (xslot 8).view.loc (c : Thread nD τ) ↦[(xslot 8).view.set]{fullShare} f) ∗ (∃ f, (xslot 9).view.loc (c : Thread nD τ) ↦[(xslot 9).view.set]{fullShare} f) ∗ (∃ f, (xslot 10).view.loc (c : Thread nD τ) ↦[(xslot 10).view.set]{fullShare} f) ∗ (∃ f, (xslot 11).view.loc (c : Thread nD τ) ↦[(xslot 11).view.set]{fullShare} f) ∗ (∃ f, (xslot 12).view.loc (c : Thread nD τ) ↦[(xslot 12).view.set]{fullShare} f) ∗ (∃ f, (xslot 13).view.loc (c : Thread nD τ) ↦[(xslot 13).view.set]{fullShare} f) ∗ (∃ f, (xslot 14).view.loc (c : Thread nD τ) ↦[(xslot 14).view.set]{fullShare} f) ∗ (∃ f, (xslot 15).view.loc (c : Thread nD τ) ↦[(xslot 15).view.set]{fullShare} f) ∗ R) : sProp 𝕄) ⊢
      iprop((∃ f, ((c : Thread nD τ).loc cc0_scratch4) ↦{fullShare} f) ∗ R) :=
  classes_join_frame (F := F) (ℓ := (c : Thread nD τ).loc cc0_scratch4) (fun x => lead x) (xset c) (fun x => lead_lt x) (mem_xset c) R

end Cert.Kernel.Hand

end
-- ==== Proof.BodyEndsK.lean ====
import proofs.«901046_g7700000000001047_dist_rsdw_v7x_xy2x2_y_m1024_d1024_f4096_f32_1_alg».proof.Proof.Gen.Kernel
import proofs.«901046_g7700000000001047_dist_rsdw_v7x_xy2x2_y_m1024_d1024_f4096_f32_1_alg».proof.Proof.Gen.Kernel.Skeleton
import proofs.«901046_g7700000000001047_dist_rsdw_v7x_xy2x2_y_m1024_d1024_f4096_f32_1_alg».proof.Proof.Gen.Kernel.Launch
import proofs.«901046_g7700000000001047_dist_rsdw_v7x_xy2x2_y_m1024_d1024_f4096_f32_1_alg».proof.Proof.Gen.Kernel.Points
import proofs.«901046_g7700000000001047_dist_rsdw_v7x_xy2x2_y_m1024_d1024_f4096_f32_1_alg».proof.Proof.ProtoK
import proofs.«901046_g7700000000001047_dist_rsdw_v7x_xy2x2_y_m1024_d1024_f4096_f32_1_alg».proof.Proof.SlotsK
import proofs.«901046_g7700000000001047_dist_rsdw_v7x_xy2x2_y_m1024_d1024_f4096_f32_1_alg».proof.Proof.LedgerK
import Idealize.ShloMosaic.Lib.Pipeline.Launch
import Idealize.ShloMosaic.Lib.Pipeline.Kit
import Idealize.ShloMosaic.Lib.Tactic

/-! The two ends of a device's body.

At its end: each of the sixty-four transfer cells has had its one round consumed, and no later round has a duty, so the owner closes the
cell and its counter, at zero, is the device's again. At its beginning: what the pipeline hands the body at the one point of the grid is
what the launch dealt the device, with the existentials opened — the names of the invariants, the recorded waits, the contents of the five
scratch buffers — and the staged first argument at its block; so a body proved from those, for all of them, meets the pipeline's obligation. -/

set_option maxRecDepth 16384

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (Sb : (c : Dev nD) → (j : Fin 16) → Buf (Elt F) ((sslot j).view.loc (c : Thread nD τ)))
variable (Yc : (c : Dev nD) → (j : Fin 16) → Buf (Elt F) ((yslot j).view.loc (c : Thread nD τ)))
variable (Xc : (c : Dev nD) → (j : Fin 16) → Buf (Elt F) ((xslot j).view.loc (c : Thread nD τ)))
variable (OutP : (c : Dev nD) → Buf (Elt F) ((c : Thread nD τ).loc main_v1) → Prop)

/-! ## Chains over listed index sets -/

private abbrev f16 : List (Fin 16) := [0, 1, 2, 3, 4, 5, 6, 7, 8, 9, 10, 11, 12, 13, 14, 15]
private abbrev pairL : List (Fin 4 × Fin 16) :=
  f16.map (fun j => ((0 : Fin 4), j)) ++ f16.map (fun j => ((1 : Fin 4), j)) ++ f16.map (fun j => ((2 : Fin 4), j)) ++ f16.map (fun j => ((3 : Fin 4), j))
private abbrev cellL : List (Option (Fin 4 × Fin 16)) := none :: pairL.map some

omit [FloatOps F] in
private theorem bigSep_cells (Φ : Option (Fin 4 × Fin 16) → sProp 𝕄) : bigSep Finset.univ Φ = bigSepL cellL Φ := bigSep_univ_eq_bigSepL cellL (by decide) (by decide) Φ

omit [FloatOps F] in
/-- Under a persistent assertion, updates of the members one by one are one update of the chain. -/
private theorem bigSepL_fupd_persistent {I : Type} {R : sProp 𝕄} [BI.Persistent R] {Φ Ψ : I → sProp 𝕄} (l : List I)
    (h : ∀ i, iprop(R ∗ Φ i) ⊢ |={Set.univ}=> Ψ i) : iprop(R ∗ bigSepL l Φ) ⊢ |={Set.univ}=> bigSepL l Ψ := by
  induction l with
  | nil => iintro -; imodintro; iempintro
  | cons i l ih =>
    rw [bigSepL_cons, bigSepL_cons]
    show iprop(R ∗ Φ i ∗ bigSepL l Φ) ⊢ |={Set.univ}=> iprop(Ψ i ∗ bigSepL l Ψ)
    iintro ⟨#HR, Hi, Hl⟩
    imod (h i) $$ [Hi] with Hi'
    · isplitr; · iexact HR
      iexact Hi
    imod ih $$ [Hl] with Hl'
    · isplitr; · iexact HR
      iexact Hl
    imodintro
    isplitl [Hi'] <;> iassumption

/-! ## The end: the transfer cells closed -/

/-- The positions of the sixty-four transfer cells once their one round is consumed. -/
def posDone (c : Dev nD) : sProp 𝕄 :=
  iprop(atPos ER (ysendCell c 0) (0 + 1) ∅ 0 ∗ atPos ER (ysendCell c 1) (0 + 1) ∅ 0 ∗ atPos ER (ysendCell c 2) (0 + 1) ∅ 0 ∗ atPos ER (ysendCell c 3) (0 + 1) ∅ 0 ∗ atPos ER (ysendCell c 4) (0 + 1) ∅ 0 ∗ atPos ER (ysendCell c 5) (0 + 1) ∅ 0 ∗ atPos ER (ysendCell c 6) (0 + 1) ∅ 0 ∗ atPos ER (ysendCell c 7) (0 + 1) ∅ 0 ∗ atPos ER (ysendCell c 8) (0 + 1) ∅ 0 ∗ atPos ER (ysendCell c 9) (0 + 1) ∅ 0 ∗ atPos ER (ysendCell c 10) (0 + 1) ∅ 0 ∗ atPos ER (ysendCell c 11) (0 + 1) ∅ 0 ∗ atPos ER (ysendCell c 12) (0 + 1) ∅ 0 ∗ atPos ER (ysendCell c 13) (0 + 1) ∅ 0 ∗ atPos ER (ysendCell c 14) (0 + 1) ∅ 0 ∗ atPos ER (ysendCell c 15) (0 + 1) ∅ 0
    ∗ atPos ER (yrecvCell c 0) (0 + 1) ∅ 0 ∗ atPos ER (yrecvCell c 1) (0 + 1) ∅ 0 ∗ atPos ER (yrecvCell c 2) (0 + 1) ∅ 0 ∗ atPos ER (yrecvCell c 3) (0 + 1) ∅ 0 ∗ atPos ER (yrecvCell c 4) (0 + 1) ∅ 0 ∗ atPos ER (yrecvCell c 5) (0 + 1) ∅ 0 ∗ atPos ER (yrecvCell c 6) (0 + 1) ∅ 0 ∗ atPos ER (yrecvCell c 7) (0 + 1) ∅ 0 ∗ atPos ER (yrecvCell c 8) (0 + 1) ∅ 0 ∗ atPos ER (yrecvCell c 9) (0 + 1) ∅ 0 ∗ atPos ER (yrecvCell c 10) (0 + 1) ∅ 0 ∗ atPos ER (yrecvCell c 11) (0 + 1) ∅ 0 ∗ atPos ER (yrecvCell c 12) (0 + 1) ∅ 0 ∗ atPos ER (yrecvCell c 13) (0 + 1) ∅ 0 ∗ atPos ER (yrecvCell c 14) (0 + 1) ∅ 0 ∗ atPos ER (yrecvCell c 15) (0 + 1) ∅ 0
    ∗ atPos ER (fsendCell c 0) (0 + 1) ∅ 0 ∗ atPos ER (fsendCell c 1) (0 + 1) ∅ 0 ∗ atPos ER (fsendCell c 2) (0 + 1) ∅ 0 ∗ atPos ER (fsendCell c 3) (0 + 1) ∅ 0 ∗ atPos ER (fsendCell c 4) (0 + 1) ∅ 0 ∗ atPos ER (fsendCell c 5) (0 + 1) ∅ 0 ∗ atPos ER (fsendCell c 6) (0 + 1) ∅ 0 ∗ atPos ER (fsendCell c 7) (0 + 1) ∅ 0 ∗ atPos ER (fsendCell c 8) (0 + 1) ∅ 0 ∗ atPos ER (fsendCell c 9) (0 + 1) ∅ 0 ∗ atPos ER (fsendCell c 10) (0 + 1) ∅ 0 ∗ atPos ER (fsendCell c 11) (0 + 1) ∅ 0 ∗ atPos ER (fsendCell c 12) (0 + 1) ∅ 0 ∗ atPos ER (fsendCell c 13) (0 + 1) ∅ 0 ∗ atPos ER (fsendCell c 14) (0 + 1) ∅ 0 ∗ atPos ER (fsendCell c 15) (0 + 1) ∅ 0
    ∗ atPos ER (xrecvCell c 0) (0 + 1) ∅ 0 ∗ atPos ER (xrecvCell c 1) (0 + 1) ∅ 0 ∗ atPos ER (xrecvCell c 2) (0 + 1) ∅ 0 ∗ atPos ER (xrecvCell c 3) (0 + 1) ∅ 0 ∗ atPos ER (xrecvCell c 4) (0 + 1) ∅ 0 ∗ atPos ER (xrecvCell c 5) (0 + 1) ∅ 0 ∗ atPos ER (xrecvCell c 6) (0 + 1) ∅ 0 ∗ atPos ER (xrecvCell c 7) (0 + 1) ∅ 0 ∗ atPos ER (xrecvCell c 8) (0 + 1) ∅ 0 ∗ atPos ER (xrecvCell c 9) (0 + 1) ∅ 0 ∗ atPos ER (xrecvCell c 10) (0 + 1) ∅ 0 ∗ atPos ER (xrecvCell c 11) (0 + 1) ∅ 0 ∗ atPos ER (xrecvCell c 12) (0 + 1) ∅ 0 ∗ atPos ER (xrecvCell c 13) (0 + 1) ∅ 0 ∗ atPos ER (xrecvCell c 14) (0 + 1) ∅ 0 ∗ atPos ER (xrecvCell c 15) (0 + 1) ∅ 0)

omit [FloatOps F] in
theorem invsOwn_at (K : Dev nD × Option (Fin 4 × Fin 16) → ℕ) (c : Dev nD) (k : Option (Fin 4 × Fin 16)) :
    invsOwn Sb Yc Xc K c ⊢ cellInv ER (xRd Sb Yc Xc) (K (c, k)) (kcell (c, k)) := by
  show bigSepL cellL (fun k => cellInv ER (xRd Sb Yc Xc) (K (c, k)) (kcell (c, k))) ⊢ _
  rw [← bigSep_cells]
  exact bigSep_elim (Finset.mem_univ k)

omit [FloatOps F] in
/-- Each transfer cell's owner, past the cell's only round, closes it: the sixty-four counters, at zero, are the device's again. -/
theorem xfers_close (K : Dev nD × Option (Fin 4 × Fin 16) → ℕ) (c : Dev nD) :
    iprop(invsOwn Sb Yc Xc K c ∗ posDone c) ⊢ |={Set.univ}=> xfers0 c :=
  show iprop(invsOwn Sb Yc Xc K c ∗ bigSepL pairL (fun kj => atPos ER (kcell (c, some kj)) (0 + 1) ∅ 0))
      ⊢ |={Set.univ}=> bigSepL pairL (fun kj => semVal (kcell (c, some kj)) 0) from
    bigSepL_fupd_persistent pairL fun kj => by
      iintro ⟨#HI, Hat⟩
      iapply (Rounds.cell_close ER (xRd Sb Yc Xc) (Set.mem_univ (K (c, some kj))) (fun h => h) (R := 0 + 1) (duties_later Sb Yc Xc (kcell (c, some kj))))
      isplitr
      · iapply (invsOwn_at Sb Yc Xc K c (some kj)); iexact HI
      · iexact Hat

/-! ## One conjunct out of a folded chain -/

omit [FloatOps F] in
private theorem bigSepL_elim {I : Type} {Φ : I → sProp 𝕄} (l : List I) (i : I) (h : i ∈ l) : bigSepL l Φ ⊢ Φ i := by
  induction l with
  | nil => exact absurd h (List.not_mem_nil)
  | cons a l ih =>
    rw [bigSepL_cons]
    show iprop(Φ a ∗ bigSepL l Φ) ⊢ Φ i
    rcases List.mem_cons.mp h with rfl | h'
    · iintro ⟨H, -⟩; iexact H
    · iintro ⟨-, H⟩; iapply (ih h'); iexact H

private theorem mem_f16 (j : Fin 16) : j ∈ f16 := by revert j; decide
private theorem mem_pairL (k : Fin 4) (j : Fin 16) : (k, j) ∈ pairL := by revert k j; decide

/-- The neighbours' cells a device pays into: both barrier cells, the chunks' receive cells along the second axis, the forwards' along the first. -/
private abbrev peerL (c : Dev nD) : List (Dev nD × Option (Fin 4 × Fin 16)) :=
  (ynb c, none) :: (xnb c, none) :: (f16.map (fun j => (ynb c, some ((1 : Fin 4), j))) ++ f16.map (fun j => (xnb c, some ((3 : Fin 4), j))))

private theorem mem_peer_by (c : Dev nD) : (ynb c, none) ∈ peerL c := List.mem_cons.mpr (Or.inl rfl)
private theorem mem_peer_bx (c : Dev nD) : (xnb c, none) ∈ peerL c := List.mem_cons.mpr (Or.inr (List.mem_cons.mpr (Or.inl rfl)))
private theorem mem_peer_y (c : Dev nD) (j : Fin 16) : (ynb c, some ((1 : Fin 4), j)) ∈ peerL c :=
  List.mem_cons.mpr (Or.inr (List.mem_cons.mpr (Or.inr (List.mem_append.mpr (Or.inl (List.mem_map.mpr ⟨j, mem_f16 j, rfl⟩))))))
private theorem mem_peer_x (c : Dev nD) (j : Fin 16) : (xnb c, some ((3 : Fin 4), j)) ∈ peerL c :=
  List.mem_cons.mpr (Or.inr (List.mem_cons.mpr (Or.inr (List.mem_append.mpr (Or.inr (List.mem_map.mpr ⟨j, mem_f16 j, rfl⟩))))))

section Projections
variable (K : Dev nD × Option (Fin 4 × Fin 16) → ℕ) (c : Dev nD) (j : Fin 16)

omit [FloatOps F] in
theorem invsOwn_bar : invsOwn Sb Yc Xc K c ⊢ cellInv ER (xRd Sb Yc Xc) (K (c, none)) (barCell c) := by
  have h := invsOwn_at Sb Yc Xc K c none; exact h
omit [FloatOps F] in
theorem invsOwn_ysend : invsOwn Sb Yc Xc K c ⊢ cellInv ER (xRd Sb Yc Xc) (K (c, some (0, j))) (ysendCell c j) := by
  have h := invsOwn_at Sb Yc Xc K c (some ((0 : Fin 4), j)); exact h
omit [FloatOps F] in
theorem invsOwn_yrecv : invsOwn Sb Yc Xc K c ⊢ cellInv ER (xRd Sb Yc Xc) (K (c, some (1, j))) (yrecvCell c j) := by
  have h := invsOwn_at Sb Yc Xc K c (some ((1 : Fin 4), j)); exact h
omit [FloatOps F] in
theorem invsOwn_fsend : invsOwn Sb Yc Xc K c ⊢ cellInv ER (xRd Sb Yc Xc) (K (c, some (2, j))) (fsendCell c j) := by
  have h := invsOwn_at Sb Yc Xc K c (some ((2 : Fin 4), j)); exact h
omit [FloatOps F] in
theorem invsOwn_xrecv : invsOwn Sb Yc Xc K c ⊢ cellInv ER (xRd Sb Yc Xc) (K (c, some (3, j))) (xrecvCell c j) := by
  have h := invsOwn_at Sb Yc Xc K c (some ((3 : Fin 4), j)); exact h

omit [FloatOps F] in
private theorem invsPeer_at (ck : Dev nD × Option (Fin 4 × Fin 16)) (h : ck ∈ peerL c) : invsPeer Sb Yc Xc K c ⊢ cellInv ER (xRd Sb Yc Xc) (K ck) (kcell ck) :=
  show bigSepL (peerL c) (fun ck => cellInv ER (xRd Sb Yc Xc) (K ck) (kcell ck)) ⊢ _ from bigSepL_elim (peerL c) ck h
omit [FloatOps F] in
theorem invsPeer_by : invsPeer Sb Yc Xc K c ⊢ cellInv ER (xRd Sb Yc Xc) (K (ynb c, none)) (barCell (ynb c)) := invsPeer_at Sb Yc Xc K c (ynb c, none) (mem_peer_by c)
omit [FloatOps F] in
theorem invsPeer_bx : invsPeer Sb Yc Xc K c ⊢ cellInv ER (xRd Sb Yc Xc) (K (xnb c, none)) (barCell (xnb c)) := invsPeer_at Sb Yc Xc K c (xnb c, none) (mem_peer_bx c)
omit [FloatOps F] in
theorem invsPeer_y : invsPeer Sb Yc Xc K c ⊢ cellInv ER (xRd Sb Yc Xc) (K (ynb c, some (1, j))) (yrecvCell (ynb c) j) := invsPeer_at Sb Yc Xc K c (ynb c, some ((1 : Fin 4), j)) (mem_peer_y c j)
omit [FloatOps F] in
theorem invsPeer_x : invsPeer Sb Yc Xc K c ⊢ cellInv ER (xRd Sb Yc Xc) (K (xnb c, some (3, j))) (xrecvCell (xnb c) j) := invsPeer_at Sb Yc Xc K c (xnb c, some ((3 : Fin 4), j)) (mem_peer_x c j)

omit [FloatOps F] in
private theorem reachedAll_at (ck : Dev nD × Option (Fin 4 × Fin 16)) (h : ck ∈ peerL c ++ pairL.map (fun kj => (c, some kj))) : (reachedAll c : sProp 𝕄) ⊢ reached ER (kcell ck) 0 :=
  show bigSepL (peerL c ++ pairL.map (fun kj => (c, some kj))) (fun ck => (reached ER (kcell ck) 0 : sProp 𝕄)) ⊢ _ from bigSepL_elim _ ck h
omit [FloatOps F] in
theorem reachedAll_by : (reachedAll c : sProp 𝕄) ⊢ reached ER (barCell (ynb c)) 0 := by
  have h := reachedAll_at (F := F) c (ynb c, none) (List.mem_append.mpr (Or.inl (mem_peer_by c))); exact h
omit [FloatOps F] in
theorem reachedAll_bx : (reachedAll c : sProp 𝕄) ⊢ reached ER (barCell (xnb c)) 0 := by
  have h := reachedAll_at (F := F) c (xnb c, none) (List.mem_append.mpr (Or.inl (mem_peer_bx c))); exact h
omit [FloatOps F] in
theorem reachedAll_py : (reachedAll c : sProp 𝕄) ⊢ reached ER (yrecvCell (ynb c) j) 0 := by
  have h := reachedAll_at (F := F) c (ynb c, some ((1 : Fin 4), j)) (List.mem_append.mpr (Or.inl (mem_peer_y c j))); exact h
omit [FloatOps F] in
theorem reachedAll_px : (reachedAll c : sProp 𝕄) ⊢ reached ER (xrecvCell (xnb c) j) 0 := by
  have h := reachedAll_at (F := F) c (xnb c, some ((3 : Fin 4), j)) (List.mem_append.mpr (Or.inl (mem_peer_x c j))); exact h
omit [FloatOps F] in
theorem reachedAll_own (k : Fin 4) : (reachedAll c : sProp 𝕄) ⊢ reached ER (kcell (c, some (k, j))) 0 :=
  reachedAll_at c (c, some (k, j)) (List.mem_append.mpr (Or.inr (List.mem_map.mpr ⟨(k, j), mem_pairL k j, rfl⟩)))
omit [FloatOps F] in
theorem reachedAll_ysend : (reachedAll c : sProp 𝕄) ⊢ reached ER (ysendCell c j) 0 := by
  have h := reachedAll_own (F := F) c j (0 : Fin 4); exact h
omit [FloatOps F] in
theorem reachedAll_yrecv : (reachedAll c : sProp 𝕄) ⊢ reached ER (yrecvCell c j) 0 := by
  have h := reachedAll_own (F := F) c j (1 : Fin 4); exact h
omit [FloatOps F] in
theorem reachedAll_fsend : (reachedAll c : sProp 𝕄) ⊢ reached ER (fsendCell c j) 0 := by
  have h := reachedAll_own (F := F) c j (2 : Fin 4); exact h
omit [FloatOps F] in
theorem reachedAll_xrecv : (reachedAll c : sProp 𝕄) ⊢ reached ER (xrecvCell c j) 0 := by
  have h := reachedAll_own (F := F) c j (3 : Fin 4); exact h

end Projections

/-! ## The beginning: the pipeline's obligation from the body's own statement -/

theorem cfg0_N : cfg0.N = 1 := by decide
/-- The one point of the grid. -/
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- A buffer of device `c`, whole, at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- What a device's body ends with: every semaphore of its own at zero, the scratch buffers, the result at contents the predicate holds of; what it then owes; the
    staged first argument as it was. -/
def bodyPost (c : Dev nD) : sProp 𝕄 :=
  iprop(Φ₁ m OutP c ∗ (dats m Sb Yc Xc OutP 0 c).owesAt () t₀.succ ∗ stg c cc0_stg0_0 (xstg m c))

/-- The body's own statement on device `c`: from the ghost state at any names, the launch credit, the levels, the local semaphores at
    zero, what the device owes at any recorded waits, and the eight buffers whole — the staged first argument at its block, the second
    argument and the result as launched, the five scratch buffers at any contents — the body runs to `bodyPost`. -/
def BodySpec (c : Dev nD) : Prop :=
  ∀ (K : Dev nD × Option (Fin 4 × Fin 16) → ℕ) (W : Waits sig Unit)
    (f3 : Buf (Elt F) ((c : Thread nD τ).loc cc0_scratch0)) (f4 : Buf (Elt F) ((c : Thread nD τ).loc cc0_scratch1))
    (f5 : Buf (Elt F) ((c : Thread nD τ).loc cc0_scratch2)) (f6 : Buf (Elt F) ((c : Thread nD τ).loc cc0_scratch3)) (f7 : Buf (Elt F) ((c : Thread nD τ).loc cc0_scratch4))
    (Kt : PUnit → sProp 𝕄),
    iprop(ghost Sb Yc Xc K c ∗ creds c ∗ levAts L lv ∗ locals0 c ∗ owes (c : Thread nD τ) (O₀ c) W
        ∗ ((Memref.whole cc0_stg0_0 : Memref sig .tc .vmem S1024x1024 .f32).view.loc (c : Thread nD τ) ↦{fullShare} xstg m c)
        ∗ ((Memref.whole main_arg1 : Memref sig .tc .hbm S1024x4096 .f32).view.loc (c : Thread nD τ) ↦{fullShare} m ((c : Thread nD τ).loc main_arg1))
        ∗ ((Memref.whole main_v1 : Memref sig .tc .hbm S512x4096 .f32).view.loc (c : Thread nD τ) ↦{fullShare} m ((c : Thread nD τ).loc main_v1))
        ∗ ((Memref.whole cc0_scratch0 : Memref sig .tc .vmem S1024x4096 .f32).view.loc (c : Thread nD τ) ↦{fullShare} f3)
        ∗ ((Memref.whole cc0_scratch1 : Memref sig .tc .vmem S512x4096 .f32).view.loc (c : Thread nD τ) ↦{fullShare} f4)
        ∗ ((Memref.whole cc0_scratch2 : Memref sig .tc .vmem S16x512x128 .bf16).view.loc (c : Thread nD τ) ↦{fullShare} f5)
        ∗ ((Memref.whole cc0_scratch3 : Memref sig .tc .vmem S16x512x128 .bf16).view.loc (c : Thread nD τ) ↦{fullShare} f6)
        ∗ ((Memref.whole cc0_scratch4 : Memref sig .tc .vmem S16x512x128 .bf16).view.loc (c : Thread nD τ) ↦{fullShare} f7)
        ∗ (bodyPost m Sb Yc Xc OutP c -∗ Kt ⟨⟩))
      ⊢ wp frame (wpE (defs₀ (F := F)) 𝒱₀ c none) Set.univ
          (cc0_body (Memref.whole cc0_stg0_0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10) Kt

def bodyPre' (c : Dev nD) : sProp 𝕄 :=
  iprop(Φ₀ m Sb Yc Xc c ∗ (dats m Sb Yc Xc OutP 0 c).owesAt () t₀.castSucc
    ∗ (∃ d, stg c cc0_stg0_0 ((dats m Sb Yc Xc OutP 0 c).before (0 : Fin 1) t₀ d)))

/-- The pipeline's body obligation on device `c` from the body's own statement. -/
theorem body_wrap (c : Dev nD) (h : BodySpec m Sb Yc Xc OutP c) :
    BodyObligation (dats (F := F) m Sb Yc Xc OutP 0 c) (defs₀ (F := F)) 𝒱₀ () Set.univ := fun t => by
  rw [fin_N t]
  rw [bigSep_W0, bigSep_W0]
  simp only [owns_whole_eq]
  show bodyPre' m Sb Yc Xc OutP c ⊢ wp frame (wpE (defs₀ (F := F)) 𝒱₀ c none) Set.univ
    (cc0_body (Memref.whole cc0_stg0_0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10) (fun _ => bodyPost m Sb Yc Xc OutP c)
  unfold bodyPre' Φ₀ start scratch hbm
  iintro ⟨⟨⟨⟨%K, Hg⟩, Hcr, Hlev, Hloc, Ha1, Hv1⟩, ⟨%f3, H3⟩, ⟨%f4, H4⟩, ⟨%f5, H5⟩, ⟨%f6, H6⟩, ⟨%f7, H7⟩⟩, Ho, ⟨%d0, %g0, %hg0, Hx⟩⟩
  have hx : g0 = xstg m c := by rw [hg0]; unfold Dat.before; rw [if_pos (fetch0_0 t₀)]; rfl
  subst hx
  unfold Dat.owesAt Pipeline.owesWithin
  icases Ho with ⟨%W, %hW, HO⟩
  rw [show (dats m Sb Yc Xc OutP 0 c).owed t₀.castSucc = O₀ c from rfl]
  iapply (h K W f3 f4 f5 f6 f7 fun _ => bodyPost m Sb Yc Xc OutP c)
  isplitl [Hg]; · iexact Hg
  isplitl [Hcr]; · iexact Hcr
  isplitl [Hlev]; · iexact Hlev
  isplitl [Hloc]; · iexact Hloc
  isplitl [HO]; · iexact HO
  isplitl [Hx]; · iexact Hx
  isplitl [Ha1]; · iexact Ha1
  isplitl [Hv1]; · iexact Hv1
  isplitl [H3]; · iexact H3
  isplitl [H4]; · iexact H4
  isplitl [H5]; · iexact H5
  isplitl [H6]; · iexact H6
  isplitl [H7]; · iexact H7
  iintro H; iexact H

/-- info: 'Cert.Kernel.Hand.body_wrap' depends on axioms: [propext, Classical.choice, Quot.sound] -/
#guard_msgs in #print axioms body_wrap
/-- info: 'Cert.Kernel.Hand.xfers_close' depends on axioms: [propext, Classical.choice, Quot.sound] -/
#guard_msgs in #print axioms xfers_close

end Cert.Kernel.Hand

end
-- ==== Proof.ValuesK.lean ====
import proofs.«901046_g7700000000001047_dist_rsdw_v7x_xy2x2_y_m1024_d1024_f4096_f32_1_alg».proof.Proof.Gen.Kernel
import proofs.«901046_g7700000000001047_dist_rsdw_v7x_xy2x2_y_m1024_d1024_f4096_f32_1_alg».proof.Proof.Gen.Kernel.Skeleton
import proofs.«901046_g7700000000001047_dist_rsdw_v7x_xy2x2_y_m1024_d1024_f4096_f32_1_alg».proof.Proof.Gen.Kernel.Launch
import proofs.«901046_g7700000000001047_dist_rsdw_v7x_xy2x2_y_m1024_d1024_f4096_f32_1_alg».proof.Proof.Gen.Kernel.Points
import proofs.«901046_g7700000000001047_dist_rsdw_v7x_xy2x2_y_m1024_d1024_f4096_f32_1_alg».proof.Proof.ProtoK
import proofs.«901046_g7700000000001047_dist_rsdw_v7x_xy2x2_y_m1024_d1024_f4096_f32_1_alg».proof.Proof.SlotsK
import Idealize.ShloMosaic.Lib.Pipeline.Launch
import Idealize.ShloMosaic.Lib.Pipeline.Kit
import Idealize.ShloMosaic.Lib.Tactic

/-! What the slots hold, as closed terms.

The buffer of outgoing chunks is filled slot by slot: each store writes one slot whole, through the rectangle at offset `(j, 0, 0)` of
sizes `(1, 512, 128)`. Rectangles of different slots are disjoint, so among the elements of slot `j` — the indices whose first coordinate
is `j` — the buffer's contents after any run of such stores, over any earlier contents, are the payload of the store into slot `j`, whatever
the other stores wrote and in whatever order. Slot `j`'s contents can therefore be named by that payload alone, written over fixed arbitrary
contents. What a transfer lands in a neighbour's slot is the source slot read, written whole over whatever the destination held; it is
named the same way. -/

set_option maxRecDepth 16384

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## A store among disjoint stores -/

/-- After stores through pairwise disjoint rectangles, an element of one store's rectangle reads that store's payload, wherever the
    store stands in the list and whatever the buffer held before. -/
theorem read_writes_of_mem_pairwise {sig' : RefSig} {κ : Kind} {sp : Space} {s : Shape} {e : EltTy} {Val : EltTy → Type}
    (v : View sig' κ sp s e) (f : v.ty.Contents Val) :
    ∀ (L : List (View.Piece Val s e)) (r : Rect s) (w : r.shape.Idx → Val e), (⟨r, w⟩ : View.Piece Val s e) ∈ L →
      L.Pairwise (fun p q => Disjoint p.1.set q.1.set) → ∀ x : r.shape.Idx, v.read Val (v.writes Val f L) (r.emb x) = w x
  | [], _, _, h, _, _ => absurd h List.not_mem_nil
  | p :: L, r, w, h, hp, x => by
    rcases List.mem_cons.mp h with hpe | hm
    · subst hpe
      exact View.read_writes_cons_emb v f r w L x
    · have hdis : Disjoint p.1.set r.set := (List.pairwise_cons.mp hp).1 ⟨r, w⟩ hm
      have hx : r.emb x ∉ p.1.set := fun hin =>
        Finset.disjoint_left.mp hdis hin (by rw [← Rect.map_emb_univ]; exact Finset.mem_map_of_mem _ (Finset.mem_univ x))
      rw [View.writes_cons, View.read_slice_write_of_not_mem p.1 _ _ _ (by rw [Rect.map_emb_univ]; exact hx)]
      exact read_writes_of_mem_pairwise v f L r w hm (List.pairwise_cons.mp hp).2 x

/-! ## The slots' rectangles -/

/-- The buffer of outgoing chunks, whole. -/
abbrev W2 : View sig .tc .vmem S16x512x128 .bf16 := (Memref.whole cc0_scratch2 : Memref sig .tc .vmem S16x512x128 .bf16).view

/-- Slot `j`'s rectangle: offset `(j, 0, 0)`, sizes `(1, 512, 128)`. -/
def box (j : Fin 16) : Rect S16x512x128 :=
  Rect.unit (s := S16x512x128) ![j.val, 0, 0] S1x512x128.size (fun a => by
    have hj := j.isLt
    fin_cases a
    · show j.val + 1 ≤ 16; omega
    · show 0 + 512 ≤ 512; omega
    · show 0 + 128 ≤ 128; omega)

theorem mem_box (j : Fin 16) (x : S16x512x128.Idx) : x ∈ (box j).set ↔ lead x = j.val := mem_unit_lead j.val _ x

theorem box_disjoint {a b : Fin 16} (h : a ≠ b) : Disjoint (box a).set (box b).set :=
  Finset.disjoint_left.mpr fun x ha hb => h (Fin.ext (((mem_box a x).mp ha).symm.trans ((mem_box b x).mp hb)))

/-- Stores into distinct slots are through pairwise disjoint rectangles. -/
theorem pairwise_of_boxes {Val : EltTy → Type} (L : List (View.Piece Val S16x512x128 .bf16)) (js : List (Fin 16))
    (hrects : L.map (fun p => p.1) = js.map box) (hnd : js.Nodup) : L.Pairwise (fun p q => Disjoint p.1.set q.1.set) := by
  have h1 : (js.map box).Pairwise (fun r r' => Disjoint r.set r'.set) :=
    (List.pairwise_map (f := box) (R := fun r r' => Disjoint r.set r'.set)).mpr (List.Pairwise.imp (fun hab => box_disjoint hab) hnd)
  rw [← hrects] at h1
  exact (List.pairwise_map (f := fun p : View.Piece Val S16x512x128 .bf16 => p.1) (R := fun r r' => Disjoint r.set r'.set)).mp h1

/-! ## Slot `j` of the outgoing buffer -/

/-- Fixed arbitrary contents of a buffer. -/
abbrev junk2 : W2.ty.Contents (Elt F) := W2.junk

/-- The outgoing buffer holding `w` in slot `j`, arbitrary elsewhere. (Never unfolded when two contents are compared: what matters of
    it is `restate_s`.) -/
@[irreducible] def SbW (c : Dev nD) (j : Fin 16) (w : FVec F S1x512x128 .bf16) : Buf (Elt F) ((c : Thread nD τ).loc cc0_scratch2) :=
  W2.writes (Elt F) junk2 [⟨box j, w⟩]

/-- The same, typed as contents of slot `j`'s buffer (the slot lives in that buffer). -/
def SbOf (c : Dev nD) (j : Fin 16) (w : FVec F S1x512x128 .bf16) : Buf (Elt F) ((sslot j).view.loc (c : Thread nD τ)) :=
  cast (congrArg (Buf (Elt F)) (sslot_loc c j).symm) (SbW c j w)

/-- Among slot `j`'s elements, the buffer after stores into distinct slots, one of them `w` into slot `j`, holds `w`: the same as the
    buffer that holds `w` in slot `j` over arbitrary contents. The stores' rectangles are given as the list `js` of their slots (checked by
    `rfl`), distinct (by `decide`), and the store into slot `j` by its position `k` in the list (by `rfl`). -/
theorem restate_s (c : Dev nD) (j : Fin 16) (f : Buf (Elt F) ((c : Thread nD τ).loc cc0_scratch2))
    (L : List (View.Piece (Elt F) S16x512x128 .bf16)) (w : FVec F S1x512x128 .bf16) (js : List (Fin 16)) (k : ℕ)
    (hrects : L.map (fun p => p.1) = js.map box) (hnd : js.Nodup) (hk : L[k]? = some ⟨box j, w⟩) :
    ∀ i ∈ sset c j, W2.writes (Elt F) f L i = SbW c j w i := by
  intro i hi
  have hl : lead i = j.val := (mem_sset c j i).mp hi
  obtain ⟨x, rfl⟩ := (box j).exists_idx_of_mem ((mem_box j i).mpr hl)
  have hm : (⟨box j, w⟩ : View.Piece (Elt F) S16x512x128 .bf16) ∈ L := List.mem_of_getElem? hk
  have e1 := read_writes_of_mem_pairwise W2 f L (box j) w hm (pairwise_of_boxes L js hrects hnd) x
  have e2 := View.read_writes_cons_emb W2 (junk2 (F := F)) (box j) w [] x
  have key : ∀ G : W2.ty.Contents (Elt F), W2.read (Elt F) G ((box j).emb x) = w x → G ((box j).idx x) = w x := fun G h => h
  unfold SbW
  exact (key _ e1).trans (key _ e2).symm

/-- The same as an entailment between points-tos of slot `j`'s elements. At a literal `j` the location and the element set are slot `j`'s
    own (`(sslot j).view.loc c`, `(sslot j).view.set`) and `SbW c j w` is `SbOf c j w`, all by unfolding. -/
theorem restate_pts (c : Dev nD) (j : Fin 16) (q : PosShare TreeShare) (f : Buf (Elt F) ((c : Thread nD τ).loc cc0_scratch2))
    (L : List (View.Piece (Elt F) S16x512x128 .bf16)) (w : FVec F S1x512x128 .bf16) (js : List (Fin 16)) (k : ℕ)
    (hrects : L.map (fun p => p.1) = js.map box) (hnd : js.Nodup) (hk : L[k]? = some ⟨box j, w⟩) :
    (((c : Thread nD τ).loc cc0_scratch2) ↦[sset c j]{q} W2.writes (Elt F) f L : sProp 𝕄)
      ⊢ (((c : Thread nD τ).loc cc0_scratch2) ↦[sset c j]{q} SbW c j w) := by
  rw [pointsTo_congr (restate_s c j f L w js k hrects hnd hk)]

section Example
variable (c : Dev nD) (f5 : Buf (Elt F) ((c : Thread nD τ).loc cc0_scratch2)) (w0 w1 w2 w3 : FVec F S1x512x128 .bf16)

example : ∀ i ∈ (sslot 2).view.set, W2.writes (Elt F) f5 [⟨Rect.unit (s := S16x512x128) ![3, 0, 0] S1x512x128.size inb_S16x512x128_S1x512x128_3_0_0, w3⟩, ⟨Rect.unit (s := S16x512x128) ![2, 0, 0] S1x512x128.size inb_S16x512x128_S1x512x128_2_0_0, w2⟩, ⟨Rect.unit (s := S16x512x128) ![1, 0, 0] S1x512x128.size inb_S16x512x128_S1x512x128_1_0_0, w1⟩, ⟨Rect.unit (s := S16x512x128) ![0, 0, 0] S1x512x128.size inb_S16x512x128_S1x512x128_0_0_0, w0⟩] i = SbOf c 2 w2 i :=
  restate_s c 2 f5 _ w2 [3, 2, 1, 0] 1 rfl (by decide) rfl

example : ((sslot 3).view.loc (c : Thread nD τ) ↦[(sslot 3).view.set]{fullShare} W2.writes (Elt F) f5 [⟨Rect.unit (s := S16x512x128) ![3, 0, 0] S1x512x128.size inb_S16x512x128_S1x512x128_3_0_0, w3⟩, ⟨Rect.unit (s := S16x512x128) ![2, 0, 0] S1x512x128.size inb_S16x512x128_S1x512x128_2_0_0, w2⟩, ⟨Rect.unit (s := S16x512x128) ![1, 0, 0] S1x512x128.size inb_S16x512x128_S1x512x128_1_0_0, w1⟩, ⟨Rect.unit (s := S16x512x128) ![0, 0, 0] S1x512x128.size inb_S16x512x128_S1x512x128_0_0_0, w0⟩] : sProp 𝕄)
    ⊢ ((sslot 3).view.loc (c : Thread nD τ) ↦[(sslot 3).view.set]{fullShare} SbOf c 3 w3) :=
  restate_pts c 3 fullShare f5 _ w3 [3, 2, 1, 0] 0 rfl (by decide) rfl

end Example

/-! ## What the transfers land -/

section Landings
variable (chunk : Dev nD → Fin 16 → FVec F S1x512x128 .bf16)

/-- Device `d`'s outgoing slot `j` holds its chunk `j`; -/
def SbV (d : Dev nD) (j : Fin 16) : Buf (Elt F) ((sslot j).view.loc (d : Thread nD τ)) := SbOf d j (chunk d j)

/-- its slot `j` of received chunks holds what its neighbour along the second axis sent: that neighbour's outgoing slot read, written
    whole over arbitrary contents; -/
def YcV (d : Dev nD) (j : Fin 16) : Buf (Elt F) ((yslot j).view.loc (d : Thread nD τ)) :=
  (yslot j).view.write (Elt F) (yslot j).view.junk ((sslot j).view.read (Elt F) (SbV chunk (ynb d) j)) Finset.univ

/-- its slot `j` of forwards holds what its neighbour along the first axis forwarded: that neighbour's received slot read. -/
def XcV (d : Dev nD) (j : Fin 16) : Buf (Elt F) ((xslot j).view.loc (d : Thread nD τ)) :=
  (xslot j).view.write (Elt F) (xslot j).view.junk ((yslot j).view.read (Elt F) (YcV chunk (xnb d) j)) Finset.univ

/-- The chunk's transfer lands, in the neighbour's slot, the contents the neighbour's slot is named by: a whole-slot write does not
    depend on what the slot held, and the neighbour's neighbour is the device itself. -/
theorem land_y (c : Dev nD) (j : Fin 16) (fd : Buf (Elt F) ((yslot j).view.loc (ynb c : Thread nD τ))) :
    ((yslot j).view.loc (ynb c : Thread nD τ) ↦[(yslot j).view.set]{fullShare}
        (yslot j).view.write (Elt F) fd ((sslot j).view.read (Elt F) (SbV chunk c j)) Finset.univ : sProp 𝕄)
      ⊢ ((yslot j).view.loc (ynb c : Thread nD τ) ↦[(yslot j).view.set]{fullShare} YcV chunk (ynb c) j) := by
  unfold YcV
  rw [ynb_ynb, slot_landing_congr (yslot j) (ynb c) fd ((yslot j).view.junk)]

/-- The same for a forward. -/
theorem land_f (c : Dev nD) (j : Fin 16) (fd : Buf (Elt F) ((xslot j).view.loc (xnb c : Thread nD τ))) :
    ((xslot j).view.loc (xnb c : Thread nD τ) ↦[(xslot j).view.set]{fullShare}
        (xslot j).view.write (Elt F) fd ((yslot j).view.read (Elt F) (YcV chunk c j)) Finset.univ : sProp 𝕄)
      ⊢ ((xslot j).view.loc (xnb c : Thread nD τ) ↦[(xslot j).view.set]{fullShare} XcV chunk (xnb c) j) := by
  unfold XcV
  rw [xnb_xnb, slot_landing_congr (xslot j) (xnb c) fd ((xslot j).view.junk)]

end Landings

/-! ## The chunks a device sends

A device whose first mesh coordinate is 0 computes the first four 512-column blocks of the product of the other half of the transposed
`x` with `dy`, one block per group of four slots; one whose first coordinate is 1 the last four. The other half of `x` is the block of
columns the one-bit word "second mesh coordinate is 0" chooses; every block of `dy` is read from the copy in fast memory, which the
eight local transfers filled. -/

section Chunks

/-- The word "the device's second mesh coordinate is 0". -/
def bit (d : Dev nD) : BitVec 1 :=
  Scalar.cmpi CmpIPredicate.eq (Scalar.remsi (Scalar.divsi (BitVec.ofNat 32 ((d : Thread nD τ).1 : ℕ)) 1#32) 2#32) 0#32

/-- Columns `0 … 511` of the staged first argument, -/
def XA (d : Dev nD) : Vec F S1024x512 .f32 :=
  View.readAt (Elt F) (Memref.whole cc0_stg0_0 : Memref sig .tc .vmem S1024x1024 .f32).view
    (Rect.unit (s := S1024x1024) ![0, 0] S1024x512.size inb_S1024x1024_S1024x512_0_0).toLoadRect (xstg m d)
/-- and columns `512 … 1023`. -/
def XB (d : Dev nD) : Vec F S1024x512 .f32 :=
  View.readAt (Elt F) (Memref.whole cc0_stg0_0 : Memref sig .tc .vmem S1024x1024 .f32).view
    (Rect.unit (s := S1024x1024) ![0, 512] S1024x512.size inb_S1024x1024_S1024x512_0_512).toLoadRect (xstg m d)

/-- What a local transfer of the 512 columns from `off` of `dy` carries. -/
def dmaP (d : Dev nD) (off : ℕ) (h : ∀ a, (![0, off] : Fin 2 → ℕ) a + S1024x512.size a ≤ S1024x4096.size a) : S1024x512.Idx → Elt F .f32 :=
  ReadAs.same.apply (View.read (Elt F) ((Memref.whole main_arg1 : Memref sig .tc .hbm S1024x4096 .f32).slice
    (Rect.unit (s := S1024x4096) ![0, off] S1024x512.size h) (fun _ => rfl)).view (m ((d : Thread nD τ).loc main_arg1)))

/-- The eight local transfers, the last issued first. -/
def dyL (d : Dev nD) : List (View.Piece (Elt F) S1024x4096 .f32) :=
    [⟨Rect.unit (s := S1024x4096) ![0, 3584] S1024x512.size inb_S1024x4096_S1024x512_0_3584, dmaP m d 3584 inb_S1024x4096_S1024x512_0_3584⟩,
     ⟨Rect.unit (s := S1024x4096) ![0, 1536] S1024x512.size inb_S1024x4096_S1024x512_0_1536, dmaP m d 1536 inb_S1024x4096_S1024x512_0_1536⟩,
     ⟨Rect.unit (s := S1024x4096) ![0, 3072] S1024x512.size inb_S1024x4096_S1024x512_0_3072, dmaP m d 3072 inb_S1024x4096_S1024x512_0_3072⟩,
     ⟨Rect.unit (s := S1024x4096) ![0, 1024] S1024x512.size inb_S1024x4096_S1024x512_0_1024, dmaP m d 1024 inb_S1024x4096_S1024x512_0_1024⟩,
     ⟨Rect.unit (s := S1024x4096) ![0, 2560] S1024x512.size inb_S1024x4096_S1024x512_0_2560, dmaP m d 2560 inb_S1024x4096_S1024x512_0_2560⟩,
     ⟨Rect.unit (s := S1024x4096) ![0, 512] S1024x512.size inb_S1024x4096_S1024x512_0_512, dmaP m d 512 inb_S1024x4096_S1024x512_0_512⟩,
     ⟨Rect.unit (s := S1024x4096) ![0, 2048] S1024x512.size inb_S1024x4096_S1024x512_0_2048, dmaP m d 2048 inb_S1024x4096_S1024x512_0_2048⟩,
     ⟨Rect.unit (s := S1024x4096) ![0, 0] S1024x512.size inb_S1024x4096_S1024x512_0_0, dmaP m d 0 inb_S1024x4096_S1024x512_0_0⟩]

/-- Block `k` (512 columns) of `dy` as read from the copy. -/
def dyBlk (d : Dev nD) : Fin 8 → Vec F S1024x512 .f32
  | 0 => (Memref.whole cc0_scratch0 : Memref sig .tc .vmem S1024x4096 .f32).view.readCov (dyL m d) (Rect.unit (s := S1024x4096) ![0, 0] S1024x512.size inb_S1024x4096_S1024x512_0_0).toLoadRect
  | 1 => (Memref.whole cc0_scratch0 : Memref sig .tc .vmem S1024x4096 .f32).view.readCov (dyL m d) (Rect.unit (s := S1024x4096) ![0, 512] S1024x512.size inb_S1024x4096_S1024x512_0_512).toLoadRect
  | 2 => (Memref.whole cc0_scratch0 : Memref sig .tc .vmem S1024x4096 .f32).view.readCov (dyL m d) (Rect.unit (s := S1024x4096) ![0, 1024] S1024x512.size inb_S1024x4096_S1024x512_0_1024).toLoadRect
  | 3 => (Memref.whole cc0_scratch0 : Memref sig .tc .vmem S1024x4096 .f32).view.readCov (dyL m d) (Rect.unit (s := S1024x4096) ![0, 1536] S1024x512.size inb_S1024x4096_S1024x512_0_1536).toLoadRect
  | 4 => (Memref.whole cc0_scratch0 : Memref sig .tc .vmem S1024x4096 .f32).view.readCov (dyL m d) (Rect.unit (s := S1024x4096) ![0, 2048] S1024x512.size inb_S1024x4096_S1024x512_0_2048).toLoadRect
  | 5 => (Memref.whole cc0_scratch0 : Memref sig .tc .vmem S1024x4096 .f32).view.readCov (dyL m d) (Rect.unit (s := S1024x4096) ![0, 2560] S1024x512.size inb_S1024x4096_S1024x512_0_2560).toLoadRect
  | 6 => (Memref.whole cc0_scratch0 : Memref sig .tc .vmem S1024x4096 .f32).view.readCov (dyL m d) (Rect.unit (s := S1024x4096) ![0, 3072] S1024x512.size inb_S1024x4096_S1024x512_0_3072).toLoadRect
  | 7 => (Memref.whole cc0_scratch0 : Memref sig .tc .vmem S1024x4096 .f32).view.readCov (dyL m d) (Rect.unit (s := S1024x4096) ![0, 3584] S1024x512.size inb_S1024x4096_S1024x512_0_3584).toLoadRect

/-- The chunk a device with first mesh coordinate 0 puts in slot `j`, -/
def chunk0 (d : Dev nD) : Fin 16 → FVec F S1x512x128 .bf16
  | 0 => k0_pay4 (bit d) (XB m d) (XA m d) (dyBlk m d 0)
  | 1 => k0_pay5 (bit d) (XB m d) (XA m d) (dyBlk m d 0)
  | 2 => k0_pay6 (bit d) (XB m d) (XA m d) (dyBlk m d 0)
  | 3 => k0_pay7 (bit d) (XB m d) (XA m d) (dyBlk m d 0)
  | 4 => k0_pay14 (k0_pay2 (bit d) (XB m d) (XA m d)) (dyBlk m d 1)
  | 5 => k0_pay15 (k0_pay2 (bit d) (XB m d) (XA m d)) (dyBlk m d 1)
  | 6 => k0_pay16 (k0_pay2 (bit d) (XB m d) (XA m d)) (dyBlk m d 1)
  | 7 => k0_pay17 (k0_pay2 (bit d) (XB m d) (XA m d)) (dyBlk m d 1)
  | 8 => k0_pay24 (k0_pay2 (bit d) (XB m d) (XA m d)) (dyBlk m d 2)
  | 9 => k0_pay25 (k0_pay2 (bit d) (XB m d) (XA m d)) (dyBlk m d 2)
  | 10 => k0_pay26 (k0_pay2 (bit d) (XB m d) (XA m d)) (dyBlk m d 2)
  | 11 => k0_pay27 (k0_pay2 (bit d) (XB m d) (XA m d)) (dyBlk m d 2)
  | 12 => k0_pay34 (k0_pay2 (bit d) (XB m d) (XA m d)) (dyBlk m d 3)
  | 13 => k0_pay35 (k0_pay2 (bit d) (XB m d) (XA m d)) (dyBlk m d 3)
  | 14 => k0_pay36 (k0_pay2 (bit d) (XB m d) (XA m d)) (dyBlk m d 3)
  | 15 => k0_pay37 (k0_pay2 (bit d) (XB m d) (XA m d)) (dyBlk m d 3)
  | ⟨_ + 16, h⟩ => absurd h (by omega)

/-- one with first mesh coordinate 1, -/
def chunk1 (d : Dev nD) : Fin 16 → FVec F S1x512x128 .bf16
  | 0 => k0_pay9 (bit d) (XB m d) (XA m d) (dyBlk m d 4)
  | 1 => k0_pay10 (bit d) (XB m d) (XA m d) (dyBlk m d 4)
  | 2 => k0_pay11 (bit d) (XB m d) (XA m d) (dyBlk m d 4)
  | 3 => k0_pay12 (bit d) (XB m d) (XA m d) (dyBlk m d 4)
  | 4 => k0_pay19 (k0_pay2 (bit d) (XB m d) (XA m d)) (dyBlk m d 5)
  | 5 => k0_pay20 (k0_pay2 (bit d) (XB m d) (XA m d)) (dyBlk m d 5)
  | 6 => k0_pay21 (k0_pay2 (bit d) (XB m d) (XA m d)) (dyBlk m d 5)
  | 7 => k0_pay22 (k0_pay2 (bit d) (XB m d) (XA m d)) (dyBlk m d 5)
  | 8 => k0_pay29 (k0_pay2 (bit d) (XB m d) (XA m d)) (dyBlk m d 6)
  | 9 => k0_pay30 (k0_pay2 (bit d) (XB m d) (XA m d)) (dyBlk m d 6)
  | 10 => k0_pay31 (k0_pay2 (bit d) (XB m d) (XA m d)) (dyBlk m d 6)
  | 11 => k0_pay32 (k0_pay2 (bit d) (XB m d) (XA m d)) (dyBlk m d 6)
  | 12 => k0_pay39 (k0_pay2 (bit d) (XB m d) (XA m d)) (dyBlk m d 7)
  | 13 => k0_pay40 (k0_pay2 (bit d) (XB m d) (XA m d)) (dyBlk m d 7)
  | 14 => k0_pay41 (k0_pay2 (bit d) (XB m d) (XA m d)) (dyBlk m d 7)
  | 15 => k0_pay42 (k0_pay2 (bit d) (XB m d) (XA m d)) (dyBlk m d 7)
  | ⟨_ + 16, h⟩ => absurd h (by omega)

/-- any device. -/
def chunk (d : Dev nD) (j : Fin 16) : FVec F S1x512x128 .bf16 := if d.val / 2 = 0 then chunk0 m d j else chunk1 m d j

theorem chunk_x0 (d : Dev nD) (h : d.val / 2 = 0) (j : Fin 16) : chunk m d j = chunk0 m d j := if_pos h
theorem chunk_x1 (d : Dev nD) (h : d.val / 2 = 1) (j : Fin 16) : chunk m d j = chunk1 m d j := if_neg (by omega)

end Chunks

/-! ## A slot's contents as the body leaves them, restated

The first four slots are stored while the buffer is held whole: each of them then holds the four stores over the buffer's earlier contents.
Every later slot is held apart when it is stored: it holds its own store over those. Either way the slot's elements hold the slot's chunk. -/

section Restate
variable (ch : Fin 16 → FVec F S1x512x128 .bf16)

/-- The first four stores, the last first. -/
def Llo : List (View.Piece (Elt F) S16x512x128 .bf16) := [⟨box 3, ch 3⟩, ⟨box 2, ch 2⟩, ⟨box 1, ch 1⟩, ⟨box 0, ch 0⟩]

theorem restate_lo (c : Dev nD) : ∀ (j : Fin 16) (hj : j.val < 4) (q : PosShare TreeShare) (f : Buf (Elt F) ((c : Thread nD τ).loc cc0_scratch2)),
    (((c : Thread nD τ).loc cc0_scratch2) ↦[sset c j]{q} W2.writes (Elt F) f (Llo ch) : sProp 𝕄)
      ⊢ (((c : Thread nD τ).loc cc0_scratch2) ↦[sset c j]{q} SbW c j (ch j))
  | ⟨0, _⟩, _, q, f => restate_pts c 0 q f (Llo ch) (ch 0) [3, 2, 1, 0] 3 rfl (by decide) rfl
  | ⟨1, _⟩, _, q, f => restate_pts c 1 q f (Llo ch) (ch 1) [3, 2, 1, 0] 2 rfl (by decide) rfl
  | ⟨2, _⟩, _, q, f => restate_pts c 2 q f (Llo ch) (ch 2) [3, 2, 1, 0] 1 rfl (by decide) rfl
  | ⟨3, _⟩, _, q, f => restate_pts c 3 q f (Llo ch) (ch 3) [3, 2, 1, 0] 0 rfl (by decide) rfl
  | ⟨n + 4, _⟩, h, _, _ => absurd h (by simp)

theorem restate_hi (c : Dev nD) (j : Fin 16) (hj : 4 ≤ j.val) (q : PosShare TreeShare) (f : Buf (Elt F) ((c : Thread nD τ).loc cc0_scratch2)) :
    (((c : Thread nD τ).loc cc0_scratch2) ↦[sset c j]{q}
        View.write (Elt F) ((Memref.whole cc0_scratch2 : Memref sig .tc .vmem S16x512x128 .bf16).access (box j)) (W2.writes (Elt F) f (Llo ch)) (ch j) Finset.univ : sProp 𝕄)
      ⊢ (((c : Thread nD τ).loc cc0_scratch2) ↦[sset c j]{q} SbW c j (ch j)) :=
  restate_pts c j q f (⟨box j, ch j⟩ :: Llo ch) (ch j) (j :: [3, 2, 1, 0]) 0 rfl
    (List.nodup_cons.mpr ⟨by
      intro hm
      have : j.val < 4 := by
        rcases List.mem_cons.mp hm with h | hm; · rw [h]; decide
        rcases List.mem_cons.mp hm with h | hm; · rw [h]; decide
        rcases List.mem_cons.mp hm with h | hm; · rw [h]; decide
        rcases List.mem_cons.mp hm with h | hm; · rw [h]; decide
        exact absurd hm List.not_mem_nil
      omega, by decide⟩) rfl

end Restate

/-- For a device with first mesh coordinate 0 (and likewise 1): the slot as the body leaves it holds the device's chunk. -/
theorem restate_lo_x0 (c : Dev nD) (hx : c.val / 2 = 0) (j : Fin 16) (hj : j.val < 4) (q : PosShare TreeShare) (f : Buf (Elt F) ((c : Thread nD τ).loc cc0_scratch2)) :
    (((c : Thread nD τ).loc cc0_scratch2) ↦[sset c j]{q} W2.writes (Elt F) f (Llo (chunk0 m c)) : sProp 𝕄)
      ⊢ (((c : Thread nD τ).loc cc0_scratch2) ↦[sset c j]{q} SbW c j (chunk m c j)) := by
  rw [chunk_x0 m c hx]; exact restate_lo (chunk0 m c) c j hj q f
theorem restate_hi_x0 (c : Dev nD) (hx : c.val / 2 = 0) (j : Fin 16) (hj : 4 ≤ j.val) (q : PosShare TreeShare) (f : Buf (Elt F) ((c : Thread nD τ).loc cc0_scratch2)) :
    (((c : Thread nD τ).loc cc0_scratch2) ↦[sset c j]{q}
        View.write (Elt F) ((Memref.whole cc0_scratch2 : Memref sig .tc .vmem S16x512x128 .bf16).access (box j)) (W2.writes (Elt F) f (Llo (chunk0 m c))) (chunk0 m c j) Finset.univ : sProp 𝕄)
      ⊢ (((c : Thread nD τ).loc cc0_scratch2) ↦[sset c j]{q} SbW c j (chunk m c j)) := by
  rw [chunk_x0 m c hx]; exact restate_hi (chunk0 m c) c j hj q f
theorem restate_lo_x1 (c : Dev nD) (hx : c.val / 2 = 1) (j : Fin 16) (hj : j.val < 4) (q : PosShare TreeShare) (f : Buf (Elt F) ((c : Thread nD τ).loc cc0_scratch2)) :
    (((c : Thread nD τ).loc cc0_scratch2) ↦[sset c j]{q} W2.writes (Elt F) f (Llo (chunk1 m c)) : sProp 𝕄)
      ⊢ (((c : Thread nD τ).loc cc0_scratch2) ↦[sset c j]{q} SbW c j (chunk m c j)) := by
  rw [chunk_x1 m c hx]; exact restate_lo (chunk1 m c) c j hj q f
theorem restate_hi_x1 (c : Dev nD) (hx : c.val / 2 = 1) (j : Fin 16) (hj : 4 ≤ j.val) (q : PosShare TreeShare) (f : Buf (Elt F) ((c : Thread nD τ).loc cc0_scratch2)) :
    (((c : Thread nD τ).loc cc0_scratch2) ↦[sset c j]{q}
        View.write (Elt F) ((Memref.whole cc0_scratch2 : Memref sig .tc .vmem S16x512x128 .bf16).access (box j)) (W2.writes (Elt F) f (Llo (chunk1 m c))) (chunk1 m c j) Finset.univ : sProp 𝕄)
      ⊢ (((c : Thread nD τ).loc cc0_scratch2) ↦[sset c j]{q} SbW c j (chunk m c j)) := by
  rw [chunk_x1 m c hx]; exact restate_hi (chunk1 m c) c j hj q f

/-! ## The landings, element by element -/

section LandEq
variable (chunk' : Dev nD → Fin 16 → FVec F S1x512x128 .bf16)

theorem land_y_eq (c : Dev nD) (j : Fin 16) (fd : Buf (Elt F) ((yslot j).view.loc (ynb c : Thread nD τ))) :
    ∀ i ∈ (yslot j).view.set,
      (yslot j).view.write (Elt F) fd ((sslot j).view.read (Elt F) (SbV chunk' c j)) Finset.univ i = YcV chunk' (ynb c) j i := by
  unfold YcV
  rw [ynb_ynb]
  exact slot_write_agree (yslot j) fd ((yslot j).view.junk) _

theorem land_f_eq (c : Dev nD) (j : Fin 16) (fd : Buf (Elt F) ((xslot j).view.loc (xnb c : Thread nD τ))) :
    ∀ i ∈ (xslot j).view.set,
      (xslot j).view.write (Elt F) fd ((yslot j).view.read (Elt F) (YcV chunk' c j)) Finset.univ i = XcV chunk' (xnb c) j i := by
  unfold XcV
  rw [xnb_xnb]
  exact slot_write_agree (xslot j) fd ((xslot j).view.junk) _

end LandEq

end Cert.Kernel.Hand

end
-- ==== Proof.RejoinK.lean ====
import proofs.«901046_g7700000000001047_dist_rsdw_v7x_xy2x2_y_m1024_d1024_f4096_f32_1_alg».proof.Proof.BasicK
import Idealize.ShloMosaic.Rules.PointsTo

/-! Putting a buffer back together from a rest and four windows.

A buffer held as four pairwise disjoint sets of its elements, each at contents of its own, and the rest of its elements at yet other
contents, is the buffer held whole: its contents are, at each element, those of the piece the element lies in. The four column windows of
width 512 of the result's staging buffer (512 × 4096) at a device's four column offsets are pairwise disjoint because their column
ranges are. -/

set_option maxRecDepth 16384

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## A rest and four pieces -/

section Generic

variable {ℓ : Loc nD τ sig} {q : PosShare TreeShare}

/-- The rest of a buffer's elements and four pairwise disjoint pieces, at five contents, are the buffer whole at the glued contents. -/
theorem rejoin4 (W0 W1 W2 W3 : Finset (Idx ℓ))
    (h01 : Disjoint W0 W1) (h02 : Disjoint W0 W2) (h03 : Disjoint W0 W3) (h12 : Disjoint W1 W2) (h13 : Disjoint W1 W3) (h23 : Disjoint W2 W3)
    (g g0 g1 g2 g3 : Buf (Elt F) ℓ) :
    (iprop((ℓ ↦[(((Finset.univ \ W0) \ W1) \ W2) \ W3]{q} g) ∗ (ℓ ↦[W0]{q} g0) ∗ (ℓ ↦[W1]{q} g1) ∗ (ℓ ↦[W2]{q} g2) ∗ (ℓ ↦[W3]{q} g3)) : sProp 𝕄)
      ⊢ iprop(∃ f, ℓ ↦{q} f) := by
  have s3 : W3 ⊆ ((Finset.univ \ W0) \ W1) \ W2 := fun x hx => by
    simp only [Finset.mem_sdiff, Finset.mem_univ, true_and]
    exact ⟨⟨Finset.disjoint_right.mp h03 hx, Finset.disjoint_right.mp h13 hx⟩, Finset.disjoint_right.mp h23 hx⟩
  have s2 : W2 ⊆ (Finset.univ \ W0) \ W1 := fun x hx => by
    simp only [Finset.mem_sdiff, Finset.mem_univ, true_and]
    exact ⟨Finset.disjoint_right.mp h02 hx, Finset.disjoint_right.mp h12 hx⟩
  have s1 : W1 ⊆ Finset.univ \ W0 := fun x hx => by
    simp only [Finset.mem_sdiff, Finset.mem_univ, true_and]
    exact Finset.disjoint_right.mp h01 hx
  have s0 : W0 ⊆ Finset.univ := Finset.subset_univ _
  iintro ⟨H, H0, H1, H2, H3⟩
  ihave A3 := (pointsTo_join_subset (Val := Elt F) (U := UU) (Ix := Unit) (Name := ℕ) (Lvl := ℕ) (q := q) (f := g) (g := g3) s3) $$ [H3 H]
  · isplitl [H3]; · iexact H3
    iexact H
  ihave A2 := (pointsTo_join_subset (Val := Elt F) (U := UU) (Ix := Unit) (Name := ℕ) (Lvl := ℕ) (q := q) (f := W3.piecewise g3 g) (g := g2) s2) $$ [H2 A3]
  · isplitl [H2]; · iexact H2
    iexact A3
  ihave A1 := (pointsTo_join_subset (Val := Elt F) (U := UU) (Ix := Unit) (Name := ℕ) (Lvl := ℕ) (q := q) (f := W2.piecewise g2 (W3.piecewise g3 g)) (g := g1) s1) $$ [H1 A2]
  · isplitl [H1]; · iexact H1
    iexact A2
  ihave A0 := (pointsTo_join_subset (Val := Elt F) (U := UU) (Ix := Unit) (Name := ℕ) (Lvl := ℕ) (q := q) (f := W1.piecewise g1 (W2.piecewise g2 (W3.piecewise g3 g))) (g := g0) s0) $$ [H0 A1]
  · isplitl [H0]; · iexact H0
    iexact A1
  iexists (W0.piecewise g0 (W1.piecewise g1 (W2.piecewise g2 (W3.piecewise g3 g))))
  iexact A0

end Generic

/-! ## The column windows of the result's staging buffer -/

/-- Two column windows of width 512 whose column ranges do not meet are disjoint. -/
theorem s1win_disjoint (a b : ℕ) (ha : ∀ x, (![0, a] : Fin 2 → Nat) x + S512x512.size x ≤ S512x4096.size x)
    (hb : ∀ x, (![0, b] : Fin 2 → Nat) x + S512x512.size x ≤ S512x4096.size x) (h : a + 512 ≤ b ∨ b + 512 ≤ a) :
    Disjoint ((Memref.whole cc0_scratch1 : Memref sig .tc .vmem S512x4096 .f32).slice (Rect.unit (s := S512x4096) ![0, a] S512x512.size ha) (fun _ => rfl)).view.set
      ((Memref.whole cc0_scratch1 : Memref sig .tc .vmem S512x4096 .f32).slice (Rect.unit (s := S512x4096) ![0, b] S512x512.size hb) (fun _ => rfl)).view.set :=
  Finset.disjoint_left.mpr fun x h1 h2 =>
    Finset.disjoint_left.mp (Rect.unit_disjoint (s := S512x4096) (inb := ha) (inb' := hb) (1 : Fin 2) h)
      ((Finset.ext_iff.mp (View.set_slice_whole _ _) x).mp h1) ((Finset.ext_iff.mp (View.set_slice_whole _ _) x).mp h2)

/-- On a device whose first mesh coordinate is 0: the staging buffer from its rest and its windows at columns 0, 512, 1024, 1536. -/
theorem scratch1_rejoin0 (c : Dev nD) (g g0 g1 g2 g3 : Buf (Elt F) ((Memref.whole cc0_scratch1 : Memref sig .tc .vmem S512x4096 .f32).view.loc (c : Thread nD τ))) :
    (iprop(((Memref.whole cc0_scratch1 : Memref sig .tc .vmem S512x4096 .f32).view.loc (c : Thread nD τ) ↦[(((Finset.univ \ ((Memref.whole cc0_scratch1 : Memref sig .tc .vmem S512x4096 .f32).slice (Rect.unit (s := S512x4096) ![0, 0] S512x512.size inb_S512x4096_S512x512_0_0) (fun _ => rfl)).view.set) \ ((Memref.whole cc0_scratch1 : Memref sig .tc .vmem S512x4096 .f32).slice (Rect.unit (s := S512x4096) ![0, 512] S512x512.size inb_S512x4096_S512x512_0_512) (fun _ => rfl)).view.set) \ ((Memref.whole cc0_scratch1 : Memref sig .tc .vmem S512x4096 .f32).slice (Rect.unit (s := S512x4096) ![0, 1024] S512x512.size inb_S512x4096_S512x512_0_1024) (fun _ => rfl)).view.set) \ ((Memref.whole cc0_scratch1 : Memref sig .tc .vmem S512x4096 .f32).slice (Rect.unit (s := S512x4096) ![0, 1536] S512x512.size inb_S512x4096_S512x512_0_1536) (fun _ => rfl)).view.set]{fullShare} g)
        ∗ ((Memref.whole cc0_scratch1 : Memref sig .tc .vmem S512x4096 .f32).view.loc (c : Thread nD τ) ↦[((Memref.whole cc0_scratch1 : Memref sig .tc .vmem S512x4096 .f32).slice (Rect.unit (s := S512x4096) ![0, 0] S512x512.size inb_S512x4096_S512x512_0_0) (fun _ => rfl)).view.set]{fullShare} g0)
        ∗ ((Memref.whole cc0_scratch1 : Memref sig .tc .vmem S512x4096 .f32).view.loc (c : Thread nD τ) ↦[((Memref.whole cc0_scratch1 : Memref sig .tc .vmem S512x4096 .f32).slice (Rect.unit (s := S512x4096) ![0, 512] S512x512.size inb_S512x4096_S512x512_0_512) (fun _ => rfl)).view.set]{fullShare} g1)
        ∗ ((Memref.whole cc0_scratch1 : Memref sig .tc .vmem S512x4096 .f32).view.loc (c : Thread nD τ) ↦[((Memref.whole cc0_scratch1 : Memref sig .tc .vmem S512x4096 .f32).slice (Rect.unit (s := S512x4096) ![0, 1024] S512x512.size inb_S512x4096_S512x512_0_1024) (fun _ => rfl)).view.set]{fullShare} g2)
        ∗ ((Memref.whole cc0_scratch1 : Memref sig .tc .vmem S512x4096 .f32).view.loc (c : Thread nD τ) ↦[((Memref.whole cc0_scratch1 : Memref sig .tc .vmem S512x4096 .f32).slice (Rect.unit (s := S512x4096) ![0, 1536] S512x512.size inb_S512x4096_S512x512_0_1536) (fun _ => rfl)).view.set]{fullShare} g3)) : sProp 𝕄)
      ⊢ iprop(∃ f, (Memref.whole cc0_scratch1 : Memref sig .tc .vmem S512x4096 .f32).view.loc (c : Thread nD τ) ↦{fullShare} f) :=
  rejoin4 (F := F) _ _ _ _
    (s1win_disjoint 0 512 _ _ (by decide)) (s1win_disjoint 0 1024 _ _ (by decide)) (s1win_disjoint 0 1536 _ _ (by decide))
    (s1win_disjoint 512 1024 _ _ (by decide)) (s1win_disjoint 512 1536 _ _ (by decide)) (s1win_disjoint 1024 1536 _ _ (by decide))
    g g0 g1 g2 g3

/-- On a device whose first mesh coordinate is 1: the same at columns 2048, 2560, 3072, 3584. -/
theorem scratch1_rejoin1 (c : Dev nD) (g g0 g1 g2 g3 : Buf (Elt F) ((Memref.whole cc0_scratch1 : Memref sig .tc .vmem S512x4096 .f32).view.loc (c : Thread nD τ))) :
    (iprop(((Memref.whole cc0_scratch1 : Memref sig .tc .vmem S512x4096 .f32).view.loc (c : Thread nD τ) ↦[(((Finset.univ \ ((Memref.whole cc0_scratch1 : Memref sig .tc .vmem S512x4096 .f32).slice (Rect.unit (s := S512x4096) ![0, 2048] S512x512.size inb_S512x4096_S512x512_0_2048) (fun _ => rfl)).view.set) \ ((Memref.whole cc0_scratch1 : Memref sig .tc .vmem S512x4096 .f32).slice (Rect.unit (s := S512x4096) ![0, 2560] S512x512.size inb_S512x4096_S512x512_0_2560) (fun _ => rfl)).view.set) \ ((Memref.whole cc0_scratch1 : Memref sig .tc .vmem S512x4096 .f32).slice (Rect.unit (s := S512x4096) ![0, 3072] S512x512.size inb_S512x4096_S512x512_0_3072) (fun _ => rfl)).view.set) \ ((Memref.whole cc0_scratch1 : Memref sig .tc .vmem S512x4096 .f32).slice (Rect.unit (s := S512x4096) ![0, 3584] S512x512.size inb_S512x4096_S512x512_0_3584) (fun _ => rfl)).view.set]{fullShare} g)
        ∗ ((Memref.whole cc0_scratch1 : Memref sig .tc .vmem S512x4096 .f32).view.loc (c : Thread nD τ) ↦[((Memref.whole cc0_scratch1 : Memref sig .tc .vmem S512x4096 .f32).slice (Rect.unit (s := S512x4096) ![0, 2048] S512x512.size inb_S512x4096_S512x512_0_2048) (fun _ => rfl)).view.set]{fullShare} g0)
        ∗ ((Memref.whole cc0_scratch1 : Memref sig .tc .vmem S512x4096 .f32).view.loc (c : Thread nD τ) ↦[((Memref.whole cc0_scratch1 : Memref sig .tc .vmem S512x4096 .f32).slice (Rect.unit (s := S512x4096) ![0, 2560] S512x512.size inb_S512x4096_S512x512_0_2560) (fun _ => rfl)).view.set]{fullShare} g1)
        ∗ ((Memref.whole cc0_scratch1 : Memref sig .tc .vmem S512x4096 .f32).view.loc (c : Thread nD τ) ↦[((Memref.whole cc0_scratch1 : Memref sig .tc .vmem S512x4096 .f32).slice (Rect.unit (s := S512x4096) ![0, 3072] S512x512.size inb_S512x4096_S512x512_0_3072) (fun _ => rfl)).view.set]{fullShare} g2)
        ∗ ((Memref.whole cc0_scratch1 : Memref sig .tc .vmem S512x4096 .f32).view.loc (c : Thread nD τ) ↦[((Memref.whole cc0_scratch1 : Memref sig .tc .vmem S512x4096 .f32).slice (Rect.unit (s := S512x4096) ![0, 3584] S512x512.size inb_S512x4096_S512x512_0_3584) (fun _ => rfl)).view.set]{fullShare} g3)) : sProp 𝕄)
      ⊢ iprop(∃ f, (Memref.whole cc0_scratch1 : Memref sig .tc .vmem S512x4096 .f32).view.loc (c : Thread nD τ) ↦{fullShare} f) :=
  rejoin4 (F := F) _ _ _ _
    (s1win_disjoint 2048 2560 _ _ (by decide)) (s1win_disjoint 2048 3072 _ _ (by decide)) (s1win_disjoint 2048 3584 _ _ (by decide))
    (s1win_disjoint 2560 3072 _ _ (by decide)) (s1win_disjoint 2560 3584 _ _ (by decide)) (s1win_disjoint 3072 3584 _ _ (by decide))
    g g0 g1 g2 g3

end Cert.Kernel.Hand

end
-- ==== Proof.BodyExitK.lean ====
import proofs.«901046_g7700000000001047_dist_rsdw_v7x_xy2x2_y_m1024_d1024_f4096_f32_1_alg».proof.Proof.Gen.Kernel
import proofs.«901046_g7700000000001047_dist_rsdw_v7x_xy2x2_y_m1024_d1024_f4096_f32_1_alg».proof.Proof.Gen.Kernel.Skeleton
import proofs.«901046_g7700000000001047_dist_rsdw_v7x_xy2x2_y_m1024_d1024_f4096_f32_1_alg».proof.Proof.Gen.Kernel.Launch
import proofs.«901046_g7700000000001047_dist_rsdw_v7x_xy2x2_y_m1024_d1024_f4096_f32_1_alg».proof.Proof.Gen.Kernel.Points
import proofs.«901046_g7700000000001047_dist_rsdw_v7x_xy2x2_y_m1024_d1024_f4096_f32_1_alg».proof.Proof.ProtoK
import proofs.«901046_g7700000000001047_dist_rsdw_v7x_xy2x2_y_m1024_d1024_f4096_f32_1_alg».proof.Proof.SlotsK
import proofs.«901046_g7700000000001047_dist_rsdw_v7x_xy2x2_y_m1024_d1024_f4096_f32_1_alg».proof.Proof.LedgerK
import proofs.«901046_g7700000000001047_dist_rsdw_v7x_xy2x2_y_m1024_d1024_f4096_f32_1_alg».proof.Proof.BodyEndsK
import Idealize.ShloMosaic.Lib.Pipeline.Launch
import Idealize.ShloMosaic.Lib.Pipeline.Kit
import Idealize.ShloMosaic.Lib.Tactic

/-! The body's exit.

After its last wait a device holds the positions of its sixty-four transfer cells past their one round, its local semaphores back at zero,
nothing owed, the three arrays it was handed, two scratch buffers whole, and the three sixteen-slot buffers slot by slot: the outgoing
chunks' and the forwards' receive slots at the full share, the chunks' receive slots in two halves (one half was lent to the forward that
read the slot, the other kept to read it meanwhile). The two halves of a share join to the share, sixteen slots glue into the whole buffer,
and the transfer cells close; that is what the body must end with. -/

set_option maxRecDepth 16384

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (Sb : (c : Dev nD) → (j : Fin 16) → Buf (Elt F) ((sslot j).view.loc (c : Thread nD τ)))
variable (Yc : (c : Dev nD) → (j : Fin 16) → Buf (Elt F) ((yslot j).view.loc (c : Thread nD τ)))
variable (Xc : (c : Dev nD) → (j : Fin 16) → Buf (Elt F) ((xslot j).view.loc (c : Thread nD τ)))
variable (OutP : (c : Dev nD) → Buf (Elt F) ((c : Thread nD τ).loc main_v1) → Prop)

/-! ## Chains over a listed index set -/

private abbrev f16 : List (Fin 16) := [0, 1, 2, 3, 4, 5, 6, 7, 8, 9, 10, 11, 12, 13, 14, 15]

omit [FloatOps F] in
private theorem bigSepL_mono {I : Type} {Φ Ψ : I → sProp 𝕄} (l : List I) (h : ∀ i, Φ i ⊢ Ψ i) : bigSepL l Φ ⊢ bigSepL l Ψ := by
  induction l with
  | nil => exact BI.Entails.refl _
  | cons i l ih =>
    rw [bigSepL_cons, bigSepL_cons]
    show iprop(Φ i ∗ bigSepL l Φ) ⊢ iprop(Ψ i ∗ bigSepL l Ψ)
    iintro ⟨Hi, Hl⟩
    isplitl [Hi]
    · iapply (h i); iexact Hi
    · iapply ih; iexact Hl

omit [FloatOps F] in
private theorem bigSepL_zip {I : Type} {Φ Ψ : I → sProp 𝕄} (l : List I) :
    iprop(bigSepL l Φ ∗ bigSepL l Ψ) ⊢ bigSepL l fun i => iprop(Φ i ∗ Ψ i) := by
  induction l with
  | nil => iintro -; iempintro
  | cons i l ih =>
    rw [bigSepL_cons, bigSepL_cons, bigSepL_cons]
    show iprop((Φ i ∗ bigSepL l Φ) ∗ (Ψ i ∗ bigSepL l Ψ)) ⊢ iprop((Φ i ∗ Ψ i) ∗ bigSepL l fun i => iprop(Φ i ∗ Ψ i))
    iintro ⟨⟨H1, HA⟩, H2, HB⟩
    isplitl [H1 H2]
    · isplitl [H1] <;> iassumption
    · iapply ih; isplitl [HA] <;> iassumption

/-! ## The three slot families as a device holds them at its exit -/

/-- The sixteen slots of outgoing chunks, each back at what was sent from it. -/
def sDone (c : Dev nD) : sProp 𝕄 :=
  iprop(((sslot 0).view.loc (c : Thread nD τ) ↦[(sslot 0).view.set]{fullShare} Sb c 0) ∗ ((sslot 1).view.loc (c : Thread nD τ) ↦[(sslot 1).view.set]{fullShare} Sb c 1) ∗ ((sslot 2).view.loc (c : Thread nD τ) ↦[(sslot 2).view.set]{fullShare} Sb c 2) ∗ ((sslot 3).view.loc (c : Thread nD τ) ↦[(sslot 3).view.set]{fullShare} Sb c 3) ∗ ((sslot 4).view.loc (c : Thread nD τ) ↦[(sslot 4).view.set]{fullShare} Sb c 4) ∗ ((sslot 5).view.loc (c : Thread nD τ) ↦[(sslot 5).view.set]{fullShare} Sb c 5) ∗ ((sslot 6).view.loc (c : Thread nD τ) ↦[(sslot 6).view.set]{fullShare} Sb c 6) ∗ ((sslot 7).view.loc (c : Thread nD τ) ↦[(sslot 7).view.set]{fullShare} Sb c 7) ∗ ((sslot 8).view.loc (c : Thread nD τ) ↦[(sslot 8).view.set]{fullShare} Sb c 8) ∗ ((sslot 9).view.loc (c : Thread nD τ) ↦[(sslot 9).view.set]{fullShare} Sb c 9) ∗ ((sslot 10).view.loc (c : Thread nD τ) ↦[(sslot 10).view.set]{fullShare} Sb c 10) ∗ ((sslot 11).view.loc (c : Thread nD τ) ↦[(sslot 11).view.set]{fullShare} Sb c 11) ∗ ((sslot 12).view.loc (c : Thread nD τ) ↦[(sslot 12).view.set]{fullShare} Sb c 12) ∗ ((sslot 13).view.loc (c : Thread nD τ) ↦[(sslot 13).view.set]{fullShare} Sb c 13) ∗ ((sslot 14).view.loc (c : Thread nD τ) ↦[(sslot 14).view.set]{fullShare} Sb c 14) ∗ ((sslot 15).view.loc (c : Thread nD τ) ↦[(sslot 15).view.set]{fullShare} Sb c 15))
/-- The sixteen receive slots of the chunks at what was written: the halves lent to the forwards, -/
def yLeft (c : Dev nD) : sProp 𝕄 :=
  iprop(((yslot 0).view.loc (c : Thread nD τ) ↦[(yslot 0).view.set]{fullShare.left} Yc c 0) ∗ ((yslot 1).view.loc (c : Thread nD τ) ↦[(yslot 1).view.set]{fullShare.left} Yc c 1) ∗ ((yslot 2).view.loc (c : Thread nD τ) ↦[(yslot 2).view.set]{fullShare.left} Yc c 2) ∗ ((yslot 3).view.loc (c : Thread nD τ) ↦[(yslot 3).view.set]{fullShare.left} Yc c 3) ∗ ((yslot 4).view.loc (c : Thread nD τ) ↦[(yslot 4).view.set]{fullShare.left} Yc c 4) ∗ ((yslot 5).view.loc (c : Thread nD τ) ↦[(yslot 5).view.set]{fullShare.left} Yc c 5) ∗ ((yslot 6).view.loc (c : Thread nD τ) ↦[(yslot 6).view.set]{fullShare.left} Yc c 6) ∗ ((yslot 7).view.loc (c : Thread nD τ) ↦[(yslot 7).view.set]{fullShare.left} Yc c 7) ∗ ((yslot 8).view.loc (c : Thread nD τ) ↦[(yslot 8).view.set]{fullShare.left} Yc c 8) ∗ ((yslot 9).view.loc (c : Thread nD τ) ↦[(yslot 9).view.set]{fullShare.left} Yc c 9) ∗ ((yslot 10).view.loc (c : Thread nD τ) ↦[(yslot 10).view.set]{fullShare.left} Yc c 10) ∗ ((yslot 11).view.loc (c : Thread nD τ) ↦[(yslot 11).view.set]{fullShare.left} Yc c 11) ∗ ((yslot 12).view.loc (c : Thread nD τ) ↦[(yslot 12).view.set]{fullShare.left} Yc c 12) ∗ ((yslot 13).view.loc (c : Thread nD τ) ↦[(yslot 13).view.set]{fullShare.left} Yc c 13) ∗ ((yslot 14).view.loc (c : Thread nD τ) ↦[(yslot 14).view.set]{fullShare.left} Yc c 14) ∗ ((yslot 15).view.loc (c : Thread nD τ) ↦[(yslot 15).view.set]{fullShare.left} Yc c 15))
/-- and the halves kept. -/
def yRight (c : Dev nD) : sProp 𝕄 :=
  iprop(((yslot 0).view.loc (c : Thread nD τ) ↦[(yslot 0).view.set]{fullShare.right} Yc c 0) ∗ ((yslot 1).view.loc (c : Thread nD τ) ↦[(yslot 1).view.set]{fullShare.right} Yc c 1) ∗ ((yslot 2).view.loc (c : Thread nD τ) ↦[(yslot 2).view.set]{fullShare.right} Yc c 2) ∗ ((yslot 3).view.loc (c : Thread nD τ) ↦[(yslot 3).view.set]{fullShare.right} Yc c 3) ∗ ((yslot 4).view.loc (c : Thread nD τ) ↦[(yslot 4).view.set]{fullShare.right} Yc c 4) ∗ ((yslot 5).view.loc (c : Thread nD τ) ↦[(yslot 5).view.set]{fullShare.right} Yc c 5) ∗ ((yslot 6).view.loc (c : Thread nD τ) ↦[(yslot 6).view.set]{fullShare.right} Yc c 6) ∗ ((yslot 7).view.loc (c : Thread nD τ) ↦[(yslot 7).view.set]{fullShare.right} Yc c 7) ∗ ((yslot 8).view.loc (c : Thread nD τ) ↦[(yslot 8).view.set]{fullShare.right} Yc c 8) ∗ ((yslot 9).view.loc (c : Thread nD τ) ↦[(yslot 9).view.set]{fullShare.right} Yc c 9) ∗ ((yslot 10).view.loc (c : Thread nD τ) ↦[(yslot 10).view.set]{fullShare.right} Yc c 10) ∗ ((yslot 11).view.loc (c : Thread nD τ) ↦[(yslot 11).view.set]{fullShare.right} Yc c 11) ∗ ((yslot 12).view.loc (c : Thread nD τ) ↦[(yslot 12).view.set]{fullShare.right} Yc c 12) ∗ ((yslot 13).view.loc (c : Thread nD τ) ↦[(yslot 13).view.set]{fullShare.right} Yc c 13) ∗ ((yslot 14).view.loc (c : Thread nD τ) ↦[(yslot 14).view.set]{fullShare.right} Yc c 14) ∗ ((yslot 15).view.loc (c : Thread nD τ) ↦[(yslot 15).view.set]{fullShare.right} Yc c 15))
/-- The sixteen receive slots of the forwards at what was written. -/
def xDone (c : Dev nD) : sProp 𝕄 :=
  iprop(((xslot 0).view.loc (c : Thread nD τ) ↦[(xslot 0).view.set]{fullShare} Xc c 0) ∗ ((xslot 1).view.loc (c : Thread nD τ) ↦[(xslot 1).view.set]{fullShare} Xc c 1) ∗ ((xslot 2).view.loc (c : Thread nD τ) ↦[(xslot 2).view.set]{fullShare} Xc c 2) ∗ ((xslot 3).view.loc (c : Thread nD τ) ↦[(xslot 3).view.set]{fullShare} Xc c 3) ∗ ((xslot 4).view.loc (c : Thread nD τ) ↦[(xslot 4).view.set]{fullShare} Xc c 4) ∗ ((xslot 5).view.loc (c : Thread nD τ) ↦[(xslot 5).view.set]{fullShare} Xc c 5) ∗ ((xslot 6).view.loc (c : Thread nD τ) ↦[(xslot 6).view.set]{fullShare} Xc c 6) ∗ ((xslot 7).view.loc (c : Thread nD τ) ↦[(xslot 7).view.set]{fullShare} Xc c 7) ∗ ((xslot 8).view.loc (c : Thread nD τ) ↦[(xslot 8).view.set]{fullShare} Xc c 8) ∗ ((xslot 9).view.loc (c : Thread nD τ) ↦[(xslot 9).view.set]{fullShare} Xc c 9) ∗ ((xslot 10).view.loc (c : Thread nD τ) ↦[(xslot 10).view.set]{fullShare} Xc c 10) ∗ ((xslot 11).view.loc (c : Thread nD τ) ↦[(xslot 11).view.set]{fullShare} Xc c 11) ∗ ((xslot 12).view.loc (c : Thread nD τ) ↦[(xslot 12).view.set]{fullShare} Xc c 12) ∗ ((xslot 13).view.loc (c : Thread nD τ) ↦[(xslot 13).view.set]{fullShare} Xc c 13) ∗ ((xslot 14).view.loc (c : Thread nD τ) ↦[(xslot 14).view.set]{fullShare} Xc c 14) ∗ ((xslot 15).view.loc (c : Thread nD τ) ↦[(xslot 15).view.set]{fullShare} Xc c 15))

theorem sDone_join (c : Dev nD) : sDone Sb c ⊢ iprop(∃ f, ((c : Thread nD τ).loc cc0_scratch2) ↦{fullShare} f) :=
  (show sDone Sb c ⊢ bigSepL f16 (fun j => iprop(∃ f, (sslot j).view.loc (c : Thread nD τ) ↦[(sslot j).view.set]{fullShare} f)) from
    bigSepL_mono (Φ := fun j => ((sslot j).view.loc (c : Thread nD τ) ↦[(sslot j).view.set]{fullShare} Sb c j : sProp 𝕄)) f16 fun j => by
      iintro H; iexists (Sb c j); iexact H).trans (sslots_join (F := F) c)

theorem xDone_join (c : Dev nD) : xDone Xc c ⊢ iprop(∃ f, ((c : Thread nD τ).loc cc0_scratch4) ↦{fullShare} f) :=
  (show xDone Xc c ⊢ bigSepL f16 (fun j => iprop(∃ f, (xslot j).view.loc (c : Thread nD τ) ↦[(xslot j).view.set]{fullShare} f)) from
    bigSepL_mono (Φ := fun j => ((xslot j).view.loc (c : Thread nD τ) ↦[(xslot j).view.set]{fullShare} Xc c j : sProp 𝕄)) f16 fun j => by
      iintro H; iexists (Xc c j); iexact H).trans (xslots_join (F := F) c)

/-- The two halves of each receive slot of the chunks join to the slot at the full share; the sixteen glue into the buffer. -/
theorem yDone_join (c : Dev nD) : iprop(yLeft Yc c ∗ yRight Yc c) ⊢ iprop(∃ f, ((c : Thread nD τ).loc cc0_scratch3) ↦{fullShare} f) :=
  ((show iprop(yLeft Yc c ∗ yRight Yc c)
      ⊢ bigSepL f16 (fun j => iprop(((yslot j).view.loc (c : Thread nD τ) ↦[(yslot j).view.set]{fullShare.left} Yc c j)
          ∗ ((yslot j).view.loc (c : Thread nD τ) ↦[(yslot j).view.set]{fullShare.right} Yc c j))) from
    bigSepL_zip (Φ := fun j => ((yslot j).view.loc (c : Thread nD τ) ↦[(yslot j).view.set]{fullShare.left} Yc c j : sProp 𝕄))
      (Ψ := fun j => ((yslot j).view.loc (c : Thread nD τ) ↦[(yslot j).view.set]{fullShare.right} Yc c j : sProp 𝕄)) f16).trans
    (show _ ⊢ bigSepL f16 (fun j => iprop(∃ f, (yslot j).view.loc (c : Thread nD τ) ↦[(yslot j).view.set]{fullShare} f)) from
      bigSepL_mono f16 fun j => by
        iintro ⟨Hl, Hr⟩
        iexists (Yc c j)
        iapply (pointsTo_share (PosShare.mem_left_op_right fullShare)).2
        isplitl [Hl] <;> iassumption)).trans (yslots_join (F := F) c)

/-! ## The exit -/

/-- From what a device holds after its last wait to what its body must end with. The premise, in order: the invariants of its own cells;
    the positions of the sixty-four transfer cells past their round; the local semaphores at zero; nothing owed, at any recorded waits; the
    staged first argument; the second argument as launched; the result at contents the predicate holds of; the two scratch buffers the exchange does not touch, at
    any contents; the outgoing slots; the lent halves of the chunks' receive slots; the kept halves; the forwards' receive slots. -/
theorem body_exit (K : Dev nD × Option (Fin 4 × Fin 16) → ℕ) (c : Dev nD) (W : Waits sig Unit)
    (f3 : Buf (Elt F) ((c : Thread nD τ).loc cc0_scratch0)) (f4 : Buf (Elt F) ((c : Thread nD τ).loc cc0_scratch1))
    (o : Buf (Elt F) ((c : Thread nD τ).loc main_v1)) (hP : OutP c o) :
    iprop(invsOwn Sb Yc Xc K c ∗ posDone c ∗ locals0 c ∗ owes (c : Thread nD τ) (0 : CellTallies nD τ sig Unit) W
        ∗ ((Memref.whole cc0_stg0_0 : Memref sig .tc .vmem S1024x1024 .f32).view.loc (c : Thread nD τ) ↦{fullShare} xstg m c)
        ∗ ((Memref.whole main_arg1 : Memref sig .tc .hbm S1024x4096 .f32).view.loc (c : Thread nD τ) ↦{fullShare} m ((c : Thread nD τ).loc main_arg1))
        ∗ ((Memref.whole main_v1 : Memref sig .tc .hbm S512x4096 .f32).view.loc (c : Thread nD τ) ↦{fullShare} o)
        ∗ ((Memref.whole cc0_scratch0 : Memref sig .tc .vmem S1024x4096 .f32).view.loc (c : Thread nD τ) ↦{fullShare} f3)
        ∗ ((Memref.whole cc0_scratch1 : Memref sig .tc .vmem S512x4096 .f32).view.loc (c : Thread nD τ) ↦{fullShare} f4)
        ∗ sDone Sb c ∗ yLeft Yc c ∗ yRight Yc c ∗ xDone Xc c)
      ⊢ |={Set.univ}=> bodyPost m Sb Yc Xc OutP c := by
  iintro ⟨#HI, Hpos, Hloc, HO, Hx, Ha1, Hv1, H3, H4, HS, HYl, HYr, HX⟩
  imod (xfers_close Sb Yc Xc K c) $$ [Hpos] with Hxf
  · isplitr; · iexact HI
    iexact Hpos
  ihave H5 := (sDone_join Sb c) $$ HS
  ihave H6 := (yDone_join Yc c) $$ [HYl HYr]
  · isplitl [HYl] <;> iassumption
  ihave H7 := (xDone_join Xc c) $$ HX
  imodintro
  unfold bodyPost Φ₁ scratch hbm
  isplitl [Hloc Hxf H3 H4 H5 H6 H7 Ha1 Hv1]
  · isplitl [Hloc]; · iexact Hloc
    isplitl [Hxf]; · iexact Hxf
    isplitl [H3 H4 H5 H6 H7]
    · isplitl [H3]; · iexists f3; iexact H3
      isplitl [H4]; · iexists f4; iexact H4
      isplitl [H5]; · iexact H5
      isplitl [H6]; · iexact H6
      iexact H7
    iexists o
    isplitr; · ipureintro; exact hP
    isplitl [Ha1]; · iexact Ha1
    iexact Hv1
  isplitl [HO]
  · unfold Dat.owesAt Pipeline.owesWithin
    rw [show (dats m Sb Yc Xc OutP 0 c).owed t₀.succ = 0 from rfl]
    iexists W
    isplitr; · ipureintro; exact fun _ _ => Or.inl trivial
    iexact HO
  · iexists _; isplitr; · (ipureintro; rfl)
    iexact Hx

/-- info: 'Cert.Kernel.Hand.body_exit' depends on axioms: [propext, Classical.choice, Quot.sound] -/
#guard_msgs in #print axioms body_exit

end Cert.Kernel.Hand

end
-- ==== Proof.RulesSendK.lean ====
import proofs.«901046_g7700000000001047_dist_rsdw_v7x_xy2x2_y_m1024_d1024_f4096_f32_1_alg».proof.Proof.Gen.Kernel
import proofs.«901046_g7700000000001047_dist_rsdw_v7x_xy2x2_y_m1024_d1024_f4096_f32_1_alg».proof.Proof.Gen.Kernel.Skeleton
import proofs.«901046_g7700000000001047_dist_rsdw_v7x_xy2x2_y_m1024_d1024_f4096_f32_1_alg».proof.Proof.Gen.Kernel.Launch
import proofs.«901046_g7700000000001047_dist_rsdw_v7x_xy2x2_y_m1024_d1024_f4096_f32_1_alg».proof.Proof.Gen.Kernel.Points
import proofs.«901046_g7700000000001047_dist_rsdw_v7x_xy2x2_y_m1024_d1024_f4096_f32_1_alg».proof.Proof.ProtoK
import proofs.«901046_g7700000000001047_dist_rsdw_v7x_xy2x2_y_m1024_d1024_f4096_f32_1_alg».proof.Proof.LedgerK
import proofs.«901046_g7700000000001047_dist_rsdw_v7x_xy2x2_y_m1024_d1024_f4096_f32_1_alg».proof.Proof.BodyEndsK
import Idealize.ShloMosaic.Lib.Pipeline.Launch
import Idealize.ShloMosaic.Lib.Pipeline.Kit
import Idealize.ShloMosaic.Lib.Tactic

/-! The remote steps of a device's body, each as one rule over the device's own holdings.

A signal to a neighbour's barrier cell pays one of that cell's two duties and hands over the device's whole receive buffer for the
neighbour to write, slot by slot, with the fact that the slots' receive cells are at round 0. A chunk's transfer pays two duties at once:
the duty of the sender's own send cell, whose payload is the source slot, given back when the cell is waited on, and the duty of the
neighbour's receive cell, whose payload is the destination slot at the contents the transfer lands. The rules project the invariants and
the round facts of the cells concerned out of the device's chains, and leave of what the device owes the summand just paid. -/

set_option maxRecDepth 16384

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (Sb : (c : Dev nD) → (j : Fin 16) → Buf (Elt F) ((sslot j).view.loc (c : Thread nD τ)))
variable (Yc : (c : Dev nD) → (j : Fin 16) → Buf (Elt F) ((yslot j).view.loc (c : Thread nD τ)))
variable (Xc : (c : Dev nD) → (j : Fin 16) → Buf (Elt F) ((xslot j).view.loc (c : Thread nD τ)))

/-! ## One conjunct out of a chain -/

omit [FloatOps F] in
/-- A listed chain gives any one of its members. -/
theorem bigSepL_elim {I : Type} (l : List I) (Φ : I → sProp 𝕄) (i : I) (h : i ∈ l) : bigSepL l Φ ⊢ Φ i := by
  induction l with
  | nil => cases h
  | cons a l ih =>
    rw [bigSepL_cons]
    rcases List.mem_cons.mp h with rfl | h'
    · exact BI.sep_and.trans BI.and_elimL
    · exact (BI.sep_and.trans BI.and_elimR).trans (ih h')

abbrev f16 : List (Fin 16) := [0, 1, 2, 3, 4, 5, 6, 7, 8, 9, 10, 11, 12, 13, 14, 15]
theorem mem_f16 (j : Fin 16) : j ∈ f16 := by fin_cases j <;> decide

/-- The cells of its neighbours a device pays into, in the order their invariants are listed. -/
abbrev peerL (c : Dev nD) : List (Dev nD × Option (Fin 4 × Fin 16)) :=
  [(ynb c, none), (xnb c, none)] ++ f16.map (fun j => (ynb c, some ((1 : Fin 4), j))) ++ f16.map (fun j => (xnb c, some ((3 : Fin 4), j)))

omit [FloatOps F] in
theorem invsPeer_at (K : Dev nD × Option (Fin 4 × Fin 16) → ℕ) (c : Dev nD) (ck : Dev nD × Option (Fin 4 × Fin 16)) (h : ck ∈ peerL c) :
    invsPeer Sb Yc Xc K c ⊢ cellInv ER (xRd Sb Yc Xc) (K ck) (kcell ck) := by
  show bigSepL (peerL c) (fun ck => cellInv ER (xRd Sb Yc Xc) (K ck) (kcell ck)) ⊢ _
  exact bigSepL_elim _ _ ck h

omit [FloatOps F] in
theorem invsPeer_bar_y (K : Dev nD × Option (Fin 4 × Fin 16) → ℕ) (c : Dev nD) :
    invsPeer Sb Yc Xc K c ⊢ cellInv ER (xRd Sb Yc Xc) (K (ynb c, none)) (barCell (ynb c)) :=
  invsPeer_at Sb Yc Xc K c (ynb c, none) (by simp [peerL])
omit [FloatOps F] in
theorem invsPeer_bar_x (K : Dev nD × Option (Fin 4 × Fin 16) → ℕ) (c : Dev nD) :
    invsPeer Sb Yc Xc K c ⊢ cellInv ER (xRd Sb Yc Xc) (K (xnb c, none)) (barCell (xnb c)) :=
  invsPeer_at Sb Yc Xc K c (xnb c, none) (by simp [peerL])
omit [FloatOps F] in
theorem invsPeer_yrecv (K : Dev nD × Option (Fin 4 × Fin 16) → ℕ) (c : Dev nD) (j : Fin 16) :
    invsPeer Sb Yc Xc K c ⊢ cellInv ER (xRd Sb Yc Xc) (K (ynb c, some (1, j))) (yrecvCell (ynb c) j) :=
  invsPeer_at Sb Yc Xc K c (ynb c, some (1, j))
    (List.mem_append_left _ (List.mem_append_right _ (List.mem_map.mpr ⟨j, mem_f16 j, rfl⟩)))
omit [FloatOps F] in
theorem invsPeer_xrecv (K : Dev nD × Option (Fin 4 × Fin 16) → ℕ) (c : Dev nD) (j : Fin 16) :
    invsPeer Sb Yc Xc K c ⊢ cellInv ER (xRd Sb Yc Xc) (K (xnb c, some (3, j))) (xrecvCell (xnb c) j) :=
  invsPeer_at Sb Yc Xc K c (xnb c, some (3, j)) (List.mem_append_right _ (List.mem_map.mpr ⟨j, mem_f16 j, rfl⟩))

/-- The cells a device knows to be at round 0, in the order the facts are listed. -/
abbrev reachL (c : Dev nD) : List (GSem nD τ sig) :=
  [barCell (ynb c), barCell (xnb c)] ++ f16.map (fun j => yrecvCell (ynb c) j) ++ f16.map (fun j => xrecvCell (xnb c) j)
    ++ f16.map (fun j => ysendCell c j) ++ f16.map (fun j => yrecvCell c j) ++ f16.map (fun j => fsendCell c j) ++ f16.map (fun j => xrecvCell c j)

theorem reachedAll_at (c : Dev nD) (g : GSem nD τ sig) (h : g ∈ reachL c) : (reachedAll c : sProp 𝕄) ⊢ reached ER g 0 := by
  show bigSepL (reachL c) (fun g => reached ER g 0) ⊢ _
  exact bigSepL_elim _ _ g h

theorem reached_bar_y (c : Dev nD) : (reachedAll c : sProp 𝕄) ⊢ reached ER (barCell (ynb c)) 0 := reachedAll_at c _ (by simp [reachL])
theorem reached_bar_x (c : Dev nD) : (reachedAll c : sProp 𝕄) ⊢ reached ER (barCell (xnb c)) 0 := reachedAll_at c _ (by simp [reachL])
theorem reached_yrecv_peer (c : Dev nD) (j : Fin 16) : (reachedAll c : sProp 𝕄) ⊢ reached ER (yrecvCell (ynb c) j) 0 :=
  reachedAll_at c _ (List.mem_append_left _ (List.mem_append_left _ (List.mem_append_left _ (List.mem_append_left _ (List.mem_append_left _
    (List.mem_append_right _ (List.mem_map.mpr ⟨j, mem_f16 j, rfl⟩)))))))
theorem reached_xrecv_peer (c : Dev nD) (j : Fin 16) : (reachedAll c : sProp 𝕄) ⊢ reached ER (xrecvCell (xnb c) j) 0 :=
  reachedAll_at c _ (List.mem_append_left _ (List.mem_append_left _ (List.mem_append_left _ (List.mem_append_left _
    (List.mem_append_right _ (List.mem_map.mpr ⟨j, mem_f16 j, rfl⟩))))))
theorem reached_ysend (c : Dev nD) (j : Fin 16) : (reachedAll c : sProp 𝕄) ⊢ reached ER (ysendCell c j) 0 :=
  reachedAll_at c _ (List.mem_append_left _ (List.mem_append_left _ (List.mem_append_left _
    (List.mem_append_right _ (List.mem_map.mpr ⟨j, mem_f16 j, rfl⟩)))))
theorem reached_yrecv (c : Dev nD) (j : Fin 16) : (reachedAll c : sProp 𝕄) ⊢ reached ER (yrecvCell c j) 0 :=
  reachedAll_at c _ (List.mem_append_left _ (List.mem_append_left _ (List.mem_append_right _ (List.mem_map.mpr ⟨j, mem_f16 j, rfl⟩))))
theorem reached_fsend (c : Dev nD) (j : Fin 16) : (reachedAll c : sProp 𝕄) ⊢ reached ER (fsendCell c j) 0 :=
  reachedAll_at c _ (List.mem_append_left _ (List.mem_append_right _ (List.mem_map.mpr ⟨j, mem_f16 j, rfl⟩)))
theorem reached_xrecv (c : Dev nD) (j : Fin 16) : (reachedAll c : sProp 𝕄) ⊢ reached ER (xrecvCell c j) 0 :=
  reachedAll_at c _ (List.mem_append_right _ (List.mem_map.mpr ⟨j, mem_f16 j, rfl⟩))

/-! ## A slot held whole is its two halves -/

theorem yslot_halves (c : Dev nD) (j : Fin 16) (f : Buf (Elt F) ((yslot j).view.loc (c : Thread nD τ))) :
    ((yslot j).view.loc (c : Thread nD τ) ↦[(yslot j).view.set]{fullShare} f : sProp 𝕄)
      ⊣⊢ iprop(((yslot j).view.loc (c : Thread nD τ) ↦[(yslot j).view.set]{fullShare.left} f)
          ∗ ((yslot j).view.loc (c : Thread nD τ) ↦[(yslot j).view.set]{fullShare.right} f)) :=
  pointsTo_share (PosShare.mem_left_op_right _)

/-- Every slot's transfer is credited one chunk. -/
theorem yslot_credit (j : Fin 16) : (yslot j).view.dmaCredit = N := by fin_cases j <;> rfl
theorem xslot_credit (j : Fin 16) : (xslot j).view.dmaCredit = N := by fin_cases j <;> rfl

/-! ## A chunk's transfer, and a forward -/

/-- The transfer of chunk `j` to the neighbour along the second axis: from the device's outgoing slot, whose contents are those the
    schedule names, into the neighbour's slot, which the device holds since the neighbour's barrier signal and which ends at the
    contents the schedule names. It pays the duty of the device's own send cell and that of the neighbour's receive cell. -/
theorem wp_send_y (K : Dev nD × Option (Fin 4 × Fin 16) → ℕ) (c n : Dev nD) (hn : n = ynb c) (j : Fin 16)
    {hsc : (yslot j : Memref sig (Dev.tc n : Thread nD τ).2.kind .vmem S512x128 .bf16).view.ref.isScScratch = false}
    {hsrc : (sslot j : Memref sig .tc .vmem S512x128 .bf16).view.WordExact} {hdst : (yslot j : Memref sig .tc .vmem S512x128 .bf16).view.WordExact}
    {hsem : DmaTarget.Typed .vmem (.dma (yrecvS j)) (.remote (Dev.tc n : Thread nD τ) (yslot j : Memref sig .tc .vmem S512x128 .bf16) (.dma (ysendS j)) hsc)}
    {α : Type} {Q : α → sProp 𝕄} {k : PUnit → Prog (TpuEff nD τ sig (Elt F) Λ₀ .tc) α}
    (fs : Buf (Elt F) ((sslot j).view.loc (c : Thread nD τ))) (fd : Buf (Elt F) ((yslot j).view.loc (ynb c : Thread nD τ)))
    (O : CellTallies nD τ sig Unit) (W : Waits sig Unit)
    (hs : ∀ i ∈ (sslot j).view.set, fs i = Sb c j i)
    (hd : ∀ i ∈ (yslot j).view.set, (yslot j).view.write (Elt F) fd ((sslot j).view.read (Elt F) fs) Finset.univ i = Yc (ynb c) j i) :
    iprop(invsOwn Sb Yc Xc K c ∗ invsPeer Sb Yc Xc K c ∗ reachedAll c
        ∗ ((sslot j).view.loc (c : Thread nD τ) ↦[(sslot j).view.set]{fullShare} fs)
        ∗ ((yslot j).view.loc (ynb c : Thread nD τ) ↦[(yslot j).view.set]{fullShare} fd)
        ∗ owes (c : Thread nD τ) (O + tallyAt (yrecvCell (ynb c) j) () N) W
        ∗ dutyTok ER (ysendCell c j) 0 false ∗ dutyTok ER (yrecvCell (ynb c) j) 0 false)
      ⊢ iprop(((cred (tallyAt (ysendCell c j) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sslot j) (.remote (Dev.tc n : Thread nD τ) (yslot j) (.dma (ysendS j)) hsc) (.dma (yrecvS j)) hsrc hdst hsem) k) Q) := by
  subst hn
  iintro ⟨HIo, HIp, #HR, Hsrc, Hdst, HO, Ht1, Ht2⟩
  iapply (Rounds.wp_send_pointsTo 𝒱₀ ER (xRd Sb Yc Xc) (c : Thread nD τ) none (κ₁ := K (c, some (0, j))) (κ₂ := K (ynb c, some (1, j)))
      (r₁ := 0) (r₂ := 0) (d₁ := false) (d₂ := false) (fd := fd) (sS := SemLoc.dma (ysendS j)) (sem := SemLoc.dma (yrecvS j))
      (by rw [duties_ysend]; exact Finset.mem_singleton_self _) (by rw [duties_yrecv]; exact Finset.mem_singleton_self _)
      () () N (yslot_credit j) (amount_ysend Sb Yc Xc c j false) (amount_yrecv Sb Yc Xc (ynb c) j false) O rfl (W := W)
      (by rw [payload_ysend, slot_congr (sslot j) c hs])
      (by rw [payload_yrecv, slot_congr (yslot j) (ynb c) hd]))
  isplitl [HIo]; · iapply (invsOwn_at Sb Yc Xc K c (some (0, j))); iexact HIo
  isplitl [HIp]; · iapply (invsPeer_yrecv Sb Yc Xc K c j); iexact HIp
  isplitl [Hsrc]; · iexact Hsrc
  isplitl [Hdst]; · iexact Hdst
  isplitl [HO]; · iexact HO
  isplitl [Ht1]; · iexact Ht1
  isplitr; · iapply (reached_ysend c j); iexact HR
  isplitl [Ht2]; · iexact Ht2
  iapply (reached_yrecv_peer c j); iexact HR

/-- The forward of chunk `j` to the neighbour along the first axis: from the device's slot of received chunks, lent at half share (the
    device keeps the other half to read), into that neighbour's slot of forwards. -/
theorem wp_send_f (K : Dev nD × Option (Fin 4 × Fin 16) → ℕ) (c n : Dev nD) (hn : n = xnb c) (j : Fin 16)
    {hsc : (xslot j : Memref sig (Dev.tc n : Thread nD τ).2.kind .vmem S512x128 .bf16).view.ref.isScScratch = false}
    {hsrc : (yslot j : Memref sig .tc .vmem S512x128 .bf16).view.WordExact} {hdst : (xslot j : Memref sig .tc .vmem S512x128 .bf16).view.WordExact}
    {hsem : DmaTarget.Typed .vmem (.dma (xrecvS j)) (.remote (Dev.tc n : Thread nD τ) (xslot j : Memref sig .tc .vmem S512x128 .bf16) (.dma (fsendS j)) hsc)}
    {α : Type} {Q : α → sProp 𝕄} {k : PUnit → Prog (TpuEff nD τ sig (Elt F) Λ₀ .tc) α}
    (fs : Buf (Elt F) ((yslot j).view.loc (c : Thread nD τ))) (fd : Buf (Elt F) ((xslot j).view.loc (xnb c : Thread nD τ)))
    (O : CellTallies nD τ sig Unit) (W : Waits sig Unit)
    (hs : ∀ i ∈ (yslot j).view.set, fs i = Yc c j i)
    (hd : ∀ i ∈ (xslot j).view.set, (xslot j).view.write (Elt F) fd ((yslot j).view.read (Elt F) fs) Finset.univ i = Xc (xnb c) j i) :
    iprop(invsOwn Sb Yc Xc K c ∗ invsPeer Sb Yc Xc K c ∗ reachedAll c
        ∗ ((yslot j).view.loc (c : Thread nD τ) ↦[(yslot j).view.set]{fullShare.left} fs)
        ∗ ((xslot j).view.loc (xnb c : Thread nD τ) ↦[(xslot j).view.set]{fullShare} fd)
        ∗ owes (c : Thread nD τ) (O + tallyAt (xrecvCell (xnb c) j) () N) W
        ∗ dutyTok ER (fsendCell c j) 0 false ∗ dutyTok ER (xrecvCell (xnb c) j) 0 false)
      ⊢ iprop(((cred (tallyAt (fsendCell c j) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (yslot j) (.remote (Dev.tc n : Thread nD τ) (xslot j) (.dma (fsendS j)) hsc) (.dma (xrecvS j)) hsrc hdst hsem) k) Q) := by
  subst hn
  iintro ⟨HIo, HIp, #HR, Hsrc, Hdst, HO, Ht1, Ht2⟩
  iapply (Rounds.wp_send_pointsTo 𝒱₀ ER (xRd Sb Yc Xc) (c : Thread nD τ) none (κ₁ := K (c, some (2, j))) (κ₂ := K (xnb c, some (3, j)))
      (r₁ := 0) (r₂ := 0) (d₁ := false) (d₂ := false) (fd := fd) (sS := SemLoc.dma (fsendS j)) (sem := SemLoc.dma (xrecvS j))
      (by rw [duties_fsend]; exact Finset.mem_singleton_self _) (by rw [duties_xrecv]; exact Finset.mem_singleton_self _)
      () () N (xslot_credit j) (amount_fsend Sb Yc Xc c j false) (amount_xrecv Sb Yc Xc (xnb c) j false) O rfl (W := W)
      (by rw [payload_fsend, slot_congr (yslot j) c hs])
      (by rw [payload_xrecv, slot_congr (xslot j) (xnb c) hd]))
  isplitl [HIo]; · iapply (invsOwn_at Sb Yc Xc K c (some (2, j))); iexact HIo
  isplitl [HIp]; · iapply (invsPeer_xrecv Sb Yc Xc K c j); iexact HIp
  isplitl [Hsrc]; · iexact Hsrc
  isplitl [Hdst]; · iexact Hdst
  isplitl [HO]; · iexact HO
  isplitl [Ht1]; · iexact Ht1
  isplitr; · iapply (reached_fsend c j); iexact HR
  isplitl [Ht2]; · iexact Ht2
  iapply (reached_xrecv_peer c j); iexact HR

end Cert.Kernel.Hand

end
-- ==== Proof.RulesWaitK.lean ====
import proofs.«901046_g7700000000001047_dist_rsdw_v7x_xy2x2_y_m1024_d1024_f4096_f32_1_alg».proof.Proof.Gen.Kernel
import proofs.«901046_g7700000000001047_dist_rsdw_v7x_xy2x2_y_m1024_d1024_f4096_f32_1_alg».proof.Proof.Gen.Kernel.Skeleton
import proofs.«901046_g7700000000001047_dist_rsdw_v7x_xy2x2_y_m1024_d1024_f4096_f32_1_alg».proof.Proof.Gen.Kernel.Launch
import proofs.«901046_g7700000000001047_dist_rsdw_v7x_xy2x2_y_m1024_d1024_f4096_f32_1_alg».proof.Proof.Gen.Kernel.Points
import proofs.«901046_g7700000000001047_dist_rsdw_v7x_xy2x2_y_m1024_d1024_f4096_f32_1_alg».proof.Proof.ProtoK
import proofs.«901046_g7700000000001047_dist_rsdw_v7x_xy2x2_y_m1024_d1024_f4096_f32_1_alg».proof.Proof.LedgerK
import proofs.«901046_g7700000000001047_dist_rsdw_v7x_xy2x2_y_m1024_d1024_f4096_f32_1_alg».proof.Proof.BodyEndsK
import Idealize.ShloMosaic.Lib.Pipeline.Launch
import Idealize.ShloMosaic.Lib.Pipeline.Kit
import Idealize.ShloMosaic.Lib.Tactic

/-! The waits of a device's body, each as one rule with a small precondition and postcondition.

A device waits on its own cells only. Each of its sixty-five cells has one round, and each wait is for the whole of it: the barrier
wait, for the two units its two neighbours signal, hands the device the two neighbours' receive buffers; the wait on a receive cell,
for one chunk's credit, hands it the slot just written, at the contents the schedule names; the wait on a send cell, for the credit
its own transfer raised, hands the source slot back. After the wait the cell's owner stands at the next round, which has no duty.
The device may wait because everything it still owes lies above the cell it waits on. -/

set_option maxRecDepth 16384

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (Sb : (c : Dev nD) → (j : Fin 16) → Buf (Elt F) ((sslot j).view.loc (c : Thread nD τ)))
variable (Yc : (c : Dev nD) → (j : Fin 16) → Buf (Elt F) ((yslot j).view.loc (c : Thread nD τ)))
variable (Xc : (c : Dev nD) → (j : Fin 16) → Buf (Elt F) ((xslot j).view.loc (c : Thread nD τ)))

/-! ## The barrier wait -/

omit [FloatOps F] in
/-- What the barrier cell's one round hands over: the two neighbours' receive buffers, whole, at some contents. -/
theorem rest_bar (c : Dev nD) :
    bigSep ((xRd (F := F) Sb Yc Xc).duties (barCell c) 0 \ ∅) (fun d => (xRd (F := F) Sb Yc Xc).payload (barCell c) 0 d)
      = (iprop((∃ f, (Memref.whole cc0_scratch3 : Memref sig .tc .vmem S16x512x128 .bf16).view.loc ((ynb c) : Thread nD τ) ↦{fullShare} f)
          ∗ (∃ f, (Memref.whole cc0_scratch4 : Memref sig .tc .vmem S16x512x128 .bf16).view.loc ((xnb c) : Thread nD τ) ↦{fullShare} f)) : sProp 𝕄) := by
  rw [Finset.sdiff_empty, duties_bar, show (Finset.univ : Finset Bool) = insert false {true} from by decide,
    bigSep_insert (by decide), bigSep_singleton, payload_bar_false, payload_bar_true]
  rfl

/-- The wait of two units on the device's own barrier cell. -/
theorem wp_wait_bar (K : Dev nD × Option (Fin 4 × Fin 16) → ℕ) (c : Dev nD) {α : Type} {Q : α → sProp 𝕄}
    {k : PUnit → Prog (TpuEff nD τ sig (Elt F) Λ₀ (c : Thread nD τ).2) α}
    (O : CellTallies nD τ sig Unit) (W : Waits sig Unit) (hO : Below c (.reg barS) O) :
    (iprop(invsOwn Sb Yc Xc K c ∗ levAts L lv ∗ cred (tallyAt (barCell c) () 2) ∗ owes (c : Thread nD τ) O W ∗ atPos ER (barCell c) 0 ∅ 0) : sProp 𝕄)
      ⊢ iprop(((owes (c : Thread nD τ) O (insert (SemLoc.reg barS, ()) W) ∗ atPos ER (barCell c) (0 + 1) ∅ 0
            ∗ (∃ f, (Memref.whole cc0_scratch3 : Memref sig .tc .vmem S16x512x128 .bf16).view.loc ((ynb c) : Thread nD τ) ↦{fullShare} f)
            ∗ (∃ f, (Memref.whole cc0_scratch4 : Memref sig .tc .vmem S16x512x128 .bf16).view.loc ((xnb c) : Thread nD τ) ↦{fullShare} f))
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS 2) k) Q) := by
  iintro ⟨#HI, #Hlev, Hcr, HO, Hat⟩ Hk
  ihave H := (Rounds.wp_wait_rest_token 𝒱₀ ER (xRd Sb Yc Xc) (c : Thread nD τ) none (κ := K (c, none))
      (defs := defs₀ (F := F)) (Γ := .empty) (w := .semWait barS 2) (sm := .reg barS) (k' := 2) (Es := Set.univ)
      (wpE_semWait_eq 𝒱₀ (c : Thread nD τ) none Set.univ) (Set.mem_univ _) () (O := O) (W := W) (R := 0) (m := 0) (T := ∅)
      (k := k) (Q := Q) (by rw [expect_bar Sb Yc Xc c])) $$ [Hcr HO Hat]
  · isplitr
    · iapply (invsOwn_at Sb Yc Xc K c none); iexact HI
    isplitl [Hcr]; · iexact Hcr
    isplitl [HO]; · iexact HO
    isplitr
    · iapply (mayWait_below c _ O hO); iexact Hlev
    iexact Hat
  iapply H
  rw [rest_bar]
  iintro ⟨HO, Hat, -, Hpay⟩
  iapply Hk
  isplitl [HO]; · iexact HO
  isplitl [Hat]; · iexact Hat
  iexact Hpay

/-! ## The four waits on transfer cells

The wait names a destination memref whose credit is one chunk's; its source does not matter. -/

/-- The wait on the receive cell of chunk `j`: the slot the neighbour along the second axis wrote, at its contents. -/
theorem wp_wait_yrecv (K : Dev nD × Option (Fin 4 × Fin 16) → ℕ) (c : Dev nD) (j : Fin 16) {α : Type} {Q : α → sProp 𝕄}
    {k : PUnit → Prog (TpuEff nD τ sig (Elt F) Λ₀ (c : Thread nD τ).2) α}
    {sp sp' : Space} {s s' : Shape} {e e' : EltTy} {src : Memref sig (c : Thread nD τ).2.kind sp' s' e'} {κ' : Kind} {dst : Memref sig κ' sp s e}
    {hsrc : src.view.WordExact} {hdst : dst.view.WordExact} (hcr : dst.view.dmaCredit = N)
    (O : CellTallies nD τ sig Unit) (W : Waits sig Unit) (hO : Below c (.dma (yrecvS j)) O) :
    (iprop(invsOwn Sb Yc Xc K c ∗ levAts L lv ∗ cred (tallyAt (yrecvCell c j) () N) ∗ owes (c : Thread nD τ) O W ∗ atPos ER (yrecvCell c j) 0 ∅ 0) : sProp 𝕄)
      ⊢ iprop(((owes (c : Thread nD τ) O (insert (SemLoc.dma (yrecvS j), ()) W) ∗ atPos ER (yrecvCell c j) (0 + 1) ∅ 0
            ∗ ((yslot j).view.loc (c : Thread nD τ) ↦[(yslot j).view.set]{fullShare} Yc c j))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (yrecvS j) src dst hsrc hdst) k) Q) := by
  have hc : (cred (tallyAt (yrecvCell c j) () N) : sProp 𝕄) = cred (tallyAt (yrecvCell c j) () dst.view.dmaCredit) := by rw [hcr]
  rw [hc]
  iintro ⟨#HI, #Hlev, Hcr, HO, Hat⟩ Hk
  ihave H := (Rounds.wp_wait_rest_token 𝒱₀ ER (xRd Sb Yc Xc) (c : Thread nD τ) none (κ := K (c, some (1, j)))
      (defs := defs₀ (F := F)) (Γ := .empty) (w := .waitDma2 (yrecvS j) src dst hsrc hdst) (sm := .dma (yrecvS j)) (k' := dst.view.dmaCredit) (Es := Set.univ)
      (wpE_waitDma2_eq 𝒱₀ (c : Thread nD τ) none Set.univ (src := src) (dst := dst) (hsrc := hsrc) (hdst := hdst)) (Set.mem_univ _) ()
      (O := O) (W := W) (R := 0) (m := 0) (T := ∅) (k := k) (Q := Q) (by rw [expect_yrecv Sb Yc Xc c j, hcr, Nat.zero_add])) $$ [Hcr HO Hat]
  · isplitr
    · iapply (invsOwn_at Sb Yc Xc K c (some (1, j))); iexact HI
    isplitl [Hcr]; · iexact Hcr
    isplitl [HO]; · iexact HO
    isplitr
    · iapply (mayWait_below c _ O hO); iexact Hlev
    iexact Hat
  iapply H
  rw [rest_yrecv]
  iintro ⟨HO, Hat, -, Hpay⟩
  iapply Hk
  isplitl [HO]; · iexact HO
  isplitl [Hat]; · iexact Hat
  iexact Hpay

/-- The wait on the receive cell of forward `j`: the slot the neighbour along the first axis wrote, at its contents. -/
theorem wp_wait_xrecv (K : Dev nD × Option (Fin 4 × Fin 16) → ℕ) (c : Dev nD) (j : Fin 16) {α : Type} {Q : α → sProp 𝕄}
    {k : PUnit → Prog (TpuEff nD τ sig (Elt F) Λ₀ (c : Thread nD τ).2) α}
    {sp sp' : Space} {s s' : Shape} {e e' : EltTy} {src : Memref sig (c : Thread nD τ).2.kind sp' s' e'} {κ' : Kind} {dst : Memref sig κ' sp s e}
    {hsrc : src.view.WordExact} {hdst : dst.view.WordExact} (hcr : dst.view.dmaCredit = N)
    (O : CellTallies nD τ sig Unit) (W : Waits sig Unit) (hO : Below c (.dma (xrecvS j)) O) :
    (iprop(invsOwn Sb Yc Xc K c ∗ levAts L lv ∗ cred (tallyAt (xrecvCell c j) () N) ∗ owes (c : Thread nD τ) O W ∗ atPos ER (xrecvCell c j) 0 ∅ 0) : sProp 𝕄)
      ⊢ iprop(((owes (c : Thread nD τ) O (insert (SemLoc.dma (xrecvS j), ()) W) ∗ atPos ER (xrecvCell c j) (0 + 1) ∅ 0
            ∗ ((xslot j).view.loc (c : Thread nD τ) ↦[(xslot j).view.set]{fullShare} Xc c j))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (xrecvS j) src dst hsrc hdst) k) Q) := by
  have hc : (cred (tallyAt (xrecvCell c j) () N) : sProp 𝕄) = cred (tallyAt (xrecvCell c j) () dst.view.dmaCredit) := by rw [hcr]
  rw [hc]
  iintro ⟨#HI, #Hlev, Hcr, HO, Hat⟩ Hk
  ihave H := (Rounds.wp_wait_rest_token 𝒱₀ ER (xRd Sb Yc Xc) (c : Thread nD τ) none (κ := K (c, some (3, j)))
      (defs := defs₀ (F := F)) (Γ := .empty) (w := .waitDma2 (xrecvS j) src dst hsrc hdst) (sm := .dma (xrecvS j)) (k' := dst.view.dmaCredit) (Es := Set.univ)
      (wpE_waitDma2_eq 𝒱₀ (c : Thread nD τ) none Set.univ (src := src) (dst := dst) (hsrc := hsrc) (hdst := hdst)) (Set.mem_univ _) ()
      (O := O) (W := W) (R := 0) (m := 0) (T := ∅) (k := k) (Q := Q) (by rw [expect_xrecv Sb Yc Xc c j, hcr, Nat.zero_add])) $$ [Hcr HO Hat]
  · isplitr
    · iapply (invsOwn_at Sb Yc Xc K c (some (3, j))); iexact HI
    isplitl [Hcr]; · iexact Hcr
    isplitl [HO]; · iexact HO
    isplitr
    · iapply (mayWait_below c _ O hO); iexact Hlev
    iexact Hat
  iapply H
  rw [rest_xrecv]
  iintro ⟨HO, Hat, -, Hpay⟩
  iapply Hk
  isplitl [HO]; · iexact HO
  isplitl [Hat]; · iexact Hat
  iexact Hpay

/-- The wait on the send cell of chunk `j`, for the credit the device's own transfer raised: the source slot back. -/
theorem wp_wait_ysend (K : Dev nD × Option (Fin 4 × Fin 16) → ℕ) (c : Dev nD) (j : Fin 16) {α : Type} {Q : α → sProp 𝕄}
    {k : PUnit → Prog (TpuEff nD τ sig (Elt F) Λ₀ (c : Thread nD τ).2) α}
    {sp sp' : Space} {s s' : Shape} {e e' : EltTy} {src : Memref sig (c : Thread nD τ).2.kind sp' s' e'} {κ' : Kind} {dst : Memref sig κ' sp s e}
    {hsrc : src.view.WordExact} {hdst : dst.view.WordExact} (hcr : dst.view.dmaCredit = N)
    (O : CellTallies nD τ sig Unit) (W : Waits sig Unit) (hO : Below c (.dma (ysendS j)) O) :
    (iprop(invsOwn Sb Yc Xc K c ∗ levAts L lv ∗ cred (tallyAt (ysendCell c j) () N) ∗ owes (c : Thread nD τ) O W ∗ atPos ER (ysendCell c j) 0 ∅ 0) : sProp 𝕄)
      ⊢ iprop(((owes (c : Thread nD τ) O (insert (SemLoc.dma (ysendS j), ()) W) ∗ atPos ER (ysendCell c j) (0 + 1) ∅ 0
            ∗ ((sslot j).view.loc (c : Thread nD τ) ↦[(sslot j).view.set]{fullShare} Sb c j))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (ysendS j) src dst hsrc hdst) k) Q) := by
  have hc : (cred (tallyAt (ysendCell c j) () N) : sProp 𝕄) = cred (tallyAt (ysendCell c j) () dst.view.dmaCredit) := by rw [hcr]
  rw [hc]
  iintro ⟨#HI, #Hlev, Hcr, HO, Hat⟩ Hk
  ihave H := (Rounds.wp_wait_rest_token 𝒱₀ ER (xRd Sb Yc Xc) (c : Thread nD τ) none (κ := K (c, some (0, j)))
      (defs := defs₀ (F := F)) (Γ := .empty) (w := .waitDma2 (ysendS j) src dst hsrc hdst) (sm := .dma (ysendS j)) (k' := dst.view.dmaCredit) (Es := Set.univ)
      (wpE_waitDma2_eq 𝒱₀ (c : Thread nD τ) none Set.univ (src := src) (dst := dst) (hsrc := hsrc) (hdst := hdst)) (Set.mem_univ _) ()
      (O := O) (W := W) (R := 0) (m := 0) (T := ∅) (k := k) (Q := Q) (by rw [expect_ysend Sb Yc Xc c j, hcr, Nat.zero_add])) $$ [Hcr HO Hat]
  · isplitr
    · iapply (invsOwn_at Sb Yc Xc K c (some (0, j))); iexact HI
    isplitl [Hcr]; · iexact Hcr
    isplitl [HO]; · iexact HO
    isplitr
    · iapply (mayWait_below c _ O hO); iexact Hlev
    iexact Hat
  iapply H
  rw [rest_ysend]
  iintro ⟨HO, Hat, -, Hpay⟩
  iapply Hk
  isplitl [HO]; · iexact HO
  isplitl [Hat]; · iexact Hat
  iexact Hpay

/-- The wait on the send cell of forward `j`: the half share of the forwarded slot that the transfer had been lent. -/
theorem wp_wait_fsend (K : Dev nD × Option (Fin 4 × Fin 16) → ℕ) (c : Dev nD) (j : Fin 16) {α : Type} {Q : α → sProp 𝕄}
    {k : PUnit → Prog (TpuEff nD τ sig (Elt F) Λ₀ (c : Thread nD τ).2) α}
    {sp sp' : Space} {s s' : Shape} {e e' : EltTy} {src : Memref sig (c : Thread nD τ).2.kind sp' s' e'} {κ' : Kind} {dst : Memref sig κ' sp s e}
    {hsrc : src.view.WordExact} {hdst : dst.view.WordExact} (hcr : dst.view.dmaCredit = N)
    (O : CellTallies nD τ sig Unit) (W : Waits sig Unit) (hO : Below c (.dma (fsendS j)) O) :
    (iprop(invsOwn Sb Yc Xc K c ∗ levAts L lv ∗ cred (tallyAt (fsendCell c j) () N) ∗ owes (c : Thread nD τ) O W ∗ atPos ER (fsendCell c j) 0 ∅ 0) : sProp 𝕄)
      ⊢ iprop(((owes (c : Thread nD τ) O (insert (SemLoc.dma (fsendS j), ()) W) ∗ atPos ER (fsendCell c j) (0 + 1) ∅ 0
            ∗ ((yslot j).view.loc (c : Thread nD τ) ↦[(yslot j).view.set]{fullShare.left} Yc c j))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (fsendS j) src dst hsrc hdst) k) Q) := by
  have hc : (cred (tallyAt (fsendCell c j) () N) : sProp 𝕄) = cred (tallyAt (fsendCell c j) () dst.view.dmaCredit) := by rw [hcr]
  rw [hc]
  iintro ⟨#HI, #Hlev, Hcr, HO, Hat⟩ Hk
  ihave H := (Rounds.wp_wait_rest_token 𝒱₀ ER (xRd Sb Yc Xc) (c : Thread nD τ) none (κ := K (c, some (2, j)))
      (defs := defs₀ (F := F)) (Γ := .empty) (w := .waitDma2 (fsendS j) src dst hsrc hdst) (sm := .dma (fsendS j)) (k' := dst.view.dmaCredit) (Es := Set.univ)
      (wpE_waitDma2_eq 𝒱₀ (c : Thread nD τ) none Set.univ (src := src) (dst := dst) (hsrc := hsrc) (hdst := hdst)) (Set.mem_univ _) ()
      (O := O) (W := W) (R := 0) (m := 0) (T := ∅) (k := k) (Q := Q) (by rw [expect_fsend Sb Yc Xc c j, hcr, Nat.zero_add])) $$ [Hcr HO Hat]
  · isplitr
    · iapply (invsOwn_at Sb Yc Xc K c (some (2, j))); iexact HI
    isplitl [Hcr]; · iexact Hcr
    isplitl [HO]; · iexact HO
    isplitr
    · iapply (mayWait_below c _ O hO); iexact Hlev
    iexact Hat
  iapply H
  rw [rest_fsend]
  iintro ⟨HO, Hat, -, Hpay⟩
  iapply Hk
  isplitl [HO]; · iexact HO
  isplitl [Hat]; · iexact Hat
  iexact Hpay

end Cert.Kernel.Hand

end
-- ==== Proof.BodyX0K.lean ====
import proofs.«901046_g7700000000001047_dist_rsdw_v7x_xy2x2_y_m1024_d1024_f4096_f32_1_alg».proof.Proof.Gen.Kernel
import proofs.«901046_g7700000000001047_dist_rsdw_v7x_xy2x2_y_m1024_d1024_f4096_f32_1_alg».proof.Proof.Gen.Kernel.Skeleton
import proofs.«901046_g7700000000001047_dist_rsdw_v7x_xy2x2_y_m1024_d1024_f4096_f32_1_alg».proof.Proof.Gen.Kernel.Launch
import proofs.«901046_g7700000000001047_dist_rsdw_v7x_xy2x2_y_m1024_d1024_f4096_f32_1_alg».proof.Proof.Gen.Kernel.Points
import proofs.«901046_g7700000000001047_dist_rsdw_v7x_xy2x2_y_m1024_d1024_f4096_f32_1_alg».proof.Proof.ProtoK
import proofs.«901046_g7700000000001047_dist_rsdw_v7x_xy2x2_y_m1024_d1024_f4096_f32_1_alg».proof.Proof.SlotsK
import proofs.«901046_g7700000000001047_dist_rsdw_v7x_xy2x2_y_m1024_d1024_f4096_f32_1_alg».proof.Proof.RejoinK
import proofs.«901046_g7700000000001047_dist_rsdw_v7x_xy2x2_y_m1024_d1024_f4096_f32_1_alg».proof.Proof.LedgerK
import proofs.«901046_g7700000000001047_dist_rsdw_v7x_xy2x2_y_m1024_d1024_f4096_f32_1_alg».proof.Proof.BodyEndsK
import proofs.«901046_g7700000000001047_dist_rsdw_v7x_xy2x2_y_m1024_d1024_f4096_f32_1_alg».proof.Proof.BodyExitK
import proofs.«901046_g7700000000001047_dist_rsdw_v7x_xy2x2_y_m1024_d1024_f4096_f32_1_alg».proof.Proof.RulesSendK
import proofs.«901046_g7700000000001047_dist_rsdw_v7x_xy2x2_y_m1024_d1024_f4096_f32_1_alg».proof.Proof.RulesWaitK
import proofs.«901046_g7700000000001047_dist_rsdw_v7x_xy2x2_y_m1024_d1024_f4096_f32_1_alg».proof.Proof.ValuesK
import Idealize.ShloMosaic.Lib.Pipeline.Launch
import Idealize.ShloMosaic.Lib.Pipeline.Kit
import Idealize.ShloMosaic.Lib.Tactic
/-! The body on a device with first mesh coordinate 0.

The device starts its eight local copies of `dy`, signals both neighbours' barrier semaphores (handing each its own receive buffer) and waits
for both. It computes, group by group, the sixteen column chunks of the product of the transposed other half of `x` with its half of `dy`
and sends each to the neighbour along the second axis; then, group by group, its own product, adding each chunk it receives and forwarding
that chunk to the neighbour along the first axis; then adds the sixteen forwarded chunks; and copies the eight column blocks of the result
out. Every step that stays on the device is run symbolically; each of the thirty-two transfers to a neighbour is the rounds discipline's
send, the source slot restated at its closed contents first. At the end every cell is closed and every buffer is whole again. -/

set_option maxRecDepth 16384

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.Tactic
local notation "𝕄" => MT nD τ sig Unit (Elt F) ℕ UU ℕ

variable (m : (ℓ : Loc nD τ sig) → Buf (Elt F) ℓ)

attribute [local sl_rounds] duties_ysend duties_yrecv duties_fsend duties_xrecv duties_bar amount_ysend amount_yrecv amount_fsend amount_xrecv amount_bar
  expect_ysend expect_yrecv expect_fsend expect_xrecv expect_bar payload_ysend payload_yrecv payload_fsend payload_xrecv
  payload_bar_false payload_bar_true
attribute [local sl_rounds high] payload_bar_false_at payload_bar_true_at
attribute [local sl_canon] dev1_eq dev2_eq dev3_eq dev4_eq dev5_eq dev6_eq dev7_eq dev8_eq dev9_eq dev10_eq dev11_eq dev12_eq dev13_eq dev14_eq dev15_eq dev16_eq dev17_eq dev18_eq dev19_eq dev20_eq dev21_eq dev22_eq dev23_eq dev24_eq dev25_eq dev26_eq dev27_eq dev28_eq dev29_eq dev30_eq dev31_eq dev32_eq dev33_eq dev34_eq
attribute [local irreducible] ynb xnb

omit [FloatOps F] in
theorem bar_rest_x0 (Sb : (c : Dev nD) → (j : Fin 16) → Buf (Elt F) ((sslot j).view.loc (c : Thread nD τ))) (Yc : (c : Dev nD) → (j : Fin 16) → Buf (Elt F) ((yslot j).view.loc (c : Thread nD τ))) (Xc : (c : Dev nD) → (j : Fin 16) → Buf (Elt F) ((xslot j).view.loc (c : Thread nD τ))) (c : Dev nD) : (bigSep Finset.univ (fun d : Bool => (xRd (F := F) Sb Yc Xc).payload (barCell c) 0 d) : sProp 𝕄)
    = iprop((∃ f, (Memref.whole cc0_scratch3 : Memref sig .tc .vmem S16x512x128 .bf16).view.loc ((ynb c) : Thread nD τ) ↦{fullShare} f) ∗ (∃ f, (Memref.whole cc0_scratch4 : Memref sig .tc .vmem S16x512x128 .bf16).view.loc ((xnb c) : Thread nD τ) ↦{fullShare} f)) := by
  have h := rest_bar (F := F) Sb Yc Xc c
  rwa [Finset.sdiff_empty, duties_bar] at h

set_option maxHeartbeats 0 in
theorem body_x0 (c : Dev nD) (hx0 : c.val / 2 = 0) : BodySpec m (SbV (chunk m)) (YcV (chunk m)) (XcV (chunk m)) (fun _ _ => True) c := by
  intro K W f3 f4 f5 f6 f7 Kt
  unfold ghost creds locals0 posOwn payToks
  iintro ⟨⟨#HIown, #HIpeer, #HR, ⟨Ab, Apos⟩, ⟨Tby, Tbx, Ttoks⟩⟩, ⟨Cb, Ccr⟩, #Hlev, ⟨Lc0, Lc1, Lc2, Lc3, Lc4, Lc5, Lc6, Lc7, Lo0, Lo1, Lo2, Lo3, Lo4, Lo5, Lo6, Lo7⟩, HO, Hx, H1, Ho, H3, H4, H5, Hy, Hxr, Hk⟩
  ihave #HIb := (invsOwn_bar (SbV (chunk m)) (YcV (chunk m)) (XcV (chunk m)) K c) $$ HIown
  ihave #HPby := (invsPeer_by (SbV (chunk m)) (YcV (chunk m)) (XcV (chunk m)) K c) $$ HIpeer
  ihave #HPbx := (invsPeer_bx (SbV (chunk m)) (YcV (chunk m)) (XcV (chunk m)) K c) $$ HIpeer
  ihave #Rby := (reachedAll_by (F := F) c) $$ HR
  ihave #Rbx := (reachedAll_bx (F := F) c) $$ HR
  unfold O₀
  have hmw : ∀ (sm : SemLoc sig) (O : CellTallies nD τ sig Unit), Below c sm O → ((levAts L lv : sProp 𝕄) ⊢ MayWait (c : Thread nD τ) sm () O) := fun sm O h => mayWait_below c sm O h
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  -- the barrier's payloads: the two neighbours' receive buffers
  ihave Hp := (Entails.of_eq (bar_rest_x0 (SbV (chunk m)) (YcV (chunk m)) (XcV (chunk m)) c)) $$ Ab_pay1
  icases Hp with ⟨⟨%fyn, Hyn⟩, ⟨%fxn, Hxn⟩⟩
  -- the three slotted buffers, slot by slot
  ihave Hs := (sslots_split c _) $$ H5
  icases Hs with ⟨Hs0, Hs1, Hs2, Hs3, Hs4, Hs5, Hs6, Hs7, Hs8, Hs9, Hs10, Hs11, Hs12, Hs13, Hs14, Hs15⟩
  ihave Hd := (yslots_split (ynb c) fyn) $$ Hyn
  icases Hd with ⟨Hyn0, Hyn1, Hyn2, Hyn3, Hyn4, Hyn5, Hyn6, Hyn7, Hyn8, Hyn9, Hyn10, Hyn11, Hyn12, Hyn13, Hyn14, Hyn15⟩
  ihave He := (xslots_split (xnb c) fxn) $$ Hxn
  icases He with ⟨Hxn0, Hxn1, Hxn2, Hxn3, Hxn4, Hxn5, Hxn6, Hxn7, Hxn8, Hxn9, Hxn10, Hxn11, Hxn12, Hxn13, Hxn14, Hxn15⟩
  icases Ttoks with ⟨Ts0, Ty0, Ts1, Ty1, Ts2, Ty2, Ts3, Ty3, Ttoks⟩
  ihave Hr0 := (restate_lo_x0 (F := F) m c hx0 0 (by decide) fullShare f5) $$ [Hs0]
  · iexact Hs0
  iapply (wp_send_y (F := F) (SbV (chunk m)) (YcV (chunk m)) (XcV (chunk m)) K c _ (dev3_eq c) 0 _ _ _ _ (fun _ _ => rfl) (land_y_eq (chunk m) c 0 _)) $$ [Hr0 Hyn0 HO Ts0 Ty0]
  · isplitr; · iexact HIown
    isplitr; · iexact HIpeer
    isplitr; · iexact HR
    isplitl [Hr0]; · iexact Hr0
    isplitl [Hyn0]; · iexact Hyn0
    isplitl [HO]; · iexact HO
    isplitl [Ts0]; · iexact Ts0
    iexact Ty0
  iintro ⟨Cs0, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr1 := (restate_lo_x0 (F := F) m c hx0 1 (by decide) fullShare f5) $$ [Hs1]
  · iexact Hs1
  iapply (wp_send_y (F := F) (SbV (chunk m)) (YcV (chunk m)) (XcV (chunk m)) K c _ (dev4_eq c) 1 _ _ _ _ (fun _ _ => rfl) (land_y_eq (chunk m) c 1 _)) $$ [Hr1 Hyn1 HO Ts1 Ty1]
  · isplitr; · iexact HIown
    isplitr; · iexact HIpeer
    isplitr; · iexact HR
    isplitl [Hr1]; · iexact Hr1
    isplitl [Hyn1]; · iexact Hyn1
    isplitl [HO]; · iexact HO
    isplitl [Ts1]; · iexact Ts1
    iexact Ty1
  iintro ⟨Cs1, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr2 := (restate_lo_x0 (F := F) m c hx0 2 (by decide) fullShare f5) $$ [Hs2]
  · iexact Hs2
  iapply (wp_send_y (F := F) (SbV (chunk m)) (YcV (chunk m)) (XcV (chunk m)) K c _ (dev5_eq c) 2 _ _ _ _ (fun _ _ => rfl) (land_y_eq (chunk m) c 2 _)) $$ [Hr2 Hyn2 HO Ts2 Ty2]
  · isplitr; · iexact HIown
    isplitr; · iexact HIpeer
    isplitr; · iexact HR
    isplitl [Hr2]; · iexact Hr2
    isplitl [Hyn2]; · iexact Hyn2
    isplitl [HO]; · iexact HO
    isplitl [Ts2]; · iexact Ts2
    iexact Ty2
  iintro ⟨Cs2, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr3 := (restate_lo_x0 (F := F) m c hx0 3 (by decide) fullShare f5) $$ [Hs3]
  · iexact Hs3
  iapply (wp_send_y (F := F) (SbV (chunk m)) (YcV (chunk m)) (XcV (chunk m)) K c _ (dev6_eq c) 3 _ _ _ _ (fun _ _ => rfl) (land_y_eq (chunk m) c 3 _)) $$ [Hr3 Hyn3 HO Ts3 Ty3]
  · isplitr; · iexact HIown
    isplitr; · iexact HIpeer
    isplitr; · iexact HR
    isplitl [Hr3]; · iexact Hr3
    isplitl [Hyn3]; · iexact Hyn3
    isplitl [HO]; · iexact HO
    isplitl [Ts3]; · iexact Ts3
    iexact Ty3
  iintro ⟨Cs3, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  icases Ttoks with ⟨Ts4, Ty4, Ts5, Ty5, Ts6, Ty6, Ts7, Ty7, Ttoks⟩
  ihave Hr4 := (restate_hi_x0 (F := F) m c hx0 4 (by decide) fullShare f5) $$ [Hs4]
  · iexact Hs4
  iapply (wp_send_y (F := F) (SbV (chunk m)) (YcV (chunk m)) (XcV (chunk m)) K c _ (dev7_eq c) 4 _ _ _ _ (fun _ _ => rfl) (land_y_eq (chunk m) c 4 _)) $$ [Hr4 Hyn4 HO Ts4 Ty4]
  · isplitr; · iexact HIown
    isplitr; · iexact HIpeer
    isplitr; · iexact HR
    isplitl [Hr4]; · iexact Hr4
    isplitl [Hyn4]; · iexact Hyn4
    isplitl [HO]; · iexact HO
    isplitl [Ts4]; · iexact Ts4
    iexact Ty4
  iintro ⟨Cs4, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr5 := (restate_hi_x0 (F := F) m c hx0 5 (by decide) fullShare f5) $$ [Hs5]
  · iexact Hs5
  iapply (wp_send_y (F := F) (SbV (chunk m)) (YcV (chunk m)) (XcV (chunk m)) K c _ (dev8_eq c) 5 _ _ _ _ (fun _ _ => rfl) (land_y_eq (chunk m) c 5 _)) $$ [Hr5 Hyn5 HO Ts5 Ty5]
  · isplitr; · iexact HIown
    isplitr; · iexact HIpeer
    isplitr; · iexact HR
    isplitl [Hr5]; · iexact Hr5
    isplitl [Hyn5]; · iexact Hyn5
    isplitl [HO]; · iexact HO
    isplitl [Ts5]; · iexact Ts5
    iexact Ty5
  iintro ⟨Cs5, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr6 := (restate_hi_x0 (F := F) m c hx0 6 (by decide) fullShare f5) $$ [Hs6]
  · iexact Hs6
  iapply (wp_send_y (F := F) (SbV (chunk m)) (YcV (chunk m)) (XcV (chunk m)) K c _ (dev9_eq c) 6 _ _ _ _ (fun _ _ => rfl) (land_y_eq (chunk m) c 6 _)) $$ [Hr6 Hyn6 HO Ts6 Ty6]
  · isplitr; · iexact HIown
    isplitr; · iexact HIpeer
    isplitr; · iexact HR
    isplitl [Hr6]; · iexact Hr6
    isplitl [Hyn6]; · iexact Hyn6
    isplitl [HO]; · iexact HO
    isplitl [Ts6]; · iexact Ts6
    iexact Ty6
  iintro ⟨Cs6, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr7 := (restate_hi_x0 (F := F) m c hx0 7 (by decide) fullShare f5) $$ [Hs7]
  · iexact Hs7
  iapply (wp_send_y (F := F) (SbV (chunk m)) (YcV (chunk m)) (XcV (chunk m)) K c _ (dev10_eq c) 7 _ _ _ _ (fun _ _ => rfl) (land_y_eq (chunk m) c 7 _)) $$ [Hr7 Hyn7 HO Ts7 Ty7]
  · isplitr; · iexact HIown
    isplitr; · iexact HIpeer
    isplitr; · iexact HR
    isplitl [Hr7]; · iexact Hr7
    isplitl [Hyn7]; · iexact Hyn7
    isplitl [HO]; · iexact HO
    isplitl [Ts7]; · iexact Ts7
    iexact Ty7
  iintro ⟨Cs7, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  icases Ttoks with ⟨Ts8, Ty8, Ts9, Ty9, Ts10, Ty10, Ts11, Ty11, Ttoks⟩
  ihave Hr8 := (restate_hi_x0 (F := F) m c hx0 8 (by decide) fullShare f5) $$ [Hs8]
  · iexact Hs8
  iapply (wp_send_y (F := F) (SbV (chunk m)) (YcV (chunk m)) (XcV (chunk m)) K c _ (dev11_eq c) 8 _ _ _ _ (fun _ _ => rfl) (land_y_eq (chunk m) c 8 _)) $$ [Hr8 Hyn8 HO Ts8 Ty8]
  · isplitr; · iexact HIown
    isplitr; · iexact HIpeer
    isplitr; · iexact HR
    isplitl [Hr8]; · iexact Hr8
    isplitl [Hyn8]; · iexact Hyn8
    isplitl [HO]; · iexact HO
    isplitl [Ts8]; · iexact Ts8
    iexact Ty8
  iintro ⟨Cs8, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr9 := (restate_hi_x0 (F := F) m c hx0 9 (by decide) fullShare f5) $$ [Hs9]
  · iexact Hs9
  iapply (wp_send_y (F := F) (SbV (chunk m)) (YcV (chunk m)) (XcV (chunk m)) K c _ (dev12_eq c) 9 _ _ _ _ (fun _ _ => rfl) (land_y_eq (chunk m) c 9 _)) $$ [Hr9 Hyn9 HO Ts9 Ty9]
  · isplitr; · iexact HIown
    isplitr; · iexact HIpeer
    isplitr; · iexact HR
    isplitl [Hr9]; · iexact Hr9
    isplitl [Hyn9]; · iexact Hyn9
    isplitl [HO]; · iexact HO
    isplitl [Ts9]; · iexact Ts9
    iexact Ty9
  iintro ⟨Cs9, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr10 := (restate_hi_x0 (F := F) m c hx0 10 (by decide) fullShare f5) $$ [Hs10]
  · iexact Hs10
  iapply (wp_send_y (F := F) (SbV (chunk m)) (YcV (chunk m)) (XcV (chunk m)) K c _ (dev13_eq c) 10 _ _ _ _ (fun _ _ => rfl) (land_y_eq (chunk m) c 10 _)) $$ [Hr10 Hyn10 HO Ts10 Ty10]
  · isplitr; · iexact HIown
    isplitr; · iexact HIpeer
    isplitr; · iexact HR
    isplitl [Hr10]; · iexact Hr10
    isplitl [Hyn10]; · iexact Hyn10
    isplitl [HO]; · iexact HO
    isplitl [Ts10]; · iexact Ts10
    iexact Ty10
  iintro ⟨Cs10, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr11 := (restate_hi_x0 (F := F) m c hx0 11 (by decide) fullShare f5) $$ [Hs11]
  · iexact Hs11
  iapply (wp_send_y (F := F) (SbV (chunk m)) (YcV (chunk m)) (XcV (chunk m)) K c _ (dev14_eq c) 11 _ _ _ _ (fun _ _ => rfl) (land_y_eq (chunk m) c 11 _)) $$ [Hr11 Hyn11 HO Ts11 Ty11]
  · isplitr; · iexact HIown
    isplitr; · iexact HIpeer
    isplitr; · iexact HR
    isplitl [Hr11]; · iexact Hr11
    isplitl [Hyn11]; · iexact Hyn11
    isplitl [HO]; · iexact HO
    isplitl [Ts11]; · iexact Ts11
    iexact Ty11
  iintro ⟨Cs11, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  icases Ttoks with ⟨Ts12, Ty12, Ts13, Ty13, Ts14, Ty14, Ts15, Ty15, Ttoks⟩
  ihave Hr12 := (restate_hi_x0 (F := F) m c hx0 12 (by decide) fullShare f5) $$ [Hs12]
  · iexact Hs12
  iapply (wp_send_y (F := F) (SbV (chunk m)) (YcV (chunk m)) (XcV (chunk m)) K c _ (dev15_eq c) 12 _ _ _ _ (fun _ _ => rfl) (land_y_eq (chunk m) c 12 _)) $$ [Hr12 Hyn12 HO Ts12 Ty12]
  · isplitr; · iexact HIown
    isplitr; · iexact HIpeer
    isplitr; · iexact HR
    isplitl [Hr12]; · iexact Hr12
    isplitl [Hyn12]; · iexact Hyn12
    isplitl [HO]; · iexact HO
    isplitl [Ts12]; · iexact Ts12
    iexact Ty12
  iintro ⟨Cs12, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr13 := (restate_hi_x0 (F := F) m c hx0 13 (by decide) fullShare f5) $$ [Hs13]
  · iexact Hs13
  iapply (wp_send_y (F := F) (SbV (chunk m)) (YcV (chunk m)) (XcV (chunk m)) K c _ (dev16_eq c) 13 _ _ _ _ (fun _ _ => rfl) (land_y_eq (chunk m) c 13 _)) $$ [Hr13 Hyn13 HO Ts13 Ty13]
  · isplitr; · iexact HIown
    isplitr; · iexact HIpeer
    isplitr; · iexact HR
    isplitl [Hr13]; · iexact Hr13
    isplitl [Hyn13]; · iexact Hyn13
    isplitl [HO]; · iexact HO
    isplitl [Ts13]; · iexact Ts13
    iexact Ty13
  iintro ⟨Cs13, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr14 := (restate_hi_x0 (F := F) m c hx0 14 (by decide) fullShare f5) $$ [Hs14]
  · iexact Hs14
  iapply (wp_send_y (F := F) (SbV (chunk m)) (YcV (chunk m)) (XcV (chunk m)) K c _ (dev17_eq c) 14 _ _ _ _ (fun _ _ => rfl) (land_y_eq (chunk m) c 14 _)) $$ [Hr14 Hyn14 HO Ts14 Ty14]
  · isplitr; · iexact HIown
    isplitr; · iexact HIpeer
    isplitr; · iexact HR
    isplitl [Hr14]; · iexact Hr14
    isplitl [Hyn14]; · iexact Hyn14
    isplitl [HO]; · iexact HO
    isplitl [Ts14]; · iexact Ts14
    iexact Ty14
  iintro ⟨Cs14, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr15 := (restate_hi_x0 (F := F) m c hx0 15 (by decide) fullShare f5) $$ [Hs15]
  · iexact Hs15
  iapply (wp_send_y (F := F) (SbV (chunk m)) (YcV (chunk m)) (XcV (chunk m)) K c _ (dev18_eq c) 15 _ _ _ _ (fun _ _ => rfl) (land_y_eq (chunk m) c 15 _)) $$ [Hr15 Hyn15 HO Ts15 Ty15]
  · isplitr; · iexact HIown
    isplitr; · iexact HIpeer
    isplitr; · iexact HR
    isplitl [Hr15]; · iexact Hr15
    isplitl [Hyn15]; · iexact Hyn15
    isplitl [HO]; · iexact HO
    isplitl [Ts15]; · iexact Ts15
    iexact Ty15
  iintro ⟨Cs15, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave #HI1_0 := (invsOwn_yrecv (SbV (chunk m)) (YcV (chunk m)) (XcV (chunk m)) K c 0) $$ HIown
  ihave #HI1_1 := (invsOwn_yrecv (SbV (chunk m)) (YcV (chunk m)) (XcV (chunk m)) K c 1) $$ HIown
  ihave #HI1_2 := (invsOwn_yrecv (SbV (chunk m)) (YcV (chunk m)) (XcV (chunk m)) K c 2) $$ HIown
  ihave #HI1_3 := (invsOwn_yrecv (SbV (chunk m)) (YcV (chunk m)) (XcV (chunk m)) K c 3) $$ HIown
  icases Apos with ⟨A1_0, A1_1, A1_2, A1_3, Apos⟩
  icases Ccr with ⟨Cy0, Cy1, Cy2, Cy3, Ccr⟩
  icases Ttoks with ⟨Tf0, Tx0, Tf1, Tx1, Tf2, Tx2, Tf3, Tx3, Ttoks⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh0 := ((yslot_halves (F := F) c 0 _).1) $$ A1_0_pay1
  icases Hh0 with ⟨Hyl0, Hyr0⟩
  iapply (wp_send_f (F := F) (SbV (chunk m)) (YcV (chunk m)) (XcV (chunk m)) K c _ (dev19_eq c) 0 _ _ _ _ (fun _ _ => rfl) (land_f_eq (chunk m) c 0 _)) $$ [Hyl0 Hxn0 HO Tf0 Tx0]
  · isplitr; · iexact HIown
    isplitr; · iexact HIpeer
    isplitr; · iexact HR
    isplitl [Hyl0]; · iexact Hyl0
    isplitl [Hxn0]; · iexact Hxn0
    isplitl [HO]; · iexact HO
    isplitl [Tf0]; · iexact Tf0
    iexact Tx0
  iintro ⟨Cf0, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh1 := ((yslot_halves (F := F) c 1 _).1) $$ A1_1_pay1
  icases Hh1 with ⟨Hyl1, Hyr1⟩
  iapply (wp_send_f (F := F) (SbV (chunk m)) (YcV (chunk m)) (XcV (chunk m)) K c _ (dev20_eq c) 1 _ _ _ _ (fun _ _ => rfl) (land_f_eq (chunk m) c 1 _)) $$ [Hyl1 Hxn1 HO Tf1 Tx1]
  · isplitr; · iexact HIown
    isplitr; · iexact HIpeer
    isplitr; · iexact HR
    isplitl [Hyl1]; · iexact Hyl1
    isplitl [Hxn1]; · iexact Hxn1
    isplitl [HO]; · iexact HO
    isplitl [Tf1]; · iexact Tf1
    iexact Tx1
  iintro ⟨Cf1, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh2 := ((yslot_halves (F := F) c 2 _).1) $$ A1_2_pay1
  icases Hh2 with ⟨Hyl2, Hyr2⟩
  iapply (wp_send_f (F := F) (SbV (chunk m)) (YcV (chunk m)) (XcV (chunk m)) K c _ (dev21_eq c) 2 _ _ _ _ (fun _ _ => rfl) (land_f_eq (chunk m) c 2 _)) $$ [Hyl2 Hxn2 HO Tf2 Tx2]
  · isplitr; · iexact HIown
    isplitr; · iexact HIpeer
    isplitr; · iexact HR
    isplitl [Hyl2]; · iexact Hyl2
    isplitl [Hxn2]; · iexact Hxn2
    isplitl [HO]; · iexact HO
    isplitl [Tf2]; · iexact Tf2
    iexact Tx2
  iintro ⟨Cf2, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh3 := ((yslot_halves (F := F) c 3 _).1) $$ A1_3_pay1
  icases Hh3 with ⟨Hyl3, Hyr3⟩
  iapply (wp_send_f (F := F) (SbV (chunk m)) (YcV (chunk m)) (XcV (chunk m)) K c _ (dev22_eq c) 3 _ _ _ _ (fun _ _ => rfl) (land_f_eq (chunk m) c 3 _)) $$ [Hyl3 Hxn3 HO Tf3 Tx3]
  · isplitr; · iexact HIown
    isplitr; · iexact HIpeer
    isplitr; · iexact HR
    isplitl [Hyl3]; · iexact Hyl3
    isplitl [Hxn3]; · iexact Hxn3
    isplitl [HO]; · iexact HO
    isplitl [Tf3]; · iexact Tf3
    iexact Tx3
  iintro ⟨Cf3, HO⟩
  iclear HI1_0
  iclear HI1_1
  iclear HI1_2
  iclear HI1_3
  ihave #HI1_4 := (invsOwn_yrecv (SbV (chunk m)) (YcV (chunk m)) (XcV (chunk m)) K c 4) $$ HIown
  ihave #HI1_5 := (invsOwn_yrecv (SbV (chunk m)) (YcV (chunk m)) (XcV (chunk m)) K c 5) $$ HIown
  ihave #HI1_6 := (invsOwn_yrecv (SbV (chunk m)) (YcV (chunk m)) (XcV (chunk m)) K c 6) $$ HIown
  ihave #HI1_7 := (invsOwn_yrecv (SbV (chunk m)) (YcV (chunk m)) (XcV (chunk m)) K c 7) $$ HIown
  icases Apos with ⟨A1_4, A1_5, A1_6, A1_7, Apos⟩
  icases Ccr with ⟨Cy4, Cy5, Cy6, Cy7, Ccr⟩
  icases Ttoks with ⟨Tf4, Tx4, Tf5, Tx5, Tf6, Tx6, Tf7, Tx7, Ttoks⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh4 := ((yslot_halves (F := F) c 4 _).1) $$ A1_4_pay1
  icases Hh4 with ⟨Hyl4, Hyr4⟩
  iapply (wp_send_f (F := F) (SbV (chunk m)) (YcV (chunk m)) (XcV (chunk m)) K c _ (dev23_eq c) 4 _ _ _ _ (fun _ _ => rfl) (land_f_eq (chunk m) c 4 _)) $$ [Hyl4 Hxn4 HO Tf4 Tx4]
  · isplitr; · iexact HIown
    isplitr; · iexact HIpeer
    isplitr; · iexact HR
    isplitl [Hyl4]; · iexact Hyl4
    isplitl [Hxn4]; · iexact Hxn4
    isplitl [HO]; · iexact HO
    isplitl [Tf4]; · iexact Tf4
    iexact Tx4
  iintro ⟨Cf4, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh5 := ((yslot_halves (F := F) c 5 _).1) $$ A1_5_pay1
  icases Hh5 with ⟨Hyl5, Hyr5⟩
  iapply (wp_send_f (F := F) (SbV (chunk m)) (YcV (chunk m)) (XcV (chunk m)) K c _ (dev24_eq c) 5 _ _ _ _ (fun _ _ => rfl) (land_f_eq (chunk m) c 5 _)) $$ [Hyl5 Hxn5 HO Tf5 Tx5]
  · isplitr; · iexact HIown
    isplitr; · iexact HIpeer
    isplitr; · iexact HR
    isplitl [Hyl5]; · iexact Hyl5
    isplitl [Hxn5]; · iexact Hxn5
    isplitl [HO]; · iexact HO
    isplitl [Tf5]; · iexact Tf5
    iexact Tx5
  iintro ⟨Cf5, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh6 := ((yslot_halves (F := F) c 6 _).1) $$ A1_6_pay1
  icases Hh6 with ⟨Hyl6, Hyr6⟩
  iapply (wp_send_f (F := F) (SbV (chunk m)) (YcV (chunk m)) (XcV (chunk m)) K c _ (dev25_eq c) 6 _ _ _ _ (fun _ _ => rfl) (land_f_eq (chunk m) c 6 _)) $$ [Hyl6 Hxn6 HO Tf6 Tx6]
  · isplitr; · iexact HIown
    isplitr; · iexact HIpeer
    isplitr; · iexact HR
    isplitl [Hyl6]; · iexact Hyl6
    isplitl [Hxn6]; · iexact Hxn6
    isplitl [HO]; · iexact HO
    isplitl [Tf6]; · iexact Tf6
    iexact Tx6
  iintro ⟨Cf6, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh7 := ((yslot_halves (F := F) c 7 _).1) $$ A1_7_pay1
  icases Hh7 with ⟨Hyl7, Hyr7⟩
  iapply (wp_send_f (F := F) (SbV (chunk m)) (YcV (chunk m)) (XcV (chunk m)) K c _ (dev26_eq c) 7 _ _ _ _ (fun _ _ => rfl) (land_f_eq (chunk m) c 7 _)) $$ [Hyl7 Hxn7 HO Tf7 Tx7]
  · isplitr; · iexact HIown
    isplitr; · iexact HIpeer
    isplitr; · iexact HR
    isplitl [Hyl7]; · iexact Hyl7
    isplitl [Hxn7]; · iexact Hxn7
    isplitl [HO]; · iexact HO
    isplitl [Tf7]; · iexact Tf7
    iexact Tx7
  iintro ⟨Cf7, HO⟩
  iclear HI1_4
  iclear HI1_5
  iclear HI1_6
  iclear HI1_7
  ihave #HI1_8 := (invsOwn_yrecv (SbV (chunk m)) (YcV (chunk m)) (XcV (chunk m)) K c 8) $$ HIown
  ihave #HI1_9 := (invsOwn_yrecv (SbV (chunk m)) (YcV (chunk m)) (XcV (chunk m)) K c 9) $$ HIown
  ihave #HI1_10 := (invsOwn_yrecv (SbV (chunk m)) (YcV (chunk m)) (XcV (chunk m)) K c 10) $$ HIown
  ihave #HI1_11 := (invsOwn_yrecv (SbV (chunk m)) (YcV (chunk m)) (XcV (chunk m)) K c 11) $$ HIown
  icases Apos with ⟨A1_8, A1_9, A1_10, A1_11, Apos⟩
  icases Ccr with ⟨Cy8, Cy9, Cy10, Cy11, Ccr⟩
  icases Ttoks with ⟨Tf8, Tx8, Tf9, Tx9, Tf10, Tx10, Tf11, Tx11, Ttoks⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh8 := ((yslot_halves (F := F) c 8 _).1) $$ A1_8_pay1
  icases Hh8 with ⟨Hyl8, Hyr8⟩
  iapply (wp_send_f (F := F) (SbV (chunk m)) (YcV (chunk m)) (XcV (chunk m)) K c _ (dev27_eq c) 8 _ _ _ _ (fun _ _ => rfl) (land_f_eq (chunk m) c 8 _)) $$ [Hyl8 Hxn8 HO Tf8 Tx8]
  · isplitr; · iexact HIown
    isplitr; · iexact HIpeer
    isplitr; · iexact HR
    isplitl [Hyl8]; · iexact Hyl8
    isplitl [Hxn8]; · iexact Hxn8
    isplitl [HO]; · iexact HO
    isplitl [Tf8]; · iexact Tf8
    iexact Tx8
  iintro ⟨Cf8, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh9 := ((yslot_halves (F := F) c 9 _).1) $$ A1_9_pay1
  icases Hh9 with ⟨Hyl9, Hyr9⟩
  iapply (wp_send_f (F := F) (SbV (chunk m)) (YcV (chunk m)) (XcV (chunk m)) K c _ (dev28_eq c) 9 _ _ _ _ (fun _ _ => rfl) (land_f_eq (chunk m) c 9 _)) $$ [Hyl9 Hxn9 HO Tf9 Tx9]
  · isplitr; · iexact HIown
    isplitr; · iexact HIpeer
    isplitr; · iexact HR
    isplitl [Hyl9]; · iexact Hyl9
    isplitl [Hxn9]; · iexact Hxn9
    isplitl [HO]; · iexact HO
    isplitl [Tf9]; · iexact Tf9
    iexact Tx9
  iintro ⟨Cf9, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh10 := ((yslot_halves (F := F) c 10 _).1) $$ A1_10_pay1
  icases Hh10 with ⟨Hyl10, Hyr10⟩
  iapply (wp_send_f (F := F) (SbV (chunk m)) (YcV (chunk m)) (XcV (chunk m)) K c _ (dev29_eq c) 10 _ _ _ _ (fun _ _ => rfl) (land_f_eq (chunk m) c 10 _)) $$ [Hyl10 Hxn10 HO Tf10 Tx10]
  · isplitr; · iexact HIown
    isplitr; · iexact HIpeer
    isplitr; · iexact HR
    isplitl [Hyl10]; · iexact Hyl10
    isplitl [Hxn10]; · iexact Hxn10
    isplitl [HO]; · iexact HO
    isplitl [Tf10]; · iexact Tf10
    iexact Tx10
  iintro ⟨Cf10, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh11 := ((yslot_halves (F := F) c 11 _).1) $$ A1_11_pay1
  icases Hh11 with ⟨Hyl11, Hyr11⟩
  iapply (wp_send_f (F := F) (SbV (chunk m)) (YcV (chunk m)) (XcV (chunk m)) K c _ (dev30_eq c) 11 _ _ _ _ (fun _ _ => rfl) (land_f_eq (chunk m) c 11 _)) $$ [Hyl11 Hxn11 HO Tf11 Tx11]
  · isplitr; · iexact HIown
    isplitr; · iexact HIpeer
    isplitr; · iexact HR
    isplitl [Hyl11]; · iexact Hyl11
    isplitl [Hxn11]; · iexact Hxn11
    isplitl [HO]; · iexact HO
    isplitl [Tf11]; · iexact Tf11
    iexact Tx11
  iintro ⟨Cf11, HO⟩
  iclear HI1_8
  iclear HI1_9
  iclear HI1_10
  iclear HI1_11
  ihave #HI1_12 := (invsOwn_yrecv (SbV (chunk m)) (YcV (chunk m)) (XcV (chunk m)) K c 12) $$ HIown
  ihave #HI1_13 := (invsOwn_yrecv (SbV (chunk m)) (YcV (chunk m)) (XcV (chunk m)) K c 13) $$ HIown
  ihave #HI1_14 := (invsOwn_yrecv (SbV (chunk m)) (YcV (chunk m)) (XcV (chunk m)) K c 14) $$ HIown
  ihave #HI1_15 := (invsOwn_yrecv (SbV (chunk m)) (YcV (chunk m)) (XcV (chunk m)) K c 15) $$ HIown
  icases Apos with ⟨A1_12, A1_13, A1_14, A1_15, Apos⟩
  icases Ccr with ⟨Cy12, Cy13, Cy14, Cy15, Ccr⟩
  icases Ttoks with ⟨Tf12, Tx12, Tf13, Tx13, Tf14, Tx14, Tf15, Tx15⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh12 := ((yslot_halves (F := F) c 12 _).1) $$ A1_12_pay1
  icases Hh12 with ⟨Hyl12, Hyr12⟩
  iapply (wp_send_f (F := F) (SbV (chunk m)) (YcV (chunk m)) (XcV (chunk m)) K c _ (dev31_eq c) 12 _ _ _ _ (fun _ _ => rfl) (land_f_eq (chunk m) c 12 _)) $$ [Hyl12 Hxn12 HO Tf12 Tx12]
  · isplitr; · iexact HIown
    isplitr; · iexact HIpeer
    isplitr; · iexact HR
    isplitl [Hyl12]; · iexact Hyl12
    isplitl [Hxn12]; · iexact Hxn12
    isplitl [HO]; · iexact HO
    isplitl [Tf12]; · iexact Tf12
    iexact Tx12
  iintro ⟨Cf12, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh13 := ((yslot_halves (F := F) c 13 _).1) $$ A1_13_pay1
  icases Hh13 with ⟨Hyl13, Hyr13⟩
  iapply (wp_send_f (F := F) (SbV (chunk m)) (YcV (chunk m)) (XcV (chunk m)) K c _ (dev32_eq c) 13 _ _ _ _ (fun _ _ => rfl) (land_f_eq (chunk m) c 13 _)) $$ [Hyl13 Hxn13 HO Tf13 Tx13]
  · isplitr; · iexact HIown
    isplitr; · iexact HIpeer
    isplitr; · iexact HR
    isplitl [Hyl13]; · iexact Hyl13
    isplitl [Hxn13]; · iexact Hxn13
    isplitl [HO]; · iexact HO
    isplitl [Tf13]; · iexact Tf13
    iexact Tx13
  iintro ⟨Cf13, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh14 := ((yslot_halves (F := F) c 14 _).1) $$ A1_14_pay1
  icases Hh14 with ⟨Hyl14, Hyr14⟩
  iapply (wp_send_f (F := F) (SbV (chunk m)) (YcV (chunk m)) (XcV (chunk m)) K c _ (dev33_eq c) 14 _ _ _ _ (fun _ _ => rfl) (land_f_eq (chunk m) c 14 _)) $$ [Hyl14 Hxn14 HO Tf14 Tx14]
  · isplitr; · iexact HIown
    isplitr; · iexact HIpeer
    isplitr; · iexact HR
    isplitl [Hyl14]; · iexact Hyl14
    isplitl [Hxn14]; · iexact Hxn14
    isplitl [HO]; · iexact HO
    isplitl [Tf14]; · iexact Tf14
    iexact Tx14
  iintro ⟨Cf14, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh15 := ((yslot_halves (F := F) c 15 _).1) $$ A1_15_pay1
  icases Hh15 with ⟨Hyl15, Hyr15⟩
  ihave HO := (Entails.of_eq (congrArg (fun O => (owes (c : Thread nD τ) O _ : sProp 𝕄)) (zero_add (tallyAt (xrecvCell (xnb c) 15) () N)).symm)) $$ HO
  iapply (wp_send_f (F := F) (SbV (chunk m)) (YcV (chunk m)) (XcV (chunk m)) K c _ (dev34_eq c) 15 _ _ _ _ (fun _ _ => rfl) (land_f_eq (chunk m) c 15 _)) $$ [Hyl15 Hxn15 HO Tf15 Tx15]
  · isplitr; · iexact HIown
    isplitr; · iexact HIpeer
    isplitr; · iexact HR
    isplitl [Hyl15]; · iexact Hyl15
    isplitl [Hxn15]; · iexact Hxn15
    isplitl [HO]; · iexact HO
    isplitl [Tf15]; · iexact Tf15
    iexact Tx15
  iintro ⟨Cf15, HO⟩
  iclear HI1_12
  iclear HI1_13
  iclear HI1_14
  iclear HI1_15
  ihave #HI3_0 := (invsOwn_xrecv (SbV (chunk m)) (YcV (chunk m)) (XcV (chunk m)) K c 0) $$ HIown
  ihave #HI3_1 := (invsOwn_xrecv (SbV (chunk m)) (YcV (chunk m)) (XcV (chunk m)) K c 1) $$ HIown
  ihave #HI3_2 := (invsOwn_xrecv (SbV (chunk m)) (YcV (chunk m)) (XcV (chunk m)) K c 2) $$ HIown
  ihave #HI3_3 := (invsOwn_xrecv (SbV (chunk m)) (YcV (chunk m)) (XcV (chunk m)) K c 3) $$ HIown
  icases Apos with ⟨A3_0, A3_1, A3_2, A3_3, Apos⟩
  icases Ccr with ⟨Cx0, Cx1, Cx2, Cx3, Ccr⟩
  ihave #HI3_4 := (invsOwn_xrecv (SbV (chunk m)) (YcV (chunk m)) (XcV (chunk m)) K c 4) $$ HIown
  ihave #HI3_5 := (invsOwn_xrecv (SbV (chunk m)) (YcV (chunk m)) (XcV (chunk m)) K c 5) $$ HIown
  ihave #HI3_6 := (invsOwn_xrecv (SbV (chunk m)) (YcV (chunk m)) (XcV (chunk m)) K c 6) $$ HIown
  ihave #HI3_7 := (invsOwn_xrecv (SbV (chunk m)) (YcV (chunk m)) (XcV (chunk m)) K c 7) $$ HIown
  icases Apos with ⟨A3_4, A3_5, A3_6, A3_7, Apos⟩
  icases Ccr with ⟨Cx4, Cx5, Cx6, Cx7, Ccr⟩
  ihave #HI3_8 := (invsOwn_xrecv (SbV (chunk m)) (YcV (chunk m)) (XcV (chunk m)) K c 8) $$ HIown
  ihave #HI3_9 := (invsOwn_xrecv (SbV (chunk m)) (YcV (chunk m)) (XcV (chunk m)) K c 9) $$ HIown
  ihave #HI3_10 := (invsOwn_xrecv (SbV (chunk m)) (YcV (chunk m)) (XcV (chunk m)) K c 10) $$ HIown
  ihave #HI3_11 := (invsOwn_xrecv (SbV (chunk m)) (YcV (chunk m)) (XcV (chunk m)) K c 11) $$ HIown
  icases Apos with ⟨A3_8, A3_9, A3_10, A3_11, Apos⟩
  icases Ccr with ⟨Cx8, Cx9, Cx10, Cx11, Ccr⟩
  ihave #HI3_12 := (invsOwn_xrecv (SbV (chunk m)) (YcV (chunk m)) (XcV (chunk m)) K c 12) $$ HIown
  ihave #HI3_13 := (invsOwn_xrecv (SbV (chunk m)) (YcV (chunk m)) (XcV (chunk m)) K c 13) $$ HIown
  ihave #HI3_14 := (invsOwn_xrecv (SbV (chunk m)) (YcV (chunk m)) (XcV (chunk m)) K c 14) $$ HIown
  ihave #HI3_15 := (invsOwn_xrecv (SbV (chunk m)) (YcV (chunk m)) (XcV (chunk m)) K c 15) $$ HIown
  icases Apos with ⟨A3_12, A3_13, A3_14, A3_15, Apos⟩
  icases Ccr with ⟨Cx12, Cx13, Cx14, Cx15⟩
  ihave #HI0_0 := (invsOwn_ysend (SbV (chunk m)) (YcV (chunk m)) (XcV (chunk m)) K c 0) $$ HIown
  ihave #HI2_0 := (invsOwn_fsend (SbV (chunk m)) (YcV (chunk m)) (XcV (chunk m)) K c 0) $$ HIown
  ihave #HI0_1 := (invsOwn_ysend (SbV (chunk m)) (YcV (chunk m)) (XcV (chunk m)) K c 1) $$ HIown
  ihave #HI2_1 := (invsOwn_fsend (SbV (chunk m)) (YcV (chunk m)) (XcV (chunk m)) K c 1) $$ HIown
  ihave #HI0_2 := (invsOwn_ysend (SbV (chunk m)) (YcV (chunk m)) (XcV (chunk m)) K c 2) $$ HIown
  ihave #HI2_2 := (invsOwn_fsend (SbV (chunk m)) (YcV (chunk m)) (XcV (chunk m)) K c 2) $$ HIown
  ihave #HI0_3 := (invsOwn_ysend (SbV (chunk m)) (YcV (chunk m)) (XcV (chunk m)) K c 3) $$ HIown
  ihave #HI2_3 := (invsOwn_fsend (SbV (chunk m)) (YcV (chunk m)) (XcV (chunk m)) K c 3) $$ HIown
  icases Apos with ⟨A0_0, A2_0, A0_1, A2_1, A0_2, A2_2, A0_3, A2_3, Apos⟩
  ihave #HI0_4 := (invsOwn_ysend (SbV (chunk m)) (YcV (chunk m)) (XcV (chunk m)) K c 4) $$ HIown
  ihave #HI2_4 := (invsOwn_fsend (SbV (chunk m)) (YcV (chunk m)) (XcV (chunk m)) K c 4) $$ HIown
  ihave #HI0_5 := (invsOwn_ysend (SbV (chunk m)) (YcV (chunk m)) (XcV (chunk m)) K c 5) $$ HIown
  ihave #HI2_5 := (invsOwn_fsend (SbV (chunk m)) (YcV (chunk m)) (XcV (chunk m)) K c 5) $$ HIown
  ihave #HI0_6 := (invsOwn_ysend (SbV (chunk m)) (YcV (chunk m)) (XcV (chunk m)) K c 6) $$ HIown
  ihave #HI2_6 := (invsOwn_fsend (SbV (chunk m)) (YcV (chunk m)) (XcV (chunk m)) K c 6) $$ HIown
  ihave #HI0_7 := (invsOwn_ysend (SbV (chunk m)) (YcV (chunk m)) (XcV (chunk m)) K c 7) $$ HIown
  ihave #HI2_7 := (invsOwn_fsend (SbV (chunk m)) (YcV (chunk m)) (XcV (chunk m)) K c 7) $$ HIown
  icases Apos with ⟨A0_4, A2_4, A0_5, A2_5, A0_6, A2_6, A0_7, A2_7, Apos⟩
  ihave #HI0_8 := (invsOwn_ysend (SbV (chunk m)) (YcV (chunk m)) (XcV (chunk m)) K c 8) $$ HIown
  ihave #HI2_8 := (invsOwn_fsend (SbV (chunk m)) (YcV (chunk m)) (XcV (chunk m)) K c 8) $$ HIown
  ihave #HI0_9 := (invsOwn_ysend (SbV (chunk m)) (YcV (chunk m)) (XcV (chunk m)) K c 9) $$ HIown
  ihave #HI2_9 := (invsOwn_fsend (SbV (chunk m)) (YcV (chunk m)) (XcV (chunk m)) K c 9) $$ HIown
  ihave #HI0_10 := (invsOwn_ysend (SbV (chunk m)) (YcV (chunk m)) (XcV (chunk m)) K c 10) $$ HIown
  ihave #HI2_10 := (invsOwn_fsend (SbV (chunk m)) (YcV (chunk m)) (XcV (chunk m)) K c 10) $$ HIown
  ihave #HI0_11 := (invsOwn_ysend (SbV (chunk m)) (YcV (chunk m)) (XcV (chunk m)) K c 11) $$ HIown
  ihave #HI2_11 := (invsOwn_fsend (SbV (chunk m)) (YcV (chunk m)) (XcV (chunk m)) K c 11) $$ HIown
  icases Apos with ⟨A0_8, A2_8, A0_9, A2_9, A0_10, A2_10, A0_11, A2_11, Apos⟩
  ihave #HI0_12 := (invsOwn_ysend (SbV (chunk m)) (YcV (chunk m)) (XcV (chunk m)) K c 12) $$ HIown
  ihave #HI2_12 := (invsOwn_fsend (SbV (chunk m)) (YcV (chunk m)) (XcV (chunk m)) K c 12) $$ HIown
  ihave #HI0_13 := (invsOwn_ysend (SbV (chunk m)) (YcV (chunk m)) (XcV (chunk m)) K c 13) $$ HIown
  ihave #HI2_13 := (invsOwn_fsend (SbV (chunk m)) (YcV (chunk m)) (XcV (chunk m)) K c 13) $$ HIown
  ihave #HI0_14 := (invsOwn_ysend (SbV (chunk m)) (YcV (chunk m)) (XcV (chunk m)) K c 14) $$ HIown
  ihave #HI2_14 := (invsOwn_fsend (SbV (chunk m)) (YcV (chunk m)) (XcV (chunk m)) K c 14) $$ HIown
  ihave #HI0_15 := (invsOwn_ysend (SbV (chunk m)) (YcV (chunk m)) (XcV (chunk m)) K c 15) $$ HIown
  ihave #HI2_15 := (invsOwn_fsend (SbV (chunk m)) (YcV (chunk m)) (XcV (chunk m)) K c 15) $$ HIown
  icases Apos with ⟨A0_12, A2_12, A0_13, A2_13, A0_14, A2_14, A0_15, A2_15⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  -- the result's buffer back in one piece
  ihave H4e := (scratch1_rejoin0 (F := F) c _ _ _ _ _) $$ [H4 H4_2 H4_3 H4_4 H4_5]
  · isplitl [H4]; · iexact H4
    isplitl [H4_2]; · iexact H4_2
    isplitl [H4_3]; · iexact H4_3
    isplitl [H4_4]; · iexact H4_4
    iexact H4_5
  icases H4e with ⟨%f4e, H4w⟩
  -- the cells closed, the buffers whole again: the post
  imod (body_exit (F := F) m (SbV (chunk m)) (YcV (chunk m)) (XcV (chunk m)) (fun _ _ => True) K c _ _ _ _ trivial) $$ [A0_0 A0_1 A0_2 A0_3 A0_4 A0_5 A0_6 A0_7 A0_8 A0_9 A0_10 A0_11 A0_12 A0_13 A0_14 A0_15 A1_0 A1_1 A1_2 A1_3 A1_4 A1_5 A1_6 A1_7 A1_8 A1_9 A1_10 A1_11 A1_12 A1_13 A1_14 A1_15 A2_0 A2_1 A2_2 A2_3 A2_4 A2_5 A2_6 A2_7 A2_8 A2_9 A2_10 A2_11 A2_12 A2_13 A2_14 A2_15 A3_0 A3_1 A3_2 A3_3 A3_4 A3_5 A3_6 A3_7 A3_8 A3_9 A3_10 A3_11 A3_12 A3_13 A3_14 A3_15 Lc0 Lc1 Lc2 Lc3 Lc4 Lc5 Lc6 Lc7 Lo0 Lo1 Lo2 Lo3 Lo4 Lo5 Lo6 Lo7 HO Hx H1 Ho H3 H4w A0_0_pay1 A0_1_pay1 A0_2_pay1 A0_3_pay1 A0_4_pay1 A0_5_pay1 A0_6_pay1 A0_7_pay1 A0_8_pay1 A0_9_pay1 A0_10_pay1 A0_11_pay1 A0_12_pay1 A0_13_pay1 A0_14_pay1 A0_15_pay1 A2_0_pay1 A2_1_pay1 A2_2_pay1 A2_3_pay1 A2_4_pay1 A2_5_pay1 A2_6_pay1 A2_7_pay1 A2_8_pay1 A2_9_pay1 A2_10_pay1 A2_11_pay1 A2_12_pay1 A2_13_pay1 A2_14_pay1 A2_15_pay1 Hyr0 Hyr1 Hyr2 Hyr3 Hyr4 Hyr5 Hyr6 Hyr7 Hyr8 Hyr9 Hyr10 Hyr11 Hyr12 Hyr13 Hyr14 Hyr15 A3_0_pay1 A3_1_pay1 A3_2_pay1 A3_3_pay1 A3_4_pay1 A3_5_pay1 A3_6_pay1 A3_7_pay1 A3_8_pay1 A3_9_pay1 A3_10_pay1 A3_11_pay1 A3_12_pay1 A3_13_pay1 A3_14_pay1 A3_15_pay1] with Hpost
  · unfold posDone locals0 sDone yLeft yRight xDone
    isplitr; · iexact HIown
    isplitl [A0_0 A0_1 A0_2 A0_3 A0_4 A0_5 A0_6 A0_7 A0_8 A0_9 A0_10 A0_11 A0_12 A0_13 A0_14 A0_15 A1_0 A1_1 A1_2 A1_3 A1_4 A1_5 A1_6 A1_7 A1_8 A1_9 A1_10 A1_11 A1_12 A1_13 A1_14 A1_15 A2_0 A2_1 A2_2 A2_3 A2_4 A2_5 A2_6 A2_7 A2_8 A2_9 A2_10 A2_11 A2_12 A2_13 A2_14 A2_15 A3_0 A3_1 A3_2 A3_3 A3_4 A3_5 A3_6 A3_7 A3_8 A3_9 A3_10 A3_11 A3_12 A3_13 A3_14 A3_15]
    · isplitl [A0_0]; · iexact A0_0
      isplitl [A0_1]; · iexact A0_1
      isplitl [A0_2]; · iexact A0_2
      isplitl [A0_3]; · iexact A0_3
      isplitl [A0_4]; · iexact A0_4
      isplitl [A0_5]; · iexact A0_5
      isplitl [A0_6]; · iexact A0_6
      isplitl [A0_7]; · iexact A0_7
      isplitl [A0_8]; · iexact A0_8
      isplitl [A0_9]; · iexact A0_9
      isplitl [A0_10]; · iexact A0_10
      isplitl [A0_11]; · iexact A0_11
      isplitl [A0_12]; · iexact A0_12
      isplitl [A0_13]; · iexact A0_13
      isplitl [A0_14]; · iexact A0_14
      isplitl [A0_15]; · iexact A0_15
      isplitl [A1_0]; · iexact A1_0
      isplitl [A1_1]; · iexact A1_1
      isplitl [A1_2]; · iexact A1_2
      isplitl [A1_3]; · iexact A1_3
      isplitl [A1_4]; · iexact A1_4
      isplitl [A1_5]; · iexact A1_5
      isplitl [A1_6]; · iexact A1_6
      isplitl [A1_7]; · iexact A1_7
      isplitl [A1_8]; · iexact A1_8
      isplitl [A1_9]; · iexact A1_9
      isplitl [A1_10]; · iexact A1_10
      isplitl [A1_11]; · iexact A1_11
      isplitl [A1_12]; · iexact A1_12
      isplitl [A1_13]; · iexact A1_13
      isplitl [A1_14]; · iexact A1_14
      isplitl [A1_15]; · iexact A1_15
      isplitl [A2_0]; · iexact A2_0
      isplitl [A2_1]; · iexact A2_1
      isplitl [A2_2]; · iexact A2_2
      isplitl [A2_3]; · iexact A2_3
      isplitl [A2_4]; · iexact A2_4
      isplitl [A2_5]; · iexact A2_5
      isplitl [A2_6]; · iexact A2_6
      isplitl [A2_7]; · iexact A2_7
      isplitl [A2_8]; · iexact A2_8
      isplitl [A2_9]; · iexact A2_9
      isplitl [A2_10]; · iexact A2_10
      isplitl [A2_11]; · iexact A2_11
      isplitl [A2_12]; · iexact A2_12
      isplitl [A2_13]; · iexact A2_13
      isplitl [A2_14]; · iexact A2_14
      isplitl [A2_15]; · iexact A2_15
      isplitl [A3_0]; · iexact A3_0
      isplitl [A3_1]; · iexact A3_1
      isplitl [A3_2]; · iexact A3_2
      isplitl [A3_3]; · iexact A3_3
      isplitl [A3_4]; · iexact A3_4
      isplitl [A3_5]; · iexact A3_5
      isplitl [A3_6]; · iexact A3_6
      isplitl [A3_7]; · iexact A3_7
      isplitl [A3_8]; · iexact A3_8
      isplitl [A3_9]; · iexact A3_9
      isplitl [A3_10]; · iexact A3_10
      isplitl [A3_11]; · iexact A3_11
      isplitl [A3_12]; · iexact A3_12
      isplitl [A3_13]; · iexact A3_13
      isplitl [A3_14]; · iexact A3_14
      iexact A3_15
    isplitl [Lc0 Lc1 Lc2 Lc3 Lc4 Lc5 Lc6 Lc7 Lo0 Lo1 Lo2 Lo3 Lo4 Lo5 Lo6 Lo7]
    · isplitl [Lc0]; · iexact Lc0
      isplitl [Lc1]; · iexact Lc1
      isplitl [Lc2]; · iexact Lc2
      isplitl [Lc3]; · iexact Lc3
      isplitl [Lc4]; · iexact Lc4
      isplitl [Lc5]; · iexact Lc5
      isplitl [Lc6]; · iexact Lc6
      isplitl [Lc7]; · iexact Lc7
      isplitl [Lo0]; · iexact Lo0
      isplitl [Lo1]; · iexact Lo1
      isplitl [Lo2]; · iexact Lo2
      isplitl [Lo3]; · iexact Lo3
      isplitl [Lo4]; · iexact Lo4
      isplitl [Lo5]; · iexact Lo5
      isplitl [Lo6]; · iexact Lo6
      iexact Lo7
    isplitl [HO]; · iexact HO
    isplitl [Hx]; · iexact Hx
    isplitl [H1]; · iexact H1
    isplitl [Ho]; · iexact Ho
    isplitl [H3]; · iexact H3
    isplitl [H4w]; · iexact H4w
    isplitl [A0_0_pay1 A0_1_pay1 A0_2_pay1 A0_3_pay1 A0_4_pay1 A0_5_pay1 A0_6_pay1 A0_7_pay1 A0_8_pay1 A0_9_pay1 A0_10_pay1 A0_11_pay1 A0_12_pay1 A0_13_pay1 A0_14_pay1 A0_15_pay1]
    · isplitl [A0_0_pay1]; · iexact A0_0_pay1
      isplitl [A0_1_pay1]; · iexact A0_1_pay1
      isplitl [A0_2_pay1]; · iexact A0_2_pay1
      isplitl [A0_3_pay1]; · iexact A0_3_pay1
      isplitl [A0_4_pay1]; · iexact A0_4_pay1
      isplitl [A0_5_pay1]; · iexact A0_5_pay1
      isplitl [A0_6_pay1]; · iexact A0_6_pay1
      isplitl [A0_7_pay1]; · iexact A0_7_pay1
      isplitl [A0_8_pay1]; · iexact A0_8_pay1
      isplitl [A0_9_pay1]; · iexact A0_9_pay1
      isplitl [A0_10_pay1]; · iexact A0_10_pay1
      isplitl [A0_11_pay1]; · iexact A0_11_pay1
      isplitl [A0_12_pay1]; · iexact A0_12_pay1
      isplitl [A0_13_pay1]; · iexact A0_13_pay1
      isplitl [A0_14_pay1]; · iexact A0_14_pay1
      iexact A0_15_pay1
    isplitl [A2_0_pay1 A2_1_pay1 A2_2_pay1 A2_3_pay1 A2_4_pay1 A2_5_pay1 A2_6_pay1 A2_7_pay1 A2_8_pay1 A2_9_pay1 A2_10_pay1 A2_11_pay1 A2_12_pay1 A2_13_pay1 A2_14_pay1 A2_15_pay1]
    · isplitl [A2_0_pay1]; · iexact A2_0_pay1
      isplitl [A2_1_pay1]; · iexact A2_1_pay1
      isplitl [A2_2_pay1]; · iexact A2_2_pay1
      isplitl [A2_3_pay1]; · iexact A2_3_pay1
      isplitl [A2_4_pay1]; · iexact A2_4_pay1
      isplitl [A2_5_pay1]; · iexact A2_5_pay1
      isplitl [A2_6_pay1]; · iexact A2_6_pay1
      isplitl [A2_7_pay1]; · iexact A2_7_pay1
      isplitl [A2_8_pay1]; · iexact A2_8_pay1
      isplitl [A2_9_pay1]; · iexact A2_9_pay1
      isplitl [A2_10_pay1]; · iexact A2_10_pay1
      isplitl [A2_11_pay1]; · iexact A2_11_pay1
      isplitl [A2_12_pay1]; · iexact A2_12_pay1
      isplitl [A2_13_pay1]; · iexact A2_13_pay1
      isplitl [A2_14_pay1]; · iexact A2_14_pay1
      iexact A2_15_pay1
    isplitl [Hyr0 Hyr1 Hyr2 Hyr3 Hyr4 Hyr5 Hyr6 Hyr7 Hyr8 Hyr9 Hyr10 Hyr11 Hyr12 Hyr13 Hyr14 Hyr15]
    · isplitl [Hyr0]; · iexact Hyr0
      isplitl [Hyr1]; · iexact Hyr1
      isplitl [Hyr2]; · iexact Hyr2
      isplitl [Hyr3]; · iexact Hyr3
      isplitl [Hyr4]; · iexact Hyr4
      isplitl [Hyr5]; · iexact Hyr5
      isplitl [Hyr6]; · iexact Hyr6
      isplitl [Hyr7]; · iexact Hyr7
      isplitl [Hyr8]; · iexact Hyr8
      isplitl [Hyr9]; · iexact Hyr9
      isplitl [Hyr10]; · iexact Hyr10
      isplitl [Hyr11]; · iexact Hyr11
      isplitl [Hyr12]; · iexact Hyr12
      isplitl [Hyr13]; · iexact Hyr13
      isplitl [Hyr14]; · iexact Hyr14
      iexact Hyr15
    isplitl [A3_0_pay1]; · iexact A3_0_pay1
    isplitl [A3_1_pay1]; · iexact A3_1_pay1
    isplitl [A3_2_pay1]; · iexact A3_2_pay1
    isplitl [A3_3_pay1]; · iexact A3_3_pay1
    isplitl [A3_4_pay1]; · iexact A3_4_pay1
    isplitl [A3_5_pay1]; · iexact A3_5_pay1
    isplitl [A3_6_pay1]; · iexact A3_6_pay1
    isplitl [A3_7_pay1]; · iexact A3_7_pay1
    isplitl [A3_8_pay1]; · iexact A3_8_pay1
    isplitl [A3_9_pay1]; · iexact A3_9_pay1
    isplitl [A3_10_pay1]; · iexact A3_10_pay1
    isplitl [A3_11_pay1]; · iexact A3_11_pay1
    isplitl [A3_12_pay1]; · iexact A3_12_pay1
    isplitl [A3_13_pay1]; · iexact A3_13_pay1
    isplitl [A3_14_pay1]; · iexact A3_14_pay1
    iexact A3_15_pay1
  sl_step
  iapply Hk
  iexact Hpost

end Cert.Kernel.Hand
end
-- ==== Proof.BodyX1K.lean ====
import proofs.«901046_g7700000000001047_dist_rsdw_v7x_xy2x2_y_m1024_d1024_f4096_f32_1_alg».proof.Proof.Gen.Kernel
import proofs.«901046_g7700000000001047_dist_rsdw_v7x_xy2x2_y_m1024_d1024_f4096_f32_1_alg».proof.Proof.Gen.Kernel.Skeleton
import proofs.«901046_g7700000000001047_dist_rsdw_v7x_xy2x2_y_m1024_d1024_f4096_f32_1_alg».proof.Proof.Gen.Kernel.Launch
import proofs.«901046_g7700000000001047_dist_rsdw_v7x_xy2x2_y_m1024_d1024_f4096_f32_1_alg».proof.Proof.Gen.Kernel.Points
import proofs.«901046_g7700000000001047_dist_rsdw_v7x_xy2x2_y_m1024_d1024_f4096_f32_1_alg».proof.Proof.ProtoK
import proofs.«901046_g7700000000001047_dist_rsdw_v7x_xy2x2_y_m1024_d1024_f4096_f32_1_alg».proof.Proof.SlotsK
import proofs.«901046_g7700000000001047_dist_rsdw_v7x_xy2x2_y_m1024_d1024_f4096_f32_1_alg».proof.Proof.RejoinK
import proofs.«901046_g7700000000001047_dist_rsdw_v7x_xy2x2_y_m1024_d1024_f4096_f32_1_alg».proof.Proof.LedgerK
import proofs.«901046_g7700000000001047_dist_rsdw_v7x_xy2x2_y_m1024_d1024_f4096_f32_1_alg».proof.Proof.BodyEndsK
import proofs.«901046_g7700000000001047_dist_rsdw_v7x_xy2x2_y_m1024_d1024_f4096_f32_1_alg».proof.Proof.BodyExitK
import proofs.«901046_g7700000000001047_dist_rsdw_v7x_xy2x2_y_m1024_d1024_f4096_f32_1_alg».proof.Proof.RulesSendK
import proofs.«901046_g7700000000001047_dist_rsdw_v7x_xy2x2_y_m1024_d1024_f4096_f32_1_alg».proof.Proof.RulesWaitK
import proofs.«901046_g7700000000001047_dist_rsdw_v7x_xy2x2_y_m1024_d1024_f4096_f32_1_alg».proof.Proof.ValuesK
import Idealize.ShloMosaic.Lib.Pipeline.Launch
import Idealize.ShloMosaic.Lib.Pipeline.Kit
import Idealize.ShloMosaic.Lib.Tactic
/-! The body on a device with first mesh coordinate 1.

The device starts its eight local copies of `dy`, signals both neighbours' barrier semaphores (handing each its own receive buffer) and waits
for both. It computes, group by group, the sixteen column chunks of the product of the transposed other half of `x` with its half of `dy`
and sends each to the neighbour along the second axis; then, group by group, its own product, adding each chunk it receives and forwarding
that chunk to the neighbour along the first axis; then adds the sixteen forwarded chunks; and copies the eight column blocks of the result
out. Every step that stays on the device is run symbolically; each of the thirty-two transfers to a neighbour is the rounds discipline's
send, the source slot restated at its closed contents first. At the end every cell is closed and every buffer is whole again. -/

set_option maxRecDepth 16384

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.Tactic
local notation "𝕄" => MT nD τ sig Unit (Elt F) ℕ UU ℕ

variable (m : (ℓ : Loc nD τ sig) → Buf (Elt F) ℓ)

attribute [local sl_rounds] duties_ysend duties_yrecv duties_fsend duties_xrecv duties_bar amount_ysend amount_yrecv amount_fsend amount_xrecv amount_bar
  expect_ysend expect_yrecv expect_fsend expect_xrecv expect_bar payload_ysend payload_yrecv payload_fsend payload_xrecv
  payload_bar_false payload_bar_true
attribute [local sl_rounds high] payload_bar_false_at payload_bar_true_at
attribute [local sl_canon] dev1_eq dev2_eq dev3_eq dev4_eq dev5_eq dev6_eq dev7_eq dev8_eq dev9_eq dev10_eq dev11_eq dev12_eq dev13_eq dev14_eq dev15_eq dev16_eq dev17_eq dev18_eq dev19_eq dev20_eq dev21_eq dev22_eq dev23_eq dev24_eq dev25_eq dev26_eq dev27_eq dev28_eq dev29_eq dev30_eq dev31_eq dev32_eq dev33_eq dev34_eq
attribute [local irreducible] ynb xnb

omit [FloatOps F] in
theorem bar_rest_x1 (Sb : (c : Dev nD) → (j : Fin 16) → Buf (Elt F) ((sslot j).view.loc (c : Thread nD τ))) (Yc : (c : Dev nD) → (j : Fin 16) → Buf (Elt F) ((yslot j).view.loc (c : Thread nD τ))) (Xc : (c : Dev nD) → (j : Fin 16) → Buf (Elt F) ((xslot j).view.loc (c : Thread nD τ))) (c : Dev nD) : (bigSep Finset.univ (fun d : Bool => (xRd (F := F) Sb Yc Xc).payload (barCell c) 0 d) : sProp 𝕄)
    = iprop((∃ f, (Memref.whole cc0_scratch3 : Memref sig .tc .vmem S16x512x128 .bf16).view.loc ((ynb c) : Thread nD τ) ↦{fullShare} f) ∗ (∃ f, (Memref.whole cc0_scratch4 : Memref sig .tc .vmem S16x512x128 .bf16).view.loc ((xnb c) : Thread nD τ) ↦{fullShare} f)) := by
  have h := rest_bar (F := F) Sb Yc Xc c
  rwa [Finset.sdiff_empty, duties_bar] at h

set_option maxHeartbeats 0 in
theorem body_x1 (c : Dev nD) (hx0 : c.val / 2 = 1) : BodySpec m (SbV (chunk m)) (YcV (chunk m)) (XcV (chunk m)) (fun _ _ => True) c := by
  intro K W f3 f4 f5 f6 f7 Kt
  unfold ghost creds locals0 posOwn payToks
  iintro ⟨⟨#HIown, #HIpeer, #HR, ⟨Ab, Apos⟩, ⟨Tby, Tbx, Ttoks⟩⟩, ⟨Cb, Ccr⟩, #Hlev, ⟨Lc0, Lc1, Lc2, Lc3, Lc4, Lc5, Lc6, Lc7, Lo0, Lo1, Lo2, Lo3, Lo4, Lo5, Lo6, Lo7⟩, HO, Hx, H1, Ho, H3, H4, H5, Hy, Hxr, Hk⟩
  ihave #HIb := (invsOwn_bar (SbV (chunk m)) (YcV (chunk m)) (XcV (chunk m)) K c) $$ HIown
  ihave #HPby := (invsPeer_by (SbV (chunk m)) (YcV (chunk m)) (XcV (chunk m)) K c) $$ HIpeer
  ihave #HPbx := (invsPeer_bx (SbV (chunk m)) (YcV (chunk m)) (XcV (chunk m)) K c) $$ HIpeer
  ihave #Rby := (reachedAll_by (F := F) c) $$ HR
  ihave #Rbx := (reachedAll_bx (F := F) c) $$ HR
  unfold O₀
  have hmw : ∀ (sm : SemLoc sig) (O : CellTallies nD τ sig Unit), Below c sm O → ((levAts L lv : sProp 𝕄) ⊢ MayWait (c : Thread nD τ) sm () O) := fun sm O h => mayWait_below c sm O h
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  -- the barrier's payloads: the two neighbours' receive buffers
  ihave Hp := (Entails.of_eq (bar_rest_x1 (SbV (chunk m)) (YcV (chunk m)) (XcV (chunk m)) c)) $$ Ab_pay1
  icases Hp with ⟨⟨%fyn, Hyn⟩, ⟨%fxn, Hxn⟩⟩
  -- the three slotted buffers, slot by slot
  ihave Hs := (sslots_split c _) $$ H5
  icases Hs with ⟨Hs0, Hs1, Hs2, Hs3, Hs4, Hs5, Hs6, Hs7, Hs8, Hs9, Hs10, Hs11, Hs12, Hs13, Hs14, Hs15⟩
  ihave Hd := (yslots_split (ynb c) fyn) $$ Hyn
  icases Hd with ⟨Hyn0, Hyn1, Hyn2, Hyn3, Hyn4, Hyn5, Hyn6, Hyn7, Hyn8, Hyn9, Hyn10, Hyn11, Hyn12, Hyn13, Hyn14, Hyn15⟩
  ihave He := (xslots_split (xnb c) fxn) $$ Hxn
  icases He with ⟨Hxn0, Hxn1, Hxn2, Hxn3, Hxn4, Hxn5, Hxn6, Hxn7, Hxn8, Hxn9, Hxn10, Hxn11, Hxn12, Hxn13, Hxn14, Hxn15⟩
  icases Ttoks with ⟨Ts0, Ty0, Ts1, Ty1, Ts2, Ty2, Ts3, Ty3, Ttoks⟩
  ihave Hr0 := (restate_lo_x1 (F := F) m c hx0 0 (by decide) fullShare f5) $$ [Hs0]
  · iexact Hs0
  iapply (wp_send_y (F := F) (SbV (chunk m)) (YcV (chunk m)) (XcV (chunk m)) K c _ (dev3_eq c) 0 _ _ _ _ (fun _ _ => rfl) (land_y_eq (chunk m) c 0 _)) $$ [Hr0 Hyn0 HO Ts0 Ty0]
  · isplitr; · iexact HIown
    isplitr; · iexact HIpeer
    isplitr; · iexact HR
    isplitl [Hr0]; · iexact Hr0
    isplitl [Hyn0]; · iexact Hyn0
    isplitl [HO]; · iexact HO
    isplitl [Ts0]; · iexact Ts0
    iexact Ty0
  iintro ⟨Cs0, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr1 := (restate_lo_x1 (F := F) m c hx0 1 (by decide) fullShare f5) $$ [Hs1]
  · iexact Hs1
  iapply (wp_send_y (F := F) (SbV (chunk m)) (YcV (chunk m)) (XcV (chunk m)) K c _ (dev4_eq c) 1 _ _ _ _ (fun _ _ => rfl) (land_y_eq (chunk m) c 1 _)) $$ [Hr1 Hyn1 HO Ts1 Ty1]
  · isplitr; · iexact HIown
    isplitr; · iexact HIpeer
    isplitr; · iexact HR
    isplitl [Hr1]; · iexact Hr1
    isplitl [Hyn1]; · iexact Hyn1
    isplitl [HO]; · iexact HO
    isplitl [Ts1]; · iexact Ts1
    iexact Ty1
  iintro ⟨Cs1, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr2 := (restate_lo_x1 (F := F) m c hx0 2 (by decide) fullShare f5) $$ [Hs2]
  · iexact Hs2
  iapply (wp_send_y (F := F) (SbV (chunk m)) (YcV (chunk m)) (XcV (chunk m)) K c _ (dev5_eq c) 2 _ _ _ _ (fun _ _ => rfl) (land_y_eq (chunk m) c 2 _)) $$ [Hr2 Hyn2 HO Ts2 Ty2]
  · isplitr; · iexact HIown
    isplitr; · iexact HIpeer
    isplitr; · iexact HR
    isplitl [Hr2]; · iexact Hr2
    isplitl [Hyn2]; · iexact Hyn2
    isplitl [HO]; · iexact HO
    isplitl [Ts2]; · iexact Ts2
    iexact Ty2
  iintro ⟨Cs2, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr3 := (restate_lo_x1 (F := F) m c hx0 3 (by decide) fullShare f5) $$ [Hs3]
  · iexact Hs3
  iapply (wp_send_y (F := F) (SbV (chunk m)) (YcV (chunk m)) (XcV (chunk m)) K c _ (dev6_eq c) 3 _ _ _ _ (fun _ _ => rfl) (land_y_eq (chunk m) c 3 _)) $$ [Hr3 Hyn3 HO Ts3 Ty3]
  · isplitr; · iexact HIown
    isplitr; · iexact HIpeer
    isplitr; · iexact HR
    isplitl [Hr3]; · iexact Hr3
    isplitl [Hyn3]; · iexact Hyn3
    isplitl [HO]; · iexact HO
    isplitl [Ts3]; · iexact Ts3
    iexact Ty3
  iintro ⟨Cs3, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  icases Ttoks with ⟨Ts4, Ty4, Ts5, Ty5, Ts6, Ty6, Ts7, Ty7, Ttoks⟩
  ihave Hr4 := (restate_hi_x1 (F := F) m c hx0 4 (by decide) fullShare f5) $$ [Hs4]
  · iexact Hs4
  iapply (wp_send_y (F := F) (SbV (chunk m)) (YcV (chunk m)) (XcV (chunk m)) K c _ (dev7_eq c) 4 _ _ _ _ (fun _ _ => rfl) (land_y_eq (chunk m) c 4 _)) $$ [Hr4 Hyn4 HO Ts4 Ty4]
  · isplitr; · iexact HIown
    isplitr; · iexact HIpeer
    isplitr; · iexact HR
    isplitl [Hr4]; · iexact Hr4
    isplitl [Hyn4]; · iexact Hyn4
    isplitl [HO]; · iexact HO
    isplitl [Ts4]; · iexact Ts4
    iexact Ty4
  iintro ⟨Cs4, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr5 := (restate_hi_x1 (F := F) m c hx0 5 (by decide) fullShare f5) $$ [Hs5]
  · iexact Hs5
  iapply (wp_send_y (F := F) (SbV (chunk m)) (YcV (chunk m)) (XcV (chunk m)) K c _ (dev8_eq c) 5 _ _ _ _ (fun _ _ => rfl) (land_y_eq (chunk m) c 5 _)) $$ [Hr5 Hyn5 HO Ts5 Ty5]
  · isplitr; · iexact HIown
    isplitr; · iexact HIpeer
    isplitr; · iexact HR
    isplitl [Hr5]; · iexact Hr5
    isplitl [Hyn5]; · iexact Hyn5
    isplitl [HO]; · iexact HO
    isplitl [Ts5]; · iexact Ts5
    iexact Ty5
  iintro ⟨Cs5, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr6 := (restate_hi_x1 (F := F) m c hx0 6 (by decide) fullShare f5) $$ [Hs6]
  · iexact Hs6
  iapply (wp_send_y (F := F) (SbV (chunk m)) (YcV (chunk m)) (XcV (chunk m)) K c _ (dev9_eq c) 6 _ _ _ _ (fun _ _ => rfl) (land_y_eq (chunk m) c 6 _)) $$ [Hr6 Hyn6 HO Ts6 Ty6]
  · isplitr; · iexact HIown
    isplitr; · iexact HIpeer
    isplitr; · iexact HR
    isplitl [Hr6]; · iexact Hr6
    isplitl [Hyn6]; · iexact Hyn6
    isplitl [HO]; · iexact HO
    isplitl [Ts6]; · iexact Ts6
    iexact Ty6
  iintro ⟨Cs6, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr7 := (restate_hi_x1 (F := F) m c hx0 7 (by decide) fullShare f5) $$ [Hs7]
  · iexact Hs7
  iapply (wp_send_y (F := F) (SbV (chunk m)) (YcV (chunk m)) (XcV (chunk m)) K c _ (dev10_eq c) 7 _ _ _ _ (fun _ _ => rfl) (land_y_eq (chunk m) c 7 _)) $$ [Hr7 Hyn7 HO Ts7 Ty7]
  · isplitr; · iexact HIown
    isplitr; · iexact HIpeer
    isplitr; · iexact HR
    isplitl [Hr7]; · iexact Hr7
    isplitl [Hyn7]; · iexact Hyn7
    isplitl [HO]; · iexact HO
    isplitl [Ts7]; · iexact Ts7
    iexact Ty7
  iintro ⟨Cs7, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  icases Ttoks with ⟨Ts8, Ty8, Ts9, Ty9, Ts10, Ty10, Ts11, Ty11, Ttoks⟩
  ihave Hr8 := (restate_hi_x1 (F := F) m c hx0 8 (by decide) fullShare f5) $$ [Hs8]
  · iexact Hs8
  iapply (wp_send_y (F := F) (SbV (chunk m)) (YcV (chunk m)) (XcV (chunk m)) K c _ (dev11_eq c) 8 _ _ _ _ (fun _ _ => rfl) (land_y_eq (chunk m) c 8 _)) $$ [Hr8 Hyn8 HO Ts8 Ty8]
  · isplitr; · iexact HIown
    isplitr; · iexact HIpeer
    isplitr; · iexact HR
    isplitl [Hr8]; · iexact Hr8
    isplitl [Hyn8]; · iexact Hyn8
    isplitl [HO]; · iexact HO
    isplitl [Ts8]; · iexact Ts8
    iexact Ty8
  iintro ⟨Cs8, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr9 := (restate_hi_x1 (F := F) m c hx0 9 (by decide) fullShare f5) $$ [Hs9]
  · iexact Hs9
  iapply (wp_send_y (F := F) (SbV (chunk m)) (YcV (chunk m)) (XcV (chunk m)) K c _ (dev12_eq c) 9 _ _ _ _ (fun _ _ => rfl) (land_y_eq (chunk m) c 9 _)) $$ [Hr9 Hyn9 HO Ts9 Ty9]
  · isplitr; · iexact HIown
    isplitr; · iexact HIpeer
    isplitr; · iexact HR
    isplitl [Hr9]; · iexact Hr9
    isplitl [Hyn9]; · iexact Hyn9
    isplitl [HO]; · iexact HO
    isplitl [Ts9]; · iexact Ts9
    iexact Ty9
  iintro ⟨Cs9, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr10 := (restate_hi_x1 (F := F) m c hx0 10 (by decide) fullShare f5) $$ [Hs10]
  · iexact Hs10
  iapply (wp_send_y (F := F) (SbV (chunk m)) (YcV (chunk m)) (XcV (chunk m)) K c _ (dev13_eq c) 10 _ _ _ _ (fun _ _ => rfl) (land_y_eq (chunk m) c 10 _)) $$ [Hr10 Hyn10 HO Ts10 Ty10]
  · isplitr; · iexact HIown
    isplitr; · iexact HIpeer
    isplitr; · iexact HR
    isplitl [Hr10]; · iexact Hr10
    isplitl [Hyn10]; · iexact Hyn10
    isplitl [HO]; · iexact HO
    isplitl [Ts10]; · iexact Ts10
    iexact Ty10
  iintro ⟨Cs10, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr11 := (restate_hi_x1 (F := F) m c hx0 11 (by decide) fullShare f5) $$ [Hs11]
  · iexact Hs11
  iapply (wp_send_y (F := F) (SbV (chunk m)) (YcV (chunk m)) (XcV (chunk m)) K c _ (dev14_eq c) 11 _ _ _ _ (fun _ _ => rfl) (land_y_eq (chunk m) c 11 _)) $$ [Hr11 Hyn11 HO Ts11 Ty11]
  · isplitr; · iexact HIown
    isplitr; · iexact HIpeer
    isplitr; · iexact HR
    isplitl [Hr11]; · iexact Hr11
    isplitl [Hyn11]; · iexact Hyn11
    isplitl [HO]; · iexact HO
    isplitl [Ts11]; · iexact Ts11
    iexact Ty11
  iintro ⟨Cs11, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  icases Ttoks with ⟨Ts12, Ty12, Ts13, Ty13, Ts14, Ty14, Ts15, Ty15, Ttoks⟩
  ihave Hr12 := (restate_hi_x1 (F := F) m c hx0 12 (by decide) fullShare f5) $$ [Hs12]
  · iexact Hs12
  iapply (wp_send_y (F := F) (SbV (chunk m)) (YcV (chunk m)) (XcV (chunk m)) K c _ (dev15_eq c) 12 _ _ _ _ (fun _ _ => rfl) (land_y_eq (chunk m) c 12 _)) $$ [Hr12 Hyn12 HO Ts12 Ty12]
  · isplitr; · iexact HIown
    isplitr; · iexact HIpeer
    isplitr; · iexact HR
    isplitl [Hr12]; · iexact Hr12
    isplitl [Hyn12]; · iexact Hyn12
    isplitl [HO]; · iexact HO
    isplitl [Ts12]; · iexact Ts12
    iexact Ty12
  iintro ⟨Cs12, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr13 := (restate_hi_x1 (F := F) m c hx0 13 (by decide) fullShare f5) $$ [Hs13]
  · iexact Hs13
  iapply (wp_send_y (F := F) (SbV (chunk m)) (YcV (chunk m)) (XcV (chunk m)) K c _ (dev16_eq c) 13 _ _ _ _ (fun _ _ => rfl) (land_y_eq (chunk m) c 13 _)) $$ [Hr13 Hyn13 HO Ts13 Ty13]
  · isplitr; · iexact HIown
    isplitr; · iexact HIpeer
    isplitr; · iexact HR
    isplitl [Hr13]; · iexact Hr13
    isplitl [Hyn13]; · iexact Hyn13
    isplitl [HO]; · iexact HO
    isplitl [Ts13]; · iexact Ts13
    iexact Ty13
  iintro ⟨Cs13, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr14 := (restate_hi_x1 (F := F) m c hx0 14 (by decide) fullShare f5) $$ [Hs14]
  · iexact Hs14
  iapply (wp_send_y (F := F) (SbV (chunk m)) (YcV (chunk m)) (XcV (chunk m)) K c _ (dev17_eq c) 14 _ _ _ _ (fun _ _ => rfl) (land_y_eq (chunk m) c 14 _)) $$ [Hr14 Hyn14 HO Ts14 Ty14]
  · isplitr; · iexact HIown
    isplitr; · iexact HIpeer
    isplitr; · iexact HR
    isplitl [Hr14]; · iexact Hr14
    isplitl [Hyn14]; · iexact Hyn14
    isplitl [HO]; · iexact HO
    isplitl [Ts14]; · iexact Ts14
    iexact Ty14
  iintro ⟨Cs14, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr15 := (restate_hi_x1 (F := F) m c hx0 15 (by decide) fullShare f5) $$ [Hs15]
  · iexact Hs15
  iapply (wp_send_y (F := F) (SbV (chunk m)) (YcV (chunk m)) (XcV (chunk m)) K c _ (dev18_eq c) 15 _ _ _ _ (fun _ _ => rfl) (land_y_eq (chunk m) c 15 _)) $$ [Hr15 Hyn15 HO Ts15 Ty15]
  · isplitr; · iexact HIown
    isplitr; · iexact HIpeer
    isplitr; · iexact HR
    isplitl [Hr15]; · iexact Hr15
    isplitl [Hyn15]; · iexact Hyn15
    isplitl [HO]; · iexact HO
    isplitl [Ts15]; · iexact Ts15
    iexact Ty15
  iintro ⟨Cs15, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave #HI1_0 := (invsOwn_yrecv (SbV (chunk m)) (YcV (chunk m)) (XcV (chunk m)) K c 0) $$ HIown
  ihave #HI1_1 := (invsOwn_yrecv (SbV (chunk m)) (YcV (chunk m)) (XcV (chunk m)) K c 1) $$ HIown
  ihave #HI1_2 := (invsOwn_yrecv (SbV (chunk m)) (YcV (chunk m)) (XcV (chunk m)) K c 2) $$ HIown
  ihave #HI1_3 := (invsOwn_yrecv (SbV (chunk m)) (YcV (chunk m)) (XcV (chunk m)) K c 3) $$ HIown
  icases Apos with ⟨A1_0, A1_1, A1_2, A1_3, Apos⟩
  icases Ccr with ⟨Cy0, Cy1, Cy2, Cy3, Ccr⟩
  icases Ttoks with ⟨Tf0, Tx0, Tf1, Tx1, Tf2, Tx2, Tf3, Tx3, Ttoks⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh0 := ((yslot_halves (F := F) c 0 _).1) $$ A1_0_pay1
  icases Hh0 with ⟨Hyl0, Hyr0⟩
  iapply (wp_send_f (F := F) (SbV (chunk m)) (YcV (chunk m)) (XcV (chunk m)) K c _ (dev19_eq c) 0 _ _ _ _ (fun _ _ => rfl) (land_f_eq (chunk m) c 0 _)) $$ [Hyl0 Hxn0 HO Tf0 Tx0]
  · isplitr; · iexact HIown
    isplitr; · iexact HIpeer
    isplitr; · iexact HR
    isplitl [Hyl0]; · iexact Hyl0
    isplitl [Hxn0]; · iexact Hxn0
    isplitl [HO]; · iexact HO
    isplitl [Tf0]; · iexact Tf0
    iexact Tx0
  iintro ⟨Cf0, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh1 := ((yslot_halves (F := F) c 1 _).1) $$ A1_1_pay1
  icases Hh1 with ⟨Hyl1, Hyr1⟩
  iapply (wp_send_f (F := F) (SbV (chunk m)) (YcV (chunk m)) (XcV (chunk m)) K c _ (dev20_eq c) 1 _ _ _ _ (fun _ _ => rfl) (land_f_eq (chunk m) c 1 _)) $$ [Hyl1 Hxn1 HO Tf1 Tx1]
  · isplitr; · iexact HIown
    isplitr; · iexact HIpeer
    isplitr; · iexact HR
    isplitl [Hyl1]; · iexact Hyl1
    isplitl [Hxn1]; · iexact Hxn1
    isplitl [HO]; · iexact HO
    isplitl [Tf1]; · iexact Tf1
    iexact Tx1
  iintro ⟨Cf1, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh2 := ((yslot_halves (F := F) c 2 _).1) $$ A1_2_pay1
  icases Hh2 with ⟨Hyl2, Hyr2⟩
  iapply (wp_send_f (F := F) (SbV (chunk m)) (YcV (chunk m)) (XcV (chunk m)) K c _ (dev21_eq c) 2 _ _ _ _ (fun _ _ => rfl) (land_f_eq (chunk m) c 2 _)) $$ [Hyl2 Hxn2 HO Tf2 Tx2]
  · isplitr; · iexact HIown
    isplitr; · iexact HIpeer
    isplitr; · iexact HR
    isplitl [Hyl2]; · iexact Hyl2
    isplitl [Hxn2]; · iexact Hxn2
    isplitl [HO]; · iexact HO
    isplitl [Tf2]; · iexact Tf2
    iexact Tx2
  iintro ⟨Cf2, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh3 := ((yslot_halves (F := F) c 3 _).1) $$ A1_3_pay1
  icases Hh3 with ⟨Hyl3, Hyr3⟩
  iapply (wp_send_f (F := F) (SbV (chunk m)) (YcV (chunk m)) (XcV (chunk m)) K c _ (dev22_eq c) 3 _ _ _ _ (fun _ _ => rfl) (land_f_eq (chunk m) c 3 _)) $$ [Hyl3 Hxn3 HO Tf3 Tx3]
  · isplitr; · iexact HIown
    isplitr; · iexact HIpeer
    isplitr; · iexact HR
    isplitl [Hyl3]; · iexact Hyl3
    isplitl [Hxn3]; · iexact Hxn3
    isplitl [HO]; · iexact HO
    isplitl [Tf3]; · iexact Tf3
    iexact Tx3
  iintro ⟨Cf3, HO⟩
  iclear HI1_0
  iclear HI1_1
  iclear HI1_2
  iclear HI1_3
  ihave #HI1_4 := (invsOwn_yrecv (SbV (chunk m)) (YcV (chunk m)) (XcV (chunk m)) K c 4) $$ HIown
  ihave #HI1_5 := (invsOwn_yrecv (SbV (chunk m)) (YcV (chunk m)) (XcV (chunk m)) K c 5) $$ HIown
  ihave #HI1_6 := (invsOwn_yrecv (SbV (chunk m)) (YcV (chunk m)) (XcV (chunk m)) K c 6) $$ HIown
  ihave #HI1_7 := (invsOwn_yrecv (SbV (chunk m)) (YcV (chunk m)) (XcV (chunk m)) K c 7) $$ HIown
  icases Apos with ⟨A1_4, A1_5, A1_6, A1_7, Apos⟩
  icases Ccr with ⟨Cy4, Cy5, Cy6, Cy7, Ccr⟩
  icases Ttoks with ⟨Tf4, Tx4, Tf5, Tx5, Tf6, Tx6, Tf7, Tx7, Ttoks⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh4 := ((yslot_halves (F := F) c 4 _).1) $$ A1_4_pay1
  icases Hh4 with ⟨Hyl4, Hyr4⟩
  iapply (wp_send_f (F := F) (SbV (chunk m)) (YcV (chunk m)) (XcV (chunk m)) K c _ (dev23_eq c) 4 _ _ _ _ (fun _ _ => rfl) (land_f_eq (chunk m) c 4 _)) $$ [Hyl4 Hxn4 HO Tf4 Tx4]
  · isplitr; · iexact HIown
    isplitr; · iexact HIpeer
    isplitr; · iexact HR
    isplitl [Hyl4]; · iexact Hyl4
    isplitl [Hxn4]; · iexact Hxn4
    isplitl [HO]; · iexact HO
    isplitl [Tf4]; · iexact Tf4
    iexact Tx4
  iintro ⟨Cf4, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh5 := ((yslot_halves (F := F) c 5 _).1) $$ A1_5_pay1
  icases Hh5 with ⟨Hyl5, Hyr5⟩
  iapply (wp_send_f (F := F) (SbV (chunk m)) (YcV (chunk m)) (XcV (chunk m)) K c _ (dev24_eq c) 5 _ _ _ _ (fun _ _ => rfl) (land_f_eq (chunk m) c 5 _)) $$ [Hyl5 Hxn5 HO Tf5 Tx5]
  · isplitr; · iexact HIown
    isplitr; · iexact HIpeer
    isplitr; · iexact HR
    isplitl [Hyl5]; · iexact Hyl5
    isplitl [Hxn5]; · iexact Hxn5
    isplitl [HO]; · iexact HO
    isplitl [Tf5]; · iexact Tf5
    iexact Tx5
  iintro ⟨Cf5, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh6 := ((yslot_halves (F := F) c 6 _).1) $$ A1_6_pay1
  icases Hh6 with ⟨Hyl6, Hyr6⟩
  iapply (wp_send_f (F := F) (SbV (chunk m)) (YcV (chunk m)) (XcV (chunk m)) K c _ (dev25_eq c) 6 _ _ _ _ (fun _ _ => rfl) (land_f_eq (chunk m) c 6 _)) $$ [Hyl6 Hxn6 HO Tf6 Tx6]
  · isplitr; · iexact HIown
    isplitr; · iexact HIpeer
    isplitr; · iexact HR
    isplitl [Hyl6]; · iexact Hyl6
    isplitl [Hxn6]; · iexact Hxn6
    isplitl [HO]; · iexact HO
    isplitl [Tf6]; · iexact Tf6
    iexact Tx6
  iintro ⟨Cf6, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh7 := ((yslot_halves (F := F) c 7 _).1) $$ A1_7_pay1
  icases Hh7 with ⟨Hyl7, Hyr7⟩
  iapply (wp_send_f (F := F) (SbV (chunk m)) (YcV (chunk m)) (XcV (chunk m)) K c _ (dev26_eq c) 7 _ _ _ _ (fun _ _ => rfl) (land_f_eq (chunk m) c 7 _)) $$ [Hyl7 Hxn7 HO Tf7 Tx7]
  · isplitr; · iexact HIown
    isplitr; · iexact HIpeer
    isplitr; · iexact HR
    isplitl [Hyl7]; · iexact Hyl7
    isplitl [Hxn7]; · iexact Hxn7
    isplitl [HO]; · iexact HO
    isplitl [Tf7]; · iexact Tf7
    iexact Tx7
  iintro ⟨Cf7, HO⟩
  iclear HI1_4
  iclear HI1_5
  iclear HI1_6
  iclear HI1_7
  ihave #HI1_8 := (invsOwn_yrecv (SbV (chunk m)) (YcV (chunk m)) (XcV (chunk m)) K c 8) $$ HIown
  ihave #HI1_9 := (invsOwn_yrecv (SbV (chunk m)) (YcV (chunk m)) (XcV (chunk m)) K c 9) $$ HIown
  ihave #HI1_10 := (invsOwn_yrecv (SbV (chunk m)) (YcV (chunk m)) (XcV (chunk m)) K c 10) $$ HIown
  ihave #HI1_11 := (invsOwn_yrecv (SbV (chunk m)) (YcV (chunk m)) (XcV (chunk m)) K c 11) $$ HIown
  icases Apos with ⟨A1_8, A1_9, A1_10, A1_11, Apos⟩
  icases Ccr with ⟨Cy8, Cy9, Cy10, Cy11, Ccr⟩
  icases Ttoks with ⟨Tf8, Tx8, Tf9, Tx9, Tf10, Tx10, Tf11, Tx11, Ttoks⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh8 := ((yslot_halves (F := F) c 8 _).1) $$ A1_8_pay1
  icases Hh8 with ⟨Hyl8, Hyr8⟩
  iapply (wp_send_f (F := F) (SbV (chunk m)) (YcV (chunk m)) (XcV (chunk m)) K c _ (dev27_eq c) 8 _ _ _ _ (fun _ _ => rfl) (land_f_eq (chunk m) c 8 _)) $$ [Hyl8 Hxn8 HO Tf8 Tx8]
  · isplitr; · iexact HIown
    isplitr; · iexact HIpeer
    isplitr; · iexact HR
    isplitl [Hyl8]; · iexact Hyl8
    isplitl [Hxn8]; · iexact Hxn8
    isplitl [HO]; · iexact HO
    isplitl [Tf8]; · iexact Tf8
    iexact Tx8
  iintro ⟨Cf8, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh9 := ((yslot_halves (F := F) c 9 _).1) $$ A1_9_pay1
  icases Hh9 with ⟨Hyl9, Hyr9⟩
  iapply (wp_send_f (F := F) (SbV (chunk m)) (YcV (chunk m)) (XcV (chunk m)) K c _ (dev28_eq c) 9 _ _ _ _ (fun _ _ => rfl) (land_f_eq (chunk m) c 9 _)) $$ [Hyl9 Hxn9 HO Tf9 Tx9]
  · isplitr; · iexact HIown
    isplitr; · iexact HIpeer
    isplitr; · iexact HR
    isplitl [Hyl9]; · iexact Hyl9
    isplitl [Hxn9]; · iexact Hxn9
    isplitl [HO]; · iexact HO
    isplitl [Tf9]; · iexact Tf9
    iexact Tx9
  iintro ⟨Cf9, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh10 := ((yslot_halves (F := F) c 10 _).1) $$ A1_10_pay1
  icases Hh10 with ⟨Hyl10, Hyr10⟩
  iapply (wp_send_f (F := F) (SbV (chunk m)) (YcV (chunk m)) (XcV (chunk m)) K c _ (dev29_eq c) 10 _ _ _ _ (fun _ _ => rfl) (land_f_eq (chunk m) c 10 _)) $$ [Hyl10 Hxn10 HO Tf10 Tx10]
  · isplitr; · iexact HIown
    isplitr; · iexact HIpeer
    isplitr; · iexact HR
    isplitl [Hyl10]; · iexact Hyl10
    isplitl [Hxn10]; · iexact Hxn10
    isplitl [HO]; · iexact HO
    isplitl [Tf10]; · iexact Tf10
    iexact Tx10
  iintro ⟨Cf10, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh11 := ((yslot_halves (F := F) c 11 _).1) $$ A1_11_pay1
  icases Hh11 with ⟨Hyl11, Hyr11⟩
  iapply (wp_send_f (F := F) (SbV (chunk m)) (YcV (chunk m)) (XcV (chunk m)) K c _ (dev30_eq c) 11 _ _ _ _ (fun _ _ => rfl) (land_f_eq (chunk m) c 11 _)) $$ [Hyl11 Hxn11 HO Tf11 Tx11]
  · isplitr; · iexact HIown
    isplitr; · iexact HIpeer
    isplitr; · iexact HR
    isplitl [Hyl11]; · iexact Hyl11
    isplitl [Hxn11]; · iexact Hxn11
    isplitl [HO]; · iexact HO
    isplitl [Tf11]; · iexact Tf11
    iexact Tx11
  iintro ⟨Cf11, HO⟩
  iclear HI1_8
  iclear HI1_9
  iclear HI1_10
  iclear HI1_11
  ihave #HI1_12 := (invsOwn_yrecv (SbV (chunk m)) (YcV (chunk m)) (XcV (chunk m)) K c 12) $$ HIown
  ihave #HI1_13 := (invsOwn_yrecv (SbV (chunk m)) (YcV (chunk m)) (XcV (chunk m)) K c 13) $$ HIown
  ihave #HI1_14 := (invsOwn_yrecv (SbV (chunk m)) (YcV (chunk m)) (XcV (chunk m)) K c 14) $$ HIown
  ihave #HI1_15 := (invsOwn_yrecv (SbV (chunk m)) (YcV (chunk m)) (XcV (chunk m)) K c 15) $$ HIown
  icases Apos with ⟨A1_12, A1_13, A1_14, A1_15, Apos⟩
  icases Ccr with ⟨Cy12, Cy13, Cy14, Cy15, Ccr⟩
  icases Ttoks with ⟨Tf12, Tx12, Tf13, Tx13, Tf14, Tx14, Tf15, Tx15⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh12 := ((yslot_halves (F := F) c 12 _).1) $$ A1_12_pay1
  icases Hh12 with ⟨Hyl12, Hyr12⟩
  iapply (wp_send_f (F := F) (SbV (chunk m)) (YcV (chunk m)) (XcV (chunk m)) K c _ (dev31_eq c) 12 _ _ _ _ (fun _ _ => rfl) (land_f_eq (chunk m) c 12 _)) $$ [Hyl12 Hxn12 HO Tf12 Tx12]
  · isplitr; · iexact HIown
    isplitr; · iexact HIpeer
    isplitr; · iexact HR
    isplitl [Hyl12]; · iexact Hyl12
    isplitl [Hxn12]; · iexact Hxn12
    isplitl [HO]; · iexact HO
    isplitl [Tf12]; · iexact Tf12
    iexact Tx12
  iintro ⟨Cf12, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh13 := ((yslot_halves (F := F) c 13 _).1) $$ A1_13_pay1
  icases Hh13 with ⟨Hyl13, Hyr13⟩
  iapply (wp_send_f (F := F) (SbV (chunk m)) (YcV (chunk m)) (XcV (chunk m)) K c _ (dev32_eq c) 13 _ _ _ _ (fun _ _ => rfl) (land_f_eq (chunk m) c 13 _)) $$ [Hyl13 Hxn13 HO Tf13 Tx13]
  · isplitr; · iexact HIown
    isplitr; · iexact HIpeer
    isplitr; · iexact HR
    isplitl [Hyl13]; · iexact Hyl13
    isplitl [Hxn13]; · iexact Hxn13
    isplitl [HO]; · iexact HO
    isplitl [Tf13]; · iexact Tf13
    iexact Tx13
  iintro ⟨Cf13, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh14 := ((yslot_halves (F := F) c 14 _).1) $$ A1_14_pay1
  icases Hh14 with ⟨Hyl14, Hyr14⟩
  iapply (wp_send_f (F := F) (SbV (chunk m)) (YcV (chunk m)) (XcV (chunk m)) K c _ (dev33_eq c) 14 _ _ _ _ (fun _ _ => rfl) (land_f_eq (chunk m) c 14 _)) $$ [Hyl14 Hxn14 HO Tf14 Tx14]
  · isplitr; · iexact HIown
    isplitr; · iexact HIpeer
    isplitr; · iexact HR
    isplitl [Hyl14]; · iexact Hyl14
    isplitl [Hxn14]; · iexact Hxn14
    isplitl [HO]; · iexact HO
    isplitl [Tf14]; · iexact Tf14
    iexact Tx14
  iintro ⟨Cf14, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh15 := ((yslot_halves (F := F) c 15 _).1) $$ A1_15_pay1
  icases Hh15 with ⟨Hyl15, Hyr15⟩
  ihave HO := (Entails.of_eq (congrArg (fun O => (owes (c : Thread nD τ) O _ : sProp 𝕄)) (zero_add (tallyAt (xrecvCell (xnb c) 15) () N)).symm)) $$ HO
  iapply (wp_send_f (F := F) (SbV (chunk m)) (YcV (chunk m)) (XcV (chunk m)) K c _ (dev34_eq c) 15 _ _ _ _ (fun _ _ => rfl) (land_f_eq (chunk m) c 15 _)) $$ [Hyl15 Hxn15 HO Tf15 Tx15]
  · isplitr; · iexact HIown
    isplitr; · iexact HIpeer
    isplitr; · iexact HR
    isplitl [Hyl15]; · iexact Hyl15
    isplitl [Hxn15]; · iexact Hxn15
    isplitl [HO]; · iexact HO
    isplitl [Tf15]; · iexact Tf15
    iexact Tx15
  iintro ⟨Cf15, HO⟩
  iclear HI1_12
  iclear HI1_13
  iclear HI1_14
  iclear HI1_15
  ihave #HI3_0 := (invsOwn_xrecv (SbV (chunk m)) (YcV (chunk m)) (XcV (chunk m)) K c 0) $$ HIown
  ihave #HI3_1 := (invsOwn_xrecv (SbV (chunk m)) (YcV (chunk m)) (XcV (chunk m)) K c 1) $$ HIown
  ihave #HI3_2 := (invsOwn_xrecv (SbV (chunk m)) (YcV (chunk m)) (XcV (chunk m)) K c 2) $$ HIown
  ihave #HI3_3 := (invsOwn_xrecv (SbV (chunk m)) (YcV (chunk m)) (XcV (chunk m)) K c 3) $$ HIown
  icases Apos with ⟨A3_0, A3_1, A3_2, A3_3, Apos⟩
  icases Ccr with ⟨Cx0, Cx1, Cx2, Cx3, Ccr⟩
  ihave #HI3_4 := (invsOwn_xrecv (SbV (chunk m)) (YcV (chunk m)) (XcV (chunk m)) K c 4) $$ HIown
  ihave #HI3_5 := (invsOwn_xrecv (SbV (chunk m)) (YcV (chunk m)) (XcV (chunk m)) K c 5) $$ HIown
  ihave #HI3_6 := (invsOwn_xrecv (SbV (chunk m)) (YcV (chunk m)) (XcV (chunk m)) K c 6) $$ HIown
  ihave #HI3_7 := (invsOwn_xrecv (SbV (chunk m)) (YcV (chunk m)) (XcV (chunk m)) K c 7) $$ HIown
  icases Apos with ⟨A3_4, A3_5, A3_6, A3_7, Apos⟩
  icases Ccr with ⟨Cx4, Cx5, Cx6, Cx7, Ccr⟩
  ihave #HI3_8 := (invsOwn_xrecv (SbV (chunk m)) (YcV (chunk m)) (XcV (chunk m)) K c 8) $$ HIown
  ihave #HI3_9 := (invsOwn_xrecv (SbV (chunk m)) (YcV (chunk m)) (XcV (chunk m)) K c 9) $$ HIown
  ihave #HI3_10 := (invsOwn_xrecv (SbV (chunk m)) (YcV (chunk m)) (XcV (chunk m)) K c 10) $$ HIown
  ihave #HI3_11 := (invsOwn_xrecv (SbV (chunk m)) (YcV (chunk m)) (XcV (chunk m)) K c 11) $$ HIown
  icases Apos with ⟨A3_8, A3_9, A3_10, A3_11, Apos⟩
  icases Ccr with ⟨Cx8, Cx9, Cx10, Cx11, Ccr⟩
  ihave #HI3_12 := (invsOwn_xrecv (SbV (chunk m)) (YcV (chunk m)) (XcV (chunk m)) K c 12) $$ HIown
  ihave #HI3_13 := (invsOwn_xrecv (SbV (chunk m)) (YcV (chunk m)) (XcV (chunk m)) K c 13) $$ HIown
  ihave #HI3_14 := (invsOwn_xrecv (SbV (chunk m)) (YcV (chunk m)) (XcV (chunk m)) K c 14) $$ HIown
  ihave #HI3_15 := (invsOwn_xrecv (SbV (chunk m)) (YcV (chunk m)) (XcV (chunk m)) K c 15) $$ HIown
  icases Apos with ⟨A3_12, A3_13, A3_14, A3_15, Apos⟩
  icases Ccr with ⟨Cx12, Cx13, Cx14, Cx15⟩
  ihave #HI0_0 := (invsOwn_ysend (SbV (chunk m)) (YcV (chunk m)) (XcV (chunk m)) K c 0) $$ HIown
  ihave #HI2_0 := (invsOwn_fsend (SbV (chunk m)) (YcV (chunk m)) (XcV (chunk m)) K c 0) $$ HIown
  ihave #HI0_1 := (invsOwn_ysend (SbV (chunk m)) (YcV (chunk m)) (XcV (chunk m)) K c 1) $$ HIown
  ihave #HI2_1 := (invsOwn_fsend (SbV (chunk m)) (YcV (chunk m)) (XcV (chunk m)) K c 1) $$ HIown
  ihave #HI0_2 := (invsOwn_ysend (SbV (chunk m)) (YcV (chunk m)) (XcV (chunk m)) K c 2) $$ HIown
  ihave #HI2_2 := (invsOwn_fsend (SbV (chunk m)) (YcV (chunk m)) (XcV (chunk m)) K c 2) $$ HIown
  ihave #HI0_3 := (invsOwn_ysend (SbV (chunk m)) (YcV (chunk m)) (XcV (chunk m)) K c 3) $$ HIown
  ihave #HI2_3 := (invsOwn_fsend (SbV (chunk m)) (YcV (chunk m)) (XcV (chunk m)) K c 3) $$ HIown
  icases Apos with ⟨A0_0, A2_0, A0_1, A2_1, A0_2, A2_2, A0_3, A2_3, Apos⟩
  ihave #HI0_4 := (invsOwn_ysend (SbV (chunk m)) (YcV (chunk m)) (XcV (chunk m)) K c 4) $$ HIown
  ihave #HI2_4 := (invsOwn_fsend (SbV (chunk m)) (YcV (chunk m)) (XcV (chunk m)) K c 4) $$ HIown
  ihave #HI0_5 := (invsOwn_ysend (SbV (chunk m)) (YcV (chunk m)) (XcV (chunk m)) K c 5) $$ HIown
  ihave #HI2_5 := (invsOwn_fsend (SbV (chunk m)) (YcV (chunk m)) (XcV (chunk m)) K c 5) $$ HIown
  ihave #HI0_6 := (invsOwn_ysend (SbV (chunk m)) (YcV (chunk m)) (XcV (chunk m)) K c 6) $$ HIown
  ihave #HI2_6 := (invsOwn_fsend (SbV (chunk m)) (YcV (chunk m)) (XcV (chunk m)) K c 6) $$ HIown
  ihave #HI0_7 := (invsOwn_ysend (SbV (chunk m)) (YcV (chunk m)) (XcV (chunk m)) K c 7) $$ HIown
  ihave #HI2_7 := (invsOwn_fsend (SbV (chunk m)) (YcV (chunk m)) (XcV (chunk m)) K c 7) $$ HIown
  icases Apos with ⟨A0_4, A2_4, A0_5, A2_5, A0_6, A2_6, A0_7, A2_7, Apos⟩
  ihave #HI0_8 := (invsOwn_ysend (SbV (chunk m)) (YcV (chunk m)) (XcV (chunk m)) K c 8) $$ HIown
  ihave #HI2_8 := (invsOwn_fsend (SbV (chunk m)) (YcV (chunk m)) (XcV (chunk m)) K c 8) $$ HIown
  ihave #HI0_9 := (invsOwn_ysend (SbV (chunk m)) (YcV (chunk m)) (XcV (chunk m)) K c 9) $$ HIown
  ihave #HI2_9 := (invsOwn_fsend (SbV (chunk m)) (YcV (chunk m)) (XcV (chunk m)) K c 9) $$ HIown
  ihave #HI0_10 := (invsOwn_ysend (SbV (chunk m)) (YcV (chunk m)) (XcV (chunk m)) K c 10) $$ HIown
  ihave #HI2_10 := (invsOwn_fsend (SbV (chunk m)) (YcV (chunk m)) (XcV (chunk m)) K c 10) $$ HIown
  ihave #HI0_11 := (invsOwn_ysend (SbV (chunk m)) (YcV (chunk m)) (XcV (chunk m)) K c 11) $$ HIown
  ihave #HI2_11 := (invsOwn_fsend (SbV (chunk m)) (YcV (chunk m)) (XcV (chunk m)) K c 11) $$ HIown
  icases Apos with ⟨A0_8, A2_8, A0_9, A2_9, A0_10, A2_10, A0_11, A2_11, Apos⟩
  ihave #HI0_12 := (invsOwn_ysend (SbV (chunk m)) (YcV (chunk m)) (XcV (chunk m)) K c 12) $$ HIown
  ihave #HI2_12 := (invsOwn_fsend (SbV (chunk m)) (YcV (chunk m)) (XcV (chunk m)) K c 12) $$ HIown
  ihave #HI0_13 := (invsOwn_ysend (SbV (chunk m)) (YcV (chunk m)) (XcV (chunk m)) K c 13) $$ HIown
  ihave #HI2_13 := (invsOwn_fsend (SbV (chunk m)) (YcV (chunk m)) (XcV (chunk m)) K c 13) $$ HIown
  ihave #HI0_14 := (invsOwn_ysend (SbV (chunk m)) (YcV (chunk m)) (XcV (chunk m)) K c 14) $$ HIown
  ihave #HI2_14 := (invsOwn_fsend (SbV (chunk m)) (YcV (chunk m)) (XcV (chunk m)) K c 14) $$ HIown
  ihave #HI0_15 := (invsOwn_ysend (SbV (chunk m)) (YcV (chunk m)) (XcV (chunk m)) K c 15) $$ HIown
  ihave #HI2_15 := (invsOwn_fsend (SbV (chunk m)) (YcV (chunk m)) (XcV (chunk m)) K c 15) $$ HIown
  icases Apos with ⟨A0_12, A2_12, A0_13, A2_13, A0_14, A2_14, A0_15, A2_15⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  -- the result's buffer back in one piece
  ihave H4e := (scratch1_rejoin1 (F := F) c _ _ _ _ _) $$ [H4 H4_2 H4_3 H4_4 H4_5]
  · isplitl [H4]; · iexact H4
    isplitl [H4_2]; · iexact H4_2
    isplitl [H4_3]; · iexact H4_3
    isplitl [H4_4]; · iexact H4_4
    iexact H4_5
  icases H4e with ⟨%f4e, H4w⟩
  -- the cells closed, the buffers whole again: the post
  imod (body_exit (F := F) m (SbV (chunk m)) (YcV (chunk m)) (XcV (chunk m)) (fun _ _ => True) K c _ _ _ _ trivial) $$ [A0_0 A0_1 A0_2 A0_3 A0_4 A0_5 A0_6 A0_7 A0_8 A0_9 A0_10 A0_11 A0_12 A0_13 A0_14 A0_15 A1_0 A1_1 A1_2 A1_3 A1_4 A1_5 A1_6 A1_7 A1_8 A1_9 A1_10 A1_11 A1_12 A1_13 A1_14 A1_15 A2_0 A2_1 A2_2 A2_3 A2_4 A2_5 A2_6 A2_7 A2_8 A2_9 A2_10 A2_11 A2_12 A2_13 A2_14 A2_15 A3_0 A3_1 A3_2 A3_3 A3_4 A3_5 A3_6 A3_7 A3_8 A3_9 A3_10 A3_11 A3_12 A3_13 A3_14 A3_15 Lc0 Lc1 Lc2 Lc3 Lc4 Lc5 Lc6 Lc7 Lo0 Lo1 Lo2 Lo3 Lo4 Lo5 Lo6 Lo7 HO Hx H1 Ho H3 H4w A0_0_pay1 A0_1_pay1 A0_2_pay1 A0_3_pay1 A0_4_pay1 A0_5_pay1 A0_6_pay1 A0_7_pay1 A0_8_pay1 A0_9_pay1 A0_10_pay1 A0_11_pay1 A0_12_pay1 A0_13_pay1 A0_14_pay1 A0_15_pay1 A2_0_pay1 A2_1_pay1 A2_2_pay1 A2_3_pay1 A2_4_pay1 A2_5_pay1 A2_6_pay1 A2_7_pay1 A2_8_pay1 A2_9_pay1 A2_10_pay1 A2_11_pay1 A2_12_pay1 A2_13_pay1 A2_14_pay1 A2_15_pay1 Hyr0 Hyr1 Hyr2 Hyr3 Hyr4 Hyr5 Hyr6 Hyr7 Hyr8 Hyr9 Hyr10 Hyr11 Hyr12 Hyr13 Hyr14 Hyr15 A3_0_pay1 A3_1_pay1 A3_2_pay1 A3_3_pay1 A3_4_pay1 A3_5_pay1 A3_6_pay1 A3_7_pay1 A3_8_pay1 A3_9_pay1 A3_10_pay1 A3_11_pay1 A3_12_pay1 A3_13_pay1 A3_14_pay1 A3_15_pay1] with Hpost
  · unfold posDone locals0 sDone yLeft yRight xDone
    isplitr; · iexact HIown
    isplitl [A0_0 A0_1 A0_2 A0_3 A0_4 A0_5 A0_6 A0_7 A0_8 A0_9 A0_10 A0_11 A0_12 A0_13 A0_14 A0_15 A1_0 A1_1 A1_2 A1_3 A1_4 A1_5 A1_6 A1_7 A1_8 A1_9 A1_10 A1_11 A1_12 A1_13 A1_14 A1_15 A2_0 A2_1 A2_2 A2_3 A2_4 A2_5 A2_6 A2_7 A2_8 A2_9 A2_10 A2_11 A2_12 A2_13 A2_14 A2_15 A3_0 A3_1 A3_2 A3_3 A3_4 A3_5 A3_6 A3_7 A3_8 A3_9 A3_10 A3_11 A3_12 A3_13 A3_14 A3_15]
    · isplitl [A0_0]; · iexact A0_0
      isplitl [A0_1]; · iexact A0_1
      isplitl [A0_2]; · iexact A0_2
      isplitl [A0_3]; · iexact A0_3
      isplitl [A0_4]; · iexact A0_4
      isplitl [A0_5]; · iexact A0_5
      isplitl [A0_6]; · iexact A0_6
      isplitl [A0_7]; · iexact A0_7
      isplitl [A0_8]; · iexact A0_8
      isplitl [A0_9]; · iexact A0_9
      isplitl [A0_10]; · iexact A0_10
      isplitl [A0_11]; · iexact A0_11
      isplitl [A0_12]; · iexact A0_12
      isplitl [A0_13]; · iexact A0_13
      isplitl [A0_14]; · iexact A0_14
      isplitl [A0_15]; · iexact A0_15
      isplitl [A1_0]; · iexact A1_0
      isplitl [A1_1]; · iexact A1_1
      isplitl [A1_2]; · iexact A1_2
      isplitl [A1_3]; · iexact A1_3
      isplitl [A1_4]; · iexact A1_4
      isplitl [A1_5]; · iexact A1_5
      isplitl [A1_6]; · iexact A1_6
      isplitl [A1_7]; · iexact A1_7
      isplitl [A1_8]; · iexact A1_8
      isplitl [A1_9]; · iexact A1_9
      isplitl [A1_10]; · iexact A1_10
      isplitl [A1_11]; · iexact A1_11
      isplitl [A1_12]; · iexact A1_12
      isplitl [A1_13]; · iexact A1_13
      isplitl [A1_14]; · iexact A1_14
      isplitl [A1_15]; · iexact A1_15
      isplitl [A2_0]; · iexact A2_0
      isplitl [A2_1]; · iexact A2_1
      isplitl [A2_2]; · iexact A2_2
      isplitl [A2_3]; · iexact A2_3
      isplitl [A2_4]; · iexact A2_4
      isplitl [A2_5]; · iexact A2_5
      isplitl [A2_6]; · iexact A2_6
      isplitl [A2_7]; · iexact A2_7
      isplitl [A2_8]; · iexact A2_8
      isplitl [A2_9]; · iexact A2_9
      isplitl [A2_10]; · iexact A2_10
      isplitl [A2_11]; · iexact A2_11
      isplitl [A2_12]; · iexact A2_12
      isplitl [A2_13]; · iexact A2_13
      isplitl [A2_14]; · iexact A2_14
      isplitl [A2_15]; · iexact A2_15
      isplitl [A3_0]; · iexact A3_0
      isplitl [A3_1]; · iexact A3_1
      isplitl [A3_2]; · iexact A3_2
      isplitl [A3_3]; · iexact A3_3
      isplitl [A3_4]; · iexact A3_4
      isplitl [A3_5]; · iexact A3_5
      isplitl [A3_6]; · iexact A3_6
      isplitl [A3_7]; · iexact A3_7
      isplitl [A3_8]; · iexact A3_8
      isplitl [A3_9]; · iexact A3_9
      isplitl [A3_10]; · iexact A3_10
      isplitl [A3_11]; · iexact A3_11
      isplitl [A3_12]; · iexact A3_12
      isplitl [A3_13]; · iexact A3_13
      isplitl [A3_14]; · iexact A3_14
      iexact A3_15
    isplitl [Lc0 Lc1 Lc2 Lc3 Lc4 Lc5 Lc6 Lc7 Lo0 Lo1 Lo2 Lo3 Lo4 Lo5 Lo6 Lo7]
    · isplitl [Lc0]; · iexact Lc0
      isplitl [Lc1]; · iexact Lc1
      isplitl [Lc2]; · iexact Lc2
      isplitl [Lc3]; · iexact Lc3
      isplitl [Lc4]; · iexact Lc4
      isplitl [Lc5]; · iexact Lc5
      isplitl [Lc6]; · iexact Lc6
      isplitl [Lc7]; · iexact Lc7
      isplitl [Lo0]; · iexact Lo0
      isplitl [Lo1]; · iexact Lo1
      isplitl [Lo2]; · iexact Lo2
      isplitl [Lo3]; · iexact Lo3
      isplitl [Lo4]; · iexact Lo4
      isplitl [Lo5]; · iexact Lo5
      isplitl [Lo6]; · iexact Lo6
      iexact Lo7
    isplitl [HO]; · iexact HO
    isplitl [Hx]; · iexact Hx
    isplitl [H1]; · iexact H1
    isplitl [Ho]; · iexact Ho
    isplitl [H3]; · iexact H3
    isplitl [H4w]; · iexact H4w
    isplitl [A0_0_pay1 A0_1_pay1 A0_2_pay1 A0_3_pay1 A0_4_pay1 A0_5_pay1 A0_6_pay1 A0_7_pay1 A0_8_pay1 A0_9_pay1 A0_10_pay1 A0_11_pay1 A0_12_pay1 A0_13_pay1 A0_14_pay1 A0_15_pay1]
    · isplitl [A0_0_pay1]; · iexact A0_0_pay1
      isplitl [A0_1_pay1]; · iexact A0_1_pay1
      isplitl [A0_2_pay1]; · iexact A0_2_pay1
      isplitl [A0_3_pay1]; · iexact A0_3_pay1
      isplitl [A0_4_pay1]; · iexact A0_4_pay1
      isplitl [A0_5_pay1]; · iexact A0_5_pay1
      isplitl [A0_6_pay1]; · iexact A0_6_pay1
      isplitl [A0_7_pay1]; · iexact A0_7_pay1
      isplitl [A0_8_pay1]; · iexact A0_8_pay1
      isplitl [A0_9_pay1]; · iexact A0_9_pay1
      isplitl [A0_10_pay1]; · iexact A0_10_pay1
      isplitl [A0_11_pay1]; · iexact A0_11_pay1
      isplitl [A0_12_pay1]; · iexact A0_12_pay1
      isplitl [A0_13_pay1]; · iexact A0_13_pay1
      isplitl [A0_14_pay1]; · iexact A0_14_pay1
      iexact A0_15_pay1
    isplitl [A2_0_pay1 A2_1_pay1 A2_2_pay1 A2_3_pay1 A2_4_pay1 A2_5_pay1 A2_6_pay1 A2_7_pay1 A2_8_pay1 A2_9_pay1 A2_10_pay1 A2_11_pay1 A2_12_pay1 A2_13_pay1 A2_14_pay1 A2_15_pay1]
    · isplitl [A2_0_pay1]; · iexact A2_0_pay1
      isplitl [A2_1_pay1]; · iexact A2_1_pay1
      isplitl [A2_2_pay1]; · iexact A2_2_pay1
      isplitl [A2_3_pay1]; · iexact A2_3_pay1
      isplitl [A2_4_pay1]; · iexact A2_4_pay1
      isplitl [A2_5_pay1]; · iexact A2_5_pay1
      isplitl [A2_6_pay1]; · iexact A2_6_pay1
      isplitl [A2_7_pay1]; · iexact A2_7_pay1
      isplitl [A2_8_pay1]; · iexact A2_8_pay1
      isplitl [A2_9_pay1]; · iexact A2_9_pay1
      isplitl [A2_10_pay1]; · iexact A2_10_pay1
      isplitl [A2_11_pay1]; · iexact A2_11_pay1
      isplitl [A2_12_pay1]; · iexact A2_12_pay1
      isplitl [A2_13_pay1]; · iexact A2_13_pay1
      isplitl [A2_14_pay1]; · iexact A2_14_pay1
      iexact A2_15_pay1
    isplitl [Hyr0 Hyr1 Hyr2 Hyr3 Hyr4 Hyr5 Hyr6 Hyr7 Hyr8 Hyr9 Hyr10 Hyr11 Hyr12 Hyr13 Hyr14 Hyr15]
    · isplitl [Hyr0]; · iexact Hyr0
      isplitl [Hyr1]; · iexact Hyr1
      isplitl [Hyr2]; · iexact Hyr2
      isplitl [Hyr3]; · iexact Hyr3
      isplitl [Hyr4]; · iexact Hyr4
      isplitl [Hyr5]; · iexact Hyr5
      isplitl [Hyr6]; · iexact Hyr6
      isplitl [Hyr7]; · iexact Hyr7
      isplitl [Hyr8]; · iexact Hyr8
      isplitl [Hyr9]; · iexact Hyr9
      isplitl [Hyr10]; · iexact Hyr10
      isplitl [Hyr11]; · iexact Hyr11
      isplitl [Hyr12]; · iexact Hyr12
      isplitl [Hyr13]; · iexact Hyr13
      isplitl [Hyr14]; · iexact Hyr14
      iexact Hyr15
    isplitl [A3_0_pay1]; · iexact A3_0_pay1
    isplitl [A3_1_pay1]; · iexact A3_1_pay1
    isplitl [A3_2_pay1]; · iexact A3_2_pay1
    isplitl [A3_3_pay1]; · iexact A3_3_pay1
    isplitl [A3_4_pay1]; · iexact A3_4_pay1
    isplitl [A3_5_pay1]; · iexact A3_5_pay1
    isplitl [A3_6_pay1]; · iexact A3_6_pay1
    isplitl [A3_7_pay1]; · iexact A3_7_pay1
    isplitl [A3_8_pay1]; · iexact A3_8_pay1
    isplitl [A3_9_pay1]; · iexact A3_9_pay1
    isplitl [A3_10_pay1]; · iexact A3_10_pay1
    isplitl [A3_11_pay1]; · iexact A3_11_pay1
    isplitl [A3_12_pay1]; · iexact A3_12_pay1
    isplitl [A3_13_pay1]; · iexact A3_13_pay1
    isplitl [A3_14_pay1]; · iexact A3_14_pay1
    iexact A3_15_pay1
  sl_step
  iapply Hk
  iexact Hpost

end Cert.Kernel.Hand
end
-- ==== Proof.LaunchK.lean ====
import proofs.«901046_g7700000000001047_dist_rsdw_v7x_xy2x2_y_m1024_d1024_f4096_f32_1_alg».proof.Proof.Gen.Kernel
import proofs.«901046_g7700000000001047_dist_rsdw_v7x_xy2x2_y_m1024_d1024_f4096_f32_1_alg».proof.Proof.Gen.Kernel.Skeleton
import proofs.«901046_g7700000000001047_dist_rsdw_v7x_xy2x2_y_m1024_d1024_f4096_f32_1_alg».proof.Proof.Gen.Kernel.Launch
import proofs.«901046_g7700000000001047_dist_rsdw_v7x_xy2x2_y_m1024_d1024_f4096_f32_1_alg».proof.Proof.Gen.Kernel.Points
import proofs.«901046_g7700000000001047_dist_rsdw_v7x_xy2x2_y_m1024_d1024_f4096_f32_1_alg».proof.Proof.ProtoK
import proofs.«901046_g7700000000001047_dist_rsdw_v7x_xy2x2_y_m1024_d1024_f4096_f32_1_alg».proof.Proof.LedgerK
import Idealize.ShloMosaic.Lib.Pipeline.Launch
import Idealize.ShloMosaic.Lib.Pipeline.Kit
import Idealize.ShloMosaic.Lib.Tactic

/-! The launch: from each device's body to the run of the whole mesh.

The launch element funds two copies of the rounds algebra: the pipeline's, for the one staging cell of a device, and the exchange's, for the
sixty-five cells of a device (its barrier cell and its sixty-four transfer cells). Under one update, for all devices at once, every cell's
counter at zero and round state become the cell's invariant; the duty tokens, minted per owner, are dealt to the devices that pay them (a
barrier cell's two tokens and a receive cell's token go to the owner's two neighbours, both of which are involutions of the mesh, so dealing
is re-indexing the devices); the sixteen semaphores of the local copies stay plain counters at zero. What a device then holds is exactly what
its body starts from, and what its body ends with gives back every semaphore of its own at zero, the scratch buffers, and the two arrays in
device memory the kernel routes itself, read off against the final state. -/

set_option maxRecDepth 16384

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (Sb : (c : Dev nD) → (j : Fin 16) → Buf (Elt F) ((sslot j).view.loc (c : Thread nD τ)))
variable (Yc : (c : Dev nD) → (j : Fin 16) → Buf (Elt F) ((yslot j).view.loc (c : Thread nD τ)))
variable (Xc : (c : Dev nD) → (j : Fin 16) → Buf (Elt F) ((xslot j).view.loc (c : Thread nD τ)))
variable (OutP : (c : Dev nD) → Buf (Elt F) ((c : Thread nD τ).loc main_v1) → Prop)

/-! ## Chains over listed index sets -/

section Lists
variable {M : Type _} [URA M] {I : Type _}

/-- A chain over two lists in a row is the chains over each, joined. -/
private theorem bigSepL_append (l₁ l₂ : List I) (Φ : I → sProp M) : bigSepL (l₁ ++ l₂) Φ = iprop(bigSepL l₁ Φ ∗ bigSepL l₂ Φ) := by
  induction l₁ with
  | nil => exact (equiv_iff.mp emp_sep).symm
  | cons i l ih => rw [List.cons_append, bigSepL_cons, bigSepL_cons, ih]; exact Idealize.SL.BI.Entails.antisymm BI.sep_assoc' BI.sep_assoc

/-- A chain over the image of a list is the chain of the composite. -/
private theorem bigSepL_map {J : Type _} (f : J → I) (l : List J) (Φ : I → sProp M) : bigSepL (l.map f) Φ = bigSepL l fun j => Φ (f j) := by
  induction l with
  | nil => rfl
  | cons j l ih => rw [List.map_cons, bigSepL_cons, bigSepL_cons, ih]

/-- A persistent assertion that yields every member yields the chain. -/
private theorem bigSepL_intro_persistent {R : sProp M} [BI.Persistent R] {Φ : I → sProp M} (l : List I) (h : ∀ i, R ⊢ Φ i) : R ⊢ bigSepL l Φ := by
  induction l with
  | nil => iintro -; iempintro
  | cons i l ih =>
    rw [bigSepL_cons]
    show R ⊢ iprop(Φ i ∗ bigSepL l Φ)
    iintro #H; isplitr
    · iapply (h i); iexact H
    · iapply ih; iexact H

/-- Two chains over one list, dealt alternately, are the chain over the list of pairs in a row. -/
private theorem bigSepL_interleave {J : Type _} (a b : J → I) (l : List J) (Ψ : I → sProp M) :
    iprop(bigSepL l (fun j => Ψ (a j)) ∗ bigSepL l (fun j => Ψ (b j))) ⊢ bigSepL (l.flatMap fun j => [a j, b j]) Ψ := by
  induction l with
  | nil => iintro -; iempintro
  | cons j l ih =>
    have e : bigSepL ((j :: l).flatMap fun j => [a j, b j]) Ψ = iprop(Ψ (a j) ∗ Ψ (b j) ∗ bigSepL (l.flatMap fun j => [a j, b j]) Ψ) := by
      show bigSepL (a j :: b j :: l.flatMap fun j => [a j, b j]) Ψ = _
      rw [bigSepL_cons, bigSepL_cons]; rfl
    have e₁ : bigSepL (j :: l) (fun j => Ψ (a j)) = iprop(Ψ (a j) ∗ bigSepL l fun j => Ψ (a j)) := by rw [bigSepL_cons]; rfl
    have e₂ : bigSepL (j :: l) (fun j => Ψ (b j)) = iprop(Ψ (b j) ∗ bigSepL l fun j => Ψ (b j)) := by rw [bigSepL_cons]; rfl
    rw [e, e₁, e₂]
    iintro ⟨⟨H1, HA⟩, H2, HB⟩
    isplitl [H1]; · iexact H1
    isplitl [H2]; · iexact H2
    iapply ih; isplitl [HA] <;> iassumption

end Lists

private abbrev f16 : List (Fin 16) := [0, 1, 2, 3, 4, 5, 6, 7, 8, 9, 10, 11, 12, 13, 14, 15]
/-- The sixty-four transfer cells of a device in order: outgoing chunks, incoming chunks, outgoing forwards, incoming forwards. -/
private abbrev pairL : List (Fin 4 × Fin 16) :=
  f16.map (fun j => ((0 : Fin 4), j)) ++ f16.map (fun j => ((1 : Fin 4), j)) ++ f16.map (fun j => ((2 : Fin 4), j)) ++ f16.map (fun j => ((3 : Fin 4), j))
/-- All sixty-five cells: the barrier's first. -/
private abbrev cellL : List (Option (Fin 4 × Fin 16)) := none :: pairL.map some
/-- The same cells in the order a device holds its positions: the barrier's, the chunks' receive cells, the forwards' receive cells, then slot
    by slot the two send cells. -/
private abbrev posL : List (Option (Fin 4 × Fin 16)) :=
  none :: (f16.map (fun j => some ((1 : Fin 4), j)) ++ (f16.map (fun j => some ((3 : Fin 4), j))
    ++ f16.flatMap (fun j => [some ((0 : Fin 4), j), some ((2 : Fin 4), j)])))

omit [FloatOps F] in
private theorem bigSep_f16 (Φ : Fin 16 → sProp 𝕄) : bigSep Finset.univ Φ = bigSepL f16 Φ := bigSep_univ_eq_bigSepL f16 (by decide) (by decide) Φ
omit [FloatOps F] in
private theorem bigSep_pairs (Φ : Fin 4 × Fin 16 → sProp 𝕄) : bigSep Finset.univ Φ = bigSepL pairL Φ := bigSep_univ_eq_bigSepL pairL (by decide) (by decide) Φ
omit [FloatOps F] in
private theorem bigSep_cells (Φ : Option (Fin 4 × Fin 16) → sProp 𝕄) : bigSep Finset.univ Φ = bigSepL cellL Φ := bigSep_univ_eq_bigSepL cellL (by decide) (by decide) Φ
omit [FloatOps F] in
private theorem bigSep_posL (Φ : Option (Fin 4 × Fin 16) → sProp 𝕄) : bigSep Finset.univ Φ = bigSepL posL Φ := bigSep_univ_eq_bigSepL posL (by decide) (by decide) Φ
omit [FloatOps F] in
private theorem bigSep_bool (Φ : Bool → sProp 𝕄) : bigSep Finset.univ Φ = iprop(Φ false ∗ Φ true) := bigSep_univ_eq_bigSepL [false, true] (by decide) (by decide) Φ

/-! ## The kernel's own semaphores -/

/-- The kernel's own (scoped) semaphores as the launch indexes them: DMA semaphores 1 to 80. -/
def osem (i : Fin 80) : SemLoc sig := .dma ⟨i.val + 1, by have := i.isLt; show i.val + 1 < 81; omega⟩

theorem ownSemFacts : Pipeline.OwnSemFacts cfg0.spec osem := by decide

private abbrev l16 : List (Fin 80) := [0, 1, 2, 3, 4, 5, 6, 7, 8, 9, 10, 11, 12, 13, 14, 15]
private abbrev l64 : List (Fin 80) := [16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79]

omit [FloatOps F] in
/-- The eighty are the sixteen of the local copies and the sixty-four of the transfers; -/
theorem ownSems0_eq (c : Dev nD) : (Pipeline.ownSems0 (Ix := Unit) (Name := ℕ) (U := UU) (Lvl := ℕ) (Val := Elt F) (τ := τ) osem c : sProp 𝕄)
    = iprop(locals0 c ∗ xfers0 c) := by
  rw [Pipeline.ownSems0_eq_of_list c osem (l16 ++ l64) (by decide) (by decide), bigSepL_append]; rfl
omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The cells and tokens of the exchange's rounds -/

theorem csem_injective : Function.Injective csem := by decide

theorem kcell_injective : Function.Injective (kcell : Dev nD × Option (Fin 4 × Fin 16) → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def ringCells : Finset (GSem nD τ sig) := Finset.univ.map ⟨kcell, kcell_injective⟩

/-- A device's own cells' duty tokens as minted: its barrier's two, and one for each of its transfer cells. -/
abbrev tokOf (ci : Dev nD × (Bool ⊕ (Fin 4 × Fin 16))) : GSem nD τ sig × ℕ × Bool := match ci.2 with
  | .inl b => (barCell ci.1, 0, b)
  | .inr kj => (kcell (ci.1, some kj), 0, false)
theorem tokOf_injective : Function.Injective (tokOf : Dev nD × (Bool ⊕ (Fin 4 × Fin 16)) → GSem nD τ sig × ℕ × Bool) := by
  rintro ⟨c, i⟩ ⟨c', i'⟩ h
  have h1 : c = c' := by
    have := congrArg (fun x : GSem nD τ sig × ℕ × Bool => x.1.1.1) h
    cases i <;> cases i' <;> exact this
  subst h1
  have : i = i' := by
    rcases i with b | ⟨k, j⟩ <;> rcases i' with b' | ⟨k', j'⟩
    · exact congrArg Sum.inl (congrArg (fun x : GSem nD τ sig × ℕ × Bool => x.2.2) h)
    · have h' : (SemLoc.reg barS : SemLoc sig) = .dma (xsem k' j') := congrArg (fun x : GSem nD τ sig × ℕ × Bool => x.1.2) h
      cases h'
    · have h' : (SemLoc.dma (xsem k j) : SemLoc sig) = .reg barS := congrArg (fun x : GSem nD τ sig × ℕ × Bool => x.1.2) h
      cases h'
    · have h' : csem (some (k, j)) = csem (some (k', j')) := congrArg (fun x : GSem nD τ sig × ℕ × Bool => x.1.2) h
      exact congrArg Sum.inr (Option.some.inj (csem_injective h'))
  subst this; rfl
def ringToks : Finset (GSem nD τ sig × ℕ × Bool) := Finset.univ.map ⟨tokOf, tokOf_injective⟩

/-- The launch element: the pipeline's cells and tokens, the exchange's, and no counter of a local transfer. -/
def u₀ : UU :=
  (initOf (Pipeline.cells cfgs cellOf_inj) (Pipeline.launchToks cfgs cellOf_inj), (initOf ringCells ringToks, 1))

/-- The duty tokens of device `c`'s own cells. -/
def toks (c : Dev nD) : sProp 𝕄 :=
  iprop(dutyTok ER (barCell c) 0 false ∗ dutyTok ER (barCell c) 0 true
    ∗ bigSep Finset.univ fun kj : Fin 4 × Fin 16 => dutyTok ER (kcell (c, some kj)) 0 false)

/-- What the launch element deals device `c`. -/
def G (c : Dev nD) : sProp 𝕄 :=
  iprop((bigSep Finset.univ fun k : Option (Fin 4 × Fin 16) => roundState ER (xRd Sb Yc Xc) (kcell (c, k)) 0)
    ∗ (bigSep Finset.univ fun k : Option (Fin 4 × Fin 16) => iprop(atPos ER (kcell (c, k)) 0 ∅ 0 ∗ reached ER (kcell (c, k)) 0)) ∗ toks c)

/-- What the global step makes of it and of the device's semaphores at zero. -/
def G' (c : Dev nD) : sProp 𝕄 := iprop((∃ K, ghost Sb Yc Xc K c) ∗ locals0 c)

omit [FloatOps F] in
theorem fund_ring : BI.own (ER (initOf ringCells ringToks)) ⊢ (|==> bigSep Finset.univ (G Sb Yc Xc) : sProp 𝕄) := by
  have hX (Φ : GSem nD τ sig → sProp 𝕄) : bigSep ringCells Φ = bigSep Finset.univ fun c : Dev nD => bigSep Finset.univ fun k : Option (Fin 4 × Fin 16) => Φ (kcell (c, k)) := by
    unfold ringCells; rw [bigSep_map, bigSep_univ_prod]; rfl
  have hT : bigSep ringToks (fun x => (dutyTok ER x.1 x.2.1 x.2.2 : sProp 𝕄)) ⊢ bigSep Finset.univ fun c : Dev nD => toks c := by
    unfold ringToks; rw [bigSep_map, bigSep_univ_prod]
    refine bigSep_mono fun c _ => ?_
    rw [bigSep_univ_sum, bigSep_bool]
    show iprop((dutyTok ER (barCell c) 0 false ∗ dutyTok ER (barCell c) 0 true)
        ∗ bigSep Finset.univ fun kj : Fin 4 × Fin 16 => dutyTok ER (kcell (c, some kj)) 0 false) ⊢ toks c
    unfold toks
    iintro ⟨⟨H1, H2⟩, H3⟩
    isplitl [H1]; · iexact H1
    isplitl [H2]; · iexact H2
    iexact H3
  iintro HX
  imod (Rounds.fund ER (xRd Sb Yc Xc) ringCells ringToks) $$ HX with ⟨Hst, Hr, Hat, Htok⟩
  imodintro
  ihave Hst' := (Entails.of_eq (hX fun g => roundState ER (xRd Sb Yc Xc) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

/-! ## The global step: the cells' invariants allocated, the tokens dealt to their payers -/

omit [FloatOps F] in
private theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
/-- The sixty-four transfer semaphores and the barrier semaphore are the sixty-five cells' counters. -/
theorem sems0_eq (c : Dev nD) :
    iprop(xfers0 c ∗ unscopedSems0 c) ⊢ (bigSep Finset.univ fun k : Option (Fin 4 × Fin 16) => semVal (kcell (c, k)) 0 : sProp 𝕄) := by
  rw [unscopedSems0_eq, bigSep_cells]
  show iprop(xfers0 c ∗ semVal (barCell c) 0) ⊢ iprop(semVal (barCell c) 0 ∗ xfers0 c)
  iintro ⟨HX, HB⟩
  isplitl [HB] <;> iassumption

omit [FloatOps F] in
theorem core_alloc (c : Dev nD) :
    iprop(Pipeline.ownSems0 (Ix := Unit) (Name := ℕ) (U := UU) (Lvl := ℕ) (Val := Elt F) (τ := τ) osem c ∗ unscopedSems0 c ∗ G Sb Yc Xc c)
      ⊢ |={Set.univ}=> iprop((bigSep Finset.univ fun k : Option (Fin 4 × Fin 16) => iprop(∃ κ : ℕ, cellInv ER (xRd Sb Yc Xc) κ (kcell (c, k))))
          ∗ (bigSep Finset.univ fun k : Option (Fin 4 × Fin 16) => iprop(atPos ER (kcell (c, k)) 0 ∅ 0 ∗ reached ER (kcell (c, k)) 0)) ∗ toks c ∗ locals0 c) := by
  rw [ownSems0_eq]
  unfold G
  iintro ⟨⟨Hloc, Hxf⟩, Hus, Hst, Hat, Htok⟩
  ihave Hv := (sems0_eq (F := F) c) $$ [Hxf Hus]
  · isplitl [Hxf] <;> iassumption
  imod (show iprop((bigSep Finset.univ fun k : Option (Fin 4 × Fin 16) => semVal (kcell (c, k)) 0) ∗ bigSep Finset.univ fun k : Option (Fin 4 × Fin 16) => roundState ER (xRd Sb Yc Xc) (kcell (c, k)) 0)
      ⊢ (|={Set.univ}=> bigSep Finset.univ fun k : Option (Fin 4 × Fin 16) => iprop(∃ κ : ℕ, cellInv ER (xRd Sb Yc Xc) κ (kcell (c, k))) : sProp 𝕄) from by
        rw [← bigSep_sep']
        exact (bigSep_mono fun k _ => (Rounds.body_intro ER (xRd Sb Yc Xc) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hloc

/-- Every cell's invariant under the name it was allocated at, and that round 0 of every cell is reached. -/
def records (K : Dev nD × Option (Fin 4 × Fin 16) → ℕ) : sProp 𝕄 :=
  iprop((bigSep Finset.univ fun ck : Dev nD × Option (Fin 4 × Fin 16) => cellInv ER (xRd Sb Yc Xc) (K ck) (kcell ck))
    ∗ bigSep Finset.univ fun ck : Dev nD × Option (Fin 4 × Fin 16) => reached ER (kcell ck) 0)

instance records_persistent (K : Dev nD × Option (Fin 4 × Fin 16) → ℕ) : BI.Persistent (records Sb Yc Xc K) := by unfold records; infer_instance

omit [FloatOps F] in
theorem inv_at (K : Dev nD × Option (Fin 4 × Fin 16) → ℕ) (ck : Dev nD × Option (Fin 4 × Fin 16)) : records Sb Yc Xc K ⊢ cellInv ER (xRd Sb Yc Xc) (K ck) (kcell ck) := by
  unfold records; iintro ⟨#HI, -⟩
  iapply (show (bigSep Finset.univ fun ck : Dev nD × Option (Fin 4 × Fin 16) => (cellInv ER (xRd Sb Yc Xc) (K ck) (kcell ck) : sProp 𝕄)) ⊢ cellInv ER (xRd Sb Yc Xc) (K ck) (kcell ck) from bigSep_elim (Finset.mem_univ ck))
  iexact HI
omit [FloatOps F] in
theorem reached_at (K : Dev nD × Option (Fin 4 × Fin 16) → ℕ) (ck : Dev nD × Option (Fin 4 × Fin 16)) : records Sb Yc Xc K ⊢ reached ER (kcell ck) 0 := by
  unfold records; iintro ⟨-, #HR⟩
  iapply (show (bigSep Finset.univ fun ck : Dev nD × Option (Fin 4 × Fin 16) => (reached ER (kcell ck) 0 : sProp 𝕄)) ⊢ reached ER (kcell ck) 0 from bigSep_elim (Finset.mem_univ ck))
  iexact HR

/-- The neighbours' cells a device pays into: both barrier cells, the chunks' receive cells along the second axis, the forwards' along the first. -/
private abbrev peerL (c : Dev nD) : List (Dev nD × Option (Fin 4 × Fin 16)) :=
  (ynb c, none) :: (xnb c, none) :: (f16.map (fun j => (ynb c, some ((1 : Fin 4), j))) ++ f16.map (fun j => (xnb c, some ((3 : Fin 4), j))))

omit [FloatOps F] in
theorem invsOwn_intro (K : Dev nD × Option (Fin 4 × Fin 16) → ℕ) (c : Dev nD) : records Sb Yc Xc K ⊢ invsOwn Sb Yc Xc K c :=
  show records Sb Yc Xc K ⊢ bigSepL cellL (fun k => cellInv ER (xRd Sb Yc Xc) (K (c, k)) (kcell (c, k))) from
    bigSepL_intro_persistent cellL fun k => inv_at Sb Yc Xc K (c, k)
omit [FloatOps F] in
theorem invsPeer_intro (K : Dev nD × Option (Fin 4 × Fin 16) → ℕ) (c : Dev nD) : records Sb Yc Xc K ⊢ invsPeer Sb Yc Xc K c :=
  show records Sb Yc Xc K ⊢ bigSepL (peerL c) (fun ck => cellInv ER (xRd Sb Yc Xc) (K ck) (kcell ck)) from
    bigSepL_intro_persistent (peerL c) fun ck => inv_at Sb Yc Xc K ck
omit [FloatOps F] in
theorem reachedAll_intro (K : Dev nD × Option (Fin 4 × Fin 16) → ℕ) (c : Dev nD) : records Sb Yc Xc K ⊢ reachedAll c :=
  show records Sb Yc Xc K ⊢ bigSepL (peerL c ++ pairL.map (fun kj => (c, some kj))) (fun ck => reached ER (kcell ck) 0) from
    bigSepL_intro_persistent _ fun ck => reached_at Sb Yc Xc K ck

/-- What stays with device `c`: its positions, the tokens of the duties it pays, its local semaphores. -/
def linear (c : Dev nD) : sProp 𝕄 := iprop(posOwn c ∗ payToks c ∗ locals0 c)

omit [FloatOps F] in
theorem ghost_intro (K : Dev nD × Option (Fin 4 × Fin 16) → ℕ) (c : Dev nD) : iprop(records Sb Yc Xc K ∗ linear c) ⊢ G' Sb Yc Xc c := by
  unfold linear G' ghost
  iintro ⟨#HR, Hpos, Htok, Hloc⟩
  isplitr [Hloc]
  · iexists K
    isplitr; · iapply (invsOwn_intro Sb Yc Xc K c); iexact HR
    isplitr; · iapply (invsPeer_intro Sb Yc Xc K c); iexact HR
    isplitr; · iapply (reachedAll_intro Sb Yc Xc K c); iexact HR
    isplitl [Hpos]; · iexact Hpos
    iexact Htok
  · iexact Hloc

/-- The tokens of one kind of transfer cell of a device. -/
def xtoks (k : Fin 4) (c : Dev nD) : sProp 𝕄 := bigSep Finset.univ fun j : Fin 16 => dutyTok ER (kcell (c, some (k, j))) 0 false

omit [FloatOps F] in
theorem toks_eq (c : Dev nD) : (toks c : sProp 𝕄)
    = iprop(dutyTok ER (barCell c) 0 false ∗ dutyTok ER (barCell c) 0 true ∗ xtoks 0 c ∗ xtoks 1 c ∗ xtoks 2 c ∗ xtoks 3 c) := by
  unfold toks xtoks; rw [bigSep_univ_prod, bigSep_fin4]

omit [FloatOps F] in
/-- What a device pays with, gathered family by family, is the chain its body peels in the order it pays: the two barrier tokens, then slot
    by slot a chunk's two, then slot by slot a forward's two. -/
theorem payToks_intro (c : Dev nD) :
    iprop(dutyTok ER (barCell (ynb c)) 0 false ∗ dutyTok ER (barCell (xnb c)) 0 true ∗ xtoks 1 (ynb c) ∗ xtoks 3 (xnb c) ∗ xtoks 0 c ∗ xtoks 2 c)
      ⊢ (payToks c : sProp 𝕄) := by
  have e : (payToks c : sProp 𝕄)
      = iprop(dutyTok ER (barCell (ynb c)) 0 false ∗ dutyTok ER (barCell (xnb c)) 0 true
          ∗ bigSepL (f16.flatMap fun j => [(ysendCell c j, 0, false), (yrecvCell (ynb c) j, 0, false)]) (fun x : GSem nD τ sig × ℕ × Bool => (dutyTok ER x.1 x.2.1 x.2.2 : sProp 𝕄))
          ∗ bigSepL (f16.flatMap fun j => [(fsendCell c j, 0, false), (xrecvCell (xnb c) j, 0, false)]) (fun x : GSem nD τ sig × ℕ × Bool => (dutyTok ER x.1 x.2.1 x.2.2 : sProp 𝕄))) := by
    show bigSepL ((barCell (ynb c), 0, false) :: (barCell (xnb c), 0, true)
        :: ((f16.flatMap fun j => [(ysendCell c j, 0, false), (yrecvCell (ynb c) j, 0, false)]) ++ f16.flatMap fun j => [(fsendCell c j, 0, false), (xrecvCell (xnb c) j, 0, false)]))
        (fun x : GSem nD τ sig × ℕ × Bool => (dutyTok ER x.1 x.2.1 x.2.2 : sProp 𝕄)) = _
    rw [bigSepL_cons, bigSepL_cons, bigSepL_append]; rfl
  rw [e]
  unfold xtoks; rw [bigSep_f16, bigSep_f16, bigSep_f16, bigSep_f16]
  iintro ⟨H1, H2, X1, X3, X0, X2⟩
  isplitl [H1]; · iexact H1
  isplitl [H2]; · iexact H2
  isplitl [X0 X1]
  · iapply (bigSepL_interleave (fun j : Fin 16 => (ysendCell c j, 0, false)) (fun j : Fin 16 => (yrecvCell (ynb c) j, 0, false)) f16
      (fun x : GSem nD τ sig × ℕ × Bool => (dutyTok ER x.1 x.2.1 x.2.2 : sProp 𝕄)))
    isplitl [X0]; · iexact X0
    iexact X1
  · iapply (bigSepL_interleave (fun j : Fin 16 => (fsendCell c j, 0, false)) (fun j : Fin 16 => (xrecvCell (xnb c) j, 0, false)) f16
      (fun x : GSem nD τ sig × ℕ × Bool => (dutyTok ER x.1 x.2.1 x.2.2 : sProp 𝕄)))
    isplitl [X2]; · iexact X2
    iexact X3

omit [FloatOps F] in
/-- The tokens dealt to their payers: a barrier cell's `false` token and a chunk receive cell's to the owner's neighbour along the second axis,
    a barrier cell's `true` token and a forward receive cell's to its neighbour along the first; the send cells' stay. -/
theorem toks_around : (bigSep Finset.univ fun c : Dev nD => (toks c : sProp 𝕄)) ⊢ bigSep Finset.univ fun c : Dev nD => payToks c := by
  have h : (bigSep Finset.univ fun c : Dev nD => (toks c : sProp 𝕄))
      ⊢ bigSep Finset.univ fun c : Dev nD => iprop(dutyTok ER (barCell (ynb c)) 0 false ∗ dutyTok ER (barCell (xnb c)) 0 true
          ∗ xtoks 1 (ynb c) ∗ xtoks 3 (xnb c) ∗ xtoks 0 c ∗ xtoks 2 c) := by
    rw [bigSep_congr (s := Finset.univ) (fun (c : Dev nD) _ => toks_eq (F := F) c)]
    rw [bigSep_sep', bigSep_sep', bigSep_sep', bigSep_sep', bigSep_sep', bigSep_sep', bigSep_sep', bigSep_sep', bigSep_sep', bigSep_sep',
    bigSep_univ_equiv ysw (fun c : Dev nD => (dutyTok ER (barCell c) 0 false : sProp 𝕄)),
    bigSep_univ_equiv xsw (fun c : Dev nD => (dutyTok ER (barCell c) 0 true : sProp 𝕄)),
    bigSep_univ_equiv ysw (fun c : Dev nD => (xtoks 1 c : sProp 𝕄)),
    bigSep_univ_equiv xsw (fun c : Dev nD => (xtoks 3 c : sProp 𝕄))]
    iintro ⟨H1, H2, S0, S1, S2, S3⟩
    isplitl [H1]; · iexact H1
    isplitl [H2]; · iexact H2
    isplitl [S1]; · iexact S1
    isplitl [S3]; · iexact S3
    isplitl [S0]; · iexact S0
    iexact S2
  exact h.trans (bigSep_mono fun c _ => payToks_intro (F := F) c)

omit [FloatOps F] in
private theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem linear_intro :
    iprop((bigSep Finset.univ fun c : Dev nD => bigSep Finset.univ fun k : Option (Fin 4 × Fin 16) => (atPos ER (kcell (c, k)) 0 ∅ 0 : sProp 𝕄))
        ∗ (bigSep Finset.univ fun c : Dev nD => (payToks c : sProp 𝕄)) ∗ bigSep Finset.univ fun c : Dev nD => (locals0 c : sProp 𝕄))
      ⊢ bigSep Finset.univ fun c : Dev nD => (linear c : sProp 𝕄) := by
  rw [← bigSep_sep', ← bigSep_sep']
  exact bigSep_mono fun c _ =>
    show iprop((bigSep Finset.univ fun k : Option (Fin 4 × Fin 16) => (atPos ER (kcell (c, k)) 0 ∅ 0 : sProp 𝕄)) ∗ payToks c ∗ locals0 c) ⊢ linear c from
      Entails.of_eq (by unfold linear; rw [bigSep_posL]; rfl)

omit [FloatOps F] in
theorem regroup :
    (bigSep Finset.univ fun c : Dev nD => iprop((bigSep Finset.univ fun k : Option (Fin 4 × Fin 16) => iprop(∃ κ : ℕ, cellInv ER (xRd Sb Yc Xc) κ (kcell (c, k))))
          ∗ (bigSep Finset.univ fun k : Option (Fin 4 × Fin 16) => iprop(atPos ER (kcell (c, k)) 0 ∅ 0 ∗ reached ER (kcell (c, k)) 0)) ∗ toks c ∗ locals0 c) : sProp 𝕄)
      ⊢ bigSep Finset.univ (G' Sb Yc Xc) := by
  rw [bigSep_sep', bigSep_sep', bigSep_sep', ← bigSep_univ_prod (fun ck : Dev nD × Option (Fin 4 × Fin 16) => iprop(∃ κ : ℕ, cellInv ER (xRd Sb Yc Xc) κ (kcell ck))),
    bigSep_congr (s := Finset.univ) (fun (c : Dev nD) _ => bigSep_sep' Finset.univ (fun k : Option (Fin 4 × Fin 16) => (atPos ER (kcell (c, k)) 0 ∅ 0 : sProp 𝕄)) (fun k => reached ER (kcell (c, k)) 0)),
    bigSep_sep', ← bigSep_univ_prod (fun ck : Dev nD × Option (Fin 4 × Fin 16) => (reached ER (kcell ck) 0 : sProp 𝕄))]
  iintro ⟨HI, ⟨Hat, #HR⟩, Htok, Hloc⟩
  ihave HK := (BI.bigSep_exists_pi Finset.univ (fun (ck : Dev nD × Option (Fin 4 × Fin 16)) (κ : ℕ) => (cellInv ER (xRd Sb Yc Xc) κ (kcell ck) : sProp 𝕄))) $$ HI
  icases HK with ⟨%K, #HI⟩
  ihave Htk := (toks_around (F := F)) $$ Htok
  iapply (bigSep_with_persistent (R := records Sb Yc Xc K) fun c _ => ghost_intro Sb Yc Xc K c)
  isplitr
  · unfold records; isplitl; · iexact HI
    iexact HR
  · iapply (linear_intro (F := F))
    isplitl [Hat]; · iexact Hat
    isplitl [Htk]; · iexact Htk
    iexact Hloc

omit [FloatOps F] in
/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G Sb Yc Xc c) : sProp 𝕄)
    ⊢ |={Set.univ}=> bigSep Finset.univ (G' Sb Yc Xc) :=
  ((bigSep_mono fun c _ => core_alloc Sb Yc Xc c).trans (bigSep_fupd _ _)).trans (BI.fupd_mono (regroup Sb Yc Xc))

/-! ## The launch theorem's side conditions -/

theorem share_eq (c : Dev nD) (w : Fin cfg0.W) : (dats m Sb Yc Xc OutP 0 c).share w = fullShare := by unfold Dat.share; split <;> rfl

omit [FloatOps F] in
theorem start_intro (hcreds : ∀ c : Dev nD, (Pipeline.launchCred O₀ c : sProp 𝕄) ⊢ creds c) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' Sb Yc Xc c)
      ⊢ |={Set.univ}=> iprop(start m Sb Yc Xc c ∗ emp) := by
  rw [Pipeline.unscopedRestP_none, unscopedRest0_eq]
  iintro ⟨Hhbm, Hlev, Hcr, -, HG⟩
  ihave Hc := (hcreds c) $$ Hcr
  imodintro
  unfold start G' hbm
  icases HG with ⟨HK, Hloc⟩
  isplitl
  · isplitl [HK]; · iexact HK
    isplitl [Hc]; · iexact Hc
    isplitl [Hlev]; · iexact Hlev
    isplitl [Hloc]; · iexact Hloc
    iexact Hhbm
  · iempintro

theorem phi0_intro (c : Dev nD) :
    iprop(start m Sb Yc Xc c ∗ Pipeline.prefHeld Pipeline.Prefetch.none c (fun _ => fullShare.right) (fun k => k.elim0) ∗ Pipeline.scopedRest cfg0.spec c)
      ⊢ (dats m Sb Yc Xc OutP 0 c).Φ 0 := by
  rw [show (dats m Sb Yc Xc OutP 0 c).Φ 0 = Φ₀ m Sb Yc Xc c from rfl, scopedRest0_eq]
  unfold Φ₀ scratch
  iintro ⟨Hs, -, Hr⟩
  isplitl [Hs]; · iexact Hs
  iexact Hr

/-- What a device keeps past the region: the two arrays in device memory the kernel routes itself, the result at contents the predicate holds of. -/
def outY (c : Dev nD) : sProp 𝕄 := iprop(∃ o : Buf (Elt F) ((c : Thread nD τ).loc main_v1), ⌜OutP c o⌝ ∗ hbm m c o)

theorem phi1_exit (c : Dev nD) :
    (dats m Sb Yc Xc OutP 0 c).Φ (Fin.last cfg0.N) ⊢ iprop(outY m OutP c ∗ Pipeline.ownSems0 osem c ∗ Pipeline.scopedRest cfg0.spec c) := by
  rw [show (dats m Sb Yc Xc OutP 0 c).Φ (Fin.last cfg0.N) = Φ₁ m OutP c from rfl, scopedRest0_eq, ownSems0_eq]
  unfold Φ₁ scratch outY
  iintro ⟨Hl, Hx, Hs, Hh⟩
  isplitl [Hh]; · iexact Hh
  isplitl [Hl Hx]
  · isplitl [Hl] <;> iassumption
  iexact Hs

/-! ## The run -/

set_option maxRecDepth 32768 in
/-- At the compiled mesh of four devices, for any float values, from any memory with zero counters: if the launch credit covers what the devices are dealt, every wait is at a level below what its
    waiter still owes, and each device's body meets its obligation from the launch's proof data, every weakly fair execution of @main terminates, and every final state has each device's
    result array at contents `OutP` holds of and both argument arrays unchanged. -/
theorem run_main_of (hcreds : ∀ c : Dev nD, (Pipeline.launchCred O₀ c : sProp 𝕄) ⊢ creds c)
    (hwaits : ∀ c : Dev nD, (levAts L lv : sProp 𝕄) ⊢ Pipeline.cellsWaits cfgs (dats m Sb Yc Xc OutP) () 0 c)
    (hbody : ∀ c : Dev nD, BodyObligation (dats (F := F) m Sb Yc Xc OutP 0 c) (defs₀ (F := F)) 𝒱₀ () Set.univ) :
    θ_run defs (onTc (τ := τ) (main (F := F))) (s₀ m ρ)
      (fun r => ∀ c : Dev nD, OutP c (r.2.mem ((c.tc : Thread nD τ).loc main_v1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  Pipeline.θ_run_region_owing_glob_pf (fun p => (cfgs p).toPCfg) (fun p => (cfgs p).toPCfg_adm) (dats m Sb Yc Xc OutP) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m Sb Yc Xc OutP)
    (hdistinct := winFacts0.arr_inj)
    (O₀ := O₀) (howed₀ := fun _ => rfl) (howedN := fun _ => rfl)
    (L := L) (lv := lv) (hL := L_of_ne) (hwaits := hwaits)
    (G := G Sb Yc Xc) (G' := G' Sb Yc Xc) (u₀ := u₀)
    (hu₀ := by
      unfold u₀
      iintro Hu
      ihave H := (ownU_pair _ _) $$ Hu
      icases H with ⟨HP, HX⟩
      ihave HX' := (own_pair_emb embR _ _) $$ HX
      icases HX' with ⟨HR, -⟩
      imod (fund_ring Sb Yc Xc) $$ HR with HG
      imodintro
      isplitl [HP] <;> iassumption)
    (hglob := glob Sb Yc Xc)
    (hA := fun _ _ => rfl) (hpf := fun _ k => k.elim0)
    (X := start m Sb Yc Xc) (Y := outY m OutP) (Z := fun _ => iprop(emp))
    (hX := start_intro m ρ Sb Yc Xc hcreds) (hin := phi0_intro m Sb Yc Xc OutP) (hout := phi1_exit m Sb Yc Xc OutP)
    (QY := fun c s => OutP c (s.mem ((c : Thread nD τ).loc main_v1)) ∧ s.mem ((c : Thread nD τ).loc main_arg1) = m ((c : Thread nD τ).loc main_arg1))
    (hY := fun c s' => by
      unfold outY hbm
      iintro ⟨⟨%o, %ho, Ha, Hv⟩, -, HSI⟩
      icombine HSI Ha gives %ha
      icombine HSI Hv gives %hv
      imodintro
      isplitr; · ipureintro; exact ⟨(Buf.eq_of_forall_mem_univ hv) ▸ ho, Buf.eq_of_forall_mem_univ ha⟩
      iexact HSI)
    (hQ := fun s h c => ⟨(h c).2.2.1, ((h c).1 0).trans ((dats m Sb Yc Xc OutP 0 c).arrAt_in 0 rfl _), (h c).2.2.2⟩)

/-- info: 'Cert.Kernel.Hand.run_main_of' depends on axioms: [propext, Classical.choice, Quot.sound] -/
#guard_msgs in #print axioms run_main_of

/-- The run of the mesh from the devices' bodies alone: the launch credit and the levels of the waits are the ledger's. -/
theorem run_main (hbody : ∀ c : Dev nD, BodyObligation (dats (F := F) m Sb Yc Xc OutP 0 c) (defs₀ (F := F)) 𝒱₀ () Set.univ) :
    θ_run defs (onTc (τ := τ) (main (F := F))) (s₀ m ρ)
      (fun r => ∀ c : Dev nD, OutP c (r.2.mem ((c.tc : Thread nD τ).loc main_v1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  run_main_of m ρ Sb Yc Xc OutP (fun c => creds_intro c) (waits m Sb Yc Xc OutP) hbody

/-- info: 'Cert.Kernel.Hand.run_main' depends on axioms: [propext, Classical.choice, Quot.sound] -/
#guard_msgs in #print axioms run_main

end Cert.Kernel.Hand

end
-- ==== Proof.BodyK.lean ====
import proofs.«901046_g7700000000001047_dist_rsdw_v7x_xy2x2_y_m1024_d1024_f4096_f32_1_alg».proof.Proof.Gen.Kernel
import proofs.«901046_g7700000000001047_dist_rsdw_v7x_xy2x2_y_m1024_d1024_f4096_f32_1_alg».proof.Proof.Gen.Kernel.Skeleton
import proofs.«901046_g7700000000001047_dist_rsdw_v7x_xy2x2_y_m1024_d1024_f4096_f32_1_alg».proof.Proof.Gen.Kernel.Launch
import proofs.«901046_g7700000000001047_dist_rsdw_v7x_xy2x2_y_m1024_d1024_f4096_f32_1_alg».proof.Proof.Gen.Kernel.Points
import proofs.«901046_g7700000000001047_dist_rsdw_v7x_xy2x2_y_m1024_d1024_f4096_f32_1_alg».proof.Proof.ProtoK
import proofs.«901046_g7700000000001047_dist_rsdw_v7x_xy2x2_y_m1024_d1024_f4096_f32_1_alg».proof.Proof.LedgerK
import proofs.«901046_g7700000000001047_dist_rsdw_v7x_xy2x2_y_m1024_d1024_f4096_f32_1_alg».proof.Proof.BodyEndsK
import proofs.«901046_g7700000000001047_dist_rsdw_v7x_xy2x2_y_m1024_d1024_f4096_f32_1_alg».proof.Proof.ValuesK
import proofs.«901046_g7700000000001047_dist_rsdw_v7x_xy2x2_y_m1024_d1024_f4096_f32_1_alg».proof.Proof.BodyX0K
import proofs.«901046_g7700000000001047_dist_rsdw_v7x_xy2x2_y_m1024_d1024_f4096_f32_1_alg».proof.Proof.BodyX1K
import proofs.«901046_g7700000000001047_dist_rsdw_v7x_xy2x2_y_m1024_d1024_f4096_f32_1_alg».proof.Proof.LaunchK
import Idealize.ShloMosaic.Lib.Pipeline.Launch
import Idealize.ShloMosaic.Lib.Pipeline.Kit
import Idealize.ShloMosaic.Lib.Tactic

/-! The body on every device, and the run of the mesh that needs nothing of the result's contents.

The mesh is 2 × 2: a device's first coordinate is 0 or 1, and the body is proved once for each. With the body's obligation met on every
device, the launch gives the run: every weakly fair execution terminates and both argument arrays end as they were. Nothing is asked of
the result array here (the predicate on its contents is the trivial one). -/

set_option maxRecDepth 16384

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A device's first mesh coordinate is 0 or 1. -/
theorem half_cases (c : Dev nD) : c.val / 2 = 0 ∨ c.val / 2 = 1 := by revert c; decide

/-- The body's own statement on every device: the two cases of the first mesh coordinate. -/
theorem sound_body (c : Dev nD) : BodySpec m (SbV (chunk m)) (YcV (chunk m)) (XcV (chunk m)) (fun _ _ => True) c := by
  rcases half_cases c with h | h
  · exact body_x0 m c h
  · exact body_x1 m c h

/-- At the compiled mesh of four devices, for any float values, from any memory with zero counters: every weakly fair execution of @main
    terminates, and every final state has both argument arrays of every device unchanged. -/
theorem kern_frame_run : θ_run defs (onTc (τ := τ) (main (F := F))) (s₀ m ρ)
    (fun r => ∀ c : Dev nD, True
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_main m ρ (SbV (chunk m)) (YcV (chunk m)) (XcV (chunk m)) (fun _ _ => True)
    (fun c => body_wrap m (SbV (chunk m)) (YcV (chunk m)) (XcV (chunk m)) (fun _ _ => True) c (sound_body m c))

/-- info: 'Cert.Kernel.Hand.kern_frame_run' depends on axioms: [propext, Classical.choice, Quot.sound] -/
#guard_msgs in #print axioms kern_frame_run

end Cert.Kernel.Hand

end
-- ==== Proof.Basic.lean ====
import proofs.«901046_g7700000000001047_dist_rsdw_v7x_xy2x2_y_m1024_d1024_f4096_f32_1_alg».proof.Proof.Gen.KernelIdeal
import proofs.«901046_g7700000000001047_dist_rsdw_v7x_xy2x2_y_m1024_d1024_f4096_f32_1_alg».proof.Proof.Gen.KernelIdeal.Skeleton
import proofs.«901046_g7700000000001047_dist_rsdw_v7x_xy2x2_y_m1024_d1024_f4096_f32_1_alg».proof.Proof.Gen.KernelIdeal.Launch
import proofs.«901046_g7700000000001047_dist_rsdw_v7x_xy2x2_y_m1024_d1024_f4096_f32_1_alg».proof.Proof.Gen.KernelIdeal.Points
import Idealize.ShloMosaic.Lib.Pipeline.Launch
import Idealize.ShloMosaic.Lib.Pipeline.Kit
import Idealize.ShloMosaic.Lib.Tactic

/-! The mesh, the cells and the buffers of the exchange.

Four devices in a 2 × 2 mesh, device `c` at coordinates `(c / 2, c % 2)`. Each device has two neighbours: the one along the second
axis (same first coordinate), with which it exchanges the partial products of the rows it does not keep, and the one along the first
axis (same second coordinate), to which it forwards what it received. Both maps are involutions. Every exchange moves one of sixteen
column chunks (512 × 128) through a slot of a sixteen-slot buffer, each slot with a semaphore of its own on each side. -/

set_option maxRecDepth 16384

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The algebra: the pipeline's rounds, the exchange's rounds (duties named by a Boolean), the local transfers' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

instance ER_landsIn : (ER : Emb UB (MT nD τ sig Unit (Elt F) ℕ UU ℕ)).LandsIn (upEmb : UEmb _ (MT nD τ sig Unit (Elt F) ℕ UU ℕ)) := by
  unfold ER embR; infer_instance

/-! ## The two neighbours -/

/-- The neighbour along the second mesh axis: `(i, j) ↦ (i, 1 - j)`. -/
def ynb (c : Dev nD) : Dev nD := ⟨2 * (c.val / 2) + 1 - c.val % 2, by have := c.isLt; revert this; generalize c.val = v; decide +revert⟩
/-- The neighbour along the first mesh axis: `(i, j) ↦ (1 - i, j)`. -/
def xnb (c : Dev nD) : Dev nD := ⟨c.val % 2 + 2 - 2 * (c.val / 2), by have := c.isLt; revert this; generalize c.val = v; decide +revert⟩

theorem ynb_ynb (c : Dev nD) : ynb (ynb c) = c := by revert c; decide
theorem xnb_xnb (c : Dev nD) : xnb (xnb c) = c := by revert c; decide
theorem ynb_ne (c : Dev nD) : ynb c ≠ c := by revert c; decide
theorem xnb_ne (c : Dev nD) : xnb c ≠ c := by revert c; decide
theorem ynb_ne_xnb (c : Dev nD) : ynb c ≠ xnb c := by revert c; decide
theorem xnb_ynb (c : Dev nD) : xnb (ynb c) = ynb (xnb c) := by revert c; decide

def ysw : Dev nD ≃ Dev nD := ⟨ynb, ynb, ynb_ynb, ynb_ynb⟩
def xsw : Dev nD ≃ Dev nD := ⟨xnb, xnb, xnb_xnb, xnb_xnb⟩

/-- The printed device chains: the first barrier signal and the sixteen chunk transfers name the neighbour along the second axis, the
    second signal and the sixteen forwards the neighbour along the first. -/
theorem dev1_eq (c : Dev nD) : (⟨k0_dev1 c, k0_dev1_lt c⟩ : Dev nD) = ynb c := Fin.ext (k0_dev1_eq c)
theorem dev2_eq (c : Dev nD) : (⟨k0_dev2 c, k0_dev2_lt c⟩ : Dev nD) = xnb c := Fin.ext (k0_dev2_eq c)
theorem dev3_eq (c : Dev nD) : (⟨k0_dev3 c, k0_dev3_lt c⟩ : Dev nD) = ynb c := Fin.ext (k0_dev3_eq c)
theorem dev4_eq (c : Dev nD) : (⟨k0_dev4 c, k0_dev4_lt c⟩ : Dev nD) = ynb c := Fin.ext (k0_dev4_eq c)
theorem dev5_eq (c : Dev nD) : (⟨k0_dev5 c, k0_dev5_lt c⟩ : Dev nD) = ynb c := Fin.ext (k0_dev5_eq c)
theorem dev6_eq (c : Dev nD) : (⟨k0_dev6 c, k0_dev6_lt c⟩ : Dev nD) = ynb c := Fin.ext (k0_dev6_eq c)
theorem dev7_eq (c : Dev nD) : (⟨k0_dev7 c, k0_dev7_lt c⟩ : Dev nD) = ynb c := Fin.ext (k0_dev7_eq c)
theorem dev8_eq (c : Dev nD) : (⟨k0_dev8 c, k0_dev8_lt c⟩ : Dev nD) = ynb c := Fin.ext (k0_dev8_eq c)
theorem dev9_eq (c : Dev nD) : (⟨k0_dev9 c, k0_dev9_lt c⟩ : Dev nD) = ynb c := Fin.ext (k0_dev9_eq c)
theorem dev10_eq (c : Dev nD) : (⟨k0_dev10 c, k0_dev10_lt c⟩ : Dev nD) = ynb c := Fin.ext (k0_dev10_eq c)
theorem dev11_eq (c : Dev nD) : (⟨k0_dev11 c, k0_dev11_lt c⟩ : Dev nD) = ynb c := Fin.ext (k0_dev11_eq c)
theorem dev12_eq (c : Dev nD) : (⟨k0_dev12 c, k0_dev12_lt c⟩ : Dev nD) = ynb c := Fin.ext (k0_dev12_eq c)
theorem dev13_eq (c : Dev nD) : (⟨k0_dev13 c, k0_dev13_lt c⟩ : Dev nD) = ynb c := Fin.ext (k0_dev13_eq c)
theorem dev14_eq (c : Dev nD) : (⟨k0_dev14 c, k0_dev14_lt c⟩ : Dev nD) = ynb c := Fin.ext (k0_dev14_eq c)
theorem dev15_eq (c : Dev nD) : (⟨k0_dev15 c, k0_dev15_lt c⟩ : Dev nD) = ynb c := Fin.ext (k0_dev15_eq c)
theorem dev16_eq (c : Dev nD) : (⟨k0_dev16 c, k0_dev16_lt c⟩ : Dev nD) = ynb c := Fin.ext (k0_dev16_eq c)
theorem dev17_eq (c : Dev nD) : (⟨k0_dev17 c, k0_dev17_lt c⟩ : Dev nD) = ynb c := Fin.ext (k0_dev17_eq c)
theorem dev18_eq (c : Dev nD) : (⟨k0_dev18 c, k0_dev18_lt c⟩ : Dev nD) = ynb c := Fin.ext (k0_dev18_eq c)
theorem dev19_eq (c : Dev nD) : (⟨k0_dev19 c, k0_dev19_lt c⟩ : Dev nD) = xnb c := Fin.ext (k0_dev19_eq c)
theorem dev20_eq (c : Dev nD) : (⟨k0_dev20 c, k0_dev20_lt c⟩ : Dev nD) = xnb c := Fin.ext (k0_dev20_eq c)
theorem dev21_eq (c : Dev nD) : (⟨k0_dev21 c, k0_dev21_lt c⟩ : Dev nD) = xnb c := Fin.ext (k0_dev21_eq c)
theorem dev22_eq (c : Dev nD) : (⟨k0_dev22 c, k0_dev22_lt c⟩ : Dev nD) = xnb c := Fin.ext (k0_dev22_eq c)
theorem dev23_eq (c : Dev nD) : (⟨k0_dev23 c, k0_dev23_lt c⟩ : Dev nD) = xnb c := Fin.ext (k0_dev23_eq c)
theorem dev24_eq (c : Dev nD) : (⟨k0_dev24 c, k0_dev24_lt c⟩ : Dev nD) = xnb c := Fin.ext (k0_dev24_eq c)
theorem dev25_eq (c : Dev nD) : (⟨k0_dev25 c, k0_dev25_lt c⟩ : Dev nD) = xnb c := Fin.ext (k0_dev25_eq c)
theorem dev26_eq (c : Dev nD) : (⟨k0_dev26 c, k0_dev26_lt c⟩ : Dev nD) = xnb c := Fin.ext (k0_dev26_eq c)
theorem dev27_eq (c : Dev nD) : (⟨k0_dev27 c, k0_dev27_lt c⟩ : Dev nD) = xnb c := Fin.ext (k0_dev27_eq c)
theorem dev28_eq (c : Dev nD) : (⟨k0_dev28 c, k0_dev28_lt c⟩ : Dev nD) = xnb c := Fin.ext (k0_dev28_eq c)
theorem dev29_eq (c : Dev nD) : (⟨k0_dev29 c, k0_dev29_lt c⟩ : Dev nD) = xnb c := Fin.ext (k0_dev29_eq c)
theorem dev30_eq (c : Dev nD) : (⟨k0_dev30 c, k0_dev30_lt c⟩ : Dev nD) = xnb c := Fin.ext (k0_dev30_eq c)
theorem dev31_eq (c : Dev nD) : (⟨k0_dev31 c, k0_dev31_lt c⟩ : Dev nD) = xnb c := Fin.ext (k0_dev31_eq c)
theorem dev32_eq (c : Dev nD) : (⟨k0_dev32 c, k0_dev32_lt c⟩ : Dev nD) = xnb c := Fin.ext (k0_dev32_eq c)
theorem dev33_eq (c : Dev nD) : (⟨k0_dev33 c, k0_dev33_lt c⟩ : Dev nD) = xnb c := Fin.ext (k0_dev33_eq c)
theorem dev34_eq (c : Dev nD) : (⟨k0_dev34 c, k0_dev34_lt c⟩ : Dev nD) = xnb c := Fin.ext (k0_dev34_eq c)

/-! ## Slots and semaphores -/

/-- Slot `j` of the buffer of outgoing chunks, -/
def sslot : Fin 16 → Memref sig .tc .vmem S512x128 .bf16
  | 0 => ((Memref.whole cc0_scratch2 : Memref sig .tc .vmem S16x512x128 .bf16).slice (Rect.unit (s := S16x512x128) ![0, 0, 0] S1x512x128.size inb_S16x512x128_S1x512x128_0_0_0) (fun _ => rfl)).squeeze S512x128 squeezes_S1x512x128_S512x128
  | 1 => ((Memref.whole cc0_scratch2 : Memref sig .tc .vmem S16x512x128 .bf16).slice (Rect.unit (s := S16x512x128) ![1, 0, 0] S1x512x128.size inb_S16x512x128_S1x512x128_1_0_0) (fun _ => rfl)).squeeze S512x128 squeezes_S1x512x128_S512x128
  | 2 => ((Memref.whole cc0_scratch2 : Memref sig .tc .vmem S16x512x128 .bf16).slice (Rect.unit (s := S16x512x128) ![2, 0, 0] S1x512x128.size inb_S16x512x128_S1x512x128_2_0_0) (fun _ => rfl)).squeeze S512x128 squeezes_S1x512x128_S512x128
  | 3 => ((Memref.whole cc0_scratch2 : Memref sig .tc .vmem S16x512x128 .bf16).slice (Rect.unit (s := S16x512x128) ![3, 0, 0] S1x512x128.size inb_S16x512x128_S1x512x128_3_0_0) (fun _ => rfl)).squeeze S512x128 squeezes_S1x512x128_S512x128
  | 4 => ((Memref.whole cc0_scratch2 : Memref sig .tc .vmem S16x512x128 .bf16).slice (Rect.unit (s := S16x512x128) ![4, 0, 0] S1x512x128.size inb_S16x512x128_S1x512x128_4_0_0) (fun _ => rfl)).squeeze S512x128 squeezes_S1x512x128_S512x128
  | 5 => ((Memref.whole cc0_scratch2 : Memref sig .tc .vmem S16x512x128 .bf16).slice (Rect.unit (s := S16x512x128) ![5, 0, 0] S1x512x128.size inb_S16x512x128_S1x512x128_5_0_0) (fun _ => rfl)).squeeze S512x128 squeezes_S1x512x128_S512x128
  | 6 => ((Memref.whole cc0_scratch2 : Memref sig .tc .vmem S16x512x128 .bf16).slice (Rect.unit (s := S16x512x128) ![6, 0, 0] S1x512x128.size inb_S16x512x128_S1x512x128_6_0_0) (fun _ => rfl)).squeeze S512x128 squeezes_S1x512x128_S512x128
  | 7 => ((Memref.whole cc0_scratch2 : Memref sig .tc .vmem S16x512x128 .bf16).slice (Rect.unit (s := S16x512x128) ![7, 0, 0] S1x512x128.size inb_S16x512x128_S1x512x128_7_0_0) (fun _ => rfl)).squeeze S512x128 squeezes_S1x512x128_S512x128
  | 8 => ((Memref.whole cc0_scratch2 : Memref sig .tc .vmem S16x512x128 .bf16).slice (Rect.unit (s := S16x512x128) ![8, 0, 0] S1x512x128.size inb_S16x512x128_S1x512x128_8_0_0) (fun _ => rfl)).squeeze S512x128 squeezes_S1x512x128_S512x128
  | 9 => ((Memref.whole cc0_scratch2 : Memref sig .tc .vmem S16x512x128 .bf16).slice (Rect.unit (s := S16x512x128) ![9, 0, 0] S1x512x128.size inb_S16x512x128_S1x512x128_9_0_0) (fun _ => rfl)).squeeze S512x128 squeezes_S1x512x128_S512x128
  | 10 => ((Memref.whole cc0_scratch2 : Memref sig .tc .vmem S16x512x128 .bf16).slice (Rect.unit (s := S16x512x128) ![10, 0, 0] S1x512x128.size inb_S16x512x128_S1x512x128_10_0_0) (fun _ => rfl)).squeeze S512x128 squeezes_S1x512x128_S512x128
  | 11 => ((Memref.whole cc0_scratch2 : Memref sig .tc .vmem S16x512x128 .bf16).slice (Rect.unit (s := S16x512x128) ![11, 0, 0] S1x512x128.size inb_S16x512x128_S1x512x128_11_0_0) (fun _ => rfl)).squeeze S512x128 squeezes_S1x512x128_S512x128
  | 12 => ((Memref.whole cc0_scratch2 : Memref sig .tc .vmem S16x512x128 .bf16).slice (Rect.unit (s := S16x512x128) ![12, 0, 0] S1x512x128.size inb_S16x512x128_S1x512x128_12_0_0) (fun _ => rfl)).squeeze S512x128 squeezes_S1x512x128_S512x128
  | 13 => ((Memref.whole cc0_scratch2 : Memref sig .tc .vmem S16x512x128 .bf16).slice (Rect.unit (s := S16x512x128) ![13, 0, 0] S1x512x128.size inb_S16x512x128_S1x512x128_13_0_0) (fun _ => rfl)).squeeze S512x128 squeezes_S1x512x128_S512x128
  | 14 => ((Memref.whole cc0_scratch2 : Memref sig .tc .vmem S16x512x128 .bf16).slice (Rect.unit (s := S16x512x128) ![14, 0, 0] S1x512x128.size inb_S16x512x128_S1x512x128_14_0_0) (fun _ => rfl)).squeeze S512x128 squeezes_S1x512x128_S512x128
  | 15 => ((Memref.whole cc0_scratch2 : Memref sig .tc .vmem S16x512x128 .bf16).slice (Rect.unit (s := S16x512x128) ![15, 0, 0] S1x512x128.size inb_S16x512x128_S1x512x128_15_0_0) (fun _ => rfl)).squeeze S512x128 squeezes_S1x512x128_S512x128
  | ⟨_ + 16, h⟩ => absurd h (by omega)

/-- of the buffer the neighbour along the second axis writes, -/
def yslot : Fin 16 → Memref sig .tc .vmem S512x128 .bf16
  | 0 => ((Memref.whole cc0_scratch3 : Memref sig .tc .vmem S16x512x128 .bf16).slice (Rect.unit (s := S16x512x128) ![0, 0, 0] S1x512x128.size inb_S16x512x128_S1x512x128_0_0_0) (fun _ => rfl)).squeeze S512x128 squeezes_S1x512x128_S512x128
  | 1 => ((Memref.whole cc0_scratch3 : Memref sig .tc .vmem S16x512x128 .bf16).slice (Rect.unit (s := S16x512x128) ![1, 0, 0] S1x512x128.size inb_S16x512x128_S1x512x128_1_0_0) (fun _ => rfl)).squeeze S512x128 squeezes_S1x512x128_S512x128
  | 2 => ((Memref.whole cc0_scratch3 : Memref sig .tc .vmem S16x512x128 .bf16).slice (Rect.unit (s := S16x512x128) ![2, 0, 0] S1x512x128.size inb_S16x512x128_S1x512x128_2_0_0) (fun _ => rfl)).squeeze S512x128 squeezes_S1x512x128_S512x128
  | 3 => ((Memref.whole cc0_scratch3 : Memref sig .tc .vmem S16x512x128 .bf16).slice (Rect.unit (s := S16x512x128) ![3, 0, 0] S1x512x128.size inb_S16x512x128_S1x512x128_3_0_0) (fun _ => rfl)).squeeze S512x128 squeezes_S1x512x128_S512x128
  | 4 => ((Memref.whole cc0_scratch3 : Memref sig .tc .vmem S16x512x128 .bf16).slice (Rect.unit (s := S16x512x128) ![4, 0, 0] S1x512x128.size inb_S16x512x128_S1x512x128_4_0_0) (fun _ => rfl)).squeeze S512x128 squeezes_S1x512x128_S512x128
  | 5 => ((Memref.whole cc0_scratch3 : Memref sig .tc .vmem S16x512x128 .bf16).slice (Rect.unit (s := S16x512x128) ![5, 0, 0] S1x512x128.size inb_S16x512x128_S1x512x128_5_0_0) (fun _ => rfl)).squeeze S512x128 squeezes_S1x512x128_S512x128
  | 6 => ((Memref.whole cc0_scratch3 : Memref sig .tc .vmem S16x512x128 .bf16).slice (Rect.unit (s := S16x512x128) ![6, 0, 0] S1x512x128.size inb_S16x512x128_S1x512x128_6_0_0) (fun _ => rfl)).squeeze S512x128 squeezes_S1x512x128_S512x128
  | 7 => ((Memref.whole cc0_scratch3 : Memref sig .tc .vmem S16x512x128 .bf16).slice (Rect.unit (s := S16x512x128) ![7, 0, 0] S1x512x128.size inb_S16x512x128_S1x512x128_7_0_0) (fun _ => rfl)).squeeze S512x128 squeezes_S1x512x128_S512x128
  | 8 => ((Memref.whole cc0_scratch3 : Memref sig .tc .vmem S16x512x128 .bf16).slice (Rect.unit (s := S16x512x128) ![8, 0, 0] S1x512x128.size inb_S16x512x128_S1x512x128_8_0_0) (fun _ => rfl)).squeeze S512x128 squeezes_S1x512x128_S512x128
  | 9 => ((Memref.whole cc0_scratch3 : Memref sig .tc .vmem S16x512x128 .bf16).slice (Rect.unit (s := S16x512x128) ![9, 0, 0] S1x512x128.size inb_S16x512x128_S1x512x128_9_0_0) (fun _ => rfl)).squeeze S512x128 squeezes_S1x512x128_S512x128
  | 10 => ((Memref.whole cc0_scratch3 : Memref sig .tc .vmem S16x512x128 .bf16).slice (Rect.unit (s := S16x512x128) ![10, 0, 0] S1x512x128.size inb_S16x512x128_S1x512x128_10_0_0) (fun _ => rfl)).squeeze S512x128 squeezes_S1x512x128_S512x128
  | 11 => ((Memref.whole cc0_scratch3 : Memref sig .tc .vmem S16x512x128 .bf16).slice (Rect.unit (s := S16x512x128) ![11, 0, 0] S1x512x128.size inb_S16x512x128_S1x512x128_11_0_0) (fun _ => rfl)).squeeze S512x128 squeezes_S1x512x128_S512x128
  | 12 => ((Memref.whole cc0_scratch3 : Memref sig .tc .vmem S16x512x128 .bf16).slice (Rect.unit (s := S16x512x128) ![12, 0, 0] S1x512x128.size inb_S16x512x128_S1x512x128_12_0_0) (fun _ => rfl)).squeeze S512x128 squeezes_S1x512x128_S512x128
  | 13 => ((Memref.whole cc0_scratch3 : Memref sig .tc .vmem S16x512x128 .bf16).slice (Rect.unit (s := S16x512x128) ![13, 0, 0] S1x512x128.size inb_S16x512x128_S1x512x128_13_0_0) (fun _ => rfl)).squeeze S512x128 squeezes_S1x512x128_S512x128
  | 14 => ((Memref.whole cc0_scratch3 : Memref sig .tc .vmem S16x512x128 .bf16).slice (Rect.unit (s := S16x512x128) ![14, 0, 0] S1x512x128.size inb_S16x512x128_S1x512x128_14_0_0) (fun _ => rfl)).squeeze S512x128 squeezes_S1x512x128_S512x128
  | 15 => ((Memref.whole cc0_scratch3 : Memref sig .tc .vmem S16x512x128 .bf16).slice (Rect.unit (s := S16x512x128) ![15, 0, 0] S1x512x128.size inb_S16x512x128_S1x512x128_15_0_0) (fun _ => rfl)).squeeze S512x128 squeezes_S1x512x128_S512x128
  | ⟨_ + 16, h⟩ => absurd h (by omega)

/-- of the buffer the neighbour along the first axis writes. -/
def xslot : Fin 16 → Memref sig .tc .vmem S512x128 .bf16
  | 0 => ((Memref.whole cc0_scratch4 : Memref sig .tc .vmem S16x512x128 .bf16).slice (Rect.unit (s := S16x512x128) ![0, 0, 0] S1x512x128.size inb_S16x512x128_S1x512x128_0_0_0) (fun _ => rfl)).squeeze S512x128 squeezes_S1x512x128_S512x128
  | 1 => ((Memref.whole cc0_scratch4 : Memref sig .tc .vmem S16x512x128 .bf16).slice (Rect.unit (s := S16x512x128) ![1, 0, 0] S1x512x128.size inb_S16x512x128_S1x512x128_1_0_0) (fun _ => rfl)).squeeze S512x128 squeezes_S1x512x128_S512x128
  | 2 => ((Memref.whole cc0_scratch4 : Memref sig .tc .vmem S16x512x128 .bf16).slice (Rect.unit (s := S16x512x128) ![2, 0, 0] S1x512x128.size inb_S16x512x128_S1x512x128_2_0_0) (fun _ => rfl)).squeeze S512x128 squeezes_S1x512x128_S512x128
  | 3 => ((Memref.whole cc0_scratch4 : Memref sig .tc .vmem S16x512x128 .bf16).slice (Rect.unit (s := S16x512x128) ![3, 0, 0] S1x512x128.size inb_S16x512x128_S1x512x128_3_0_0) (fun _ => rfl)).squeeze S512x128 squeezes_S1x512x128_S512x128
  | 4 => ((Memref.whole cc0_scratch4 : Memref sig .tc .vmem S16x512x128 .bf16).slice (Rect.unit (s := S16x512x128) ![4, 0, 0] S1x512x128.size inb_S16x512x128_S1x512x128_4_0_0) (fun _ => rfl)).squeeze S512x128 squeezes_S1x512x128_S512x128
  | 5 => ((Memref.whole cc0_scratch4 : Memref sig .tc .vmem S16x512x128 .bf16).slice (Rect.unit (s := S16x512x128) ![5, 0, 0] S1x512x128.size inb_S16x512x128_S1x512x128_5_0_0) (fun _ => rfl)).squeeze S512x128 squeezes_S1x512x128_S512x128
  | 6 => ((Memref.whole cc0_scratch4 : Memref sig .tc .vmem S16x512x128 .bf16).slice (Rect.unit (s := S16x512x128) ![6, 0, 0] S1x512x128.size inb_S16x512x128_S1x512x128_6_0_0) (fun _ => rfl)).squeeze S512x128 squeezes_S1x512x128_S512x128
  | 7 => ((Memref.whole cc0_scratch4 : Memref sig .tc .vmem S16x512x128 .bf16).slice (Rect.unit (s := S16x512x128) ![7, 0, 0] S1x512x128.size inb_S16x512x128_S1x512x128_7_0_0) (fun _ => rfl)).squeeze S512x128 squeezes_S1x512x128_S512x128
  | 8 => ((Memref.whole cc0_scratch4 : Memref sig .tc .vmem S16x512x128 .bf16).slice (Rect.unit (s := S16x512x128) ![8, 0, 0] S1x512x128.size inb_S16x512x128_S1x512x128_8_0_0) (fun _ => rfl)).squeeze S512x128 squeezes_S1x512x128_S512x128
  | 9 => ((Memref.whole cc0_scratch4 : Memref sig .tc .vmem S16x512x128 .bf16).slice (Rect.unit (s := S16x512x128) ![9, 0, 0] S1x512x128.size inb_S16x512x128_S1x512x128_9_0_0) (fun _ => rfl)).squeeze S512x128 squeezes_S1x512x128_S512x128
  | 10 => ((Memref.whole cc0_scratch4 : Memref sig .tc .vmem S16x512x128 .bf16).slice (Rect.unit (s := S16x512x128) ![10, 0, 0] S1x512x128.size inb_S16x512x128_S1x512x128_10_0_0) (fun _ => rfl)).squeeze S512x128 squeezes_S1x512x128_S512x128
  | 11 => ((Memref.whole cc0_scratch4 : Memref sig .tc .vmem S16x512x128 .bf16).slice (Rect.unit (s := S16x512x128) ![11, 0, 0] S1x512x128.size inb_S16x512x128_S1x512x128_11_0_0) (fun _ => rfl)).squeeze S512x128 squeezes_S1x512x128_S512x128
  | 12 => ((Memref.whole cc0_scratch4 : Memref sig .tc .vmem S16x512x128 .bf16).slice (Rect.unit (s := S16x512x128) ![12, 0, 0] S1x512x128.size inb_S16x512x128_S1x512x128_12_0_0) (fun _ => rfl)).squeeze S512x128 squeezes_S1x512x128_S512x128
  | 13 => ((Memref.whole cc0_scratch4 : Memref sig .tc .vmem S16x512x128 .bf16).slice (Rect.unit (s := S16x512x128) ![13, 0, 0] S1x512x128.size inb_S16x512x128_S1x512x128_13_0_0) (fun _ => rfl)).squeeze S512x128 squeezes_S1x512x128_S512x128
  | 14 => ((Memref.whole cc0_scratch4 : Memref sig .tc .vmem S16x512x128 .bf16).slice (Rect.unit (s := S16x512x128) ![14, 0, 0] S1x512x128.size inb_S16x512x128_S1x512x128_14_0_0) (fun _ => rfl)).squeeze S512x128 squeezes_S1x512x128_S512x128
  | 15 => ((Memref.whole cc0_scratch4 : Memref sig .tc .vmem S16x512x128 .bf16).slice (Rect.unit (s := S16x512x128) ![15, 0, 0] S1x512x128.size inb_S16x512x128_S1x512x128_15_0_0) (fun _ => rfl)).squeeze S512x128 squeezes_S1x512x128_S512x128
  | ⟨_ + 16, h⟩ => absurd h (by omega)

def ysendS : Fin 16 → DmaSem sig
  | 0 => ((cc0_scratch7.slice (Rect.unit (s := S16) ![0] S1.size inb_S16_S1_0)).squeeze S_ squeezes_S1_S_).sem
  | 1 => ((cc0_scratch7.slice (Rect.unit (s := S16) ![1] S1.size inb_S16_S1_1)).squeeze S_ squeezes_S1_S_).sem
  | 2 => ((cc0_scratch7.slice (Rect.unit (s := S16) ![2] S1.size inb_S16_S1_2)).squeeze S_ squeezes_S1_S_).sem
  | 3 => ((cc0_scratch7.slice (Rect.unit (s := S16) ![3] S1.size inb_S16_S1_3)).squeeze S_ squeezes_S1_S_).sem
  | 4 => ((cc0_scratch7.slice (Rect.unit (s := S16) ![4] S1.size inb_S16_S1_4)).squeeze S_ squeezes_S1_S_).sem
  | 5 => ((cc0_scratch7.slice (Rect.unit (s := S16) ![5] S1.size inb_S16_S1_5)).squeeze S_ squeezes_S1_S_).sem
  | 6 => ((cc0_scratch7.slice (Rect.unit (s := S16) ![6] S1.size inb_S16_S1_6)).squeeze S_ squeezes_S1_S_).sem
  | 7 => ((cc0_scratch7.slice (Rect.unit (s := S16) ![7] S1.size inb_S16_S1_7)).squeeze S_ squeezes_S1_S_).sem
  | 8 => ((cc0_scratch7.slice (Rect.unit (s := S16) ![8] S1.size inb_S16_S1_8)).squeeze S_ squeezes_S1_S_).sem
  | 9 => ((cc0_scratch7.slice (Rect.unit (s := S16) ![9] S1.size inb_S16_S1_9)).squeeze S_ squeezes_S1_S_).sem
  | 10 => ((cc0_scratch7.slice (Rect.unit (s := S16) ![10] S1.size inb_S16_S1_10)).squeeze S_ squeezes_S1_S_).sem
  | 11 => ((cc0_scratch7.slice (Rect.unit (s := S16) ![11] S1.size inb_S16_S1_11)).squeeze S_ squeezes_S1_S_).sem
  | 12 => ((cc0_scratch7.slice (Rect.unit (s := S16) ![12] S1.size inb_S16_S1_12)).squeeze S_ squeezes_S1_S_).sem
  | 13 => ((cc0_scratch7.slice (Rect.unit (s := S16) ![13] S1.size inb_S16_S1_13)).squeeze S_ squeezes_S1_S_).sem
  | 14 => ((cc0_scratch7.slice (Rect.unit (s := S16) ![14] S1.size inb_S16_S1_14)).squeeze S_ squeezes_S1_S_).sem
  | 15 => ((cc0_scratch7.slice (Rect.unit (s := S16) ![15] S1.size inb_S16_S1_15)).squeeze S_ squeezes_S1_S_).sem
  | ⟨_ + 16, h⟩ => absurd h (by omega)

def yrecvS : Fin 16 → DmaSem sig
  | 0 => ((cc0_scratch8.slice (Rect.unit (s := S16) ![0] S1.size inb_S16_S1_0)).squeeze S_ squeezes_S1_S_).sem
  | 1 => ((cc0_scratch8.slice (Rect.unit (s := S16) ![1] S1.size inb_S16_S1_1)).squeeze S_ squeezes_S1_S_).sem
  | 2 => ((cc0_scratch8.slice (Rect.unit (s := S16) ![2] S1.size inb_S16_S1_2)).squeeze S_ squeezes_S1_S_).sem
  | 3 => ((cc0_scratch8.slice (Rect.unit (s := S16) ![3] S1.size inb_S16_S1_3)).squeeze S_ squeezes_S1_S_).sem
  | 4 => ((cc0_scratch8.slice (Rect.unit (s := S16) ![4] S1.size inb_S16_S1_4)).squeeze S_ squeezes_S1_S_).sem
  | 5 => ((cc0_scratch8.slice (Rect.unit (s := S16) ![5] S1.size inb_S16_S1_5)).squeeze S_ squeezes_S1_S_).sem
  | 6 => ((cc0_scratch8.slice (Rect.unit (s := S16) ![6] S1.size inb_S16_S1_6)).squeeze S_ squeezes_S1_S_).sem
  | 7 => ((cc0_scratch8.slice (Rect.unit (s := S16) ![7] S1.size inb_S16_S1_7)).squeeze S_ squeezes_S1_S_).sem
  | 8 => ((cc0_scratch8.slice (Rect.unit (s := S16) ![8] S1.size inb_S16_S1_8)).squeeze S_ squeezes_S1_S_).sem
  | 9 => ((cc0_scratch8.slice (Rect.unit (s := S16) ![9] S1.size inb_S16_S1_9)).squeeze S_ squeezes_S1_S_).sem
  | 10 => ((cc0_scratch8.slice (Rect.unit (s := S16) ![10] S1.size inb_S16_S1_10)).squeeze S_ squeezes_S1_S_).sem
  | 11 => ((cc0_scratch8.slice (Rect.unit (s := S16) ![11] S1.size inb_S16_S1_11)).squeeze S_ squeezes_S1_S_).sem
  | 12 => ((cc0_scratch8.slice (Rect.unit (s := S16) ![12] S1.size inb_S16_S1_12)).squeeze S_ squeezes_S1_S_).sem
  | 13 => ((cc0_scratch8.slice (Rect.unit (s := S16) ![13] S1.size inb_S16_S1_13)).squeeze S_ squeezes_S1_S_).sem
  | 14 => ((cc0_scratch8.slice (Rect.unit (s := S16) ![14] S1.size inb_S16_S1_14)).squeeze S_ squeezes_S1_S_).sem
  | 15 => ((cc0_scratch8.slice (Rect.unit (s := S16) ![15] S1.size inb_S16_S1_15)).squeeze S_ squeezes_S1_S_).sem
  | ⟨_ + 16, h⟩ => absurd h (by omega)

def fsendS : Fin 16 → DmaSem sig
  | 0 => ((cc0_scratch9.slice (Rect.unit (s := S16) ![0] S1.size inb_S16_S1_0)).squeeze S_ squeezes_S1_S_).sem
  | 1 => ((cc0_scratch9.slice (Rect.unit (s := S16) ![1] S1.size inb_S16_S1_1)).squeeze S_ squeezes_S1_S_).sem
  | 2 => ((cc0_scratch9.slice (Rect.unit (s := S16) ![2] S1.size inb_S16_S1_2)).squeeze S_ squeezes_S1_S_).sem
  | 3 => ((cc0_scratch9.slice (Rect.unit (s := S16) ![3] S1.size inb_S16_S1_3)).squeeze S_ squeezes_S1_S_).sem
  | 4 => ((cc0_scratch9.slice (Rect.unit (s := S16) ![4] S1.size inb_S16_S1_4)).squeeze S_ squeezes_S1_S_).sem
  | 5 => ((cc0_scratch9.slice (Rect.unit (s := S16) ![5] S1.size inb_S16_S1_5)).squeeze S_ squeezes_S1_S_).sem
  | 6 => ((cc0_scratch9.slice (Rect.unit (s := S16) ![6] S1.size inb_S16_S1_6)).squeeze S_ squeezes_S1_S_).sem
  | 7 => ((cc0_scratch9.slice (Rect.unit (s := S16) ![7] S1.size inb_S16_S1_7)).squeeze S_ squeezes_S1_S_).sem
  | 8 => ((cc0_scratch9.slice (Rect.unit (s := S16) ![8] S1.size inb_S16_S1_8)).squeeze S_ squeezes_S1_S_).sem
  | 9 => ((cc0_scratch9.slice (Rect.unit (s := S16) ![9] S1.size inb_S16_S1_9)).squeeze S_ squeezes_S1_S_).sem
  | 10 => ((cc0_scratch9.slice (Rect.unit (s := S16) ![10] S1.size inb_S16_S1_10)).squeeze S_ squeezes_S1_S_).sem
  | 11 => ((cc0_scratch9.slice (Rect.unit (s := S16) ![11] S1.size inb_S16_S1_11)).squeeze S_ squeezes_S1_S_).sem
  | 12 => ((cc0_scratch9.slice (Rect.unit (s := S16) ![12] S1.size inb_S16_S1_12)).squeeze S_ squeezes_S1_S_).sem
  | 13 => ((cc0_scratch9.slice (Rect.unit (s := S16) ![13] S1.size inb_S16_S1_13)).squeeze S_ squeezes_S1_S_).sem
  | 14 => ((cc0_scratch9.slice (Rect.unit (s := S16) ![14] S1.size inb_S16_S1_14)).squeeze S_ squeezes_S1_S_).sem
  | 15 => ((cc0_scratch9.slice (Rect.unit (s := S16) ![15] S1.size inb_S16_S1_15)).squeeze S_ squeezes_S1_S_).sem
  | ⟨_ + 16, h⟩ => absurd h (by omega)

def xrecvS : Fin 16 → DmaSem sig
  | 0 => ((cc0_scratch10.slice (Rect.unit (s := S16) ![0] S1.size inb_S16_S1_0)).squeeze S_ squeezes_S1_S_).sem
  | 1 => ((cc0_scratch10.slice (Rect.unit (s := S16) ![1] S1.size inb_S16_S1_1)).squeeze S_ squeezes_S1_S_).sem
  | 2 => ((cc0_scratch10.slice (Rect.unit (s := S16) ![2] S1.size inb_S16_S1_2)).squeeze S_ squeezes_S1_S_).sem
  | 3 => ((cc0_scratch10.slice (Rect.unit (s := S16) ![3] S1.size inb_S16_S1_3)).squeeze S_ squeezes_S1_S_).sem
  | 4 => ((cc0_scratch10.slice (Rect.unit (s := S16) ![4] S1.size inb_S16_S1_4)).squeeze S_ squeezes_S1_S_).sem
  | 5 => ((cc0_scratch10.slice (Rect.unit (s := S16) ![5] S1.size inb_S16_S1_5)).squeeze S_ squeezes_S1_S_).sem
  | 6 => ((cc0_scratch10.slice (Rect.unit (s := S16) ![6] S1.size inb_S16_S1_6)).squeeze S_ squeezes_S1_S_).sem
  | 7 => ((cc0_scratch10.slice (Rect.unit (s := S16) ![7] S1.size inb_S16_S1_7)).squeeze S_ squeezes_S1_S_).sem
  | 8 => ((cc0_scratch10.slice (Rect.unit (s := S16) ![8] S1.size inb_S16_S1_8)).squeeze S_ squeezes_S1_S_).sem
  | 9 => ((cc0_scratch10.slice (Rect.unit (s := S16) ![9] S1.size inb_S16_S1_9)).squeeze S_ squeezes_S1_S_).sem
  | 10 => ((cc0_scratch10.slice (Rect.unit (s := S16) ![10] S1.size inb_S16_S1_10)).squeeze S_ squeezes_S1_S_).sem
  | 11 => ((cc0_scratch10.slice (Rect.unit (s := S16) ![11] S1.size inb_S16_S1_11)).squeeze S_ squeezes_S1_S_).sem
  | 12 => ((cc0_scratch10.slice (Rect.unit (s := S16) ![12] S1.size inb_S16_S1_12)).squeeze S_ squeezes_S1_S_).sem
  | 13 => ((cc0_scratch10.slice (Rect.unit (s := S16) ![13] S1.size inb_S16_S1_13)).squeeze S_ squeezes_S1_S_).sem
  | 14 => ((cc0_scratch10.slice (Rect.unit (s := S16) ![14] S1.size inb_S16_S1_14)).squeeze S_ squeezes_S1_S_).sem
  | 15 => ((cc0_scratch10.slice (Rect.unit (s := S16) ![15] S1.size inb_S16_S1_15)).squeeze S_ squeezes_S1_S_).sem
  | ⟨_ + 16, h⟩ => absurd h (by omega)

/-- The eight semaphores of the local copies of `dy` into its buffer, and the eight of the local copies of the result out of its buffer. -/
def copyS : Fin 8 → DmaSem sig
  | 0 => ((cc0_scratch5.slice (Rect.unit (s := S8) ![0] S1.size inb_S8_S1_0)).squeeze S_ squeezes_S1_S_).sem
  | 1 => ((cc0_scratch5.slice (Rect.unit (s := S8) ![1] S1.size inb_S8_S1_1)).squeeze S_ squeezes_S1_S_).sem
  | 2 => ((cc0_scratch5.slice (Rect.unit (s := S8) ![2] S1.size inb_S8_S1_2)).squeeze S_ squeezes_S1_S_).sem
  | 3 => ((cc0_scratch5.slice (Rect.unit (s := S8) ![3] S1.size inb_S8_S1_3)).squeeze S_ squeezes_S1_S_).sem
  | 4 => ((cc0_scratch5.slice (Rect.unit (s := S8) ![4] S1.size inb_S8_S1_4)).squeeze S_ squeezes_S1_S_).sem
  | 5 => ((cc0_scratch5.slice (Rect.unit (s := S8) ![5] S1.size inb_S8_S1_5)).squeeze S_ squeezes_S1_S_).sem
  | 6 => ((cc0_scratch5.slice (Rect.unit (s := S8) ![6] S1.size inb_S8_S1_6)).squeeze S_ squeezes_S1_S_).sem
  | 7 => ((cc0_scratch5.slice (Rect.unit (s := S8) ![7] S1.size inb_S8_S1_7)).squeeze S_ squeezes_S1_S_).sem
  | ⟨_ + 8, h⟩ => absurd h (by omega)

def outS : Fin 8 → DmaSem sig
  | 0 => ((cc0_scratch6.slice (Rect.unit (s := S8) ![0] S1.size inb_S8_S1_0)).squeeze S_ squeezes_S1_S_).sem
  | 1 => ((cc0_scratch6.slice (Rect.unit (s := S8) ![1] S1.size inb_S8_S1_1)).squeeze S_ squeezes_S1_S_).sem
  | 2 => ((cc0_scratch6.slice (Rect.unit (s := S8) ![2] S1.size inb_S8_S1_2)).squeeze S_ squeezes_S1_S_).sem
  | 3 => ((cc0_scratch6.slice (Rect.unit (s := S8) ![3] S1.size inb_S8_S1_3)).squeeze S_ squeezes_S1_S_).sem
  | 4 => ((cc0_scratch6.slice (Rect.unit (s := S8) ![4] S1.size inb_S8_S1_4)).squeeze S_ squeezes_S1_S_).sem
  | 5 => ((cc0_scratch6.slice (Rect.unit (s := S8) ![5] S1.size inb_S8_S1_5)).squeeze S_ squeezes_S1_S_).sem
  | 6 => ((cc0_scratch6.slice (Rect.unit (s := S8) ![6] S1.size inb_S8_S1_6)).squeeze S_ squeezes_S1_S_).sem
  | 7 => ((cc0_scratch6.slice (Rect.unit (s := S8) ![7] S1.size inb_S8_S1_7)).squeeze S_ squeezes_S1_S_).sem
  | ⟨_ + 8, h⟩ => absurd h (by omega)

theorem copyS_val (j : Fin 8) : (copyS j).val = 1 + j.val := by fin_cases j <;> rfl
theorem outS_val (j : Fin 8) : (outS j).val = 9 + j.val := by fin_cases j <;> rfl

/-- The four kinds of transfer semaphore by number: outgoing chunk, incoming chunk, outgoing forward, incoming forward. -/
def xsem : Fin 4 → Fin 16 → DmaSem sig := fun k j => match k with | 0 => ysendS j | 1 => yrecvS j | 2 => fsendS j | 3 => xrecvS j
/-- A device's cells under the rounds discipline: the barrier's, and the sixty-four transfer cells. -/
def csem : Option (Fin 4 × Fin 16) → SemLoc sig
  | none => .reg ((SemArray.scalar (sig.barrier 0 rfl) : Sems sig S_).sem)
  | some (k, j) => .dma (xsem k j)
abbrev kcell (ck : Dev nD × Option (Fin 4 × Fin 16)) : GSem nD τ sig := ((ck.1 : Thread nD τ), csem ck.2)

/-- The runtime's barrier semaphore (not scoped to the launch). -/
abbrev barS : Sem sig := (SemArray.scalar (sig.barrier 0 rfl) : Sems sig S_).sem

abbrev barCell (c : Dev nD) : GSem nD τ sig := ((c : Thread nD τ), .reg barS)
abbrev ysendCell (c : Dev nD) (j : Fin 16) : GSem nD τ sig := ((c : Thread nD τ), .dma (ysendS j))
abbrev yrecvCell (c : Dev nD) (j : Fin 16) : GSem nD τ sig := ((c : Thread nD τ), .dma (yrecvS j))
abbrev fsendCell (c : Dev nD) (j : Fin 16) : GSem nD τ sig := ((c : Thread nD τ), .dma (fsendS j))
abbrev xrecvCell (c : Dev nD) (j : Fin 16) : GSem nD τ sig := ((c : Thread nD τ), .dma (xrecvS j))

theorem ysendS_val (j : Fin 16) : (ysendS j).val = 17 + j.val := by fin_cases j <;> rfl
theorem yrecvS_val (j : Fin 16) : (yrecvS j).val = 33 + j.val := by fin_cases j <;> rfl
theorem fsendS_val (j : Fin 16) : (fsendS j).val = 49 + j.val := by fin_cases j <;> rfl
theorem xrecvS_val (j : Fin 16) : (xrecvS j).val = 65 + j.val := by fin_cases j <;> rfl

/-- A chunk's credit on a DMA semaphore. -/
abbrev N : ℕ := (yslot 0).view.dmaCredit
theorem N_pos : 0 < N := View.dmaCredit_pos _ (by decide)

end Cert.KernelIdeal.Hand

end
-- ==== Proof.Sched.lean ====
import proofs.«901046_g7700000000001047_dist_rsdw_v7x_xy2x2_y_m1024_d1024_f4096_f32_1_alg».proof.Proof.Gen.KernelIdeal
import proofs.«901046_g7700000000001047_dist_rsdw_v7x_xy2x2_y_m1024_d1024_f4096_f32_1_alg».proof.Proof.Gen.KernelIdeal.Skeleton
import proofs.«901046_g7700000000001047_dist_rsdw_v7x_xy2x2_y_m1024_d1024_f4096_f32_1_alg».proof.Proof.Gen.KernelIdeal.Launch
import proofs.«901046_g7700000000001047_dist_rsdw_v7x_xy2x2_y_m1024_d1024_f4096_f32_1_alg».proof.Proof.Gen.KernelIdeal.Points
import proofs.«901046_g7700000000001047_dist_rsdw_v7x_xy2x2_y_m1024_d1024_f4096_f32_1_alg».proof.Proof.Basic
import Idealize.ShloMosaic.Lib.Pipeline.Launch
import Idealize.ShloMosaic.Lib.Pipeline.Kit
import Idealize.ShloMosaic.Lib.Tactic

/-! The exchange as rounds.

Every cell has one round. A device's barrier cell has two duties of one unit: its neighbour along the second axis pays the first and hands
over its own receive buffer for the chunks, its neighbour along the first axis pays the second and hands over its receive buffer for the
forwards. Each of the sixty-four transfer cells of a device has one duty of a
chunk's credit: a send cell gives the source slot back (a forward's source is lent at half its share, the other half stays with the device, which reads the
slot while the forward flies), a receive cell gives the written slot at its contents. The contents are parameters
here: what a device's outgoing slots hold when sent, and what its two receive buffers' slots hold when written. -/

set_option maxRecDepth 16384

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (Sb : (c : Dev nD) → (j : Fin 16) → Buf (Elt F) ((sslot j).view.loc (c : Thread nD τ)))
variable (Yc : (c : Dev nD) → (j : Fin 16) → Buf (Elt F) ((yslot j).view.loc (c : Thread nD τ)))
variable (Xc : (c : Dev nD) → (j : Fin 16) → Buf (Elt F) ((xslot j).view.loc (c : Thread nD τ)))

/-- What the neighbour `n` along the second axis hands over with its barrier signal: its sixteen chunk slots, at any contents, and that
    their receive cells are at round 0. -/
def barPayY (n : Dev nD) : sProp 𝕄 :=
  iprop(∃ f, (Memref.whole cc0_scratch3 : Memref sig .tc .vmem S16x512x128 .bf16).view.loc (n : Thread nD τ) ↦{fullShare} f)
/-- The same for the neighbour along the first axis and its buffer of incoming forwards. -/
def barPayX (n : Dev nD) : sProp 𝕄 :=
  iprop(∃ f, (Memref.whole cc0_scratch4 : Memref sig .tc .vmem S16x512x128 .bf16).view.loc (n : Thread nD τ) ↦{fullShare} f)

def ysendPay (c : Dev nD) (j : Fin 16) : sProp 𝕄 := (sslot j).view.loc (c : Thread nD τ) ↦[(sslot j).view.set]{fullShare} Sb c j
def yrecvPay (c : Dev nD) (j : Fin 16) : sProp 𝕄 := (yslot j).view.loc (c : Thread nD τ) ↦[(yslot j).view.set]{fullShare} Yc c j
def fsendPay (c : Dev nD) (j : Fin 16) : sProp 𝕄 := (yslot j).view.loc (c : Thread nD τ) ↦[(yslot j).view.set]{fullShare.left} Yc c j
def xrecvPay (c : Dev nD) (j : Fin 16) : sProp 𝕄 := (xslot j).view.loc (c : Thread nD τ) ↦[(xslot j).view.set]{fullShare} Xc c j

/-- Whether a cell is one of the sixty-four transfer cells: DMA semaphores 17 to 80. -/
abbrev IsBar (g : GSem nD τ sig) : Prop := g.1.2 = .tc ∧ g.2 = .reg barS
abbrev IsXfer (g : GSem nD τ sig) : Prop := g.1.2 = .tc ∧ ∃ n : DmaSem sig, g.2 = .dma n ∧ 17 ≤ n.val

def xferPay (c : Dev nD) (n : DmaSem sig) : sProp 𝕄 :=
  if h : 17 ≤ n.val ∧ n.val < 33 then ysendPay Sb c ⟨n.val - 17, by omega⟩
  else if h : 33 ≤ n.val ∧ n.val < 49 then yrecvPay Yc c ⟨n.val - 33, by omega⟩
  else if h : 49 ≤ n.val ∧ n.val < 65 then fsendPay Yc c ⟨n.val - 49, by omega⟩
  else if h : 65 ≤ n.val ∧ n.val < 81 then xrecvPay Xc c ⟨n.val - 65, by omega⟩
  else iprop(emp)

def xRd : Rounds.Schedule (GSem nD τ sig) Bool 𝕄 where
  duties g r := if r = 0 ∧ IsBar g then Finset.univ else if r = 0 ∧ IsXfer g then {false} else ∅
  unitless _ := False
  amount g _ _ := if g.2 = .reg barS then 1 else N
  payload g _ d := match g.2 with
    | .reg s => if s = barS then (if d then barPayX (xnb g.1.1) else barPayY (ynb g.1.1)) else iprop(emp)
    | .dma n => xferPay Sb Yc Xc g.1.1 n
  amount_pos g _ _ _ := by
    by_cases h : g.2 = .reg barS
    · rw [if_pos h]; exact Nat.one_pos
    · rw [if_neg h]; exact N_pos

set_option synthInstance.maxHeartbeats 2000000 in
set_option synthInstance.maxSize 8192 in
set_option maxHeartbeats 2000000 in
instance xRd_payload_storable (g : GSem nD τ sig) (r : ℕ) (d : Bool) :
    BI.Storable (upEmb : UEmb _ 𝕄) ((xRd (F := F) Sb Yc Xc).payload g r d) := by
  show BI.Storable upEmb (match g.2 with
    | .reg s => if s = barS then (if d then barPayX (xnb g.1.1) else barPayY (ynb g.1.1)) else iprop(emp)
    | .dma n => xferPay Sb Yc Xc g.1.1 n)
  unfold xferPay barPayX barPayY ysendPay yrecvPay fsendPay xrecvPay
  (repeat' split) <;> infer_instance

/-! ## The tables -/

section Tables
variable (c : Dev nD) (j : Fin 16)

theorem dma_ne_bar (n : DmaSem sig) : (SemLoc.dma n : SemLoc sig) ≠ .reg barS := fun h => by cases h

theorem not_bar_ysend : ¬ IsBar (ysendCell c j) := fun h => dma_ne_bar _ h.2
theorem isXfer_ysend : IsXfer (ysendCell c j) := ⟨rfl, ysendS j, rfl, by rw [ysendS_val]; omega⟩
omit [FloatOps F] in
theorem duties_ysend : (xRd (F := F) Sb Yc Xc).duties (ysendCell c j) 0 = {false} := by
  dsimp only [xRd]; rw [if_neg (fun h => not_bar_ysend c j h.2)]; exact if_pos ⟨rfl, isXfer_ysend c j⟩
omit [FloatOps F] in
theorem amount_ysend (d : Bool) : (xRd (F := F) Sb Yc Xc).amount (ysendCell c j) 0 d = N := by dsimp only [xRd]; exact if_neg (dma_ne_bar _)
omit [FloatOps F] in
theorem expect_ysend : (xRd (F := F) Sb Yc Xc).expect (ysendCell c j) 0 = N := by
  unfold Schedule.expect Schedule.amountOf; rw [duties_ysend, Finset.sum_singleton, amount_ysend]
omit [FloatOps F] in
theorem payload_ysend (d : Bool) : (xRd (F := F) Sb Yc Xc).payload (ysendCell c j) 0 d = ((sslot j).view.loc (c : Thread nD τ) ↦[(sslot j).view.set]{fullShare} Sb c j : sProp 𝕄) := by
  show xferPay Sb Yc Xc c (ysendS j) = _
  fin_cases j <;> rfl
omit [FloatOps F] in
theorem rest_ysend : bigSep ((xRd (F := F) Sb Yc Xc).duties (ysendCell c j) 0 \ ∅) (fun d => (xRd (F := F) Sb Yc Xc).payload (ysendCell c j) 0 d) = ((sslot j).view.loc (c : Thread nD τ) ↦[(sslot j).view.set]{fullShare} Sb c j : sProp 𝕄) := by
  rw [Finset.sdiff_empty, duties_ysend, bigSep_singleton, payload_ysend]

theorem not_bar_yrecv : ¬ IsBar (yrecvCell c j) := fun h => dma_ne_bar _ h.2
theorem isXfer_yrecv : IsXfer (yrecvCell c j) := ⟨rfl, yrecvS j, rfl, by rw [yrecvS_val]; omega⟩
omit [FloatOps F] in
theorem duties_yrecv : (xRd (F := F) Sb Yc Xc).duties (yrecvCell c j) 0 = {false} := by
  dsimp only [xRd]; rw [if_neg (fun h => not_bar_yrecv c j h.2)]; exact if_pos ⟨rfl, isXfer_yrecv c j⟩
omit [FloatOps F] in
theorem amount_yrecv (d : Bool) : (xRd (F := F) Sb Yc Xc).amount (yrecvCell c j) 0 d = N := by dsimp only [xRd]; exact if_neg (dma_ne_bar _)
omit [FloatOps F] in
theorem expect_yrecv : (xRd (F := F) Sb Yc Xc).expect (yrecvCell c j) 0 = N := by
  unfold Schedule.expect Schedule.amountOf; rw [duties_yrecv, Finset.sum_singleton, amount_yrecv]
omit [FloatOps F] in
theorem payload_yrecv (d : Bool) : (xRd (F := F) Sb Yc Xc).payload (yrecvCell c j) 0 d = ((yslot j).view.loc (c : Thread nD τ) ↦[(yslot j).view.set]{fullShare} Yc c j : sProp 𝕄) := by
  show xferPay Sb Yc Xc c (yrecvS j) = _
  fin_cases j <;> rfl
omit [FloatOps F] in
theorem rest_yrecv : bigSep ((xRd (F := F) Sb Yc Xc).duties (yrecvCell c j) 0 \ ∅) (fun d => (xRd (F := F) Sb Yc Xc).payload (yrecvCell c j) 0 d) = ((yslot j).view.loc (c : Thread nD τ) ↦[(yslot j).view.set]{fullShare} Yc c j : sProp 𝕄) := by
  rw [Finset.sdiff_empty, duties_yrecv, bigSep_singleton, payload_yrecv]

theorem not_bar_fsend : ¬ IsBar (fsendCell c j) := fun h => dma_ne_bar _ h.2
theorem isXfer_fsend : IsXfer (fsendCell c j) := ⟨rfl, fsendS j, rfl, by rw [fsendS_val]; omega⟩
omit [FloatOps F] in
theorem duties_fsend : (xRd (F := F) Sb Yc Xc).duties (fsendCell c j) 0 = {false} := by
  dsimp only [xRd]; rw [if_neg (fun h => not_bar_fsend c j h.2)]; exact if_pos ⟨rfl, isXfer_fsend c j⟩
omit [FloatOps F] in
theorem amount_fsend (d : Bool) : (xRd (F := F) Sb Yc Xc).amount (fsendCell c j) 0 d = N := by dsimp only [xRd]; exact if_neg (dma_ne_bar _)
omit [FloatOps F] in
theorem expect_fsend : (xRd (F := F) Sb Yc Xc).expect (fsendCell c j) 0 = N := by
  unfold Schedule.expect Schedule.amountOf; rw [duties_fsend, Finset.sum_singleton, amount_fsend]
omit [FloatOps F] in
theorem payload_fsend (d : Bool) : (xRd (F := F) Sb Yc Xc).payload (fsendCell c j) 0 d = ((yslot j).view.loc (c : Thread nD τ) ↦[(yslot j).view.set]{fullShare.left} Yc c j : sProp 𝕄) := by
  show xferPay Sb Yc Xc c (fsendS j) = _
  fin_cases j <;> rfl
omit [FloatOps F] in
theorem rest_fsend : bigSep ((xRd (F := F) Sb Yc Xc).duties (fsendCell c j) 0 \ ∅) (fun d => (xRd (F := F) Sb Yc Xc).payload (fsendCell c j) 0 d) = ((yslot j).view.loc (c : Thread nD τ) ↦[(yslot j).view.set]{fullShare.left} Yc c j : sProp 𝕄) := by
  rw [Finset.sdiff_empty, duties_fsend, bigSep_singleton, payload_fsend]

theorem not_bar_xrecv : ¬ IsBar (xrecvCell c j) := fun h => dma_ne_bar _ h.2
theorem isXfer_xrecv : IsXfer (xrecvCell c j) := ⟨rfl, xrecvS j, rfl, by rw [xrecvS_val]; omega⟩
omit [FloatOps F] in
theorem duties_xrecv : (xRd (F := F) Sb Yc Xc).duties (xrecvCell c j) 0 = {false} := by
  dsimp only [xRd]; rw [if_neg (fun h => not_bar_xrecv c j h.2)]; exact if_pos ⟨rfl, isXfer_xrecv c j⟩
omit [FloatOps F] in
theorem amount_xrecv (d : Bool) : (xRd (F := F) Sb Yc Xc).amount (xrecvCell c j) 0 d = N := by dsimp only [xRd]; exact if_neg (dma_ne_bar _)
omit [FloatOps F] in
theorem expect_xrecv : (xRd (F := F) Sb Yc Xc).expect (xrecvCell c j) 0 = N := by
  unfold Schedule.expect Schedule.amountOf; rw [duties_xrecv, Finset.sum_singleton, amount_xrecv]
omit [FloatOps F] in
theorem payload_xrecv (d : Bool) : (xRd (F := F) Sb Yc Xc).payload (xrecvCell c j) 0 d = ((xslot j).view.loc (c : Thread nD τ) ↦[(xslot j).view.set]{fullShare} Xc c j : sProp 𝕄) := by
  show xferPay Sb Yc Xc c (xrecvS j) = _
  fin_cases j <;> rfl
omit [FloatOps F] in
theorem rest_xrecv : bigSep ((xRd (F := F) Sb Yc Xc).duties (xrecvCell c j) 0 \ ∅) (fun d => (xRd (F := F) Sb Yc Xc).payload (xrecvCell c j) 0 d) = ((xslot j).view.loc (c : Thread nD τ) ↦[(xslot j).view.set]{fullShare} Xc c j : sProp 𝕄) := by
  rw [Finset.sdiff_empty, duties_xrecv, bigSep_singleton, payload_xrecv]

omit [FloatOps F] in
theorem duties_bar : (xRd (F := F) Sb Yc Xc).duties (barCell c) 0 = Finset.univ := by dsimp only [xRd]; exact if_pos ⟨rfl, rfl, rfl⟩
omit [FloatOps F] in
theorem duties_later (g : GSem nD τ sig) : ∀ r, 1 ≤ r → (xRd (F := F) Sb Yc Xc).duties g r = ∅ :=
  fun r hr => by dsimp only [xRd]; rw [if_neg fun h => by omega, if_neg fun h => by omega]
omit [FloatOps F] in
theorem amount_bar (d : Bool) : (xRd (F := F) Sb Yc Xc).amount (barCell c) 0 d = 1 := by dsimp only [xRd]; exact if_pos rfl
omit [FloatOps F] in
theorem expect_bar : (xRd (F := F) Sb Yc Xc).expect (barCell c) 0 = 2 := by
  unfold Schedule.expect Schedule.amountOf
  rw [duties_bar, Finset.sum_congr rfl fun d _ => amount_bar Sb Yc Xc c d, Finset.sum_const, Finset.card_univ, Fintype.card_bool, smul_eq_mul]
omit [FloatOps F] in
/-- At the wait: the duty the neighbour along the second axis pays hands over that neighbour's slots, -/
theorem payload_bar_false : (xRd (F := F) Sb Yc Xc).payload (barCell c) 0 false = (iprop(∃ f, (Memref.whole cc0_scratch3 : Memref sig .tc .vmem S16x512x128 .bf16).view.loc (ynb c : Thread nD τ) ↦{fullShare} f) : sProp 𝕄) := by
  show (if barS = barS then (if false = true then barPayX (xnb c) else barPayY (ynb c)) else iprop(emp)) = _
  rw [if_pos rfl, if_neg Bool.false_ne_true]; rfl
omit [FloatOps F] in
/-- the other duty the other neighbour's. -/
theorem payload_bar_true : (xRd (F := F) Sb Yc Xc).payload (barCell c) 0 true = (iprop(∃ f, (Memref.whole cc0_scratch4 : Memref sig .tc .vmem S16x512x128 .bf16).view.loc (xnb c : Thread nD τ) ↦{fullShare} f) : sProp 𝕄) := by
  show (if barS = barS then (if true = true then barPayX (xnb c) else barPayY (ynb c)) else iprop(emp)) = _
  rw [if_pos rfl, if_pos rfl]; rfl
omit [FloatOps F] in
/-- At the signals: what this device hands its two neighbours is its own slots. -/
theorem payload_bar_false_at : (xRd (F := F) Sb Yc Xc).payload (barCell (ynb c)) 0 false = (iprop(∃ f, (Memref.whole cc0_scratch3 : Memref sig .tc .vmem S16x512x128 .bf16).view.loc (c : Thread nD τ) ↦{fullShare} f) : sProp 𝕄) := by
  rw [payload_bar_false, ynb_ynb]
omit [FloatOps F] in
theorem payload_bar_true_at : (xRd (F := F) Sb Yc Xc).payload (barCell (xnb c)) 0 true = (iprop(∃ f, (Memref.whole cc0_scratch4 : Memref sig .tc .vmem S16x512x128 .bf16).view.loc (c : Thread nD τ) ↦{fullShare} f) : sProp 𝕄) := by
  rw [payload_bar_true, xnb_xnb]

end Tables

end Cert.KernelIdeal.Hand

end
-- ==== Proof.Proto.lean ====
import proofs.«901046_g7700000000001047_dist_rsdw_v7x_xy2x2_y_m1024_d1024_f4096_f32_1_alg».proof.Proof.Gen.KernelIdeal
import proofs.«901046_g7700000000001047_dist_rsdw_v7x_xy2x2_y_m1024_d1024_f4096_f32_1_alg».proof.Proof.Gen.KernelIdeal.Skeleton
import proofs.«901046_g7700000000001047_dist_rsdw_v7x_xy2x2_y_m1024_d1024_f4096_f32_1_alg».proof.Proof.Gen.KernelIdeal.Launch
import proofs.«901046_g7700000000001047_dist_rsdw_v7x_xy2x2_y_m1024_d1024_f4096_f32_1_alg».proof.Proof.Gen.KernelIdeal.Points
import proofs.«901046_g7700000000001047_dist_rsdw_v7x_xy2x2_y_m1024_d1024_f4096_f32_1_alg».proof.Proof.Sched
import Idealize.ShloMosaic.Lib.Pipeline.Launch
import Idealize.ShloMosaic.Lib.Pipeline.Kit
import Idealize.ShloMosaic.Lib.Tactic

/-! What a device's body starts from and ends with: the interface between the launch and the body.

A device's body starts holding: the invariants of its own sixty-five cells and of the thirty-four cells of its neighbours it pays into;
its position at round 0 of each of its own cells; the one-shot tokens of the duties it pays (two barrier units, sixteen chunks into the
neighbour along the second axis, sixteen forwards into the neighbour along the first, and its own thirty-two send cells' duties); the
credit of its barrier cell and of its thirty-two receive cells; the sixteen semaphores of its local copies at zero; its scratch buffers;
and the two arrays in device memory the kernel routes itself, the second argument and the result. It ends with every semaphore of its
own at zero, the second argument as it was and the result at its final contents. -/

set_option maxRecDepth 16384

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (Sb : (c : Dev nD) → (j : Fin 16) → Buf (Elt F) ((sslot j).view.loc (c : Thread nD τ)))
variable (Yc : (c : Dev nD) → (j : Fin 16) → Buf (Elt F) ((yslot j).view.loc (c : Thread nD τ)))
variable (Xc : (c : Dev nD) → (j : Fin 16) → Buf (Elt F) ((xslot j).view.loc (c : Thread nD τ)))
variable (OutP : (c : Dev nD) → Buf (Elt F) ((c : Thread nD τ).loc main_v1) → Prop)

/-- The memory at launch: arbitrary contents, every semaphore counter zero, arbitrary generator registers. -/
def s₀ : MemSt nD τ sig (Elt F) := ⟨m, fun _ => 0, ρ⟩

/-- The staged first argument. -/
def xstg (c : Dev nD) : (cc0_stg0_0 : Ref sig .tc).ty.Contents (Elt F) :=
  (win0_0.blk (0 : Fin 1)).view.read (Elt F) (m ((c : Thread nD τ).loc main_arg0))

/-! ## What each device owes at launch; the levels

The sum is written so that each payment, in program order (the two barrier signals, the sixteen chunks, the sixteen forwards), takes off
its last summand. -/

def O₀ (c : Dev nD) : CellTallies nD τ sig Unit :=
  tallyAt (xrecvCell (xnb c) 15) () N + tallyAt (xrecvCell (xnb c) 14) () N + tallyAt (xrecvCell (xnb c) 13) () N + tallyAt (xrecvCell (xnb c) 12) () N + tallyAt (xrecvCell (xnb c) 11) () N + tallyAt (xrecvCell (xnb c) 10) () N + tallyAt (xrecvCell (xnb c) 9) () N + tallyAt (xrecvCell (xnb c) 8) () N + tallyAt (xrecvCell (xnb c) 7) () N + tallyAt (xrecvCell (xnb c) 6) () N + tallyAt (xrecvCell (xnb c) 5) () N + tallyAt (xrecvCell (xnb c) 4) () N + tallyAt (xrecvCell (xnb c) 3) () N + tallyAt (xrecvCell (xnb c) 2) () N + tallyAt (xrecvCell (xnb c) 1) () N + tallyAt (xrecvCell (xnb c) 0) () N
    + tallyAt (yrecvCell (ynb c) 15) () N + tallyAt (yrecvCell (ynb c) 14) () N + tallyAt (yrecvCell (ynb c) 13) () N + tallyAt (yrecvCell (ynb c) 12) () N + tallyAt (yrecvCell (ynb c) 11) () N + tallyAt (yrecvCell (ynb c) 10) () N + tallyAt (yrecvCell (ynb c) 9) () N + tallyAt (yrecvCell (ynb c) 8) () N + tallyAt (yrecvCell (ynb c) 7) () N + tallyAt (yrecvCell (ynb c) 6) () N + tallyAt (yrecvCell (ynb c) 5) () N + tallyAt (yrecvCell (ynb c) 4) () N + tallyAt (yrecvCell (ynb c) 3) () N + tallyAt (yrecvCell (ynb c) 2) () N + tallyAt (yrecvCell (ynb c) 1) () N + tallyAt (yrecvCell (ynb c) 0) () N
    + tallyAt (barCell (xnb c)) () 1 + tallyAt (barCell (ynb c)) () 1

def L (g : GSem nD τ sig) : Finset Unit := if g.1.2 = .tc then {()} else ∅
/-- The barrier cells at 1, the chunks' receive cells at 2, the forwards' receive cells at 3, everything else at 0: a device waits on a cell
    only while everything it still owes lies above it. -/
def lv (g : GSem nD τ sig) (_ : Unit) : ℕ := match g.2 with
  | .reg s => if s = barS then 1 else 0
  | .dma n => if 33 ≤ n.val ∧ n.val < 49 then 2 else if 65 ≤ n.val then 3 else 0

theorem L_of_ne (g : GSem nD τ sig) (h : g.1.2 ≠ .tc) : L g = ∅ := if_neg h
theorem L_tc (c : Dev nD) (sm : SemLoc sig) : L ((c : Thread nD τ), sm) = {()} := if_pos rfl

/-! ## The ghost state a body starts from -/

section Ghost
variable (K : Dev nD × Option (Fin 4 × Fin 16) → ℕ) (c : Dev nD)

/-- The invariants of the device's own cells, -/
def invsOwn : sProp 𝕄 :=
  iprop(cellInv ER (xRd Sb Yc Xc) (K (c, none)) (barCell c)
    ∗ cellInv ER (xRd Sb Yc Xc) (K (c, some (0, 0))) (ysendCell c 0) ∗ cellInv ER (xRd Sb Yc Xc) (K (c, some (0, 1))) (ysendCell c 1) ∗ cellInv ER (xRd Sb Yc Xc) (K (c, some (0, 2))) (ysendCell c 2) ∗ cellInv ER (xRd Sb Yc Xc) (K (c, some (0, 3))) (ysendCell c 3) ∗ cellInv ER (xRd Sb Yc Xc) (K (c, some (0, 4))) (ysendCell c 4) ∗ cellInv ER (xRd Sb Yc Xc) (K (c, some (0, 5))) (ysendCell c 5) ∗ cellInv ER (xRd Sb Yc Xc) (K (c, some (0, 6))) (ysendCell c 6) ∗ cellInv ER (xRd Sb Yc Xc) (K (c, some (0, 7))) (ysendCell c 7) ∗ cellInv ER (xRd Sb Yc Xc) (K (c, some (0, 8))) (ysendCell c 8) ∗ cellInv ER (xRd Sb Yc Xc) (K (c, some (0, 9))) (ysendCell c 9) ∗ cellInv ER (xRd Sb Yc Xc) (K (c, some (0, 10))) (ysendCell c 10) ∗ cellInv ER (xRd Sb Yc Xc) (K (c, some (0, 11))) (ysendCell c 11) ∗ cellInv ER (xRd Sb Yc Xc) (K (c, some (0, 12))) (ysendCell c 12) ∗ cellInv ER (xRd Sb Yc Xc) (K (c, some (0, 13))) (ysendCell c 13) ∗ cellInv ER (xRd Sb Yc Xc) (K (c, some (0, 14))) (ysendCell c 14) ∗ cellInv ER (xRd Sb Yc Xc) (K (c, some (0, 15))) (ysendCell c 15)
    ∗ cellInv ER (xRd Sb Yc Xc) (K (c, some (1, 0))) (yrecvCell c 0) ∗ cellInv ER (xRd Sb Yc Xc) (K (c, some (1, 1))) (yrecvCell c 1) ∗ cellInv ER (xRd Sb Yc Xc) (K (c, some (1, 2))) (yrecvCell c 2) ∗ cellInv ER (xRd Sb Yc Xc) (K (c, some (1, 3))) (yrecvCell c 3) ∗ cellInv ER (xRd Sb Yc Xc) (K (c, some (1, 4))) (yrecvCell c 4) ∗ cellInv ER (xRd Sb Yc Xc) (K (c, some (1, 5))) (yrecvCell c 5) ∗ cellInv ER (xRd Sb Yc Xc) (K (c, some (1, 6))) (yrecvCell c 6) ∗ cellInv ER (xRd Sb Yc Xc) (K (c, some (1, 7))) (yrecvCell c 7) ∗ cellInv ER (xRd Sb Yc Xc) (K (c, some (1, 8))) (yrecvCell c 8) ∗ cellInv ER (xRd Sb Yc Xc) (K (c, some (1, 9))) (yrecvCell c 9) ∗ cellInv ER (xRd Sb Yc Xc) (K (c, some (1, 10))) (yrecvCell c 10) ∗ cellInv ER (xRd Sb Yc Xc) (K (c, some (1, 11))) (yrecvCell c 11) ∗ cellInv ER (xRd Sb Yc Xc) (K (c, some (1, 12))) (yrecvCell c 12) ∗ cellInv ER (xRd Sb Yc Xc) (K (c, some (1, 13))) (yrecvCell c 13) ∗ cellInv ER (xRd Sb Yc Xc) (K (c, some (1, 14))) (yrecvCell c 14) ∗ cellInv ER (xRd Sb Yc Xc) (K (c, some (1, 15))) (yrecvCell c 15)
    ∗ cellInv ER (xRd Sb Yc Xc) (K (c, some (2, 0))) (fsendCell c 0) ∗ cellInv ER (xRd Sb Yc Xc) (K (c, some (2, 1))) (fsendCell c 1) ∗ cellInv ER (xRd Sb Yc Xc) (K (c, some (2, 2))) (fsendCell c 2) ∗ cellInv ER (xRd Sb Yc Xc) (K (c, some (2, 3))) (fsendCell c 3) ∗ cellInv ER (xRd Sb Yc Xc) (K (c, some (2, 4))) (fsendCell c 4) ∗ cellInv ER (xRd Sb Yc Xc) (K (c, some (2, 5))) (fsendCell c 5) ∗ cellInv ER (xRd Sb Yc Xc) (K (c, some (2, 6))) (fsendCell c 6) ∗ cellInv ER (xRd Sb Yc Xc) (K (c, some (2, 7))) (fsendCell c 7) ∗ cellInv ER (xRd Sb Yc Xc) (K (c, some (2, 8))) (fsendCell c 8) ∗ cellInv ER (xRd Sb Yc Xc) (K (c, some (2, 9))) (fsendCell c 9) ∗ cellInv ER (xRd Sb Yc Xc) (K (c, some (2, 10))) (fsendCell c 10) ∗ cellInv ER (xRd Sb Yc Xc) (K (c, some (2, 11))) (fsendCell c 11) ∗ cellInv ER (xRd Sb Yc Xc) (K (c, some (2, 12))) (fsendCell c 12) ∗ cellInv ER (xRd Sb Yc Xc) (K (c, some (2, 13))) (fsendCell c 13) ∗ cellInv ER (xRd Sb Yc Xc) (K (c, some (2, 14))) (fsendCell c 14) ∗ cellInv ER (xRd Sb Yc Xc) (K (c, some (2, 15))) (fsendCell c 15)
    ∗ cellInv ER (xRd Sb Yc Xc) (K (c, some (3, 0))) (xrecvCell c 0) ∗ cellInv ER (xRd Sb Yc Xc) (K (c, some (3, 1))) (xrecvCell c 1) ∗ cellInv ER (xRd Sb Yc Xc) (K (c, some (3, 2))) (xrecvCell c 2) ∗ cellInv ER (xRd Sb Yc Xc) (K (c, some (3, 3))) (xrecvCell c 3) ∗ cellInv ER (xRd Sb Yc Xc) (K (c, some (3, 4))) (xrecvCell c 4) ∗ cellInv ER (xRd Sb Yc Xc) (K (c, some (3, 5))) (xrecvCell c 5) ∗ cellInv ER (xRd Sb Yc Xc) (K (c, some (3, 6))) (xrecvCell c 6) ∗ cellInv ER (xRd Sb Yc Xc) (K (c, some (3, 7))) (xrecvCell c 7) ∗ cellInv ER (xRd Sb Yc Xc) (K (c, some (3, 8))) (xrecvCell c 8) ∗ cellInv ER (xRd Sb Yc Xc) (K (c, some (3, 9))) (xrecvCell c 9) ∗ cellInv ER (xRd Sb Yc Xc) (K (c, some (3, 10))) (xrecvCell c 10) ∗ cellInv ER (xRd Sb Yc Xc) (K (c, some (3, 11))) (xrecvCell c 11) ∗ cellInv ER (xRd Sb Yc Xc) (K (c, some (3, 12))) (xrecvCell c 12) ∗ cellInv ER (xRd Sb Yc Xc) (K (c, some (3, 13))) (xrecvCell c 13) ∗ cellInv ER (xRd Sb Yc Xc) (K (c, some (3, 14))) (xrecvCell c 14) ∗ cellInv ER (xRd Sb Yc Xc) (K (c, some (3, 15))) (xrecvCell c 15))
/-- and of the neighbours' cells it pays into. -/
def invsPeer : sProp 𝕄 :=
  iprop(cellInv ER (xRd Sb Yc Xc) (K (ynb c, none)) (barCell (ynb c)) ∗ cellInv ER (xRd Sb Yc Xc) (K (xnb c, none)) (barCell (xnb c))
    ∗ cellInv ER (xRd Sb Yc Xc) (K (ynb c, some (1, 0))) (yrecvCell (ynb c) 0) ∗ cellInv ER (xRd Sb Yc Xc) (K (ynb c, some (1, 1))) (yrecvCell (ynb c) 1) ∗ cellInv ER (xRd Sb Yc Xc) (K (ynb c, some (1, 2))) (yrecvCell (ynb c) 2) ∗ cellInv ER (xRd Sb Yc Xc) (K (ynb c, some (1, 3))) (yrecvCell (ynb c) 3) ∗ cellInv ER (xRd Sb Yc Xc) (K (ynb c, some (1, 4))) (yrecvCell (ynb c) 4) ∗ cellInv ER (xRd Sb Yc Xc) (K (ynb c, some (1, 5))) (yrecvCell (ynb c) 5) ∗ cellInv ER (xRd Sb Yc Xc) (K (ynb c, some (1, 6))) (yrecvCell (ynb c) 6) ∗ cellInv ER (xRd Sb Yc Xc) (K (ynb c, some (1, 7))) (yrecvCell (ynb c) 7) ∗ cellInv ER (xRd Sb Yc Xc) (K (ynb c, some (1, 8))) (yrecvCell (ynb c) 8) ∗ cellInv ER (xRd Sb Yc Xc) (K (ynb c, some (1, 9))) (yrecvCell (ynb c) 9) ∗ cellInv ER (xRd Sb Yc Xc) (K (ynb c, some (1, 10))) (yrecvCell (ynb c) 10) ∗ cellInv ER (xRd Sb Yc Xc) (K (ynb c, some (1, 11))) (yrecvCell (ynb c) 11) ∗ cellInv ER (xRd Sb Yc Xc) (K (ynb c, some (1, 12))) (yrecvCell (ynb c) 12) ∗ cellInv ER (xRd Sb Yc Xc) (K (ynb c, some (1, 13))) (yrecvCell (ynb c) 13) ∗ cellInv ER (xRd Sb Yc Xc) (K (ynb c, some (1, 14))) (yrecvCell (ynb c) 14) ∗ cellInv ER (xRd Sb Yc Xc) (K (ynb c, some (1, 15))) (yrecvCell (ynb c) 15)
    ∗ cellInv ER (xRd Sb Yc Xc) (K (xnb c, some (3, 0))) (xrecvCell (xnb c) 0) ∗ cellInv ER (xRd Sb Yc Xc) (K (xnb c, some (3, 1))) (xrecvCell (xnb c) 1) ∗ cellInv ER (xRd Sb Yc Xc) (K (xnb c, some (3, 2))) (xrecvCell (xnb c) 2) ∗ cellInv ER (xRd Sb Yc Xc) (K (xnb c, some (3, 3))) (xrecvCell (xnb c) 3) ∗ cellInv ER (xRd Sb Yc Xc) (K (xnb c, some (3, 4))) (xrecvCell (xnb c) 4) ∗ cellInv ER (xRd Sb Yc Xc) (K (xnb c, some (3, 5))) (xrecvCell (xnb c) 5) ∗ cellInv ER (xRd Sb Yc Xc) (K (xnb c, some (3, 6))) (xrecvCell (xnb c) 6) ∗ cellInv ER (xRd Sb Yc Xc) (K (xnb c, some (3, 7))) (xrecvCell (xnb c) 7) ∗ cellInv ER (xRd Sb Yc Xc) (K (xnb c, some (3, 8))) (xrecvCell (xnb c) 8) ∗ cellInv ER (xRd Sb Yc Xc) (K (xnb c, some (3, 9))) (xrecvCell (xnb c) 9) ∗ cellInv ER (xRd Sb Yc Xc) (K (xnb c, some (3, 10))) (xrecvCell (xnb c) 10) ∗ cellInv ER (xRd Sb Yc Xc) (K (xnb c, some (3, 11))) (xrecvCell (xnb c) 11) ∗ cellInv ER (xRd Sb Yc Xc) (K (xnb c, some (3, 12))) (xrecvCell (xnb c) 12) ∗ cellInv ER (xRd Sb Yc Xc) (K (xnb c, some (3, 13))) (xrecvCell (xnb c) 13) ∗ cellInv ER (xRd Sb Yc Xc) (K (xnb c, some (3, 14))) (xrecvCell (xnb c) 14) ∗ cellInv ER (xRd Sb Yc Xc) (K (xnb c, some (3, 15))) (xrecvCell (xnb c) 15))

set_option synthInstance.maxSize 16384 in
set_option synthInstance.maxHeartbeats 4000000 in
set_option maxHeartbeats 4000000 in
instance invsOwn_persistent : BI.Persistent (invsOwn Sb Yc Xc K c) := by unfold invsOwn; infer_instance
set_option synthInstance.maxSize 16384 in
set_option synthInstance.maxHeartbeats 4000000 in
set_option maxHeartbeats 4000000 in
instance invsPeer_persistent : BI.Persistent (invsPeer Sb Yc Xc K c) := by unfold invsPeer; infer_instance

/-- Its positions: round 0 of each of its own cells, nothing taken; listed in the order the body waits on them (the barrier, the chunks'
    receive cells, the forwards' receive cells, then each chunk's and forward's send cell in turn). -/
def posOwn : sProp 𝕄 :=
  iprop(atPos ER (barCell c) 0 ∅ 0
    ∗ atPos ER (yrecvCell c 0) 0 ∅ 0 ∗ atPos ER (yrecvCell c 1) 0 ∅ 0 ∗ atPos ER (yrecvCell c 2) 0 ∅ 0 ∗ atPos ER (yrecvCell c 3) 0 ∅ 0 ∗ atPos ER (yrecvCell c 4) 0 ∅ 0 ∗ atPos ER (yrecvCell c 5) 0 ∅ 0 ∗ atPos ER (yrecvCell c 6) 0 ∅ 0 ∗ atPos ER (yrecvCell c 7) 0 ∅ 0 ∗ atPos ER (yrecvCell c 8) 0 ∅ 0 ∗ atPos ER (yrecvCell c 9) 0 ∅ 0 ∗ atPos ER (yrecvCell c 10) 0 ∅ 0 ∗ atPos ER (yrecvCell c 11) 0 ∅ 0 ∗ atPos ER (yrecvCell c 12) 0 ∅ 0 ∗ atPos ER (yrecvCell c 13) 0 ∅ 0 ∗ atPos ER (yrecvCell c 14) 0 ∅ 0 ∗ atPos ER (yrecvCell c 15) 0 ∅ 0
    ∗ atPos ER (xrecvCell c 0) 0 ∅ 0 ∗ atPos ER (xrecvCell c 1) 0 ∅ 0 ∗ atPos ER (xrecvCell c 2) 0 ∅ 0 ∗ atPos ER (xrecvCell c 3) 0 ∅ 0 ∗ atPos ER (xrecvCell c 4) 0 ∅ 0 ∗ atPos ER (xrecvCell c 5) 0 ∅ 0 ∗ atPos ER (xrecvCell c 6) 0 ∅ 0 ∗ atPos ER (xrecvCell c 7) 0 ∅ 0 ∗ atPos ER (xrecvCell c 8) 0 ∅ 0 ∗ atPos ER (xrecvCell c 9) 0 ∅ 0 ∗ atPos ER (xrecvCell c 10) 0 ∅ 0 ∗ atPos ER (xrecvCell c 11) 0 ∅ 0 ∗ atPos ER (xrecvCell c 12) 0 ∅ 0 ∗ atPos ER (xrecvCell c 13) 0 ∅ 0 ∗ atPos ER (xrecvCell c 14) 0 ∅ 0 ∗ atPos ER (xrecvCell c 15) 0 ∅ 0
    ∗ atPos ER (ysendCell c 0) 0 ∅ 0 ∗ atPos ER (fsendCell c 0) 0 ∅ 0 ∗ atPos ER (ysendCell c 1) 0 ∅ 0 ∗ atPos ER (fsendCell c 1) 0 ∅ 0 ∗ atPos ER (ysendCell c 2) 0 ∅ 0 ∗ atPos ER (fsendCell c 2) 0 ∅ 0 ∗ atPos ER (ysendCell c 3) 0 ∅ 0 ∗ atPos ER (fsendCell c 3) 0 ∅ 0 ∗ atPos ER (ysendCell c 4) 0 ∅ 0 ∗ atPos ER (fsendCell c 4) 0 ∅ 0 ∗ atPos ER (ysendCell c 5) 0 ∅ 0 ∗ atPos ER (fsendCell c 5) 0 ∅ 0 ∗ atPos ER (ysendCell c 6) 0 ∅ 0 ∗ atPos ER (fsendCell c 6) 0 ∅ 0 ∗ atPos ER (ysendCell c 7) 0 ∅ 0 ∗ atPos ER (fsendCell c 7) 0 ∅ 0 ∗ atPos ER (ysendCell c 8) 0 ∅ 0 ∗ atPos ER (fsendCell c 8) 0 ∅ 0 ∗ atPos ER (ysendCell c 9) 0 ∅ 0 ∗ atPos ER (fsendCell c 9) 0 ∅ 0 ∗ atPos ER (ysendCell c 10) 0 ∅ 0 ∗ atPos ER (fsendCell c 10) 0 ∅ 0 ∗ atPos ER (ysendCell c 11) 0 ∅ 0 ∗ atPos ER (fsendCell c 11) 0 ∅ 0 ∗ atPos ER (ysendCell c 12) 0 ∅ 0 ∗ atPos ER (fsendCell c 12) 0 ∅ 0 ∗ atPos ER (ysendCell c 13) 0 ∅ 0 ∗ atPos ER (fsendCell c 13) 0 ∅ 0 ∗ atPos ER (ysendCell c 14) 0 ∅ 0 ∗ atPos ER (fsendCell c 14) 0 ∅ 0 ∗ atPos ER (ysendCell c 15) 0 ∅ 0 ∗ atPos ER (fsendCell c 15) 0 ∅ 0)

/-- Round 0 reached: of the cells it pays into, of its own send cells (it pays those itself), and of its own receive cells (it tells its
    neighbours so with the barrier signal). -/
def reachedAll : sProp 𝕄 :=
  iprop(reached ER (barCell (ynb c)) 0 ∗ reached ER (barCell (xnb c)) 0
    ∗ reached ER (yrecvCell (ynb c) 0) 0 ∗ reached ER (yrecvCell (ynb c) 1) 0 ∗ reached ER (yrecvCell (ynb c) 2) 0 ∗ reached ER (yrecvCell (ynb c) 3) 0 ∗ reached ER (yrecvCell (ynb c) 4) 0 ∗ reached ER (yrecvCell (ynb c) 5) 0 ∗ reached ER (yrecvCell (ynb c) 6) 0 ∗ reached ER (yrecvCell (ynb c) 7) 0 ∗ reached ER (yrecvCell (ynb c) 8) 0 ∗ reached ER (yrecvCell (ynb c) 9) 0 ∗ reached ER (yrecvCell (ynb c) 10) 0 ∗ reached ER (yrecvCell (ynb c) 11) 0 ∗ reached ER (yrecvCell (ynb c) 12) 0 ∗ reached ER (yrecvCell (ynb c) 13) 0 ∗ reached ER (yrecvCell (ynb c) 14) 0 ∗ reached ER (yrecvCell (ynb c) 15) 0
    ∗ reached ER (xrecvCell (xnb c) 0) 0 ∗ reached ER (xrecvCell (xnb c) 1) 0 ∗ reached ER (xrecvCell (xnb c) 2) 0 ∗ reached ER (xrecvCell (xnb c) 3) 0 ∗ reached ER (xrecvCell (xnb c) 4) 0 ∗ reached ER (xrecvCell (xnb c) 5) 0 ∗ reached ER (xrecvCell (xnb c) 6) 0 ∗ reached ER (xrecvCell (xnb c) 7) 0 ∗ reached ER (xrecvCell (xnb c) 8) 0 ∗ reached ER (xrecvCell (xnb c) 9) 0 ∗ reached ER (xrecvCell (xnb c) 10) 0 ∗ reached ER (xrecvCell (xnb c) 11) 0 ∗ reached ER (xrecvCell (xnb c) 12) 0 ∗ reached ER (xrecvCell (xnb c) 13) 0 ∗ reached ER (xrecvCell (xnb c) 14) 0 ∗ reached ER (xrecvCell (xnb c) 15) 0
    ∗ reached ER (ysendCell c 0) 0 ∗ reached ER (ysendCell c 1) 0 ∗ reached ER (ysendCell c 2) 0 ∗ reached ER (ysendCell c 3) 0 ∗ reached ER (ysendCell c 4) 0 ∗ reached ER (ysendCell c 5) 0 ∗ reached ER (ysendCell c 6) 0 ∗ reached ER (ysendCell c 7) 0 ∗ reached ER (ysendCell c 8) 0 ∗ reached ER (ysendCell c 9) 0 ∗ reached ER (ysendCell c 10) 0 ∗ reached ER (ysendCell c 11) 0 ∗ reached ER (ysendCell c 12) 0 ∗ reached ER (ysendCell c 13) 0 ∗ reached ER (ysendCell c 14) 0 ∗ reached ER (ysendCell c 15) 0
    ∗ reached ER (yrecvCell c 0) 0 ∗ reached ER (yrecvCell c 1) 0 ∗ reached ER (yrecvCell c 2) 0 ∗ reached ER (yrecvCell c 3) 0 ∗ reached ER (yrecvCell c 4) 0 ∗ reached ER (yrecvCell c 5) 0 ∗ reached ER (yrecvCell c 6) 0 ∗ reached ER (yrecvCell c 7) 0 ∗ reached ER (yrecvCell c 8) 0 ∗ reached ER (yrecvCell c 9) 0 ∗ reached ER (yrecvCell c 10) 0 ∗ reached ER (yrecvCell c 11) 0 ∗ reached ER (yrecvCell c 12) 0 ∗ reached ER (yrecvCell c 13) 0 ∗ reached ER (yrecvCell c 14) 0 ∗ reached ER (yrecvCell c 15) 0
    ∗ reached ER (fsendCell c 0) 0 ∗ reached ER (fsendCell c 1) 0 ∗ reached ER (fsendCell c 2) 0 ∗ reached ER (fsendCell c 3) 0 ∗ reached ER (fsendCell c 4) 0 ∗ reached ER (fsendCell c 5) 0 ∗ reached ER (fsendCell c 6) 0 ∗ reached ER (fsendCell c 7) 0 ∗ reached ER (fsendCell c 8) 0 ∗ reached ER (fsendCell c 9) 0 ∗ reached ER (fsendCell c 10) 0 ∗ reached ER (fsendCell c 11) 0 ∗ reached ER (fsendCell c 12) 0 ∗ reached ER (fsendCell c 13) 0 ∗ reached ER (fsendCell c 14) 0 ∗ reached ER (fsendCell c 15) 0
    ∗ reached ER (xrecvCell c 0) 0 ∗ reached ER (xrecvCell c 1) 0 ∗ reached ER (xrecvCell c 2) 0 ∗ reached ER (xrecvCell c 3) 0 ∗ reached ER (xrecvCell c 4) 0 ∗ reached ER (xrecvCell c 5) 0 ∗ reached ER (xrecvCell c 6) 0 ∗ reached ER (xrecvCell c 7) 0 ∗ reached ER (xrecvCell c 8) 0 ∗ reached ER (xrecvCell c 9) 0 ∗ reached ER (xrecvCell c 10) 0 ∗ reached ER (xrecvCell c 11) 0 ∗ reached ER (xrecvCell c 12) 0 ∗ reached ER (xrecvCell c 13) 0 ∗ reached ER (xrecvCell c 14) 0 ∗ reached ER (xrecvCell c 15) 0)

set_option synthInstance.maxSize 16384 in
set_option synthInstance.maxHeartbeats 4000000 in
set_option maxHeartbeats 4000000 in
instance reachedAll_persistent : BI.Persistent (reachedAll (F := F) c) := by unfold reachedAll; infer_instance

/-- The tokens of the duties it pays, in the order it pays them: a chunk's two cells together, then a forward's two cells together. -/
def payToks : sProp 𝕄 :=
  iprop(dutyTok ER (barCell (ynb c)) 0 false ∗ dutyTok ER (barCell (xnb c)) 0 true
    ∗ dutyTok ER (ysendCell c 0) 0 false ∗ dutyTok ER (yrecvCell (ynb c) 0) 0 false ∗ dutyTok ER (ysendCell c 1) 0 false ∗ dutyTok ER (yrecvCell (ynb c) 1) 0 false ∗ dutyTok ER (ysendCell c 2) 0 false ∗ dutyTok ER (yrecvCell (ynb c) 2) 0 false ∗ dutyTok ER (ysendCell c 3) 0 false ∗ dutyTok ER (yrecvCell (ynb c) 3) 0 false ∗ dutyTok ER (ysendCell c 4) 0 false ∗ dutyTok ER (yrecvCell (ynb c) 4) 0 false ∗ dutyTok ER (ysendCell c 5) 0 false ∗ dutyTok ER (yrecvCell (ynb c) 5) 0 false ∗ dutyTok ER (ysendCell c 6) 0 false ∗ dutyTok ER (yrecvCell (ynb c) 6) 0 false ∗ dutyTok ER (ysendCell c 7) 0 false ∗ dutyTok ER (yrecvCell (ynb c) 7) 0 false ∗ dutyTok ER (ysendCell c 8) 0 false ∗ dutyTok ER (yrecvCell (ynb c) 8) 0 false ∗ dutyTok ER (ysendCell c 9) 0 false ∗ dutyTok ER (yrecvCell (ynb c) 9) 0 false ∗ dutyTok ER (ysendCell c 10) 0 false ∗ dutyTok ER (yrecvCell (ynb c) 10) 0 false ∗ dutyTok ER (ysendCell c 11) 0 false ∗ dutyTok ER (yrecvCell (ynb c) 11) 0 false ∗ dutyTok ER (ysendCell c 12) 0 false ∗ dutyTok ER (yrecvCell (ynb c) 12) 0 false ∗ dutyTok ER (ysendCell c 13) 0 false ∗ dutyTok ER (yrecvCell (ynb c) 13) 0 false ∗ dutyTok ER (ysendCell c 14) 0 false ∗ dutyTok ER (yrecvCell (ynb c) 14) 0 false ∗ dutyTok ER (ysendCell c 15) 0 false ∗ dutyTok ER (yrecvCell (ynb c) 15) 0 false
    ∗ dutyTok ER (fsendCell c 0) 0 false ∗ dutyTok ER (xrecvCell (xnb c) 0) 0 false ∗ dutyTok ER (fsendCell c 1) 0 false ∗ dutyTok ER (xrecvCell (xnb c) 1) 0 false ∗ dutyTok ER (fsendCell c 2) 0 false ∗ dutyTok ER (xrecvCell (xnb c) 2) 0 false ∗ dutyTok ER (fsendCell c 3) 0 false ∗ dutyTok ER (xrecvCell (xnb c) 3) 0 false ∗ dutyTok ER (fsendCell c 4) 0 false ∗ dutyTok ER (xrecvCell (xnb c) 4) 0 false ∗ dutyTok ER (fsendCell c 5) 0 false ∗ dutyTok ER (xrecvCell (xnb c) 5) 0 false ∗ dutyTok ER (fsendCell c 6) 0 false ∗ dutyTok ER (xrecvCell (xnb c) 6) 0 false ∗ dutyTok ER (fsendCell c 7) 0 false ∗ dutyTok ER (xrecvCell (xnb c) 7) 0 false ∗ dutyTok ER (fsendCell c 8) 0 false ∗ dutyTok ER (xrecvCell (xnb c) 8) 0 false ∗ dutyTok ER (fsendCell c 9) 0 false ∗ dutyTok ER (xrecvCell (xnb c) 9) 0 false ∗ dutyTok ER (fsendCell c 10) 0 false ∗ dutyTok ER (xrecvCell (xnb c) 10) 0 false ∗ dutyTok ER (fsendCell c 11) 0 false ∗ dutyTok ER (xrecvCell (xnb c) 11) 0 false ∗ dutyTok ER (fsendCell c 12) 0 false ∗ dutyTok ER (xrecvCell (xnb c) 12) 0 false ∗ dutyTok ER (fsendCell c 13) 0 false ∗ dutyTok ER (xrecvCell (xnb c) 13) 0 false ∗ dutyTok ER (fsendCell c 14) 0 false ∗ dutyTok ER (xrecvCell (xnb c) 14) 0 false ∗ dutyTok ER (fsendCell c 15) 0 false ∗ dutyTok ER (xrecvCell (xnb c) 15) 0 false)

def ghost : sProp 𝕄 := iprop(invsOwn Sb Yc Xc K c ∗ invsPeer Sb Yc Xc K c ∗ reachedAll c ∗ posOwn c ∗ payToks c)

end Ghost

/-- The credit dealt at launch: two barrier units, a chunk on each of the thirty-two receive cells. -/
def creds (c : Dev nD) : sProp 𝕄 :=
  iprop(cred (tallyAt (barCell c) () 2)
    ∗ cred (tallyAt (yrecvCell c 0) () N) ∗ cred (tallyAt (yrecvCell c 1) () N) ∗ cred (tallyAt (yrecvCell c 2) () N) ∗ cred (tallyAt (yrecvCell c 3) () N) ∗ cred (tallyAt (yrecvCell c 4) () N) ∗ cred (tallyAt (yrecvCell c 5) () N) ∗ cred (tallyAt (yrecvCell c 6) () N) ∗ cred (tallyAt (yrecvCell c 7) () N) ∗ cred (tallyAt (yrecvCell c 8) () N) ∗ cred (tallyAt (yrecvCell c 9) () N) ∗ cred (tallyAt (yrecvCell c 10) () N) ∗ cred (tallyAt (yrecvCell c 11) () N) ∗ cred (tallyAt (yrecvCell c 12) () N) ∗ cred (tallyAt (yrecvCell c 13) () N) ∗ cred (tallyAt (yrecvCell c 14) () N) ∗ cred (tallyAt (yrecvCell c 15) () N)
    ∗ cred (tallyAt (xrecvCell c 0) () N) ∗ cred (tallyAt (xrecvCell c 1) () N) ∗ cred (tallyAt (xrecvCell c 2) () N) ∗ cred (tallyAt (xrecvCell c 3) () N) ∗ cred (tallyAt (xrecvCell c 4) () N) ∗ cred (tallyAt (xrecvCell c 5) () N) ∗ cred (tallyAt (xrecvCell c 6) () N) ∗ cred (tallyAt (xrecvCell c 7) () N) ∗ cred (tallyAt (xrecvCell c 8) () N) ∗ cred (tallyAt (xrecvCell c 9) () N) ∗ cred (tallyAt (xrecvCell c 10) () N) ∗ cred (tallyAt (xrecvCell c 11) () N) ∗ cred (tallyAt (xrecvCell c 12) () N) ∗ cred (tallyAt (xrecvCell c 13) () N) ∗ cred (tallyAt (xrecvCell c 14) () N) ∗ cred (tallyAt (xrecvCell c 15) () N))

/-- The sixteen semaphores of the local copies, at zero. -/
def locals0 (c : Dev nD) : sProp 𝕄 :=
  iprop(semVal ((c : Thread nD τ), SemLoc.dma (copyS 0)) 0 ∗ semVal ((c : Thread nD τ), SemLoc.dma (copyS 1)) 0 ∗ semVal ((c : Thread nD τ), SemLoc.dma (copyS 2)) 0 ∗ semVal ((c : Thread nD τ), SemLoc.dma (copyS 3)) 0 ∗ semVal ((c : Thread nD τ), SemLoc.dma (copyS 4)) 0 ∗ semVal ((c : Thread nD τ), SemLoc.dma (copyS 5)) 0 ∗ semVal ((c : Thread nD τ), SemLoc.dma (copyS 6)) 0 ∗ semVal ((c : Thread nD τ), SemLoc.dma (copyS 7)) 0
    ∗ semVal ((c : Thread nD τ), SemLoc.dma (outS 0)) 0 ∗ semVal ((c : Thread nD τ), SemLoc.dma (outS 1)) 0 ∗ semVal ((c : Thread nD τ), SemLoc.dma (outS 2)) 0 ∗ semVal ((c : Thread nD τ), SemLoc.dma (outS 3)) 0 ∗ semVal ((c : Thread nD τ), SemLoc.dma (outS 4)) 0 ∗ semVal ((c : Thread nD τ), SemLoc.dma (outS 5)) 0 ∗ semVal ((c : Thread nD τ), SemLoc.dma (outS 6)) 0 ∗ semVal ((c : Thread nD τ), SemLoc.dma (outS 7)) 0)
/-- The sixty-four transfer semaphores, at zero. -/
def xfers0 (c : Dev nD) : sProp 𝕄 :=
  iprop(semVal (ysendCell c 0) 0 ∗ semVal (ysendCell c 1) 0 ∗ semVal (ysendCell c 2) 0 ∗ semVal (ysendCell c 3) 0 ∗ semVal (ysendCell c 4) 0 ∗ semVal (ysendCell c 5) 0 ∗ semVal (ysendCell c 6) 0 ∗ semVal (ysendCell c 7) 0 ∗ semVal (ysendCell c 8) 0 ∗ semVal (ysendCell c 9) 0 ∗ semVal (ysendCell c 10) 0 ∗ semVal (ysendCell c 11) 0 ∗ semVal (ysendCell c 12) 0 ∗ semVal (ysendCell c 13) 0 ∗ semVal (ysendCell c 14) 0 ∗ semVal (ysendCell c 15) 0
    ∗ semVal (yrecvCell c 0) 0 ∗ semVal (yrecvCell c 1) 0 ∗ semVal (yrecvCell c 2) 0 ∗ semVal (yrecvCell c 3) 0 ∗ semVal (yrecvCell c 4) 0 ∗ semVal (yrecvCell c 5) 0 ∗ semVal (yrecvCell c 6) 0 ∗ semVal (yrecvCell c 7) 0 ∗ semVal (yrecvCell c 8) 0 ∗ semVal (yrecvCell c 9) 0 ∗ semVal (yrecvCell c 10) 0 ∗ semVal (yrecvCell c 11) 0 ∗ semVal (yrecvCell c 12) 0 ∗ semVal (yrecvCell c 13) 0 ∗ semVal (yrecvCell c 14) 0 ∗ semVal (yrecvCell c 15) 0
    ∗ semVal (fsendCell c 0) 0 ∗ semVal (fsendCell c 1) 0 ∗ semVal (fsendCell c 2) 0 ∗ semVal (fsendCell c 3) 0 ∗ semVal (fsendCell c 4) 0 ∗ semVal (fsendCell c 5) 0 ∗ semVal (fsendCell c 6) 0 ∗ semVal (fsendCell c 7) 0 ∗ semVal (fsendCell c 8) 0 ∗ semVal (fsendCell c 9) 0 ∗ semVal (fsendCell c 10) 0 ∗ semVal (fsendCell c 11) 0 ∗ semVal (fsendCell c 12) 0 ∗ semVal (fsendCell c 13) 0 ∗ semVal (fsendCell c 14) 0 ∗ semVal (fsendCell c 15) 0
    ∗ semVal (xrecvCell c 0) 0 ∗ semVal (xrecvCell c 1) 0 ∗ semVal (xrecvCell c 2) 0 ∗ semVal (xrecvCell c 3) 0 ∗ semVal (xrecvCell c 4) 0 ∗ semVal (xrecvCell c 5) 0 ∗ semVal (xrecvCell c 6) 0 ∗ semVal (xrecvCell c 7) 0 ∗ semVal (xrecvCell c 8) 0 ∗ semVal (xrecvCell c 9) 0 ∗ semVal (xrecvCell c 10) 0 ∗ semVal (xrecvCell c 11) 0 ∗ semVal (xrecvCell c 12) 0 ∗ semVal (xrecvCell c 13) 0 ∗ semVal (xrecvCell c 14) 0 ∗ semVal (xrecvCell c 15) 0)

/-- The two device-memory arrays the kernel routes itself: the second argument as launched and the result at contents `o`. -/
def hbm (c : Dev nD) (o : Buf (Elt F) ((c : Thread nD τ).loc main_v1)) : sProp 𝕄 :=
  iprop((((c : Thread nD τ).loc main_arg1) ↦{fullShare} m ((c : Thread nD τ).loc main_arg1)) ∗ (((c : Thread nD τ).loc main_v1) ↦{fullShare} o))

/-- The five scratch buffers, whole, at any contents. -/
def scratch (c : Dev nD) : sProp 𝕄 :=
  iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f))

/-- What device `c`'s body starts from, less the scratch buffers. -/
def start (c : Dev nD) : sProp 𝕄 :=
  iprop((∃ K, ghost Sb Yc Xc K c) ∗ creds c ∗ levAts L lv ∗ locals0 c ∗ hbm m c (m ((c : Thread nD τ).loc main_v1)))

def Φ₀ (c : Dev nD) : sProp 𝕄 := iprop(start m Sb Yc Xc c ∗ scratch c)
/-- After the point: every semaphore of the kernel's own at zero, the scratch buffers, the result at contents the predicate holds of. -/
def Φ₁ (c : Dev nD) : sProp 𝕄 :=
  iprop(locals0 c ∗ xfers0 c ∗ scratch c ∗ ∃ o : Buf (Elt F) ((c : Thread nD τ).loc main_v1), ⌜OutP c o⌝ ∗ hbm m c o)

def dats (_ : Fin 1) (c : Dev nD) : Dat τ (Elt F) Unit ℕ UU ℕ cfg0 c where
  A w := m ((cfg0.win w).arr.view.loc (c : Thread nD τ))
  after w _ := match w with
    | ⟨0, _⟩ => xstg m c
  Φ t := match t with
    | ⟨0, _⟩ => Φ₀ m Sb Yc Xc c
    | ⟨_ + 1, _⟩ => Φ₁ m OutP c
  q _ := fullShare
  owed t := match t with
    | ⟨0, _⟩ => O₀ c
    | ⟨_ + 1, _⟩ => 0

abbrev 𝒱₀ : Variants := Variants.none

end Cert.KernelIdeal.Hand

end
-- ==== Proof.Ledger.lean ====
import proofs.«901046_g7700000000001047_dist_rsdw_v7x_xy2x2_y_m1024_d1024_f4096_f32_1_alg».proof.Proof.Gen.KernelIdeal
import proofs.«901046_g7700000000001047_dist_rsdw_v7x_xy2x2_y_m1024_d1024_f4096_f32_1_alg».proof.Proof.Gen.KernelIdeal.Skeleton
import proofs.«901046_g7700000000001047_dist_rsdw_v7x_xy2x2_y_m1024_d1024_f4096_f32_1_alg».proof.Proof.Gen.KernelIdeal.Launch
import proofs.«901046_g7700000000001047_dist_rsdw_v7x_xy2x2_y_m1024_d1024_f4096_f32_1_alg».proof.Proof.Gen.KernelIdeal.Points
import proofs.«901046_g7700000000001047_dist_rsdw_v7x_xy2x2_y_m1024_d1024_f4096_f32_1_alg».proof.Proof.Sched
import Idealize.ShloMosaic.Lib.Pipeline.Launch
import Idealize.ShloMosaic.Lib.Pipeline.Kit
import Idealize.ShloMosaic.Lib.Tactic

import proofs.«901046_g7700000000001047_dist_rsdw_v7x_xy2x2_y_m1024_d1024_f4096_f32_1_alg».proof.Proof.Proto

/-! The levels' ledger and the credit dealt at launch.

A device may wait on one of its cells only while everything it still owes lies strictly above that cell in the levels: the local
copies, the send cells and the staging cell at 0, the barrier cells at 1, the chunks' receive cells at 2, the forwards' receive cells
at 3. What a device owes is a sum of one-cell tallies, so the condition is checked summand by summand. At launch every cell is dealt
the credit the devices owe it in all: a barrier cell two units (one from each neighbour), a receive cell one chunk. -/

set_option maxRecDepth 16384

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (Sb : (c : Dev nD) → (j : Fin 16) → Buf (Elt F) ((sslot j).view.loc (c : Thread nD τ)))
variable (Yc : (c : Dev nD) → (j : Fin 16) → Buf (Elt F) ((yslot j).view.loc (c : Thread nD τ)))
variable (Xc : (c : Dev nD) → (j : Fin 16) → Buf (Elt F) ((xslot j).view.loc (c : Thread nD τ)))
variable (OutP : (c : Dev nD) → Buf (Elt F) ((c : Thread nD τ).loc main_v1) → Prop)

/-! ## The levels of our cells -/

theorem lv_bar (c : Dev nD) : lv (barCell c) () = 1 := by
  show (if barS = barS then 1 else 0) = 1
  exact if_pos rfl
theorem lv_yrecv (c : Dev nD) (j : Fin 16) : lv (yrecvCell c j) () = 2 := by
  show (if 33 ≤ (yrecvS j).val ∧ (yrecvS j).val < 49 then 2 else if 65 ≤ (yrecvS j).val then 3 else 0) = 2
  rw [yrecvS_val, if_pos (by have := j.isLt; omega)]
theorem lv_xrecv (c : Dev nD) (j : Fin 16) : lv (xrecvCell c j) () = 3 := by
  show (if 33 ≤ (xrecvS j).val ∧ (xrecvS j).val < 49 then 2 else if 65 ≤ (xrecvS j).val then 3 else 0) = 3
  rw [xrecvS_val, if_neg (by omega), if_pos (by omega)]
theorem lv_ysend (c : Dev nD) (j : Fin 16) : lv (ysendCell c j) () = 0 := by
  show (if 33 ≤ (ysendS j).val ∧ (ysendS j).val < 49 then 2 else if 65 ≤ (ysendS j).val then 3 else 0) = 0
  rw [ysendS_val, if_neg (by have := j.isLt; omega), if_neg (by have := j.isLt; omega)]
theorem lv_fsend (c : Dev nD) (j : Fin 16) : lv (fsendCell c j) () = 0 := by
  show (if 33 ≤ (fsendS j).val ∧ (fsendS j).val < 49 then 2 else if 65 ≤ (fsendS j).val then 3 else 0) = 0
  rw [fsendS_val, if_neg (by omega), if_neg (by have := j.isLt; omega)]
theorem lv_copy (c : Dev nD) (j : Fin 8) : lv ((c : Thread nD τ), SemLoc.dma (copyS j)) () = 0 := by
  show (if 33 ≤ (copyS j).val ∧ (copyS j).val < 49 then 2 else if 65 ≤ (copyS j).val then 3 else 0) = 0
  rw [copyS_val, if_neg (by have := j.isLt; omega), if_neg (by have := j.isLt; omega)]
theorem lv_out (c : Dev nD) (j : Fin 8) : lv ((c : Thread nD τ), SemLoc.dma (outS j)) () = 0 := by
  show (if 33 ≤ (outS j).val ∧ (outS j).val < 49 then 2 else if 65 ≤ (outS j).val then 3 else 0) = 0
  rw [outS_val, if_neg (by have := j.isLt; omega), if_neg (by have := j.isLt; omega)]
/-- The staging cell of the one pipelined window: DMA semaphore 0. -/
theorem lv_stage (c : Dev nD) : lv ((c : Thread nD τ), SemLoc.dma (0 : DmaSem sig)) () = 0 := rfl

/-- The level of a cell by its semaphore alone: the device plays no part. -/
def lvS : SemLoc sig → ℕ
  | .reg s => if s = barS then 1 else 0
  | .dma n => if 33 ≤ n.val ∧ n.val < 49 then 2 else if 65 ≤ n.val then 3 else 0

theorem lv_eq (g : GSem nD τ sig) (u : Unit) : lv g u = lvS g.2 := by
  unfold lv lvS; rfl

theorem lvS_bar : lvS (.reg barS) = 1 := (lv_eq (barCell (0 : Dev nD)) ()).symm.trans (lv_bar 0)
theorem lvS_yrecv (j : Fin 16) : lvS (.dma (yrecvS j)) = 2 := (lv_eq (yrecvCell (0 : Dev nD) j) ()).symm.trans (lv_yrecv 0 j)
theorem lvS_xrecv (j : Fin 16) : lvS (.dma (xrecvS j)) = 3 := (lv_eq (xrecvCell (0 : Dev nD) j) ()).symm.trans (lv_xrecv 0 j)
theorem lvS_ysend (j : Fin 16) : lvS (.dma (ysendS j)) = 0 := (lv_eq (ysendCell (0 : Dev nD) j) ()).symm.trans (lv_ysend 0 j)
theorem lvS_fsend (j : Fin 16) : lvS (.dma (fsendS j)) = 0 := (lv_eq (fsendCell (0 : Dev nD) j) ()).symm.trans (lv_fsend 0 j)
theorem lvS_copy (j : Fin 8) : lvS (.dma (copyS j)) = 0 := (lv_eq (((0 : Dev nD) : Thread nD τ), SemLoc.dma (copyS j)) ()).symm.trans (lv_copy 0 j)
theorem lvS_out (j : Fin 8) : lvS (.dma (outS j)) = 0 := (lv_eq (((0 : Dev nD) : Thread nD τ), SemLoc.dma (outS j)) ()).symm.trans (lv_out 0 j)
theorem lvS_stage : lvS (.dma (0 : DmaSem sig)) = 0 := rfl

/-! ## Everything owed lies above the cell waited on -/

/-- Every cell `O` owes something to is a TensorCore's and lies strictly above the cell `sm` of device `c`. -/
def Below (c : Dev nD) (sm : SemLoc sig) (O : CellTallies nD τ sig Unit) : Prop :=
  ∀ (g : GSem nD τ sig) (i : Unit), 0 < O g i → i ∈ L g ∧ lv ((c : Thread nD τ), sm) () < lv g i

omit [FloatOps F] in
/-- Then the device may wait on `sm` while owing `O`. -/
theorem mayWait_below (c : Dev nD) (sm : SemLoc sig) (O : CellTallies nD τ sig Unit) (h : Below c sm O) :
    (levAts L lv : sProp 𝕄) ⊢ MayWait (c : Thread nD τ) sm () O :=
  Pipeline.mayWait_of_levAts (by rw [L_tc]; exact Finset.mem_singleton_self _) h

theorem below_zero (c : Dev nD) (sm : SemLoc sig) : Below c sm 0 :=
  fun g i h => absurd h (Nat.lt_irrefl 0)

theorem below_tally (c : Dev nD) (sm : SemLoc sig) (g : GSem nD τ sig) (n : ℕ)
    (hg : g.1.2 = .tc ∧ lv ((c : Thread nD τ), sm) () < lv g ()) : Below c sm (tallyAt g () n) := fun g' i h => by
  obtain ⟨rfl, rfl⟩ := Pipeline.tallyAt_pos h
  exact ⟨by unfold L; rw [if_pos hg.1]; exact Finset.mem_singleton_self _, hg.2⟩

/-- The same by the semaphores' levels: however the cell waited on is spelled, its level is computed from the semaphore. -/
theorem below_tally_S (c : Dev nD) (sm : SemLoc sig) (g : GSem nD τ sig) (n : ℕ)
    (hg : g.1.2 = .tc) (h : lvS sm < lvS g.2) : Below c sm (tallyAt g () n) :=
  below_tally c sm g n ⟨hg, by rw [lv_eq, lv_eq]; exact h⟩

theorem below_sum (c : Dev nD) (sm : SemLoc sig) (O₁ O₂ : CellTallies nD τ sig Unit)
    (h₁ : Below c sm O₁) (h₂ : Below c sm O₂) : Below c sm (O₁ + O₂) := fun g i h => by
  rcases Pipeline.add_pos_cases h with h | h
  · exact h₁ g i h
  · exact h₂ g i h

theorem below_add (c : Dev nD) (sm : SemLoc sig) (O : CellTallies nD τ sig Unit) (g : GSem nD τ sig) (n : ℕ)
    (hO : Below c sm O) (hg : g.1.2 = .tc ∧ lv ((c : Thread nD τ), sm) () < lv g ()) : Below c sm (O + tallyAt g () n) :=
  below_sum c sm O _ hO (below_tally c sm g n hg)

theorem below_add_iff (c : Dev nD) (sm : SemLoc sig) (O₁ O₂ : CellTallies nD τ sig Unit) :
    Below c sm (O₁ + O₂) ↔ Below c sm O₁ ∧ Below c sm O₂ :=
  ⟨fun h => ⟨fun g i hp => h g i (by rw [Pi.add_apply, Finsupp.add_apply]; exact Nat.lt_of_lt_of_le hp (Nat.le_add_right _ _)),
      fun g i hp => h g i (by rw [Pi.add_apply, Finsupp.add_apply]; exact Nat.lt_of_lt_of_le hp (Nat.le_add_left _ _))⟩,
    fun h => below_sum c sm O₁ O₂ h.1 h.2⟩

theorem below_zero_iff (c : Dev nD) (sm : SemLoc sig) : Below c sm 0 ↔ True := ⟨fun _ => trivial, fun _ => below_zero c sm⟩

/-- Decides `Below c sm O` for `O` a sum, in any grouping, of one-cell tallies at barrier and receive cells (or `0`), and `sm` one of
    our cells however it is spelled: the sum is split into its summands, each is settled by the two semaphores' levels — computed
    outright when both are closed terms, through the table above when an index is a variable. -/
scoped macro "below" : tactic => `(tactic|
  ((try unfold O₀)
   (try simp only [below_add_iff, below_zero_iff, and_true, true_and])
   (repeat' apply And.intro)
   all_goals (refine below_tally_S _ _ _ _ rfl ?_
              (try dsimp only)
              first
                | decide
                | (simp only [lvS_bar, lvS_yrecv, lvS_xrecv, lvS_ysend, lvS_fsend, lvS_copy, lvS_out, lvS_stage]; decide))))

example (c : Dev nD) : Below c (.dma (copyS 3)) (O₀ c) := by below
example (c : Dev nD) : Below c (.reg barS) (tallyAt (yrecvCell (ynb c) 0) () N + tallyAt (yrecvCell (ynb c) 1) () N + tallyAt (yrecvCell (ynb c) 2) () N + tallyAt (yrecvCell (ynb c) 3) () N + tallyAt (yrecvCell (ynb c) 4) () N + tallyAt (yrecvCell (ynb c) 5) () N + tallyAt (yrecvCell (ynb c) 6) () N + tallyAt (yrecvCell (ynb c) 7) () N + tallyAt (yrecvCell (ynb c) 8) () N + tallyAt (yrecvCell (ynb c) 9) () N + tallyAt (yrecvCell (ynb c) 10) () N + tallyAt (yrecvCell (ynb c) 11) () N + tallyAt (yrecvCell (ynb c) 12) () N + tallyAt (yrecvCell (ynb c) 13) () N + tallyAt (yrecvCell (ynb c) 14) () N + tallyAt (yrecvCell (ynb c) 15) () N + tallyAt (xrecvCell (xnb c) 0) () N + tallyAt (xrecvCell (xnb c) 1) () N + tallyAt (xrecvCell (xnb c) 2) () N + tallyAt (xrecvCell (xnb c) 3) () N + tallyAt (xrecvCell (xnb c) 4) () N + tallyAt (xrecvCell (xnb c) 5) () N + tallyAt (xrecvCell (xnb c) 6) () N + tallyAt (xrecvCell (xnb c) 7) () N + tallyAt (xrecvCell (xnb c) 8) () N + tallyAt (xrecvCell (xnb c) 9) () N + tallyAt (xrecvCell (xnb c) 10) () N + tallyAt (xrecvCell (xnb c) 11) () N + tallyAt (xrecvCell (xnb c) 12) () N + tallyAt (xrecvCell (xnb c) 13) () N + tallyAt (xrecvCell (xnb c) 14) () N + tallyAt (xrecvCell (xnb c) 15) () N) := by below
example (c : Dev nD) : Below c (.dma (yrecvS 5)) (tallyAt (xrecvCell (xnb c) 0) () N + tallyAt (xrecvCell (xnb c) 1) () N + tallyAt (xrecvCell (xnb c) 2) () N + tallyAt (xrecvCell (xnb c) 3) () N + tallyAt (xrecvCell (xnb c) 4) () N + tallyAt (xrecvCell (xnb c) 5) () N + tallyAt (xrecvCell (xnb c) 6) () N + tallyAt (xrecvCell (xnb c) 7) () N + tallyAt (xrecvCell (xnb c) 8) () N + tallyAt (xrecvCell (xnb c) 9) () N + tallyAt (xrecvCell (xnb c) 10) () N + tallyAt (xrecvCell (xnb c) 11) () N + tallyAt (xrecvCell (xnb c) 12) () N + tallyAt (xrecvCell (xnb c) 13) () N + tallyAt (xrecvCell (xnb c) 14) () N + tallyAt (xrecvCell (xnb c) 15) () N) := by below
example (c : Dev nD) : Below c (.dma (0 : DmaSem sig)) (O₀ c) := by below
example (c : Dev nD) : Below c (barCell c).2 (tallyAt (xrecvCell (xnb c) 15) () N + tallyAt (xrecvCell (xnb c) 14) () N + tallyAt (xrecvCell (xnb c) 13) () N + tallyAt (xrecvCell (xnb c) 12) () N + tallyAt (xrecvCell (xnb c) 11) () N + tallyAt (xrecvCell (xnb c) 10) () N + tallyAt (xrecvCell (xnb c) 9) () N + tallyAt (xrecvCell (xnb c) 8) () N + tallyAt (xrecvCell (xnb c) 7) () N + tallyAt (xrecvCell (xnb c) 6) () N + tallyAt (xrecvCell (xnb c) 5) () N + tallyAt (xrecvCell (xnb c) 4) () N + tallyAt (xrecvCell (xnb c) 3) () N + tallyAt (xrecvCell (xnb c) 2) () N + tallyAt (xrecvCell (xnb c) 1) () N + tallyAt (xrecvCell (xnb c) 0) () N + tallyAt (yrecvCell (ynb c) 15) () N + tallyAt (yrecvCell (ynb c) 14) () N + tallyAt (yrecvCell (ynb c) 13) () N + tallyAt (yrecvCell (ynb c) 12) () N + tallyAt (yrecvCell (ynb c) 11) () N + tallyAt (yrecvCell (ynb c) 10) () N + tallyAt (yrecvCell (ynb c) 9) () N + tallyAt (yrecvCell (ynb c) 8) () N + tallyAt (yrecvCell (ynb c) 7) () N + tallyAt (yrecvCell (ynb c) 6) () N + tallyAt (yrecvCell (ynb c) 5) () N + tallyAt (yrecvCell (ynb c) 4) () N + tallyAt (yrecvCell (ynb c) 3) () N + tallyAt (yrecvCell (ynb c) 2) () N + tallyAt (yrecvCell (ynb c) 1) () N + tallyAt (yrecvCell (ynb c) 0) () N) := by below
example (c : Dev nD) : Below c (SemLoc.reg ((SemArray.scalar (sig.barrier 0 (id rfl)) : Sems sig S_).sem)) (tallyAt (xrecvCell (xnb c) 15) () N + tallyAt (xrecvCell (xnb c) 14) () N + tallyAt (xrecvCell (xnb c) 13) () N + tallyAt (xrecvCell (xnb c) 12) () N + tallyAt (xrecvCell (xnb c) 11) () N + tallyAt (xrecvCell (xnb c) 10) () N + tallyAt (xrecvCell (xnb c) 9) () N + tallyAt (xrecvCell (xnb c) 8) () N + tallyAt (xrecvCell (xnb c) 7) () N + tallyAt (xrecvCell (xnb c) 6) () N + tallyAt (xrecvCell (xnb c) 5) () N + tallyAt (xrecvCell (xnb c) 4) () N + tallyAt (xrecvCell (xnb c) 3) () N + tallyAt (xrecvCell (xnb c) 2) () N + tallyAt (xrecvCell (xnb c) 1) () N + tallyAt (xrecvCell (xnb c) 0) () N + tallyAt (yrecvCell (ynb c) 15) () N + tallyAt (yrecvCell (ynb c) 14) () N + tallyAt (yrecvCell (ynb c) 13) () N + tallyAt (yrecvCell (ynb c) 12) () N + tallyAt (yrecvCell (ynb c) 11) () N + tallyAt (yrecvCell (ynb c) 10) () N + tallyAt (yrecvCell (ynb c) 9) () N + tallyAt (yrecvCell (ynb c) 8) () N + tallyAt (yrecvCell (ynb c) 7) () N + tallyAt (yrecvCell (ynb c) 6) () N + tallyAt (yrecvCell (ynb c) 5) () N + tallyAt (yrecvCell (ynb c) 4) () N + tallyAt (yrecvCell (ynb c) 3) () N + tallyAt (yrecvCell (ynb c) 2) () N + tallyAt (yrecvCell (ynb c) 1) () N + tallyAt (yrecvCell (ynb c) 0) () N) := by below
example (c : Dev nD) : Below c (yrecvCell c 5).2 (tallyAt (xrecvCell (xnb c) 0) () N + tallyAt (xrecvCell (xnb c) 1) () N + tallyAt (xrecvCell (xnb c) 2) () N + tallyAt (xrecvCell (xnb c) 3) () N + tallyAt (xrecvCell (xnb c) 4) () N + tallyAt (xrecvCell (xnb c) 5) () N + tallyAt (xrecvCell (xnb c) 6) () N + tallyAt (xrecvCell (xnb c) 7) () N + tallyAt (xrecvCell (xnb c) 8) () N + tallyAt (xrecvCell (xnb c) 9) () N + tallyAt (xrecvCell (xnb c) 10) () N + tallyAt (xrecvCell (xnb c) 11) () N + tallyAt (xrecvCell (xnb c) 12) () N + tallyAt (xrecvCell (xnb c) 13) () N + tallyAt (xrecvCell (xnb c) 14) () N + tallyAt (xrecvCell (xnb c) 15) () N) := by below
example (c : Dev nD) : Below c (SemLoc.dma ((cc0_scratch8.slice (Rect.unit (s := S16) ![5] S1.size inb_S16_S1_5)).squeeze S_ squeezes_S1_S_).sem) (tallyAt (xrecvCell (xnb c) 0) () N + tallyAt (xrecvCell (xnb c) 1) () N + tallyAt (xrecvCell (xnb c) 2) () N + tallyAt (xrecvCell (xnb c) 3) () N + tallyAt (xrecvCell (xnb c) 4) () N + tallyAt (xrecvCell (xnb c) 5) () N + tallyAt (xrecvCell (xnb c) 6) () N + tallyAt (xrecvCell (xnb c) 7) () N + tallyAt (xrecvCell (xnb c) 8) () N + tallyAt (xrecvCell (xnb c) 9) () N + tallyAt (xrecvCell (xnb c) 10) () N + tallyAt (xrecvCell (xnb c) 11) () N + tallyAt (xrecvCell (xnb c) 12) () N + tallyAt (xrecvCell (xnb c) 13) () N + tallyAt (xrecvCell (xnb c) 14) () N + tallyAt (xrecvCell (xnb c) 15) () N) := by below
example (c : Dev nD) : Below c (SemLoc.dma ((cc0_scratch5.slice (Rect.unit (s := S8) ![3] S1.size inb_S8_S1_3)).squeeze S_ squeezes_S1_S_).sem) (O₀ c) := by below
example (c : Dev nD) : Below c (SemLoc.dma (⟨38, by decide⟩ : DmaSem sig)) (tallyAt (xrecvCell (xnb c) 0) () N + tallyAt (xrecvCell (xnb c) 1) () N + tallyAt (xrecvCell (xnb c) 2) () N + tallyAt (xrecvCell (xnb c) 3) () N + tallyAt (xrecvCell (xnb c) 4) () N + tallyAt (xrecvCell (xnb c) 5) () N + tallyAt (xrecvCell (xnb c) 6) () N + tallyAt (xrecvCell (xnb c) 7) () N + tallyAt (xrecvCell (xnb c) 8) () N + tallyAt (xrecvCell (xnb c) 9) () N + tallyAt (xrecvCell (xnb c) 10) () N + tallyAt (xrecvCell (xnb c) 11) () N + tallyAt (xrecvCell (xnb c) 12) () N + tallyAt (xrecvCell (xnb c) 13) () N + tallyAt (xrecvCell (xnb c) 14) () N + tallyAt (xrecvCell (xnb c) 15) () N) := by below
example (c : Dev nD) : Below c (SemLoc.dma (⟨20, by decide⟩ : DmaSem sig)) (O₀ c) := by below
example (c : Dev nD) (j : Fin 16) : Below c (.dma (yrecvS j)) (tallyAt (xrecvCell (xnb c) j) () N + tallyAt (xrecvCell (xnb c) 3) () N) := by below
example (c : Dev nD) (j : Fin 8) : Below c (copyS j |> SemLoc.dma) (O₀ c) := by below
example (c : Dev nD) : Below c (.dma (outS 2)) 0 := by below
example (c : Dev nD) : Below c (.dma (fsendS 2)) (tallyAt (barCell (xnb c)) () 1) := by below
example (c : Dev nD) : Below c (.dma (ysendS 7)) (tallyAt (xrecvCell (xnb c) 3) () N + (tallyAt (barCell c) () 1 + 0)) := by below

/-! ## The staging cell's waits -/

/-- The pipelined window's one staging semaphore is DMA semaphore 0, at level 0; the device waits on it owing what it owes at
    launch, or nothing. -/
theorem waits (c : Dev nD) : (levAts L lv : sProp 𝕄) ⊢ Pipeline.cellsWaits cfgs (dats m Sb Yc Xc OutP) () 0 c :=
  Pipeline.cellsWaits_intro cfgs (dats m Sb Yc Xc OutP) () 0 c fun w s t => by
    have hs : ((cfgs (0 : Fin 1)).win w).sem s = (0 : DmaSem sig) := by fin_cases w; fin_cases s; rfl
    rw [hs]
    rcases t with ⟨_ | _, ht⟩
    · exact mayWait_below c _ _ (by show Below c _ (O₀ c); below)
    · exact mayWait_below c _ _ (below_zero c _)

/-! ## The credit dealt at launch -/

theorem sep_assoc_eq (P Q R : sProp 𝕄) : iprop((P ∗ Q) ∗ R) = iprop(P ∗ Q ∗ R) := BI.Entails.antisymm sep_assoc sep_assoc'

omit [FloatOps F] in
/-- When every device `d` owes `k` units to the cell `sm` of its neighbour `σ d`, `σ` an involution, the cell `sm` of device `c` is dealt
    `k` units at launch: those its neighbour `σ c` owes it. -/
theorem launchCred_tally (σ : Dev nD → Dev nD) (hσ : ∀ d, σ (σ d) = d) (sm : SemLoc sig) (k : ℕ) (c : Dev nD) :
    (Pipeline.launchCred (fun d => tallyAt ((σ d : Thread nD τ), sm) () k) c : sProp 𝕄) ⊢ cred (tallyAt ((c : Thread nD τ), sm) () k) := by
  refine (Pipeline.launchCred_elim _ c sm).trans ?_
  have e : launchCredit (Pipeline.owing fun d => tallyAt ((σ d : Thread nD τ), sm) () k) 0 ((c : Thread nD τ), sm) = Finsupp.single () k := by
    refine Finsupp.ext fun u => ?_
    cases u
    rw [Pipeline.launchCredit_owing, Finsupp.single_eq_same, Finset.sum_eq_single (σ c)]
    · rw [hσ]; exact tallyAt_self _ _ _
    · intro d _ hd
      rw [tallyAt_apply, if_neg]
      rintro ⟨h, _⟩
      exact hd (by
        have hc : c = σ d := Fin.ext (congrArg (fun g : GSem nD τ sig => g.1.1.val) h)
        rw [hc, hσ])
    · intro h; exact absurd (Finset.mem_univ _) h
  rw [e]
  exact BI.Entails.refl _

theorem cred_add_eq (T₁ T₂ : CellTallies nD τ sig Unit) : (iprop(cred T₁ ∗ cred T₂) : sProp 𝕄) = cred (T₁ + T₂) :=
  BI.Entails.antisymm (cred_add T₁ T₂).2 (cred_add T₁ T₂).1

/-- A sum of thirty-four terms listed last to first is the sum listed first to last: addition is commutative and associative. -/
theorem sum_rearrange {M : Type} [AddCommMonoid M] (b₁ b₂ : M) (y x : Fin 16 → M) :
    x 15 + (x 14 + (x 13 + (x 12 + (x 11 + (x 10 + (x 9 + (x 8 + (x 7 + (x 6 + (x 5 + (x 4 + (x 3 + (x 2 + (x 1 + (x 0 + (y 15 + (y 14 + (y 13 + (y 12 + (y 11 + (y 10 + (y 9 + (y 8 + (y 7 + (y 6 + (y 5 + (y 4 + (y 3 + (y 2 + (y 1 + (y 0 + (b₁ + b₂))))))))))))))))))))))))))))))))
      = (b₁ + b₂) + (y 0 + (y 1 + (y 2 + (y 3 + (y 4 + (y 5 + (y 6 + (y 7 + (y 8 + (y 9 + (y 10 + (y 11 + (y 12 + (y 13 + (y 14 + (y 15 + (x 0 + (x 1 + (x 2 + (x 3 + (x 4 + (x 5 + (x 6 + (x 7 + (x 8 + (x 9 + (x 10 + (x 11 + (x 12 + (x 13 + (x 14 + (x 15)))))))))))))))))))))))))))))))) := by
  ac_rfl

theorem cred_add_eq' (T₁ T₂ : CellTallies nD τ sig Unit) : (BI.sep (cred T₁) (cred T₂) : sProp 𝕄) = cred (T₁ + T₂) := cred_add_eq T₁ T₂

/-- At launch device `c` is dealt two units on its barrier cell — one owed by each neighbour — and one chunk on each of its
    thirty-two receive cells, owed by the neighbour that writes the slot. The credits come out in the order the dues are listed;
    tokens of credit add up, and a sum of tallies does not depend on the order of its summands. -/
theorem creds_intro (c : Dev nD) : (Pipeline.launchCred O₀ c : sProp 𝕄) ⊢ creds c := by
  delta O₀
  simp only [Pipeline.launchCred_add, sep_assoc_eq]
  apply BI.Entails.trans
  ·
    iterate 16 apply BI.sep_mono (launchCred_tally xnb xnb_xnb _ N c)
    iterate 16 apply BI.sep_mono (launchCred_tally ynb ynb_ynb _ N c)
    exact BI.sep_mono (launchCred_tally xnb xnb_xnb (.reg barS) 1 c) (launchCred_tally ynb ynb_ynb (.reg barS) 1 c)
  ·
    unfold creds
    simp only [cred_add_eq, cred_add_eq']
    have key : ∀ A B : CellTallies nD τ sig Unit, A = B → (cred A : sProp 𝕄) ⊢ cred B := fun A B h => h ▸ BI.Entails.refl _
    refine key _ _ ?_
    have e2 : (tallyAt (barCell c) () 2 : CellTallies nD τ sig Unit) = tallyAt (barCell c) () 1 + tallyAt (barCell c) () 1 :=
      (tallyAt_add _ _ 1 1).symm
    rw [e2]
    exact sum_rearrange (tallyAt (barCell c) () 1) (tallyAt (barCell c) () 1) (fun j => tallyAt (yrecvCell c j) () N) (fun j => tallyAt (xrecvCell c j) () N)

end Cert.KernelIdeal.Hand

end
-- ==== Proof.Slots.lean ====
import proofs.«901046_g7700000000001047_dist_rsdw_v7x_xy2x2_y_m1024_d1024_f4096_f32_1_alg».proof.Proof.Basic
import Idealize.ShloMosaic.Rules.PointsTo
import Idealize.ShloMosaic.Lib.Exec.Geometry

/-! Splitting a whole sixteen-slot buffer into its slots, and joining the slots back.

The index set of a buffer of shape 16 × 512 × 128 is the disjoint union of the sixteen sets "first coordinate is j". Slot j of each of the
three buffers is the unit-stride rectangle at offset (j, 0, 0) of sizes (1, 512, 128), with the leading axis dropped: dropping an axis of
size one keeps the element set, so the slot's elements are exactly the indices whose first coordinate is j. Holding the whole buffer is
therefore holding the sixteen slots side by side, at the same contents; and sixteen slots held at sixteen different contents glue into
one whole buffer, whose contents are, at each index, those of the slot the index lies in. -/

set_option maxRecDepth 16384

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Sixteen classes of a key -/

section Classes

variable {ℓ : Loc nD τ sig} (key : Idx ℓ → ℕ) (K : Fin 16 → Finset (Idx ℓ)) {q : PosShare TreeShare}

/-- The indices whose key is at least `k`. -/
def keyFrom (k : ℕ) : Finset (Idx ℓ) := Finset.univ.filter fun x => k ≤ key x

theorem mem_keyFrom {k : ℕ} {x : Idx ℓ} : x ∈ keyFrom key k ↔ k ≤ key x := by
  simp [keyFrom]

theorem keyFrom_zero : keyFrom key 0 = Finset.univ := by
  ext x; simp [mem_keyFrom]

variable (hkey : ∀ x, key x < 16) (hK : ∀ (j : Fin 16) x, x ∈ K j ↔ key x = j.val)
include hkey hK

theorem keyFrom_last : keyFrom key 15 = K 15 := by
  ext x; rw [mem_keyFrom, hK]; have := hkey x; show _ ↔ key x = 15; omega

theorem class_subset (j : Fin 16) (k : ℕ) (h : j.val = k) : K j ⊆ keyFrom key k := by
  intro x hx; rw [hK] at hx; rw [mem_keyFrom]; omega

theorem keyFrom_sdiff (j : Fin 16) (k : ℕ) (h : j.val = k) : keyFrom key k \ K j = keyFrom key (k + 1) := by
  ext x; rw [Finset.mem_sdiff, mem_keyFrom, mem_keyFrom, hK]; omega

theorem class_disjoint (j : Fin 16) (k : ℕ) (h : j.val = k) : Disjoint (K j) (keyFrom key (k + 1)) := by
  rw [Finset.disjoint_left]; intro x hx; rw [hK] at hx; rw [mem_keyFrom]; omega

theorem class_union (j : Fin 16) (k : ℕ) (h : j.val = k) : K j ∪ keyFrom key (k + 1) = keyFrom key k := by
  ext x; rw [Finset.mem_union, mem_keyFrom, mem_keyFrom, hK]; omega

/-- One class off the front, at the same contents. -/
theorem split_step (j : Fin 16) (k : ℕ) (h : j.val = k) (f : Buf (Elt F) ℓ) :
    (ℓ ↦[keyFrom key k]{q} f : sProp 𝕄) ⊢ iprop((ℓ ↦[K j]{q} f) ∗ ℓ ↦[keyFrom key (k + 1)]{q} f) := by
  have h1 := (pointsTo_split_subset (Val := Elt F) (U := UU) (Ix := Unit) (Name := ℕ) (Lvl := ℕ) (q := q) (f := f) (class_subset key K hkey hK j k h)).1
  rw [keyFrom_sdiff key K hkey hK j k h] at h1
  exact h1

/-- One class back on the front, each side at contents of its own. -/
theorem join_step (j : Fin 16) (k : ℕ) (h : j.val = k) :
    (iprop((∃ f, ℓ ↦[K j]{q} f) ∗ (∃ g, ℓ ↦[keyFrom key (k + 1)]{q} g)) : sProp 𝕄) ⊢ iprop(∃ g, ℓ ↦[keyFrom key k]{q} g) := by
  iintro ⟨⟨%f, Hf⟩, ⟨%g, Hg⟩⟩
  iexists (keyFrom key (k + 1)).piecewise g f
  have h1 := pointsTo_join (Val := Elt F) (U := UU) (Ix := Unit) (Name := ℕ) (Lvl := ℕ) (q := q) (f := f) (g := g) (class_disjoint key K hkey hK j k h)
  rw [class_union key K hkey hK j k h] at h1
  iapply h1
  isplitl [Hf]
  · iexact Hf
  · iexact Hg

end Classes

section Chains

variable {ℓ : Loc nD τ sig} (key : Idx ℓ → ℕ) (K : Fin 16 → Finset (Idx ℓ)) {q : PosShare TreeShare}
variable (hkey : ∀ x, key x < 16) (hK : ∀ (j : Fin 16) x, x ∈ K j ↔ key x = j.val)
include hkey hK

/-- The whole buffer is its sixteen classes side by side, at the same contents. -/
theorem classes_split (f : Buf (Elt F) ℓ) :
    (ℓ ↦{q} f : sProp 𝕄) ⊢ iprop((ℓ ↦[K 0]{q} f) ∗ (ℓ ↦[K 1]{q} f) ∗ (ℓ ↦[K 2]{q} f) ∗ (ℓ ↦[K 3]{q} f) ∗ (ℓ ↦[K 4]{q} f) ∗ (ℓ ↦[K 5]{q} f) ∗ (ℓ ↦[K 6]{q} f) ∗ (ℓ ↦[K 7]{q} f) ∗ (ℓ ↦[K 8]{q} f) ∗ (ℓ ↦[K 9]{q} f) ∗ (ℓ ↦[K 10]{q} f) ∗ (ℓ ↦[K 11]{q} f) ∗ (ℓ ↦[K 12]{q} f) ∗ (ℓ ↦[K 13]{q} f) ∗ (ℓ ↦[K 14]{q} f) ∗ (ℓ ↦[K 15]{q} f)) := by
  have h0 : (ℓ ↦{q} f : sProp 𝕄) ⊢ ℓ ↦[keyFrom key 0]{q} f := Entails.of_eq (by rw [keyFrom_zero])
  have h15 : (ℓ ↦[keyFrom key 15]{q} f : sProp 𝕄) ⊢ ℓ ↦[K 15]{q} f := Entails.of_eq (by rw [keyFrom_last key K hkey hK])
  refine h0.trans ?_
  refine (split_step key K hkey hK 0 0 rfl f).trans (sep_mono_r ?_)
  refine (split_step key K hkey hK 1 1 rfl f).trans (sep_mono_r ?_)
  refine (split_step key K hkey hK 2 2 rfl f).trans (sep_mono_r ?_)
  refine (split_step key K hkey hK 3 3 rfl f).trans (sep_mono_r ?_)
  refine (split_step key K hkey hK 4 4 rfl f).trans (sep_mono_r ?_)
  refine (split_step key K hkey hK 5 5 rfl f).trans (sep_mono_r ?_)
  refine (split_step key K hkey hK 6 6 rfl f).trans (sep_mono_r ?_)
  refine (split_step key K hkey hK 7 7 rfl f).trans (sep_mono_r ?_)
  refine (split_step key K hkey hK 8 8 rfl f).trans (sep_mono_r ?_)
  refine (split_step key K hkey hK 9 9 rfl f).trans (sep_mono_r ?_)
  refine (split_step key K hkey hK 10 10 rfl f).trans (sep_mono_r ?_)
  refine (split_step key K hkey hK 11 11 rfl f).trans (sep_mono_r ?_)
  refine (split_step key K hkey hK 12 12 rfl f).trans (sep_mono_r ?_)
  refine (split_step key K hkey hK 13 13 rfl f).trans (sep_mono_r ?_)
  refine (split_step key K hkey hK 14 14 rfl f).trans (sep_mono_r ?_)
  exact h15

/-- Sixteen classes, each at contents of its own, are the whole buffer at the glued contents. -/
theorem classes_join :
    (iprop((∃ f, ℓ ↦[K 0]{q} f) ∗ (∃ f, ℓ ↦[K 1]{q} f) ∗ (∃ f, ℓ ↦[K 2]{q} f) ∗ (∃ f, ℓ ↦[K 3]{q} f) ∗ (∃ f, ℓ ↦[K 4]{q} f) ∗ (∃ f, ℓ ↦[K 5]{q} f) ∗ (∃ f, ℓ ↦[K 6]{q} f) ∗ (∃ f, ℓ ↦[K 7]{q} f) ∗ (∃ f, ℓ ↦[K 8]{q} f) ∗ (∃ f, ℓ ↦[K 9]{q} f) ∗ (∃ f, ℓ ↦[K 10]{q} f) ∗ (∃ f, ℓ ↦[K 11]{q} f) ∗ (∃ f, ℓ ↦[K 12]{q} f) ∗ (∃ f, ℓ ↦[K 13]{q} f) ∗ (∃ f, ℓ ↦[K 14]{q} f) ∗ (∃ f, ℓ ↦[K 15]{q} f)) : sProp 𝕄) ⊢ iprop(∃ f, ℓ ↦{q} f) := by
  have h15 : (iprop(∃ f, ℓ ↦[K 15]{q} f) : sProp 𝕄) ⊢ iprop(∃ g, ℓ ↦[keyFrom key 15]{q} g) := Entails.of_eq (by rw [keyFrom_last key K hkey hK])
  have h14 := (sep_mono_r h15).trans (join_step (F := F) key K hkey hK (q := q) 14 14 rfl)
  have h13 := (sep_mono_r h14).trans (join_step (F := F) key K hkey hK (q := q) 13 13 rfl)
  have h12 := (sep_mono_r h13).trans (join_step (F := F) key K hkey hK (q := q) 12 12 rfl)
  have h11 := (sep_mono_r h12).trans (join_step (F := F) key K hkey hK (q := q) 11 11 rfl)
  have h10 := (sep_mono_r h11).trans (join_step (F := F) key K hkey hK (q := q) 10 10 rfl)
  have h9 := (sep_mono_r h10).trans (join_step (F := F) key K hkey hK (q := q) 9 9 rfl)
  have h8 := (sep_mono_r h9).trans (join_step (F := F) key K hkey hK (q := q) 8 8 rfl)
  have h7 := (sep_mono_r h8).trans (join_step (F := F) key K hkey hK (q := q) 7 7 rfl)
  have h6 := (sep_mono_r h7).trans (join_step (F := F) key K hkey hK (q := q) 6 6 rfl)
  have h5 := (sep_mono_r h6).trans (join_step (F := F) key K hkey hK (q := q) 5 5 rfl)
  have h4 := (sep_mono_r h5).trans (join_step (F := F) key K hkey hK (q := q) 4 4 rfl)
  have h3 := (sep_mono_r h4).trans (join_step (F := F) key K hkey hK (q := q) 3 3 rfl)
  have h2 := (sep_mono_r h3).trans (join_step (F := F) key K hkey hK (q := q) 2 2 rfl)
  have h1 := (sep_mono_r h2).trans (join_step (F := F) key K hkey hK (q := q) 1 1 rfl)
  have h0 := (sep_mono_r h1).trans (join_step (F := F) key K hkey hK (q := q) 0 0 rfl)
  have htop : (iprop(∃ g, ℓ ↦[keyFrom key 0]{q} g) : sProp 𝕄) ⊢ iprop(∃ f, ℓ ↦{q} f) := Entails.of_eq (by rw [keyFrom_zero])
  exact h0.trans htop

end Chains

section ChainsFramed

variable {ℓ : Loc nD τ sig} (key : Idx ℓ → ℕ) (K : Fin 16 → Finset (Idx ℓ)) {q : PosShare TreeShare}
variable (hkey : ∀ x, key x < 16) (hK : ∀ (j : Fin 16) x, x ∈ K j ↔ key x = j.val)
include hkey hK

/-- The same with more conjuncts after the sixteenth class: they are carried along. -/
theorem classes_join_frame (R : sProp 𝕄) :
    (iprop((∃ f, ℓ ↦[K 0]{q} f) ∗ (∃ f, ℓ ↦[K 1]{q} f) ∗ (∃ f, ℓ ↦[K 2]{q} f) ∗ (∃ f, ℓ ↦[K 3]{q} f) ∗ (∃ f, ℓ ↦[K 4]{q} f) ∗ (∃ f, ℓ ↦[K 5]{q} f) ∗ (∃ f, ℓ ↦[K 6]{q} f) ∗ (∃ f, ℓ ↦[K 7]{q} f) ∗ (∃ f, ℓ ↦[K 8]{q} f) ∗ (∃ f, ℓ ↦[K 9]{q} f) ∗ (∃ f, ℓ ↦[K 10]{q} f) ∗ (∃ f, ℓ ↦[K 11]{q} f) ∗ (∃ f, ℓ ↦[K 12]{q} f) ∗ (∃ f, ℓ ↦[K 13]{q} f) ∗ (∃ f, ℓ ↦[K 14]{q} f) ∗ (∃ f, ℓ ↦[K 15]{q} f) ∗ R) : sProp 𝕄) ⊢ iprop((∃ f, ℓ ↦{q} f) ∗ R) := by
  have b15 : (iprop(∃ f, ℓ ↦[K 15]{q} f) : sProp 𝕄) ⊢ iprop(∃ g, ℓ ↦[keyFrom key 15]{q} g) := Entails.of_eq (by rw [keyFrom_last key K hkey hK])
  have h15 : (iprop((∃ f, ℓ ↦[K 15]{q} f) ∗ R) : sProp 𝕄) ⊢ iprop((∃ g, ℓ ↦[keyFrom key 15]{q} g) ∗ R) := sep_mono_l b15
  have h14 := (sep_mono_r h15).trans (sep_assoc'.trans (sep_mono_l (Q := R) (join_step (F := F) key K hkey hK (q := q) 14 14 rfl)))
  have h13 := (sep_mono_r h14).trans (sep_assoc'.trans (sep_mono_l (Q := R) (join_step (F := F) key K hkey hK (q := q) 13 13 rfl)))
  have h12 := (sep_mono_r h13).trans (sep_assoc'.trans (sep_mono_l (Q := R) (join_step (F := F) key K hkey hK (q := q) 12 12 rfl)))
  have h11 := (sep_mono_r h12).trans (sep_assoc'.trans (sep_mono_l (Q := R) (join_step (F := F) key K hkey hK (q := q) 11 11 rfl)))
  have h10 := (sep_mono_r h11).trans (sep_assoc'.trans (sep_mono_l (Q := R) (join_step (F := F) key K hkey hK (q := q) 10 10 rfl)))
  have h9 := (sep_mono_r h10).trans (sep_assoc'.trans (sep_mono_l (Q := R) (join_step (F := F) key K hkey hK (q := q) 9 9 rfl)))
  have h8 := (sep_mono_r h9).trans (sep_assoc'.trans (sep_mono_l (Q := R) (join_step (F := F) key K hkey hK (q := q) 8 8 rfl)))
  have h7 := (sep_mono_r h8).trans (sep_assoc'.trans (sep_mono_l (Q := R) (join_step (F := F) key K hkey hK (q := q) 7 7 rfl)))
  have h6 := (sep_mono_r h7).trans (sep_assoc'.trans (sep_mono_l (Q := R) (join_step (F := F) key K hkey hK (q := q) 6 6 rfl)))
  have h5 := (sep_mono_r h6).trans (sep_assoc'.trans (sep_mono_l (Q := R) (join_step (F := F) key K hkey hK (q := q) 5 5 rfl)))
  have h4 := (sep_mono_r h5).trans (sep_assoc'.trans (sep_mono_l (Q := R) (join_step (F := F) key K hkey hK (q := q) 4 4 rfl)))
  have h3 := (sep_mono_r h4).trans (sep_assoc'.trans (sep_mono_l (Q := R) (join_step (F := F) key K hkey hK (q := q) 3 3 rfl)))
  have h2 := (sep_mono_r h3).trans (sep_assoc'.trans (sep_mono_l (Q := R) (join_step (F := F) key K hkey hK (q := q) 2 2 rfl)))
  have h1 := (sep_mono_r h2).trans (sep_assoc'.trans (sep_mono_l (Q := R) (join_step (F := F) key K hkey hK (q := q) 1 1 rfl)))
  have h0 := (sep_mono_r h1).trans (sep_assoc'.trans (sep_mono_l (Q := R) (join_step (F := F) key K hkey hK (q := q) 0 0 rfl)))
  have htop : (iprop(∃ g, ℓ ↦[keyFrom key 0]{q} g) : sProp 𝕄) ⊢ iprop(∃ f, ℓ ↦{q} f) := Entails.of_eq (by rw [keyFrom_zero])
  exact h0.trans (sep_mono_l htop)

end ChainsFramed

/-! ## The first coordinate, and the slots' element sets -/

/-- The first coordinate of an index of a sixteen-slot buffer. -/
def lead (x : S16x512x128.Idx) : ℕ := (x (0 : Fin 3)).val

theorem lead_lt (x : S16x512x128.Idx) : lead x < 16 := (x (0 : Fin 3)).isLt

/-- An index lies in the rectangle at offset `(n, 0, 0)` of sizes `(1, 512, 128)` exactly when its first coordinate is `n`: the other
    two axes are taken whole. -/
theorem mem_unit_lead (n : ℕ) (inb : ∀ a, (![n, 0, 0] : Fin 3 → Nat) a + S1x512x128.size a ≤ S16x512x128.size a) (x : S16x512x128.Idx) :
    x ∈ (Rect.unit (s := S16x512x128) ![n, 0, 0] S1x512x128.size inb).set ↔ lead x = n := by
  rw [Rect.mem_set_unit]
  unfold lead
  constructor
  · intro h
    have h0 : n ≤ (x (0 : Fin 3)).val ∧ (x (0 : Fin 3)).val < n + 1 := h (0 : Fin 3)
    omega
  · intro h a
    have h1 : (x (1 : Fin 3)).val < 512 := (x (1 : Fin 3)).isLt
    have h2 : (x (2 : Fin 3)).val < 128 := (x (2 : Fin 3)).isLt
    fin_cases a
    · exact (show n ≤ (x (0 : Fin 3)).val ∧ (x (0 : Fin 3)).val < n + 1 by omega)
    · exact (show 0 ≤ (x (1 : Fin 3)).val ∧ (x (1 : Fin 3)).val < 0 + 512 by omega)
    · exact (show 0 ≤ (x (2 : Fin 3)).val ∧ (x (2 : Fin 3)).val < 0 + 128 by omega)

/-- The elements of the rectangle at offset `(n, 0, 0)` of sizes `(1, 512, 128)`, its leading axis dropped: first coordinate `n`. -/
theorem mem_srect (n : ℕ) (inb : ∀ a, (![n, 0, 0] : Fin 3 → Nat) a + S1x512x128.size a ≤ S16x512x128.size a) (x : S16x512x128.Idx) :
    x ∈ (((Memref.whole cc0_scratch2 : Memref sig .tc .vmem S16x512x128 .bf16).slice (Rect.unit (s := S16x512x128) ![n, 0, 0] S1x512x128.size inb) (fun _ => rfl)).squeeze S512x128 squeezes_S1x512x128_S512x128).view.set ↔ lead x = n :=
  (Finset.ext_iff.mp ((Memref.set_view_squeeze _ _).trans (View.set_slice_whole _ _)) x).trans (mem_unit_lead n inb x)

/-- The sixteen slots' element sets, as sets of indices of the one buffer. -/
def sset (c : Dev nD) : Fin 16 → Finset (Idx ((c : Thread nD τ).loc cc0_scratch2))
  | 0 => (sslot 0).view.set
  | 1 => (sslot 1).view.set
  | 2 => (sslot 2).view.set
  | 3 => (sslot 3).view.set
  | 4 => (sslot 4).view.set
  | 5 => (sslot 5).view.set
  | 6 => (sslot 6).view.set
  | 7 => (sslot 7).view.set
  | 8 => (sslot 8).view.set
  | 9 => (sslot 9).view.set
  | 10 => (sslot 10).view.set
  | 11 => (sslot 11).view.set
  | 12 => (sslot 12).view.set
  | 13 => (sslot 13).view.set
  | 14 => (sslot 14).view.set
  | 15 => (sslot 15).view.set
  | ⟨_ + 16, h⟩ => absurd h (by omega)

theorem mem_sset (c : Dev nD) (j : Fin 16) (x : Idx ((c : Thread nD τ).loc cc0_scratch2)) : x ∈ sset c j ↔ lead x = j.val := by
  fin_cases j <;> exact mem_srect _ _ x

/-- The elements of the rectangle at offset `(n, 0, 0)` of sizes `(1, 512, 128)`, its leading axis dropped: first coordinate `n`. -/
theorem mem_yrect (n : ℕ) (inb : ∀ a, (![n, 0, 0] : Fin 3 → Nat) a + S1x512x128.size a ≤ S16x512x128.size a) (x : S16x512x128.Idx) :
    x ∈ (((Memref.whole cc0_scratch3 : Memref sig .tc .vmem S16x512x128 .bf16).slice (Rect.unit (s := S16x512x128) ![n, 0, 0] S1x512x128.size inb) (fun _ => rfl)).squeeze S512x128 squeezes_S1x512x128_S512x128).view.set ↔ lead x = n :=
  (Finset.ext_iff.mp ((Memref.set_view_squeeze _ _).trans (View.set_slice_whole _ _)) x).trans (mem_unit_lead n inb x)

/-- The sixteen slots' element sets, as sets of indices of the one buffer. -/
def yset (c : Dev nD) : Fin 16 → Finset (Idx ((c : Thread nD τ).loc cc0_scratch3))
  | 0 => (yslot 0).view.set
  | 1 => (yslot 1).view.set
  | 2 => (yslot 2).view.set
  | 3 => (yslot 3).view.set
  | 4 => (yslot 4).view.set
  | 5 => (yslot 5).view.set
  | 6 => (yslot 6).view.set
  | 7 => (yslot 7).view.set
  | 8 => (yslot 8).view.set
  | 9 => (yslot 9).view.set
  | 10 => (yslot 10).view.set
  | 11 => (yslot 11).view.set
  | 12 => (yslot 12).view.set
  | 13 => (yslot 13).view.set
  | 14 => (yslot 14).view.set
  | 15 => (yslot 15).view.set
  | ⟨_ + 16, h⟩ => absurd h (by omega)

theorem mem_yset (c : Dev nD) (j : Fin 16) (x : Idx ((c : Thread nD τ).loc cc0_scratch3)) : x ∈ yset c j ↔ lead x = j.val := by
  fin_cases j <;> exact mem_yrect _ _ x

/-- The elements of the rectangle at offset `(n, 0, 0)` of sizes `(1, 512, 128)`, its leading axis dropped: first coordinate `n`. -/
theorem mem_xrect (n : ℕ) (inb : ∀ a, (![n, 0, 0] : Fin 3 → Nat) a + S1x512x128.size a ≤ S16x512x128.size a) (x : S16x512x128.Idx) :
    x ∈ (((Memref.whole cc0_scratch4 : Memref sig .tc .vmem S16x512x128 .bf16).slice (Rect.unit (s := S16x512x128) ![n, 0, 0] S1x512x128.size inb) (fun _ => rfl)).squeeze S512x128 squeezes_S1x512x128_S512x128).view.set ↔ lead x = n :=
  (Finset.ext_iff.mp ((Memref.set_view_squeeze _ _).trans (View.set_slice_whole _ _)) x).trans (mem_unit_lead n inb x)

/-- The sixteen slots' element sets, as sets of indices of the one buffer. -/
def xset (c : Dev nD) : Fin 16 → Finset (Idx ((c : Thread nD τ).loc cc0_scratch4))
  | 0 => (xslot 0).view.set
  | 1 => (xslot 1).view.set
  | 2 => (xslot 2).view.set
  | 3 => (xslot 3).view.set
  | 4 => (xslot 4).view.set
  | 5 => (xslot 5).view.set
  | 6 => (xslot 6).view.set
  | 7 => (xslot 7).view.set
  | 8 => (xslot 8).view.set
  | 9 => (xslot 9).view.set
  | 10 => (xslot 10).view.set
  | 11 => (xslot 11).view.set
  | 12 => (xslot 12).view.set
  | 13 => (xslot 13).view.set
  | 14 => (xslot 14).view.set
  | 15 => (xslot 15).view.set
  | ⟨_ + 16, h⟩ => absurd h (by omega)

theorem mem_xset (c : Dev nD) (j : Fin 16) (x : Idx ((c : Thread nD τ).loc cc0_scratch4)) : x ∈ xset c j ↔ lead x = j.val := by
  fin_cases j <;> exact mem_xrect _ _ x

/-! ## Every slot lives in its buffer -/

theorem sslot_loc (c : Dev nD) (j : Fin 16) : (sslot j).view.loc (c : Thread nD τ) = (c : Thread nD τ).loc cc0_scratch2 := by
  fin_cases j <;> rfl

theorem yslot_loc (c : Dev nD) (j : Fin 16) : (yslot j).view.loc (c : Thread nD τ) = (c : Thread nD τ).loc cc0_scratch3 := by
  fin_cases j <;> rfl

theorem xslot_loc (c : Dev nD) (j : Fin 16) : (xslot j).view.loc (c : Thread nD τ) = (c : Thread nD τ).loc cc0_scratch4 := by
  fin_cases j <;> rfl

/-! ## The three buffers -/

/-- The buffer of outgoing chunks, held whole, is its sixteen slots side by side at the same contents. -/
theorem sslots_split (c : Dev nD) (f : Buf (Elt F) ((c : Thread nD τ).loc cc0_scratch2)) :
    (((c : Thread nD τ).loc cc0_scratch2) ↦{fullShare} f : sProp 𝕄) ⊢
      iprop(((sslot 0).view.loc (c : Thread nD τ) ↦[(sslot 0).view.set]{fullShare} f) ∗ ((sslot 1).view.loc (c : Thread nD τ) ↦[(sslot 1).view.set]{fullShare} f) ∗ ((sslot 2).view.loc (c : Thread nD τ) ↦[(sslot 2).view.set]{fullShare} f) ∗ ((sslot 3).view.loc (c : Thread nD τ) ↦[(sslot 3).view.set]{fullShare} f) ∗ ((sslot 4).view.loc (c : Thread nD τ) ↦[(sslot 4).view.set]{fullShare} f) ∗ ((sslot 5).view.loc (c : Thread nD τ) ↦[(sslot 5).view.set]{fullShare} f) ∗ ((sslot 6).view.loc (c : Thread nD τ) ↦[(sslot 6).view.set]{fullShare} f) ∗ ((sslot 7).view.loc (c : Thread nD τ) ↦[(sslot 7).view.set]{fullShare} f) ∗ ((sslot 8).view.loc (c : Thread nD τ) ↦[(sslot 8).view.set]{fullShare} f) ∗ ((sslot 9).view.loc (c : Thread nD τ) ↦[(sslot 9).view.set]{fullShare} f) ∗ ((sslot 10).view.loc (c : Thread nD τ) ↦[(sslot 10).view.set]{fullShare} f) ∗ ((sslot 11).view.loc (c : Thread nD τ) ↦[(sslot 11).view.set]{fullShare} f) ∗ ((sslot 12).view.loc (c : Thread nD τ) ↦[(sslot 12).view.set]{fullShare} f) ∗ ((sslot 13).view.loc (c : Thread nD τ) ↦[(sslot 13).view.set]{fullShare} f) ∗ ((sslot 14).view.loc (c : Thread nD τ) ↦[(sslot 14).view.set]{fullShare} f) ∗ ((sslot 15).view.loc (c : Thread nD τ) ↦[(sslot 15).view.set]{fullShare} f)) :=
  classes_split (F := F) (ℓ := (c : Thread nD τ).loc cc0_scratch2) (fun x => lead x) (sset c) (fun x => lead_lt x) (mem_sset c) f

/-- Its sixteen slots, each at contents of its own, are the buffer held whole at the glued contents. -/
theorem sslots_join (c : Dev nD) :
    (iprop((∃ f, (sslot 0).view.loc (c : Thread nD τ) ↦[(sslot 0).view.set]{fullShare} f) ∗ (∃ f, (sslot 1).view.loc (c : Thread nD τ) ↦[(sslot 1).view.set]{fullShare} f) ∗ (∃ f, (sslot 2).view.loc (c : Thread nD τ) ↦[(sslot 2).view.set]{fullShare} f) ∗ (∃ f, (sslot 3).view.loc (c : Thread nD τ) ↦[(sslot 3).view.set]{fullShare} f) ∗ (∃ f, (sslot 4).view.loc (c : Thread nD τ) ↦[(sslot 4).view.set]{fullShare} f) ∗ (∃ f, (sslot 5).view.loc (c : Thread nD τ) ↦[(sslot 5).view.set]{fullShare} f) ∗ (∃ f, (sslot 6).view.loc (c : Thread nD τ) ↦[(sslot 6).view.set]{fullShare} f) ∗ (∃ f, (sslot 7).view.loc (c : Thread nD τ) ↦[(sslot 7).view.set]{fullShare} f) ∗ (∃ f, (sslot 8).view.loc (c : Thread nD τ) ↦[(sslot 8).view.set]{fullShare} f) ∗ (∃ f, (sslot 9).view.loc (c : Thread nD τ) ↦[(sslot 9).view.set]{fullShare} f) ∗ (∃ f, (sslot 10).view.loc (c : Thread nD τ) ↦[(sslot 10).view.set]{fullShare} f) ∗ (∃ f, (sslot 11).view.loc (c : Thread nD τ) ↦[(sslot 11).view.set]{fullShare} f) ∗ (∃ f, (sslot 12).view.loc (c : Thread nD τ) ↦[(sslot 12).view.set]{fullShare} f) ∗ (∃ f, (sslot 13).view.loc (c : Thread nD τ) ↦[(sslot 13).view.set]{fullShare} f) ∗ (∃ f, (sslot 14).view.loc (c : Thread nD τ) ↦[(sslot 14).view.set]{fullShare} f) ∗ (∃ f, (sslot 15).view.loc (c : Thread nD τ) ↦[(sslot 15).view.set]{fullShare} f)) : sProp 𝕄) ⊢
      iprop(∃ f, ((c : Thread nD τ).loc cc0_scratch2) ↦{fullShare} f) :=
  classes_join (F := F) (ℓ := (c : Thread nD τ).loc cc0_scratch2) (fun x => lead x) (sset c) (fun x => lead_lt x) (mem_sset c)

/-- The buffer the neighbour along the second axis writes, held whole, is its sixteen slots side by side at the same contents. -/
theorem yslots_split (c : Dev nD) (f : Buf (Elt F) ((c : Thread nD τ).loc cc0_scratch3)) :
    (((c : Thread nD τ).loc cc0_scratch3) ↦{fullShare} f : sProp 𝕄) ⊢
      iprop(((yslot 0).view.loc (c : Thread nD τ) ↦[(yslot 0).view.set]{fullShare} f) ∗ ((yslot 1).view.loc (c : Thread nD τ) ↦[(yslot 1).view.set]{fullShare} f) ∗ ((yslot 2).view.loc (c : Thread nD τ) ↦[(yslot 2).view.set]{fullShare} f) ∗ ((yslot 3).view.loc (c : Thread nD τ) ↦[(yslot 3).view.set]{fullShare} f) ∗ ((yslot 4).view.loc (c : Thread nD τ) ↦[(yslot 4).view.set]{fullShare} f) ∗ ((yslot 5).view.loc (c : Thread nD τ) ↦[(yslot 5).view.set]{fullShare} f) ∗ ((yslot 6).view.loc (c : Thread nD τ) ↦[(yslot 6).view.set]{fullShare} f) ∗ ((yslot 7).view.loc (c : Thread nD τ) ↦[(yslot 7).view.set]{fullShare} f) ∗ ((yslot 8).view.loc (c : Thread nD τ) ↦[(yslot 8).view.set]{fullShare} f) ∗ ((yslot 9).view.loc (c : Thread nD τ) ↦[(yslot 9).view.set]{fullShare} f) ∗ ((yslot 10).view.loc (c : Thread nD τ) ↦[(yslot 10).view.set]{fullShare} f) ∗ ((yslot 11).view.loc (c : Thread nD τ) ↦[(yslot 11).view.set]{fullShare} f) ∗ ((yslot 12).view.loc (c : Thread nD τ) ↦[(yslot 12).view.set]{fullShare} f) ∗ ((yslot 13).view.loc (c : Thread nD τ) ↦[(yslot 13).view.set]{fullShare} f) ∗ ((yslot 14).view.loc (c : Thread nD τ) ↦[(yslot 14).view.set]{fullShare} f) ∗ ((yslot 15).view.loc (c : Thread nD τ) ↦[(yslot 15).view.set]{fullShare} f)) :=
  classes_split (F := F) (ℓ := (c : Thread nD τ).loc cc0_scratch3) (fun x => lead x) (yset c) (fun x => lead_lt x) (mem_yset c) f

/-- Its sixteen slots, each at contents of its own, are the buffer held whole at the glued contents. -/
theorem yslots_join (c : Dev nD) :
    (iprop((∃ f, (yslot 0).view.loc (c : Thread nD τ) ↦[(yslot 0).view.set]{fullShare} f) ∗ (∃ f, (yslot 1).view.loc (c : Thread nD τ) ↦[(yslot 1).view.set]{fullShare} f) ∗ (∃ f, (yslot 2).view.loc (c : Thread nD τ) ↦[(yslot 2).view.set]{fullShare} f) ∗ (∃ f, (yslot 3).view.loc (c : Thread nD τ) ↦[(yslot 3).view.set]{fullShare} f) ∗ (∃ f, (yslot 4).view.loc (c : Thread nD τ) ↦[(yslot 4).view.set]{fullShare} f) ∗ (∃ f, (yslot 5).view.loc (c : Thread nD τ) ↦[(yslot 5).view.set]{fullShare} f) ∗ (∃ f, (yslot 6).view.loc (c : Thread nD τ) ↦[(yslot 6).view.set]{fullShare} f) ∗ (∃ f, (yslot 7).view.loc (c : Thread nD τ) ↦[(yslot 7).view.set]{fullShare} f) ∗ (∃ f, (yslot 8).view.loc (c : Thread nD τ) ↦[(yslot 8).view.set]{fullShare} f) ∗ (∃ f, (yslot 9).view.loc (c : Thread nD τ) ↦[(yslot 9).view.set]{fullShare} f) ∗ (∃ f, (yslot 10).view.loc (c : Thread nD τ) ↦[(yslot 10).view.set]{fullShare} f) ∗ (∃ f, (yslot 11).view.loc (c : Thread nD τ) ↦[(yslot 11).view.set]{fullShare} f) ∗ (∃ f, (yslot 12).view.loc (c : Thread nD τ) ↦[(yslot 12).view.set]{fullShare} f) ∗ (∃ f, (yslot 13).view.loc (c : Thread nD τ) ↦[(yslot 13).view.set]{fullShare} f) ∗ (∃ f, (yslot 14).view.loc (c : Thread nD τ) ↦[(yslot 14).view.set]{fullShare} f) ∗ (∃ f, (yslot 15).view.loc (c : Thread nD τ) ↦[(yslot 15).view.set]{fullShare} f)) : sProp 𝕄) ⊢
      iprop(∃ f, ((c : Thread nD τ).loc cc0_scratch3) ↦{fullShare} f) :=
  classes_join (F := F) (ℓ := (c : Thread nD τ).loc cc0_scratch3) (fun x => lead x) (yset c) (fun x => lead_lt x) (mem_yset c)

/-- The buffer the neighbour along the first axis writes, held whole, is its sixteen slots side by side at the same contents. -/
theorem xslots_split (c : Dev nD) (f : Buf (Elt F) ((c : Thread nD τ).loc cc0_scratch4)) :
    (((c : Thread nD τ).loc cc0_scratch4) ↦{fullShare} f : sProp 𝕄) ⊢
      iprop(((xslot 0).view.loc (c : Thread nD τ) ↦[(xslot 0).view.set]{fullShare} f) ∗ ((xslot 1).view.loc (c : Thread nD τ) ↦[(xslot 1).view.set]{fullShare} f) ∗ ((xslot 2).view.loc (c : Thread nD τ) ↦[(xslot 2).view.set]{fullShare} f) ∗ ((xslot 3).view.loc (c : Thread nD τ) ↦[(xslot 3).view.set]{fullShare} f) ∗ ((xslot 4).view.loc (c : Thread nD τ) ↦[(xslot 4).view.set]{fullShare} f) ∗ ((xslot 5).view.loc (c : Thread nD τ) ↦[(xslot 5).view.set]{fullShare} f) ∗ ((xslot 6).view.loc (c : Thread nD τ) ↦[(xslot 6).view.set]{fullShare} f) ∗ ((xslot 7).view.loc (c : Thread nD τ) ↦[(xslot 7).view.set]{fullShare} f) ∗ ((xslot 8).view.loc (c : Thread nD τ) ↦[(xslot 8).view.set]{fullShare} f) ∗ ((xslot 9).view.loc (c : Thread nD τ) ↦[(xslot 9).view.set]{fullShare} f) ∗ ((xslot 10).view.loc (c : Thread nD τ) ↦[(xslot 10).view.set]{fullShare} f) ∗ ((xslot 11).view.loc (c : Thread nD τ) ↦[(xslot 11).view.set]{fullShare} f) ∗ ((xslot 12).view.loc (c : Thread nD τ) ↦[(xslot 12).view.set]{fullShare} f) ∗ ((xslot 13).view.loc (c : Thread nD τ) ↦[(xslot 13).view.set]{fullShare} f) ∗ ((xslot 14).view.loc (c : Thread nD τ) ↦[(xslot 14).view.set]{fullShare} f) ∗ ((xslot 15).view.loc (c : Thread nD τ) ↦[(xslot 15).view.set]{fullShare} f)) :=
  classes_split (F := F) (ℓ := (c : Thread nD τ).loc cc0_scratch4) (fun x => lead x) (xset c) (fun x => lead_lt x) (mem_xset c) f

/-- Its sixteen slots, each at contents of its own, are the buffer held whole at the glued contents. -/
theorem xslots_join (c : Dev nD) :
    (iprop((∃ f, (xslot 0).view.loc (c : Thread nD τ) ↦[(xslot 0).view.set]{fullShare} f) ∗ (∃ f, (xslot 1).view.loc (c : Thread nD τ) ↦[(xslot 1).view.set]{fullShare} f) ∗ (∃ f, (xslot 2).view.loc (c : Thread nD τ) ↦[(xslot 2).view.set]{fullShare} f) ∗ (∃ f, (xslot 3).view.loc (c : Thread nD τ) ↦[(xslot 3).view.set]{fullShare} f) ∗ (∃ f, (xslot 4).view.loc (c : Thread nD τ) ↦[(xslot 4).view.set]{fullShare} f) ∗ (∃ f, (xslot 5).view.loc (c : Thread nD τ) ↦[(xslot 5).view.set]{fullShare} f) ∗ (∃ f, (xslot 6).view.loc (c : Thread nD τ) ↦[(xslot 6).view.set]{fullShare} f) ∗ (∃ f, (xslot 7).view.loc (c : Thread nD τ) ↦[(xslot 7).view.set]{fullShare} f) ∗ (∃ f, (xslot 8).view.loc (c : Thread nD τ) ↦[(xslot 8).view.set]{fullShare} f) ∗ (∃ f, (xslot 9).view.loc (c : Thread nD τ) ↦[(xslot 9).view.set]{fullShare} f) ∗ (∃ f, (xslot 10).view.loc (c : Thread nD τ) ↦[(xslot 10).view.set]{fullShare} f) ∗ (∃ f, (xslot 11).view.loc (c : Thread nD τ) ↦[(xslot 11).view.set]{fullShare} f) ∗ (∃ f, (xslot 12).view.loc (c : Thread nD τ) ↦[(xslot 12).view.set]{fullShare} f) ∗ (∃ f, (xslot 13).view.loc (c : Thread nD τ) ↦[(xslot 13).view.set]{fullShare} f) ∗ (∃ f, (xslot 14).view.loc (c : Thread nD τ) ↦[(xslot 14).view.set]{fullShare} f) ∗ (∃ f, (xslot 15).view.loc (c : Thread nD τ) ↦[(xslot 15).view.set]{fullShare} f)) : sProp 𝕄) ⊢
      iprop(∃ f, ((c : Thread nD τ).loc cc0_scratch4) ↦{fullShare} f) :=
  classes_join (F := F) (ℓ := (c : Thread nD τ).loc cc0_scratch4) (fun x => lead x) (xset c) (fun x => lead_lt x) (mem_xset c)

/-! ## Contents off a slot are irrelevant; what a transfer lands -/

/-- Contents that agree on a slot's elements give the same points-to of the slot. -/
theorem slot_congr (v : Memref sig .tc .vmem S512x128 .bf16) (c : Dev nD) {q : PosShare TreeShare}
    {f g : Buf (Elt F) (v.view.loc (c : Thread nD τ))} (h : ∀ i ∈ v.view.set, f i = g i) :
    (v.view.loc (c : Thread nD τ) ↦[v.view.set]{q} f : sProp 𝕄) = v.view.loc (c : Thread nD τ) ↦[v.view.set]{q} g :=
  pointsTo_congr h

/-- A whole-slot write over two prior contents agrees on the slot's elements. -/
theorem slot_write_agree (v : Memref sig .tc .vmem S512x128 .bf16) (fd fd' : v.view.ty.Contents (Elt F))
    (w : S512x128.Idx → Elt F .bf16) :
    ∀ i ∈ v.view.set, v.view.write (Elt F) fd w Finset.univ i = v.view.write (Elt F) fd' w Finset.univ i :=
  fun i hi => View.write_congr (fun _ _ _ => rfl) fun hn => absurd hi hn

/-- So what a transfer lands in a slot does not depend on what the slot held before. -/
theorem slot_landing_congr (v : Memref sig .tc .vmem S512x128 .bf16) (c : Dev nD) {q : PosShare TreeShare}
    (fd fd' : Buf (Elt F) (v.view.loc (c : Thread nD τ))) (w : S512x128.Idx → Elt F .bf16) :
    (v.view.loc (c : Thread nD τ) ↦[v.view.set]{q} v.view.write (Elt F) fd w Finset.univ : sProp 𝕄)
      = v.view.loc (c : Thread nD τ) ↦[v.view.set]{q} v.view.write (Elt F) fd' w Finset.univ :=
  pointsTo_congr (slot_write_agree v fd fd' w)

/-- Reading a slot back after a whole-slot write gives what was written. -/
theorem slot_read_write (v : Memref sig .tc .vmem S512x128 .bf16) (fd : v.view.ty.Contents (Elt F))
    (w : S512x128.Idx → Elt F .bf16) :
    v.view.read (Elt F) (v.view.write (Elt F) fd w Finset.univ) = w :=
  View.read_write_univ fd w

/-- The same with more conjuncts after the sixteenth slot. -/
theorem sslots_join_frame (c : Dev nD) (R : sProp 𝕄) :
    (iprop((∃ f, (sslot 0).view.loc (c : Thread nD τ) ↦[(sslot 0).view.set]{fullShare} f) ∗ (∃ f, (sslot 1).view.loc (c : Thread nD τ) ↦[(sslot 1).view.set]{fullShare} f) ∗ (∃ f, (sslot 2).view.loc (c : Thread nD τ) ↦[(sslot 2).view.set]{fullShare} f) ∗ (∃ f, (sslot 3).view.loc (c : Thread nD τ) ↦[(sslot 3).view.set]{fullShare} f) ∗ (∃ f, (sslot 4).view.loc (c : Thread nD τ) ↦[(sslot 4).view.set]{fullShare} f) ∗ (∃ f, (sslot 5).view.loc (c : Thread nD τ) ↦[(sslot 5).view.set]{fullShare} f) ∗ (∃ f, (sslot 6).view.loc (c : Thread nD τ) ↦[(sslot 6).view.set]{fullShare} f) ∗ (∃ f, (sslot 7).view.loc (c : Thread nD τ) ↦[(sslot 7).view.set]{fullShare} f) ∗ (∃ f, (sslot 8).view.loc (c : Thread nD τ) ↦[(sslot 8).view.set]{fullShare} f) ∗ (∃ f, (sslot 9).view.loc (c : Thread nD τ) ↦[(sslot 9).view.set]{fullShare} f) ∗ (∃ f, (sslot 10).view.loc (c : Thread nD τ) ↦[(sslot 10).view.set]{fullShare} f) ∗ (∃ f, (sslot 11).view.loc (c : Thread nD τ) ↦[(sslot 11).view.set]{fullShare} f) ∗ (∃ f, (sslot 12).view.loc (c : Thread nD τ) ↦[(sslot 12).view.set]{fullShare} f) ∗ (∃ f, (sslot 13).view.loc (c : Thread nD τ) ↦[(sslot 13).view.set]{fullShare} f) ∗ (∃ f, (sslot 14).view.loc (c : Thread nD τ) ↦[(sslot 14).view.set]{fullShare} f) ∗ (∃ f, (sslot 15).view.loc (c : Thread nD τ) ↦[(sslot 15).view.set]{fullShare} f) ∗ R) : sProp 𝕄) ⊢
      iprop((∃ f, ((c : Thread nD τ).loc cc0_scratch2) ↦{fullShare} f) ∗ R) :=
  classes_join_frame (F := F) (ℓ := (c : Thread nD τ).loc cc0_scratch2) (fun x => lead x) (sset c) (fun x => lead_lt x) (mem_sset c) R

/-- The same with more conjuncts after the sixteenth slot. -/
theorem yslots_join_frame (c : Dev nD) (R : sProp 𝕄) :
    (iprop((∃ f, (yslot 0).view.loc (c : Thread nD τ) ↦[(yslot 0).view.set]{fullShare} f) ∗ (∃ f, (yslot 1).view.loc (c : Thread nD τ) ↦[(yslot 1).view.set]{fullShare} f) ∗ (∃ f, (yslot 2).view.loc (c : Thread nD τ) ↦[(yslot 2).view.set]{fullShare} f) ∗ (∃ f, (yslot 3).view.loc (c : Thread nD τ) ↦[(yslot 3).view.set]{fullShare} f) ∗ (∃ f, (yslot 4).view.loc (c : Thread nD τ) ↦[(yslot 4).view.set]{fullShare} f) ∗ (∃ f, (yslot 5).view.loc (c : Thread nD τ) ↦[(yslot 5).view.set]{fullShare} f) ∗ (∃ f, (yslot 6).view.loc (c : Thread nD τ) ↦[(yslot 6).view.set]{fullShare} f) ∗ (∃ f, (yslot 7).view.loc (c : Thread nD τ) ↦[(yslot 7).view.set]{fullShare} f) ∗ (∃ f, (yslot 8).view.loc (c : Thread nD τ) ↦[(yslot 8).view.set]{fullShare} f) ∗ (∃ f, (yslot 9).view.loc (c : Thread nD τ) ↦[(yslot 9).view.set]{fullShare} f) ∗ (∃ f, (yslot 10).view.loc (c : Thread nD τ) ↦[(yslot 10).view.set]{fullShare} f) ∗ (∃ f, (yslot 11).view.loc (c : Thread nD τ) ↦[(yslot 11).view.set]{fullShare} f) ∗ (∃ f, (yslot 12).view.loc (c : Thread nD τ) ↦[(yslot 12).view.set]{fullShare} f) ∗ (∃ f, (yslot 13).view.loc (c : Thread nD τ) ↦[(yslot 13).view.set]{fullShare} f) ∗ (∃ f, (yslot 14).view.loc (c : Thread nD τ) ↦[(yslot 14).view.set]{fullShare} f) ∗ (∃ f, (yslot 15).view.loc (c : Thread nD τ) ↦[(yslot 15).view.set]{fullShare} f) ∗ R) : sProp 𝕄) ⊢
      iprop((∃ f, ((c : Thread nD τ).loc cc0_scratch3) ↦{fullShare} f) ∗ R) :=
  classes_join_frame (F := F) (ℓ := (c : Thread nD τ).loc cc0_scratch3) (fun x => lead x) (yset c) (fun x => lead_lt x) (mem_yset c) R

/-- The same with more conjuncts after the sixteenth slot. -/
theorem xslots_join_frame (c : Dev nD) (R : sProp 𝕄) :
    (iprop((∃ f, (xslot 0).view.loc (c : Thread nD τ) ↦[(xslot 0).view.set]{fullShare} f) ∗ (∃ f, (xslot 1).view.loc (c : Thread nD τ) ↦[(xslot 1).view.set]{fullShare} f) ∗ (∃ f, (xslot 2).view.loc (c : Thread nD τ) ↦[(xslot 2).view.set]{fullShare} f) ∗ (∃ f, (xslot 3).view.loc (c : Thread nD τ) ↦[(xslot 3).view.set]{fullShare} f) ∗ (∃ f, (xslot 4).view.loc (c : Thread nD τ) ↦[(xslot 4).view.set]{fullShare} f) ∗ (∃ f, (xslot 5).view.loc (c : Thread nD τ) ↦[(xslot 5).view.set]{fullShare} f) ∗ (∃ f, (xslot 6).view.loc (c : Thread nD τ) ↦[(xslot 6).view.set]{fullShare} f) ∗ (∃ f, (xslot 7).view.loc (c : Thread nD τ) ↦[(xslot 7).view.set]{fullShare} f) ∗ (∃ f, (xslot 8).view.loc (c : Thread nD τ) ↦[(xslot 8).view.set]{fullShare} f) ∗ (∃ f, (xslot 9).view.loc (c : Thread nD τ) ↦[(xslot 9).view.set]{fullShare} f) ∗ (∃ f, (xslot 10).view.loc (c : Thread nD τ) ↦[(xslot 10).view.set]{fullShare} f) ∗ (∃ f, (xslot 11).view.loc (c : Thread nD τ) ↦[(xslot 11).view.set]{fullShare} f) ∗ (∃ f, (xslot 12).view.loc (c : Thread nD τ) ↦[(xslot 12).view.set]{fullShare} f) ∗ (∃ f, (xslot 13).view.loc (c : Thread nD τ) ↦[(xslot 13).view.set]{fullShare} f) ∗ (∃ f, (xslot 14).view.loc (c : Thread nD τ) ↦[(xslot 14).view.set]{fullShare} f) ∗ (∃ f, (xslot 15).view.loc (c : Thread nD τ) ↦[(xslot 15).view.set]{fullShare} f) ∗ R) : sProp 𝕄) ⊢
      iprop((∃ f, ((c : Thread nD τ).loc cc0_scratch4) ↦{fullShare} f) ∗ R) :=
  classes_join_frame (F := F) (ℓ := (c : Thread nD τ).loc cc0_scratch4) (fun x => lead x) (xset c) (fun x => lead_lt x) (mem_xset c) R

end Cert.KernelIdeal.Hand

end
-- ==== Proof.BodyEnds.lean ====
import proofs.«901046_g7700000000001047_dist_rsdw_v7x_xy2x2_y_m1024_d1024_f4096_f32_1_alg».proof.Proof.Gen.KernelIdeal
import proofs.«901046_g7700000000001047_dist_rsdw_v7x_xy2x2_y_m1024_d1024_f4096_f32_1_alg».proof.Proof.Gen.KernelIdeal.Skeleton
import proofs.«901046_g7700000000001047_dist_rsdw_v7x_xy2x2_y_m1024_d1024_f4096_f32_1_alg».proof.Proof.Gen.KernelIdeal.Launch
import proofs.«901046_g7700000000001047_dist_rsdw_v7x_xy2x2_y_m1024_d1024_f4096_f32_1_alg».proof.Proof.Gen.KernelIdeal.Points
import proofs.«901046_g7700000000001047_dist_rsdw_v7x_xy2x2_y_m1024_d1024_f4096_f32_1_alg».proof.Proof.Proto
import proofs.«901046_g7700000000001047_dist_rsdw_v7x_xy2x2_y_m1024_d1024_f4096_f32_1_alg».proof.Proof.Slots
import proofs.«901046_g7700000000001047_dist_rsdw_v7x_xy2x2_y_m1024_d1024_f4096_f32_1_alg».proof.Proof.Ledger
import Idealize.ShloMosaic.Lib.Pipeline.Launch
import Idealize.ShloMosaic.Lib.Pipeline.Kit
import Idealize.ShloMosaic.Lib.Tactic

/-! The two ends of a device's body.

At its end: each of the sixty-four transfer cells has had its one round consumed, and no later round has a duty, so the owner closes the
cell and its counter, at zero, is the device's again. At its beginning: what the pipeline hands the body at the one point of the grid is
what the launch dealt the device, with the existentials opened — the names of the invariants, the recorded waits, the contents of the five
scratch buffers — and the staged first argument at its block; so a body proved from those, for all of them, meets the pipeline's obligation. -/

set_option maxRecDepth 16384

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (Sb : (c : Dev nD) → (j : Fin 16) → Buf (Elt F) ((sslot j).view.loc (c : Thread nD τ)))
variable (Yc : (c : Dev nD) → (j : Fin 16) → Buf (Elt F) ((yslot j).view.loc (c : Thread nD τ)))
variable (Xc : (c : Dev nD) → (j : Fin 16) → Buf (Elt F) ((xslot j).view.loc (c : Thread nD τ)))
variable (OutP : (c : Dev nD) → Buf (Elt F) ((c : Thread nD τ).loc main_v1) → Prop)

/-! ## Chains over listed index sets -/

private abbrev f16 : List (Fin 16) := [0, 1, 2, 3, 4, 5, 6, 7, 8, 9, 10, 11, 12, 13, 14, 15]
private abbrev pairL : List (Fin 4 × Fin 16) :=
  f16.map (fun j => ((0 : Fin 4), j)) ++ f16.map (fun j => ((1 : Fin 4), j)) ++ f16.map (fun j => ((2 : Fin 4), j)) ++ f16.map (fun j => ((3 : Fin 4), j))
private abbrev cellL : List (Option (Fin 4 × Fin 16)) := none :: pairL.map some

omit [FloatOps F] in
private theorem bigSep_cells (Φ : Option (Fin 4 × Fin 16) → sProp 𝕄) : bigSep Finset.univ Φ = bigSepL cellL Φ := bigSep_univ_eq_bigSepL cellL (by decide) (by decide) Φ

omit [FloatOps F] in
/-- Under a persistent assertion, updates of the members one by one are one update of the chain. -/
private theorem bigSepL_fupd_persistent {I : Type} {R : sProp 𝕄} [BI.Persistent R] {Φ Ψ : I → sProp 𝕄} (l : List I)
    (h : ∀ i, iprop(R ∗ Φ i) ⊢ |={Set.univ}=> Ψ i) : iprop(R ∗ bigSepL l Φ) ⊢ |={Set.univ}=> bigSepL l Ψ := by
  induction l with
  | nil => iintro -; imodintro; iempintro
  | cons i l ih =>
    rw [bigSepL_cons, bigSepL_cons]
    show iprop(R ∗ Φ i ∗ bigSepL l Φ) ⊢ |={Set.univ}=> iprop(Ψ i ∗ bigSepL l Ψ)
    iintro ⟨#HR, Hi, Hl⟩
    imod (h i) $$ [Hi] with Hi'
    · isplitr; · iexact HR
      iexact Hi
    imod ih $$ [Hl] with Hl'
    · isplitr; · iexact HR
      iexact Hl
    imodintro
    isplitl [Hi'] <;> iassumption

/-! ## The end: the transfer cells closed -/

/-- The positions of the sixty-four transfer cells once their one round is consumed. -/
def posDone (c : Dev nD) : sProp 𝕄 :=
  iprop(atPos ER (ysendCell c 0) (0 + 1) ∅ 0 ∗ atPos ER (ysendCell c 1) (0 + 1) ∅ 0 ∗ atPos ER (ysendCell c 2) (0 + 1) ∅ 0 ∗ atPos ER (ysendCell c 3) (0 + 1) ∅ 0 ∗ atPos ER (ysendCell c 4) (0 + 1) ∅ 0 ∗ atPos ER (ysendCell c 5) (0 + 1) ∅ 0 ∗ atPos ER (ysendCell c 6) (0 + 1) ∅ 0 ∗ atPos ER (ysendCell c 7) (0 + 1) ∅ 0 ∗ atPos ER (ysendCell c 8) (0 + 1) ∅ 0 ∗ atPos ER (ysendCell c 9) (0 + 1) ∅ 0 ∗ atPos ER (ysendCell c 10) (0 + 1) ∅ 0 ∗ atPos ER (ysendCell c 11) (0 + 1) ∅ 0 ∗ atPos ER (ysendCell c 12) (0 + 1) ∅ 0 ∗ atPos ER (ysendCell c 13) (0 + 1) ∅ 0 ∗ atPos ER (ysendCell c 14) (0 + 1) ∅ 0 ∗ atPos ER (ysendCell c 15) (0 + 1) ∅ 0
    ∗ atPos ER (yrecvCell c 0) (0 + 1) ∅ 0 ∗ atPos ER (yrecvCell c 1) (0 + 1) ∅ 0 ∗ atPos ER (yrecvCell c 2) (0 + 1) ∅ 0 ∗ atPos ER (yrecvCell c 3) (0 + 1) ∅ 0 ∗ atPos ER (yrecvCell c 4) (0 + 1) ∅ 0 ∗ atPos ER (yrecvCell c 5) (0 + 1) ∅ 0 ∗ atPos ER (yrecvCell c 6) (0 + 1) ∅ 0 ∗ atPos ER (yrecvCell c 7) (0 + 1) ∅ 0 ∗ atPos ER (yrecvCell c 8) (0 + 1) ∅ 0 ∗ atPos ER (yrecvCell c 9) (0 + 1) ∅ 0 ∗ atPos ER (yrecvCell c 10) (0 + 1) ∅ 0 ∗ atPos ER (yrecvCell c 11) (0 + 1) ∅ 0 ∗ atPos ER (yrecvCell c 12) (0 + 1) ∅ 0 ∗ atPos ER (yrecvCell c 13) (0 + 1) ∅ 0 ∗ atPos ER (yrecvCell c 14) (0 + 1) ∅ 0 ∗ atPos ER (yrecvCell c 15) (0 + 1) ∅ 0
    ∗ atPos ER (fsendCell c 0) (0 + 1) ∅ 0 ∗ atPos ER (fsendCell c 1) (0 + 1) ∅ 0 ∗ atPos ER (fsendCell c 2) (0 + 1) ∅ 0 ∗ atPos ER (fsendCell c 3) (0 + 1) ∅ 0 ∗ atPos ER (fsendCell c 4) (0 + 1) ∅ 0 ∗ atPos ER (fsendCell c 5) (0 + 1) ∅ 0 ∗ atPos ER (fsendCell c 6) (0 + 1) ∅ 0 ∗ atPos ER (fsendCell c 7) (0 + 1) ∅ 0 ∗ atPos ER (fsendCell c 8) (0 + 1) ∅ 0 ∗ atPos ER (fsendCell c 9) (0 + 1) ∅ 0 ∗ atPos ER (fsendCell c 10) (0 + 1) ∅ 0 ∗ atPos ER (fsendCell c 11) (0 + 1) ∅ 0 ∗ atPos ER (fsendCell c 12) (0 + 1) ∅ 0 ∗ atPos ER (fsendCell c 13) (0 + 1) ∅ 0 ∗ atPos ER (fsendCell c 14) (0 + 1) ∅ 0 ∗ atPos ER (fsendCell c 15) (0 + 1) ∅ 0
    ∗ atPos ER (xrecvCell c 0) (0 + 1) ∅ 0 ∗ atPos ER (xrecvCell c 1) (0 + 1) ∅ 0 ∗ atPos ER (xrecvCell c 2) (0 + 1) ∅ 0 ∗ atPos ER (xrecvCell c 3) (0 + 1) ∅ 0 ∗ atPos ER (xrecvCell c 4) (0 + 1) ∅ 0 ∗ atPos ER (xrecvCell c 5) (0 + 1) ∅ 0 ∗ atPos ER (xrecvCell c 6) (0 + 1) ∅ 0 ∗ atPos ER (xrecvCell c 7) (0 + 1) ∅ 0 ∗ atPos ER (xrecvCell c 8) (0 + 1) ∅ 0 ∗ atPos ER (xrecvCell c 9) (0 + 1) ∅ 0 ∗ atPos ER (xrecvCell c 10) (0 + 1) ∅ 0 ∗ atPos ER (xrecvCell c 11) (0 + 1) ∅ 0 ∗ atPos ER (xrecvCell c 12) (0 + 1) ∅ 0 ∗ atPos ER (xrecvCell c 13) (0 + 1) ∅ 0 ∗ atPos ER (xrecvCell c 14) (0 + 1) ∅ 0 ∗ atPos ER (xrecvCell c 15) (0 + 1) ∅ 0)

omit [FloatOps F] in
theorem invsOwn_at (K : Dev nD × Option (Fin 4 × Fin 16) → ℕ) (c : Dev nD) (k : Option (Fin 4 × Fin 16)) :
    invsOwn Sb Yc Xc K c ⊢ cellInv ER (xRd Sb Yc Xc) (K (c, k)) (kcell (c, k)) := by
  show bigSepL cellL (fun k => cellInv ER (xRd Sb Yc Xc) (K (c, k)) (kcell (c, k))) ⊢ _
  rw [← bigSep_cells]
  exact bigSep_elim (Finset.mem_univ k)

omit [FloatOps F] in
/-- Each transfer cell's owner, past the cell's only round, closes it: the sixty-four counters, at zero, are the device's again. -/
theorem xfers_close (K : Dev nD × Option (Fin 4 × Fin 16) → ℕ) (c : Dev nD) :
    iprop(invsOwn Sb Yc Xc K c ∗ posDone c) ⊢ |={Set.univ}=> xfers0 c :=
  show iprop(invsOwn Sb Yc Xc K c ∗ bigSepL pairL (fun kj => atPos ER (kcell (c, some kj)) (0 + 1) ∅ 0))
      ⊢ |={Set.univ}=> bigSepL pairL (fun kj => semVal (kcell (c, some kj)) 0) from
    bigSepL_fupd_persistent pairL fun kj => by
      iintro ⟨#HI, Hat⟩
      iapply (Rounds.cell_close ER (xRd Sb Yc Xc) (Set.mem_univ (K (c, some kj))) (fun h => h) (R := 0 + 1) (duties_later Sb Yc Xc (kcell (c, some kj))))
      isplitr
      · iapply (invsOwn_at Sb Yc Xc K c (some kj)); iexact HI
      · iexact Hat

/-! ## One conjunct out of a folded chain -/

omit [FloatOps F] in
private theorem bigSepL_elim {I : Type} {Φ : I → sProp 𝕄} (l : List I) (i : I) (h : i ∈ l) : bigSepL l Φ ⊢ Φ i := by
  induction l with
  | nil => exact absurd h (List.not_mem_nil)
  | cons a l ih =>
    rw [bigSepL_cons]
    show iprop(Φ a ∗ bigSepL l Φ) ⊢ Φ i
    rcases List.mem_cons.mp h with rfl | h'
    · iintro ⟨H, -⟩; iexact H
    · iintro ⟨-, H⟩; iapply (ih h'); iexact H

private theorem mem_f16 (j : Fin 16) : j ∈ f16 := by revert j; decide
private theorem mem_pairL (k : Fin 4) (j : Fin 16) : (k, j) ∈ pairL := by revert k j; decide

/-- The neighbours' cells a device pays into: both barrier cells, the chunks' receive cells along the second axis, the forwards' along the first. -/
private abbrev peerL (c : Dev nD) : List (Dev nD × Option (Fin 4 × Fin 16)) :=
  (ynb c, none) :: (xnb c, none) :: (f16.map (fun j => (ynb c, some ((1 : Fin 4), j))) ++ f16.map (fun j => (xnb c, some ((3 : Fin 4), j))))

private theorem mem_peer_by (c : Dev nD) : (ynb c, none) ∈ peerL c := List.mem_cons.mpr (Or.inl rfl)
private theorem mem_peer_bx (c : Dev nD) : (xnb c, none) ∈ peerL c := List.mem_cons.mpr (Or.inr (List.mem_cons.mpr (Or.inl rfl)))
private theorem mem_peer_y (c : Dev nD) (j : Fin 16) : (ynb c, some ((1 : Fin 4), j)) ∈ peerL c :=
  List.mem_cons.mpr (Or.inr (List.mem_cons.mpr (Or.inr (List.mem_append.mpr (Or.inl (List.mem_map.mpr ⟨j, mem_f16 j, rfl⟩))))))
private theorem mem_peer_x (c : Dev nD) (j : Fin 16) : (xnb c, some ((3 : Fin 4), j)) ∈ peerL c :=
  List.mem_cons.mpr (Or.inr (List.mem_cons.mpr (Or.inr (List.mem_append.mpr (Or.inr (List.mem_map.mpr ⟨j, mem_f16 j, rfl⟩))))))

section Projections
variable (K : Dev nD × Option (Fin 4 × Fin 16) → ℕ) (c : Dev nD) (j : Fin 16)

omit [FloatOps F] in
theorem invsOwn_bar : invsOwn Sb Yc Xc K c ⊢ cellInv ER (xRd Sb Yc Xc) (K (c, none)) (barCell c) := by
  have h := invsOwn_at Sb Yc Xc K c none; exact h
omit [FloatOps F] in
theorem invsOwn_ysend : invsOwn Sb Yc Xc K c ⊢ cellInv ER (xRd Sb Yc Xc) (K (c, some (0, j))) (ysendCell c j) := by
  have h := invsOwn_at Sb Yc Xc K c (some ((0 : Fin 4), j)); exact h
omit [FloatOps F] in
theorem invsOwn_yrecv : invsOwn Sb Yc Xc K c ⊢ cellInv ER (xRd Sb Yc Xc) (K (c, some (1, j))) (yrecvCell c j) := by
  have h := invsOwn_at Sb Yc Xc K c (some ((1 : Fin 4), j)); exact h
omit [FloatOps F] in
theorem invsOwn_fsend : invsOwn Sb Yc Xc K c ⊢ cellInv ER (xRd Sb Yc Xc) (K (c, some (2, j))) (fsendCell c j) := by
  have h := invsOwn_at Sb Yc Xc K c (some ((2 : Fin 4), j)); exact h
omit [FloatOps F] in
theorem invsOwn_xrecv : invsOwn Sb Yc Xc K c ⊢ cellInv ER (xRd Sb Yc Xc) (K (c, some (3, j))) (xrecvCell c j) := by
  have h := invsOwn_at Sb Yc Xc K c (some ((3 : Fin 4), j)); exact h

omit [FloatOps F] in
private theorem invsPeer_at (ck : Dev nD × Option (Fin 4 × Fin 16)) (h : ck ∈ peerL c) : invsPeer Sb Yc Xc K c ⊢ cellInv ER (xRd Sb Yc Xc) (K ck) (kcell ck) :=
  show bigSepL (peerL c) (fun ck => cellInv ER (xRd Sb Yc Xc) (K ck) (kcell ck)) ⊢ _ from bigSepL_elim (peerL c) ck h
omit [FloatOps F] in
theorem invsPeer_by : invsPeer Sb Yc Xc K c ⊢ cellInv ER (xRd Sb Yc Xc) (K (ynb c, none)) (barCell (ynb c)) := invsPeer_at Sb Yc Xc K c (ynb c, none) (mem_peer_by c)
omit [FloatOps F] in
theorem invsPeer_bx : invsPeer Sb Yc Xc K c ⊢ cellInv ER (xRd Sb Yc Xc) (K (xnb c, none)) (barCell (xnb c)) := invsPeer_at Sb Yc Xc K c (xnb c, none) (mem_peer_bx c)
omit [FloatOps F] in
theorem invsPeer_y : invsPeer Sb Yc Xc K c ⊢ cellInv ER (xRd Sb Yc Xc) (K (ynb c, some (1, j))) (yrecvCell (ynb c) j) := invsPeer_at Sb Yc Xc K c (ynb c, some ((1 : Fin 4), j)) (mem_peer_y c j)
omit [FloatOps F] in
theorem invsPeer_x : invsPeer Sb Yc Xc K c ⊢ cellInv ER (xRd Sb Yc Xc) (K (xnb c, some (3, j))) (xrecvCell (xnb c) j) := invsPeer_at Sb Yc Xc K c (xnb c, some ((3 : Fin 4), j)) (mem_peer_x c j)

omit [FloatOps F] in
private theorem reachedAll_at (ck : Dev nD × Option (Fin 4 × Fin 16)) (h : ck ∈ peerL c ++ pairL.map (fun kj => (c, some kj))) : (reachedAll c : sProp 𝕄) ⊢ reached ER (kcell ck) 0 :=
  show bigSepL (peerL c ++ pairL.map (fun kj => (c, some kj))) (fun ck => (reached ER (kcell ck) 0 : sProp 𝕄)) ⊢ _ from bigSepL_elim _ ck h
omit [FloatOps F] in
theorem reachedAll_by : (reachedAll c : sProp 𝕄) ⊢ reached ER (barCell (ynb c)) 0 := by
  have h := reachedAll_at (F := F) c (ynb c, none) (List.mem_append.mpr (Or.inl (mem_peer_by c))); exact h
omit [FloatOps F] in
theorem reachedAll_bx : (reachedAll c : sProp 𝕄) ⊢ reached ER (barCell (xnb c)) 0 := by
  have h := reachedAll_at (F := F) c (xnb c, none) (List.mem_append.mpr (Or.inl (mem_peer_bx c))); exact h
omit [FloatOps F] in
theorem reachedAll_py : (reachedAll c : sProp 𝕄) ⊢ reached ER (yrecvCell (ynb c) j) 0 := by
  have h := reachedAll_at (F := F) c (ynb c, some ((1 : Fin 4), j)) (List.mem_append.mpr (Or.inl (mem_peer_y c j))); exact h
omit [FloatOps F] in
theorem reachedAll_px : (reachedAll c : sProp 𝕄) ⊢ reached ER (xrecvCell (xnb c) j) 0 := by
  have h := reachedAll_at (F := F) c (xnb c, some ((3 : Fin 4), j)) (List.mem_append.mpr (Or.inl (mem_peer_x c j))); exact h
omit [FloatOps F] in
theorem reachedAll_own (k : Fin 4) : (reachedAll c : sProp 𝕄) ⊢ reached ER (kcell (c, some (k, j))) 0 :=
  reachedAll_at c (c, some (k, j)) (List.mem_append.mpr (Or.inr (List.mem_map.mpr ⟨(k, j), mem_pairL k j, rfl⟩)))
omit [FloatOps F] in
theorem reachedAll_ysend : (reachedAll c : sProp 𝕄) ⊢ reached ER (ysendCell c j) 0 := by
  have h := reachedAll_own (F := F) c j (0 : Fin 4); exact h
omit [FloatOps F] in
theorem reachedAll_yrecv : (reachedAll c : sProp 𝕄) ⊢ reached ER (yrecvCell c j) 0 := by
  have h := reachedAll_own (F := F) c j (1 : Fin 4); exact h
omit [FloatOps F] in
theorem reachedAll_fsend : (reachedAll c : sProp 𝕄) ⊢ reached ER (fsendCell c j) 0 := by
  have h := reachedAll_own (F := F) c j (2 : Fin 4); exact h
omit [FloatOps F] in
theorem reachedAll_xrecv : (reachedAll c : sProp 𝕄) ⊢ reached ER (xrecvCell c j) 0 := by
  have h := reachedAll_own (F := F) c j (3 : Fin 4); exact h

end Projections

/-! ## The beginning: the pipeline's obligation from the body's own statement -/

theorem cfg0_N : cfg0.N = 1 := by decide
/-- The one point of the grid. -/
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- A buffer of device `c`, whole, at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- What a device's body ends with: every semaphore of its own at zero, the scratch buffers, the result at contents the predicate holds of; what it then owes; the
    staged first argument as it was. -/
def bodyPost (c : Dev nD) : sProp 𝕄 :=
  iprop(Φ₁ m OutP c ∗ (dats m Sb Yc Xc OutP 0 c).owesAt () t₀.succ ∗ stg c cc0_stg0_0 (xstg m c))

/-- The body's own statement on device `c`: from the ghost state at any names, the launch credit, the levels, the local semaphores at
    zero, what the device owes at any recorded waits, and the eight buffers whole — the staged first argument at its block, the second
    argument and the result as launched, the five scratch buffers at any contents — the body runs to `bodyPost`. -/
def BodySpec (c : Dev nD) : Prop :=
  ∀ (K : Dev nD × Option (Fin 4 × Fin 16) → ℕ) (W : Waits sig Unit)
    (f3 : Buf (Elt F) ((c : Thread nD τ).loc cc0_scratch0)) (f4 : Buf (Elt F) ((c : Thread nD τ).loc cc0_scratch1))
    (f5 : Buf (Elt F) ((c : Thread nD τ).loc cc0_scratch2)) (f6 : Buf (Elt F) ((c : Thread nD τ).loc cc0_scratch3)) (f7 : Buf (Elt F) ((c : Thread nD τ).loc cc0_scratch4))
    (Kt : PUnit → sProp 𝕄),
    iprop(ghost Sb Yc Xc K c ∗ creds c ∗ levAts L lv ∗ locals0 c ∗ owes (c : Thread nD τ) (O₀ c) W
        ∗ ((Memref.whole cc0_stg0_0 : Memref sig .tc .vmem S1024x1024 .f32).view.loc (c : Thread nD τ) ↦{fullShare} xstg m c)
        ∗ ((Memref.whole main_arg1 : Memref sig .tc .hbm S1024x4096 .f32).view.loc (c : Thread nD τ) ↦{fullShare} m ((c : Thread nD τ).loc main_arg1))
        ∗ ((Memref.whole main_v1 : Memref sig .tc .hbm S512x4096 .f32).view.loc (c : Thread nD τ) ↦{fullShare} m ((c : Thread nD τ).loc main_v1))
        ∗ ((Memref.whole cc0_scratch0 : Memref sig .tc .vmem S1024x4096 .f32).view.loc (c : Thread nD τ) ↦{fullShare} f3)
        ∗ ((Memref.whole cc0_scratch1 : Memref sig .tc .vmem S512x4096 .f32).view.loc (c : Thread nD τ) ↦{fullShare} f4)
        ∗ ((Memref.whole cc0_scratch2 : Memref sig .tc .vmem S16x512x128 .bf16).view.loc (c : Thread nD τ) ↦{fullShare} f5)
        ∗ ((Memref.whole cc0_scratch3 : Memref sig .tc .vmem S16x512x128 .bf16).view.loc (c : Thread nD τ) ↦{fullShare} f6)
        ∗ ((Memref.whole cc0_scratch4 : Memref sig .tc .vmem S16x512x128 .bf16).view.loc (c : Thread nD τ) ↦{fullShare} f7)
        ∗ (bodyPost m Sb Yc Xc OutP c -∗ Kt ⟨⟩))
      ⊢ wp frame (wpE (defs₀ (F := F)) 𝒱₀ c none) Set.univ
          (cc0_body (Memref.whole cc0_stg0_0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10) Kt

def bodyPre' (c : Dev nD) : sProp 𝕄 :=
  iprop(Φ₀ m Sb Yc Xc c ∗ (dats m Sb Yc Xc OutP 0 c).owesAt () t₀.castSucc
    ∗ (∃ d, stg c cc0_stg0_0 ((dats m Sb Yc Xc OutP 0 c).before (0 : Fin 1) t₀ d)))

/-- The pipeline's body obligation on device `c` from the body's own statement. -/
theorem body_wrap (c : Dev nD) (h : BodySpec m Sb Yc Xc OutP c) :
    BodyObligation (dats (F := F) m Sb Yc Xc OutP 0 c) (defs₀ (F := F)) 𝒱₀ () Set.univ := fun t => by
  rw [fin_N t]
  rw [bigSep_W0, bigSep_W0]
  simp only [owns_whole_eq]
  show bodyPre' m Sb Yc Xc OutP c ⊢ wp frame (wpE (defs₀ (F := F)) 𝒱₀ c none) Set.univ
    (cc0_body (Memref.whole cc0_stg0_0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10) (fun _ => bodyPost m Sb Yc Xc OutP c)
  unfold bodyPre' Φ₀ start scratch hbm
  iintro ⟨⟨⟨⟨%K, Hg⟩, Hcr, Hlev, Hloc, Ha1, Hv1⟩, ⟨%f3, H3⟩, ⟨%f4, H4⟩, ⟨%f5, H5⟩, ⟨%f6, H6⟩, ⟨%f7, H7⟩⟩, Ho, ⟨%d0, %g0, %hg0, Hx⟩⟩
  have hx : g0 = xstg m c := by rw [hg0]; unfold Dat.before; rw [if_pos (fetch0_0 t₀)]; rfl
  subst hx
  unfold Dat.owesAt Pipeline.owesWithin
  icases Ho with ⟨%W, %hW, HO⟩
  rw [show (dats m Sb Yc Xc OutP 0 c).owed t₀.castSucc = O₀ c from rfl]
  iapply (h K W f3 f4 f5 f6 f7 fun _ => bodyPost m Sb Yc Xc OutP c)
  isplitl [Hg]; · iexact Hg
  isplitl [Hcr]; · iexact Hcr
  isplitl [Hlev]; · iexact Hlev
  isplitl [Hloc]; · iexact Hloc
  isplitl [HO]; · iexact HO
  isplitl [Hx]; · iexact Hx
  isplitl [Ha1]; · iexact Ha1
  isplitl [Hv1]; · iexact Hv1
  isplitl [H3]; · iexact H3
  isplitl [H4]; · iexact H4
  isplitl [H5]; · iexact H5
  isplitl [H6]; · iexact H6
  isplitl [H7]; · iexact H7
  iintro H; iexact H

/-- info: 'Cert.KernelIdeal.Hand.body_wrap' depends on axioms: [propext, Classical.choice, Quot.sound] -/
#guard_msgs in #print axioms body_wrap
/-- info: 'Cert.KernelIdeal.Hand.xfers_close' depends on axioms: [propext, Classical.choice, Quot.sound] -/
#guard_msgs in #print axioms xfers_close

end Cert.KernelIdeal.Hand

end
-- ==== Proof.Values.lean ====
import proofs.«901046_g7700000000001047_dist_rsdw_v7x_xy2x2_y_m1024_d1024_f4096_f32_1_alg».proof.Proof.Gen.KernelIdeal
import proofs.«901046_g7700000000001047_dist_rsdw_v7x_xy2x2_y_m1024_d1024_f4096_f32_1_alg».proof.Proof.Gen.KernelIdeal.Skeleton
import proofs.«901046_g7700000000001047_dist_rsdw_v7x_xy2x2_y_m1024_d1024_f4096_f32_1_alg».proof.Proof.Gen.KernelIdeal.Launch
import proofs.«901046_g7700000000001047_dist_rsdw_v7x_xy2x2_y_m1024_d1024_f4096_f32_1_alg».proof.Proof.Gen.KernelIdeal.Points
import proofs.«901046_g7700000000001047_dist_rsdw_v7x_xy2x2_y_m1024_d1024_f4096_f32_1_alg».proof.Proof.Proto
import proofs.«901046_g7700000000001047_dist_rsdw_v7x_xy2x2_y_m1024_d1024_f4096_f32_1_alg».proof.Proof.Slots
import Idealize.ShloMosaic.Lib.Pipeline.Launch
import Idealize.ShloMosaic.Lib.Pipeline.Kit
import Idealize.ShloMosaic.Lib.Tactic

/-! What the slots hold, as closed terms.

The buffer of outgoing chunks is filled slot by slot: each store writes one slot whole, through the rectangle at offset `(j, 0, 0)` of
sizes `(1, 512, 128)`. Rectangles of different slots are disjoint, so among the elements of slot `j` — the indices whose first coordinate
is `j` — the buffer's contents after any run of such stores, over any earlier contents, are the payload of the store into slot `j`, whatever
the other stores wrote and in whatever order. Slot `j`'s contents can therefore be named by that payload alone, written over fixed arbitrary
contents. What a transfer lands in a neighbour's slot is the source slot read, written whole over whatever the destination held; it is
named the same way. -/

set_option maxRecDepth 16384

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## A store among disjoint stores -/

/-- After stores through pairwise disjoint rectangles, an element of one store's rectangle reads that store's payload, wherever the
    store stands in the list and whatever the buffer held before. -/
theorem read_writes_of_mem_pairwise {sig' : RefSig} {κ : Kind} {sp : Space} {s : Shape} {e : EltTy} {Val : EltTy → Type}
    (v : View sig' κ sp s e) (f : v.ty.Contents Val) :
    ∀ (L : List (View.Piece Val s e)) (r : Rect s) (w : r.shape.Idx → Val e), (⟨r, w⟩ : View.Piece Val s e) ∈ L →
      L.Pairwise (fun p q => Disjoint p.1.set q.1.set) → ∀ x : r.shape.Idx, v.read Val (v.writes Val f L) (r.emb x) = w x
  | [], _, _, h, _, _ => absurd h List.not_mem_nil
  | p :: L, r, w, h, hp, x => by
    rcases List.mem_cons.mp h with hpe | hm
    · subst hpe
      exact View.read_writes_cons_emb v f r w L x
    · have hdis : Disjoint p.1.set r.set := (List.pairwise_cons.mp hp).1 ⟨r, w⟩ hm
      have hx : r.emb x ∉ p.1.set := fun hin =>
        Finset.disjoint_left.mp hdis hin (by rw [← Rect.map_emb_univ]; exact Finset.mem_map_of_mem _ (Finset.mem_univ x))
      rw [View.writes_cons, View.read_slice_write_of_not_mem p.1 _ _ _ (by rw [Rect.map_emb_univ]; exact hx)]
      exact read_writes_of_mem_pairwise v f L r w hm (List.pairwise_cons.mp hp).2 x

/-! ## The slots' rectangles -/

/-- The buffer of outgoing chunks, whole. -/
abbrev W2 : View sig .tc .vmem S16x512x128 .bf16 := (Memref.whole cc0_scratch2 : Memref sig .tc .vmem S16x512x128 .bf16).view

/-- Slot `j`'s rectangle: offset `(j, 0, 0)`, sizes `(1, 512, 128)`. -/
def box (j : Fin 16) : Rect S16x512x128 :=
  Rect.unit (s := S16x512x128) ![j.val, 0, 0] S1x512x128.size (fun a => by
    have hj := j.isLt
    fin_cases a
    · show j.val + 1 ≤ 16; omega
    · show 0 + 512 ≤ 512; omega
    · show 0 + 128 ≤ 128; omega)

theorem mem_box (j : Fin 16) (x : S16x512x128.Idx) : x ∈ (box j).set ↔ lead x = j.val := mem_unit_lead j.val _ x

theorem box_disjoint {a b : Fin 16} (h : a ≠ b) : Disjoint (box a).set (box b).set :=
  Finset.disjoint_left.mpr fun x ha hb => h (Fin.ext (((mem_box a x).mp ha).symm.trans ((mem_box b x).mp hb)))

/-- Stores into distinct slots are through pairwise disjoint rectangles. -/
theorem pairwise_of_boxes {Val : EltTy → Type} (L : List (View.Piece Val S16x512x128 .bf16)) (js : List (Fin 16))
    (hrects : L.map (fun p => p.1) = js.map box) (hnd : js.Nodup) : L.Pairwise (fun p q => Disjoint p.1.set q.1.set) := by
  have h1 : (js.map box).Pairwise (fun r r' => Disjoint r.set r'.set) :=
    (List.pairwise_map (f := box) (R := fun r r' => Disjoint r.set r'.set)).mpr (List.Pairwise.imp (fun hab => box_disjoint hab) hnd)
  rw [← hrects] at h1
  exact (List.pairwise_map (f := fun p : View.Piece Val S16x512x128 .bf16 => p.1) (R := fun r r' => Disjoint r.set r'.set)).mp h1

/-! ## Slot `j` of the outgoing buffer -/

/-- Fixed arbitrary contents of a buffer. -/
abbrev junk2 : W2.ty.Contents (Elt F) := W2.junk

/-- The outgoing buffer holding `w` in slot `j`, arbitrary elsewhere. (Never unfolded when two contents are compared: what matters of
    it is `restate_s`.) -/
@[irreducible] def SbW (c : Dev nD) (j : Fin 16) (w : FVec F S1x512x128 .bf16) : Buf (Elt F) ((c : Thread nD τ).loc cc0_scratch2) :=
  W2.writes (Elt F) junk2 [⟨box j, w⟩]

/-- The same, typed as contents of slot `j`'s buffer (the slot lives in that buffer). -/
def SbOf (c : Dev nD) (j : Fin 16) (w : FVec F S1x512x128 .bf16) : Buf (Elt F) ((sslot j).view.loc (c : Thread nD τ)) :=
  cast (congrArg (Buf (Elt F)) (sslot_loc c j).symm) (SbW c j w)

/-- Among slot `j`'s elements, the buffer after stores into distinct slots, one of them `w` into slot `j`, holds `w`: the same as the
    buffer that holds `w` in slot `j` over arbitrary contents. The stores' rectangles are given as the list `js` of their slots (checked by
    `rfl`), distinct (by `decide`), and the store into slot `j` by its position `k` in the list (by `rfl`). -/
theorem restate_s (c : Dev nD) (j : Fin 16) (f : Buf (Elt F) ((c : Thread nD τ).loc cc0_scratch2))
    (L : List (View.Piece (Elt F) S16x512x128 .bf16)) (w : FVec F S1x512x128 .bf16) (js : List (Fin 16)) (k : ℕ)
    (hrects : L.map (fun p => p.1) = js.map box) (hnd : js.Nodup) (hk : L[k]? = some ⟨box j, w⟩) :
    ∀ i ∈ sset c j, W2.writes (Elt F) f L i = SbW c j w i := by
  intro i hi
  have hl : lead i = j.val := (mem_sset c j i).mp hi
  obtain ⟨x, rfl⟩ := (box j).exists_idx_of_mem ((mem_box j i).mpr hl)
  have hm : (⟨box j, w⟩ : View.Piece (Elt F) S16x512x128 .bf16) ∈ L := List.mem_of_getElem? hk
  have e1 := read_writes_of_mem_pairwise W2 f L (box j) w hm (pairwise_of_boxes L js hrects hnd) x
  have e2 := View.read_writes_cons_emb W2 (junk2 (F := F)) (box j) w [] x
  have key : ∀ G : W2.ty.Contents (Elt F), W2.read (Elt F) G ((box j).emb x) = w x → G ((box j).idx x) = w x := fun G h => h
  unfold SbW
  exact (key _ e1).trans (key _ e2).symm

/-- The same as an entailment between points-tos of slot `j`'s elements. At a literal `j` the location and the element set are slot `j`'s
    own (`(sslot j).view.loc c`, `(sslot j).view.set`) and `SbW c j w` is `SbOf c j w`, all by unfolding. -/
theorem restate_pts (c : Dev nD) (j : Fin 16) (q : PosShare TreeShare) (f : Buf (Elt F) ((c : Thread nD τ).loc cc0_scratch2))
    (L : List (View.Piece (Elt F) S16x512x128 .bf16)) (w : FVec F S1x512x128 .bf16) (js : List (Fin 16)) (k : ℕ)
    (hrects : L.map (fun p => p.1) = js.map box) (hnd : js.Nodup) (hk : L[k]? = some ⟨box j, w⟩) :
    (((c : Thread nD τ).loc cc0_scratch2) ↦[sset c j]{q} W2.writes (Elt F) f L : sProp 𝕄)
      ⊢ (((c : Thread nD τ).loc cc0_scratch2) ↦[sset c j]{q} SbW c j w) := by
  rw [pointsTo_congr (restate_s c j f L w js k hrects hnd hk)]

section Example
variable (c : Dev nD) (f5 : Buf (Elt F) ((c : Thread nD τ).loc cc0_scratch2)) (w0 w1 w2 w3 : FVec F S1x512x128 .bf16)

example : ∀ i ∈ (sslot 2).view.set, W2.writes (Elt F) f5 [⟨Rect.unit (s := S16x512x128) ![3, 0, 0] S1x512x128.size inb_S16x512x128_S1x512x128_3_0_0, w3⟩, ⟨Rect.unit (s := S16x512x128) ![2, 0, 0] S1x512x128.size inb_S16x512x128_S1x512x128_2_0_0, w2⟩, ⟨Rect.unit (s := S16x512x128) ![1, 0, 0] S1x512x128.size inb_S16x512x128_S1x512x128_1_0_0, w1⟩, ⟨Rect.unit (s := S16x512x128) ![0, 0, 0] S1x512x128.size inb_S16x512x128_S1x512x128_0_0_0, w0⟩] i = SbOf c 2 w2 i :=
  restate_s c 2 f5 _ w2 [3, 2, 1, 0] 1 rfl (by decide) rfl

example : ((sslot 3).view.loc (c : Thread nD τ) ↦[(sslot 3).view.set]{fullShare} W2.writes (Elt F) f5 [⟨Rect.unit (s := S16x512x128) ![3, 0, 0] S1x512x128.size inb_S16x512x128_S1x512x128_3_0_0, w3⟩, ⟨Rect.unit (s := S16x512x128) ![2, 0, 0] S1x512x128.size inb_S16x512x128_S1x512x128_2_0_0, w2⟩, ⟨Rect.unit (s := S16x512x128) ![1, 0, 0] S1x512x128.size inb_S16x512x128_S1x512x128_1_0_0, w1⟩, ⟨Rect.unit (s := S16x512x128) ![0, 0, 0] S1x512x128.size inb_S16x512x128_S1x512x128_0_0_0, w0⟩] : sProp 𝕄)
    ⊢ ((sslot 3).view.loc (c : Thread nD τ) ↦[(sslot 3).view.set]{fullShare} SbOf c 3 w3) :=
  restate_pts c 3 fullShare f5 _ w3 [3, 2, 1, 0] 0 rfl (by decide) rfl

end Example

/-! ## What the transfers land -/

section Landings
variable (chunk : Dev nD → Fin 16 → FVec F S1x512x128 .bf16)

/-- Device `d`'s outgoing slot `j` holds its chunk `j`; -/
def SbV (d : Dev nD) (j : Fin 16) : Buf (Elt F) ((sslot j).view.loc (d : Thread nD τ)) := SbOf d j (chunk d j)

/-- its slot `j` of received chunks holds what its neighbour along the second axis sent: that neighbour's outgoing slot read, written
    whole over arbitrary contents; -/
def YcV (d : Dev nD) (j : Fin 16) : Buf (Elt F) ((yslot j).view.loc (d : Thread nD τ)) :=
  (yslot j).view.write (Elt F) (yslot j).view.junk ((sslot j).view.read (Elt F) (SbV chunk (ynb d) j)) Finset.univ

/-- its slot `j` of forwards holds what its neighbour along the first axis forwarded: that neighbour's received slot read. -/
def XcV (d : Dev nD) (j : Fin 16) : Buf (Elt F) ((xslot j).view.loc (d : Thread nD τ)) :=
  (xslot j).view.write (Elt F) (xslot j).view.junk ((yslot j).view.read (Elt F) (YcV chunk (xnb d) j)) Finset.univ

/-- The chunk's transfer lands, in the neighbour's slot, the contents the neighbour's slot is named by: a whole-slot write does not
    depend on what the slot held, and the neighbour's neighbour is the device itself. -/
theorem land_y (c : Dev nD) (j : Fin 16) (fd : Buf (Elt F) ((yslot j).view.loc (ynb c : Thread nD τ))) :
    ((yslot j).view.loc (ynb c : Thread nD τ) ↦[(yslot j).view.set]{fullShare}
        (yslot j).view.write (Elt F) fd ((sslot j).view.read (Elt F) (SbV chunk c j)) Finset.univ : sProp 𝕄)
      ⊢ ((yslot j).view.loc (ynb c : Thread nD τ) ↦[(yslot j).view.set]{fullShare} YcV chunk (ynb c) j) := by
  unfold YcV
  rw [ynb_ynb, slot_landing_congr (yslot j) (ynb c) fd ((yslot j).view.junk)]

/-- The same for a forward. -/
theorem land_f (c : Dev nD) (j : Fin 16) (fd : Buf (Elt F) ((xslot j).view.loc (xnb c : Thread nD τ))) :
    ((xslot j).view.loc (xnb c : Thread nD τ) ↦[(xslot j).view.set]{fullShare}
        (xslot j).view.write (Elt F) fd ((yslot j).view.read (Elt F) (YcV chunk c j)) Finset.univ : sProp 𝕄)
      ⊢ ((xslot j).view.loc (xnb c : Thread nD τ) ↦[(xslot j).view.set]{fullShare} XcV chunk (xnb c) j) := by
  unfold XcV
  rw [xnb_xnb, slot_landing_congr (xslot j) (xnb c) fd ((xslot j).view.junk)]

end Landings

/-! ## The chunks a device sends

A device whose first mesh coordinate is 0 computes the first four 512-column blocks of the product of the other half of the transposed
`x` with `dy`, one block per group of four slots; one whose first coordinate is 1 the last four. The other half of `x` is the block of
columns the one-bit word "second mesh coordinate is 0" chooses; every block of `dy` is read from the copy in fast memory, which the
eight local transfers filled. -/

section Chunks

/-- The word "the device's second mesh coordinate is 0". -/
def bit (d : Dev nD) : BitVec 1 :=
  Scalar.cmpi CmpIPredicate.eq (Scalar.remsi (Scalar.divsi (BitVec.ofNat 32 ((d : Thread nD τ).1 : ℕ)) 1#32) 2#32) 0#32

/-- Columns `0 … 511` of the staged first argument, -/
def XA (d : Dev nD) : Vec F S1024x512 .f32 :=
  View.readAt (Elt F) (Memref.whole cc0_stg0_0 : Memref sig .tc .vmem S1024x1024 .f32).view
    (Rect.unit (s := S1024x1024) ![0, 0] S1024x512.size inb_S1024x1024_S1024x512_0_0).toLoadRect (xstg m d)
/-- and columns `512 … 1023`. -/
def XB (d : Dev nD) : Vec F S1024x512 .f32 :=
  View.readAt (Elt F) (Memref.whole cc0_stg0_0 : Memref sig .tc .vmem S1024x1024 .f32).view
    (Rect.unit (s := S1024x1024) ![0, 512] S1024x512.size inb_S1024x1024_S1024x512_0_512).toLoadRect (xstg m d)

/-- What a local transfer of the 512 columns from `off` of `dy` carries. -/
def dmaP (d : Dev nD) (off : ℕ) (h : ∀ a, (![0, off] : Fin 2 → ℕ) a + S1024x512.size a ≤ S1024x4096.size a) : S1024x512.Idx → Elt F .f32 :=
  ReadAs.same.apply (View.read (Elt F) ((Memref.whole main_arg1 : Memref sig .tc .hbm S1024x4096 .f32).slice
    (Rect.unit (s := S1024x4096) ![0, off] S1024x512.size h) (fun _ => rfl)).view (m ((d : Thread nD τ).loc main_arg1)))

/-- The eight local transfers, the last issued first. -/
def dyL (d : Dev nD) : List (View.Piece (Elt F) S1024x4096 .f32) :=
    [⟨Rect.unit (s := S1024x4096) ![0, 3584] S1024x512.size inb_S1024x4096_S1024x512_0_3584, dmaP m d 3584 inb_S1024x4096_S1024x512_0_3584⟩,
     ⟨Rect.unit (s := S1024x4096) ![0, 1536] S1024x512.size inb_S1024x4096_S1024x512_0_1536, dmaP m d 1536 inb_S1024x4096_S1024x512_0_1536⟩,
     ⟨Rect.unit (s := S1024x4096) ![0, 3072] S1024x512.size inb_S1024x4096_S1024x512_0_3072, dmaP m d 3072 inb_S1024x4096_S1024x512_0_3072⟩,
     ⟨Rect.unit (s := S1024x4096) ![0, 1024] S1024x512.size inb_S1024x4096_S1024x512_0_1024, dmaP m d 1024 inb_S1024x4096_S1024x512_0_1024⟩,
     ⟨Rect.unit (s := S1024x4096) ![0, 2560] S1024x512.size inb_S1024x4096_S1024x512_0_2560, dmaP m d 2560 inb_S1024x4096_S1024x512_0_2560⟩,
     ⟨Rect.unit (s := S1024x4096) ![0, 512] S1024x512.size inb_S1024x4096_S1024x512_0_512, dmaP m d 512 inb_S1024x4096_S1024x512_0_512⟩,
     ⟨Rect.unit (s := S1024x4096) ![0, 2048] S1024x512.size inb_S1024x4096_S1024x512_0_2048, dmaP m d 2048 inb_S1024x4096_S1024x512_0_2048⟩,
     ⟨Rect.unit (s := S1024x4096) ![0, 0] S1024x512.size inb_S1024x4096_S1024x512_0_0, dmaP m d 0 inb_S1024x4096_S1024x512_0_0⟩]

/-- Block `k` (512 columns) of `dy` as read from the copy. -/
def dyBlk (d : Dev nD) : Fin 8 → Vec F S1024x512 .f32
  | 0 => (Memref.whole cc0_scratch0 : Memref sig .tc .vmem S1024x4096 .f32).view.readCov (dyL m d) (Rect.unit (s := S1024x4096) ![0, 0] S1024x512.size inb_S1024x4096_S1024x512_0_0).toLoadRect
  | 1 => (Memref.whole cc0_scratch0 : Memref sig .tc .vmem S1024x4096 .f32).view.readCov (dyL m d) (Rect.unit (s := S1024x4096) ![0, 512] S1024x512.size inb_S1024x4096_S1024x512_0_512).toLoadRect
  | 2 => (Memref.whole cc0_scratch0 : Memref sig .tc .vmem S1024x4096 .f32).view.readCov (dyL m d) (Rect.unit (s := S1024x4096) ![0, 1024] S1024x512.size inb_S1024x4096_S1024x512_0_1024).toLoadRect
  | 3 => (Memref.whole cc0_scratch0 : Memref sig .tc .vmem S1024x4096 .f32).view.readCov (dyL m d) (Rect.unit (s := S1024x4096) ![0, 1536] S1024x512.size inb_S1024x4096_S1024x512_0_1536).toLoadRect
  | 4 => (Memref.whole cc0_scratch0 : Memref sig .tc .vmem S1024x4096 .f32).view.readCov (dyL m d) (Rect.unit (s := S1024x4096) ![0, 2048] S1024x512.size inb_S1024x4096_S1024x512_0_2048).toLoadRect
  | 5 => (Memref.whole cc0_scratch0 : Memref sig .tc .vmem S1024x4096 .f32).view.readCov (dyL m d) (Rect.unit (s := S1024x4096) ![0, 2560] S1024x512.size inb_S1024x4096_S1024x512_0_2560).toLoadRect
  | 6 => (Memref.whole cc0_scratch0 : Memref sig .tc .vmem S1024x4096 .f32).view.readCov (dyL m d) (Rect.unit (s := S1024x4096) ![0, 3072] S1024x512.size inb_S1024x4096_S1024x512_0_3072).toLoadRect
  | 7 => (Memref.whole cc0_scratch0 : Memref sig .tc .vmem S1024x4096 .f32).view.readCov (dyL m d) (Rect.unit (s := S1024x4096) ![0, 3584] S1024x512.size inb_S1024x4096_S1024x512_0_3584).toLoadRect

/-- The chunk a device with first mesh coordinate 0 puts in slot `j`, -/
def chunk0 (d : Dev nD) : Fin 16 → FVec F S1x512x128 .bf16
  | 0 => k0_pay4 (bit d) (XB m d) (XA m d) (dyBlk m d 0)
  | 1 => k0_pay5 (bit d) (XB m d) (XA m d) (dyBlk m d 0)
  | 2 => k0_pay6 (bit d) (XB m d) (XA m d) (dyBlk m d 0)
  | 3 => k0_pay7 (bit d) (XB m d) (XA m d) (dyBlk m d 0)
  | 4 => k0_pay14 (k0_pay2 (bit d) (XB m d) (XA m d)) (dyBlk m d 1)
  | 5 => k0_pay15 (k0_pay2 (bit d) (XB m d) (XA m d)) (dyBlk m d 1)
  | 6 => k0_pay16 (k0_pay2 (bit d) (XB m d) (XA m d)) (dyBlk m d 1)
  | 7 => k0_pay17 (k0_pay2 (bit d) (XB m d) (XA m d)) (dyBlk m d 1)
  | 8 => k0_pay24 (k0_pay2 (bit d) (XB m d) (XA m d)) (dyBlk m d 2)
  | 9 => k0_pay25 (k0_pay2 (bit d) (XB m d) (XA m d)) (dyBlk m d 2)
  | 10 => k0_pay26 (k0_pay2 (bit d) (XB m d) (XA m d)) (dyBlk m d 2)
  | 11 => k0_pay27 (k0_pay2 (bit d) (XB m d) (XA m d)) (dyBlk m d 2)
  | 12 => k0_pay34 (k0_pay2 (bit d) (XB m d) (XA m d)) (dyBlk m d 3)
  | 13 => k0_pay35 (k0_pay2 (bit d) (XB m d) (XA m d)) (dyBlk m d 3)
  | 14 => k0_pay36 (k0_pay2 (bit d) (XB m d) (XA m d)) (dyBlk m d 3)
  | 15 => k0_pay37 (k0_pay2 (bit d) (XB m d) (XA m d)) (dyBlk m d 3)
  | ⟨_ + 16, h⟩ => absurd h (by omega)

/-- one with first mesh coordinate 1, -/
def chunk1 (d : Dev nD) : Fin 16 → FVec F S1x512x128 .bf16
  | 0 => k0_pay9 (bit d) (XB m d) (XA m d) (dyBlk m d 4)
  | 1 => k0_pay10 (bit d) (XB m d) (XA m d) (dyBlk m d 4)
  | 2 => k0_pay11 (bit d) (XB m d) (XA m d) (dyBlk m d 4)
  | 3 => k0_pay12 (bit d) (XB m d) (XA m d) (dyBlk m d 4)
  | 4 => k0_pay19 (k0_pay2 (bit d) (XB m d) (XA m d)) (dyBlk m d 5)
  | 5 => k0_pay20 (k0_pay2 (bit d) (XB m d) (XA m d)) (dyBlk m d 5)
  | 6 => k0_pay21 (k0_pay2 (bit d) (XB m d) (XA m d)) (dyBlk m d 5)
  | 7 => k0_pay22 (k0_pay2 (bit d) (XB m d) (XA m d)) (dyBlk m d 5)
  | 8 => k0_pay29 (k0_pay2 (bit d) (XB m d) (XA m d)) (dyBlk m d 6)
  | 9 => k0_pay30 (k0_pay2 (bit d) (XB m d) (XA m d)) (dyBlk m d 6)
  | 10 => k0_pay31 (k0_pay2 (bit d) (XB m d) (XA m d)) (dyBlk m d 6)
  | 11 => k0_pay32 (k0_pay2 (bit d) (XB m d) (XA m d)) (dyBlk m d 6)
  | 12 => k0_pay39 (k0_pay2 (bit d) (XB m d) (XA m d)) (dyBlk m d 7)
  | 13 => k0_pay40 (k0_pay2 (bit d) (XB m d) (XA m d)) (dyBlk m d 7)
  | 14 => k0_pay41 (k0_pay2 (bit d) (XB m d) (XA m d)) (dyBlk m d 7)
  | 15 => k0_pay42 (k0_pay2 (bit d) (XB m d) (XA m d)) (dyBlk m d 7)
  | ⟨_ + 16, h⟩ => absurd h (by omega)

/-- any device. -/
def chunk (d : Dev nD) (j : Fin 16) : FVec F S1x512x128 .bf16 := if d.val / 2 = 0 then chunk0 m d j else chunk1 m d j

theorem chunk_x0 (d : Dev nD) (h : d.val / 2 = 0) (j : Fin 16) : chunk m d j = chunk0 m d j := if_pos h
theorem chunk_x1 (d : Dev nD) (h : d.val / 2 = 1) (j : Fin 16) : chunk m d j = chunk1 m d j := if_neg (by omega)

end Chunks

/-! ## A slot's contents as the body leaves them, restated

The first four slots are stored while the buffer is held whole: each of them then holds the four stores over the buffer's earlier contents.
Every later slot is held apart when it is stored: it holds its own store over those. Either way the slot's elements hold the slot's chunk. -/

section Restate
variable (ch : Fin 16 → FVec F S1x512x128 .bf16)

/-- The first four stores, the last first. -/
def Llo : List (View.Piece (Elt F) S16x512x128 .bf16) := [⟨box 3, ch 3⟩, ⟨box 2, ch 2⟩, ⟨box 1, ch 1⟩, ⟨box 0, ch 0⟩]

theorem restate_lo (c : Dev nD) : ∀ (j : Fin 16) (hj : j.val < 4) (q : PosShare TreeShare) (f : Buf (Elt F) ((c : Thread nD τ).loc cc0_scratch2)),
    (((c : Thread nD τ).loc cc0_scratch2) ↦[sset c j]{q} W2.writes (Elt F) f (Llo ch) : sProp 𝕄)
      ⊢ (((c : Thread nD τ).loc cc0_scratch2) ↦[sset c j]{q} SbW c j (ch j))
  | ⟨0, _⟩, _, q, f => restate_pts c 0 q f (Llo ch) (ch 0) [3, 2, 1, 0] 3 rfl (by decide) rfl
  | ⟨1, _⟩, _, q, f => restate_pts c 1 q f (Llo ch) (ch 1) [3, 2, 1, 0] 2 rfl (by decide) rfl
  | ⟨2, _⟩, _, q, f => restate_pts c 2 q f (Llo ch) (ch 2) [3, 2, 1, 0] 1 rfl (by decide) rfl
  | ⟨3, _⟩, _, q, f => restate_pts c 3 q f (Llo ch) (ch 3) [3, 2, 1, 0] 0 rfl (by decide) rfl
  | ⟨n + 4, _⟩, h, _, _ => absurd h (by simp)

theorem restate_hi (c : Dev nD) (j : Fin 16) (hj : 4 ≤ j.val) (q : PosShare TreeShare) (f : Buf (Elt F) ((c : Thread nD τ).loc cc0_scratch2)) :
    (((c : Thread nD τ).loc cc0_scratch2) ↦[sset c j]{q}
        View.write (Elt F) ((Memref.whole cc0_scratch2 : Memref sig .tc .vmem S16x512x128 .bf16).access (box j)) (W2.writes (Elt F) f (Llo ch)) (ch j) Finset.univ : sProp 𝕄)
      ⊢ (((c : Thread nD τ).loc cc0_scratch2) ↦[sset c j]{q} SbW c j (ch j)) :=
  restate_pts c j q f (⟨box j, ch j⟩ :: Llo ch) (ch j) (j :: [3, 2, 1, 0]) 0 rfl
    (List.nodup_cons.mpr ⟨by
      intro hm
      have : j.val < 4 := by
        rcases List.mem_cons.mp hm with h | hm; · rw [h]; decide
        rcases List.mem_cons.mp hm with h | hm; · rw [h]; decide
        rcases List.mem_cons.mp hm with h | hm; · rw [h]; decide
        rcases List.mem_cons.mp hm with h | hm; · rw [h]; decide
        exact absurd hm List.not_mem_nil
      omega, by decide⟩) rfl

end Restate

/-- For a device with first mesh coordinate 0 (and likewise 1): the slot as the body leaves it holds the device's chunk. -/
theorem restate_lo_x0 (c : Dev nD) (hx : c.val / 2 = 0) (j : Fin 16) (hj : j.val < 4) (q : PosShare TreeShare) (f : Buf (Elt F) ((c : Thread nD τ).loc cc0_scratch2)) :
    (((c : Thread nD τ).loc cc0_scratch2) ↦[sset c j]{q} W2.writes (Elt F) f (Llo (chunk0 m c)) : sProp 𝕄)
      ⊢ (((c : Thread nD τ).loc cc0_scratch2) ↦[sset c j]{q} SbW c j (chunk m c j)) := by
  rw [chunk_x0 m c hx]; exact restate_lo (chunk0 m c) c j hj q f
theorem restate_hi_x0 (c : Dev nD) (hx : c.val / 2 = 0) (j : Fin 16) (hj : 4 ≤ j.val) (q : PosShare TreeShare) (f : Buf (Elt F) ((c : Thread nD τ).loc cc0_scratch2)) :
    (((c : Thread nD τ).loc cc0_scratch2) ↦[sset c j]{q}
        View.write (Elt F) ((Memref.whole cc0_scratch2 : Memref sig .tc .vmem S16x512x128 .bf16).access (box j)) (W2.writes (Elt F) f (Llo (chunk0 m c))) (chunk0 m c j) Finset.univ : sProp 𝕄)
      ⊢ (((c : Thread nD τ).loc cc0_scratch2) ↦[sset c j]{q} SbW c j (chunk m c j)) := by
  rw [chunk_x0 m c hx]; exact restate_hi (chunk0 m c) c j hj q f
theorem restate_lo_x1 (c : Dev nD) (hx : c.val / 2 = 1) (j : Fin 16) (hj : j.val < 4) (q : PosShare TreeShare) (f : Buf (Elt F) ((c : Thread nD τ).loc cc0_scratch2)) :
    (((c : Thread nD τ).loc cc0_scratch2) ↦[sset c j]{q} W2.writes (Elt F) f (Llo (chunk1 m c)) : sProp 𝕄)
      ⊢ (((c : Thread nD τ).loc cc0_scratch2) ↦[sset c j]{q} SbW c j (chunk m c j)) := by
  rw [chunk_x1 m c hx]; exact restate_lo (chunk1 m c) c j hj q f
theorem restate_hi_x1 (c : Dev nD) (hx : c.val / 2 = 1) (j : Fin 16) (hj : 4 ≤ j.val) (q : PosShare TreeShare) (f : Buf (Elt F) ((c : Thread nD τ).loc cc0_scratch2)) :
    (((c : Thread nD τ).loc cc0_scratch2) ↦[sset c j]{q}
        View.write (Elt F) ((Memref.whole cc0_scratch2 : Memref sig .tc .vmem S16x512x128 .bf16).access (box j)) (W2.writes (Elt F) f (Llo (chunk1 m c))) (chunk1 m c j) Finset.univ : sProp 𝕄)
      ⊢ (((c : Thread nD τ).loc cc0_scratch2) ↦[sset c j]{q} SbW c j (chunk m c j)) := by
  rw [chunk_x1 m c hx]; exact restate_hi (chunk1 m c) c j hj q f

/-! ## The landings, element by element -/

section LandEq
variable (chunk' : Dev nD → Fin 16 → FVec F S1x512x128 .bf16)

theorem land_y_eq (c : Dev nD) (j : Fin 16) (fd : Buf (Elt F) ((yslot j).view.loc (ynb c : Thread nD τ))) :
    ∀ i ∈ (yslot j).view.set,
      (yslot j).view.write (Elt F) fd ((sslot j).view.read (Elt F) (SbV chunk' c j)) Finset.univ i = YcV chunk' (ynb c) j i := by
  unfold YcV
  rw [ynb_ynb]
  exact slot_write_agree (yslot j) fd ((yslot j).view.junk) _

theorem land_f_eq (c : Dev nD) (j : Fin 16) (fd : Buf (Elt F) ((xslot j).view.loc (xnb c : Thread nD τ))) :
    ∀ i ∈ (xslot j).view.set,
      (xslot j).view.write (Elt F) fd ((yslot j).view.read (Elt F) (YcV chunk' c j)) Finset.univ i = XcV chunk' (xnb c) j i := by
  unfold XcV
  rw [xnb_xnb]
  exact slot_write_agree (xslot j) fd ((xslot j).view.junk) _

end LandEq

end Cert.KernelIdeal.Hand

end
-- ==== Proof.Rejoin.lean ====
import proofs.«901046_g7700000000001047_dist_rsdw_v7x_xy2x2_y_m1024_d1024_f4096_f32_1_alg».proof.Proof.Basic
import Idealize.ShloMosaic.Rules.PointsTo

/-! Putting a buffer back together from a rest and four windows.

A buffer held as four pairwise disjoint sets of its elements, each at contents of its own, and the rest of its elements at yet other
contents, is the buffer held whole: its contents are, at each element, those of the piece the element lies in. The four column windows of
width 512 of the result's staging buffer (512 × 4096) at a device's four column offsets are pairwise disjoint because their column
ranges are. -/

set_option maxRecDepth 16384

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## A rest and four pieces -/

section Generic

variable {ℓ : Loc nD τ sig} {q : PosShare TreeShare}

/-- The rest of a buffer's elements and four pairwise disjoint pieces, at five contents, are the buffer whole at the glued contents. -/
theorem rejoin4 (W0 W1 W2 W3 : Finset (Idx ℓ))
    (h01 : Disjoint W0 W1) (h02 : Disjoint W0 W2) (h03 : Disjoint W0 W3) (h12 : Disjoint W1 W2) (h13 : Disjoint W1 W3) (h23 : Disjoint W2 W3)
    (g g0 g1 g2 g3 : Buf (Elt F) ℓ) :
    (iprop((ℓ ↦[(((Finset.univ \ W0) \ W1) \ W2) \ W3]{q} g) ∗ (ℓ ↦[W0]{q} g0) ∗ (ℓ ↦[W1]{q} g1) ∗ (ℓ ↦[W2]{q} g2) ∗ (ℓ ↦[W3]{q} g3)) : sProp 𝕄)
      ⊢ iprop(∃ f, ℓ ↦{q} f) := by
  have s3 : W3 ⊆ ((Finset.univ \ W0) \ W1) \ W2 := fun x hx => by
    simp only [Finset.mem_sdiff, Finset.mem_univ, true_and]
    exact ⟨⟨Finset.disjoint_right.mp h03 hx, Finset.disjoint_right.mp h13 hx⟩, Finset.disjoint_right.mp h23 hx⟩
  have s2 : W2 ⊆ (Finset.univ \ W0) \ W1 := fun x hx => by
    simp only [Finset.mem_sdiff, Finset.mem_univ, true_and]
    exact ⟨Finset.disjoint_right.mp h02 hx, Finset.disjoint_right.mp h12 hx⟩
  have s1 : W1 ⊆ Finset.univ \ W0 := fun x hx => by
    simp only [Finset.mem_sdiff, Finset.mem_univ, true_and]
    exact Finset.disjoint_right.mp h01 hx
  have s0 : W0 ⊆ Finset.univ := Finset.subset_univ _
  iintro ⟨H, H0, H1, H2, H3⟩
  ihave A3 := (pointsTo_join_subset (Val := Elt F) (U := UU) (Ix := Unit) (Name := ℕ) (Lvl := ℕ) (q := q) (f := g) (g := g3) s3) $$ [H3 H]
  · isplitl [H3]; · iexact H3
    iexact H
  ihave A2 := (pointsTo_join_subset (Val := Elt F) (U := UU) (Ix := Unit) (Name := ℕ) (Lvl := ℕ) (q := q) (f := W3.piecewise g3 g) (g := g2) s2) $$ [H2 A3]
  · isplitl [H2]; · iexact H2
    iexact A3
  ihave A1 := (pointsTo_join_subset (Val := Elt F) (U := UU) (Ix := Unit) (Name := ℕ) (Lvl := ℕ) (q := q) (f := W2.piecewise g2 (W3.piecewise g3 g)) (g := g1) s1) $$ [H1 A2]
  · isplitl [H1]; · iexact H1
    iexact A2
  ihave A0 := (pointsTo_join_subset (Val := Elt F) (U := UU) (Ix := Unit) (Name := ℕ) (Lvl := ℕ) (q := q) (f := W1.piecewise g1 (W2.piecewise g2 (W3.piecewise g3 g))) (g := g0) s0) $$ [H0 A1]
  · isplitl [H0]; · iexact H0
    iexact A1
  iexists (W0.piecewise g0 (W1.piecewise g1 (W2.piecewise g2 (W3.piecewise g3 g))))
  iexact A0

end Generic

/-! ## The column windows of the result's staging buffer -/

/-- Two column windows of width 512 whose column ranges do not meet are disjoint. -/
theorem s1win_disjoint (a b : ℕ) (ha : ∀ x, (![0, a] : Fin 2 → Nat) x + S512x512.size x ≤ S512x4096.size x)
    (hb : ∀ x, (![0, b] : Fin 2 → Nat) x + S512x512.size x ≤ S512x4096.size x) (h : a + 512 ≤ b ∨ b + 512 ≤ a) :
    Disjoint ((Memref.whole cc0_scratch1 : Memref sig .tc .vmem S512x4096 .f32).slice (Rect.unit (s := S512x4096) ![0, a] S512x512.size ha) (fun _ => rfl)).view.set
      ((Memref.whole cc0_scratch1 : Memref sig .tc .vmem S512x4096 .f32).slice (Rect.unit (s := S512x4096) ![0, b] S512x512.size hb) (fun _ => rfl)).view.set :=
  Finset.disjoint_left.mpr fun x h1 h2 =>
    Finset.disjoint_left.mp (Rect.unit_disjoint (s := S512x4096) (inb := ha) (inb' := hb) (1 : Fin 2) h)
      ((Finset.ext_iff.mp (View.set_slice_whole _ _) x).mp h1) ((Finset.ext_iff.mp (View.set_slice_whole _ _) x).mp h2)

/-- On a device whose first mesh coordinate is 0: the staging buffer from its rest and its windows at columns 0, 512, 1024, 1536. -/
theorem scratch1_rejoin0 (c : Dev nD) (g g0 g1 g2 g3 : Buf (Elt F) ((Memref.whole cc0_scratch1 : Memref sig .tc .vmem S512x4096 .f32).view.loc (c : Thread nD τ))) :
    (iprop(((Memref.whole cc0_scratch1 : Memref sig .tc .vmem S512x4096 .f32).view.loc (c : Thread nD τ) ↦[(((Finset.univ \ ((Memref.whole cc0_scratch1 : Memref sig .tc .vmem S512x4096 .f32).slice (Rect.unit (s := S512x4096) ![0, 0] S512x512.size inb_S512x4096_S512x512_0_0) (fun _ => rfl)).view.set) \ ((Memref.whole cc0_scratch1 : Memref sig .tc .vmem S512x4096 .f32).slice (Rect.unit (s := S512x4096) ![0, 512] S512x512.size inb_S512x4096_S512x512_0_512) (fun _ => rfl)).view.set) \ ((Memref.whole cc0_scratch1 : Memref sig .tc .vmem S512x4096 .f32).slice (Rect.unit (s := S512x4096) ![0, 1024] S512x512.size inb_S512x4096_S512x512_0_1024) (fun _ => rfl)).view.set) \ ((Memref.whole cc0_scratch1 : Memref sig .tc .vmem S512x4096 .f32).slice (Rect.unit (s := S512x4096) ![0, 1536] S512x512.size inb_S512x4096_S512x512_0_1536) (fun _ => rfl)).view.set]{fullShare} g)
        ∗ ((Memref.whole cc0_scratch1 : Memref sig .tc .vmem S512x4096 .f32).view.loc (c : Thread nD τ) ↦[((Memref.whole cc0_scratch1 : Memref sig .tc .vmem S512x4096 .f32).slice (Rect.unit (s := S512x4096) ![0, 0] S512x512.size inb_S512x4096_S512x512_0_0) (fun _ => rfl)).view.set]{fullShare} g0)
        ∗ ((Memref.whole cc0_scratch1 : Memref sig .tc .vmem S512x4096 .f32).view.loc (c : Thread nD τ) ↦[((Memref.whole cc0_scratch1 : Memref sig .tc .vmem S512x4096 .f32).slice (Rect.unit (s := S512x4096) ![0, 512] S512x512.size inb_S512x4096_S512x512_0_512) (fun _ => rfl)).view.set]{fullShare} g1)
        ∗ ((Memref.whole cc0_scratch1 : Memref sig .tc .vmem S512x4096 .f32).view.loc (c : Thread nD τ) ↦[((Memref.whole cc0_scratch1 : Memref sig .tc .vmem S512x4096 .f32).slice (Rect.unit (s := S512x4096) ![0, 1024] S512x512.size inb_S512x4096_S512x512_0_1024) (fun _ => rfl)).view.set]{fullShare} g2)
        ∗ ((Memref.whole cc0_scratch1 : Memref sig .tc .vmem S512x4096 .f32).view.loc (c : Thread nD τ) ↦[((Memref.whole cc0_scratch1 : Memref sig .tc .vmem S512x4096 .f32).slice (Rect.unit (s := S512x4096) ![0, 1536] S512x512.size inb_S512x4096_S512x512_0_1536) (fun _ => rfl)).view.set]{fullShare} g3)) : sProp 𝕄)
      ⊢ iprop(∃ f, (Memref.whole cc0_scratch1 : Memref sig .tc .vmem S512x4096 .f32).view.loc (c : Thread nD τ) ↦{fullShare} f) :=
  rejoin4 (F := F) _ _ _ _
    (s1win_disjoint 0 512 _ _ (by decide)) (s1win_disjoint 0 1024 _ _ (by decide)) (s1win_disjoint 0 1536 _ _ (by decide))
    (s1win_disjoint 512 1024 _ _ (by decide)) (s1win_disjoint 512 1536 _ _ (by decide)) (s1win_disjoint 1024 1536 _ _ (by decide))
    g g0 g1 g2 g3

/-- On a device whose first mesh coordinate is 1: the same at columns 2048, 2560, 3072, 3584. -/
theorem scratch1_rejoin1 (c : Dev nD) (g g0 g1 g2 g3 : Buf (Elt F) ((Memref.whole cc0_scratch1 : Memref sig .tc .vmem S512x4096 .f32).view.loc (c : Thread nD τ))) :
    (iprop(((Memref.whole cc0_scratch1 : Memref sig .tc .vmem S512x4096 .f32).view.loc (c : Thread nD τ) ↦[(((Finset.univ \ ((Memref.whole cc0_scratch1 : Memref sig .tc .vmem S512x4096 .f32).slice (Rect.unit (s := S512x4096) ![0, 2048] S512x512.size inb_S512x4096_S512x512_0_2048) (fun _ => rfl)).view.set) \ ((Memref.whole cc0_scratch1 : Memref sig .tc .vmem S512x4096 .f32).slice (Rect.unit (s := S512x4096) ![0, 2560] S512x512.size inb_S512x4096_S512x512_0_2560) (fun _ => rfl)).view.set) \ ((Memref.whole cc0_scratch1 : Memref sig .tc .vmem S512x4096 .f32).slice (Rect.unit (s := S512x4096) ![0, 3072] S512x512.size inb_S512x4096_S512x512_0_3072) (fun _ => rfl)).view.set) \ ((Memref.whole cc0_scratch1 : Memref sig .tc .vmem S512x4096 .f32).slice (Rect.unit (s := S512x4096) ![0, 3584] S512x512.size inb_S512x4096_S512x512_0_3584) (fun _ => rfl)).view.set]{fullShare} g)
        ∗ ((Memref.whole cc0_scratch1 : Memref sig .tc .vmem S512x4096 .f32).view.loc (c : Thread nD τ) ↦[((Memref.whole cc0_scratch1 : Memref sig .tc .vmem S512x4096 .f32).slice (Rect.unit (s := S512x4096) ![0, 2048] S512x512.size inb_S512x4096_S512x512_0_2048) (fun _ => rfl)).view.set]{fullShare} g0)
        ∗ ((Memref.whole cc0_scratch1 : Memref sig .tc .vmem S512x4096 .f32).view.loc (c : Thread nD τ) ↦[((Memref.whole cc0_scratch1 : Memref sig .tc .vmem S512x4096 .f32).slice (Rect.unit (s := S512x4096) ![0, 2560] S512x512.size inb_S512x4096_S512x512_0_2560) (fun _ => rfl)).view.set]{fullShare} g1)
        ∗ ((Memref.whole cc0_scratch1 : Memref sig .tc .vmem S512x4096 .f32).view.loc (c : Thread nD τ) ↦[((Memref.whole cc0_scratch1 : Memref sig .tc .vmem S512x4096 .f32).slice (Rect.unit (s := S512x4096) ![0, 3072] S512x512.size inb_S512x4096_S512x512_0_3072) (fun _ => rfl)).view.set]{fullShare} g2)
        ∗ ((Memref.whole cc0_scratch1 : Memref sig .tc .vmem S512x4096 .f32).view.loc (c : Thread nD τ) ↦[((Memref.whole cc0_scratch1 : Memref sig .tc .vmem S512x4096 .f32).slice (Rect.unit (s := S512x4096) ![0, 3584] S512x512.size inb_S512x4096_S512x512_0_3584) (fun _ => rfl)).view.set]{fullShare} g3)) : sProp 𝕄)
      ⊢ iprop(∃ f, (Memref.whole cc0_scratch1 : Memref sig .tc .vmem S512x4096 .f32).view.loc (c : Thread nD τ) ↦{fullShare} f) :=
  rejoin4 (F := F) _ _ _ _
    (s1win_disjoint 2048 2560 _ _ (by decide)) (s1win_disjoint 2048 3072 _ _ (by decide)) (s1win_disjoint 2048 3584 _ _ (by decide))
    (s1win_disjoint 2560 3072 _ _ (by decide)) (s1win_disjoint 2560 3584 _ _ (by decide)) (s1win_disjoint 3072 3584 _ _ (by decide))
    g g0 g1 g2 g3

end Cert.KernelIdeal.Hand

end
-- ==== Proof.BodyExit.lean ====
import proofs.«901046_g7700000000001047_dist_rsdw_v7x_xy2x2_y_m1024_d1024_f4096_f32_1_alg».proof.Proof.Gen.KernelIdeal
import proofs.«901046_g7700000000001047_dist_rsdw_v7x_xy2x2_y_m1024_d1024_f4096_f32_1_alg».proof.Proof.Gen.KernelIdeal.Skeleton
import proofs.«901046_g7700000000001047_dist_rsdw_v7x_xy2x2_y_m1024_d1024_f4096_f32_1_alg».proof.Proof.Gen.KernelIdeal.Launch
import proofs.«901046_g7700000000001047_dist_rsdw_v7x_xy2x2_y_m1024_d1024_f4096_f32_1_alg».proof.Proof.Gen.KernelIdeal.Points
import proofs.«901046_g7700000000001047_dist_rsdw_v7x_xy2x2_y_m1024_d1024_f4096_f32_1_alg».proof.Proof.Proto
import proofs.«901046_g7700000000001047_dist_rsdw_v7x_xy2x2_y_m1024_d1024_f4096_f32_1_alg».proof.Proof.Slots
import proofs.«901046_g7700000000001047_dist_rsdw_v7x_xy2x2_y_m1024_d1024_f4096_f32_1_alg».proof.Proof.Ledger
import proofs.«901046_g7700000000001047_dist_rsdw_v7x_xy2x2_y_m1024_d1024_f4096_f32_1_alg».proof.Proof.BodyEnds
import Idealize.ShloMosaic.Lib.Pipeline.Launch
import Idealize.ShloMosaic.Lib.Pipeline.Kit
import Idealize.ShloMosaic.Lib.Tactic

/-! The body's exit.

After its last wait a device holds the positions of its sixty-four transfer cells past their one round, its local semaphores back at zero,
nothing owed, the three arrays it was handed, two scratch buffers whole, and the three sixteen-slot buffers slot by slot: the outgoing
chunks' and the forwards' receive slots at the full share, the chunks' receive slots in two halves (one half was lent to the forward that
read the slot, the other kept to read it meanwhile). The two halves of a share join to the share, sixteen slots glue into the whole buffer,
and the transfer cells close; that is what the body must end with. -/

set_option maxRecDepth 16384

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (Sb : (c : Dev nD) → (j : Fin 16) → Buf (Elt F) ((sslot j).view.loc (c : Thread nD τ)))
variable (Yc : (c : Dev nD) → (j : Fin 16) → Buf (Elt F) ((yslot j).view.loc (c : Thread nD τ)))
variable (Xc : (c : Dev nD) → (j : Fin 16) → Buf (Elt F) ((xslot j).view.loc (c : Thread nD τ)))
variable (OutP : (c : Dev nD) → Buf (Elt F) ((c : Thread nD τ).loc main_v1) → Prop)

/-! ## Chains over a listed index set -/

private abbrev f16 : List (Fin 16) := [0, 1, 2, 3, 4, 5, 6, 7, 8, 9, 10, 11, 12, 13, 14, 15]

omit [FloatOps F] in
private theorem bigSepL_mono {I : Type} {Φ Ψ : I → sProp 𝕄} (l : List I) (h : ∀ i, Φ i ⊢ Ψ i) : bigSepL l Φ ⊢ bigSepL l Ψ := by
  induction l with
  | nil => exact BI.Entails.refl _
  | cons i l ih =>
    rw [bigSepL_cons, bigSepL_cons]
    show iprop(Φ i ∗ bigSepL l Φ) ⊢ iprop(Ψ i ∗ bigSepL l Ψ)
    iintro ⟨Hi, Hl⟩
    isplitl [Hi]
    · iapply (h i); iexact Hi
    · iapply ih; iexact Hl

omit [FloatOps F] in
private theorem bigSepL_zip {I : Type} {Φ Ψ : I → sProp 𝕄} (l : List I) :
    iprop(bigSepL l Φ ∗ bigSepL l Ψ) ⊢ bigSepL l fun i => iprop(Φ i ∗ Ψ i) := by
  induction l with
  | nil => iintro -; iempintro
  | cons i l ih =>
    rw [bigSepL_cons, bigSepL_cons, bigSepL_cons]
    show iprop((Φ i ∗ bigSepL l Φ) ∗ (Ψ i ∗ bigSepL l Ψ)) ⊢ iprop((Φ i ∗ Ψ i) ∗ bigSepL l fun i => iprop(Φ i ∗ Ψ i))
    iintro ⟨⟨H1, HA⟩, H2, HB⟩
    isplitl [H1 H2]
    · isplitl [H1] <;> iassumption
    · iapply ih; isplitl [HA] <;> iassumption

/-! ## The three slot families as a device holds them at its exit -/

/-- The sixteen slots of outgoing chunks, each back at what was sent from it. -/
def sDone (c : Dev nD) : sProp 𝕄 :=
  iprop(((sslot 0).view.loc (c : Thread nD τ) ↦[(sslot 0).view.set]{fullShare} Sb c 0) ∗ ((sslot 1).view.loc (c : Thread nD τ) ↦[(sslot 1).view.set]{fullShare} Sb c 1) ∗ ((sslot 2).view.loc (c : Thread nD τ) ↦[(sslot 2).view.set]{fullShare} Sb c 2) ∗ ((sslot 3).view.loc (c : Thread nD τ) ↦[(sslot 3).view.set]{fullShare} Sb c 3) ∗ ((sslot 4).view.loc (c : Thread nD τ) ↦[(sslot 4).view.set]{fullShare} Sb c 4) ∗ ((sslot 5).view.loc (c : Thread nD τ) ↦[(sslot 5).view.set]{fullShare} Sb c 5) ∗ ((sslot 6).view.loc (c : Thread nD τ) ↦[(sslot 6).view.set]{fullShare} Sb c 6) ∗ ((sslot 7).view.loc (c : Thread nD τ) ↦[(sslot 7).view.set]{fullShare} Sb c 7) ∗ ((sslot 8).view.loc (c : Thread nD τ) ↦[(sslot 8).view.set]{fullShare} Sb c 8) ∗ ((sslot 9).view.loc (c : Thread nD τ) ↦[(sslot 9).view.set]{fullShare} Sb c 9) ∗ ((sslot 10).view.loc (c : Thread nD τ) ↦[(sslot 10).view.set]{fullShare} Sb c 10) ∗ ((sslot 11).view.loc (c : Thread nD τ) ↦[(sslot 11).view.set]{fullShare} Sb c 11) ∗ ((sslot 12).view.loc (c : Thread nD τ) ↦[(sslot 12).view.set]{fullShare} Sb c 12) ∗ ((sslot 13).view.loc (c : Thread nD τ) ↦[(sslot 13).view.set]{fullShare} Sb c 13) ∗ ((sslot 14).view.loc (c : Thread nD τ) ↦[(sslot 14).view.set]{fullShare} Sb c 14) ∗ ((sslot 15).view.loc (c : Thread nD τ) ↦[(sslot 15).view.set]{fullShare} Sb c 15))
/-- The sixteen receive slots of the chunks at what was written: the halves lent to the forwards, -/
def yLeft (c : Dev nD) : sProp 𝕄 :=
  iprop(((yslot 0).view.loc (c : Thread nD τ) ↦[(yslot 0).view.set]{fullShare.left} Yc c 0) ∗ ((yslot 1).view.loc (c : Thread nD τ) ↦[(yslot 1).view.set]{fullShare.left} Yc c 1) ∗ ((yslot 2).view.loc (c : Thread nD τ) ↦[(yslot 2).view.set]{fullShare.left} Yc c 2) ∗ ((yslot 3).view.loc (c : Thread nD τ) ↦[(yslot 3).view.set]{fullShare.left} Yc c 3) ∗ ((yslot 4).view.loc (c : Thread nD τ) ↦[(yslot 4).view.set]{fullShare.left} Yc c 4) ∗ ((yslot 5).view.loc (c : Thread nD τ) ↦[(yslot 5).view.set]{fullShare.left} Yc c 5) ∗ ((yslot 6).view.loc (c : Thread nD τ) ↦[(yslot 6).view.set]{fullShare.left} Yc c 6) ∗ ((yslot 7).view.loc (c : Thread nD τ) ↦[(yslot 7).view.set]{fullShare.left} Yc c 7) ∗ ((yslot 8).view.loc (c : Thread nD τ) ↦[(yslot 8).view.set]{fullShare.left} Yc c 8) ∗ ((yslot 9).view.loc (c : Thread nD τ) ↦[(yslot 9).view.set]{fullShare.left} Yc c 9) ∗ ((yslot 10).view.loc (c : Thread nD τ) ↦[(yslot 10).view.set]{fullShare.left} Yc c 10) ∗ ((yslot 11).view.loc (c : Thread nD τ) ↦[(yslot 11).view.set]{fullShare.left} Yc c 11) ∗ ((yslot 12).view.loc (c : Thread nD τ) ↦[(yslot 12).view.set]{fullShare.left} Yc c 12) ∗ ((yslot 13).view.loc (c : Thread nD τ) ↦[(yslot 13).view.set]{fullShare.left} Yc c 13) ∗ ((yslot 14).view.loc (c : Thread nD τ) ↦[(yslot 14).view.set]{fullShare.left} Yc c 14) ∗ ((yslot 15).view.loc (c : Thread nD τ) ↦[(yslot 15).view.set]{fullShare.left} Yc c 15))
/-- and the halves kept. -/
def yRight (c : Dev nD) : sProp 𝕄 :=
  iprop(((yslot 0).view.loc (c : Thread nD τ) ↦[(yslot 0).view.set]{fullShare.right} Yc c 0) ∗ ((yslot 1).view.loc (c : Thread nD τ) ↦[(yslot 1).view.set]{fullShare.right} Yc c 1) ∗ ((yslot 2).view.loc (c : Thread nD τ) ↦[(yslot 2).view.set]{fullShare.right} Yc c 2) ∗ ((yslot 3).view.loc (c : Thread nD τ) ↦[(yslot 3).view.set]{fullShare.right} Yc c 3) ∗ ((yslot 4).view.loc (c : Thread nD τ) ↦[(yslot 4).view.set]{fullShare.right} Yc c 4) ∗ ((yslot 5).view.loc (c : Thread nD τ) ↦[(yslot 5).view.set]{fullShare.right} Yc c 5) ∗ ((yslot 6).view.loc (c : Thread nD τ) ↦[(yslot 6).view.set]{fullShare.right} Yc c 6) ∗ ((yslot 7).view.loc (c : Thread nD τ) ↦[(yslot 7).view.set]{fullShare.right} Yc c 7) ∗ ((yslot 8).view.loc (c : Thread nD τ) ↦[(yslot 8).view.set]{fullShare.right} Yc c 8) ∗ ((yslot 9).view.loc (c : Thread nD τ) ↦[(yslot 9).view.set]{fullShare.right} Yc c 9) ∗ ((yslot 10).view.loc (c : Thread nD τ) ↦[(yslot 10).view.set]{fullShare.right} Yc c 10) ∗ ((yslot 11).view.loc (c : Thread nD τ) ↦[(yslot 11).view.set]{fullShare.right} Yc c 11) ∗ ((yslot 12).view.loc (c : Thread nD τ) ↦[(yslot 12).view.set]{fullShare.right} Yc c 12) ∗ ((yslot 13).view.loc (c : Thread nD τ) ↦[(yslot 13).view.set]{fullShare.right} Yc c 13) ∗ ((yslot 14).view.loc (c : Thread nD τ) ↦[(yslot 14).view.set]{fullShare.right} Yc c 14) ∗ ((yslot 15).view.loc (c : Thread nD τ) ↦[(yslot 15).view.set]{fullShare.right} Yc c 15))
/-- The sixteen receive slots of the forwards at what was written. -/
def xDone (c : Dev nD) : sProp 𝕄 :=
  iprop(((xslot 0).view.loc (c : Thread nD τ) ↦[(xslot 0).view.set]{fullShare} Xc c 0) ∗ ((xslot 1).view.loc (c : Thread nD τ) ↦[(xslot 1).view.set]{fullShare} Xc c 1) ∗ ((xslot 2).view.loc (c : Thread nD τ) ↦[(xslot 2).view.set]{fullShare} Xc c 2) ∗ ((xslot 3).view.loc (c : Thread nD τ) ↦[(xslot 3).view.set]{fullShare} Xc c 3) ∗ ((xslot 4).view.loc (c : Thread nD τ) ↦[(xslot 4).view.set]{fullShare} Xc c 4) ∗ ((xslot 5).view.loc (c : Thread nD τ) ↦[(xslot 5).view.set]{fullShare} Xc c 5) ∗ ((xslot 6).view.loc (c : Thread nD τ) ↦[(xslot 6).view.set]{fullShare} Xc c 6) ∗ ((xslot 7).view.loc (c : Thread nD τ) ↦[(xslot 7).view.set]{fullShare} Xc c 7) ∗ ((xslot 8).view.loc (c : Thread nD τ) ↦[(xslot 8).view.set]{fullShare} Xc c 8) ∗ ((xslot 9).view.loc (c : Thread nD τ) ↦[(xslot 9).view.set]{fullShare} Xc c 9) ∗ ((xslot 10).view.loc (c : Thread nD τ) ↦[(xslot 10).view.set]{fullShare} Xc c 10) ∗ ((xslot 11).view.loc (c : Thread nD τ) ↦[(xslot 11).view.set]{fullShare} Xc c 11) ∗ ((xslot 12).view.loc (c : Thread nD τ) ↦[(xslot 12).view.set]{fullShare} Xc c 12) ∗ ((xslot 13).view.loc (c : Thread nD τ) ↦[(xslot 13).view.set]{fullShare} Xc c 13) ∗ ((xslot 14).view.loc (c : Thread nD τ) ↦[(xslot 14).view.set]{fullShare} Xc c 14) ∗ ((xslot 15).view.loc (c : Thread nD τ) ↦[(xslot 15).view.set]{fullShare} Xc c 15))

theorem sDone_join (c : Dev nD) : sDone Sb c ⊢ iprop(∃ f, ((c : Thread nD τ).loc cc0_scratch2) ↦{fullShare} f) :=
  (show sDone Sb c ⊢ bigSepL f16 (fun j => iprop(∃ f, (sslot j).view.loc (c : Thread nD τ) ↦[(sslot j).view.set]{fullShare} f)) from
    bigSepL_mono (Φ := fun j => ((sslot j).view.loc (c : Thread nD τ) ↦[(sslot j).view.set]{fullShare} Sb c j : sProp 𝕄)) f16 fun j => by
      iintro H; iexists (Sb c j); iexact H).trans (sslots_join (F := F) c)

theorem xDone_join (c : Dev nD) : xDone Xc c ⊢ iprop(∃ f, ((c : Thread nD τ).loc cc0_scratch4) ↦{fullShare} f) :=
  (show xDone Xc c ⊢ bigSepL f16 (fun j => iprop(∃ f, (xslot j).view.loc (c : Thread nD τ) ↦[(xslot j).view.set]{fullShare} f)) from
    bigSepL_mono (Φ := fun j => ((xslot j).view.loc (c : Thread nD τ) ↦[(xslot j).view.set]{fullShare} Xc c j : sProp 𝕄)) f16 fun j => by
      iintro H; iexists (Xc c j); iexact H).trans (xslots_join (F := F) c)

/-- The two halves of each receive slot of the chunks join to the slot at the full share; the sixteen glue into the buffer. -/
theorem yDone_join (c : Dev nD) : iprop(yLeft Yc c ∗ yRight Yc c) ⊢ iprop(∃ f, ((c : Thread nD τ).loc cc0_scratch3) ↦{fullShare} f) :=
  ((show iprop(yLeft Yc c ∗ yRight Yc c)
      ⊢ bigSepL f16 (fun j => iprop(((yslot j).view.loc (c : Thread nD τ) ↦[(yslot j).view.set]{fullShare.left} Yc c j)
          ∗ ((yslot j).view.loc (c : Thread nD τ) ↦[(yslot j).view.set]{fullShare.right} Yc c j))) from
    bigSepL_zip (Φ := fun j => ((yslot j).view.loc (c : Thread nD τ) ↦[(yslot j).view.set]{fullShare.left} Yc c j : sProp 𝕄))
      (Ψ := fun j => ((yslot j).view.loc (c : Thread nD τ) ↦[(yslot j).view.set]{fullShare.right} Yc c j : sProp 𝕄)) f16).trans
    (show _ ⊢ bigSepL f16 (fun j => iprop(∃ f, (yslot j).view.loc (c : Thread nD τ) ↦[(yslot j).view.set]{fullShare} f)) from
      bigSepL_mono f16 fun j => by
        iintro ⟨Hl, Hr⟩
        iexists (Yc c j)
        iapply (pointsTo_share (PosShare.mem_left_op_right fullShare)).2
        isplitl [Hl] <;> iassumption)).trans (yslots_join (F := F) c)

/-! ## The exit -/

/-- From what a device holds after its last wait to what its body must end with. The premise, in order: the invariants of its own cells;
    the positions of the sixty-four transfer cells past their round; the local semaphores at zero; nothing owed, at any recorded waits; the
    staged first argument; the second argument as launched; the result at contents the predicate holds of; the two scratch buffers the exchange does not touch, at
    any contents; the outgoing slots; the lent halves of the chunks' receive slots; the kept halves; the forwards' receive slots. -/
theorem body_exit (K : Dev nD × Option (Fin 4 × Fin 16) → ℕ) (c : Dev nD) (W : Waits sig Unit)
    (f3 : Buf (Elt F) ((c : Thread nD τ).loc cc0_scratch0)) (f4 : Buf (Elt F) ((c : Thread nD τ).loc cc0_scratch1))
    (o : Buf (Elt F) ((c : Thread nD τ).loc main_v1)) (hP : OutP c o) :
    iprop(invsOwn Sb Yc Xc K c ∗ posDone c ∗ locals0 c ∗ owes (c : Thread nD τ) (0 : CellTallies nD τ sig Unit) W
        ∗ ((Memref.whole cc0_stg0_0 : Memref sig .tc .vmem S1024x1024 .f32).view.loc (c : Thread nD τ) ↦{fullShare} xstg m c)
        ∗ ((Memref.whole main_arg1 : Memref sig .tc .hbm S1024x4096 .f32).view.loc (c : Thread nD τ) ↦{fullShare} m ((c : Thread nD τ).loc main_arg1))
        ∗ ((Memref.whole main_v1 : Memref sig .tc .hbm S512x4096 .f32).view.loc (c : Thread nD τ) ↦{fullShare} o)
        ∗ ((Memref.whole cc0_scratch0 : Memref sig .tc .vmem S1024x4096 .f32).view.loc (c : Thread nD τ) ↦{fullShare} f3)
        ∗ ((Memref.whole cc0_scratch1 : Memref sig .tc .vmem S512x4096 .f32).view.loc (c : Thread nD τ) ↦{fullShare} f4)
        ∗ sDone Sb c ∗ yLeft Yc c ∗ yRight Yc c ∗ xDone Xc c)
      ⊢ |={Set.univ}=> bodyPost m Sb Yc Xc OutP c := by
  iintro ⟨#HI, Hpos, Hloc, HO, Hx, Ha1, Hv1, H3, H4, HS, HYl, HYr, HX⟩
  imod (xfers_close Sb Yc Xc K c) $$ [Hpos] with Hxf
  · isplitr; · iexact HI
    iexact Hpos
  ihave H5 := (sDone_join Sb c) $$ HS
  ihave H6 := (yDone_join Yc c) $$ [HYl HYr]
  · isplitl [HYl] <;> iassumption
  ihave H7 := (xDone_join Xc c) $$ HX
  imodintro
  unfold bodyPost Φ₁ scratch hbm
  isplitl [Hloc Hxf H3 H4 H5 H6 H7 Ha1 Hv1]
  · isplitl [Hloc]; · iexact Hloc
    isplitl [Hxf]; · iexact Hxf
    isplitl [H3 H4 H5 H6 H7]
    · isplitl [H3]; · iexists f3; iexact H3
      isplitl [H4]; · iexists f4; iexact H4
      isplitl [H5]; · iexact H5
      isplitl [H6]; · iexact H6
      iexact H7
    iexists o
    isplitr; · ipureintro; exact hP
    isplitl [Ha1]; · iexact Ha1
    iexact Hv1
  isplitl [HO]
  · unfold Dat.owesAt Pipeline.owesWithin
    rw [show (dats m Sb Yc Xc OutP 0 c).owed t₀.succ = 0 from rfl]
    iexists W
    isplitr; · ipureintro; exact fun _ _ => Or.inl trivial
    iexact HO
  · iexists _; isplitr; · (ipureintro; rfl)
    iexact Hx

/-- info: 'Cert.KernelIdeal.Hand.body_exit' depends on axioms: [propext, Classical.choice, Quot.sound] -/
#guard_msgs in #print axioms body_exit

end Cert.KernelIdeal.Hand

end
-- ==== Proof.RulesSend.lean ====
import proofs.«901046_g7700000000001047_dist_rsdw_v7x_xy2x2_y_m1024_d1024_f4096_f32_1_alg».proof.Proof.Gen.KernelIdeal
import proofs.«901046_g7700000000001047_dist_rsdw_v7x_xy2x2_y_m1024_d1024_f4096_f32_1_alg».proof.Proof.Gen.KernelIdeal.Skeleton
import proofs.«901046_g7700000000001047_dist_rsdw_v7x_xy2x2_y_m1024_d1024_f4096_f32_1_alg».proof.Proof.Gen.KernelIdeal.Launch
import proofs.«901046_g7700000000001047_dist_rsdw_v7x_xy2x2_y_m1024_d1024_f4096_f32_1_alg».proof.Proof.Gen.KernelIdeal.Points
import proofs.«901046_g7700000000001047_dist_rsdw_v7x_xy2x2_y_m1024_d1024_f4096_f32_1_alg».proof.Proof.Proto
import proofs.«901046_g7700000000001047_dist_rsdw_v7x_xy2x2_y_m1024_d1024_f4096_f32_1_alg».proof.Proof.Ledger
import proofs.«901046_g7700000000001047_dist_rsdw_v7x_xy2x2_y_m1024_d1024_f4096_f32_1_alg».proof.Proof.BodyEnds
import Idealize.ShloMosaic.Lib.Pipeline.Launch
import Idealize.ShloMosaic.Lib.Pipeline.Kit
import Idealize.ShloMosaic.Lib.Tactic

/-! The remote steps of a device's body, each as one rule over the device's own holdings.

A signal to a neighbour's barrier cell pays one of that cell's two duties and hands over the device's whole receive buffer for the
neighbour to write, slot by slot, with the fact that the slots' receive cells are at round 0. A chunk's transfer pays two duties at once:
the duty of the sender's own send cell, whose payload is the source slot, given back when the cell is waited on, and the duty of the
neighbour's receive cell, whose payload is the destination slot at the contents the transfer lands. The rules project the invariants and
the round facts of the cells concerned out of the device's chains, and leave of what the device owes the summand just paid. -/

set_option maxRecDepth 16384

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (Sb : (c : Dev nD) → (j : Fin 16) → Buf (Elt F) ((sslot j).view.loc (c : Thread nD τ)))
variable (Yc : (c : Dev nD) → (j : Fin 16) → Buf (Elt F) ((yslot j).view.loc (c : Thread nD τ)))
variable (Xc : (c : Dev nD) → (j : Fin 16) → Buf (Elt F) ((xslot j).view.loc (c : Thread nD τ)))

/-! ## One conjunct out of a chain -/

omit [FloatOps F] in
/-- A listed chain gives any one of its members. -/
theorem bigSepL_elim {I : Type} (l : List I) (Φ : I → sProp 𝕄) (i : I) (h : i ∈ l) : bigSepL l Φ ⊢ Φ i := by
  induction l with
  | nil => cases h
  | cons a l ih =>
    rw [bigSepL_cons]
    rcases List.mem_cons.mp h with rfl | h'
    · exact BI.sep_and.trans BI.and_elimL
    · exact (BI.sep_and.trans BI.and_elimR).trans (ih h')

abbrev f16 : List (Fin 16) := [0, 1, 2, 3, 4, 5, 6, 7, 8, 9, 10, 11, 12, 13, 14, 15]
theorem mem_f16 (j : Fin 16) : j ∈ f16 := by fin_cases j <;> decide

/-- The cells of its neighbours a device pays into, in the order their invariants are listed. -/
abbrev peerL (c : Dev nD) : List (Dev nD × Option (Fin 4 × Fin 16)) :=
  [(ynb c, none), (xnb c, none)] ++ f16.map (fun j => (ynb c, some ((1 : Fin 4), j))) ++ f16.map (fun j => (xnb c, some ((3 : Fin 4), j)))

omit [FloatOps F] in
theorem invsPeer_at (K : Dev nD × Option (Fin 4 × Fin 16) → ℕ) (c : Dev nD) (ck : Dev nD × Option (Fin 4 × Fin 16)) (h : ck ∈ peerL c) :
    invsPeer Sb Yc Xc K c ⊢ cellInv ER (xRd Sb Yc Xc) (K ck) (kcell ck) := by
  show bigSepL (peerL c) (fun ck => cellInv ER (xRd Sb Yc Xc) (K ck) (kcell ck)) ⊢ _
  exact bigSepL_elim _ _ ck h

omit [FloatOps F] in
theorem invsPeer_bar_y (K : Dev nD × Option (Fin 4 × Fin 16) → ℕ) (c : Dev nD) :
    invsPeer Sb Yc Xc K c ⊢ cellInv ER (xRd Sb Yc Xc) (K (ynb c, none)) (barCell (ynb c)) :=
  invsPeer_at Sb Yc Xc K c (ynb c, none) (by simp [peerL])
omit [FloatOps F] in
theorem invsPeer_bar_x (K : Dev nD × Option (Fin 4 × Fin 16) → ℕ) (c : Dev nD) :
    invsPeer Sb Yc Xc K c ⊢ cellInv ER (xRd Sb Yc Xc) (K (xnb c, none)) (barCell (xnb c)) :=
  invsPeer_at Sb Yc Xc K c (xnb c, none) (by simp [peerL])
omit [FloatOps F] in
theorem invsPeer_yrecv (K : Dev nD × Option (Fin 4 × Fin 16) → ℕ) (c : Dev nD) (j : Fin 16) :
    invsPeer Sb Yc Xc K c ⊢ cellInv ER (xRd Sb Yc Xc) (K (ynb c, some (1, j))) (yrecvCell (ynb c) j) :=
  invsPeer_at Sb Yc Xc K c (ynb c, some (1, j))
    (List.mem_append_left _ (List.mem_append_right _ (List.mem_map.mpr ⟨j, mem_f16 j, rfl⟩)))
omit [FloatOps F] in
theorem invsPeer_xrecv (K : Dev nD × Option (Fin 4 × Fin 16) → ℕ) (c : Dev nD) (j : Fin 16) :
    invsPeer Sb Yc Xc K c ⊢ cellInv ER (xRd Sb Yc Xc) (K (xnb c, some (3, j))) (xrecvCell (xnb c) j) :=
  invsPeer_at Sb Yc Xc K c (xnb c, some (3, j)) (List.mem_append_right _ (List.mem_map.mpr ⟨j, mem_f16 j, rfl⟩))

/-- The cells a device knows to be at round 0, in the order the facts are listed. -/
abbrev reachL (c : Dev nD) : List (GSem nD τ sig) :=
  [barCell (ynb c), barCell (xnb c)] ++ f16.map (fun j => yrecvCell (ynb c) j) ++ f16.map (fun j => xrecvCell (xnb c) j)
    ++ f16.map (fun j => ysendCell c j) ++ f16.map (fun j => yrecvCell c j) ++ f16.map (fun j => fsendCell c j) ++ f16.map (fun j => xrecvCell c j)

theorem reachedAll_at (c : Dev nD) (g : GSem nD τ sig) (h : g ∈ reachL c) : (reachedAll c : sProp 𝕄) ⊢ reached ER g 0 := by
  show bigSepL (reachL c) (fun g => reached ER g 0) ⊢ _
  exact bigSepL_elim _ _ g h

theorem reached_bar_y (c : Dev nD) : (reachedAll c : sProp 𝕄) ⊢ reached ER (barCell (ynb c)) 0 := reachedAll_at c _ (by simp [reachL])
theorem reached_bar_x (c : Dev nD) : (reachedAll c : sProp 𝕄) ⊢ reached ER (barCell (xnb c)) 0 := reachedAll_at c _ (by simp [reachL])
theorem reached_yrecv_peer (c : Dev nD) (j : Fin 16) : (reachedAll c : sProp 𝕄) ⊢ reached ER (yrecvCell (ynb c) j) 0 :=
  reachedAll_at c _ (List.mem_append_left _ (List.mem_append_left _ (List.mem_append_left _ (List.mem_append_left _ (List.mem_append_left _
    (List.mem_append_right _ (List.mem_map.mpr ⟨j, mem_f16 j, rfl⟩)))))))
theorem reached_xrecv_peer (c : Dev nD) (j : Fin 16) : (reachedAll c : sProp 𝕄) ⊢ reached ER (xrecvCell (xnb c) j) 0 :=
  reachedAll_at c _ (List.mem_append_left _ (List.mem_append_left _ (List.mem_append_left _ (List.mem_append_left _
    (List.mem_append_right _ (List.mem_map.mpr ⟨j, mem_f16 j, rfl⟩))))))
theorem reached_ysend (c : Dev nD) (j : Fin 16) : (reachedAll c : sProp 𝕄) ⊢ reached ER (ysendCell c j) 0 :=
  reachedAll_at c _ (List.mem_append_left _ (List.mem_append_left _ (List.mem_append_left _
    (List.mem_append_right _ (List.mem_map.mpr ⟨j, mem_f16 j, rfl⟩)))))
theorem reached_yrecv (c : Dev nD) (j : Fin 16) : (reachedAll c : sProp 𝕄) ⊢ reached ER (yrecvCell c j) 0 :=
  reachedAll_at c _ (List.mem_append_left _ (List.mem_append_left _ (List.mem_append_right _ (List.mem_map.mpr ⟨j, mem_f16 j, rfl⟩))))
theorem reached_fsend (c : Dev nD) (j : Fin 16) : (reachedAll c : sProp 𝕄) ⊢ reached ER (fsendCell c j) 0 :=
  reachedAll_at c _ (List.mem_append_left _ (List.mem_append_right _ (List.mem_map.mpr ⟨j, mem_f16 j, rfl⟩)))
theorem reached_xrecv (c : Dev nD) (j : Fin 16) : (reachedAll c : sProp 𝕄) ⊢ reached ER (xrecvCell c j) 0 :=
  reachedAll_at c _ (List.mem_append_right _ (List.mem_map.mpr ⟨j, mem_f16 j, rfl⟩))

/-! ## A slot held whole is its two halves -/

theorem yslot_halves (c : Dev nD) (j : Fin 16) (f : Buf (Elt F) ((yslot j).view.loc (c : Thread nD τ))) :
    ((yslot j).view.loc (c : Thread nD τ) ↦[(yslot j).view.set]{fullShare} f : sProp 𝕄)
      ⊣⊢ iprop(((yslot j).view.loc (c : Thread nD τ) ↦[(yslot j).view.set]{fullShare.left} f)
          ∗ ((yslot j).view.loc (c : Thread nD τ) ↦[(yslot j).view.set]{fullShare.right} f)) :=
  pointsTo_share (PosShare.mem_left_op_right _)

/-- Every slot's transfer is credited one chunk. -/
theorem yslot_credit (j : Fin 16) : (yslot j).view.dmaCredit = N := by fin_cases j <;> rfl
theorem xslot_credit (j : Fin 16) : (xslot j).view.dmaCredit = N := by fin_cases j <;> rfl

/-! ## A chunk's transfer, and a forward -/

/-- The transfer of chunk `j` to the neighbour along the second axis: from the device's outgoing slot, whose contents are those the
    schedule names, into the neighbour's slot, which the device holds since the neighbour's barrier signal and which ends at the
    contents the schedule names. It pays the duty of the device's own send cell and that of the neighbour's receive cell. -/
theorem wp_send_y (K : Dev nD × Option (Fin 4 × Fin 16) → ℕ) (c n : Dev nD) (hn : n = ynb c) (j : Fin 16)
    {hsc : (yslot j : Memref sig (Dev.tc n : Thread nD τ).2.kind .vmem S512x128 .bf16).view.ref.isScScratch = false}
    {hsrc : (sslot j : Memref sig .tc .vmem S512x128 .bf16).view.WordExact} {hdst : (yslot j : Memref sig .tc .vmem S512x128 .bf16).view.WordExact}
    {hsem : DmaTarget.Typed .vmem (.dma (yrecvS j)) (.remote (Dev.tc n : Thread nD τ) (yslot j : Memref sig .tc .vmem S512x128 .bf16) (.dma (ysendS j)) hsc)}
    {α : Type} {Q : α → sProp 𝕄} {k : PUnit → Prog (TpuEff nD τ sig (Elt F) Λ₀ .tc) α}
    (fs : Buf (Elt F) ((sslot j).view.loc (c : Thread nD τ))) (fd : Buf (Elt F) ((yslot j).view.loc (ynb c : Thread nD τ)))
    (O : CellTallies nD τ sig Unit) (W : Waits sig Unit)
    (hs : ∀ i ∈ (sslot j).view.set, fs i = Sb c j i)
    (hd : ∀ i ∈ (yslot j).view.set, (yslot j).view.write (Elt F) fd ((sslot j).view.read (Elt F) fs) Finset.univ i = Yc (ynb c) j i) :
    iprop(invsOwn Sb Yc Xc K c ∗ invsPeer Sb Yc Xc K c ∗ reachedAll c
        ∗ ((sslot j).view.loc (c : Thread nD τ) ↦[(sslot j).view.set]{fullShare} fs)
        ∗ ((yslot j).view.loc (ynb c : Thread nD τ) ↦[(yslot j).view.set]{fullShare} fd)
        ∗ owes (c : Thread nD τ) (O + tallyAt (yrecvCell (ynb c) j) () N) W
        ∗ dutyTok ER (ysendCell c j) 0 false ∗ dutyTok ER (yrecvCell (ynb c) j) 0 false)
      ⊢ iprop(((cred (tallyAt (ysendCell c j) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sslot j) (.remote (Dev.tc n : Thread nD τ) (yslot j) (.dma (ysendS j)) hsc) (.dma (yrecvS j)) hsrc hdst hsem) k) Q) := by
  subst hn
  iintro ⟨HIo, HIp, #HR, Hsrc, Hdst, HO, Ht1, Ht2⟩
  iapply (Rounds.wp_send_pointsTo 𝒱₀ ER (xRd Sb Yc Xc) (c : Thread nD τ) none (κ₁ := K (c, some (0, j))) (κ₂ := K (ynb c, some (1, j)))
      (r₁ := 0) (r₂ := 0) (d₁ := false) (d₂ := false) (fd := fd) (sS := SemLoc.dma (ysendS j)) (sem := SemLoc.dma (yrecvS j))
      (by rw [duties_ysend]; exact Finset.mem_singleton_self _) (by rw [duties_yrecv]; exact Finset.mem_singleton_self _)
      () () N (yslot_credit j) (amount_ysend Sb Yc Xc c j false) (amount_yrecv Sb Yc Xc (ynb c) j false) O rfl (W := W)
      (by rw [payload_ysend, slot_congr (sslot j) c hs])
      (by rw [payload_yrecv, slot_congr (yslot j) (ynb c) hd]))
  isplitl [HIo]; · iapply (invsOwn_at Sb Yc Xc K c (some (0, j))); iexact HIo
  isplitl [HIp]; · iapply (invsPeer_yrecv Sb Yc Xc K c j); iexact HIp
  isplitl [Hsrc]; · iexact Hsrc
  isplitl [Hdst]; · iexact Hdst
  isplitl [HO]; · iexact HO
  isplitl [Ht1]; · iexact Ht1
  isplitr; · iapply (reached_ysend c j); iexact HR
  isplitl [Ht2]; · iexact Ht2
  iapply (reached_yrecv_peer c j); iexact HR

/-- The forward of chunk `j` to the neighbour along the first axis: from the device's slot of received chunks, lent at half share (the
    device keeps the other half to read), into that neighbour's slot of forwards. -/
theorem wp_send_f (K : Dev nD × Option (Fin 4 × Fin 16) → ℕ) (c n : Dev nD) (hn : n = xnb c) (j : Fin 16)
    {hsc : (xslot j : Memref sig (Dev.tc n : Thread nD τ).2.kind .vmem S512x128 .bf16).view.ref.isScScratch = false}
    {hsrc : (yslot j : Memref sig .tc .vmem S512x128 .bf16).view.WordExact} {hdst : (xslot j : Memref sig .tc .vmem S512x128 .bf16).view.WordExact}
    {hsem : DmaTarget.Typed .vmem (.dma (xrecvS j)) (.remote (Dev.tc n : Thread nD τ) (xslot j : Memref sig .tc .vmem S512x128 .bf16) (.dma (fsendS j)) hsc)}
    {α : Type} {Q : α → sProp 𝕄} {k : PUnit → Prog (TpuEff nD τ sig (Elt F) Λ₀ .tc) α}
    (fs : Buf (Elt F) ((yslot j).view.loc (c : Thread nD τ))) (fd : Buf (Elt F) ((xslot j).view.loc (xnb c : Thread nD τ)))
    (O : CellTallies nD τ sig Unit) (W : Waits sig Unit)
    (hs : ∀ i ∈ (yslot j).view.set, fs i = Yc c j i)
    (hd : ∀ i ∈ (xslot j).view.set, (xslot j).view.write (Elt F) fd ((yslot j).view.read (Elt F) fs) Finset.univ i = Xc (xnb c) j i) :
    iprop(invsOwn Sb Yc Xc K c ∗ invsPeer Sb Yc Xc K c ∗ reachedAll c
        ∗ ((yslot j).view.loc (c : Thread nD τ) ↦[(yslot j).view.set]{fullShare.left} fs)
        ∗ ((xslot j).view.loc (xnb c : Thread nD τ) ↦[(xslot j).view.set]{fullShare} fd)
        ∗ owes (c : Thread nD τ) (O + tallyAt (xrecvCell (xnb c) j) () N) W
        ∗ dutyTok ER (fsendCell c j) 0 false ∗ dutyTok ER (xrecvCell (xnb c) j) 0 false)
      ⊢ iprop(((cred (tallyAt (fsendCell c j) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (yslot j) (.remote (Dev.tc n : Thread nD τ) (xslot j) (.dma (fsendS j)) hsc) (.dma (xrecvS j)) hsrc hdst hsem) k) Q) := by
  subst hn
  iintro ⟨HIo, HIp, #HR, Hsrc, Hdst, HO, Ht1, Ht2⟩
  iapply (Rounds.wp_send_pointsTo 𝒱₀ ER (xRd Sb Yc Xc) (c : Thread nD τ) none (κ₁ := K (c, some (2, j))) (κ₂ := K (xnb c, some (3, j)))
      (r₁ := 0) (r₂ := 0) (d₁ := false) (d₂ := false) (fd := fd) (sS := SemLoc.dma (fsendS j)) (sem := SemLoc.dma (xrecvS j))
      (by rw [duties_fsend]; exact Finset.mem_singleton_self _) (by rw [duties_xrecv]; exact Finset.mem_singleton_self _)
      () () N (xslot_credit j) (amount_fsend Sb Yc Xc c j false) (amount_xrecv Sb Yc Xc (xnb c) j false) O rfl (W := W)
      (by rw [payload_fsend, slot_congr (yslot j) c hs])
      (by rw [payload_xrecv, slot_congr (xslot j) (xnb c) hd]))
  isplitl [HIo]; · iapply (invsOwn_at Sb Yc Xc K c (some (2, j))); iexact HIo
  isplitl [HIp]; · iapply (invsPeer_xrecv Sb Yc Xc K c j); iexact HIp
  isplitl [Hsrc]; · iexact Hsrc
  isplitl [Hdst]; · iexact Hdst
  isplitl [HO]; · iexact HO
  isplitl [Ht1]; · iexact Ht1
  isplitr; · iapply (reached_fsend c j); iexact HR
  isplitl [Ht2]; · iexact Ht2
  iapply (reached_xrecv_peer c j); iexact HR

end Cert.KernelIdeal.Hand

end
-- ==== Proof.RulesWait.lean ====
import proofs.«901046_g7700000000001047_dist_rsdw_v7x_xy2x2_y_m1024_d1024_f4096_f32_1_alg».proof.Proof.Gen.KernelIdeal
import proofs.«901046_g7700000000001047_dist_rsdw_v7x_xy2x2_y_m1024_d1024_f4096_f32_1_alg».proof.Proof.Gen.KernelIdeal.Skeleton
import proofs.«901046_g7700000000001047_dist_rsdw_v7x_xy2x2_y_m1024_d1024_f4096_f32_1_alg».proof.Proof.Gen.KernelIdeal.Launch
import proofs.«901046_g7700000000001047_dist_rsdw_v7x_xy2x2_y_m1024_d1024_f4096_f32_1_alg».proof.Proof.Gen.KernelIdeal.Points
import proofs.«901046_g7700000000001047_dist_rsdw_v7x_xy2x2_y_m1024_d1024_f4096_f32_1_alg».proof.Proof.Proto
import proofs.«901046_g7700000000001047_dist_rsdw_v7x_xy2x2_y_m1024_d1024_f4096_f32_1_alg».proof.Proof.Ledger
import proofs.«901046_g7700000000001047_dist_rsdw_v7x_xy2x2_y_m1024_d1024_f4096_f32_1_alg».proof.Proof.BodyEnds
import Idealize.ShloMosaic.Lib.Pipeline.Launch
import Idealize.ShloMosaic.Lib.Pipeline.Kit
import Idealize.ShloMosaic.Lib.Tactic

/-! The waits of a device's body, each as one rule with a small precondition and postcondition.

A device waits on its own cells only. Each of its sixty-five cells has one round, and each wait is for the whole of it: the barrier
wait, for the two units its two neighbours signal, hands the device the two neighbours' receive buffers; the wait on a receive cell,
for one chunk's credit, hands it the slot just written, at the contents the schedule names; the wait on a send cell, for the credit
its own transfer raised, hands the source slot back. After the wait the cell's owner stands at the next round, which has no duty.
The device may wait because everything it still owes lies above the cell it waits on. -/

set_option maxRecDepth 16384

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (Sb : (c : Dev nD) → (j : Fin 16) → Buf (Elt F) ((sslot j).view.loc (c : Thread nD τ)))
variable (Yc : (c : Dev nD) → (j : Fin 16) → Buf (Elt F) ((yslot j).view.loc (c : Thread nD τ)))
variable (Xc : (c : Dev nD) → (j : Fin 16) → Buf (Elt F) ((xslot j).view.loc (c : Thread nD τ)))

/-! ## The barrier wait -/

omit [FloatOps F] in
/-- What the barrier cell's one round hands over: the two neighbours' receive buffers, whole, at some contents. -/
theorem rest_bar (c : Dev nD) :
    bigSep ((xRd (F := F) Sb Yc Xc).duties (barCell c) 0 \ ∅) (fun d => (xRd (F := F) Sb Yc Xc).payload (barCell c) 0 d)
      = (iprop((∃ f, (Memref.whole cc0_scratch3 : Memref sig .tc .vmem S16x512x128 .bf16).view.loc ((ynb c) : Thread nD τ) ↦{fullShare} f)
          ∗ (∃ f, (Memref.whole cc0_scratch4 : Memref sig .tc .vmem S16x512x128 .bf16).view.loc ((xnb c) : Thread nD τ) ↦{fullShare} f)) : sProp 𝕄) := by
  rw [Finset.sdiff_empty, duties_bar, show (Finset.univ : Finset Bool) = insert false {true} from by decide,
    bigSep_insert (by decide), bigSep_singleton, payload_bar_false, payload_bar_true]
  rfl

/-- The wait of two units on the device's own barrier cell. -/
theorem wp_wait_bar (K : Dev nD × Option (Fin 4 × Fin 16) → ℕ) (c : Dev nD) {α : Type} {Q : α → sProp 𝕄}
    {k : PUnit → Prog (TpuEff nD τ sig (Elt F) Λ₀ (c : Thread nD τ).2) α}
    (O : CellTallies nD τ sig Unit) (W : Waits sig Unit) (hO : Below c (.reg barS) O) :
    (iprop(invsOwn Sb Yc Xc K c ∗ levAts L lv ∗ cred (tallyAt (barCell c) () 2) ∗ owes (c : Thread nD τ) O W ∗ atPos ER (barCell c) 0 ∅ 0) : sProp 𝕄)
      ⊢ iprop(((owes (c : Thread nD τ) O (insert (SemLoc.reg barS, ()) W) ∗ atPos ER (barCell c) (0 + 1) ∅ 0
            ∗ (∃ f, (Memref.whole cc0_scratch3 : Memref sig .tc .vmem S16x512x128 .bf16).view.loc ((ynb c) : Thread nD τ) ↦{fullShare} f)
            ∗ (∃ f, (Memref.whole cc0_scratch4 : Memref sig .tc .vmem S16x512x128 .bf16).view.loc ((xnb c) : Thread nD τ) ↦{fullShare} f))
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS 2) k) Q) := by
  iintro ⟨#HI, #Hlev, Hcr, HO, Hat⟩ Hk
  ihave H := (Rounds.wp_wait_rest_token 𝒱₀ ER (xRd Sb Yc Xc) (c : Thread nD τ) none (κ := K (c, none))
      (defs := defs₀ (F := F)) (Γ := .empty) (w := .semWait barS 2) (sm := .reg barS) (k' := 2) (Es := Set.univ)
      (wpE_semWait_eq 𝒱₀ (c : Thread nD τ) none Set.univ) (Set.mem_univ _) () (O := O) (W := W) (R := 0) (m := 0) (T := ∅)
      (k := k) (Q := Q) (by rw [expect_bar Sb Yc Xc c])) $$ [Hcr HO Hat]
  · isplitr
    · iapply (invsOwn_at Sb Yc Xc K c none); iexact HI
    isplitl [Hcr]; · iexact Hcr
    isplitl [HO]; · iexact HO
    isplitr
    · iapply (mayWait_below c _ O hO); iexact Hlev
    iexact Hat
  iapply H
  rw [rest_bar]
  iintro ⟨HO, Hat, -, Hpay⟩
  iapply Hk
  isplitl [HO]; · iexact HO
  isplitl [Hat]; · iexact Hat
  iexact Hpay

/-! ## The four waits on transfer cells

The wait names a destination memref whose credit is one chunk's; its source does not matter. -/

/-- The wait on the receive cell of chunk `j`: the slot the neighbour along the second axis wrote, at its contents. -/
theorem wp_wait_yrecv (K : Dev nD × Option (Fin 4 × Fin 16) → ℕ) (c : Dev nD) (j : Fin 16) {α : Type} {Q : α → sProp 𝕄}
    {k : PUnit → Prog (TpuEff nD τ sig (Elt F) Λ₀ (c : Thread nD τ).2) α}
    {sp sp' : Space} {s s' : Shape} {e e' : EltTy} {src : Memref sig (c : Thread nD τ).2.kind sp' s' e'} {κ' : Kind} {dst : Memref sig κ' sp s e}
    {hsrc : src.view.WordExact} {hdst : dst.view.WordExact} (hcr : dst.view.dmaCredit = N)
    (O : CellTallies nD τ sig Unit) (W : Waits sig Unit) (hO : Below c (.dma (yrecvS j)) O) :
    (iprop(invsOwn Sb Yc Xc K c ∗ levAts L lv ∗ cred (tallyAt (yrecvCell c j) () N) ∗ owes (c : Thread nD τ) O W ∗ atPos ER (yrecvCell c j) 0 ∅ 0) : sProp 𝕄)
      ⊢ iprop(((owes (c : Thread nD τ) O (insert (SemLoc.dma (yrecvS j), ()) W) ∗ atPos ER (yrecvCell c j) (0 + 1) ∅ 0
            ∗ ((yslot j).view.loc (c : Thread nD τ) ↦[(yslot j).view.set]{fullShare} Yc c j))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (yrecvS j) src dst hsrc hdst) k) Q) := by
  have hc : (cred (tallyAt (yrecvCell c j) () N) : sProp 𝕄) = cred (tallyAt (yrecvCell c j) () dst.view.dmaCredit) := by rw [hcr]
  rw [hc]
  iintro ⟨#HI, #Hlev, Hcr, HO, Hat⟩ Hk
  ihave H := (Rounds.wp_wait_rest_token 𝒱₀ ER (xRd Sb Yc Xc) (c : Thread nD τ) none (κ := K (c, some (1, j)))
      (defs := defs₀ (F := F)) (Γ := .empty) (w := .waitDma2 (yrecvS j) src dst hsrc hdst) (sm := .dma (yrecvS j)) (k' := dst.view.dmaCredit) (Es := Set.univ)
      (wpE_waitDma2_eq 𝒱₀ (c : Thread nD τ) none Set.univ (src := src) (dst := dst) (hsrc := hsrc) (hdst := hdst)) (Set.mem_univ _) ()
      (O := O) (W := W) (R := 0) (m := 0) (T := ∅) (k := k) (Q := Q) (by rw [expect_yrecv Sb Yc Xc c j, hcr, Nat.zero_add])) $$ [Hcr HO Hat]
  · isplitr
    · iapply (invsOwn_at Sb Yc Xc K c (some (1, j))); iexact HI
    isplitl [Hcr]; · iexact Hcr
    isplitl [HO]; · iexact HO
    isplitr
    · iapply (mayWait_below c _ O hO); iexact Hlev
    iexact Hat
  iapply H
  rw [rest_yrecv]
  iintro ⟨HO, Hat, -, Hpay⟩
  iapply Hk
  isplitl [HO]; · iexact HO
  isplitl [Hat]; · iexact Hat
  iexact Hpay

/-- The wait on the receive cell of forward `j`: the slot the neighbour along the first axis wrote, at its contents. -/
theorem wp_wait_xrecv (K : Dev nD × Option (Fin 4 × Fin 16) → ℕ) (c : Dev nD) (j : Fin 16) {α : Type} {Q : α → sProp 𝕄}
    {k : PUnit → Prog (TpuEff nD τ sig (Elt F) Λ₀ (c : Thread nD τ).2) α}
    {sp sp' : Space} {s s' : Shape} {e e' : EltTy} {src : Memref sig (c : Thread nD τ).2.kind sp' s' e'} {κ' : Kind} {dst : Memref sig κ' sp s e}
    {hsrc : src.view.WordExact} {hdst : dst.view.WordExact} (hcr : dst.view.dmaCredit = N)
    (O : CellTallies nD τ sig Unit) (W : Waits sig Unit) (hO : Below c (.dma (xrecvS j)) O) :
    (iprop(invsOwn Sb Yc Xc K c ∗ levAts L lv ∗ cred (tallyAt (xrecvCell c j) () N) ∗ owes (c : Thread nD τ) O W ∗ atPos ER (xrecvCell c j) 0 ∅ 0) : sProp 𝕄)
      ⊢ iprop(((owes (c : Thread nD τ) O (insert (SemLoc.dma (xrecvS j), ()) W) ∗ atPos ER (xrecvCell c j) (0 + 1) ∅ 0
            ∗ ((xslot j).view.loc (c : Thread nD τ) ↦[(xslot j).view.set]{fullShare} Xc c j))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (xrecvS j) src dst hsrc hdst) k) Q) := by
  have hc : (cred (tallyAt (xrecvCell c j) () N) : sProp 𝕄) = cred (tallyAt (xrecvCell c j) () dst.view.dmaCredit) := by rw [hcr]
  rw [hc]
  iintro ⟨#HI, #Hlev, Hcr, HO, Hat⟩ Hk
  ihave H := (Rounds.wp_wait_rest_token 𝒱₀ ER (xRd Sb Yc Xc) (c : Thread nD τ) none (κ := K (c, some (3, j)))
      (defs := defs₀ (F := F)) (Γ := .empty) (w := .waitDma2 (xrecvS j) src dst hsrc hdst) (sm := .dma (xrecvS j)) (k' := dst.view.dmaCredit) (Es := Set.univ)
      (wpE_waitDma2_eq 𝒱₀ (c : Thread nD τ) none Set.univ (src := src) (dst := dst) (hsrc := hsrc) (hdst := hdst)) (Set.mem_univ _) ()
      (O := O) (W := W) (R := 0) (m := 0) (T := ∅) (k := k) (Q := Q) (by rw [expect_xrecv Sb Yc Xc c j, hcr, Nat.zero_add])) $$ [Hcr HO Hat]
  · isplitr
    · iapply (invsOwn_at Sb Yc Xc K c (some (3, j))); iexact HI
    isplitl [Hcr]; · iexact Hcr
    isplitl [HO]; · iexact HO
    isplitr
    · iapply (mayWait_below c _ O hO); iexact Hlev
    iexact Hat
  iapply H
  rw [rest_xrecv]
  iintro ⟨HO, Hat, -, Hpay⟩
  iapply Hk
  isplitl [HO]; · iexact HO
  isplitl [Hat]; · iexact Hat
  iexact Hpay

/-- The wait on the send cell of chunk `j`, for the credit the device's own transfer raised: the source slot back. -/
theorem wp_wait_ysend (K : Dev nD × Option (Fin 4 × Fin 16) → ℕ) (c : Dev nD) (j : Fin 16) {α : Type} {Q : α → sProp 𝕄}
    {k : PUnit → Prog (TpuEff nD τ sig (Elt F) Λ₀ (c : Thread nD τ).2) α}
    {sp sp' : Space} {s s' : Shape} {e e' : EltTy} {src : Memref sig (c : Thread nD τ).2.kind sp' s' e'} {κ' : Kind} {dst : Memref sig κ' sp s e}
    {hsrc : src.view.WordExact} {hdst : dst.view.WordExact} (hcr : dst.view.dmaCredit = N)
    (O : CellTallies nD τ sig Unit) (W : Waits sig Unit) (hO : Below c (.dma (ysendS j)) O) :
    (iprop(invsOwn Sb Yc Xc K c ∗ levAts L lv ∗ cred (tallyAt (ysendCell c j) () N) ∗ owes (c : Thread nD τ) O W ∗ atPos ER (ysendCell c j) 0 ∅ 0) : sProp 𝕄)
      ⊢ iprop(((owes (c : Thread nD τ) O (insert (SemLoc.dma (ysendS j), ()) W) ∗ atPos ER (ysendCell c j) (0 + 1) ∅ 0
            ∗ ((sslot j).view.loc (c : Thread nD τ) ↦[(sslot j).view.set]{fullShare} Sb c j))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (ysendS j) src dst hsrc hdst) k) Q) := by
  have hc : (cred (tallyAt (ysendCell c j) () N) : sProp 𝕄) = cred (tallyAt (ysendCell c j) () dst.view.dmaCredit) := by rw [hcr]
  rw [hc]
  iintro ⟨#HI, #Hlev, Hcr, HO, Hat⟩ Hk
  ihave H := (Rounds.wp_wait_rest_token 𝒱₀ ER (xRd Sb Yc Xc) (c : Thread nD τ) none (κ := K (c, some (0, j)))
      (defs := defs₀ (F := F)) (Γ := .empty) (w := .waitDma2 (ysendS j) src dst hsrc hdst) (sm := .dma (ysendS j)) (k' := dst.view.dmaCredit) (Es := Set.univ)
      (wpE_waitDma2_eq 𝒱₀ (c : Thread nD τ) none Set.univ (src := src) (dst := dst) (hsrc := hsrc) (hdst := hdst)) (Set.mem_univ _) ()
      (O := O) (W := W) (R := 0) (m := 0) (T := ∅) (k := k) (Q := Q) (by rw [expect_ysend Sb Yc Xc c j, hcr, Nat.zero_add])) $$ [Hcr HO Hat]
  · isplitr
    · iapply (invsOwn_at Sb Yc Xc K c (some (0, j))); iexact HI
    isplitl [Hcr]; · iexact Hcr
    isplitl [HO]; · iexact HO
    isplitr
    · iapply (mayWait_below c _ O hO); iexact Hlev
    iexact Hat
  iapply H
  rw [rest_ysend]
  iintro ⟨HO, Hat, -, Hpay⟩
  iapply Hk
  isplitl [HO]; · iexact HO
  isplitl [Hat]; · iexact Hat
  iexact Hpay

/-- The wait on the send cell of forward `j`: the half share of the forwarded slot that the transfer had been lent. -/
theorem wp_wait_fsend (K : Dev nD × Option (Fin 4 × Fin 16) → ℕ) (c : Dev nD) (j : Fin 16) {α : Type} {Q : α → sProp 𝕄}
    {k : PUnit → Prog (TpuEff nD τ sig (Elt F) Λ₀ (c : Thread nD τ).2) α}
    {sp sp' : Space} {s s' : Shape} {e e' : EltTy} {src : Memref sig (c : Thread nD τ).2.kind sp' s' e'} {κ' : Kind} {dst : Memref sig κ' sp s e}
    {hsrc : src.view.WordExact} {hdst : dst.view.WordExact} (hcr : dst.view.dmaCredit = N)
    (O : CellTallies nD τ sig Unit) (W : Waits sig Unit) (hO : Below c (.dma (fsendS j)) O) :
    (iprop(invsOwn Sb Yc Xc K c ∗ levAts L lv ∗ cred (tallyAt (fsendCell c j) () N) ∗ owes (c : Thread nD τ) O W ∗ atPos ER (fsendCell c j) 0 ∅ 0) : sProp 𝕄)
      ⊢ iprop(((owes (c : Thread nD τ) O (insert (SemLoc.dma (fsendS j), ()) W) ∗ atPos ER (fsendCell c j) (0 + 1) ∅ 0
            ∗ ((yslot j).view.loc (c : Thread nD τ) ↦[(yslot j).view.set]{fullShare.left} Yc c j))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (fsendS j) src dst hsrc hdst) k) Q) := by
  have hc : (cred (tallyAt (fsendCell c j) () N) : sProp 𝕄) = cred (tallyAt (fsendCell c j) () dst.view.dmaCredit) := by rw [hcr]
  rw [hc]
  iintro ⟨#HI, #Hlev, Hcr, HO, Hat⟩ Hk
  ihave H := (Rounds.wp_wait_rest_token 𝒱₀ ER (xRd Sb Yc Xc) (c : Thread nD τ) none (κ := K (c, some (2, j)))
      (defs := defs₀ (F := F)) (Γ := .empty) (w := .waitDma2 (fsendS j) src dst hsrc hdst) (sm := .dma (fsendS j)) (k' := dst.view.dmaCredit) (Es := Set.univ)
      (wpE_waitDma2_eq 𝒱₀ (c : Thread nD τ) none Set.univ (src := src) (dst := dst) (hsrc := hsrc) (hdst := hdst)) (Set.mem_univ _) ()
      (O := O) (W := W) (R := 0) (m := 0) (T := ∅) (k := k) (Q := Q) (by rw [expect_fsend Sb Yc Xc c j, hcr, Nat.zero_add])) $$ [Hcr HO Hat]
  · isplitr
    · iapply (invsOwn_at Sb Yc Xc K c (some (2, j))); iexact HI
    isplitl [Hcr]; · iexact Hcr
    isplitl [HO]; · iexact HO
    isplitr
    · iapply (mayWait_below c _ O hO); iexact Hlev
    iexact Hat
  iapply H
  rw [rest_fsend]
  iintro ⟨HO, Hat, -, Hpay⟩
  iapply Hk
  isplitl [HO]; · iexact HO
  isplitl [Hat]; · iexact Hat
  iexact Hpay

end Cert.KernelIdeal.Hand

end
-- ==== Proof.BodyX0.lean ====
import proofs.«901046_g7700000000001047_dist_rsdw_v7x_xy2x2_y_m1024_d1024_f4096_f32_1_alg».proof.Proof.Gen.KernelIdeal
import proofs.«901046_g7700000000001047_dist_rsdw_v7x_xy2x2_y_m1024_d1024_f4096_f32_1_alg».proof.Proof.Gen.KernelIdeal.Skeleton
import proofs.«901046_g7700000000001047_dist_rsdw_v7x_xy2x2_y_m1024_d1024_f4096_f32_1_alg».proof.Proof.Gen.KernelIdeal.Launch
import proofs.«901046_g7700000000001047_dist_rsdw_v7x_xy2x2_y_m1024_d1024_f4096_f32_1_alg».proof.Proof.Gen.KernelIdeal.Points
import proofs.«901046_g7700000000001047_dist_rsdw_v7x_xy2x2_y_m1024_d1024_f4096_f32_1_alg».proof.Proof.Proto
import proofs.«901046_g7700000000001047_dist_rsdw_v7x_xy2x2_y_m1024_d1024_f4096_f32_1_alg».proof.Proof.Slots
import proofs.«901046_g7700000000001047_dist_rsdw_v7x_xy2x2_y_m1024_d1024_f4096_f32_1_alg».proof.Proof.Rejoin
import proofs.«901046_g7700000000001047_dist_rsdw_v7x_xy2x2_y_m1024_d1024_f4096_f32_1_alg».proof.Proof.Ledger
import proofs.«901046_g7700000000001047_dist_rsdw_v7x_xy2x2_y_m1024_d1024_f4096_f32_1_alg».proof.Proof.BodyEnds
import proofs.«901046_g7700000000001047_dist_rsdw_v7x_xy2x2_y_m1024_d1024_f4096_f32_1_alg».proof.Proof.BodyExit
import proofs.«901046_g7700000000001047_dist_rsdw_v7x_xy2x2_y_m1024_d1024_f4096_f32_1_alg».proof.Proof.RulesSend
import proofs.«901046_g7700000000001047_dist_rsdw_v7x_xy2x2_y_m1024_d1024_f4096_f32_1_alg».proof.Proof.RulesWait
import proofs.«901046_g7700000000001047_dist_rsdw_v7x_xy2x2_y_m1024_d1024_f4096_f32_1_alg».proof.Proof.Values
import Idealize.ShloMosaic.Lib.Pipeline.Launch
import Idealize.ShloMosaic.Lib.Pipeline.Kit
import Idealize.ShloMosaic.Lib.Tactic
/-! The body on a device with first mesh coordinate 0.

The device starts its eight local copies of `dy`, signals both neighbours' barrier semaphores (handing each its own receive buffer) and waits
for both. It computes, group by group, the sixteen column chunks of the product of the transposed other half of `x` with its half of `dy`
and sends each to the neighbour along the second axis; then, group by group, its own product, adding each chunk it receives and forwarding
that chunk to the neighbour along the first axis; then adds the sixteen forwarded chunks; and copies the eight column blocks of the result
out. Every step that stays on the device is run symbolically; each of the thirty-two transfers to a neighbour is the rounds discipline's
send, the source slot restated at its closed contents first. At the end every cell is closed and every buffer is whole again. -/

set_option maxRecDepth 16384

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.Tactic
local notation "𝕄" => MT nD τ sig Unit (Elt F) ℕ UU ℕ

variable (m : (ℓ : Loc nD τ sig) → Buf (Elt F) ℓ)

attribute [local sl_rounds] duties_ysend duties_yrecv duties_fsend duties_xrecv duties_bar amount_ysend amount_yrecv amount_fsend amount_xrecv amount_bar
  expect_ysend expect_yrecv expect_fsend expect_xrecv expect_bar payload_ysend payload_yrecv payload_fsend payload_xrecv
  payload_bar_false payload_bar_true
attribute [local sl_rounds high] payload_bar_false_at payload_bar_true_at
attribute [local sl_canon] dev1_eq dev2_eq dev3_eq dev4_eq dev5_eq dev6_eq dev7_eq dev8_eq dev9_eq dev10_eq dev11_eq dev12_eq dev13_eq dev14_eq dev15_eq dev16_eq dev17_eq dev18_eq dev19_eq dev20_eq dev21_eq dev22_eq dev23_eq dev24_eq dev25_eq dev26_eq dev27_eq dev28_eq dev29_eq dev30_eq dev31_eq dev32_eq dev33_eq dev34_eq
attribute [local irreducible] ynb xnb

omit [FloatOps F] in
theorem bar_rest_x0 (Sb : (c : Dev nD) → (j : Fin 16) → Buf (Elt F) ((sslot j).view.loc (c : Thread nD τ))) (Yc : (c : Dev nD) → (j : Fin 16) → Buf (Elt F) ((yslot j).view.loc (c : Thread nD τ))) (Xc : (c : Dev nD) → (j : Fin 16) → Buf (Elt F) ((xslot j).view.loc (c : Thread nD τ))) (c : Dev nD) : (bigSep Finset.univ (fun d : Bool => (xRd (F := F) Sb Yc Xc).payload (barCell c) 0 d) : sProp 𝕄)
    = iprop((∃ f, (Memref.whole cc0_scratch3 : Memref sig .tc .vmem S16x512x128 .bf16).view.loc ((ynb c) : Thread nD τ) ↦{fullShare} f) ∗ (∃ f, (Memref.whole cc0_scratch4 : Memref sig .tc .vmem S16x512x128 .bf16).view.loc ((xnb c) : Thread nD τ) ↦{fullShare} f)) := by
  have h := rest_bar (F := F) Sb Yc Xc c
  rwa [Finset.sdiff_empty, duties_bar] at h

set_option maxHeartbeats 0 in
theorem body_x0 (c : Dev nD) (hx0 : c.val / 2 = 0) : BodySpec m (SbV (chunk m)) (YcV (chunk m)) (XcV (chunk m)) (fun _ _ => True) c := by
  intro K W f3 f4 f5 f6 f7 Kt
  unfold ghost creds locals0 posOwn payToks
  iintro ⟨⟨#HIown, #HIpeer, #HR, ⟨Ab, Apos⟩, ⟨Tby, Tbx, Ttoks⟩⟩, ⟨Cb, Ccr⟩, #Hlev, ⟨Lc0, Lc1, Lc2, Lc3, Lc4, Lc5, Lc6, Lc7, Lo0, Lo1, Lo2, Lo3, Lo4, Lo5, Lo6, Lo7⟩, HO, Hx, H1, Ho, H3, H4, H5, Hy, Hxr, Hk⟩
  ihave #HIb := (invsOwn_bar (SbV (chunk m)) (YcV (chunk m)) (XcV (chunk m)) K c) $$ HIown
  ihave #HPby := (invsPeer_by (SbV (chunk m)) (YcV (chunk m)) (XcV (chunk m)) K c) $$ HIpeer
  ihave #HPbx := (invsPeer_bx (SbV (chunk m)) (YcV (chunk m)) (XcV (chunk m)) K c) $$ HIpeer
  ihave #Rby := (reachedAll_by (F := F) c) $$ HR
  ihave #Rbx := (reachedAll_bx (F := F) c) $$ HR
  unfold O₀
  have hmw : ∀ (sm : SemLoc sig) (O : CellTallies nD τ sig Unit), Below c sm O → ((levAts L lv : sProp 𝕄) ⊢ MayWait (c : Thread nD τ) sm () O) := fun sm O h => mayWait_below c sm O h
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  -- the barrier's payloads: the two neighbours' receive buffers
  ihave Hp := (Entails.of_eq (bar_rest_x0 (SbV (chunk m)) (YcV (chunk m)) (XcV (chunk m)) c)) $$ Ab_pay1
  icases Hp with ⟨⟨%fyn, Hyn⟩, ⟨%fxn, Hxn⟩⟩
  -- the three slotted buffers, slot by slot
  ihave Hs := (sslots_split c _) $$ H5
  icases Hs with ⟨Hs0, Hs1, Hs2, Hs3, Hs4, Hs5, Hs6, Hs7, Hs8, Hs9, Hs10, Hs11, Hs12, Hs13, Hs14, Hs15⟩
  ihave Hd := (yslots_split (ynb c) fyn) $$ Hyn
  icases Hd with ⟨Hyn0, Hyn1, Hyn2, Hyn3, Hyn4, Hyn5, Hyn6, Hyn7, Hyn8, Hyn9, Hyn10, Hyn11, Hyn12, Hyn13, Hyn14, Hyn15⟩
  ihave He := (xslots_split (xnb c) fxn) $$ Hxn
  icases He with ⟨Hxn0, Hxn1, Hxn2, Hxn3, Hxn4, Hxn5, Hxn6, Hxn7, Hxn8, Hxn9, Hxn10, Hxn11, Hxn12, Hxn13, Hxn14, Hxn15⟩
  icases Ttoks with ⟨Ts0, Ty0, Ts1, Ty1, Ts2, Ty2, Ts3, Ty3, Ttoks⟩
  ihave Hr0 := (restate_lo_x0 (F := F) m c hx0 0 (by decide) fullShare f5) $$ [Hs0]
  · iexact Hs0
  iapply (wp_send_y (F := F) (SbV (chunk m)) (YcV (chunk m)) (XcV (chunk m)) K c _ (dev3_eq c) 0 _ _ _ _ (fun _ _ => rfl) (land_y_eq (chunk m) c 0 _)) $$ [Hr0 Hyn0 HO Ts0 Ty0]
  · isplitr; · iexact HIown
    isplitr; · iexact HIpeer
    isplitr; · iexact HR
    isplitl [Hr0]; · iexact Hr0
    isplitl [Hyn0]; · iexact Hyn0
    isplitl [HO]; · iexact HO
    isplitl [Ts0]; · iexact Ts0
    iexact Ty0
  iintro ⟨Cs0, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr1 := (restate_lo_x0 (F := F) m c hx0 1 (by decide) fullShare f5) $$ [Hs1]
  · iexact Hs1
  iapply (wp_send_y (F := F) (SbV (chunk m)) (YcV (chunk m)) (XcV (chunk m)) K c _ (dev4_eq c) 1 _ _ _ _ (fun _ _ => rfl) (land_y_eq (chunk m) c 1 _)) $$ [Hr1 Hyn1 HO Ts1 Ty1]
  · isplitr; · iexact HIown
    isplitr; · iexact HIpeer
    isplitr; · iexact HR
    isplitl [Hr1]; · iexact Hr1
    isplitl [Hyn1]; · iexact Hyn1
    isplitl [HO]; · iexact HO
    isplitl [Ts1]; · iexact Ts1
    iexact Ty1
  iintro ⟨Cs1, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr2 := (restate_lo_x0 (F := F) m c hx0 2 (by decide) fullShare f5) $$ [Hs2]
  · iexact Hs2
  iapply (wp_send_y (F := F) (SbV (chunk m)) (YcV (chunk m)) (XcV (chunk m)) K c _ (dev5_eq c) 2 _ _ _ _ (fun _ _ => rfl) (land_y_eq (chunk m) c 2 _)) $$ [Hr2 Hyn2 HO Ts2 Ty2]
  · isplitr; · iexact HIown
    isplitr; · iexact HIpeer
    isplitr; · iexact HR
    isplitl [Hr2]; · iexact Hr2
    isplitl [Hyn2]; · iexact Hyn2
    isplitl [HO]; · iexact HO
    isplitl [Ts2]; · iexact Ts2
    iexact Ty2
  iintro ⟨Cs2, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr3 := (restate_lo_x0 (F := F) m c hx0 3 (by decide) fullShare f5) $$ [Hs3]
  · iexact Hs3
  iapply (wp_send_y (F := F) (SbV (chunk m)) (YcV (chunk m)) (XcV (chunk m)) K c _ (dev6_eq c) 3 _ _ _ _ (fun _ _ => rfl) (land_y_eq (chunk m) c 3 _)) $$ [Hr3 Hyn3 HO Ts3 Ty3]
  · isplitr; · iexact HIown
    isplitr; · iexact HIpeer
    isplitr; · iexact HR
    isplitl [Hr3]; · iexact Hr3
    isplitl [Hyn3]; · iexact Hyn3
    isplitl [HO]; · iexact HO
    isplitl [Ts3]; · iexact Ts3
    iexact Ty3
  iintro ⟨Cs3, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  icases Ttoks with ⟨Ts4, Ty4, Ts5, Ty5, Ts6, Ty6, Ts7, Ty7, Ttoks⟩
  ihave Hr4 := (restate_hi_x0 (F := F) m c hx0 4 (by decide) fullShare f5) $$ [Hs4]
  · iexact Hs4
  iapply (wp_send_y (F := F) (SbV (chunk m)) (YcV (chunk m)) (XcV (chunk m)) K c _ (dev7_eq c) 4 _ _ _ _ (fun _ _ => rfl) (land_y_eq (chunk m) c 4 _)) $$ [Hr4 Hyn4 HO Ts4 Ty4]
  · isplitr; · iexact HIown
    isplitr; · iexact HIpeer
    isplitr; · iexact HR
    isplitl [Hr4]; · iexact Hr4
    isplitl [Hyn4]; · iexact Hyn4
    isplitl [HO]; · iexact HO
    isplitl [Ts4]; · iexact Ts4
    iexact Ty4
  iintro ⟨Cs4, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr5 := (restate_hi_x0 (F := F) m c hx0 5 (by decide) fullShare f5) $$ [Hs5]
  · iexact Hs5
  iapply (wp_send_y (F := F) (SbV (chunk m)) (YcV (chunk m)) (XcV (chunk m)) K c _ (dev8_eq c) 5 _ _ _ _ (fun _ _ => rfl) (land_y_eq (chunk m) c 5 _)) $$ [Hr5 Hyn5 HO Ts5 Ty5]
  · isplitr; · iexact HIown
    isplitr; · iexact HIpeer
    isplitr; · iexact HR
    isplitl [Hr5]; · iexact Hr5
    isplitl [Hyn5]; · iexact Hyn5
    isplitl [HO]; · iexact HO
    isplitl [Ts5]; · iexact Ts5
    iexact Ty5
  iintro ⟨Cs5, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr6 := (restate_hi_x0 (F := F) m c hx0 6 (by decide) fullShare f5) $$ [Hs6]
  · iexact Hs6
  iapply (wp_send_y (F := F) (SbV (chunk m)) (YcV (chunk m)) (XcV (chunk m)) K c _ (dev9_eq c) 6 _ _ _ _ (fun _ _ => rfl) (land_y_eq (chunk m) c 6 _)) $$ [Hr6 Hyn6 HO Ts6 Ty6]
  · isplitr; · iexact HIown
    isplitr; · iexact HIpeer
    isplitr; · iexact HR
    isplitl [Hr6]; · iexact Hr6
    isplitl [Hyn6]; · iexact Hyn6
    isplitl [HO]; · iexact HO
    isplitl [Ts6]; · iexact Ts6
    iexact Ty6
  iintro ⟨Cs6, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr7 := (restate_hi_x0 (F := F) m c hx0 7 (by decide) fullShare f5) $$ [Hs7]
  · iexact Hs7
  iapply (wp_send_y (F := F) (SbV (chunk m)) (YcV (chunk m)) (XcV (chunk m)) K c _ (dev10_eq c) 7 _ _ _ _ (fun _ _ => rfl) (land_y_eq (chunk m) c 7 _)) $$ [Hr7 Hyn7 HO Ts7 Ty7]
  · isplitr; · iexact HIown
    isplitr; · iexact HIpeer
    isplitr; · iexact HR
    isplitl [Hr7]; · iexact Hr7
    isplitl [Hyn7]; · iexact Hyn7
    isplitl [HO]; · iexact HO
    isplitl [Ts7]; · iexact Ts7
    iexact Ty7
  iintro ⟨Cs7, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  icases Ttoks with ⟨Ts8, Ty8, Ts9, Ty9, Ts10, Ty10, Ts11, Ty11, Ttoks⟩
  ihave Hr8 := (restate_hi_x0 (F := F) m c hx0 8 (by decide) fullShare f5) $$ [Hs8]
  · iexact Hs8
  iapply (wp_send_y (F := F) (SbV (chunk m)) (YcV (chunk m)) (XcV (chunk m)) K c _ (dev11_eq c) 8 _ _ _ _ (fun _ _ => rfl) (land_y_eq (chunk m) c 8 _)) $$ [Hr8 Hyn8 HO Ts8 Ty8]
  · isplitr; · iexact HIown
    isplitr; · iexact HIpeer
    isplitr; · iexact HR
    isplitl [Hr8]; · iexact Hr8
    isplitl [Hyn8]; · iexact Hyn8
    isplitl [HO]; · iexact HO
    isplitl [Ts8]; · iexact Ts8
    iexact Ty8
  iintro ⟨Cs8, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr9 := (restate_hi_x0 (F := F) m c hx0 9 (by decide) fullShare f5) $$ [Hs9]
  · iexact Hs9
  iapply (wp_send_y (F := F) (SbV (chunk m)) (YcV (chunk m)) (XcV (chunk m)) K c _ (dev12_eq c) 9 _ _ _ _ (fun _ _ => rfl) (land_y_eq (chunk m) c 9 _)) $$ [Hr9 Hyn9 HO Ts9 Ty9]
  · isplitr; · iexact HIown
    isplitr; · iexact HIpeer
    isplitr; · iexact HR
    isplitl [Hr9]; · iexact Hr9
    isplitl [Hyn9]; · iexact Hyn9
    isplitl [HO]; · iexact HO
    isplitl [Ts9]; · iexact Ts9
    iexact Ty9
  iintro ⟨Cs9, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr10 := (restate_hi_x0 (F := F) m c hx0 10 (by decide) fullShare f5) $$ [Hs10]
  · iexact Hs10
  iapply (wp_send_y (F := F) (SbV (chunk m)) (YcV (chunk m)) (XcV (chunk m)) K c _ (dev13_eq c) 10 _ _ _ _ (fun _ _ => rfl) (land_y_eq (chunk m) c 10 _)) $$ [Hr10 Hyn10 HO Ts10 Ty10]
  · isplitr; · iexact HIown
    isplitr; · iexact HIpeer
    isplitr; · iexact HR
    isplitl [Hr10]; · iexact Hr10
    isplitl [Hyn10]; · iexact Hyn10
    isplitl [HO]; · iexact HO
    isplitl [Ts10]; · iexact Ts10
    iexact Ty10
  iintro ⟨Cs10, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr11 := (restate_hi_x0 (F := F) m c hx0 11 (by decide) fullShare f5) $$ [Hs11]
  · iexact Hs11
  iapply (wp_send_y (F := F) (SbV (chunk m)) (YcV (chunk m)) (XcV (chunk m)) K c _ (dev14_eq c) 11 _ _ _ _ (fun _ _ => rfl) (land_y_eq (chunk m) c 11 _)) $$ [Hr11 Hyn11 HO Ts11 Ty11]
  · isplitr; · iexact HIown
    isplitr; · iexact HIpeer
    isplitr; · iexact HR
    isplitl [Hr11]; · iexact Hr11
    isplitl [Hyn11]; · iexact Hyn11
    isplitl [HO]; · iexact HO
    isplitl [Ts11]; · iexact Ts11
    iexact Ty11
  iintro ⟨Cs11, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  icases Ttoks with ⟨Ts12, Ty12, Ts13, Ty13, Ts14, Ty14, Ts15, Ty15, Ttoks⟩
  ihave Hr12 := (restate_hi_x0 (F := F) m c hx0 12 (by decide) fullShare f5) $$ [Hs12]
  · iexact Hs12
  iapply (wp_send_y (F := F) (SbV (chunk m)) (YcV (chunk m)) (XcV (chunk m)) K c _ (dev15_eq c) 12 _ _ _ _ (fun _ _ => rfl) (land_y_eq (chunk m) c 12 _)) $$ [Hr12 Hyn12 HO Ts12 Ty12]
  · isplitr; · iexact HIown
    isplitr; · iexact HIpeer
    isplitr; · iexact HR
    isplitl [Hr12]; · iexact Hr12
    isplitl [Hyn12]; · iexact Hyn12
    isplitl [HO]; · iexact HO
    isplitl [Ts12]; · iexact Ts12
    iexact Ty12
  iintro ⟨Cs12, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr13 := (restate_hi_x0 (F := F) m c hx0 13 (by decide) fullShare f5) $$ [Hs13]
  · iexact Hs13
  iapply (wp_send_y (F := F) (SbV (chunk m)) (YcV (chunk m)) (XcV (chunk m)) K c _ (dev16_eq c) 13 _ _ _ _ (fun _ _ => rfl) (land_y_eq (chunk m) c 13 _)) $$ [Hr13 Hyn13 HO Ts13 Ty13]
  · isplitr; · iexact HIown
    isplitr; · iexact HIpeer
    isplitr; · iexact HR
    isplitl [Hr13]; · iexact Hr13
    isplitl [Hyn13]; · iexact Hyn13
    isplitl [HO]; · iexact HO
    isplitl [Ts13]; · iexact Ts13
    iexact Ty13
  iintro ⟨Cs13, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr14 := (restate_hi_x0 (F := F) m c hx0 14 (by decide) fullShare f5) $$ [Hs14]
  · iexact Hs14
  iapply (wp_send_y (F := F) (SbV (chunk m)) (YcV (chunk m)) (XcV (chunk m)) K c _ (dev17_eq c) 14 _ _ _ _ (fun _ _ => rfl) (land_y_eq (chunk m) c 14 _)) $$ [Hr14 Hyn14 HO Ts14 Ty14]
  · isplitr; · iexact HIown
    isplitr; · iexact HIpeer
    isplitr; · iexact HR
    isplitl [Hr14]; · iexact Hr14
    isplitl [Hyn14]; · iexact Hyn14
    isplitl [HO]; · iexact HO
    isplitl [Ts14]; · iexact Ts14
    iexact Ty14
  iintro ⟨Cs14, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr15 := (restate_hi_x0 (F := F) m c hx0 15 (by decide) fullShare f5) $$ [Hs15]
  · iexact Hs15
  iapply (wp_send_y (F := F) (SbV (chunk m)) (YcV (chunk m)) (XcV (chunk m)) K c _ (dev18_eq c) 15 _ _ _ _ (fun _ _ => rfl) (land_y_eq (chunk m) c 15 _)) $$ [Hr15 Hyn15 HO Ts15 Ty15]
  · isplitr; · iexact HIown
    isplitr; · iexact HIpeer
    isplitr; · iexact HR
    isplitl [Hr15]; · iexact Hr15
    isplitl [Hyn15]; · iexact Hyn15
    isplitl [HO]; · iexact HO
    isplitl [Ts15]; · iexact Ts15
    iexact Ty15
  iintro ⟨Cs15, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave #HI1_0 := (invsOwn_yrecv (SbV (chunk m)) (YcV (chunk m)) (XcV (chunk m)) K c 0) $$ HIown
  ihave #HI1_1 := (invsOwn_yrecv (SbV (chunk m)) (YcV (chunk m)) (XcV (chunk m)) K c 1) $$ HIown
  ihave #HI1_2 := (invsOwn_yrecv (SbV (chunk m)) (YcV (chunk m)) (XcV (chunk m)) K c 2) $$ HIown
  ihave #HI1_3 := (invsOwn_yrecv (SbV (chunk m)) (YcV (chunk m)) (XcV (chunk m)) K c 3) $$ HIown
  icases Apos with ⟨A1_0, A1_1, A1_2, A1_3, Apos⟩
  icases Ccr with ⟨Cy0, Cy1, Cy2, Cy3, Ccr⟩
  icases Ttoks with ⟨Tf0, Tx0, Tf1, Tx1, Tf2, Tx2, Tf3, Tx3, Ttoks⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh0 := ((yslot_halves (F := F) c 0 _).1) $$ A1_0_pay1
  icases Hh0 with ⟨Hyl0, Hyr0⟩
  iapply (wp_send_f (F := F) (SbV (chunk m)) (YcV (chunk m)) (XcV (chunk m)) K c _ (dev19_eq c) 0 _ _ _ _ (fun _ _ => rfl) (land_f_eq (chunk m) c 0 _)) $$ [Hyl0 Hxn0 HO Tf0 Tx0]
  · isplitr; · iexact HIown
    isplitr; · iexact HIpeer
    isplitr; · iexact HR
    isplitl [Hyl0]; · iexact Hyl0
    isplitl [Hxn0]; · iexact Hxn0
    isplitl [HO]; · iexact HO
    isplitl [Tf0]; · iexact Tf0
    iexact Tx0
  iintro ⟨Cf0, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh1 := ((yslot_halves (F := F) c 1 _).1) $$ A1_1_pay1
  icases Hh1 with ⟨Hyl1, Hyr1⟩
  iapply (wp_send_f (F := F) (SbV (chunk m)) (YcV (chunk m)) (XcV (chunk m)) K c _ (dev20_eq c) 1 _ _ _ _ (fun _ _ => rfl) (land_f_eq (chunk m) c 1 _)) $$ [Hyl1 Hxn1 HO Tf1 Tx1]
  · isplitr; · iexact HIown
    isplitr; · iexact HIpeer
    isplitr; · iexact HR
    isplitl [Hyl1]; · iexact Hyl1
    isplitl [Hxn1]; · iexact Hxn1
    isplitl [HO]; · iexact HO
    isplitl [Tf1]; · iexact Tf1
    iexact Tx1
  iintro ⟨Cf1, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh2 := ((yslot_halves (F := F) c 2 _).1) $$ A1_2_pay1
  icases Hh2 with ⟨Hyl2, Hyr2⟩
  iapply (wp_send_f (F := F) (SbV (chunk m)) (YcV (chunk m)) (XcV (chunk m)) K c _ (dev21_eq c) 2 _ _ _ _ (fun _ _ => rfl) (land_f_eq (chunk m) c 2 _)) $$ [Hyl2 Hxn2 HO Tf2 Tx2]
  · isplitr; · iexact HIown
    isplitr; · iexact HIpeer
    isplitr; · iexact HR
    isplitl [Hyl2]; · iexact Hyl2
    isplitl [Hxn2]; · iexact Hxn2
    isplitl [HO]; · iexact HO
    isplitl [Tf2]; · iexact Tf2
    iexact Tx2
  iintro ⟨Cf2, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh3 := ((yslot_halves (F := F) c 3 _).1) $$ A1_3_pay1
  icases Hh3 with ⟨Hyl3, Hyr3⟩
  iapply (wp_send_f (F := F) (SbV (chunk m)) (YcV (chunk m)) (XcV (chunk m)) K c _ (dev22_eq c) 3 _ _ _ _ (fun _ _ => rfl) (land_f_eq (chunk m) c 3 _)) $$ [Hyl3 Hxn3 HO Tf3 Tx3]
  · isplitr; · iexact HIown
    isplitr; · iexact HIpeer
    isplitr; · iexact HR
    isplitl [Hyl3]; · iexact Hyl3
    isplitl [Hxn3]; · iexact Hxn3
    isplitl [HO]; · iexact HO
    isplitl [Tf3]; · iexact Tf3
    iexact Tx3
  iintro ⟨Cf3, HO⟩
  iclear HI1_0
  iclear HI1_1
  iclear HI1_2
  iclear HI1_3
  ihave #HI1_4 := (invsOwn_yrecv (SbV (chunk m)) (YcV (chunk m)) (XcV (chunk m)) K c 4) $$ HIown
  ihave #HI1_5 := (invsOwn_yrecv (SbV (chunk m)) (YcV (chunk m)) (XcV (chunk m)) K c 5) $$ HIown
  ihave #HI1_6 := (invsOwn_yrecv (SbV (chunk m)) (YcV (chunk m)) (XcV (chunk m)) K c 6) $$ HIown
  ihave #HI1_7 := (invsOwn_yrecv (SbV (chunk m)) (YcV (chunk m)) (XcV (chunk m)) K c 7) $$ HIown
  icases Apos with ⟨A1_4, A1_5, A1_6, A1_7, Apos⟩
  icases Ccr with ⟨Cy4, Cy5, Cy6, Cy7, Ccr⟩
  icases Ttoks with ⟨Tf4, Tx4, Tf5, Tx5, Tf6, Tx6, Tf7, Tx7, Ttoks⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh4 := ((yslot_halves (F := F) c 4 _).1) $$ A1_4_pay1
  icases Hh4 with ⟨Hyl4, Hyr4⟩
  iapply (wp_send_f (F := F) (SbV (chunk m)) (YcV (chunk m)) (XcV (chunk m)) K c _ (dev23_eq c) 4 _ _ _ _ (fun _ _ => rfl) (land_f_eq (chunk m) c 4 _)) $$ [Hyl4 Hxn4 HO Tf4 Tx4]
  · isplitr; · iexact HIown
    isplitr; · iexact HIpeer
    isplitr; · iexact HR
    isplitl [Hyl4]; · iexact Hyl4
    isplitl [Hxn4]; · iexact Hxn4
    isplitl [HO]; · iexact HO
    isplitl [Tf4]; · iexact Tf4
    iexact Tx4
  iintro ⟨Cf4, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh5 := ((yslot_halves (F := F) c 5 _).1) $$ A1_5_pay1
  icases Hh5 with ⟨Hyl5, Hyr5⟩
  iapply (wp_send_f (F := F) (SbV (chunk m)) (YcV (chunk m)) (XcV (chunk m)) K c _ (dev24_eq c) 5 _ _ _ _ (fun _ _ => rfl) (land_f_eq (chunk m) c 5 _)) $$ [Hyl5 Hxn5 HO Tf5 Tx5]
  · isplitr; · iexact HIown
    isplitr; · iexact HIpeer
    isplitr; · iexact HR
    isplitl [Hyl5]; · iexact Hyl5
    isplitl [Hxn5]; · iexact Hxn5
    isplitl [HO]; · iexact HO
    isplitl [Tf5]; · iexact Tf5
    iexact Tx5
  iintro ⟨Cf5, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh6 := ((yslot_halves (F := F) c 6 _).1) $$ A1_6_pay1
  icases Hh6 with ⟨Hyl6, Hyr6⟩
  iapply (wp_send_f (F := F) (SbV (chunk m)) (YcV (chunk m)) (XcV (chunk m)) K c _ (dev25_eq c) 6 _ _ _ _ (fun _ _ => rfl) (land_f_eq (chunk m) c 6 _)) $$ [Hyl6 Hxn6 HO Tf6 Tx6]
  · isplitr; · iexact HIown
    isplitr; · iexact HIpeer
    isplitr; · iexact HR
    isplitl [Hyl6]; · iexact Hyl6
    isplitl [Hxn6]; · iexact Hxn6
    isplitl [HO]; · iexact HO
    isplitl [Tf6]; · iexact Tf6
    iexact Tx6
  iintro ⟨Cf6, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh7 := ((yslot_halves (F := F) c 7 _).1) $$ A1_7_pay1
  icases Hh7 with ⟨Hyl7, Hyr7⟩
  iapply (wp_send_f (F := F) (SbV (chunk m)) (YcV (chunk m)) (XcV (chunk m)) K c _ (dev26_eq c) 7 _ _ _ _ (fun _ _ => rfl) (land_f_eq (chunk m) c 7 _)) $$ [Hyl7 Hxn7 HO Tf7 Tx7]
  · isplitr; · iexact HIown
    isplitr; · iexact HIpeer
    isplitr; · iexact HR
    isplitl [Hyl7]; · iexact Hyl7
    isplitl [Hxn7]; · iexact Hxn7
    isplitl [HO]; · iexact HO
    isplitl [Tf7]; · iexact Tf7
    iexact Tx7
  iintro ⟨Cf7, HO⟩
  iclear HI1_4
  iclear HI1_5
  iclear HI1_6
  iclear HI1_7
  ihave #HI1_8 := (invsOwn_yrecv (SbV (chunk m)) (YcV (chunk m)) (XcV (chunk m)) K c 8) $$ HIown
  ihave #HI1_9 := (invsOwn_yrecv (SbV (chunk m)) (YcV (chunk m)) (XcV (chunk m)) K c 9) $$ HIown
  ihave #HI1_10 := (invsOwn_yrecv (SbV (chunk m)) (YcV (chunk m)) (XcV (chunk m)) K c 10) $$ HIown
  ihave #HI1_11 := (invsOwn_yrecv (SbV (chunk m)) (YcV (chunk m)) (XcV (chunk m)) K c 11) $$ HIown
  icases Apos with ⟨A1_8, A1_9, A1_10, A1_11, Apos⟩
  icases Ccr with ⟨Cy8, Cy9, Cy10, Cy11, Ccr⟩
  icases Ttoks with ⟨Tf8, Tx8, Tf9, Tx9, Tf10, Tx10, Tf11, Tx11, Ttoks⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh8 := ((yslot_halves (F := F) c 8 _).1) $$ A1_8_pay1
  icases Hh8 with ⟨Hyl8, Hyr8⟩
  iapply (wp_send_f (F := F) (SbV (chunk m)) (YcV (chunk m)) (XcV (chunk m)) K c _ (dev27_eq c) 8 _ _ _ _ (fun _ _ => rfl) (land_f_eq (chunk m) c 8 _)) $$ [Hyl8 Hxn8 HO Tf8 Tx8]
  · isplitr; · iexact HIown
    isplitr; · iexact HIpeer
    isplitr; · iexact HR
    isplitl [Hyl8]; · iexact Hyl8
    isplitl [Hxn8]; · iexact Hxn8
    isplitl [HO]; · iexact HO
    isplitl [Tf8]; · iexact Tf8
    iexact Tx8
  iintro ⟨Cf8, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh9 := ((yslot_halves (F := F) c 9 _).1) $$ A1_9_pay1
  icases Hh9 with ⟨Hyl9, Hyr9⟩
  iapply (wp_send_f (F := F) (SbV (chunk m)) (YcV (chunk m)) (XcV (chunk m)) K c _ (dev28_eq c) 9 _ _ _ _ (fun _ _ => rfl) (land_f_eq (chunk m) c 9 _)) $$ [Hyl9 Hxn9 HO Tf9 Tx9]
  · isplitr; · iexact HIown
    isplitr; · iexact HIpeer
    isplitr; · iexact HR
    isplitl [Hyl9]; · iexact Hyl9
    isplitl [Hxn9]; · iexact Hxn9
    isplitl [HO]; · iexact HO
    isplitl [Tf9]; · iexact Tf9
    iexact Tx9
  iintro ⟨Cf9, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh10 := ((yslot_halves (F := F) c 10 _).1) $$ A1_10_pay1
  icases Hh10 with ⟨Hyl10, Hyr10⟩
  iapply (wp_send_f (F := F) (SbV (chunk m)) (YcV (chunk m)) (XcV (chunk m)) K c _ (dev29_eq c) 10 _ _ _ _ (fun _ _ => rfl) (land_f_eq (chunk m) c 10 _)) $$ [Hyl10 Hxn10 HO Tf10 Tx10]
  · isplitr; · iexact HIown
    isplitr; · iexact HIpeer
    isplitr; · iexact HR
    isplitl [Hyl10]; · iexact Hyl10
    isplitl [Hxn10]; · iexact Hxn10
    isplitl [HO]; · iexact HO
    isplitl [Tf10]; · iexact Tf10
    iexact Tx10
  iintro ⟨Cf10, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh11 := ((yslot_halves (F := F) c 11 _).1) $$ A1_11_pay1
  icases Hh11 with ⟨Hyl11, Hyr11⟩
  iapply (wp_send_f (F := F) (SbV (chunk m)) (YcV (chunk m)) (XcV (chunk m)) K c _ (dev30_eq c) 11 _ _ _ _ (fun _ _ => rfl) (land_f_eq (chunk m) c 11 _)) $$ [Hyl11 Hxn11 HO Tf11 Tx11]
  · isplitr; · iexact HIown
    isplitr; · iexact HIpeer
    isplitr; · iexact HR
    isplitl [Hyl11]; · iexact Hyl11
    isplitl [Hxn11]; · iexact Hxn11
    isplitl [HO]; · iexact HO
    isplitl [Tf11]; · iexact Tf11
    iexact Tx11
  iintro ⟨Cf11, HO⟩
  iclear HI1_8
  iclear HI1_9
  iclear HI1_10
  iclear HI1_11
  ihave #HI1_12 := (invsOwn_yrecv (SbV (chunk m)) (YcV (chunk m)) (XcV (chunk m)) K c 12) $$ HIown
  ihave #HI1_13 := (invsOwn_yrecv (SbV (chunk m)) (YcV (chunk m)) (XcV (chunk m)) K c 13) $$ HIown
  ihave #HI1_14 := (invsOwn_yrecv (SbV (chunk m)) (YcV (chunk m)) (XcV (chunk m)) K c 14) $$ HIown
  ihave #HI1_15 := (invsOwn_yrecv (SbV (chunk m)) (YcV (chunk m)) (XcV (chunk m)) K c 15) $$ HIown
  icases Apos with ⟨A1_12, A1_13, A1_14, A1_15, Apos⟩
  icases Ccr with ⟨Cy12, Cy13, Cy14, Cy15, Ccr⟩
  icases Ttoks with ⟨Tf12, Tx12, Tf13, Tx13, Tf14, Tx14, Tf15, Tx15⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh12 := ((yslot_halves (F := F) c 12 _).1) $$ A1_12_pay1
  icases Hh12 with ⟨Hyl12, Hyr12⟩
  iapply (wp_send_f (F := F) (SbV (chunk m)) (YcV (chunk m)) (XcV (chunk m)) K c _ (dev31_eq c) 12 _ _ _ _ (fun _ _ => rfl) (land_f_eq (chunk m) c 12 _)) $$ [Hyl12 Hxn12 HO Tf12 Tx12]
  · isplitr; · iexact HIown
    isplitr; · iexact HIpeer
    isplitr; · iexact HR
    isplitl [Hyl12]; · iexact Hyl12
    isplitl [Hxn12]; · iexact Hxn12
    isplitl [HO]; · iexact HO
    isplitl [Tf12]; · iexact Tf12
    iexact Tx12
  iintro ⟨Cf12, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh13 := ((yslot_halves (F := F) c 13 _).1) $$ A1_13_pay1
  icases Hh13 with ⟨Hyl13, Hyr13⟩
  iapply (wp_send_f (F := F) (SbV (chunk m)) (YcV (chunk m)) (XcV (chunk m)) K c _ (dev32_eq c) 13 _ _ _ _ (fun _ _ => rfl) (land_f_eq (chunk m) c 13 _)) $$ [Hyl13 Hxn13 HO Tf13 Tx13]
  · isplitr; · iexact HIown
    isplitr; · iexact HIpeer
    isplitr; · iexact HR
    isplitl [Hyl13]; · iexact Hyl13
    isplitl [Hxn13]; · iexact Hxn13
    isplitl [HO]; · iexact HO
    isplitl [Tf13]; · iexact Tf13
    iexact Tx13
  iintro ⟨Cf13, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh14 := ((yslot_halves (F := F) c 14 _).1) $$ A1_14_pay1
  icases Hh14 with ⟨Hyl14, Hyr14⟩
  iapply (wp_send_f (F := F) (SbV (chunk m)) (YcV (chunk m)) (XcV (chunk m)) K c _ (dev33_eq c) 14 _ _ _ _ (fun _ _ => rfl) (land_f_eq (chunk m) c 14 _)) $$ [Hyl14 Hxn14 HO Tf14 Tx14]
  · isplitr; · iexact HIown
    isplitr; · iexact HIpeer
    isplitr; · iexact HR
    isplitl [Hyl14]; · iexact Hyl14
    isplitl [Hxn14]; · iexact Hxn14
    isplitl [HO]; · iexact HO
    isplitl [Tf14]; · iexact Tf14
    iexact Tx14
  iintro ⟨Cf14, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh15 := ((yslot_halves (F := F) c 15 _).1) $$ A1_15_pay1
  icases Hh15 with ⟨Hyl15, Hyr15⟩
  ihave HO := (Entails.of_eq (congrArg (fun O => (owes (c : Thread nD τ) O _ : sProp 𝕄)) (zero_add (tallyAt (xrecvCell (xnb c) 15) () N)).symm)) $$ HO
  iapply (wp_send_f (F := F) (SbV (chunk m)) (YcV (chunk m)) (XcV (chunk m)) K c _ (dev34_eq c) 15 _ _ _ _ (fun _ _ => rfl) (land_f_eq (chunk m) c 15 _)) $$ [Hyl15 Hxn15 HO Tf15 Tx15]
  · isplitr; · iexact HIown
    isplitr; · iexact HIpeer
    isplitr; · iexact HR
    isplitl [Hyl15]; · iexact Hyl15
    isplitl [Hxn15]; · iexact Hxn15
    isplitl [HO]; · iexact HO
    isplitl [Tf15]; · iexact Tf15
    iexact Tx15
  iintro ⟨Cf15, HO⟩
  iclear HI1_12
  iclear HI1_13
  iclear HI1_14
  iclear HI1_15
  ihave #HI3_0 := (invsOwn_xrecv (SbV (chunk m)) (YcV (chunk m)) (XcV (chunk m)) K c 0) $$ HIown
  ihave #HI3_1 := (invsOwn_xrecv (SbV (chunk m)) (YcV (chunk m)) (XcV (chunk m)) K c 1) $$ HIown
  ihave #HI3_2 := (invsOwn_xrecv (SbV (chunk m)) (YcV (chunk m)) (XcV (chunk m)) K c 2) $$ HIown
  ihave #HI3_3 := (invsOwn_xrecv (SbV (chunk m)) (YcV (chunk m)) (XcV (chunk m)) K c 3) $$ HIown
  icases Apos with ⟨A3_0, A3_1, A3_2, A3_3, Apos⟩
  icases Ccr with ⟨Cx0, Cx1, Cx2, Cx3, Ccr⟩
  ihave #HI3_4 := (invsOwn_xrecv (SbV (chunk m)) (YcV (chunk m)) (XcV (chunk m)) K c 4) $$ HIown
  ihave #HI3_5 := (invsOwn_xrecv (SbV (chunk m)) (YcV (chunk m)) (XcV (chunk m)) K c 5) $$ HIown
  ihave #HI3_6 := (invsOwn_xrecv (SbV (chunk m)) (YcV (chunk m)) (XcV (chunk m)) K c 6) $$ HIown
  ihave #HI3_7 := (invsOwn_xrecv (SbV (chunk m)) (YcV (chunk m)) (XcV (chunk m)) K c 7) $$ HIown
  icases Apos with ⟨A3_4, A3_5, A3_6, A3_7, Apos⟩
  icases Ccr with ⟨Cx4, Cx5, Cx6, Cx7, Ccr⟩
  ihave #HI3_8 := (invsOwn_xrecv (SbV (chunk m)) (YcV (chunk m)) (XcV (chunk m)) K c 8) $$ HIown
  ihave #HI3_9 := (invsOwn_xrecv (SbV (chunk m)) (YcV (chunk m)) (XcV (chunk m)) K c 9) $$ HIown
  ihave #HI3_10 := (invsOwn_xrecv (SbV (chunk m)) (YcV (chunk m)) (XcV (chunk m)) K c 10) $$ HIown
  ihave #HI3_11 := (invsOwn_xrecv (SbV (chunk m)) (YcV (chunk m)) (XcV (chunk m)) K c 11) $$ HIown
  icases Apos with ⟨A3_8, A3_9, A3_10, A3_11, Apos⟩
  icases Ccr with ⟨Cx8, Cx9, Cx10, Cx11, Ccr⟩
  ihave #HI3_12 := (invsOwn_xrecv (SbV (chunk m)) (YcV (chunk m)) (XcV (chunk m)) K c 12) $$ HIown
  ihave #HI3_13 := (invsOwn_xrecv (SbV (chunk m)) (YcV (chunk m)) (XcV (chunk m)) K c 13) $$ HIown
  ihave #HI3_14 := (invsOwn_xrecv (SbV (chunk m)) (YcV (chunk m)) (XcV (chunk m)) K c 14) $$ HIown
  ihave #HI3_15 := (invsOwn_xrecv (SbV (chunk m)) (YcV (chunk m)) (XcV (chunk m)) K c 15) $$ HIown
  icases Apos with ⟨A3_12, A3_13, A3_14, A3_15, Apos⟩
  icases Ccr with ⟨Cx12, Cx13, Cx14, Cx15⟩
  ihave #HI0_0 := (invsOwn_ysend (SbV (chunk m)) (YcV (chunk m)) (XcV (chunk m)) K c 0) $$ HIown
  ihave #HI2_0 := (invsOwn_fsend (SbV (chunk m)) (YcV (chunk m)) (XcV (chunk m)) K c 0) $$ HIown
  ihave #HI0_1 := (invsOwn_ysend (SbV (chunk m)) (YcV (chunk m)) (XcV (chunk m)) K c 1) $$ HIown
  ihave #HI2_1 := (invsOwn_fsend (SbV (chunk m)) (YcV (chunk m)) (XcV (chunk m)) K c 1) $$ HIown
  ihave #HI0_2 := (invsOwn_ysend (SbV (chunk m)) (YcV (chunk m)) (XcV (chunk m)) K c 2) $$ HIown
  ihave #HI2_2 := (invsOwn_fsend (SbV (chunk m)) (YcV (chunk m)) (XcV (chunk m)) K c 2) $$ HIown
  ihave #HI0_3 := (invsOwn_ysend (SbV (chunk m)) (YcV (chunk m)) (XcV (chunk m)) K c 3) $$ HIown
  ihave #HI2_3 := (invsOwn_fsend (SbV (chunk m)) (YcV (chunk m)) (XcV (chunk m)) K c 3) $$ HIown
  icases Apos with ⟨A0_0, A2_0, A0_1, A2_1, A0_2, A2_2, A0_3, A2_3, Apos⟩
  ihave #HI0_4 := (invsOwn_ysend (SbV (chunk m)) (YcV (chunk m)) (XcV (chunk m)) K c 4) $$ HIown
  ihave #HI2_4 := (invsOwn_fsend (SbV (chunk m)) (YcV (chunk m)) (XcV (chunk m)) K c 4) $$ HIown
  ihave #HI0_5 := (invsOwn_ysend (SbV (chunk m)) (YcV (chunk m)) (XcV (chunk m)) K c 5) $$ HIown
  ihave #HI2_5 := (invsOwn_fsend (SbV (chunk m)) (YcV (chunk m)) (XcV (chunk m)) K c 5) $$ HIown
  ihave #HI0_6 := (invsOwn_ysend (SbV (chunk m)) (YcV (chunk m)) (XcV (chunk m)) K c 6) $$ HIown
  ihave #HI2_6 := (invsOwn_fsend (SbV (chunk m)) (YcV (chunk m)) (XcV (chunk m)) K c 6) $$ HIown
  ihave #HI0_7 := (invsOwn_ysend (SbV (chunk m)) (YcV (chunk m)) (XcV (chunk m)) K c 7) $$ HIown
  ihave #HI2_7 := (invsOwn_fsend (SbV (chunk m)) (YcV (chunk m)) (XcV (chunk m)) K c 7) $$ HIown
  icases Apos with ⟨A0_4, A2_4, A0_5, A2_5, A0_6, A2_6, A0_7, A2_7, Apos⟩
  ihave #HI0_8 := (invsOwn_ysend (SbV (chunk m)) (YcV (chunk m)) (XcV (chunk m)) K c 8) $$ HIown
  ihave #HI2_8 := (invsOwn_fsend (SbV (chunk m)) (YcV (chunk m)) (XcV (chunk m)) K c 8) $$ HIown
  ihave #HI0_9 := (invsOwn_ysend (SbV (chunk m)) (YcV (chunk m)) (XcV (chunk m)) K c 9) $$ HIown
  ihave #HI2_9 := (invsOwn_fsend (SbV (chunk m)) (YcV (chunk m)) (XcV (chunk m)) K c 9) $$ HIown
  ihave #HI0_10 := (invsOwn_ysend (SbV (chunk m)) (YcV (chunk m)) (XcV (chunk m)) K c 10) $$ HIown
  ihave #HI2_10 := (invsOwn_fsend (SbV (chunk m)) (YcV (chunk m)) (XcV (chunk m)) K c 10) $$ HIown
  ihave #HI0_11 := (invsOwn_ysend (SbV (chunk m)) (YcV (chunk m)) (XcV (chunk m)) K c 11) $$ HIown
  ihave #HI2_11 := (invsOwn_fsend (SbV (chunk m)) (YcV (chunk m)) (XcV (chunk m)) K c 11) $$ HIown
  icases Apos with ⟨A0_8, A2_8, A0_9, A2_9, A0_10, A2_10, A0_11, A2_11, Apos⟩
  ihave #HI0_12 := (invsOwn_ysend (SbV (chunk m)) (YcV (chunk m)) (XcV (chunk m)) K c 12) $$ HIown
  ihave #HI2_12 := (invsOwn_fsend (SbV (chunk m)) (YcV (chunk m)) (XcV (chunk m)) K c 12) $$ HIown
  ihave #HI0_13 := (invsOwn_ysend (SbV (chunk m)) (YcV (chunk m)) (XcV (chunk m)) K c 13) $$ HIown
  ihave #HI2_13 := (invsOwn_fsend (SbV (chunk m)) (YcV (chunk m)) (XcV (chunk m)) K c 13) $$ HIown
  ihave #HI0_14 := (invsOwn_ysend (SbV (chunk m)) (YcV (chunk m)) (XcV (chunk m)) K c 14) $$ HIown
  ihave #HI2_14 := (invsOwn_fsend (SbV (chunk m)) (YcV (chunk m)) (XcV (chunk m)) K c 14) $$ HIown
  ihave #HI0_15 := (invsOwn_ysend (SbV (chunk m)) (YcV (chunk m)) (XcV (chunk m)) K c 15) $$ HIown
  ihave #HI2_15 := (invsOwn_fsend (SbV (chunk m)) (YcV (chunk m)) (XcV (chunk m)) K c 15) $$ HIown
  icases Apos with ⟨A0_12, A2_12, A0_13, A2_13, A0_14, A2_14, A0_15, A2_15⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  -- the result's buffer back in one piece
  ihave H4e := (scratch1_rejoin0 (F := F) c _ _ _ _ _) $$ [H4 H4_2 H4_3 H4_4 H4_5]
  · isplitl [H4]; · iexact H4
    isplitl [H4_2]; · iexact H4_2
    isplitl [H4_3]; · iexact H4_3
    isplitl [H4_4]; · iexact H4_4
    iexact H4_5
  icases H4e with ⟨%f4e, H4w⟩
  -- the cells closed, the buffers whole again: the post
  imod (body_exit (F := F) m (SbV (chunk m)) (YcV (chunk m)) (XcV (chunk m)) (fun _ _ => True) K c _ _ _ _ trivial) $$ [A0_0 A0_1 A0_2 A0_3 A0_4 A0_5 A0_6 A0_7 A0_8 A0_9 A0_10 A0_11 A0_12 A0_13 A0_14 A0_15 A1_0 A1_1 A1_2 A1_3 A1_4 A1_5 A1_6 A1_7 A1_8 A1_9 A1_10 A1_11 A1_12 A1_13 A1_14 A1_15 A2_0 A2_1 A2_2 A2_3 A2_4 A2_5 A2_6 A2_7 A2_8 A2_9 A2_10 A2_11 A2_12 A2_13 A2_14 A2_15 A3_0 A3_1 A3_2 A3_3 A3_4 A3_5 A3_6 A3_7 A3_8 A3_9 A3_10 A3_11 A3_12 A3_13 A3_14 A3_15 Lc0 Lc1 Lc2 Lc3 Lc4 Lc5 Lc6 Lc7 Lo0 Lo1 Lo2 Lo3 Lo4 Lo5 Lo6 Lo7 HO Hx H1 Ho H3 H4w A0_0_pay1 A0_1_pay1 A0_2_pay1 A0_3_pay1 A0_4_pay1 A0_5_pay1 A0_6_pay1 A0_7_pay1 A0_8_pay1 A0_9_pay1 A0_10_pay1 A0_11_pay1 A0_12_pay1 A0_13_pay1 A0_14_pay1 A0_15_pay1 A2_0_pay1 A2_1_pay1 A2_2_pay1 A2_3_pay1 A2_4_pay1 A2_5_pay1 A2_6_pay1 A2_7_pay1 A2_8_pay1 A2_9_pay1 A2_10_pay1 A2_11_pay1 A2_12_pay1 A2_13_pay1 A2_14_pay1 A2_15_pay1 Hyr0 Hyr1 Hyr2 Hyr3 Hyr4 Hyr5 Hyr6 Hyr7 Hyr8 Hyr9 Hyr10 Hyr11 Hyr12 Hyr13 Hyr14 Hyr15 A3_0_pay1 A3_1_pay1 A3_2_pay1 A3_3_pay1 A3_4_pay1 A3_5_pay1 A3_6_pay1 A3_7_pay1 A3_8_pay1 A3_9_pay1 A3_10_pay1 A3_11_pay1 A3_12_pay1 A3_13_pay1 A3_14_pay1 A3_15_pay1] with Hpost
  · unfold posDone locals0 sDone yLeft yRight xDone
    isplitr; · iexact HIown
    isplitl [A0_0 A0_1 A0_2 A0_3 A0_4 A0_5 A0_6 A0_7 A0_8 A0_9 A0_10 A0_11 A0_12 A0_13 A0_14 A0_15 A1_0 A1_1 A1_2 A1_3 A1_4 A1_5 A1_6 A1_7 A1_8 A1_9 A1_10 A1_11 A1_12 A1_13 A1_14 A1_15 A2_0 A2_1 A2_2 A2_3 A2_4 A2_5 A2_6 A2_7 A2_8 A2_9 A2_10 A2_11 A2_12 A2_13 A2_14 A2_15 A3_0 A3_1 A3_2 A3_3 A3_4 A3_5 A3_6 A3_7 A3_8 A3_9 A3_10 A3_11 A3_12 A3_13 A3_14 A3_15]
    · isplitl [A0_0]; · iexact A0_0
      isplitl [A0_1]; · iexact A0_1
      isplitl [A0_2]; · iexact A0_2
      isplitl [A0_3]; · iexact A0_3
      isplitl [A0_4]; · iexact A0_4
      isplitl [A0_5]; · iexact A0_5
      isplitl [A0_6]; · iexact A0_6
      isplitl [A0_7]; · iexact A0_7
      isplitl [A0_8]; · iexact A0_8
      isplitl [A0_9]; · iexact A0_9
      isplitl [A0_10]; · iexact A0_10
      isplitl [A0_11]; · iexact A0_11
      isplitl [A0_12]; · iexact A0_12
      isplitl [A0_13]; · iexact A0_13
      isplitl [A0_14]; · iexact A0_14
      isplitl [A0_15]; · iexact A0_15
      isplitl [A1_0]; · iexact A1_0
      isplitl [A1_1]; · iexact A1_1
      isplitl [A1_2]; · iexact A1_2
      isplitl [A1_3]; · iexact A1_3
      isplitl [A1_4]; · iexact A1_4
      isplitl [A1_5]; · iexact A1_5
      isplitl [A1_6]; · iexact A1_6
      isplitl [A1_7]; · iexact A1_7
      isplitl [A1_8]; · iexact A1_8
      isplitl [A1_9]; · iexact A1_9
      isplitl [A1_10]; · iexact A1_10
      isplitl [A1_11]; · iexact A1_11
      isplitl [A1_12]; · iexact A1_12
      isplitl [A1_13]; · iexact A1_13
      isplitl [A1_14]; · iexact A1_14
      isplitl [A1_15]; · iexact A1_15
      isplitl [A2_0]; · iexact A2_0
      isplitl [A2_1]; · iexact A2_1
      isplitl [A2_2]; · iexact A2_2
      isplitl [A2_3]; · iexact A2_3
      isplitl [A2_4]; · iexact A2_4
      isplitl [A2_5]; · iexact A2_5
      isplitl [A2_6]; · iexact A2_6
      isplitl [A2_7]; · iexact A2_7
      isplitl [A2_8]; · iexact A2_8
      isplitl [A2_9]; · iexact A2_9
      isplitl [A2_10]; · iexact A2_10
      isplitl [A2_11]; · iexact A2_11
      isplitl [A2_12]; · iexact A2_12
      isplitl [A2_13]; · iexact A2_13
      isplitl [A2_14]; · iexact A2_14
      isplitl [A2_15]; · iexact A2_15
      isplitl [A3_0]; · iexact A3_0
      isplitl [A3_1]; · iexact A3_1
      isplitl [A3_2]; · iexact A3_2
      isplitl [A3_3]; · iexact A3_3
      isplitl [A3_4]; · iexact A3_4
      isplitl [A3_5]; · iexact A3_5
      isplitl [A3_6]; · iexact A3_6
      isplitl [A3_7]; · iexact A3_7
      isplitl [A3_8]; · iexact A3_8
      isplitl [A3_9]; · iexact A3_9
      isplitl [A3_10]; · iexact A3_10
      isplitl [A3_11]; · iexact A3_11
      isplitl [A3_12]; · iexact A3_12
      isplitl [A3_13]; · iexact A3_13
      isplitl [A3_14]; · iexact A3_14
      iexact A3_15
    isplitl [Lc0 Lc1 Lc2 Lc3 Lc4 Lc5 Lc6 Lc7 Lo0 Lo1 Lo2 Lo3 Lo4 Lo5 Lo6 Lo7]
    · isplitl [Lc0]; · iexact Lc0
      isplitl [Lc1]; · iexact Lc1
      isplitl [Lc2]; · iexact Lc2
      isplitl [Lc3]; · iexact Lc3
      isplitl [Lc4]; · iexact Lc4
      isplitl [Lc5]; · iexact Lc5
      isplitl [Lc6]; · iexact Lc6
      isplitl [Lc7]; · iexact Lc7
      isplitl [Lo0]; · iexact Lo0
      isplitl [Lo1]; · iexact Lo1
      isplitl [Lo2]; · iexact Lo2
      isplitl [Lo3]; · iexact Lo3
      isplitl [Lo4]; · iexact Lo4
      isplitl [Lo5]; · iexact Lo5
      isplitl [Lo6]; · iexact Lo6
      iexact Lo7
    isplitl [HO]; · iexact HO
    isplitl [Hx]; · iexact Hx
    isplitl [H1]; · iexact H1
    isplitl [Ho]; · iexact Ho
    isplitl [H3]; · iexact H3
    isplitl [H4w]; · iexact H4w
    isplitl [A0_0_pay1 A0_1_pay1 A0_2_pay1 A0_3_pay1 A0_4_pay1 A0_5_pay1 A0_6_pay1 A0_7_pay1 A0_8_pay1 A0_9_pay1 A0_10_pay1 A0_11_pay1 A0_12_pay1 A0_13_pay1 A0_14_pay1 A0_15_pay1]
    · isplitl [A0_0_pay1]; · iexact A0_0_pay1
      isplitl [A0_1_pay1]; · iexact A0_1_pay1
      isplitl [A0_2_pay1]; · iexact A0_2_pay1
      isplitl [A0_3_pay1]; · iexact A0_3_pay1
      isplitl [A0_4_pay1]; · iexact A0_4_pay1
      isplitl [A0_5_pay1]; · iexact A0_5_pay1
      isplitl [A0_6_pay1]; · iexact A0_6_pay1
      isplitl [A0_7_pay1]; · iexact A0_7_pay1
      isplitl [A0_8_pay1]; · iexact A0_8_pay1
      isplitl [A0_9_pay1]; · iexact A0_9_pay1
      isplitl [A0_10_pay1]; · iexact A0_10_pay1
      isplitl [A0_11_pay1]; · iexact A0_11_pay1
      isplitl [A0_12_pay1]; · iexact A0_12_pay1
      isplitl [A0_13_pay1]; · iexact A0_13_pay1
      isplitl [A0_14_pay1]; · iexact A0_14_pay1
      iexact A0_15_pay1
    isplitl [A2_0_pay1 A2_1_pay1 A2_2_pay1 A2_3_pay1 A2_4_pay1 A2_5_pay1 A2_6_pay1 A2_7_pay1 A2_8_pay1 A2_9_pay1 A2_10_pay1 A2_11_pay1 A2_12_pay1 A2_13_pay1 A2_14_pay1 A2_15_pay1]
    · isplitl [A2_0_pay1]; · iexact A2_0_pay1
      isplitl [A2_1_pay1]; · iexact A2_1_pay1
      isplitl [A2_2_pay1]; · iexact A2_2_pay1
      isplitl [A2_3_pay1]; · iexact A2_3_pay1
      isplitl [A2_4_pay1]; · iexact A2_4_pay1
      isplitl [A2_5_pay1]; · iexact A2_5_pay1
      isplitl [A2_6_pay1]; · iexact A2_6_pay1
      isplitl [A2_7_pay1]; · iexact A2_7_pay1
      isplitl [A2_8_pay1]; · iexact A2_8_pay1
      isplitl [A2_9_pay1]; · iexact A2_9_pay1
      isplitl [A2_10_pay1]; · iexact A2_10_pay1
      isplitl [A2_11_pay1]; · iexact A2_11_pay1
      isplitl [A2_12_pay1]; · iexact A2_12_pay1
      isplitl [A2_13_pay1]; · iexact A2_13_pay1
      isplitl [A2_14_pay1]; · iexact A2_14_pay1
      iexact A2_15_pay1
    isplitl [Hyr0 Hyr1 Hyr2 Hyr3 Hyr4 Hyr5 Hyr6 Hyr7 Hyr8 Hyr9 Hyr10 Hyr11 Hyr12 Hyr13 Hyr14 Hyr15]
    · isplitl [Hyr0]; · iexact Hyr0
      isplitl [Hyr1]; · iexact Hyr1
      isplitl [Hyr2]; · iexact Hyr2
      isplitl [Hyr3]; · iexact Hyr3
      isplitl [Hyr4]; · iexact Hyr4
      isplitl [Hyr5]; · iexact Hyr5
      isplitl [Hyr6]; · iexact Hyr6
      isplitl [Hyr7]; · iexact Hyr7
      isplitl [Hyr8]; · iexact Hyr8
      isplitl [Hyr9]; · iexact Hyr9
      isplitl [Hyr10]; · iexact Hyr10
      isplitl [Hyr11]; · iexact Hyr11
      isplitl [Hyr12]; · iexact Hyr12
      isplitl [Hyr13]; · iexact Hyr13
      isplitl [Hyr14]; · iexact Hyr14
      iexact Hyr15
    isplitl [A3_0_pay1]; · iexact A3_0_pay1
    isplitl [A3_1_pay1]; · iexact A3_1_pay1
    isplitl [A3_2_pay1]; · iexact A3_2_pay1
    isplitl [A3_3_pay1]; · iexact A3_3_pay1
    isplitl [A3_4_pay1]; · iexact A3_4_pay1
    isplitl [A3_5_pay1]; · iexact A3_5_pay1
    isplitl [A3_6_pay1]; · iexact A3_6_pay1
    isplitl [A3_7_pay1]; · iexact A3_7_pay1
    isplitl [A3_8_pay1]; · iexact A3_8_pay1
    isplitl [A3_9_pay1]; · iexact A3_9_pay1
    isplitl [A3_10_pay1]; · iexact A3_10_pay1
    isplitl [A3_11_pay1]; · iexact A3_11_pay1
    isplitl [A3_12_pay1]; · iexact A3_12_pay1
    isplitl [A3_13_pay1]; · iexact A3_13_pay1
    isplitl [A3_14_pay1]; · iexact A3_14_pay1
    iexact A3_15_pay1
  sl_step
  iapply Hk
  iexact Hpost

end Cert.KernelIdeal.Hand
end
-- ==== Proof.BodyX1.lean ====
import proofs.«901046_g7700000000001047_dist_rsdw_v7x_xy2x2_y_m1024_d1024_f4096_f32_1_alg».proof.Proof.Gen.KernelIdeal
import proofs.«901046_g7700000000001047_dist_rsdw_v7x_xy2x2_y_m1024_d1024_f4096_f32_1_alg».proof.Proof.Gen.KernelIdeal.Skeleton
import proofs.«901046_g7700000000001047_dist_rsdw_v7x_xy2x2_y_m1024_d1024_f4096_f32_1_alg».proof.Proof.Gen.KernelIdeal.Launch
import proofs.«901046_g7700000000001047_dist_rsdw_v7x_xy2x2_y_m1024_d1024_f4096_f32_1_alg».proof.Proof.Gen.KernelIdeal.Points
import proofs.«901046_g7700000000001047_dist_rsdw_v7x_xy2x2_y_m1024_d1024_f4096_f32_1_alg».proof.Proof.Proto
import proofs.«901046_g7700000000001047_dist_rsdw_v7x_xy2x2_y_m1024_d1024_f4096_f32_1_alg».proof.Proof.Slots
import proofs.«901046_g7700000000001047_dist_rsdw_v7x_xy2x2_y_m1024_d1024_f4096_f32_1_alg».proof.Proof.Rejoin
import proofs.«901046_g7700000000001047_dist_rsdw_v7x_xy2x2_y_m1024_d1024_f4096_f32_1_alg».proof.Proof.Ledger
import proofs.«901046_g7700000000001047_dist_rsdw_v7x_xy2x2_y_m1024_d1024_f4096_f32_1_alg».proof.Proof.BodyEnds
import proofs.«901046_g7700000000001047_dist_rsdw_v7x_xy2x2_y_m1024_d1024_f4096_f32_1_alg».proof.Proof.BodyExit
import proofs.«901046_g7700000000001047_dist_rsdw_v7x_xy2x2_y_m1024_d1024_f4096_f32_1_alg».proof.Proof.RulesSend
import proofs.«901046_g7700000000001047_dist_rsdw_v7x_xy2x2_y_m1024_d1024_f4096_f32_1_alg».proof.Proof.RulesWait
import proofs.«901046_g7700000000001047_dist_rsdw_v7x_xy2x2_y_m1024_d1024_f4096_f32_1_alg».proof.Proof.Values
import Idealize.ShloMosaic.Lib.Pipeline.Launch
import Idealize.ShloMosaic.Lib.Pipeline.Kit
import Idealize.ShloMosaic.Lib.Tactic
/-! The body on a device with first mesh coordinate 1.

The device starts its eight local copies of `dy`, signals both neighbours' barrier semaphores (handing each its own receive buffer) and waits
for both. It computes, group by group, the sixteen column chunks of the product of the transposed other half of `x` with its half of `dy`
and sends each to the neighbour along the second axis; then, group by group, its own product, adding each chunk it receives and forwarding
that chunk to the neighbour along the first axis; then adds the sixteen forwarded chunks; and copies the eight column blocks of the result
out. Every step that stays on the device is run symbolically; each of the thirty-two transfers to a neighbour is the rounds discipline's
send, the source slot restated at its closed contents first. At the end every cell is closed and every buffer is whole again. -/

set_option maxRecDepth 16384

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.Tactic
local notation "𝕄" => MT nD τ sig Unit (Elt F) ℕ UU ℕ

variable (m : (ℓ : Loc nD τ sig) → Buf (Elt F) ℓ)

attribute [local sl_rounds] duties_ysend duties_yrecv duties_fsend duties_xrecv duties_bar amount_ysend amount_yrecv amount_fsend amount_xrecv amount_bar
  expect_ysend expect_yrecv expect_fsend expect_xrecv expect_bar payload_ysend payload_yrecv payload_fsend payload_xrecv
  payload_bar_false payload_bar_true
attribute [local sl_rounds high] payload_bar_false_at payload_bar_true_at
attribute [local sl_canon] dev1_eq dev2_eq dev3_eq dev4_eq dev5_eq dev6_eq dev7_eq dev8_eq dev9_eq dev10_eq dev11_eq dev12_eq dev13_eq dev14_eq dev15_eq dev16_eq dev17_eq dev18_eq dev19_eq dev20_eq dev21_eq dev22_eq dev23_eq dev24_eq dev25_eq dev26_eq dev27_eq dev28_eq dev29_eq dev30_eq dev31_eq dev32_eq dev33_eq dev34_eq
attribute [local irreducible] ynb xnb

omit [FloatOps F] in
theorem bar_rest_x1 (Sb : (c : Dev nD) → (j : Fin 16) → Buf (Elt F) ((sslot j).view.loc (c : Thread nD τ))) (Yc : (c : Dev nD) → (j : Fin 16) → Buf (Elt F) ((yslot j).view.loc (c : Thread nD τ))) (Xc : (c : Dev nD) → (j : Fin 16) → Buf (Elt F) ((xslot j).view.loc (c : Thread nD τ))) (c : Dev nD) : (bigSep Finset.univ (fun d : Bool => (xRd (F := F) Sb Yc Xc).payload (barCell c) 0 d) : sProp 𝕄)
    = iprop((∃ f, (Memref.whole cc0_scratch3 : Memref sig .tc .vmem S16x512x128 .bf16).view.loc ((ynb c) : Thread nD τ) ↦{fullShare} f) ∗ (∃ f, (Memref.whole cc0_scratch4 : Memref sig .tc .vmem S16x512x128 .bf16).view.loc ((xnb c) : Thread nD τ) ↦{fullShare} f)) := by
  have h := rest_bar (F := F) Sb Yc Xc c
  rwa [Finset.sdiff_empty, duties_bar] at h

set_option maxHeartbeats 0 in
theorem body_x1 (c : Dev nD) (hx0 : c.val / 2 = 1) : BodySpec m (SbV (chunk m)) (YcV (chunk m)) (XcV (chunk m)) (fun _ _ => True) c := by
  intro K W f3 f4 f5 f6 f7 Kt
  unfold ghost creds locals0 posOwn payToks
  iintro ⟨⟨#HIown, #HIpeer, #HR, ⟨Ab, Apos⟩, ⟨Tby, Tbx, Ttoks⟩⟩, ⟨Cb, Ccr⟩, #Hlev, ⟨Lc0, Lc1, Lc2, Lc3, Lc4, Lc5, Lc6, Lc7, Lo0, Lo1, Lo2, Lo3, Lo4, Lo5, Lo6, Lo7⟩, HO, Hx, H1, Ho, H3, H4, H5, Hy, Hxr, Hk⟩
  ihave #HIb := (invsOwn_bar (SbV (chunk m)) (YcV (chunk m)) (XcV (chunk m)) K c) $$ HIown
  ihave #HPby := (invsPeer_by (SbV (chunk m)) (YcV (chunk m)) (XcV (chunk m)) K c) $$ HIpeer
  ihave #HPbx := (invsPeer_bx (SbV (chunk m)) (YcV (chunk m)) (XcV (chunk m)) K c) $$ HIpeer
  ihave #Rby := (reachedAll_by (F := F) c) $$ HR
  ihave #Rbx := (reachedAll_bx (F := F) c) $$ HR
  unfold O₀
  have hmw : ∀ (sm : SemLoc sig) (O : CellTallies nD τ sig Unit), Below c sm O → ((levAts L lv : sProp 𝕄) ⊢ MayWait (c : Thread nD τ) sm () O) := fun sm O h => mayWait_below c sm O h
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  -- the barrier's payloads: the two neighbours' receive buffers
  ihave Hp := (Entails.of_eq (bar_rest_x1 (SbV (chunk m)) (YcV (chunk m)) (XcV (chunk m)) c)) $$ Ab_pay1
  icases Hp with ⟨⟨%fyn, Hyn⟩, ⟨%fxn, Hxn⟩⟩
  -- the three slotted buffers, slot by slot
  ihave Hs := (sslots_split c _) $$ H5
  icases Hs with ⟨Hs0, Hs1, Hs2, Hs3, Hs4, Hs5, Hs6, Hs7, Hs8, Hs9, Hs10, Hs11, Hs12, Hs13, Hs14, Hs15⟩
  ihave Hd := (yslots_split (ynb c) fyn) $$ Hyn
  icases Hd with ⟨Hyn0, Hyn1, Hyn2, Hyn3, Hyn4, Hyn5, Hyn6, Hyn7, Hyn8, Hyn9, Hyn10, Hyn11, Hyn12, Hyn13, Hyn14, Hyn15⟩
  ihave He := (xslots_split (xnb c) fxn) $$ Hxn
  icases He with ⟨Hxn0, Hxn1, Hxn2, Hxn3, Hxn4, Hxn5, Hxn6, Hxn7, Hxn8, Hxn9, Hxn10, Hxn11, Hxn12, Hxn13, Hxn14, Hxn15⟩
  icases Ttoks with ⟨Ts0, Ty0, Ts1, Ty1, Ts2, Ty2, Ts3, Ty3, Ttoks⟩
  ihave Hr0 := (restate_lo_x1 (F := F) m c hx0 0 (by decide) fullShare f5) $$ [Hs0]
  · iexact Hs0
  iapply (wp_send_y (F := F) (SbV (chunk m)) (YcV (chunk m)) (XcV (chunk m)) K c _ (dev3_eq c) 0 _ _ _ _ (fun _ _ => rfl) (land_y_eq (chunk m) c 0 _)) $$ [Hr0 Hyn0 HO Ts0 Ty0]
  · isplitr; · iexact HIown
    isplitr; · iexact HIpeer
    isplitr; · iexact HR
    isplitl [Hr0]; · iexact Hr0
    isplitl [Hyn0]; · iexact Hyn0
    isplitl [HO]; · iexact HO
    isplitl [Ts0]; · iexact Ts0
    iexact Ty0
  iintro ⟨Cs0, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr1 := (restate_lo_x1 (F := F) m c hx0 1 (by decide) fullShare f5) $$ [Hs1]
  · iexact Hs1
  iapply (wp_send_y (F := F) (SbV (chunk m)) (YcV (chunk m)) (XcV (chunk m)) K c _ (dev4_eq c) 1 _ _ _ _ (fun _ _ => rfl) (land_y_eq (chunk m) c 1 _)) $$ [Hr1 Hyn1 HO Ts1 Ty1]
  · isplitr; · iexact HIown
    isplitr; · iexact HIpeer
    isplitr; · iexact HR
    isplitl [Hr1]; · iexact Hr1
    isplitl [Hyn1]; · iexact Hyn1
    isplitl [HO]; · iexact HO
    isplitl [Ts1]; · iexact Ts1
    iexact Ty1
  iintro ⟨Cs1, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr2 := (restate_lo_x1 (F := F) m c hx0 2 (by decide) fullShare f5) $$ [Hs2]
  · iexact Hs2
  iapply (wp_send_y (F := F) (SbV (chunk m)) (YcV (chunk m)) (XcV (chunk m)) K c _ (dev5_eq c) 2 _ _ _ _ (fun _ _ => rfl) (land_y_eq (chunk m) c 2 _)) $$ [Hr2 Hyn2 HO Ts2 Ty2]
  · isplitr; · iexact HIown
    isplitr; · iexact HIpeer
    isplitr; · iexact HR
    isplitl [Hr2]; · iexact Hr2
    isplitl [Hyn2]; · iexact Hyn2
    isplitl [HO]; · iexact HO
    isplitl [Ts2]; · iexact Ts2
    iexact Ty2
  iintro ⟨Cs2, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr3 := (restate_lo_x1 (F := F) m c hx0 3 (by decide) fullShare f5) $$ [Hs3]
  · iexact Hs3
  iapply (wp_send_y (F := F) (SbV (chunk m)) (YcV (chunk m)) (XcV (chunk m)) K c _ (dev6_eq c) 3 _ _ _ _ (fun _ _ => rfl) (land_y_eq (chunk m) c 3 _)) $$ [Hr3 Hyn3 HO Ts3 Ty3]
  · isplitr; · iexact HIown
    isplitr; · iexact HIpeer
    isplitr; · iexact HR
    isplitl [Hr3]; · iexact Hr3
    isplitl [Hyn3]; · iexact Hyn3
    isplitl [HO]; · iexact HO
    isplitl [Ts3]; · iexact Ts3
    iexact Ty3
  iintro ⟨Cs3, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  icases Ttoks with ⟨Ts4, Ty4, Ts5, Ty5, Ts6, Ty6, Ts7, Ty7, Ttoks⟩
  ihave Hr4 := (restate_hi_x1 (F := F) m c hx0 4 (by decide) fullShare f5) $$ [Hs4]
  · iexact Hs4
  iapply (wp_send_y (F := F) (SbV (chunk m)) (YcV (chunk m)) (XcV (chunk m)) K c _ (dev7_eq c) 4 _ _ _ _ (fun _ _ => rfl) (land_y_eq (chunk m) c 4 _)) $$ [Hr4 Hyn4 HO Ts4 Ty4]
  · isplitr; · iexact HIown
    isplitr; · iexact HIpeer
    isplitr; · iexact HR
    isplitl [Hr4]; · iexact Hr4
    isplitl [Hyn4]; · iexact Hyn4
    isplitl [HO]; · iexact HO
    isplitl [Ts4]; · iexact Ts4
    iexact Ty4
  iintro ⟨Cs4, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr5 := (restate_hi_x1 (F := F) m c hx0 5 (by decide) fullShare f5) $$ [Hs5]
  · iexact Hs5
  iapply (wp_send_y (F := F) (SbV (chunk m)) (YcV (chunk m)) (XcV (chunk m)) K c _ (dev8_eq c) 5 _ _ _ _ (fun _ _ => rfl) (land_y_eq (chunk m) c 5 _)) $$ [Hr5 Hyn5 HO Ts5 Ty5]
  · isplitr; · iexact HIown
    isplitr; · iexact HIpeer
    isplitr; · iexact HR
    isplitl [Hr5]; · iexact Hr5
    isplitl [Hyn5]; · iexact Hyn5
    isplitl [HO]; · iexact HO
    isplitl [Ts5]; · iexact Ts5
    iexact Ty5
  iintro ⟨Cs5, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr6 := (restate_hi_x1 (F := F) m c hx0 6 (by decide) fullShare f5) $$ [Hs6]
  · iexact Hs6
  iapply (wp_send_y (F := F) (SbV (chunk m)) (YcV (chunk m)) (XcV (chunk m)) K c _ (dev9_eq c) 6 _ _ _ _ (fun _ _ => rfl) (land_y_eq (chunk m) c 6 _)) $$ [Hr6 Hyn6 HO Ts6 Ty6]
  · isplitr; · iexact HIown
    isplitr; · iexact HIpeer
    isplitr; · iexact HR
    isplitl [Hr6]; · iexact Hr6
    isplitl [Hyn6]; · iexact Hyn6
    isplitl [HO]; · iexact HO
    isplitl [Ts6]; · iexact Ts6
    iexact Ty6
  iintro ⟨Cs6, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr7 := (restate_hi_x1 (F := F) m c hx0 7 (by decide) fullShare f5) $$ [Hs7]
  · iexact Hs7
  iapply (wp_send_y (F := F) (SbV (chunk m)) (YcV (chunk m)) (XcV (chunk m)) K c _ (dev10_eq c) 7 _ _ _ _ (fun _ _ => rfl) (land_y_eq (chunk m) c 7 _)) $$ [Hr7 Hyn7 HO Ts7 Ty7]
  · isplitr; · iexact HIown
    isplitr; · iexact HIpeer
    isplitr; · iexact HR
    isplitl [Hr7]; · iexact Hr7
    isplitl [Hyn7]; · iexact Hyn7
    isplitl [HO]; · iexact HO
    isplitl [Ts7]; · iexact Ts7
    iexact Ty7
  iintro ⟨Cs7, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  icases Ttoks with ⟨Ts8, Ty8, Ts9, Ty9, Ts10, Ty10, Ts11, Ty11, Ttoks⟩
  ihave Hr8 := (restate_hi_x1 (F := F) m c hx0 8 (by decide) fullShare f5) $$ [Hs8]
  · iexact Hs8
  iapply (wp_send_y (F := F) (SbV (chunk m)) (YcV (chunk m)) (XcV (chunk m)) K c _ (dev11_eq c) 8 _ _ _ _ (fun _ _ => rfl) (land_y_eq (chunk m) c 8 _)) $$ [Hr8 Hyn8 HO Ts8 Ty8]
  · isplitr; · iexact HIown
    isplitr; · iexact HIpeer
    isplitr; · iexact HR
    isplitl [Hr8]; · iexact Hr8
    isplitl [Hyn8]; · iexact Hyn8
    isplitl [HO]; · iexact HO
    isplitl [Ts8]; · iexact Ts8
    iexact Ty8
  iintro ⟨Cs8, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr9 := (restate_hi_x1 (F := F) m c hx0 9 (by decide) fullShare f5) $$ [Hs9]
  · iexact Hs9
  iapply (wp_send_y (F := F) (SbV (chunk m)) (YcV (chunk m)) (XcV (chunk m)) K c _ (dev12_eq c) 9 _ _ _ _ (fun _ _ => rfl) (land_y_eq (chunk m) c 9 _)) $$ [Hr9 Hyn9 HO Ts9 Ty9]
  · isplitr; · iexact HIown
    isplitr; · iexact HIpeer
    isplitr; · iexact HR
    isplitl [Hr9]; · iexact Hr9
    isplitl [Hyn9]; · iexact Hyn9
    isplitl [HO]; · iexact HO
    isplitl [Ts9]; · iexact Ts9
    iexact Ty9
  iintro ⟨Cs9, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr10 := (restate_hi_x1 (F := F) m c hx0 10 (by decide) fullShare f5) $$ [Hs10]
  · iexact Hs10
  iapply (wp_send_y (F := F) (SbV (chunk m)) (YcV (chunk m)) (XcV (chunk m)) K c _ (dev13_eq c) 10 _ _ _ _ (fun _ _ => rfl) (land_y_eq (chunk m) c 10 _)) $$ [Hr10 Hyn10 HO Ts10 Ty10]
  · isplitr; · iexact HIown
    isplitr; · iexact HIpeer
    isplitr; · iexact HR
    isplitl [Hr10]; · iexact Hr10
    isplitl [Hyn10]; · iexact Hyn10
    isplitl [HO]; · iexact HO
    isplitl [Ts10]; · iexact Ts10
    iexact Ty10
  iintro ⟨Cs10, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr11 := (restate_hi_x1 (F := F) m c hx0 11 (by decide) fullShare f5) $$ [Hs11]
  · iexact Hs11
  iapply (wp_send_y (F := F) (SbV (chunk m)) (YcV (chunk m)) (XcV (chunk m)) K c _ (dev14_eq c) 11 _ _ _ _ (fun _ _ => rfl) (land_y_eq (chunk m) c 11 _)) $$ [Hr11 Hyn11 HO Ts11 Ty11]
  · isplitr; · iexact HIown
    isplitr; · iexact HIpeer
    isplitr; · iexact HR
    isplitl [Hr11]; · iexact Hr11
    isplitl [Hyn11]; · iexact Hyn11
    isplitl [HO]; · iexact HO
    isplitl [Ts11]; · iexact Ts11
    iexact Ty11
  iintro ⟨Cs11, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  icases Ttoks with ⟨Ts12, Ty12, Ts13, Ty13, Ts14, Ty14, Ts15, Ty15, Ttoks⟩
  ihave Hr12 := (restate_hi_x1 (F := F) m c hx0 12 (by decide) fullShare f5) $$ [Hs12]
  · iexact Hs12
  iapply (wp_send_y (F := F) (SbV (chunk m)) (YcV (chunk m)) (XcV (chunk m)) K c _ (dev15_eq c) 12 _ _ _ _ (fun _ _ => rfl) (land_y_eq (chunk m) c 12 _)) $$ [Hr12 Hyn12 HO Ts12 Ty12]
  · isplitr; · iexact HIown
    isplitr; · iexact HIpeer
    isplitr; · iexact HR
    isplitl [Hr12]; · iexact Hr12
    isplitl [Hyn12]; · iexact Hyn12
    isplitl [HO]; · iexact HO
    isplitl [Ts12]; · iexact Ts12
    iexact Ty12
  iintro ⟨Cs12, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr13 := (restate_hi_x1 (F := F) m c hx0 13 (by decide) fullShare f5) $$ [Hs13]
  · iexact Hs13
  iapply (wp_send_y (F := F) (SbV (chunk m)) (YcV (chunk m)) (XcV (chunk m)) K c _ (dev16_eq c) 13 _ _ _ _ (fun _ _ => rfl) (land_y_eq (chunk m) c 13 _)) $$ [Hr13 Hyn13 HO Ts13 Ty13]
  · isplitr; · iexact HIown
    isplitr; · iexact HIpeer
    isplitr; · iexact HR
    isplitl [Hr13]; · iexact Hr13
    isplitl [Hyn13]; · iexact Hyn13
    isplitl [HO]; · iexact HO
    isplitl [Ts13]; · iexact Ts13
    iexact Ty13
  iintro ⟨Cs13, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr14 := (restate_hi_x1 (F := F) m c hx0 14 (by decide) fullShare f5) $$ [Hs14]
  · iexact Hs14
  iapply (wp_send_y (F := F) (SbV (chunk m)) (YcV (chunk m)) (XcV (chunk m)) K c _ (dev17_eq c) 14 _ _ _ _ (fun _ _ => rfl) (land_y_eq (chunk m) c 14 _)) $$ [Hr14 Hyn14 HO Ts14 Ty14]
  · isplitr; · iexact HIown
    isplitr; · iexact HIpeer
    isplitr; · iexact HR
    isplitl [Hr14]; · iexact Hr14
    isplitl [Hyn14]; · iexact Hyn14
    isplitl [HO]; · iexact HO
    isplitl [Ts14]; · iexact Ts14
    iexact Ty14
  iintro ⟨Cs14, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr15 := (restate_hi_x1 (F := F) m c hx0 15 (by decide) fullShare f5) $$ [Hs15]
  · iexact Hs15
  iapply (wp_send_y (F := F) (SbV (chunk m)) (YcV (chunk m)) (XcV (chunk m)) K c _ (dev18_eq c) 15 _ _ _ _ (fun _ _ => rfl) (land_y_eq (chunk m) c 15 _)) $$ [Hr15 Hyn15 HO Ts15 Ty15]
  · isplitr; · iexact HIown
    isplitr; · iexact HIpeer
    isplitr; · iexact HR
    isplitl [Hr15]; · iexact Hr15
    isplitl [Hyn15]; · iexact Hyn15
    isplitl [HO]; · iexact HO
    isplitl [Ts15]; · iexact Ts15
    iexact Ty15
  iintro ⟨Cs15, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave #HI1_0 := (invsOwn_yrecv (SbV (chunk m)) (YcV (chunk m)) (XcV (chunk m)) K c 0) $$ HIown
  ihave #HI1_1 := (invsOwn_yrecv (SbV (chunk m)) (YcV (chunk m)) (XcV (chunk m)) K c 1) $$ HIown
  ihave #HI1_2 := (invsOwn_yrecv (SbV (chunk m)) (YcV (chunk m)) (XcV (chunk m)) K c 2) $$ HIown
  ihave #HI1_3 := (invsOwn_yrecv (SbV (chunk m)) (YcV (chunk m)) (XcV (chunk m)) K c 3) $$ HIown
  icases Apos with ⟨A1_0, A1_1, A1_2, A1_3, Apos⟩
  icases Ccr with ⟨Cy0, Cy1, Cy2, Cy3, Ccr⟩
  icases Ttoks with ⟨Tf0, Tx0, Tf1, Tx1, Tf2, Tx2, Tf3, Tx3, Ttoks⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh0 := ((yslot_halves (F := F) c 0 _).1) $$ A1_0_pay1
  icases Hh0 with ⟨Hyl0, Hyr0⟩
  iapply (wp_send_f (F := F) (SbV (chunk m)) (YcV (chunk m)) (XcV (chunk m)) K c _ (dev19_eq c) 0 _ _ _ _ (fun _ _ => rfl) (land_f_eq (chunk m) c 0 _)) $$ [Hyl0 Hxn0 HO Tf0 Tx0]
  · isplitr; · iexact HIown
    isplitr; · iexact HIpeer
    isplitr; · iexact HR
    isplitl [Hyl0]; · iexact Hyl0
    isplitl [Hxn0]; · iexact Hxn0
    isplitl [HO]; · iexact HO
    isplitl [Tf0]; · iexact Tf0
    iexact Tx0
  iintro ⟨Cf0, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh1 := ((yslot_halves (F := F) c 1 _).1) $$ A1_1_pay1
  icases Hh1 with ⟨Hyl1, Hyr1⟩
  iapply (wp_send_f (F := F) (SbV (chunk m)) (YcV (chunk m)) (XcV (chunk m)) K c _ (dev20_eq c) 1 _ _ _ _ (fun _ _ => rfl) (land_f_eq (chunk m) c 1 _)) $$ [Hyl1 Hxn1 HO Tf1 Tx1]
  · isplitr; · iexact HIown
    isplitr; · iexact HIpeer
    isplitr; · iexact HR
    isplitl [Hyl1]; · iexact Hyl1
    isplitl [Hxn1]; · iexact Hxn1
    isplitl [HO]; · iexact HO
    isplitl [Tf1]; · iexact Tf1
    iexact Tx1
  iintro ⟨Cf1, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh2 := ((yslot_halves (F := F) c 2 _).1) $$ A1_2_pay1
  icases Hh2 with ⟨Hyl2, Hyr2⟩
  iapply (wp_send_f (F := F) (SbV (chunk m)) (YcV (chunk m)) (XcV (chunk m)) K c _ (dev21_eq c) 2 _ _ _ _ (fun _ _ => rfl) (land_f_eq (chunk m) c 2 _)) $$ [Hyl2 Hxn2 HO Tf2 Tx2]
  · isplitr; · iexact HIown
    isplitr; · iexact HIpeer
    isplitr; · iexact HR
    isplitl [Hyl2]; · iexact Hyl2
    isplitl [Hxn2]; · iexact Hxn2
    isplitl [HO]; · iexact HO
    isplitl [Tf2]; · iexact Tf2
    iexact Tx2
  iintro ⟨Cf2, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh3 := ((yslot_halves (F := F) c 3 _).1) $$ A1_3_pay1
  icases Hh3 with ⟨Hyl3, Hyr3⟩
  iapply (wp_send_f (F := F) (SbV (chunk m)) (YcV (chunk m)) (XcV (chunk m)) K c _ (dev22_eq c) 3 _ _ _ _ (fun _ _ => rfl) (land_f_eq (chunk m) c 3 _)) $$ [Hyl3 Hxn3 HO Tf3 Tx3]
  · isplitr; · iexact HIown
    isplitr; · iexact HIpeer
    isplitr; · iexact HR
    isplitl [Hyl3]; · iexact Hyl3
    isplitl [Hxn3]; · iexact Hxn3
    isplitl [HO]; · iexact HO
    isplitl [Tf3]; · iexact Tf3
    iexact Tx3
  iintro ⟨Cf3, HO⟩
  iclear HI1_0
  iclear HI1_1
  iclear HI1_2
  iclear HI1_3
  ihave #HI1_4 := (invsOwn_yrecv (SbV (chunk m)) (YcV (chunk m)) (XcV (chunk m)) K c 4) $$ HIown
  ihave #HI1_5 := (invsOwn_yrecv (SbV (chunk m)) (YcV (chunk m)) (XcV (chunk m)) K c 5) $$ HIown
  ihave #HI1_6 := (invsOwn_yrecv (SbV (chunk m)) (YcV (chunk m)) (XcV (chunk m)) K c 6) $$ HIown
  ihave #HI1_7 := (invsOwn_yrecv (SbV (chunk m)) (YcV (chunk m)) (XcV (chunk m)) K c 7) $$ HIown
  icases Apos with ⟨A1_4, A1_5, A1_6, A1_7, Apos⟩
  icases Ccr with ⟨Cy4, Cy5, Cy6, Cy7, Ccr⟩
  icases Ttoks with ⟨Tf4, Tx4, Tf5, Tx5, Tf6, Tx6, Tf7, Tx7, Ttoks⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh4 := ((yslot_halves (F := F) c 4 _).1) $$ A1_4_pay1
  icases Hh4 with ⟨Hyl4, Hyr4⟩
  iapply (wp_send_f (F := F) (SbV (chunk m)) (YcV (chunk m)) (XcV (chunk m)) K c _ (dev23_eq c) 4 _ _ _ _ (fun _ _ => rfl) (land_f_eq (chunk m) c 4 _)) $$ [Hyl4 Hxn4 HO Tf4 Tx4]
  · isplitr; · iexact HIown
    isplitr; · iexact HIpeer
    isplitr; · iexact HR
    isplitl [Hyl4]; · iexact Hyl4
    isplitl [Hxn4]; · iexact Hxn4
    isplitl [HO]; · iexact HO
    isplitl [Tf4]; · iexact Tf4
    iexact Tx4
  iintro ⟨Cf4, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh5 := ((yslot_halves (F := F) c 5 _).1) $$ A1_5_pay1
  icases Hh5 with ⟨Hyl5, Hyr5⟩
  iapply (wp_send_f (F := F) (SbV (chunk m)) (YcV (chunk m)) (XcV (chunk m)) K c _ (dev24_eq c) 5 _ _ _ _ (fun _ _ => rfl) (land_f_eq (chunk m) c 5 _)) $$ [Hyl5 Hxn5 HO Tf5 Tx5]
  · isplitr; · iexact HIown
    isplitr; · iexact HIpeer
    isplitr; · iexact HR
    isplitl [Hyl5]; · iexact Hyl5
    isplitl [Hxn5]; · iexact Hxn5
    isplitl [HO]; · iexact HO
    isplitl [Tf5]; · iexact Tf5
    iexact Tx5
  iintro ⟨Cf5, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh6 := ((yslot_halves (F := F) c 6 _).1) $$ A1_6_pay1
  icases Hh6 with ⟨Hyl6, Hyr6⟩
  iapply (wp_send_f (F := F) (SbV (chunk m)) (YcV (chunk m)) (XcV (chunk m)) K c _ (dev25_eq c) 6 _ _ _ _ (fun _ _ => rfl) (land_f_eq (chunk m) c 6 _)) $$ [Hyl6 Hxn6 HO Tf6 Tx6]
  · isplitr; · iexact HIown
    isplitr; · iexact HIpeer
    isplitr; · iexact HR
    isplitl [Hyl6]; · iexact Hyl6
    isplitl [Hxn6]; · iexact Hxn6
    isplitl [HO]; · iexact HO
    isplitl [Tf6]; · iexact Tf6
    iexact Tx6
  iintro ⟨Cf6, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh7 := ((yslot_halves (F := F) c 7 _).1) $$ A1_7_pay1
  icases Hh7 with ⟨Hyl7, Hyr7⟩
  iapply (wp_send_f (F := F) (SbV (chunk m)) (YcV (chunk m)) (XcV (chunk m)) K c _ (dev26_eq c) 7 _ _ _ _ (fun _ _ => rfl) (land_f_eq (chunk m) c 7 _)) $$ [Hyl7 Hxn7 HO Tf7 Tx7]
  · isplitr; · iexact HIown
    isplitr; · iexact HIpeer
    isplitr; · iexact HR
    isplitl [Hyl7]; · iexact Hyl7
    isplitl [Hxn7]; · iexact Hxn7
    isplitl [HO]; · iexact HO
    isplitl [Tf7]; · iexact Tf7
    iexact Tx7
  iintro ⟨Cf7, HO⟩
  iclear HI1_4
  iclear HI1_5
  iclear HI1_6
  iclear HI1_7
  ihave #HI1_8 := (invsOwn_yrecv (SbV (chunk m)) (YcV (chunk m)) (XcV (chunk m)) K c 8) $$ HIown
  ihave #HI1_9 := (invsOwn_yrecv (SbV (chunk m)) (YcV (chunk m)) (XcV (chunk m)) K c 9) $$ HIown
  ihave #HI1_10 := (invsOwn_yrecv (SbV (chunk m)) (YcV (chunk m)) (XcV (chunk m)) K c 10) $$ HIown
  ihave #HI1_11 := (invsOwn_yrecv (SbV (chunk m)) (YcV (chunk m)) (XcV (chunk m)) K c 11) $$ HIown
  icases Apos with ⟨A1_8, A1_9, A1_10, A1_11, Apos⟩
  icases Ccr with ⟨Cy8, Cy9, Cy10, Cy11, Ccr⟩
  icases Ttoks with ⟨Tf8, Tx8, Tf9, Tx9, Tf10, Tx10, Tf11, Tx11, Ttoks⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh8 := ((yslot_halves (F := F) c 8 _).1) $$ A1_8_pay1
  icases Hh8 with ⟨Hyl8, Hyr8⟩
  iapply (wp_send_f (F := F) (SbV (chunk m)) (YcV (chunk m)) (XcV (chunk m)) K c _ (dev27_eq c) 8 _ _ _ _ (fun _ _ => rfl) (land_f_eq (chunk m) c 8 _)) $$ [Hyl8 Hxn8 HO Tf8 Tx8]
  · isplitr; · iexact HIown
    isplitr; · iexact HIpeer
    isplitr; · iexact HR
    isplitl [Hyl8]; · iexact Hyl8
    isplitl [Hxn8]; · iexact Hxn8
    isplitl [HO]; · iexact HO
    isplitl [Tf8]; · iexact Tf8
    iexact Tx8
  iintro ⟨Cf8, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh9 := ((yslot_halves (F := F) c 9 _).1) $$ A1_9_pay1
  icases Hh9 with ⟨Hyl9, Hyr9⟩
  iapply (wp_send_f (F := F) (SbV (chunk m)) (YcV (chunk m)) (XcV (chunk m)) K c _ (dev28_eq c) 9 _ _ _ _ (fun _ _ => rfl) (land_f_eq (chunk m) c 9 _)) $$ [Hyl9 Hxn9 HO Tf9 Tx9]
  · isplitr; · iexact HIown
    isplitr; · iexact HIpeer
    isplitr; · iexact HR
    isplitl [Hyl9]; · iexact Hyl9
    isplitl [Hxn9]; · iexact Hxn9
    isplitl [HO]; · iexact HO
    isplitl [Tf9]; · iexact Tf9
    iexact Tx9
  iintro ⟨Cf9, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh10 := ((yslot_halves (F := F) c 10 _).1) $$ A1_10_pay1
  icases Hh10 with ⟨Hyl10, Hyr10⟩
  iapply (wp_send_f (F := F) (SbV (chunk m)) (YcV (chunk m)) (XcV (chunk m)) K c _ (dev29_eq c) 10 _ _ _ _ (fun _ _ => rfl) (land_f_eq (chunk m) c 10 _)) $$ [Hyl10 Hxn10 HO Tf10 Tx10]
  · isplitr; · iexact HIown
    isplitr; · iexact HIpeer
    isplitr; · iexact HR
    isplitl [Hyl10]; · iexact Hyl10
    isplitl [Hxn10]; · iexact Hxn10
    isplitl [HO]; · iexact HO
    isplitl [Tf10]; · iexact Tf10
    iexact Tx10
  iintro ⟨Cf10, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh11 := ((yslot_halves (F := F) c 11 _).1) $$ A1_11_pay1
  icases Hh11 with ⟨Hyl11, Hyr11⟩
  iapply (wp_send_f (F := F) (SbV (chunk m)) (YcV (chunk m)) (XcV (chunk m)) K c _ (dev30_eq c) 11 _ _ _ _ (fun _ _ => rfl) (land_f_eq (chunk m) c 11 _)) $$ [Hyl11 Hxn11 HO Tf11 Tx11]
  · isplitr; · iexact HIown
    isplitr; · iexact HIpeer
    isplitr; · iexact HR
    isplitl [Hyl11]; · iexact Hyl11
    isplitl [Hxn11]; · iexact Hxn11
    isplitl [HO]; · iexact HO
    isplitl [Tf11]; · iexact Tf11
    iexact Tx11
  iintro ⟨Cf11, HO⟩
  iclear HI1_8
  iclear HI1_9
  iclear HI1_10
  iclear HI1_11
  ihave #HI1_12 := (invsOwn_yrecv (SbV (chunk m)) (YcV (chunk m)) (XcV (chunk m)) K c 12) $$ HIown
  ihave #HI1_13 := (invsOwn_yrecv (SbV (chunk m)) (YcV (chunk m)) (XcV (chunk m)) K c 13) $$ HIown
  ihave #HI1_14 := (invsOwn_yrecv (SbV (chunk m)) (YcV (chunk m)) (XcV (chunk m)) K c 14) $$ HIown
  ihave #HI1_15 := (invsOwn_yrecv (SbV (chunk m)) (YcV (chunk m)) (XcV (chunk m)) K c 15) $$ HIown
  icases Apos with ⟨A1_12, A1_13, A1_14, A1_15, Apos⟩
  icases Ccr with ⟨Cy12, Cy13, Cy14, Cy15, Ccr⟩
  icases Ttoks with ⟨Tf12, Tx12, Tf13, Tx13, Tf14, Tx14, Tf15, Tx15⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh12 := ((yslot_halves (F := F) c 12 _).1) $$ A1_12_pay1
  icases Hh12 with ⟨Hyl12, Hyr12⟩
  iapply (wp_send_f (F := F) (SbV (chunk m)) (YcV (chunk m)) (XcV (chunk m)) K c _ (dev31_eq c) 12 _ _ _ _ (fun _ _ => rfl) (land_f_eq (chunk m) c 12 _)) $$ [Hyl12 Hxn12 HO Tf12 Tx12]
  · isplitr; · iexact HIown
    isplitr; · iexact HIpeer
    isplitr; · iexact HR
    isplitl [Hyl12]; · iexact Hyl12
    isplitl [Hxn12]; · iexact Hxn12
    isplitl [HO]; · iexact HO
    isplitl [Tf12]; · iexact Tf12
    iexact Tx12
  iintro ⟨Cf12, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh13 := ((yslot_halves (F := F) c 13 _).1) $$ A1_13_pay1
  icases Hh13 with ⟨Hyl13, Hyr13⟩
  iapply (wp_send_f (F := F) (SbV (chunk m)) (YcV (chunk m)) (XcV (chunk m)) K c _ (dev32_eq c) 13 _ _ _ _ (fun _ _ => rfl) (land_f_eq (chunk m) c 13 _)) $$ [Hyl13 Hxn13 HO Tf13 Tx13]
  · isplitr; · iexact HIown
    isplitr; · iexact HIpeer
    isplitr; · iexact HR
    isplitl [Hyl13]; · iexact Hyl13
    isplitl [Hxn13]; · iexact Hxn13
    isplitl [HO]; · iexact HO
    isplitl [Tf13]; · iexact Tf13
    iexact Tx13
  iintro ⟨Cf13, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh14 := ((yslot_halves (F := F) c 14 _).1) $$ A1_14_pay1
  icases Hh14 with ⟨Hyl14, Hyr14⟩
  iapply (wp_send_f (F := F) (SbV (chunk m)) (YcV (chunk m)) (XcV (chunk m)) K c _ (dev33_eq c) 14 _ _ _ _ (fun _ _ => rfl) (land_f_eq (chunk m) c 14 _)) $$ [Hyl14 Hxn14 HO Tf14 Tx14]
  · isplitr; · iexact HIown
    isplitr; · iexact HIpeer
    isplitr; · iexact HR
    isplitl [Hyl14]; · iexact Hyl14
    isplitl [Hxn14]; · iexact Hxn14
    isplitl [HO]; · iexact HO
    isplitl [Tf14]; · iexact Tf14
    iexact Tx14
  iintro ⟨Cf14, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh15 := ((yslot_halves (F := F) c 15 _).1) $$ A1_15_pay1
  icases Hh15 with ⟨Hyl15, Hyr15⟩
  ihave HO := (Entails.of_eq (congrArg (fun O => (owes (c : Thread nD τ) O _ : sProp 𝕄)) (zero_add (tallyAt (xrecvCell (xnb c) 15) () N)).symm)) $$ HO
  iapply (wp_send_f (F := F) (SbV (chunk m)) (YcV (chunk m)) (XcV (chunk m)) K c _ (dev34_eq c) 15 _ _ _ _ (fun _ _ => rfl) (land_f_eq (chunk m) c 15 _)) $$ [Hyl15 Hxn15 HO Tf15 Tx15]
  · isplitr; · iexact HIown
    isplitr; · iexact HIpeer
    isplitr; · iexact HR
    isplitl [Hyl15]; · iexact Hyl15
    isplitl [Hxn15]; · iexact Hxn15
    isplitl [HO]; · iexact HO
    isplitl [Tf15]; · iexact Tf15
    iexact Tx15
  iintro ⟨Cf15, HO⟩
  iclear HI1_12
  iclear HI1_13
  iclear HI1_14
  iclear HI1_15
  ihave #HI3_0 := (invsOwn_xrecv (SbV (chunk m)) (YcV (chunk m)) (XcV (chunk m)) K c 0) $$ HIown
  ihave #HI3_1 := (invsOwn_xrecv (SbV (chunk m)) (YcV (chunk m)) (XcV (chunk m)) K c 1) $$ HIown
  ihave #HI3_2 := (invsOwn_xrecv (SbV (chunk m)) (YcV (chunk m)) (XcV (chunk m)) K c 2) $$ HIown
  ihave #HI3_3 := (invsOwn_xrecv (SbV (chunk m)) (YcV (chunk m)) (XcV (chunk m)) K c 3) $$ HIown
  icases Apos with ⟨A3_0, A3_1, A3_2, A3_3, Apos⟩
  icases Ccr with ⟨Cx0, Cx1, Cx2, Cx3, Ccr⟩
  ihave #HI3_4 := (invsOwn_xrecv (SbV (chunk m)) (YcV (chunk m)) (XcV (chunk m)) K c 4) $$ HIown
  ihave #HI3_5 := (invsOwn_xrecv (SbV (chunk m)) (YcV (chunk m)) (XcV (chunk m)) K c 5) $$ HIown
  ihave #HI3_6 := (invsOwn_xrecv (SbV (chunk m)) (YcV (chunk m)) (XcV (chunk m)) K c 6) $$ HIown
  ihave #HI3_7 := (invsOwn_xrecv (SbV (chunk m)) (YcV (chunk m)) (XcV (chunk m)) K c 7) $$ HIown
  icases Apos with ⟨A3_4, A3_5, A3_6, A3_7, Apos⟩
  icases Ccr with ⟨Cx4, Cx5, Cx6, Cx7, Ccr⟩
  ihave #HI3_8 := (invsOwn_xrecv (SbV (chunk m)) (YcV (chunk m)) (XcV (chunk m)) K c 8) $$ HIown
  ihave #HI3_9 := (invsOwn_xrecv (SbV (chunk m)) (YcV (chunk m)) (XcV (chunk m)) K c 9) $$ HIown
  ihave #HI3_10 := (invsOwn_xrecv (SbV (chunk m)) (YcV (chunk m)) (XcV (chunk m)) K c 10) $$ HIown
  ihave #HI3_11 := (invsOwn_xrecv (SbV (chunk m)) (YcV (chunk m)) (XcV (chunk m)) K c 11) $$ HIown
  icases Apos with ⟨A3_8, A3_9, A3_10, A3_11, Apos⟩
  icases Ccr with ⟨Cx8, Cx9, Cx10, Cx11, Ccr⟩
  ihave #HI3_12 := (invsOwn_xrecv (SbV (chunk m)) (YcV (chunk m)) (XcV (chunk m)) K c 12) $$ HIown
  ihave #HI3_13 := (invsOwn_xrecv (SbV (chunk m)) (YcV (chunk m)) (XcV (chunk m)) K c 13) $$ HIown
  ihave #HI3_14 := (invsOwn_xrecv (SbV (chunk m)) (YcV (chunk m)) (XcV (chunk m)) K c 14) $$ HIown
  ihave #HI3_15 := (invsOwn_xrecv (SbV (chunk m)) (YcV (chunk m)) (XcV (chunk m)) K c 15) $$ HIown
  icases Apos with ⟨A3_12, A3_13, A3_14, A3_15, Apos⟩
  icases Ccr with ⟨Cx12, Cx13, Cx14, Cx15⟩
  ihave #HI0_0 := (invsOwn_ysend (SbV (chunk m)) (YcV (chunk m)) (XcV (chunk m)) K c 0) $$ HIown
  ihave #HI2_0 := (invsOwn_fsend (SbV (chunk m)) (YcV (chunk m)) (XcV (chunk m)) K c 0) $$ HIown
  ihave #HI0_1 := (invsOwn_ysend (SbV (chunk m)) (YcV (chunk m)) (XcV (chunk m)) K c 1) $$ HIown
  ihave #HI2_1 := (invsOwn_fsend (SbV (chunk m)) (YcV (chunk m)) (XcV (chunk m)) K c 1) $$ HIown
  ihave #HI0_2 := (invsOwn_ysend (SbV (chunk m)) (YcV (chunk m)) (XcV (chunk m)) K c 2) $$ HIown
  ihave #HI2_2 := (invsOwn_fsend (SbV (chunk m)) (YcV (chunk m)) (XcV (chunk m)) K c 2) $$ HIown
  ihave #HI0_3 := (invsOwn_ysend (SbV (chunk m)) (YcV (chunk m)) (XcV (chunk m)) K c 3) $$ HIown
  ihave #HI2_3 := (invsOwn_fsend (SbV (chunk m)) (YcV (chunk m)) (XcV (chunk m)) K c 3) $$ HIown
  icases Apos with ⟨A0_0, A2_0, A0_1, A2_1, A0_2, A2_2, A0_3, A2_3, Apos⟩
  ihave #HI0_4 := (invsOwn_ysend (SbV (chunk m)) (YcV (chunk m)) (XcV (chunk m)) K c 4) $$ HIown
  ihave #HI2_4 := (invsOwn_fsend (SbV (chunk m)) (YcV (chunk m)) (XcV (chunk m)) K c 4) $$ HIown
  ihave #HI0_5 := (invsOwn_ysend (SbV (chunk m)) (YcV (chunk m)) (XcV (chunk m)) K c 5) $$ HIown
  ihave #HI2_5 := (invsOwn_fsend (SbV (chunk m)) (YcV (chunk m)) (XcV (chunk m)) K c 5) $$ HIown
  ihave #HI0_6 := (invsOwn_ysend (SbV (chunk m)) (YcV (chunk m)) (XcV (chunk m)) K c 6) $$ HIown
  ihave #HI2_6 := (invsOwn_fsend (SbV (chunk m)) (YcV (chunk m)) (XcV (chunk m)) K c 6) $$ HIown
  ihave #HI0_7 := (invsOwn_ysend (SbV (chunk m)) (YcV (chunk m)) (XcV (chunk m)) K c 7) $$ HIown
  ihave #HI2_7 := (invsOwn_fsend (SbV (chunk m)) (YcV (chunk m)) (XcV (chunk m)) K c 7) $$ HIown
  icases Apos with ⟨A0_4, A2_4, A0_5, A2_5, A0_6, A2_6, A0_7, A2_7, Apos⟩
  ihave #HI0_8 := (invsOwn_ysend (SbV (chunk m)) (YcV (chunk m)) (XcV (chunk m)) K c 8) $$ HIown
  ihave #HI2_8 := (invsOwn_fsend (SbV (chunk m)) (YcV (chunk m)) (XcV (chunk m)) K c 8) $$ HIown
  ihave #HI0_9 := (invsOwn_ysend (SbV (chunk m)) (YcV (chunk m)) (XcV (chunk m)) K c 9) $$ HIown
  ihave #HI2_9 := (invsOwn_fsend (SbV (chunk m)) (YcV (chunk m)) (XcV (chunk m)) K c 9) $$ HIown
  ihave #HI0_10 := (invsOwn_ysend (SbV (chunk m)) (YcV (chunk m)) (XcV (chunk m)) K c 10) $$ HIown
  ihave #HI2_10 := (invsOwn_fsend (SbV (chunk m)) (YcV (chunk m)) (XcV (chunk m)) K c 10) $$ HIown
  ihave #HI0_11 := (invsOwn_ysend (SbV (chunk m)) (YcV (chunk m)) (XcV (chunk m)) K c 11) $$ HIown
  ihave #HI2_11 := (invsOwn_fsend (SbV (chunk m)) (YcV (chunk m)) (XcV (chunk m)) K c 11) $$ HIown
  icases Apos with ⟨A0_8, A2_8, A0_9, A2_9, A0_10, A2_10, A0_11, A2_11, Apos⟩
  ihave #HI0_12 := (invsOwn_ysend (SbV (chunk m)) (YcV (chunk m)) (XcV (chunk m)) K c 12) $$ HIown
  ihave #HI2_12 := (invsOwn_fsend (SbV (chunk m)) (YcV (chunk m)) (XcV (chunk m)) K c 12) $$ HIown
  ihave #HI0_13 := (invsOwn_ysend (SbV (chunk m)) (YcV (chunk m)) (XcV (chunk m)) K c 13) $$ HIown
  ihave #HI2_13 := (invsOwn_fsend (SbV (chunk m)) (YcV (chunk m)) (XcV (chunk m)) K c 13) $$ HIown
  ihave #HI0_14 := (invsOwn_ysend (SbV (chunk m)) (YcV (chunk m)) (XcV (chunk m)) K c 14) $$ HIown
  ihave #HI2_14 := (invsOwn_fsend (SbV (chunk m)) (YcV (chunk m)) (XcV (chunk m)) K c 14) $$ HIown
  ihave #HI0_15 := (invsOwn_ysend (SbV (chunk m)) (YcV (chunk m)) (XcV (chunk m)) K c 15) $$ HIown
  ihave #HI2_15 := (invsOwn_fsend (SbV (chunk m)) (YcV (chunk m)) (XcV (chunk m)) K c 15) $$ HIown
  icases Apos with ⟨A0_12, A2_12, A0_13, A2_13, A0_14, A2_14, A0_15, A2_15⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  -- the result's buffer back in one piece
  ihave H4e := (scratch1_rejoin1 (F := F) c _ _ _ _ _) $$ [H4 H4_2 H4_3 H4_4 H4_5]
  · isplitl [H4]; · iexact H4
    isplitl [H4_2]; · iexact H4_2
    isplitl [H4_3]; · iexact H4_3
    isplitl [H4_4]; · iexact H4_4
    iexact H4_5
  icases H4e with ⟨%f4e, H4w⟩
  -- the cells closed, the buffers whole again: the post
  imod (body_exit (F := F) m (SbV (chunk m)) (YcV (chunk m)) (XcV (chunk m)) (fun _ _ => True) K c _ _ _ _ trivial) $$ [A0_0 A0_1 A0_2 A0_3 A0_4 A0_5 A0_6 A0_7 A0_8 A0_9 A0_10 A0_11 A0_12 A0_13 A0_14 A0_15 A1_0 A1_1 A1_2 A1_3 A1_4 A1_5 A1_6 A1_7 A1_8 A1_9 A1_10 A1_11 A1_12 A1_13 A1_14 A1_15 A2_0 A2_1 A2_2 A2_3 A2_4 A2_5 A2_6 A2_7 A2_8 A2_9 A2_10 A2_11 A2_12 A2_13 A2_14 A2_15 A3_0 A3_1 A3_2 A3_3 A3_4 A3_5 A3_6 A3_7 A3_8 A3_9 A3_10 A3_11 A3_12 A3_13 A3_14 A3_15 Lc0 Lc1 Lc2 Lc3 Lc4 Lc5 Lc6 Lc7 Lo0 Lo1 Lo2 Lo3 Lo4 Lo5 Lo6 Lo7 HO Hx H1 Ho H3 H4w A0_0_pay1 A0_1_pay1 A0_2_pay1 A0_3_pay1 A0_4_pay1 A0_5_pay1 A0_6_pay1 A0_7_pay1 A0_8_pay1 A0_9_pay1 A0_10_pay1 A0_11_pay1 A0_12_pay1 A0_13_pay1 A0_14_pay1 A0_15_pay1 A2_0_pay1 A2_1_pay1 A2_2_pay1 A2_3_pay1 A2_4_pay1 A2_5_pay1 A2_6_pay1 A2_7_pay1 A2_8_pay1 A2_9_pay1 A2_10_pay1 A2_11_pay1 A2_12_pay1 A2_13_pay1 A2_14_pay1 A2_15_pay1 Hyr0 Hyr1 Hyr2 Hyr3 Hyr4 Hyr5 Hyr6 Hyr7 Hyr8 Hyr9 Hyr10 Hyr11 Hyr12 Hyr13 Hyr14 Hyr15 A3_0_pay1 A3_1_pay1 A3_2_pay1 A3_3_pay1 A3_4_pay1 A3_5_pay1 A3_6_pay1 A3_7_pay1 A3_8_pay1 A3_9_pay1 A3_10_pay1 A3_11_pay1 A3_12_pay1 A3_13_pay1 A3_14_pay1 A3_15_pay1] with Hpost
  · unfold posDone locals0 sDone yLeft yRight xDone
    isplitr; · iexact HIown
    isplitl [A0_0 A0_1 A0_2 A0_3 A0_4 A0_5 A0_6 A0_7 A0_8 A0_9 A0_10 A0_11 A0_12 A0_13 A0_14 A0_15 A1_0 A1_1 A1_2 A1_3 A1_4 A1_5 A1_6 A1_7 A1_8 A1_9 A1_10 A1_11 A1_12 A1_13 A1_14 A1_15 A2_0 A2_1 A2_2 A2_3 A2_4 A2_5 A2_6 A2_7 A2_8 A2_9 A2_10 A2_11 A2_12 A2_13 A2_14 A2_15 A3_0 A3_1 A3_2 A3_3 A3_4 A3_5 A3_6 A3_7 A3_8 A3_9 A3_10 A3_11 A3_12 A3_13 A3_14 A3_15]
    · isplitl [A0_0]; · iexact A0_0
      isplitl [A0_1]; · iexact A0_1
      isplitl [A0_2]; · iexact A0_2
      isplitl [A0_3]; · iexact A0_3
      isplitl [A0_4]; · iexact A0_4
      isplitl [A0_5]; · iexact A0_5
      isplitl [A0_6]; · iexact A0_6
      isplitl [A0_7]; · iexact A0_7
      isplitl [A0_8]; · iexact A0_8
      isplitl [A0_9]; · iexact A0_9
      isplitl [A0_10]; · iexact A0_10
      isplitl [A0_11]; · iexact A0_11
      isplitl [A0_12]; · iexact A0_12
      isplitl [A0_13]; · iexact A0_13
      isplitl [A0_14]; · iexact A0_14
      isplitl [A0_15]; · iexact A0_15
      isplitl [A1_0]; · iexact A1_0
      isplitl [A1_1]; · iexact A1_1
      isplitl [A1_2]; · iexact A1_2
      isplitl [A1_3]; · iexact A1_3
      isplitl [A1_4]; · iexact A1_4
      isplitl [A1_5]; · iexact A1_5
      isplitl [A1_6]; · iexact A1_6
      isplitl [A1_7]; · iexact A1_7
      isplitl [A1_8]; · iexact A1_8
      isplitl [A1_9]; · iexact A1_9
      isplitl [A1_10]; · iexact A1_10
      isplitl [A1_11]; · iexact A1_11
      isplitl [A1_12]; · iexact A1_12
      isplitl [A1_13]; · iexact A1_13
      isplitl [A1_14]; · iexact A1_14
      isplitl [A1_15]; · iexact A1_15
      isplitl [A2_0]; · iexact A2_0
      isplitl [A2_1]; · iexact A2_1
      isplitl [A2_2]; · iexact A2_2
      isplitl [A2_3]; · iexact A2_3
      isplitl [A2_4]; · iexact A2_4
      isplitl [A2_5]; · iexact A2_5
      isplitl [A2_6]; · iexact A2_6
      isplitl [A2_7]; · iexact A2_7
      isplitl [A2_8]; · iexact A2_8
      isplitl [A2_9]; · iexact A2_9
      isplitl [A2_10]; · iexact A2_10
      isplitl [A2_11]; · iexact A2_11
      isplitl [A2_12]; · iexact A2_12
      isplitl [A2_13]; · iexact A2_13
      isplitl [A2_14]; · iexact A2_14
      isplitl [A2_15]; · iexact A2_15
      isplitl [A3_0]; · iexact A3_0
      isplitl [A3_1]; · iexact A3_1
      isplitl [A3_2]; · iexact A3_2
      isplitl [A3_3]; · iexact A3_3
      isplitl [A3_4]; · iexact A3_4
      isplitl [A3_5]; · iexact A3_5
      isplitl [A3_6]; · iexact A3_6
      isplitl [A3_7]; · iexact A3_7
      isplitl [A3_8]; · iexact A3_8
      isplitl [A3_9]; · iexact A3_9
      isplitl [A3_10]; · iexact A3_10
      isplitl [A3_11]; · iexact A3_11
      isplitl [A3_12]; · iexact A3_12
      isplitl [A3_13]; · iexact A3_13
      isplitl [A3_14]; · iexact A3_14
      iexact A3_15
    isplitl [Lc0 Lc1 Lc2 Lc3 Lc4 Lc5 Lc6 Lc7 Lo0 Lo1 Lo2 Lo3 Lo4 Lo5 Lo6 Lo7]
    · isplitl [Lc0]; · iexact Lc0
      isplitl [Lc1]; · iexact Lc1
      isplitl [Lc2]; · iexact Lc2
      isplitl [Lc3]; · iexact Lc3
      isplitl [Lc4]; · iexact Lc4
      isplitl [Lc5]; · iexact Lc5
      isplitl [Lc6]; · iexact Lc6
      isplitl [Lc7]; · iexact Lc7
      isplitl [Lo0]; · iexact Lo0
      isplitl [Lo1]; · iexact Lo1
      isplitl [Lo2]; · iexact Lo2
      isplitl [Lo3]; · iexact Lo3
      isplitl [Lo4]; · iexact Lo4
      isplitl [Lo5]; · iexact Lo5
      isplitl [Lo6]; · iexact Lo6
      iexact Lo7
    isplitl [HO]; · iexact HO
    isplitl [Hx]; · iexact Hx
    isplitl [H1]; · iexact H1
    isplitl [Ho]; · iexact Ho
    isplitl [H3]; · iexact H3
    isplitl [H4w]; · iexact H4w
    isplitl [A0_0_pay1 A0_1_pay1 A0_2_pay1 A0_3_pay1 A0_4_pay1 A0_5_pay1 A0_6_pay1 A0_7_pay1 A0_8_pay1 A0_9_pay1 A0_10_pay1 A0_11_pay1 A0_12_pay1 A0_13_pay1 A0_14_pay1 A0_15_pay1]
    · isplitl [A0_0_pay1]; · iexact A0_0_pay1
      isplitl [A0_1_pay1]; · iexact A0_1_pay1
      isplitl [A0_2_pay1]; · iexact A0_2_pay1
      isplitl [A0_3_pay1]; · iexact A0_3_pay1
      isplitl [A0_4_pay1]; · iexact A0_4_pay1
      isplitl [A0_5_pay1]; · iexact A0_5_pay1
      isplitl [A0_6_pay1]; · iexact A0_6_pay1
      isplitl [A0_7_pay1]; · iexact A0_7_pay1
      isplitl [A0_8_pay1]; · iexact A0_8_pay1
      isplitl [A0_9_pay1]; · iexact A0_9_pay1
      isplitl [A0_10_pay1]; · iexact A0_10_pay1
      isplitl [A0_11_pay1]; · iexact A0_11_pay1
      isplitl [A0_12_pay1]; · iexact A0_12_pay1
      isplitl [A0_13_pay1]; · iexact A0_13_pay1
      isplitl [A0_14_pay1]; · iexact A0_14_pay1
      iexact A0_15_pay1
    isplitl [A2_0_pay1 A2_1_pay1 A2_2_pay1 A2_3_pay1 A2_4_pay1 A2_5_pay1 A2_6_pay1 A2_7_pay1 A2_8_pay1 A2_9_pay1 A2_10_pay1 A2_11_pay1 A2_12_pay1 A2_13_pay1 A2_14_pay1 A2_15_pay1]
    · isplitl [A2_0_pay1]; · iexact A2_0_pay1
      isplitl [A2_1_pay1]; · iexact A2_1_pay1
      isplitl [A2_2_pay1]; · iexact A2_2_pay1
      isplitl [A2_3_pay1]; · iexact A2_3_pay1
      isplitl [A2_4_pay1]; · iexact A2_4_pay1
      isplitl [A2_5_pay1]; · iexact A2_5_pay1
      isplitl [A2_6_pay1]; · iexact A2_6_pay1
      isplitl [A2_7_pay1]; · iexact A2_7_pay1
      isplitl [A2_8_pay1]; · iexact A2_8_pay1
      isplitl [A2_9_pay1]; · iexact A2_9_pay1
      isplitl [A2_10_pay1]; · iexact A2_10_pay1
      isplitl [A2_11_pay1]; · iexact A2_11_pay1
      isplitl [A2_12_pay1]; · iexact A2_12_pay1
      isplitl [A2_13_pay1]; · iexact A2_13_pay1
      isplitl [A2_14_pay1]; · iexact A2_14_pay1
      iexact A2_15_pay1
    isplitl [Hyr0 Hyr1 Hyr2 Hyr3 Hyr4 Hyr5 Hyr6 Hyr7 Hyr8 Hyr9 Hyr10 Hyr11 Hyr12 Hyr13 Hyr14 Hyr15]
    · isplitl [Hyr0]; · iexact Hyr0
      isplitl [Hyr1]; · iexact Hyr1
      isplitl [Hyr2]; · iexact Hyr2
      isplitl [Hyr3]; · iexact Hyr3
      isplitl [Hyr4]; · iexact Hyr4
      isplitl [Hyr5]; · iexact Hyr5
      isplitl [Hyr6]; · iexact Hyr6
      isplitl [Hyr7]; · iexact Hyr7
      isplitl [Hyr8]; · iexact Hyr8
      isplitl [Hyr9]; · iexact Hyr9
      isplitl [Hyr10]; · iexact Hyr10
      isplitl [Hyr11]; · iexact Hyr11
      isplitl [Hyr12]; · iexact Hyr12
      isplitl [Hyr13]; · iexact Hyr13
      isplitl [Hyr14]; · iexact Hyr14
      iexact Hyr15
    isplitl [A3_0_pay1]; · iexact A3_0_pay1
    isplitl [A3_1_pay1]; · iexact A3_1_pay1
    isplitl [A3_2_pay1]; · iexact A3_2_pay1
    isplitl [A3_3_pay1]; · iexact A3_3_pay1
    isplitl [A3_4_pay1]; · iexact A3_4_pay1
    isplitl [A3_5_pay1]; · iexact A3_5_pay1
    isplitl [A3_6_pay1]; · iexact A3_6_pay1
    isplitl [A3_7_pay1]; · iexact A3_7_pay1
    isplitl [A3_8_pay1]; · iexact A3_8_pay1
    isplitl [A3_9_pay1]; · iexact A3_9_pay1
    isplitl [A3_10_pay1]; · iexact A3_10_pay1
    isplitl [A3_11_pay1]; · iexact A3_11_pay1
    isplitl [A3_12_pay1]; · iexact A3_12_pay1
    isplitl [A3_13_pay1]; · iexact A3_13_pay1
    isplitl [A3_14_pay1]; · iexact A3_14_pay1
    iexact A3_15_pay1
  sl_step
  iapply Hk
  iexact Hpost

end Cert.KernelIdeal.Hand
end
-- ==== Proof.Launch.lean ====
import proofs.«901046_g7700000000001047_dist_rsdw_v7x_xy2x2_y_m1024_d1024_f4096_f32_1_alg».proof.Proof.Gen.KernelIdeal
import proofs.«901046_g7700000000001047_dist_rsdw_v7x_xy2x2_y_m1024_d1024_f4096_f32_1_alg».proof.Proof.Gen.KernelIdeal.Skeleton
import proofs.«901046_g7700000000001047_dist_rsdw_v7x_xy2x2_y_m1024_d1024_f4096_f32_1_alg».proof.Proof.Gen.KernelIdeal.Launch
import proofs.«901046_g7700000000001047_dist_rsdw_v7x_xy2x2_y_m1024_d1024_f4096_f32_1_alg».proof.Proof.Gen.KernelIdeal.Points
import proofs.«901046_g7700000000001047_dist_rsdw_v7x_xy2x2_y_m1024_d1024_f4096_f32_1_alg».proof.Proof.Proto
import proofs.«901046_g7700000000001047_dist_rsdw_v7x_xy2x2_y_m1024_d1024_f4096_f32_1_alg».proof.Proof.Ledger
import Idealize.ShloMosaic.Lib.Pipeline.Launch
import Idealize.ShloMosaic.Lib.Pipeline.Kit
import Idealize.ShloMosaic.Lib.Tactic

/-! The launch: from each device's body to the run of the whole mesh.

The launch element funds two copies of the rounds algebra: the pipeline's, for the one staging cell of a device, and the exchange's, for the
sixty-five cells of a device (its barrier cell and its sixty-four transfer cells). Under one update, for all devices at once, every cell's
counter at zero and round state become the cell's invariant; the duty tokens, minted per owner, are dealt to the devices that pay them (a
barrier cell's two tokens and a receive cell's token go to the owner's two neighbours, both of which are involutions of the mesh, so dealing
is re-indexing the devices); the sixteen semaphores of the local copies stay plain counters at zero. What a device then holds is exactly what
its body starts from, and what its body ends with gives back every semaphore of its own at zero, the scratch buffers, and the two arrays in
device memory the kernel routes itself, read off against the final state. -/

set_option maxRecDepth 16384

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (Sb : (c : Dev nD) → (j : Fin 16) → Buf (Elt F) ((sslot j).view.loc (c : Thread nD τ)))
variable (Yc : (c : Dev nD) → (j : Fin 16) → Buf (Elt F) ((yslot j).view.loc (c : Thread nD τ)))
variable (Xc : (c : Dev nD) → (j : Fin 16) → Buf (Elt F) ((xslot j).view.loc (c : Thread nD τ)))
variable (OutP : (c : Dev nD) → Buf (Elt F) ((c : Thread nD τ).loc main_v1) → Prop)

/-! ## Chains over listed index sets -/

section Lists
variable {M : Type _} [URA M] {I : Type _}

/-- A chain over two lists in a row is the chains over each, joined. -/
private theorem bigSepL_append (l₁ l₂ : List I) (Φ : I → sProp M) : bigSepL (l₁ ++ l₂) Φ = iprop(bigSepL l₁ Φ ∗ bigSepL l₂ Φ) := by
  induction l₁ with
  | nil => exact (equiv_iff.mp emp_sep).symm
  | cons i l ih => rw [List.cons_append, bigSepL_cons, bigSepL_cons, ih]; exact Idealize.SL.BI.Entails.antisymm BI.sep_assoc' BI.sep_assoc

/-- A chain over the image of a list is the chain of the composite. -/
private theorem bigSepL_map {J : Type _} (f : J → I) (l : List J) (Φ : I → sProp M) : bigSepL (l.map f) Φ = bigSepL l fun j => Φ (f j) := by
  induction l with
  | nil => rfl
  | cons j l ih => rw [List.map_cons, bigSepL_cons, bigSepL_cons, ih]

/-- A persistent assertion that yields every member yields the chain. -/
private theorem bigSepL_intro_persistent {R : sProp M} [BI.Persistent R] {Φ : I → sProp M} (l : List I) (h : ∀ i, R ⊢ Φ i) : R ⊢ bigSepL l Φ := by
  induction l with
  | nil => iintro -; iempintro
  | cons i l ih =>
    rw [bigSepL_cons]
    show R ⊢ iprop(Φ i ∗ bigSepL l Φ)
    iintro #H; isplitr
    · iapply (h i); iexact H
    · iapply ih; iexact H

/-- Two chains over one list, dealt alternately, are the chain over the list of pairs in a row. -/
private theorem bigSepL_interleave {J : Type _} (a b : J → I) (l : List J) (Ψ : I → sProp M) :
    iprop(bigSepL l (fun j => Ψ (a j)) ∗ bigSepL l (fun j => Ψ (b j))) ⊢ bigSepL (l.flatMap fun j => [a j, b j]) Ψ := by
  induction l with
  | nil => iintro -; iempintro
  | cons j l ih =>
    have e : bigSepL ((j :: l).flatMap fun j => [a j, b j]) Ψ = iprop(Ψ (a j) ∗ Ψ (b j) ∗ bigSepL (l.flatMap fun j => [a j, b j]) Ψ) := by
      show bigSepL (a j :: b j :: l.flatMap fun j => [a j, b j]) Ψ = _
      rw [bigSepL_cons, bigSepL_cons]; rfl
    have e₁ : bigSepL (j :: l) (fun j => Ψ (a j)) = iprop(Ψ (a j) ∗ bigSepL l fun j => Ψ (a j)) := by rw [bigSepL_cons]; rfl
    have e₂ : bigSepL (j :: l) (fun j => Ψ (b j)) = iprop(Ψ (b j) ∗ bigSepL l fun j => Ψ (b j)) := by rw [bigSepL_cons]; rfl
    rw [e, e₁, e₂]
    iintro ⟨⟨H1, HA⟩, H2, HB⟩
    isplitl [H1]; · iexact H1
    isplitl [H2]; · iexact H2
    iapply ih; isplitl [HA] <;> iassumption

end Lists

private abbrev f16 : List (Fin 16) := [0, 1, 2, 3, 4, 5, 6, 7, 8, 9, 10, 11, 12, 13, 14, 15]
/-- The sixty-four transfer cells of a device in order: outgoing chunks, incoming chunks, outgoing forwards, incoming forwards. -/
private abbrev pairL : List (Fin 4 × Fin 16) :=
  f16.map (fun j => ((0 : Fin 4), j)) ++ f16.map (fun j => ((1 : Fin 4), j)) ++ f16.map (fun j => ((2 : Fin 4), j)) ++ f16.map (fun j => ((3 : Fin 4), j))
/-- All sixty-five cells: the barrier's first. -/
private abbrev cellL : List (Option (Fin 4 × Fin 16)) := none :: pairL.map some
/-- The same cells in the order a device holds its positions: the barrier's, the chunks' receive cells, the forwards' receive cells, then slot
    by slot the two send cells. -/
private abbrev posL : List (Option (Fin 4 × Fin 16)) :=
  none :: (f16.map (fun j => some ((1 : Fin 4), j)) ++ (f16.map (fun j => some ((3 : Fin 4), j))
    ++ f16.flatMap (fun j => [some ((0 : Fin 4), j), some ((2 : Fin 4), j)])))

omit [FloatOps F] in
private theorem bigSep_f16 (Φ : Fin 16 → sProp 𝕄) : bigSep Finset.univ Φ = bigSepL f16 Φ := bigSep_univ_eq_bigSepL f16 (by decide) (by decide) Φ
omit [FloatOps F] in
private theorem bigSep_pairs (Φ : Fin 4 × Fin 16 → sProp 𝕄) : bigSep Finset.univ Φ = bigSepL pairL Φ := bigSep_univ_eq_bigSepL pairL (by decide) (by decide) Φ
omit [FloatOps F] in
private theorem bigSep_cells (Φ : Option (Fin 4 × Fin 16) → sProp 𝕄) : bigSep Finset.univ Φ = bigSepL cellL Φ := bigSep_univ_eq_bigSepL cellL (by decide) (by decide) Φ
omit [FloatOps F] in
private theorem bigSep_posL (Φ : Option (Fin 4 × Fin 16) → sProp 𝕄) : bigSep Finset.univ Φ = bigSepL posL Φ := bigSep_univ_eq_bigSepL posL (by decide) (by decide) Φ
omit [FloatOps F] in
private theorem bigSep_bool (Φ : Bool → sProp 𝕄) : bigSep Finset.univ Φ = iprop(Φ false ∗ Φ true) := bigSep_univ_eq_bigSepL [false, true] (by decide) (by decide) Φ

/-! ## The kernel's own semaphores -/

/-- The kernel's own (scoped) semaphores as the launch indexes them: DMA semaphores 1 to 80. -/
def osem (i : Fin 80) : SemLoc sig := .dma ⟨i.val + 1, by have := i.isLt; show i.val + 1 < 81; omega⟩

theorem ownSemFacts : Pipeline.OwnSemFacts cfg0.spec osem := by decide

private abbrev l16 : List (Fin 80) := [0, 1, 2, 3, 4, 5, 6, 7, 8, 9, 10, 11, 12, 13, 14, 15]
private abbrev l64 : List (Fin 80) := [16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79]

omit [FloatOps F] in
/-- The eighty are the sixteen of the local copies and the sixty-four of the transfers; -/
theorem ownSems0_eq (c : Dev nD) : (Pipeline.ownSems0 (Ix := Unit) (Name := ℕ) (U := UU) (Lvl := ℕ) (Val := Elt F) (τ := τ) osem c : sProp 𝕄)
    = iprop(locals0 c ∗ xfers0 c) := by
  rw [Pipeline.ownSems0_eq_of_list c osem (l16 ++ l64) (by decide) (by decide), bigSepL_append]; rfl
omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The cells and tokens of the exchange's rounds -/

theorem csem_injective : Function.Injective csem := by decide

theorem kcell_injective : Function.Injective (kcell : Dev nD × Option (Fin 4 × Fin 16) → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def ringCells : Finset (GSem nD τ sig) := Finset.univ.map ⟨kcell, kcell_injective⟩

/-- A device's own cells' duty tokens as minted: its barrier's two, and one for each of its transfer cells. -/
abbrev tokOf (ci : Dev nD × (Bool ⊕ (Fin 4 × Fin 16))) : GSem nD τ sig × ℕ × Bool := match ci.2 with
  | .inl b => (barCell ci.1, 0, b)
  | .inr kj => (kcell (ci.1, some kj), 0, false)
theorem tokOf_injective : Function.Injective (tokOf : Dev nD × (Bool ⊕ (Fin 4 × Fin 16)) → GSem nD τ sig × ℕ × Bool) := by
  rintro ⟨c, i⟩ ⟨c', i'⟩ h
  have h1 : c = c' := by
    have := congrArg (fun x : GSem nD τ sig × ℕ × Bool => x.1.1.1) h
    cases i <;> cases i' <;> exact this
  subst h1
  have : i = i' := by
    rcases i with b | ⟨k, j⟩ <;> rcases i' with b' | ⟨k', j'⟩
    · exact congrArg Sum.inl (congrArg (fun x : GSem nD τ sig × ℕ × Bool => x.2.2) h)
    · have h' : (SemLoc.reg barS : SemLoc sig) = .dma (xsem k' j') := congrArg (fun x : GSem nD τ sig × ℕ × Bool => x.1.2) h
      cases h'
    · have h' : (SemLoc.dma (xsem k j) : SemLoc sig) = .reg barS := congrArg (fun x : GSem nD τ sig × ℕ × Bool => x.1.2) h
      cases h'
    · have h' : csem (some (k, j)) = csem (some (k', j')) := congrArg (fun x : GSem nD τ sig × ℕ × Bool => x.1.2) h
      exact congrArg Sum.inr (Option.some.inj (csem_injective h'))
  subst this; rfl
def ringToks : Finset (GSem nD τ sig × ℕ × Bool) := Finset.univ.map ⟨tokOf, tokOf_injective⟩

/-- The launch element: the pipeline's cells and tokens, the exchange's, and no counter of a local transfer. -/
def u₀ : UU :=
  (initOf (Pipeline.cells cfgs cellOf_inj) (Pipeline.launchToks cfgs cellOf_inj), (initOf ringCells ringToks, 1))

/-- The duty tokens of device `c`'s own cells. -/
def toks (c : Dev nD) : sProp 𝕄 :=
  iprop(dutyTok ER (barCell c) 0 false ∗ dutyTok ER (barCell c) 0 true
    ∗ bigSep Finset.univ fun kj : Fin 4 × Fin 16 => dutyTok ER (kcell (c, some kj)) 0 false)

/-- What the launch element deals device `c`. -/
def G (c : Dev nD) : sProp 𝕄 :=
  iprop((bigSep Finset.univ fun k : Option (Fin 4 × Fin 16) => roundState ER (xRd Sb Yc Xc) (kcell (c, k)) 0)
    ∗ (bigSep Finset.univ fun k : Option (Fin 4 × Fin 16) => iprop(atPos ER (kcell (c, k)) 0 ∅ 0 ∗ reached ER (kcell (c, k)) 0)) ∗ toks c)

/-- What the global step makes of it and of the device's semaphores at zero. -/
def G' (c : Dev nD) : sProp 𝕄 := iprop((∃ K, ghost Sb Yc Xc K c) ∗ locals0 c)

omit [FloatOps F] in
theorem fund_ring : BI.own (ER (initOf ringCells ringToks)) ⊢ (|==> bigSep Finset.univ (G Sb Yc Xc) : sProp 𝕄) := by
  have hX (Φ : GSem nD τ sig → sProp 𝕄) : bigSep ringCells Φ = bigSep Finset.univ fun c : Dev nD => bigSep Finset.univ fun k : Option (Fin 4 × Fin 16) => Φ (kcell (c, k)) := by
    unfold ringCells; rw [bigSep_map, bigSep_univ_prod]; rfl
  have hT : bigSep ringToks (fun x => (dutyTok ER x.1 x.2.1 x.2.2 : sProp 𝕄)) ⊢ bigSep Finset.univ fun c : Dev nD => toks c := by
    unfold ringToks; rw [bigSep_map, bigSep_univ_prod]
    refine bigSep_mono fun c _ => ?_
    rw [bigSep_univ_sum, bigSep_bool]
    show iprop((dutyTok ER (barCell c) 0 false ∗ dutyTok ER (barCell c) 0 true)
        ∗ bigSep Finset.univ fun kj : Fin 4 × Fin 16 => dutyTok ER (kcell (c, some kj)) 0 false) ⊢ toks c
    unfold toks
    iintro ⟨⟨H1, H2⟩, H3⟩
    isplitl [H1]; · iexact H1
    isplitl [H2]; · iexact H2
    iexact H3
  iintro HX
  imod (Rounds.fund ER (xRd Sb Yc Xc) ringCells ringToks) $$ HX with ⟨Hst, Hr, Hat, Htok⟩
  imodintro
  ihave Hst' := (Entails.of_eq (hX fun g => roundState ER (xRd Sb Yc Xc) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

/-! ## The global step: the cells' invariants allocated, the tokens dealt to their payers -/

omit [FloatOps F] in
private theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
/-- The sixty-four transfer semaphores and the barrier semaphore are the sixty-five cells' counters. -/
theorem sems0_eq (c : Dev nD) :
    iprop(xfers0 c ∗ unscopedSems0 c) ⊢ (bigSep Finset.univ fun k : Option (Fin 4 × Fin 16) => semVal (kcell (c, k)) 0 : sProp 𝕄) := by
  rw [unscopedSems0_eq, bigSep_cells]
  show iprop(xfers0 c ∗ semVal (barCell c) 0) ⊢ iprop(semVal (barCell c) 0 ∗ xfers0 c)
  iintro ⟨HX, HB⟩
  isplitl [HB] <;> iassumption

omit [FloatOps F] in
theorem core_alloc (c : Dev nD) :
    iprop(Pipeline.ownSems0 (Ix := Unit) (Name := ℕ) (U := UU) (Lvl := ℕ) (Val := Elt F) (τ := τ) osem c ∗ unscopedSems0 c ∗ G Sb Yc Xc c)
      ⊢ |={Set.univ}=> iprop((bigSep Finset.univ fun k : Option (Fin 4 × Fin 16) => iprop(∃ κ : ℕ, cellInv ER (xRd Sb Yc Xc) κ (kcell (c, k))))
          ∗ (bigSep Finset.univ fun k : Option (Fin 4 × Fin 16) => iprop(atPos ER (kcell (c, k)) 0 ∅ 0 ∗ reached ER (kcell (c, k)) 0)) ∗ toks c ∗ locals0 c) := by
  rw [ownSems0_eq]
  unfold G
  iintro ⟨⟨Hloc, Hxf⟩, Hus, Hst, Hat, Htok⟩
  ihave Hv := (sems0_eq (F := F) c) $$ [Hxf Hus]
  · isplitl [Hxf] <;> iassumption
  imod (show iprop((bigSep Finset.univ fun k : Option (Fin 4 × Fin 16) => semVal (kcell (c, k)) 0) ∗ bigSep Finset.univ fun k : Option (Fin 4 × Fin 16) => roundState ER (xRd Sb Yc Xc) (kcell (c, k)) 0)
      ⊢ (|={Set.univ}=> bigSep Finset.univ fun k : Option (Fin 4 × Fin 16) => iprop(∃ κ : ℕ, cellInv ER (xRd Sb Yc Xc) κ (kcell (c, k))) : sProp 𝕄) from by
        rw [← bigSep_sep']
        exact (bigSep_mono fun k _ => (Rounds.body_intro ER (xRd Sb Yc Xc) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hloc

/-- Every cell's invariant under the name it was allocated at, and that round 0 of every cell is reached. -/
def records (K : Dev nD × Option (Fin 4 × Fin 16) → ℕ) : sProp 𝕄 :=
  iprop((bigSep Finset.univ fun ck : Dev nD × Option (Fin 4 × Fin 16) => cellInv ER (xRd Sb Yc Xc) (K ck) (kcell ck))
    ∗ bigSep Finset.univ fun ck : Dev nD × Option (Fin 4 × Fin 16) => reached ER (kcell ck) 0)

instance records_persistent (K : Dev nD × Option (Fin 4 × Fin 16) → ℕ) : BI.Persistent (records Sb Yc Xc K) := by unfold records; infer_instance

omit [FloatOps F] in
theorem inv_at (K : Dev nD × Option (Fin 4 × Fin 16) → ℕ) (ck : Dev nD × Option (Fin 4 × Fin 16)) : records Sb Yc Xc K ⊢ cellInv ER (xRd Sb Yc Xc) (K ck) (kcell ck) := by
  unfold records; iintro ⟨#HI, -⟩
  iapply (show (bigSep Finset.univ fun ck : Dev nD × Option (Fin 4 × Fin 16) => (cellInv ER (xRd Sb Yc Xc) (K ck) (kcell ck) : sProp 𝕄)) ⊢ cellInv ER (xRd Sb Yc Xc) (K ck) (kcell ck) from bigSep_elim (Finset.mem_univ ck))
  iexact HI
omit [FloatOps F] in
theorem reached_at (K : Dev nD × Option (Fin 4 × Fin 16) → ℕ) (ck : Dev nD × Option (Fin 4 × Fin 16)) : records Sb Yc Xc K ⊢ reached ER (kcell ck) 0 := by
  unfold records; iintro ⟨-, #HR⟩
  iapply (show (bigSep Finset.univ fun ck : Dev nD × Option (Fin 4 × Fin 16) => (reached ER (kcell ck) 0 : sProp 𝕄)) ⊢ reached ER (kcell ck) 0 from bigSep_elim (Finset.mem_univ ck))
  iexact HR

/-- The neighbours' cells a device pays into: both barrier cells, the chunks' receive cells along the second axis, the forwards' along the first. -/
private abbrev peerL (c : Dev nD) : List (Dev nD × Option (Fin 4 × Fin 16)) :=
  (ynb c, none) :: (xnb c, none) :: (f16.map (fun j => (ynb c, some ((1 : Fin 4), j))) ++ f16.map (fun j => (xnb c, some ((3 : Fin 4), j))))

omit [FloatOps F] in
theorem invsOwn_intro (K : Dev nD × Option (Fin 4 × Fin 16) → ℕ) (c : Dev nD) : records Sb Yc Xc K ⊢ invsOwn Sb Yc Xc K c :=
  show records Sb Yc Xc K ⊢ bigSepL cellL (fun k => cellInv ER (xRd Sb Yc Xc) (K (c, k)) (kcell (c, k))) from
    bigSepL_intro_persistent cellL fun k => inv_at Sb Yc Xc K (c, k)
omit [FloatOps F] in
theorem invsPeer_intro (K : Dev nD × Option (Fin 4 × Fin 16) → ℕ) (c : Dev nD) : records Sb Yc Xc K ⊢ invsPeer Sb Yc Xc K c :=
  show records Sb Yc Xc K ⊢ bigSepL (peerL c) (fun ck => cellInv ER (xRd Sb Yc Xc) (K ck) (kcell ck)) from
    bigSepL_intro_persistent (peerL c) fun ck => inv_at Sb Yc Xc K ck
omit [FloatOps F] in
theorem reachedAll_intro (K : Dev nD × Option (Fin 4 × Fin 16) → ℕ) (c : Dev nD) : records Sb Yc Xc K ⊢ reachedAll c :=
  show records Sb Yc Xc K ⊢ bigSepL (peerL c ++ pairL.map (fun kj => (c, some kj))) (fun ck => reached ER (kcell ck) 0) from
    bigSepL_intro_persistent _ fun ck => reached_at Sb Yc Xc K ck

/-- What stays with device `c`: its positions, the tokens of the duties it pays, its local semaphores. -/
def linear (c : Dev nD) : sProp 𝕄 := iprop(posOwn c ∗ payToks c ∗ locals0 c)

omit [FloatOps F] in
theorem ghost_intro (K : Dev nD × Option (Fin 4 × Fin 16) → ℕ) (c : Dev nD) : iprop(records Sb Yc Xc K ∗ linear c) ⊢ G' Sb Yc Xc c := by
  unfold linear G' ghost
  iintro ⟨#HR, Hpos, Htok, Hloc⟩
  isplitr [Hloc]
  · iexists K
    isplitr; · iapply (invsOwn_intro Sb Yc Xc K c); iexact HR
    isplitr; · iapply (invsPeer_intro Sb Yc Xc K c); iexact HR
    isplitr; · iapply (reachedAll_intro Sb Yc Xc K c); iexact HR
    isplitl [Hpos]; · iexact Hpos
    iexact Htok
  · iexact Hloc

/-- The tokens of one kind of transfer cell of a device. -/
def xtoks (k : Fin 4) (c : Dev nD) : sProp 𝕄 := bigSep Finset.univ fun j : Fin 16 => dutyTok ER (kcell (c, some (k, j))) 0 false

omit [FloatOps F] in
theorem toks_eq (c : Dev nD) : (toks c : sProp 𝕄)
    = iprop(dutyTok ER (barCell c) 0 false ∗ dutyTok ER (barCell c) 0 true ∗ xtoks 0 c ∗ xtoks 1 c ∗ xtoks 2 c ∗ xtoks 3 c) := by
  unfold toks xtoks; rw [bigSep_univ_prod, bigSep_fin4]

omit [FloatOps F] in
/-- What a device pays with, gathered family by family, is the chain its body peels in the order it pays: the two barrier tokens, then slot
    by slot a chunk's two, then slot by slot a forward's two. -/
theorem payToks_intro (c : Dev nD) :
    iprop(dutyTok ER (barCell (ynb c)) 0 false ∗ dutyTok ER (barCell (xnb c)) 0 true ∗ xtoks 1 (ynb c) ∗ xtoks 3 (xnb c) ∗ xtoks 0 c ∗ xtoks 2 c)
      ⊢ (payToks c : sProp 𝕄) := by
  have e : (payToks c : sProp 𝕄)
      = iprop(dutyTok ER (barCell (ynb c)) 0 false ∗ dutyTok ER (barCell (xnb c)) 0 true
          ∗ bigSepL (f16.flatMap fun j => [(ysendCell c j, 0, false), (yrecvCell (ynb c) j, 0, false)]) (fun x : GSem nD τ sig × ℕ × Bool => (dutyTok ER x.1 x.2.1 x.2.2 : sProp 𝕄))
          ∗ bigSepL (f16.flatMap fun j => [(fsendCell c j, 0, false), (xrecvCell (xnb c) j, 0, false)]) (fun x : GSem nD τ sig × ℕ × Bool => (dutyTok ER x.1 x.2.1 x.2.2 : sProp 𝕄))) := by
    show bigSepL ((barCell (ynb c), 0, false) :: (barCell (xnb c), 0, true)
        :: ((f16.flatMap fun j => [(ysendCell c j, 0, false), (yrecvCell (ynb c) j, 0, false)]) ++ f16.flatMap fun j => [(fsendCell c j, 0, false), (xrecvCell (xnb c) j, 0, false)]))
        (fun x : GSem nD τ sig × ℕ × Bool => (dutyTok ER x.1 x.2.1 x.2.2 : sProp 𝕄)) = _
    rw [bigSepL_cons, bigSepL_cons, bigSepL_append]; rfl
  rw [e]
  unfold xtoks; rw [bigSep_f16, bigSep_f16, bigSep_f16, bigSep_f16]
  iintro ⟨H1, H2, X1, X3, X0, X2⟩
  isplitl [H1]; · iexact H1
  isplitl [H2]; · iexact H2
  isplitl [X0 X1]
  · iapply (bigSepL_interleave (fun j : Fin 16 => (ysendCell c j, 0, false)) (fun j : Fin 16 => (yrecvCell (ynb c) j, 0, false)) f16
      (fun x : GSem nD τ sig × ℕ × Bool => (dutyTok ER x.1 x.2.1 x.2.2 : sProp 𝕄)))
    isplitl [X0]; · iexact X0
    iexact X1
  · iapply (bigSepL_interleave (fun j : Fin 16 => (fsendCell c j, 0, false)) (fun j : Fin 16 => (xrecvCell (xnb c) j, 0, false)) f16
      (fun x : GSem nD τ sig × ℕ × Bool => (dutyTok ER x.1 x.2.1 x.2.2 : sProp 𝕄)))
    isplitl [X2]; · iexact X2
    iexact X3

omit [FloatOps F] in
/-- The tokens dealt to their payers: a barrier cell's `false` token and a chunk receive cell's to the owner's neighbour along the second axis,
    a barrier cell's `true` token and a forward receive cell's to its neighbour along the first; the send cells' stay. -/
theorem toks_around : (bigSep Finset.univ fun c : Dev nD => (toks c : sProp 𝕄)) ⊢ bigSep Finset.univ fun c : Dev nD => payToks c := by
  have h : (bigSep Finset.univ fun c : Dev nD => (toks c : sProp 𝕄))
      ⊢ bigSep Finset.univ fun c : Dev nD => iprop(dutyTok ER (barCell (ynb c)) 0 false ∗ dutyTok ER (barCell (xnb c)) 0 true
          ∗ xtoks 1 (ynb c) ∗ xtoks 3 (xnb c) ∗ xtoks 0 c ∗ xtoks 2 c) := by
    rw [bigSep_congr (s := Finset.univ) (fun (c : Dev nD) _ => toks_eq (F := F) c)]
    rw [bigSep_sep', bigSep_sep', bigSep_sep', bigSep_sep', bigSep_sep', bigSep_sep', bigSep_sep', bigSep_sep', bigSep_sep', bigSep_sep',
    bigSep_univ_equiv ysw (fun c : Dev nD => (dutyTok ER (barCell c) 0 false : sProp 𝕄)),
    bigSep_univ_equiv xsw (fun c : Dev nD => (dutyTok ER (barCell c) 0 true : sProp 𝕄)),
    bigSep_univ_equiv ysw (fun c : Dev nD => (xtoks 1 c : sProp 𝕄)),
    bigSep_univ_equiv xsw (fun c : Dev nD => (xtoks 3 c : sProp 𝕄))]
    iintro ⟨H1, H2, S0, S1, S2, S3⟩
    isplitl [H1]; · iexact H1
    isplitl [H2]; · iexact H2
    isplitl [S1]; · iexact S1
    isplitl [S3]; · iexact S3
    isplitl [S0]; · iexact S0
    iexact S2
  exact h.trans (bigSep_mono fun c _ => payToks_intro (F := F) c)

omit [FloatOps F] in
private theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem linear_intro :
    iprop((bigSep Finset.univ fun c : Dev nD => bigSep Finset.univ fun k : Option (Fin 4 × Fin 16) => (atPos ER (kcell (c, k)) 0 ∅ 0 : sProp 𝕄))
        ∗ (bigSep Finset.univ fun c : Dev nD => (payToks c : sProp 𝕄)) ∗ bigSep Finset.univ fun c : Dev nD => (locals0 c : sProp 𝕄))
      ⊢ bigSep Finset.univ fun c : Dev nD => (linear c : sProp 𝕄) := by
  rw [← bigSep_sep', ← bigSep_sep']
  exact bigSep_mono fun c _ =>
    show iprop((bigSep Finset.univ fun k : Option (Fin 4 × Fin 16) => (atPos ER (kcell (c, k)) 0 ∅ 0 : sProp 𝕄)) ∗ payToks c ∗ locals0 c) ⊢ linear c from
      Entails.of_eq (by unfold linear; rw [bigSep_posL]; rfl)

omit [FloatOps F] in
theorem regroup :
    (bigSep Finset.univ fun c : Dev nD => iprop((bigSep Finset.univ fun k : Option (Fin 4 × Fin 16) => iprop(∃ κ : ℕ, cellInv ER (xRd Sb Yc Xc) κ (kcell (c, k))))
          ∗ (bigSep Finset.univ fun k : Option (Fin 4 × Fin 16) => iprop(atPos ER (kcell (c, k)) 0 ∅ 0 ∗ reached ER (kcell (c, k)) 0)) ∗ toks c ∗ locals0 c) : sProp 𝕄)
      ⊢ bigSep Finset.univ (G' Sb Yc Xc) := by
  rw [bigSep_sep', bigSep_sep', bigSep_sep', ← bigSep_univ_prod (fun ck : Dev nD × Option (Fin 4 × Fin 16) => iprop(∃ κ : ℕ, cellInv ER (xRd Sb Yc Xc) κ (kcell ck))),
    bigSep_congr (s := Finset.univ) (fun (c : Dev nD) _ => bigSep_sep' Finset.univ (fun k : Option (Fin 4 × Fin 16) => (atPos ER (kcell (c, k)) 0 ∅ 0 : sProp 𝕄)) (fun k => reached ER (kcell (c, k)) 0)),
    bigSep_sep', ← bigSep_univ_prod (fun ck : Dev nD × Option (Fin 4 × Fin 16) => (reached ER (kcell ck) 0 : sProp 𝕄))]
  iintro ⟨HI, ⟨Hat, #HR⟩, Htok, Hloc⟩
  ihave HK := (BI.bigSep_exists_pi Finset.univ (fun (ck : Dev nD × Option (Fin 4 × Fin 16)) (κ : ℕ) => (cellInv ER (xRd Sb Yc Xc) κ (kcell ck) : sProp 𝕄))) $$ HI
  icases HK with ⟨%K, #HI⟩
  ihave Htk := (toks_around (F := F)) $$ Htok
  iapply (bigSep_with_persistent (R := records Sb Yc Xc K) fun c _ => ghost_intro Sb Yc Xc K c)
  isplitr
  · unfold records; isplitl; · iexact HI
    iexact HR
  · iapply (linear_intro (F := F))
    isplitl [Hat]; · iexact Hat
    isplitl [Htk]; · iexact Htk
    iexact Hloc

omit [FloatOps F] in
/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G Sb Yc Xc c) : sProp 𝕄)
    ⊢ |={Set.univ}=> bigSep Finset.univ (G' Sb Yc Xc) :=
  ((bigSep_mono fun c _ => core_alloc Sb Yc Xc c).trans (bigSep_fupd _ _)).trans (BI.fupd_mono (regroup Sb Yc Xc))

/-! ## The launch theorem's side conditions -/

theorem share_eq (c : Dev nD) (w : Fin cfg0.W) : (dats m Sb Yc Xc OutP 0 c).share w = fullShare := by unfold Dat.share; split <;> rfl

omit [FloatOps F] in
theorem start_intro (hcreds : ∀ c : Dev nD, (Pipeline.launchCred O₀ c : sProp 𝕄) ⊢ creds c) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' Sb Yc Xc c)
      ⊢ |={Set.univ}=> iprop(start m Sb Yc Xc c ∗ emp) := by
  rw [Pipeline.unscopedRestP_none, unscopedRest0_eq]
  iintro ⟨Hhbm, Hlev, Hcr, -, HG⟩
  ihave Hc := (hcreds c) $$ Hcr
  imodintro
  unfold start G' hbm
  icases HG with ⟨HK, Hloc⟩
  isplitl
  · isplitl [HK]; · iexact HK
    isplitl [Hc]; · iexact Hc
    isplitl [Hlev]; · iexact Hlev
    isplitl [Hloc]; · iexact Hloc
    iexact Hhbm
  · iempintro

theorem phi0_intro (c : Dev nD) :
    iprop(start m Sb Yc Xc c ∗ Pipeline.prefHeld Pipeline.Prefetch.none c (fun _ => fullShare.right) (fun k => k.elim0) ∗ Pipeline.scopedRest cfg0.spec c)
      ⊢ (dats m Sb Yc Xc OutP 0 c).Φ 0 := by
  rw [show (dats m Sb Yc Xc OutP 0 c).Φ 0 = Φ₀ m Sb Yc Xc c from rfl, scopedRest0_eq]
  unfold Φ₀ scratch
  iintro ⟨Hs, -, Hr⟩
  isplitl [Hs]; · iexact Hs
  iexact Hr

/-- What a device keeps past the region: the two arrays in device memory the kernel routes itself, the result at contents the predicate holds of. -/
def outY (c : Dev nD) : sProp 𝕄 := iprop(∃ o : Buf (Elt F) ((c : Thread nD τ).loc main_v1), ⌜OutP c o⌝ ∗ hbm m c o)

theorem phi1_exit (c : Dev nD) :
    (dats m Sb Yc Xc OutP 0 c).Φ (Fin.last cfg0.N) ⊢ iprop(outY m OutP c ∗ Pipeline.ownSems0 osem c ∗ Pipeline.scopedRest cfg0.spec c) := by
  rw [show (dats m Sb Yc Xc OutP 0 c).Φ (Fin.last cfg0.N) = Φ₁ m OutP c from rfl, scopedRest0_eq, ownSems0_eq]
  unfold Φ₁ scratch outY
  iintro ⟨Hl, Hx, Hs, Hh⟩
  isplitl [Hh]; · iexact Hh
  isplitl [Hl Hx]
  · isplitl [Hl] <;> iassumption
  iexact Hs

/-! ## The run -/

set_option maxRecDepth 32768 in
/-- At the compiled mesh of four devices, for any float values, from any memory with zero counters: if the launch credit covers what the devices are dealt, every wait is at a level below what its
    waiter still owes, and each device's body meets its obligation from the launch's proof data, every weakly fair execution of @main terminates, and every final state has each device's
    result array at contents `OutP` holds of and both argument arrays unchanged. -/
theorem run_main_of (hcreds : ∀ c : Dev nD, (Pipeline.launchCred O₀ c : sProp 𝕄) ⊢ creds c)
    (hwaits : ∀ c : Dev nD, (levAts L lv : sProp 𝕄) ⊢ Pipeline.cellsWaits cfgs (dats m Sb Yc Xc OutP) () 0 c)
    (hbody : ∀ c : Dev nD, BodyObligation (dats (F := F) m Sb Yc Xc OutP 0 c) (defs₀ (F := F)) 𝒱₀ () Set.univ) :
    θ_run defs (onTc (τ := τ) (main (F := F))) (s₀ m ρ)
      (fun r => ∀ c : Dev nD, OutP c (r.2.mem ((c.tc : Thread nD τ).loc main_v1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  Pipeline.θ_run_region_owing_glob_pf (fun p => (cfgs p).toPCfg) (fun p => (cfgs p).toPCfg_adm) (dats m Sb Yc Xc OutP) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m Sb Yc Xc OutP)
    (hdistinct := winFacts0.arr_inj)
    (O₀ := O₀) (howed₀ := fun _ => rfl) (howedN := fun _ => rfl)
    (L := L) (lv := lv) (hL := L_of_ne) (hwaits := hwaits)
    (G := G Sb Yc Xc) (G' := G' Sb Yc Xc) (u₀ := u₀)
    (hu₀ := by
      unfold u₀
      iintro Hu
      ihave H := (ownU_pair _ _) $$ Hu
      icases H with ⟨HP, HX⟩
      ihave HX' := (own_pair_emb embR _ _) $$ HX
      icases HX' with ⟨HR, -⟩
      imod (fund_ring Sb Yc Xc) $$ HR with HG
      imodintro
      isplitl [HP] <;> iassumption)
    (hglob := glob Sb Yc Xc)
    (hA := fun _ _ => rfl) (hpf := fun _ k => k.elim0)
    (X := start m Sb Yc Xc) (Y := outY m OutP) (Z := fun _ => iprop(emp))
    (hX := start_intro m ρ Sb Yc Xc hcreds) (hin := phi0_intro m Sb Yc Xc OutP) (hout := phi1_exit m Sb Yc Xc OutP)
    (QY := fun c s => OutP c (s.mem ((c : Thread nD τ).loc main_v1)) ∧ s.mem ((c : Thread nD τ).loc main_arg1) = m ((c : Thread nD τ).loc main_arg1))
    (hY := fun c s' => by
      unfold outY hbm
      iintro ⟨⟨%o, %ho, Ha, Hv⟩, -, HSI⟩
      icombine HSI Ha gives %ha
      icombine HSI Hv gives %hv
      imodintro
      isplitr; · ipureintro; exact ⟨(Buf.eq_of_forall_mem_univ hv) ▸ ho, Buf.eq_of_forall_mem_univ ha⟩
      iexact HSI)
    (hQ := fun s h c => ⟨(h c).2.2.1, ((h c).1 0).trans ((dats m Sb Yc Xc OutP 0 c).arrAt_in 0 rfl _), (h c).2.2.2⟩)

/-- info: 'Cert.KernelIdeal.Hand.run_main_of' depends on axioms: [propext, Classical.choice, Quot.sound] -/
#guard_msgs in #print axioms run_main_of

/-- The run of the mesh from the devices' bodies alone: the launch credit and the levels of the waits are the ledger's. -/
theorem run_main (hbody : ∀ c : Dev nD, BodyObligation (dats (F := F) m Sb Yc Xc OutP 0 c) (defs₀ (F := F)) 𝒱₀ () Set.univ) :
    θ_run defs (onTc (τ := τ) (main (F := F))) (s₀ m ρ)
      (fun r => ∀ c : Dev nD, OutP c (r.2.mem ((c.tc : Thread nD τ).loc main_v1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  run_main_of m ρ Sb Yc Xc OutP (fun c => creds_intro c) (waits m Sb Yc Xc OutP) hbody

/-- info: 'Cert.KernelIdeal.Hand.run_main' depends on axioms: [propext, Classical.choice, Quot.sound] -/
#guard_msgs in #print axioms run_main

end Cert.KernelIdeal.Hand

end
-- ==== Proof.Body.lean ====
import proofs.«901046_g7700000000001047_dist_rsdw_v7x_xy2x2_y_m1024_d1024_f4096_f32_1_alg».proof.Proof.Gen.KernelIdeal
import proofs.«901046_g7700000000001047_dist_rsdw_v7x_xy2x2_y_m1024_d1024_f4096_f32_1_alg».proof.Proof.Gen.KernelIdeal.Skeleton
import proofs.«901046_g7700000000001047_dist_rsdw_v7x_xy2x2_y_m1024_d1024_f4096_f32_1_alg».proof.Proof.Gen.KernelIdeal.Launch
import proofs.«901046_g7700000000001047_dist_rsdw_v7x_xy2x2_y_m1024_d1024_f4096_f32_1_alg».proof.Proof.Gen.KernelIdeal.Points
import proofs.«901046_g7700000000001047_dist_rsdw_v7x_xy2x2_y_m1024_d1024_f4096_f32_1_alg».proof.Proof.Proto
import proofs.«901046_g7700000000001047_dist_rsdw_v7x_xy2x2_y_m1024_d1024_f4096_f32_1_alg».proof.Proof.Ledger
import proofs.«901046_g7700000000001047_dist_rsdw_v7x_xy2x2_y_m1024_d1024_f4096_f32_1_alg».proof.Proof.BodyEnds
import proofs.«901046_g7700000000001047_dist_rsdw_v7x_xy2x2_y_m1024_d1024_f4096_f32_1_alg».proof.Proof.Values
import proofs.«901046_g7700000000001047_dist_rsdw_v7x_xy2x2_y_m1024_d1024_f4096_f32_1_alg».proof.Proof.BodyX0
import proofs.«901046_g7700000000001047_dist_rsdw_v7x_xy2x2_y_m1024_d1024_f4096_f32_1_alg».proof.Proof.BodyX1
import proofs.«901046_g7700000000001047_dist_rsdw_v7x_xy2x2_y_m1024_d1024_f4096_f32_1_alg».proof.Proof.Launch
import Idealize.ShloMosaic.Lib.Pipeline.Launch
import Idealize.ShloMosaic.Lib.Pipeline.Kit
import Idealize.ShloMosaic.Lib.Tactic

/-! The body on every device, and the run of the mesh that needs nothing of the result's contents.

The mesh is 2 × 2: a device's first coordinate is 0 or 1, and the body is proved once for each. With the body's obligation met on every
device, the launch gives the run: every weakly fair execution terminates and both argument arrays end as they were. Nothing is asked of
the result array here (the predicate on its contents is the trivial one). -/

set_option maxRecDepth 16384

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A device's first mesh coordinate is 0 or 1. -/
theorem half_cases (c : Dev nD) : c.val / 2 = 0 ∨ c.val / 2 = 1 := by revert c; decide

/-- The body's own statement on every device: the two cases of the first mesh coordinate. -/
theorem sound_body (c : Dev nD) : BodySpec m (SbV (chunk m)) (YcV (chunk m)) (XcV (chunk m)) (fun _ _ => True) c := by
  rcases half_cases c with h | h
  · exact body_x0 m c h
  · exact body_x1 m c h

/-- At the compiled mesh of four devices, for any float values, from any memory with zero counters: every weakly fair execution of @main
    terminates, and every final state has both argument arrays of every device unchanged. -/
theorem kern_frame_run : θ_run defs (onTc (τ := τ) (main (F := F))) (s₀ m ρ)
    (fun r => ∀ c : Dev nD, True
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_main m ρ (SbV (chunk m)) (YcV (chunk m)) (XcV (chunk m)) (fun _ _ => True)
    (fun c => body_wrap m (SbV (chunk m)) (YcV (chunk m)) (XcV (chunk m)) (fun _ _ => True) c (sound_body m c))

/-- info: 'Cert.KernelIdeal.Hand.kern_frame_run' depends on axioms: [propext, Classical.choice, Quot.sound] -/
#guard_msgs in #print axioms kern_frame_run

end Cert.KernelIdeal.Hand

end
-- ==== Proof.PayIdx.lean ====
import proofs.«901046_g7700000000001047_dist_rsdw_v7x_xy2x2_y_m1024_d1024_f4096_f32_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-! The body's pure values, entry by entry, on the extended reals.

Every value the body stores is one of five things: a choice between two loaded blocks by a one-bit word; the product of a
transposed 1024 × 512 block with another 1024 × 512 block — entry `(p, q)` is the sum over the 1024 rows `k` of `a k p * b k q` —,
where a change of float format is the identity; 128 consecutive columns of such a product, with a leading axis of length one added;
the same array under a cast to its own shape; and the entrywise sum of a 512 × 128 block with a slot of the same size that carries a
leading axis of length one. -/

noncomputable section

open scoped BigOperators

namespace Cert.KernelIdeal.PayIdx

open Idealize.ShloMosaic Idealize.ShloMosaic.ValueIdx Cert.KernelIdeal Cert.KernelIdeal.Gen

/-! ## The product: both operands are contracted along their rows -/

theorem lhs_mm_0 (i : S512x512.Idx) (q : dot_S1024x512_S1024x512_S512x512_0_0_1_1_n_n.contr.Idx) :
    (dot_S1024x512_S1024x512_S512x512_0_0_1_1_n_n.lhsIdx i q 0).val = (q ⟨0, by decide⟩).val :=
  dot_S1024x512_S1024x512_S512x512_0_0_1_1_n_n.lhsIdx_val_of_single rfl i q
theorem lhs_mm_1 (i : S512x512.Idx) (q : dot_S1024x512_S1024x512_S512x512_0_0_1_1_n_n.contr.Idx) :
    (dot_S1024x512_S1024x512_S512x512_0_0_1_1_n_n.lhsIdx i q 1).val = (i 0).val := by
  unfold DotDims.lhsIdx
  rw [dif_neg (show ¬(1 : Fin S1024x512.rank) ∈ dot_S1024x512_S1024x512_S512x512_0_0_1_1_n_n.lhsBatch by decide), dif_pos (show (1 : Fin S1024x512.rank) ∈ dot_S1024x512_S1024x512_S512x512_0_0_1_1_n_n.lhsNonContracting by decide)]
  rfl
theorem rhs_mm_0 (i : S512x512.Idx) (q : dot_S1024x512_S1024x512_S512x512_0_0_1_1_n_n.contr.Idx) :
    (dot_S1024x512_S1024x512_S512x512_0_0_1_1_n_n.rhsIdx i q 0).val = (q ⟨0, by decide⟩).val :=
  dot_S1024x512_S1024x512_S512x512_0_0_1_1_n_n.rhsIdx_val_of_single rfl i q
theorem rhs_mm_1 (i : S512x512.Idx) (q : dot_S1024x512_S1024x512_S512x512_0_0_1_1_n_n.contr.Idx) :
    (dot_S1024x512_S1024x512_S512x512_0_0_1_1_n_n.rhsIdx i q 1).val = (i 1).val := by
  unfold DotDims.rhsIdx
  rw [dif_neg (show ¬(1 : Fin S1024x512.rank) ∈ dot_S1024x512_S1024x512_S512x512_0_0_1_1_n_n.rhsBatch by decide), dif_pos (show (1 : Fin S1024x512.rank) ∈ dot_S1024x512_S1024x512_S512x512_0_0_1_1_n_n.rhsNonContracting by decide)]
  rfl

/-- Entry `(p, q)` of the product into a zero accumulator: the sum over the 1024 rows `k` of `a k p * b k q`. -/
theorem matmul_apply' (a b : FVec Ideal S1024x512 .f32) (p q : Fin 512) :
    matmul dot_S1024x512_S1024x512_S512x512_0_0_1_1_n_n none a b (constant (F := Ideal) S512x512 .f32 0x00000000#32) (ix2 p q)
      = ∑ k : Fin 1024, a (ix2 k p) * b (ix2 k q) := by
  simp only [matmul]
  rw [Ideal.matmul_constant_zero_apply, ← Equiv.sum_comp (ValueIdx.contrEquiv1 dot_S1024x512_S1024x512_S512x512_0_0_1_1_n_n 1024 rfl rfl).symm]
  refine Finset.sum_congr rfl fun k _ => ?_
  have hk := ValueIdx.contrEquiv1_symm_val dot_S1024x512_S1024x512_S512x512_0_0_1_1_n_n 1024 rfl rfl k
  have el : dot_S1024x512_S1024x512_S512x512_0_0_1_1_n_n.lhsIdx (ix2 p q) ((ValueIdx.contrEquiv1 dot_S1024x512_S1024x512_S512x512_0_0_1_1_n_n 1024 rfl rfl).symm k) = ix2 k p := funext fun a => Fin.ext (by
    match a with
    | ⟨0, _⟩ => exact (lhs_mm_0 _ _).trans hk
    | ⟨1, _⟩ => exact lhs_mm_1 _ _)
  have er : dot_S1024x512_S1024x512_S512x512_0_0_1_1_n_n.rhsIdx (ix2 p q) ((ValueIdx.contrEquiv1 dot_S1024x512_S1024x512_S512x512_0_0_1_1_n_n 1024 rfl rfl).symm k) = ix2 k q := funext fun a => Fin.ext (by
    match a with
    | ⟨0, _⟩ => exact (rhs_mm_0 _ _).trans hk
    | ⟨1, _⟩ => exact rhs_mm_1 _ _)
  rw [el, er]

/-! ## The five kinds of value, one representative each -/

/-- A choice by the bit `1` is the first block. -/
theorem k0_pay2_of_one (v49 : BitVec 1) (v56 v58 : FVec Ideal S1024x512 .f32) (h : v49 = 1#1) :
    k0_pay2 (F := Ideal) v49 v56 v58 = v56 := by
  subst h
  show Scalar.select 1#1 (shapeCast S1024x512 v56 _) (shapeCast S1024x512 v58 _) = v56
  rw [select_one, shapeCast_self]

/-- A choice by the bit `0` is the second block. -/
theorem k0_pay2_of_zero (v49 : BitVec 1) (v56 v58 : FVec Ideal S1024x512 .f32) (h : v49 = 0#1) :
    k0_pay2 (F := Ideal) v49 v56 v58 = v58 := by
  subst h
  show Scalar.select 0#1 (shapeCast S1024x512 v56 _) (shapeCast S1024x512 v58 _) = v58
  rw [select_zero, shapeCast_self]

/-- Entry `(p, q)` of the product of the chosen block with `v1273`; the change of format after it is the identity. -/
theorem k0_pay3_apply (v49 : BitVec 1) (v56 v58 v1273 : FVec Ideal S1024x512 .f32) (p q : Fin 512) :
    k0_pay3 (F := Ideal) v49 v56 v58 v1273 (ix2 p q)
      = ∑ k : Fin 1024, k0_pay2 (F := Ideal) v49 v56 v58 (ix2 k p) * v1273 (ix2 k q) :=
  matmul_apply' (k0_pay2 (F := Ideal) v49 v56 v58) v1273 p q

/-- Columns `0 … 127` of the product, under a leading axis of length one: column `q` is column `0 + q` of the product. -/
theorem k0_pay4_apply (v49 : BitVec 1) (v56 v58 v1273 : FVec Ideal S1024x512 .f32) (u : Fin 1) (p : Fin 512) (q : Fin 128)
    (c : Fin 512) (hc : c.val = 0 + q.val) :
    k0_pay4 (F := Ideal) v49 v56 v58 v1273 (ix3 u p q) = k0_pay3 (F := Ideal) v49 v56 v58 v1273 (ix2 p c) := by
  show shapeCast S1x512x128 (extractStridedSlice S512x128 ![0, 0] (k0_pay3 (F := Ideal) v49 v56 v58 v1273) _) _ (ix3 u p q) = _
  rw [shapeCast_ab_1ab_apply, slice2_axis1_apply 0 _ _ p q c hc]

/-- The same as the sum over the rows `k`. -/
theorem k0_pay4_sum (v49 : BitVec 1) (v56 v58 v1273 : FVec Ideal S1024x512 .f32) (u : Fin 1) (p : Fin 512) (q : Fin 128)
    (c : Fin 512) (hc : c.val = 0 + q.val) :
    k0_pay4 (F := Ideal) v49 v56 v58 v1273 (ix3 u p q)
      = ∑ k : Fin 1024, k0_pay2 (F := Ideal) v49 v56 v58 (ix2 k p) * v1273 (ix2 k c) := by
  rw [k0_pay4_apply v49 v56 v58 v1273 u p q c hc, k0_pay3_apply]

/-- Columns `128 … 255` of the product, under a leading axis of length one: column `q` is column `128 + q` of the product. -/
theorem k0_pay5_apply (v49 : BitVec 1) (v56 v58 v1273 : FVec Ideal S1024x512 .f32) (u : Fin 1) (p : Fin 512) (q : Fin 128)
    (c : Fin 512) (hc : c.val = 128 + q.val) :
    k0_pay5 (F := Ideal) v49 v56 v58 v1273 (ix3 u p q) = k0_pay3 (F := Ideal) v49 v56 v58 v1273 (ix2 p c) := by
  show shapeCast S1x512x128 (extractStridedSlice S512x128 ![0, 128] (k0_pay3 (F := Ideal) v49 v56 v58 v1273) _) _ (ix3 u p q) = _
  rw [shapeCast_ab_1ab_apply, slice2_axis1_apply 128 _ _ p q c hc]

/-- The same as the sum over the rows `k`. -/
theorem k0_pay5_sum (v49 : BitVec 1) (v56 v58 v1273 : FVec Ideal S1024x512 .f32) (u : Fin 1) (p : Fin 512) (q : Fin 128)
    (c : Fin 512) (hc : c.val = 128 + q.val) :
    k0_pay5 (F := Ideal) v49 v56 v58 v1273 (ix3 u p q)
      = ∑ k : Fin 1024, k0_pay2 (F := Ideal) v49 v56 v58 (ix2 k p) * v1273 (ix2 k c) := by
  rw [k0_pay5_apply v49 v56 v58 v1273 u p q c hc, k0_pay3_apply]

/-- Columns `256 … 383` of the product, under a leading axis of length one: column `q` is column `256 + q` of the product. -/
theorem k0_pay6_apply (v49 : BitVec 1) (v56 v58 v1273 : FVec Ideal S1024x512 .f32) (u : Fin 1) (p : Fin 512) (q : Fin 128)
    (c : Fin 512) (hc : c.val = 256 + q.val) :
    k0_pay6 (F := Ideal) v49 v56 v58 v1273 (ix3 u p q) = k0_pay3 (F := Ideal) v49 v56 v58 v1273 (ix2 p c) := by
  show shapeCast S1x512x128 (extractStridedSlice S512x128 ![0, 256] (k0_pay3 (F := Ideal) v49 v56 v58 v1273) _) _ (ix3 u p q) = _
  rw [shapeCast_ab_1ab_apply, slice2_axis1_apply 256 _ _ p q c hc]

/-- The same as the sum over the rows `k`. -/
theorem k0_pay6_sum (v49 : BitVec 1) (v56 v58 v1273 : FVec Ideal S1024x512 .f32) (u : Fin 1) (p : Fin 512) (q : Fin 128)
    (c : Fin 512) (hc : c.val = 256 + q.val) :
    k0_pay6 (F := Ideal) v49 v56 v58 v1273 (ix3 u p q)
      = ∑ k : Fin 1024, k0_pay2 (F := Ideal) v49 v56 v58 (ix2 k p) * v1273 (ix2 k c) := by
  rw [k0_pay6_apply v49 v56 v58 v1273 u p q c hc, k0_pay3_apply]

/-- Columns `384 … 511` of the product, under a leading axis of length one: column `q` is column `384 + q` of the product. -/
theorem k0_pay7_apply (v49 : BitVec 1) (v56 v58 v1273 : FVec Ideal S1024x512 .f32) (u : Fin 1) (p : Fin 512) (q : Fin 128)
    (c : Fin 512) (hc : c.val = 384 + q.val) :
    k0_pay7 (F := Ideal) v49 v56 v58 v1273 (ix3 u p q) = k0_pay3 (F := Ideal) v49 v56 v58 v1273 (ix2 p c) := by
  show shapeCast S1x512x128 (extractStridedSlice S512x128 ![0, 384] (k0_pay3 (F := Ideal) v49 v56 v58 v1273) _) _ (ix3 u p q) = _
  rw [shapeCast_ab_1ab_apply, slice2_axis1_apply 384 _ _ p q c hc]

/-- The same as the sum over the rows `k`. -/
theorem k0_pay7_sum (v49 : BitVec 1) (v56 v58 v1273 : FVec Ideal S1024x512 .f32) (u : Fin 1) (p : Fin 512) (q : Fin 128)
    (c : Fin 512) (hc : c.val = 384 + q.val) :
    k0_pay7 (F := Ideal) v49 v56 v58 v1273 (ix3 u p q)
      = ∑ k : Fin 1024, k0_pay2 (F := Ideal) v49 v56 v58 (ix2 k p) * v1273 (ix2 k c) := by
  rw [k0_pay7_apply v49 v56 v58 v1273 u p q c hc, k0_pay3_apply]

/-- Entry `(p, q)` of the product, under a cast to its own shape. -/
theorem k0_pay43_apply (v55 v278 : FVec Ideal S1024x512 .f32) (p q : Fin 512) :
    k0_pay43 (F := Ideal) v55 v278 (ix2 p q) = ∑ k : Fin 1024, v55 (ix2 k p) * v278 (ix2 k q) := by
  show shapeCast S512x512 (matmul dot_S1024x512_S1024x512_S512x512_0_0_1_1_n_n none v55 v278 (constant (F := Ideal) S512x512 .f32 0x00000000#32)) _ (ix2 p q) = _
  rw [shapeCast_self]
  exact matmul_apply' v55 v278 p q

/-- Entry `(p, q)` of the product. -/
theorem k0_pay44_apply (v55 v283 : FVec Ideal S1024x512 .f32) (p q : Fin 512) :
    k0_pay44 (F := Ideal) v55 v283 (ix2 p q) = ∑ k : Fin 1024, v55 (ix2 k p) * v283 (ix2 k q) :=
  matmul_apply' v55 v283 p q

/-- A cast to the same shape changes nothing. -/
theorem k0_pay45_eq (v284 : FVec Ideal S512x512 .f32) : k0_pay45 (F := Ideal) v284 = v284 := by
  show shapeCast S512x512 v284 _ = v284
  rw [shapeCast_self]

/-- Entry `(p, q)` of the sum of a block with a slot: the two entries added; the slot's leading coordinate is `0`. -/
theorem k0_pay46_apply (v1269 : FVec Ideal S512x128 .f32) (v1270 : FVec Ideal S1x512x128 .bf16) (p : Fin 512) (q : Fin 128) :
    k0_pay46 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

end Cert.KernelIdeal.PayIdx

end
-- ==== Proof.PayIdxAll.lean ====
import proofs.«901046_g7700000000001047_dist_rsdw_v7x_xy2x2_y_m1024_d1024_f4096_f32_1_alg».proof.Proof.PayIdx

/-! Every pure value of the body, entry by entry, on the extended reals: the lemma of its kind for each named value
(a choice by a one-bit word; the product of a transposed block with a block; 128 columns of such a product under a leading
axis of length one; a cast to the same shape; a block plus a slot). -/

noncomputable section

open scoped BigOperators

namespace Cert.KernelIdeal.PayIdx

open Idealize.ShloMosaic Idealize.ShloMosaic.ValueIdx Cert.KernelIdeal Cert.KernelIdeal.Gen

/-- A choice by the bit `1` is the first block. -/
theorem k0_pay1_of_one (v49 : BitVec 1) (v51 : FVec Ideal S1024x512 .f32) (v53 : FVec Ideal S1024x512 .f32) (h : v49 = 1#1) :
    k0_pay1 (F := Ideal) v49 v51 v53 = v51 := by
  subst h
  show Scalar.select 1#1 (shapeCast S1024x512 v51 _) (shapeCast S1024x512 v53 _) = v51
  rw [select_one, shapeCast_self]

/-- A choice by the bit `0` is the second block. -/
theorem k0_pay1_of_zero (v49 : BitVec 1) (v51 : FVec Ideal S1024x512 .f32) (v53 : FVec Ideal S1024x512 .f32) (h : v49 = 0#1) :
    k0_pay1 (F := Ideal) v49 v51 v53 = v53 := by
  subst h
  show Scalar.select 0#1 (shapeCast S1024x512 v51 _) (shapeCast S1024x512 v53 _) = v53
  rw [select_zero, shapeCast_self]

/-- Entry `(p, q)` of the product: the sum over the 1024 rows `k`. -/
theorem k0_pay8_apply (v49 : BitVec 1) (v56 : FVec Ideal S1024x512 .f32) (v58 : FVec Ideal S1024x512 .f32) (v1273 : FVec Ideal S1024x512 .f32) (p q : Fin 512) :
    k0_pay8 (F := Ideal) v49 v56 v58 v1273 (ix2 p q) = ∑ k : Fin 1024, (k0_pay2 (F := Ideal) v49 v56 v58) (ix2 k p) * v1273 (ix2 k q) :=
  matmul_apply' (k0_pay2 (F := Ideal) v49 v56 v58) v1273 p q

/-- Columns `0 … 127` of the product, under a leading axis of length one: column `q` is column `0 + q` of the product. -/
theorem k0_pay9_apply (v49 : BitVec 1) (v56 : FVec Ideal S1024x512 .f32) (v58 : FVec Ideal S1024x512 .f32) (v1273 : FVec Ideal S1024x512 .f32) (u : Fin 1) (p : Fin 512) (q : Fin 128)
    (c : Fin 512) (hc : c.val = 0 + q.val) :
    k0_pay9 (F := Ideal) v49 v56 v58 v1273 (ix3 u p q) = k0_pay8 (F := Ideal) v49 v56 v58 v1273 (ix2 p c) := by
  show shapeCast S1x512x128 (extractStridedSlice S512x128 ![0, 0] (k0_pay8 (F := Ideal) v49 v56 v58 v1273) _) _ (ix3 u p q) = _
  rw [shapeCast_ab_1ab_apply, slice2_axis1_apply 0 _ _ p q c hc]

/-- The same as the sum over the rows `k`. -/
theorem k0_pay9_sum (v49 : BitVec 1) (v56 : FVec Ideal S1024x512 .f32) (v58 : FVec Ideal S1024x512 .f32) (v1273 : FVec Ideal S1024x512 .f32) (u : Fin 1) (p : Fin 512) (q : Fin 128)
    (c : Fin 512) (hc : c.val = 0 + q.val) :
    k0_pay9 (F := Ideal) v49 v56 v58 v1273 (ix3 u p q)
      = ∑ k : Fin 1024, (k0_pay2 (F := Ideal) v49 v56 v58) (ix2 k p) * v1273 (ix2 k c) := by
  rw [k0_pay9_apply v49 v56 v58 v1273 u p q c hc, k0_pay8_apply]

/-- Columns `128 … 255` of the product, under a leading axis of length one: column `q` is column `128 + q` of the product. -/
theorem k0_pay10_apply (v49 : BitVec 1) (v56 : FVec Ideal S1024x512 .f32) (v58 : FVec Ideal S1024x512 .f32) (v1273 : FVec Ideal S1024x512 .f32) (u : Fin 1) (p : Fin 512) (q : Fin 128)
    (c : Fin 512) (hc : c.val = 128 + q.val) :
    k0_pay10 (F := Ideal) v49 v56 v58 v1273 (ix3 u p q) = k0_pay8 (F := Ideal) v49 v56 v58 v1273 (ix2 p c) := by
  show shapeCast S1x512x128 (extractStridedSlice S512x128 ![0, 128] (k0_pay8 (F := Ideal) v49 v56 v58 v1273) _) _ (ix3 u p q) = _
  rw [shapeCast_ab_1ab_apply, slice2_axis1_apply 128 _ _ p q c hc]

/-- The same as the sum over the rows `k`. -/
theorem k0_pay10_sum (v49 : BitVec 1) (v56 : FVec Ideal S1024x512 .f32) (v58 : FVec Ideal S1024x512 .f32) (v1273 : FVec Ideal S1024x512 .f32) (u : Fin 1) (p : Fin 512) (q : Fin 128)
    (c : Fin 512) (hc : c.val = 128 + q.val) :
    k0_pay10 (F := Ideal) v49 v56 v58 v1273 (ix3 u p q)
      = ∑ k : Fin 1024, (k0_pay2 (F := Ideal) v49 v56 v58) (ix2 k p) * v1273 (ix2 k c) := by
  rw [k0_pay10_apply v49 v56 v58 v1273 u p q c hc, k0_pay8_apply]

/-- Columns `256 … 383` of the product, under a leading axis of length one: column `q` is column `256 + q` of the product. -/
theorem k0_pay11_apply (v49 : BitVec 1) (v56 : FVec Ideal S1024x512 .f32) (v58 : FVec Ideal S1024x512 .f32) (v1273 : FVec Ideal S1024x512 .f32) (u : Fin 1) (p : Fin 512) (q : Fin 128)
    (c : Fin 512) (hc : c.val = 256 + q.val) :
    k0_pay11 (F := Ideal) v49 v56 v58 v1273 (ix3 u p q) = k0_pay8 (F := Ideal) v49 v56 v58 v1273 (ix2 p c) := by
  show shapeCast S1x512x128 (extractStridedSlice S512x128 ![0, 256] (k0_pay8 (F := Ideal) v49 v56 v58 v1273) _) _ (ix3 u p q) = _
  rw [shapeCast_ab_1ab_apply, slice2_axis1_apply 256 _ _ p q c hc]

/-- The same as the sum over the rows `k`. -/
theorem k0_pay11_sum (v49 : BitVec 1) (v56 : FVec Ideal S1024x512 .f32) (v58 : FVec Ideal S1024x512 .f32) (v1273 : FVec Ideal S1024x512 .f32) (u : Fin 1) (p : Fin 512) (q : Fin 128)
    (c : Fin 512) (hc : c.val = 256 + q.val) :
    k0_pay11 (F := Ideal) v49 v56 v58 v1273 (ix3 u p q)
      = ∑ k : Fin 1024, (k0_pay2 (F := Ideal) v49 v56 v58) (ix2 k p) * v1273 (ix2 k c) := by
  rw [k0_pay11_apply v49 v56 v58 v1273 u p q c hc, k0_pay8_apply]

/-- Columns `384 … 511` of the product, under a leading axis of length one: column `q` is column `384 + q` of the product. -/
theorem k0_pay12_apply (v49 : BitVec 1) (v56 : FVec Ideal S1024x512 .f32) (v58 : FVec Ideal S1024x512 .f32) (v1273 : FVec Ideal S1024x512 .f32) (u : Fin 1) (p : Fin 512) (q : Fin 128)
    (c : Fin 512) (hc : c.val = 384 + q.val) :
    k0_pay12 (F := Ideal) v49 v56 v58 v1273 (ix3 u p q) = k0_pay8 (F := Ideal) v49 v56 v58 v1273 (ix2 p c) := by
  show shapeCast S1x512x128 (extractStridedSlice S512x128 ![0, 384] (k0_pay8 (F := Ideal) v49 v56 v58 v1273) _) _ (ix3 u p q) = _
  rw [shapeCast_ab_1ab_apply, slice2_axis1_apply 384 _ _ p q c hc]

/-- The same as the sum over the rows `k`. -/
theorem k0_pay12_sum (v49 : BitVec 1) (v56 : FVec Ideal S1024x512 .f32) (v58 : FVec Ideal S1024x512 .f32) (v1273 : FVec Ideal S1024x512 .f32) (u : Fin 1) (p : Fin 512) (q : Fin 128)
    (c : Fin 512) (hc : c.val = 384 + q.val) :
    k0_pay12 (F := Ideal) v49 v56 v58 v1273 (ix3 u p q)
      = ∑ k : Fin 1024, (k0_pay2 (F := Ideal) v49 v56 v58) (ix2 k p) * v1273 (ix2 k c) := by
  rw [k0_pay12_apply v49 v56 v58 v1273 u p q c hc, k0_pay8_apply]

/-- Entry `(p, q)` of the product: the sum over the 1024 rows `k`. -/
theorem k0_pay13_apply (v60 : FVec Ideal S1024x512 .f32) (v1273 : FVec Ideal S1024x512 .f32) (p q : Fin 512) :
    k0_pay13 (F := Ideal) v60 v1273 (ix2 p q) = ∑ k : Fin 1024, v60 (ix2 k p) * v1273 (ix2 k q) :=
  matmul_apply' v60 v1273 p q

/-- Columns `0 … 127` of the product, under a leading axis of length one: column `q` is column `0 + q` of the product. -/
theorem k0_pay14_apply (v60 : FVec Ideal S1024x512 .f32) (v1273 : FVec Ideal S1024x512 .f32) (u : Fin 1) (p : Fin 512) (q : Fin 128)
    (c : Fin 512) (hc : c.val = 0 + q.val) :
    k0_pay14 (F := Ideal) v60 v1273 (ix3 u p q) = k0_pay13 (F := Ideal) v60 v1273 (ix2 p c) := by
  show shapeCast S1x512x128 (extractStridedSlice S512x128 ![0, 0] (k0_pay13 (F := Ideal) v60 v1273) _) _ (ix3 u p q) = _
  rw [shapeCast_ab_1ab_apply, slice2_axis1_apply 0 _ _ p q c hc]

/-- The same as the sum over the rows `k`. -/
theorem k0_pay14_sum (v60 : FVec Ideal S1024x512 .f32) (v1273 : FVec Ideal S1024x512 .f32) (u : Fin 1) (p : Fin 512) (q : Fin 128)
    (c : Fin 512) (hc : c.val = 0 + q.val) :
    k0_pay14 (F := Ideal) v60 v1273 (ix3 u p q)
      = ∑ k : Fin 1024, v60 (ix2 k p) * v1273 (ix2 k c) := by
  rw [k0_pay14_apply v60 v1273 u p q c hc, k0_pay13_apply]

/-- Columns `128 … 255` of the product, under a leading axis of length one: column `q` is column `128 + q` of the product. -/
theorem k0_pay15_apply (v60 : FVec Ideal S1024x512 .f32) (v1273 : FVec Ideal S1024x512 .f32) (u : Fin 1) (p : Fin 512) (q : Fin 128)
    (c : Fin 512) (hc : c.val = 128 + q.val) :
    k0_pay15 (F := Ideal) v60 v1273 (ix3 u p q) = k0_pay13 (F := Ideal) v60 v1273 (ix2 p c) := by
  show shapeCast S1x512x128 (extractStridedSlice S512x128 ![0, 128] (k0_pay13 (F := Ideal) v60 v1273) _) _ (ix3 u p q) = _
  rw [shapeCast_ab_1ab_apply, slice2_axis1_apply 128 _ _ p q c hc]

/-- The same as the sum over the rows `k`. -/
theorem k0_pay15_sum (v60 : FVec Ideal S1024x512 .f32) (v1273 : FVec Ideal S1024x512 .f32) (u : Fin 1) (p : Fin 512) (q : Fin 128)
    (c : Fin 512) (hc : c.val = 128 + q.val) :
    k0_pay15 (F := Ideal) v60 v1273 (ix3 u p q)
      = ∑ k : Fin 1024, v60 (ix2 k p) * v1273 (ix2 k c) := by
  rw [k0_pay15_apply v60 v1273 u p q c hc, k0_pay13_apply]

/-- Columns `256 … 383` of the product, under a leading axis of length one: column `q` is column `256 + q` of the product. -/
theorem k0_pay16_apply (v60 : FVec Ideal S1024x512 .f32) (v1273 : FVec Ideal S1024x512 .f32) (u : Fin 1) (p : Fin 512) (q : Fin 128)
    (c : Fin 512) (hc : c.val = 256 + q.val) :
    k0_pay16 (F := Ideal) v60 v1273 (ix3 u p q) = k0_pay13 (F := Ideal) v60 v1273 (ix2 p c) := by
  show shapeCast S1x512x128 (extractStridedSlice S512x128 ![0, 256] (k0_pay13 (F := Ideal) v60 v1273) _) _ (ix3 u p q) = _
  rw [shapeCast_ab_1ab_apply, slice2_axis1_apply 256 _ _ p q c hc]

/-- The same as the sum over the rows `k`. -/
theorem k0_pay16_sum (v60 : FVec Ideal S1024x512 .f32) (v1273 : FVec Ideal S1024x512 .f32) (u : Fin 1) (p : Fin 512) (q : Fin 128)
    (c : Fin 512) (hc : c.val = 256 + q.val) :
    k0_pay16 (F := Ideal) v60 v1273 (ix3 u p q)
      = ∑ k : Fin 1024, v60 (ix2 k p) * v1273 (ix2 k c) := by
  rw [k0_pay16_apply v60 v1273 u p q c hc, k0_pay13_apply]

/-- Columns `384 … 511` of the product, under a leading axis of length one: column `q` is column `384 + q` of the product. -/
theorem k0_pay17_apply (v60 : FVec Ideal S1024x512 .f32) (v1273 : FVec Ideal S1024x512 .f32) (u : Fin 1) (p : Fin 512) (q : Fin 128)
    (c : Fin 512) (hc : c.val = 384 + q.val) :
    k0_pay17 (F := Ideal) v60 v1273 (ix3 u p q) = k0_pay13 (F := Ideal) v60 v1273 (ix2 p c) := by
  show shapeCast S1x512x128 (extractStridedSlice S512x128 ![0, 384] (k0_pay13 (F := Ideal) v60 v1273) _) _ (ix3 u p q) = _
  rw [shapeCast_ab_1ab_apply, slice2_axis1_apply 384 _ _ p q c hc]

/-- The same as the sum over the rows `k`. -/
theorem k0_pay17_sum (v60 : FVec Ideal S1024x512 .f32) (v1273 : FVec Ideal S1024x512 .f32) (u : Fin 1) (p : Fin 512) (q : Fin 128)
    (c : Fin 512) (hc : c.val = 384 + q.val) :
    k0_pay17 (F := Ideal) v60 v1273 (ix3 u p q)
      = ∑ k : Fin 1024, v60 (ix2 k p) * v1273 (ix2 k c) := by
  rw [k0_pay17_apply v60 v1273 u p q c hc, k0_pay13_apply]

/-- Entry `(p, q)` of the product: the sum over the 1024 rows `k`. -/
theorem k0_pay18_apply (v60 : FVec Ideal S1024x512 .f32) (v1273 : FVec Ideal S1024x512 .f32) (p q : Fin 512) :
    k0_pay18 (F := Ideal) v60 v1273 (ix2 p q) = ∑ k : Fin 1024, v60 (ix2 k p) * v1273 (ix2 k q) :=
  matmul_apply' v60 v1273 p q

/-- Columns `0 … 127` of the product, under a leading axis of length one: column `q` is column `0 + q` of the product. -/
theorem k0_pay19_apply (v60 : FVec Ideal S1024x512 .f32) (v1273 : FVec Ideal S1024x512 .f32) (u : Fin 1) (p : Fin 512) (q : Fin 128)
    (c : Fin 512) (hc : c.val = 0 + q.val) :
    k0_pay19 (F := Ideal) v60 v1273 (ix3 u p q) = k0_pay18 (F := Ideal) v60 v1273 (ix2 p c) := by
  show shapeCast S1x512x128 (extractStridedSlice S512x128 ![0, 0] (k0_pay18 (F := Ideal) v60 v1273) _) _ (ix3 u p q) = _
  rw [shapeCast_ab_1ab_apply, slice2_axis1_apply 0 _ _ p q c hc]

/-- The same as the sum over the rows `k`. -/
theorem k0_pay19_sum (v60 : FVec Ideal S1024x512 .f32) (v1273 : FVec Ideal S1024x512 .f32) (u : Fin 1) (p : Fin 512) (q : Fin 128)
    (c : Fin 512) (hc : c.val = 0 + q.val) :
    k0_pay19 (F := Ideal) v60 v1273 (ix3 u p q)
      = ∑ k : Fin 1024, v60 (ix2 k p) * v1273 (ix2 k c) := by
  rw [k0_pay19_apply v60 v1273 u p q c hc, k0_pay18_apply]

/-- Columns `128 … 255` of the product, under a leading axis of length one: column `q` is column `128 + q` of the product. -/
theorem k0_pay20_apply (v60 : FVec Ideal S1024x512 .f32) (v1273 : FVec Ideal S1024x512 .f32) (u : Fin 1) (p : Fin 512) (q : Fin 128)
    (c : Fin 512) (hc : c.val = 128 + q.val) :
    k0_pay20 (F := Ideal) v60 v1273 (ix3 u p q) = k0_pay18 (F := Ideal) v60 v1273 (ix2 p c) := by
  show shapeCast S1x512x128 (extractStridedSlice S512x128 ![0, 128] (k0_pay18 (F := Ideal) v60 v1273) _) _ (ix3 u p q) = _
  rw [shapeCast_ab_1ab_apply, slice2_axis1_apply 128 _ _ p q c hc]

/-- The same as the sum over the rows `k`. -/
theorem k0_pay20_sum (v60 : FVec Ideal S1024x512 .f32) (v1273 : FVec Ideal S1024x512 .f32) (u : Fin 1) (p : Fin 512) (q : Fin 128)
    (c : Fin 512) (hc : c.val = 128 + q.val) :
    k0_pay20 (F := Ideal) v60 v1273 (ix3 u p q)
      = ∑ k : Fin 1024, v60 (ix2 k p) * v1273 (ix2 k c) := by
  rw [k0_pay20_apply v60 v1273 u p q c hc, k0_pay18_apply]

/-- Columns `256 … 383` of the product, under a leading axis of length one: column `q` is column `256 + q` of the product. -/
theorem k0_pay21_apply (v60 : FVec Ideal S1024x512 .f32) (v1273 : FVec Ideal S1024x512 .f32) (u : Fin 1) (p : Fin 512) (q : Fin 128)
    (c : Fin 512) (hc : c.val = 256 + q.val) :
    k0_pay21 (F := Ideal) v60 v1273 (ix3 u p q) = k0_pay18 (F := Ideal) v60 v1273 (ix2 p c) := by
  show shapeCast S1x512x128 (extractStridedSlice S512x128 ![0, 256] (k0_pay18 (F := Ideal) v60 v1273) _) _ (ix3 u p q) = _
  rw [shapeCast_ab_1ab_apply, slice2_axis1_apply 256 _ _ p q c hc]

/-- The same as the sum over the rows `k`. -/
theorem k0_pay21_sum (v60 : FVec Ideal S1024x512 .f32) (v1273 : FVec Ideal S1024x512 .f32) (u : Fin 1) (p : Fin 512) (q : Fin 128)
    (c : Fin 512) (hc : c.val = 256 + q.val) :
    k0_pay21 (F := Ideal) v60 v1273 (ix3 u p q)
      = ∑ k : Fin 1024, v60 (ix2 k p) * v1273 (ix2 k c) := by
  rw [k0_pay21_apply v60 v1273 u p q c hc, k0_pay18_apply]

/-- Columns `384 … 511` of the product, under a leading axis of length one: column `q` is column `384 + q` of the product. -/
theorem k0_pay22_apply (v60 : FVec Ideal S1024x512 .f32) (v1273 : FVec Ideal S1024x512 .f32) (u : Fin 1) (p : Fin 512) (q : Fin 128)
    (c : Fin 512) (hc : c.val = 384 + q.val) :
    k0_pay22 (F := Ideal) v60 v1273 (ix3 u p q) = k0_pay18 (F := Ideal) v60 v1273 (ix2 p c) := by
  show shapeCast S1x512x128 (extractStridedSlice S512x128 ![0, 384] (k0_pay18 (F := Ideal) v60 v1273) _) _ (ix3 u p q) = _
  rw [shapeCast_ab_1ab_apply, slice2_axis1_apply 384 _ _ p q c hc]

/-- The same as the sum over the rows `k`. -/
theorem k0_pay22_sum (v60 : FVec Ideal S1024x512 .f32) (v1273 : FVec Ideal S1024x512 .f32) (u : Fin 1) (p : Fin 512) (q : Fin 128)
    (c : Fin 512) (hc : c.val = 384 + q.val) :
    k0_pay22 (F := Ideal) v60 v1273 (ix3 u p q)
      = ∑ k : Fin 1024, v60 (ix2 k p) * v1273 (ix2 k c) := by
  rw [k0_pay22_apply v60 v1273 u p q c hc, k0_pay18_apply]

/-- Entry `(p, q)` of the product: the sum over the 1024 rows `k`. -/
theorem k0_pay23_apply (v60 : FVec Ideal S1024x512 .f32) (v1273 : FVec Ideal S1024x512 .f32) (p q : Fin 512) :
    k0_pay23 (F := Ideal) v60 v1273 (ix2 p q) = ∑ k : Fin 1024, v60 (ix2 k p) * v1273 (ix2 k q) :=
  matmul_apply' v60 v1273 p q

/-- Columns `0 … 127` of the product, under a leading axis of length one: column `q` is column `0 + q` of the product. -/
theorem k0_pay24_apply (v60 : FVec Ideal S1024x512 .f32) (v1273 : FVec Ideal S1024x512 .f32) (u : Fin 1) (p : Fin 512) (q : Fin 128)
    (c : Fin 512) (hc : c.val = 0 + q.val) :
    k0_pay24 (F := Ideal) v60 v1273 (ix3 u p q) = k0_pay23 (F := Ideal) v60 v1273 (ix2 p c) := by
  show shapeCast S1x512x128 (extractStridedSlice S512x128 ![0, 0] (k0_pay23 (F := Ideal) v60 v1273) _) _ (ix3 u p q) = _
  rw [shapeCast_ab_1ab_apply, slice2_axis1_apply 0 _ _ p q c hc]

/-- The same as the sum over the rows `k`. -/
theorem k0_pay24_sum (v60 : FVec Ideal S1024x512 .f32) (v1273 : FVec Ideal S1024x512 .f32) (u : Fin 1) (p : Fin 512) (q : Fin 128)
    (c : Fin 512) (hc : c.val = 0 + q.val) :
    k0_pay24 (F := Ideal) v60 v1273 (ix3 u p q)
      = ∑ k : Fin 1024, v60 (ix2 k p) * v1273 (ix2 k c) := by
  rw [k0_pay24_apply v60 v1273 u p q c hc, k0_pay23_apply]

/-- Columns `128 … 255` of the product, under a leading axis of length one: column `q` is column `128 + q` of the product. -/
theorem k0_pay25_apply (v60 : FVec Ideal S1024x512 .f32) (v1273 : FVec Ideal S1024x512 .f32) (u : Fin 1) (p : Fin 512) (q : Fin 128)
    (c : Fin 512) (hc : c.val = 128 + q.val) :
    k0_pay25 (F := Ideal) v60 v1273 (ix3 u p q) = k0_pay23 (F := Ideal) v60 v1273 (ix2 p c) := by
  show shapeCast S1x512x128 (extractStridedSlice S512x128 ![0, 128] (k0_pay23 (F := Ideal) v60 v1273) _) _ (ix3 u p q) = _
  rw [shapeCast_ab_1ab_apply, slice2_axis1_apply 128 _ _ p q c hc]

/-- The same as the sum over the rows `k`. -/
theorem k0_pay25_sum (v60 : FVec Ideal S1024x512 .f32) (v1273 : FVec Ideal S1024x512 .f32) (u : Fin 1) (p : Fin 512) (q : Fin 128)
    (c : Fin 512) (hc : c.val = 128 + q.val) :
    k0_pay25 (F := Ideal) v60 v1273 (ix3 u p q)
      = ∑ k : Fin 1024, v60 (ix2 k p) * v1273 (ix2 k c) := by
  rw [k0_pay25_apply v60 v1273 u p q c hc, k0_pay23_apply]

/-- Columns `256 … 383` of the product, under a leading axis of length one: column `q` is column `256 + q` of the product. -/
theorem k0_pay26_apply (v60 : FVec Ideal S1024x512 .f32) (v1273 : FVec Ideal S1024x512 .f32) (u : Fin 1) (p : Fin 512) (q : Fin 128)
    (c : Fin 512) (hc : c.val = 256 + q.val) :
    k0_pay26 (F := Ideal) v60 v1273 (ix3 u p q) = k0_pay23 (F := Ideal) v60 v1273 (ix2 p c) := by
  show shapeCast S1x512x128 (extractStridedSlice S512x128 ![0, 256] (k0_pay23 (F := Ideal) v60 v1273) _) _ (ix3 u p q) = _
  rw [shapeCast_ab_1ab_apply, slice2_axis1_apply 256 _ _ p q c hc]

/-- The same as the sum over the rows `k`. -/
theorem k0_pay26_sum (v60 : FVec Ideal S1024x512 .f32) (v1273 : FVec Ideal S1024x512 .f32) (u : Fin 1) (p : Fin 512) (q : Fin 128)
    (c : Fin 512) (hc : c.val = 256 + q.val) :
    k0_pay26 (F := Ideal) v60 v1273 (ix3 u p q)
      = ∑ k : Fin 1024, v60 (ix2 k p) * v1273 (ix2 k c) := by
  rw [k0_pay26_apply v60 v1273 u p q c hc, k0_pay23_apply]

/-- Columns `384 … 511` of the product, under a leading axis of length one: column `q` is column `384 + q` of the product. -/
theorem k0_pay27_apply (v60 : FVec Ideal S1024x512 .f32) (v1273 : FVec Ideal S1024x512 .f32) (u : Fin 1) (p : Fin 512) (q : Fin 128)
    (c : Fin 512) (hc : c.val = 384 + q.val) :
    k0_pay27 (F := Ideal) v60 v1273 (ix3 u p q) = k0_pay23 (F := Ideal) v60 v1273 (ix2 p c) := by
  show shapeCast S1x512x128 (extractStridedSlice S512x128 ![0, 384] (k0_pay23 (F := Ideal) v60 v1273) _) _ (ix3 u p q) = _
  rw [shapeCast_ab_1ab_apply, slice2_axis1_apply 384 _ _ p q c hc]

/-- The same as the sum over the rows `k`. -/
theorem k0_pay27_sum (v60 : FVec Ideal S1024x512 .f32) (v1273 : FVec Ideal S1024x512 .f32) (u : Fin 1) (p : Fin 512) (q : Fin 128)
    (c : Fin 512) (hc : c.val = 384 + q.val) :
    k0_pay27 (F := Ideal) v60 v1273 (ix3 u p q)
      = ∑ k : Fin 1024, v60 (ix2 k p) * v1273 (ix2 k c) := by
  rw [k0_pay27_apply v60 v1273 u p q c hc, k0_pay23_apply]

/-- Entry `(p, q)` of the product: the sum over the 1024 rows `k`. -/
theorem k0_pay28_apply (v60 : FVec Ideal S1024x512 .f32) (v1273 : FVec Ideal S1024x512 .f32) (p q : Fin 512) :
    k0_pay28 (F := Ideal) v60 v1273 (ix2 p q) = ∑ k : Fin 1024, v60 (ix2 k p) * v1273 (ix2 k q) :=
  matmul_apply' v60 v1273 p q

/-- Columns `0 … 127` of the product, under a leading axis of length one: column `q` is column `0 + q` of the product. -/
theorem k0_pay29_apply (v60 : FVec Ideal S1024x512 .f32) (v1273 : FVec Ideal S1024x512 .f32) (u : Fin 1) (p : Fin 512) (q : Fin 128)
    (c : Fin 512) (hc : c.val = 0 + q.val) :
    k0_pay29 (F := Ideal) v60 v1273 (ix3 u p q) = k0_pay28 (F := Ideal) v60 v1273 (ix2 p c) := by
  show shapeCast S1x512x128 (extractStridedSlice S512x128 ![0, 0] (k0_pay28 (F := Ideal) v60 v1273) _) _ (ix3 u p q) = _
  rw [shapeCast_ab_1ab_apply, slice2_axis1_apply 0 _ _ p q c hc]

/-- The same as the sum over the rows `k`. -/
theorem k0_pay29_sum (v60 : FVec Ideal S1024x512 .f32) (v1273 : FVec Ideal S1024x512 .f32) (u : Fin 1) (p : Fin 512) (q : Fin 128)
    (c : Fin 512) (hc : c.val = 0 + q.val) :
    k0_pay29 (F := Ideal) v60 v1273 (ix3 u p q)
      = ∑ k : Fin 1024, v60 (ix2 k p) * v1273 (ix2 k c) := by
  rw [k0_pay29_apply v60 v1273 u p q c hc, k0_pay28_apply]

/-- Columns `128 … 255` of the product, under a leading axis of length one: column `q` is column `128 + q` of the product. -/
theorem k0_pay30_apply (v60 : FVec Ideal S1024x512 .f32) (v1273 : FVec Ideal S1024x512 .f32) (u : Fin 1) (p : Fin 512) (q : Fin 128)
    (c : Fin 512) (hc : c.val = 128 + q.val) :
    k0_pay30 (F := Ideal) v60 v1273 (ix3 u p q) = k0_pay28 (F := Ideal) v60 v1273 (ix2 p c) := by
  show shapeCast S1x512x128 (extractStridedSlice S512x128 ![0, 128] (k0_pay28 (F := Ideal) v60 v1273) _) _ (ix3 u p q) = _
  rw [shapeCast_ab_1ab_apply, slice2_axis1_apply 128 _ _ p q c hc]

/-- The same as the sum over the rows `k`. -/
theorem k0_pay30_sum (v60 : FVec Ideal S1024x512 .f32) (v1273 : FVec Ideal S1024x512 .f32) (u : Fin 1) (p : Fin 512) (q : Fin 128)
    (c : Fin 512) (hc : c.val = 128 + q.val) :
    k0_pay30 (F := Ideal) v60 v1273 (ix3 u p q)
      = ∑ k : Fin 1024, v60 (ix2 k p) * v1273 (ix2 k c) := by
  rw [k0_pay30_apply v60 v1273 u p q c hc, k0_pay28_apply]

/-- Columns `256 … 383` of the product, under a leading axis of length one: column `q` is column `256 + q` of the product. -/
theorem k0_pay31_apply (v60 : FVec Ideal S1024x512 .f32) (v1273 : FVec Ideal S1024x512 .f32) (u : Fin 1) (p : Fin 512) (q : Fin 128)
    (c : Fin 512) (hc : c.val = 256 + q.val) :
    k0_pay31 (F := Ideal) v60 v1273 (ix3 u p q) = k0_pay28 (F := Ideal) v60 v1273 (ix2 p c) := by
  show shapeCast S1x512x128 (extractStridedSlice S512x128 ![0, 256] (k0_pay28 (F := Ideal) v60 v1273) _) _ (ix3 u p q) = _
  rw [shapeCast_ab_1ab_apply, slice2_axis1_apply 256 _ _ p q c hc]

/-- The same as the sum over the rows `k`. -/
theorem k0_pay31_sum (v60 : FVec Ideal S1024x512 .f32) (v1273 : FVec Ideal S1024x512 .f32) (u : Fin 1) (p : Fin 512) (q : Fin 128)
    (c : Fin 512) (hc : c.val = 256 + q.val) :
    k0_pay31 (F := Ideal) v60 v1273 (ix3 u p q)
      = ∑ k : Fin 1024, v60 (ix2 k p) * v1273 (ix2 k c) := by
  rw [k0_pay31_apply v60 v1273 u p q c hc, k0_pay28_apply]

/-- Columns `384 … 511` of the product, under a leading axis of length one: column `q` is column `384 + q` of the product. -/
theorem k0_pay32_apply (v60 : FVec Ideal S1024x512 .f32) (v1273 : FVec Ideal S1024x512 .f32) (u : Fin 1) (p : Fin 512) (q : Fin 128)
    (c : Fin 512) (hc : c.val = 384 + q.val) :
    k0_pay32 (F := Ideal) v60 v1273 (ix3 u p q) = k0_pay28 (F := Ideal) v60 v1273 (ix2 p c) := by
  show shapeCast S1x512x128 (extractStridedSlice S512x128 ![0, 384] (k0_pay28 (F := Ideal) v60 v1273) _) _ (ix3 u p q) = _
  rw [shapeCast_ab_1ab_apply, slice2_axis1_apply 384 _ _ p q c hc]

/-- The same as the sum over the rows `k`. -/
theorem k0_pay32_sum (v60 : FVec Ideal S1024x512 .f32) (v1273 : FVec Ideal S1024x512 .f32) (u : Fin 1) (p : Fin 512) (q : Fin 128)
    (c : Fin 512) (hc : c.val = 384 + q.val) :
    k0_pay32 (F := Ideal) v60 v1273 (ix3 u p q)
      = ∑ k : Fin 1024, v60 (ix2 k p) * v1273 (ix2 k c) := by
  rw [k0_pay32_apply v60 v1273 u p q c hc, k0_pay28_apply]

/-- Entry `(p, q)` of the product: the sum over the 1024 rows `k`. -/
theorem k0_pay33_apply (v60 : FVec Ideal S1024x512 .f32) (v1273 : FVec Ideal S1024x512 .f32) (p q : Fin 512) :
    k0_pay33 (F := Ideal) v60 v1273 (ix2 p q) = ∑ k : Fin 1024, v60 (ix2 k p) * v1273 (ix2 k q) :=
  matmul_apply' v60 v1273 p q

/-- Columns `0 … 127` of the product, under a leading axis of length one: column `q` is column `0 + q` of the product. -/
theorem k0_pay34_apply (v60 : FVec Ideal S1024x512 .f32) (v1273 : FVec Ideal S1024x512 .f32) (u : Fin 1) (p : Fin 512) (q : Fin 128)
    (c : Fin 512) (hc : c.val = 0 + q.val) :
    k0_pay34 (F := Ideal) v60 v1273 (ix3 u p q) = k0_pay33 (F := Ideal) v60 v1273 (ix2 p c) := by
  show shapeCast S1x512x128 (extractStridedSlice S512x128 ![0, 0] (k0_pay33 (F := Ideal) v60 v1273) _) _ (ix3 u p q) = _
  rw [shapeCast_ab_1ab_apply, slice2_axis1_apply 0 _ _ p q c hc]

/-- The same as the sum over the rows `k`. -/
theorem k0_pay34_sum (v60 : FVec Ideal S1024x512 .f32) (v1273 : FVec Ideal S1024x512 .f32) (u : Fin 1) (p : Fin 512) (q : Fin 128)
    (c : Fin 512) (hc : c.val = 0 + q.val) :
    k0_pay34 (F := Ideal) v60 v1273 (ix3 u p q)
      = ∑ k : Fin 1024, v60 (ix2 k p) * v1273 (ix2 k c) := by
  rw [k0_pay34_apply v60 v1273 u p q c hc, k0_pay33_apply]

/-- Columns `128 … 255` of the product, under a leading axis of length one: column `q` is column `128 + q` of the product. -/
theorem k0_pay35_apply (v60 : FVec Ideal S1024x512 .f32) (v1273 : FVec Ideal S1024x512 .f32) (u : Fin 1) (p : Fin 512) (q : Fin 128)
    (c : Fin 512) (hc : c.val = 128 + q.val) :
    k0_pay35 (F := Ideal) v60 v1273 (ix3 u p q) = k0_pay33 (F := Ideal) v60 v1273 (ix2 p c) := by
  show shapeCast S1x512x128 (extractStridedSlice S512x128 ![0, 128] (k0_pay33 (F := Ideal) v60 v1273) _) _ (ix3 u p q) = _
  rw [shapeCast_ab_1ab_apply, slice2_axis1_apply 128 _ _ p q c hc]

/-- The same as the sum over the rows `k`. -/
theorem k0_pay35_sum (v60 : FVec Ideal S1024x512 .f32) (v1273 : FVec Ideal S1024x512 .f32) (u : Fin 1) (p : Fin 512) (q : Fin 128)
    (c : Fin 512) (hc : c.val = 128 + q.val) :
    k0_pay35 (F := Ideal) v60 v1273 (ix3 u p q)
      = ∑ k : Fin 1024, v60 (ix2 k p) * v1273 (ix2 k c) := by
  rw [k0_pay35_apply v60 v1273 u p q c hc, k0_pay33_apply]

/-- Columns `256 … 383` of the product, under a leading axis of length one: column `q` is column `256 + q` of the product. -/
theorem k0_pay36_apply (v60 : FVec Ideal S1024x512 .f32) (v1273 : FVec Ideal S1024x512 .f32) (u : Fin 1) (p : Fin 512) (q : Fin 128)
    (c : Fin 512) (hc : c.val = 256 + q.val) :
    k0_pay36 (F := Ideal) v60 v1273 (ix3 u p q) = k0_pay33 (F := Ideal) v60 v1273 (ix2 p c) := by
  show shapeCast S1x512x128 (extractStridedSlice S512x128 ![0, 256] (k0_pay33 (F := Ideal) v60 v1273) _) _ (ix3 u p q) = _
  rw [shapeCast_ab_1ab_apply, slice2_axis1_apply 256 _ _ p q c hc]

/-- The same as the sum over the rows `k`. -/
theorem k0_pay36_sum (v60 : FVec Ideal S1024x512 .f32) (v1273 : FVec Ideal S1024x512 .f32) (u : Fin 1) (p : Fin 512) (q : Fin 128)
    (c : Fin 512) (hc : c.val = 256 + q.val) :
    k0_pay36 (F := Ideal) v60 v1273 (ix3 u p q)
      = ∑ k : Fin 1024, v60 (ix2 k p) * v1273 (ix2 k c) := by
  rw [k0_pay36_apply v60 v1273 u p q c hc, k0_pay33_apply]

/-- Columns `384 … 511` of the product, under a leading axis of length one: column `q` is column `384 + q` of the product. -/
theorem k0_pay37_apply (v60 : FVec Ideal S1024x512 .f32) (v1273 : FVec Ideal S1024x512 .f32) (u : Fin 1) (p : Fin 512) (q : Fin 128)
    (c : Fin 512) (hc : c.val = 384 + q.val) :
    k0_pay37 (F := Ideal) v60 v1273 (ix3 u p q) = k0_pay33 (F := Ideal) v60 v1273 (ix2 p c) := by
  show shapeCast S1x512x128 (extractStridedSlice S512x128 ![0, 384] (k0_pay33 (F := Ideal) v60 v1273) _) _ (ix3 u p q) = _
  rw [shapeCast_ab_1ab_apply, slice2_axis1_apply 384 _ _ p q c hc]

/-- The same as the sum over the rows `k`. -/
theorem k0_pay37_sum (v60 : FVec Ideal S1024x512 .f32) (v1273 : FVec Ideal S1024x512 .f32) (u : Fin 1) (p : Fin 512) (q : Fin 128)
    (c : Fin 512) (hc : c.val = 384 + q.val) :
    k0_pay37 (F := Ideal) v60 v1273 (ix3 u p q)
      = ∑ k : Fin 1024, v60 (ix2 k p) * v1273 (ix2 k c) := by
  rw [k0_pay37_apply v60 v1273 u p q c hc, k0_pay33_apply]

/-- Entry `(p, q)` of the product: the sum over the 1024 rows `k`. -/
theorem k0_pay38_apply (v60 : FVec Ideal S1024x512 .f32) (v1273 : FVec Ideal S1024x512 .f32) (p q : Fin 512) :
    k0_pay38 (F := Ideal) v60 v1273 (ix2 p q) = ∑ k : Fin 1024, v60 (ix2 k p) * v1273 (ix2 k q) :=
  matmul_apply' v60 v1273 p q

/-- Columns `0 … 127` of the product, under a leading axis of length one: column `q` is column `0 + q` of the product. -/
theorem k0_pay39_apply (v60 : FVec Ideal S1024x512 .f32) (v1273 : FVec Ideal S1024x512 .f32) (u : Fin 1) (p : Fin 512) (q : Fin 128)
    (c : Fin 512) (hc : c.val = 0 + q.val) :
    k0_pay39 (F := Ideal) v60 v1273 (ix3 u p q) = k0_pay38 (F := Ideal) v60 v1273 (ix2 p c) := by
  show shapeCast S1x512x128 (extractStridedSlice S512x128 ![0, 0] (k0_pay38 (F := Ideal) v60 v1273) _) _ (ix3 u p q) = _
  rw [shapeCast_ab_1ab_apply, slice2_axis1_apply 0 _ _ p q c hc]

/-- The same as the sum over the rows `k`. -/
theorem k0_pay39_sum (v60 : FVec Ideal S1024x512 .f32) (v1273 : FVec Ideal S1024x512 .f32) (u : Fin 1) (p : Fin 512) (q : Fin 128)
    (c : Fin 512) (hc : c.val = 0 + q.val) :
    k0_pay39 (F := Ideal) v60 v1273 (ix3 u p q)
      = ∑ k : Fin 1024, v60 (ix2 k p) * v1273 (ix2 k c) := by
  rw [k0_pay39_apply v60 v1273 u p q c hc, k0_pay38_apply]

/-- Columns `128 … 255` of the product, under a leading axis of length one: column `q` is column `128 + q` of the product. -/
theorem k0_pay40_apply (v60 : FVec Ideal S1024x512 .f32) (v1273 : FVec Ideal S1024x512 .f32) (u : Fin 1) (p : Fin 512) (q : Fin 128)
    (c : Fin 512) (hc : c.val = 128 + q.val) :
    k0_pay40 (F := Ideal) v60 v1273 (ix3 u p q) = k0_pay38 (F := Ideal) v60 v1273 (ix2 p c) := by
  show shapeCast S1x512x128 (extractStridedSlice S512x128 ![0, 128] (k0_pay38 (F := Ideal) v60 v1273) _) _ (ix3 u p q) = _
  rw [shapeCast_ab_1ab_apply, slice2_axis1_apply 128 _ _ p q c hc]

/-- The same as the sum over the rows `k`. -/
theorem k0_pay40_sum (v60 : FVec Ideal S1024x512 .f32) (v1273 : FVec Ideal S1024x512 .f32) (u : Fin 1) (p : Fin 512) (q : Fin 128)
    (c : Fin 512) (hc : c.val = 128 + q.val) :
    k0_pay40 (F := Ideal) v60 v1273 (ix3 u p q)
      = ∑ k : Fin 1024, v60 (ix2 k p) * v1273 (ix2 k c) := by
  rw [k0_pay40_apply v60 v1273 u p q c hc, k0_pay38_apply]

/-- Columns `256 … 383` of the product, under a leading axis of length one: column `q` is column `256 + q` of the product. -/
theorem k0_pay41_apply (v60 : FVec Ideal S1024x512 .f32) (v1273 : FVec Ideal S1024x512 .f32) (u : Fin 1) (p : Fin 512) (q : Fin 128)
    (c : Fin 512) (hc : c.val = 256 + q.val) :
    k0_pay41 (F := Ideal) v60 v1273 (ix3 u p q) = k0_pay38 (F := Ideal) v60 v1273 (ix2 p c) := by
  show shapeCast S1x512x128 (extractStridedSlice S512x128 ![0, 256] (k0_pay38 (F := Ideal) v60 v1273) _) _ (ix3 u p q) = _
  rw [shapeCast_ab_1ab_apply, slice2_axis1_apply 256 _ _ p q c hc]

/-- The same as the sum over the rows `k`. -/
theorem k0_pay41_sum (v60 : FVec Ideal S1024x512 .f32) (v1273 : FVec Ideal S1024x512 .f32) (u : Fin 1) (p : Fin 512) (q : Fin 128)
    (c : Fin 512) (hc : c.val = 256 + q.val) :
    k0_pay41 (F := Ideal) v60 v1273 (ix3 u p q)
      = ∑ k : Fin 1024, v60 (ix2 k p) * v1273 (ix2 k c) := by
  rw [k0_pay41_apply v60 v1273 u p q c hc, k0_pay38_apply]

/-- Columns `384 … 511` of the product, under a leading axis of length one: column `q` is column `384 + q` of the product. -/
theorem k0_pay42_apply (v60 : FVec Ideal S1024x512 .f32) (v1273 : FVec Ideal S1024x512 .f32) (u : Fin 1) (p : Fin 512) (q : Fin 128)
    (c : Fin 512) (hc : c.val = 384 + q.val) :
    k0_pay42 (F := Ideal) v60 v1273 (ix3 u p q) = k0_pay38 (F := Ideal) v60 v1273 (ix2 p c) := by
  show shapeCast S1x512x128 (extractStridedSlice S512x128 ![0, 384] (k0_pay38 (F := Ideal) v60 v1273) _) _ (ix3 u p q) = _
  rw [shapeCast_ab_1ab_apply, slice2_axis1_apply 384 _ _ p q c hc]

/-- The same as the sum over the rows `k`. -/
theorem k0_pay42_sum (v60 : FVec Ideal S1024x512 .f32) (v1273 : FVec Ideal S1024x512 .f32) (u : Fin 1) (p : Fin 512) (q : Fin 128)
    (c : Fin 512) (hc : c.val = 384 + q.val) :
    k0_pay42 (F := Ideal) v60 v1273 (ix3 u p q)
      = ∑ k : Fin 1024, v60 (ix2 k p) * v1273 (ix2 k c) := by
  rw [k0_pay42_apply v60 v1273 u p q c hc, k0_pay38_apply]

/-- Entry `(p, q)` of the sum of a block with a slot: the two entries added; the slot's leading coordinate is `0`. -/
theorem k0_pay47_apply (v1269 : FVec Ideal S512x128 .f32) (v1270 : FVec Ideal S1x512x128 .bf16) (p : Fin 512) (q : Fin 128) :
    k0_pay47 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay48_apply (v1269 : FVec Ideal S512x128 .f32) (v1270 : FVec Ideal S1x512x128 .bf16) (p : Fin 512) (q : Fin 128) :
    k0_pay48 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay49_apply (v1269 : FVec Ideal S512x128 .f32) (v1270 : FVec Ideal S1x512x128 .bf16) (p : Fin 512) (q : Fin 128) :
    k0_pay49 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay50_apply (v1269 : FVec Ideal S512x128 .f32) (v1270 : FVec Ideal S1x512x128 .bf16) (p : Fin 512) (q : Fin 128) :
    k0_pay50 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay51_apply (v1269 : FVec Ideal S512x128 .f32) (v1270 : FVec Ideal S1x512x128 .bf16) (p : Fin 512) (q : Fin 128) :
    k0_pay51 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay52_apply (v1269 : FVec Ideal S512x128 .f32) (v1270 : FVec Ideal S1x512x128 .bf16) (p : Fin 512) (q : Fin 128) :
    k0_pay52 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay53_apply (v1269 : FVec Ideal S512x128 .f32) (v1270 : FVec Ideal S1x512x128 .bf16) (p : Fin 512) (q : Fin 128) :
    k0_pay53 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the product: the sum over the 1024 rows `k`. -/
theorem k0_pay54_apply (v55 : FVec Ideal S1024x512 .f32) (v406 : FVec Ideal S1024x512 .f32) (p q : Fin 512) :
    k0_pay54 (F := Ideal) v55 v406 (ix2 p q) = ∑ k : Fin 1024, v55 (ix2 k p) * v406 (ix2 k q) := by
  show shapeCast S512x512 (matmul dot_S1024x512_S1024x512_S512x512_0_0_1_1_n_n none v55 v406 (constant (F := Ideal) S512x512 .f32 0x00000000#32)) _ (ix2 p q) = _
  rw [shapeCast_self]
  exact matmul_apply' v55 v406 p q

/-- Entry `(p, q)` of the product: the sum over the 1024 rows `k`. -/
theorem k0_pay55_apply (v55 : FVec Ideal S1024x512 .f32) (v411 : FVec Ideal S1024x512 .f32) (p q : Fin 512) :
    k0_pay55 (F := Ideal) v55 v411 (ix2 p q) = ∑ k : Fin 1024, v55 (ix2 k p) * v411 (ix2 k q) := by
  show shapeCast S512x512 (matmul dot_S1024x512_S1024x512_S512x512_0_0_1_1_n_n none v55 v411 (constant (F := Ideal) S512x512 .f32 0x00000000#32)) _ (ix2 p q) = _
  rw [shapeCast_self]
  exact matmul_apply' v55 v411 p q

/-- Entry `(p, q)` of the sum of a block with a slot: the two entries added; the slot's leading coordinate is `0`. -/
theorem k0_pay56_apply (v1269 : FVec Ideal S512x128 .f32) (v1270 : FVec Ideal S1x512x128 .bf16) (p : Fin 512) (q : Fin 128) :
    k0_pay56 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay57_apply (v1269 : FVec Ideal S512x128 .f32) (v1270 : FVec Ideal S1x512x128 .bf16) (p : Fin 512) (q : Fin 128) :
    k0_pay57 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay58_apply (v1269 : FVec Ideal S512x128 .f32) (v1270 : FVec Ideal S1x512x128 .bf16) (p : Fin 512) (q : Fin 128) :
    k0_pay58 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay59_apply (v1269 : FVec Ideal S512x128 .f32) (v1270 : FVec Ideal S1x512x128 .bf16) (p : Fin 512) (q : Fin 128) :
    k0_pay59 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay60_apply (v1269 : FVec Ideal S512x128 .f32) (v1270 : FVec Ideal S1x512x128 .bf16) (p : Fin 512) (q : Fin 128) :
    k0_pay60 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay61_apply (v1269 : FVec Ideal S512x128 .f32) (v1270 : FVec Ideal S1x512x128 .bf16) (p : Fin 512) (q : Fin 128) :
    k0_pay61 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay62_apply (v1269 : FVec Ideal S512x128 .f32) (v1270 : FVec Ideal S1x512x128 .bf16) (p : Fin 512) (q : Fin 128) :
    k0_pay62 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay63_apply (v1269 : FVec Ideal S512x128 .f32) (v1270 : FVec Ideal S1x512x128 .bf16) (p : Fin 512) (q : Fin 128) :
    k0_pay63 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the product: the sum over the 1024 rows `k`. -/
theorem k0_pay64_apply (v55 : FVec Ideal S1024x512 .f32) (v534 : FVec Ideal S1024x512 .f32) (p q : Fin 512) :
    k0_pay64 (F := Ideal) v55 v534 (ix2 p q) = ∑ k : Fin 1024, v55 (ix2 k p) * v534 (ix2 k q) := by
  show shapeCast S512x512 (matmul dot_S1024x512_S1024x512_S512x512_0_0_1_1_n_n none v55 v534 (constant (F := Ideal) S512x512 .f32 0x00000000#32)) _ (ix2 p q) = _
  rw [shapeCast_self]
  exact matmul_apply' v55 v534 p q

/-- Entry `(p, q)` of the product: the sum over the 1024 rows `k`. -/
theorem k0_pay65_apply (v55 : FVec Ideal S1024x512 .f32) (v539 : FVec Ideal S1024x512 .f32) (p q : Fin 512) :
    k0_pay65 (F := Ideal) v55 v539 (ix2 p q) = ∑ k : Fin 1024, v55 (ix2 k p) * v539 (ix2 k q) := by
  show shapeCast S512x512 (matmul dot_S1024x512_S1024x512_S512x512_0_0_1_1_n_n none v55 v539 (constant (F := Ideal) S512x512 .f32 0x00000000#32)) _ (ix2 p q) = _
  rw [shapeCast_self]
  exact matmul_apply' v55 v539 p q

/-- Entry `(p, q)` of the sum of a block with a slot: the two entries added; the slot's leading coordinate is `0`. -/
theorem k0_pay66_apply (v1269 : FVec Ideal S512x128 .f32) (v1270 : FVec Ideal S1x512x128 .bf16) (p : Fin 512) (q : Fin 128) :
    k0_pay66 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay67_apply (v1269 : FVec Ideal S512x128 .f32) (v1270 : FVec Ideal S1x512x128 .bf16) (p : Fin 512) (q : Fin 128) :
    k0_pay67 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay68_apply (v1269 : FVec Ideal S512x128 .f32) (v1270 : FVec Ideal S1x512x128 .bf16) (p : Fin 512) (q : Fin 128) :
    k0_pay68 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay69_apply (v1269 : FVec Ideal S512x128 .f32) (v1270 : FVec Ideal S1x512x128 .bf16) (p : Fin 512) (q : Fin 128) :
    k0_pay69 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay70_apply (v1269 : FVec Ideal S512x128 .f32) (v1270 : FVec Ideal S1x512x128 .bf16) (p : Fin 512) (q : Fin 128) :
    k0_pay70 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay71_apply (v1269 : FVec Ideal S512x128 .f32) (v1270 : FVec Ideal S1x512x128 .bf16) (p : Fin 512) (q : Fin 128) :
    k0_pay71 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay72_apply (v1269 : FVec Ideal S512x128 .f32) (v1270 : FVec Ideal S1x512x128 .bf16) (p : Fin 512) (q : Fin 128) :
    k0_pay72 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay73_apply (v1269 : FVec Ideal S512x128 .f32) (v1270 : FVec Ideal S1x512x128 .bf16) (p : Fin 512) (q : Fin 128) :
    k0_pay73 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the product: the sum over the 1024 rows `k`. -/
theorem k0_pay74_apply (v55 : FVec Ideal S1024x512 .f32) (v662 : FVec Ideal S1024x512 .f32) (p q : Fin 512) :
    k0_pay74 (F := Ideal) v55 v662 (ix2 p q) = ∑ k : Fin 1024, v55 (ix2 k p) * v662 (ix2 k q) := by
  show shapeCast S512x512 (matmul dot_S1024x512_S1024x512_S512x512_0_0_1_1_n_n none v55 v662 (constant (F := Ideal) S512x512 .f32 0x00000000#32)) _ (ix2 p q) = _
  rw [shapeCast_self]
  exact matmul_apply' v55 v662 p q

/-- Entry `(p, q)` of the product: the sum over the 1024 rows `k`. -/
theorem k0_pay75_apply (v55 : FVec Ideal S1024x512 .f32) (v667 : FVec Ideal S1024x512 .f32) (p q : Fin 512) :
    k0_pay75 (F := Ideal) v55 v667 (ix2 p q) = ∑ k : Fin 1024, v55 (ix2 k p) * v667 (ix2 k q) := by
  show shapeCast S512x512 (matmul dot_S1024x512_S1024x512_S512x512_0_0_1_1_n_n none v55 v667 (constant (F := Ideal) S512x512 .f32 0x00000000#32)) _ (ix2 p q) = _
  rw [shapeCast_self]
  exact matmul_apply' v55 v667 p q

/-- Entry `(p, q)` of the sum of a block with a slot: the two entries added; the slot's leading coordinate is `0`. -/
theorem k0_pay76_apply (v1269 : FVec Ideal S512x128 .f32) (v1270 : FVec Ideal S1x512x128 .bf16) (p : Fin 512) (q : Fin 128) :
    k0_pay76 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay77_apply (v1269 : FVec Ideal S512x128 .f32) (v1270 : FVec Ideal S1x512x128 .bf16) (p : Fin 512) (q : Fin 128) :
    k0_pay77 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay78_apply (v1269 : FVec Ideal S512x128 .f32) (v1270 : FVec Ideal S1x512x128 .bf16) (p : Fin 512) (q : Fin 128) :
    k0_pay78 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay79_apply (v1269 : FVec Ideal S512x128 .f32) (v1270 : FVec Ideal S1x512x128 .bf16) (p : Fin 512) (q : Fin 128) :
    k0_pay79 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay80_apply (v1269 : FVec Ideal S512x128 .f32) (v1270 : FVec Ideal S1x512x128 .bf16) (p : Fin 512) (q : Fin 128) :
    k0_pay80 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay81_apply (v1269 : FVec Ideal S512x128 .f32) (v1270 : FVec Ideal S1x512x128 .bf16) (p : Fin 512) (q : Fin 128) :
    k0_pay81 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay82_apply (v1269 : FVec Ideal S512x128 .f32) (v1270 : FVec Ideal S1x512x128 .bf16) (p : Fin 512) (q : Fin 128) :
    k0_pay82 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay83_apply (v1269 : FVec Ideal S512x128 .f32) (v1270 : FVec Ideal S1x512x128 .bf16) (p : Fin 512) (q : Fin 128) :
    k0_pay83 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay84_apply (v1269 : FVec Ideal S512x128 .f32) (v1270 : FVec Ideal S1x512x128 .bf16) (p : Fin 512) (q : Fin 128) :
    k0_pay84 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay85_apply (v1269 : FVec Ideal S512x128 .f32) (v1270 : FVec Ideal S1x512x128 .bf16) (p : Fin 512) (q : Fin 128) :
    k0_pay85 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay86_apply (v1269 : FVec Ideal S512x128 .f32) (v1270 : FVec Ideal S1x512x128 .bf16) (p : Fin 512) (q : Fin 128) :
    k0_pay86 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay87_apply (v1269 : FVec Ideal S512x128 .f32) (v1270 : FVec Ideal S1x512x128 .bf16) (p : Fin 512) (q : Fin 128) :
    k0_pay87 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay88_apply (v1269 : FVec Ideal S512x128 .f32) (v1270 : FVec Ideal S1x512x128 .bf16) (p : Fin 512) (q : Fin 128) :
    k0_pay88 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay89_apply (v1269 : FVec Ideal S512x128 .f32) (v1270 : FVec Ideal S1x512x128 .bf16) (p : Fin 512) (q : Fin 128) :
    k0_pay89 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay90_apply (v1269 : FVec Ideal S512x128 .f32) (v1270 : FVec Ideal S1x512x128 .bf16) (p : Fin 512) (q : Fin 128) :
    k0_pay90 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay91_apply (v1269 : FVec Ideal S512x128 .f32) (v1270 : FVec Ideal S1x512x128 .bf16) (p : Fin 512) (q : Fin 128) :
    k0_pay91 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay92_apply (v1269 : FVec Ideal S512x128 .f32) (v1270 : FVec Ideal S1x512x128 .bf16) (p : Fin 512) (q : Fin 128) :
    k0_pay92 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay93_apply (v1269 : FVec Ideal S512x128 .f32) (v1270 : FVec Ideal S1x512x128 .bf16) (p : Fin 512) (q : Fin 128) :
    k0_pay93 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay94_apply (v1269 : FVec Ideal S512x128 .f32) (v1270 : FVec Ideal S1x512x128 .bf16) (p : Fin 512) (q : Fin 128) :
    k0_pay94 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay95_apply (v1269 : FVec Ideal S512x128 .f32) (v1270 : FVec Ideal S1x512x128 .bf16) (p : Fin 512) (q : Fin 128) :
    k0_pay95 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay96_apply (v1269 : FVec Ideal S512x128 .f32) (v1270 : FVec Ideal S1x512x128 .bf16) (p : Fin 512) (q : Fin 128) :
    k0_pay96 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay97_apply (v1269 : FVec Ideal S512x128 .f32) (v1270 : FVec Ideal S1x512x128 .bf16) (p : Fin 512) (q : Fin 128) :
    k0_pay97 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay98_apply (v1269 : FVec Ideal S512x128 .f32) (v1270 : FVec Ideal S1x512x128 .bf16) (p : Fin 512) (q : Fin 128) :
    k0_pay98 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay99_apply (v1269 : FVec Ideal S512x128 .f32) (v1270 : FVec Ideal S1x512x128 .bf16) (p : Fin 512) (q : Fin 128) :
    k0_pay99 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay100_apply (v1269 : FVec Ideal S512x128 .f32) (v1270 : FVec Ideal S1x512x128 .bf16) (p : Fin 512) (q : Fin 128) :
    k0_pay100 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay101_apply (v1269 : FVec Ideal S512x128 .f32) (v1270 : FVec Ideal S1x512x128 .bf16) (p : Fin 512) (q : Fin 128) :
    k0_pay101 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay102_apply (v1269 : FVec Ideal S512x128 .f32) (v1270 : FVec Ideal S1x512x128 .bf16) (p : Fin 512) (q : Fin 128) :
    k0_pay102 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay103_apply (v1269 : FVec Ideal S512x128 .f32) (v1270 : FVec Ideal S1x512x128 .bf16) (p : Fin 512) (q : Fin 128) :
    k0_pay103 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay104_apply (v1269 : FVec Ideal S512x128 .f32) (v1270 : FVec Ideal S1x512x128 .bf16) (p : Fin 512) (q : Fin 128) :
    k0_pay104 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay105_apply (v1269 : FVec Ideal S512x128 .f32) (v1270 : FVec Ideal S1x512x128 .bf16) (p : Fin 512) (q : Fin 128) :
    k0_pay105 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay106_apply (v1269 : FVec Ideal S512x128 .f32) (v1270 : FVec Ideal S1x512x128 .bf16) (p : Fin 512) (q : Fin 128) :
    k0_pay106 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay107_apply (v1269 : FVec Ideal S512x128 .f32) (v1270 : FVec Ideal S1x512x128 .bf16) (p : Fin 512) (q : Fin 128) :
    k0_pay107 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay108_apply (v1269 : FVec Ideal S512x128 .f32) (v1270 : FVec Ideal S1x512x128 .bf16) (p : Fin 512) (q : Fin 128) :
    k0_pay108 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay109_apply (v1269 : FVec Ideal S512x128 .f32) (v1270 : FVec Ideal S1x512x128 .bf16) (p : Fin 512) (q : Fin 128) :
    k0_pay109 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay110_apply (v1269 : FVec Ideal S512x128 .f32) (v1270 : FVec Ideal S1x512x128 .bf16) (p : Fin 512) (q : Fin 128) :
    k0_pay110 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay111_apply (v1269 : FVec Ideal S512x128 .f32) (v1270 : FVec Ideal S1x512x128 .bf16) (p : Fin 512) (q : Fin 128) :
    k0_pay111 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay112_apply (v1269 : FVec Ideal S512x128 .f32) (v1270 : FVec Ideal S1x512x128 .bf16) (p : Fin 512) (q : Fin 128) :
    k0_pay112 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay113_apply (v1269 : FVec Ideal S512x128 .f32) (v1270 : FVec Ideal S1x512x128 .bf16) (p : Fin 512) (q : Fin 128) :
    k0_pay113 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay114_apply (v1269 : FVec Ideal S512x128 .f32) (v1270 : FVec Ideal S1x512x128 .bf16) (p : Fin 512) (q : Fin 128) :
    k0_pay114 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

/-- Entry `(p, q)` of the sum of a block with a slot: the two entries added; the slot's leading coordinate is `0`. -/
theorem k0_pay115_apply (v1269 : FVec Ideal S512x128 .f32) (v1270 : FVec Ideal S1x512x128 .bf16) (p : Fin 512) (q : Fin 128) :
    k0_pay115 (F := Ideal) v1269 v1270 (ix2 p q) = v1269 (ix2 p q) + v1270 (ix3 (0 : Fin 1) p q) := by
  show shapeCast S512x128 (addf v1269 (extf .f32 (shapeCast S512x128 v1270 _) _)) _ (ix2 p q) = _
  rw [shapeCast_self]
  show v1269 (ix2 p q) + shapeCast S512x128 v1270 _ (ix2 p q) = _
  rw [shapeCast_1ab_ab_apply]

end Cert.KernelIdeal.PayIdx

end
-- ==== Proof.ValIdx.lean ====
import proofs.«901046_g7700000000001047_dist_rsdw_v7x_xy2x2_y_m1024_d1024_f4096_f32_1_alg».proof.Proof.Gen.KernelIdeal
import proofs.«901046_g7700000000001047_dist_rsdw_v7x_xy2x2_y_m1024_d1024_f4096_f32_1_alg».proof.Proof.Gen.KernelIdeal.Skeleton
import proofs.«901046_g7700000000001047_dist_rsdw_v7x_xy2x2_y_m1024_d1024_f4096_f32_1_alg».proof.Proof.Gen.KernelIdeal.Launch
import proofs.«901046_g7700000000001047_dist_rsdw_v7x_xy2x2_y_m1024_d1024_f4096_f32_1_alg».proof.Proof.Gen.KernelIdeal.Points
import proofs.«901046_g7700000000001047_dist_rsdw_v7x_xy2x2_y_m1024_d1024_f4096_f32_1_alg».proof.Proof.Values
import proofs.«901046_g7700000000001047_dist_rsdw_v7x_xy2x2_y_m1024_d1024_f4096_f32_1_alg».proof.Proof.PayIdx
import proofs.«901046_g7700000000001047_dist_rsdw_v7x_xy2x2_y_m1024_d1024_f4096_f32_1_alg».proof.Proof.PayIdxAll
import Idealize.ShloMosaic.Lib.Pipeline.Launch
import Idealize.ShloMosaic.Lib.Pipeline.Kit
import Idealize.ShloMosaic.Lib.Tactic

/-! The values a device's chunks and products hold, entry by entry.

The staged first argument is the device's block of `x`; its two column halves are chosen by the device's second mesh coordinate `y`:
the half `512 y …` is the device's own, the half `512 (1 - y) …` the other. A block of `dy` read from the copy in fast memory is the
device's block of `dy` at the block's columns, because the eight local transfers fill disjoint column blocks. A chunk is 128 columns
of the product of the transposed other half with `dy`; what a device reads of a received slot is the sender's chunk. -/

set_option maxRecDepth 16384

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

open Idealize.ShloMosaic.ValueIdx

/-! ## The second mesh coordinate and the two halves of `x` -/

theorem bit_eq_one_iff (d : Dev nD) : bit d = 1#1 ↔ d.val % 2 = 0 := by revert d; decide
theorem bit_of_even (d : Dev nD) (h : d.val % 2 = 0) : bit d = 1#1 := (bit_eq_one_iff d).mpr h
theorem bit_of_odd (d : Dev nD) (h : d.val % 2 = 1) : bit d = 0#1 := by revert d; decide

theorem XA_apply (d : Dev nD) (k : Fin 1024) (p : Fin 512) (col : Fin 1024) (hcol : col.val = p.val) :
    XA m d (ix2 k p) = m ((d : Thread nD τ).loc main_arg0) (ix2 k col) := by
  show m ((d : Thread nD τ).loc main_arg0) _ = _
  congr 1
  funext a
  apply Fin.ext
  match a with
  | ⟨0, _⟩ => show 0 * 1024 + 1 * (0 + 1 * k.val) = k.val; omega
  | ⟨1, _⟩ => show 0 * 1024 + 1 * (0 + 1 * p.val) = col.val; omega

theorem XB_apply (d : Dev nD) (k : Fin 1024) (p : Fin 512) (col : Fin 1024) (hcol : col.val = 512 + p.val) :
    XB m d (ix2 k p) = m ((d : Thread nD τ).loc main_arg0) (ix2 k col) := by
  show m ((d : Thread nD τ).loc main_arg0) _ = _
  congr 1
  funext a
  apply Fin.ext
  match a with
  | ⟨0, _⟩ => show 0 * 1024 + 1 * (0 + 1 * k.val) = k.val; omega
  | ⟨1, _⟩ => show 0 * 1024 + 1 * (512 + 1 * p.val) = col.val; omega

/-- The half of `x` the device does not keep, -/
def xOther (d : Dev nD) : FVec F S1024x512 .f32 := k0_pay2 (bit d) (XB m d) (XA m d)
/-- and the half it keeps. -/
def xMine (d : Dev nD) : FVec F S1024x512 .f32 := k0_pay1 (bit d) (XA m d) (XB m d)

/-! ## A block of `dy` read from the copy -/

/-- Generic: stores through the members of a family of pairwise disjoint rectangles, each member at most once, are through
    pairwise disjoint rectangles. -/
theorem pairwise_of_family {s : Shape} {e : EltTy} {Val : EltTy → Type} {ι : Type} (bx : ι → Rect s)
    (hdis : ∀ a b, a ≠ b → Disjoint (bx a).set (bx b).set) (L : List (View.Piece Val s e)) (js : List ι)
    (hrects : L.map (fun p => p.1) = js.map bx) (hnd : js.Nodup) : L.Pairwise (fun p q => Disjoint p.1.set q.1.set) := by
  have h1 : (js.map bx).Pairwise (fun r r' => Disjoint r.set r'.set) :=
    (List.pairwise_map (f := bx) (R := fun r r' => Disjoint r.set r'.set)).mpr (List.Pairwise.imp (fun hab => hdis _ _ hab) hnd)
  rw [← hrects] at h1
  exact (List.pairwise_map (f := fun p : View.Piece Val s e => p.1) (R := fun r r' => Disjoint r.set r'.set)).mp h1

/-- Column block `b` of `dy`: 512 columns from `512 b`. -/
def colBox (b : Fin 8) : Rect S1024x4096 :=
  Rect.unit (s := S1024x4096) ![0, 512 * b.val] S1024x512.size (fun a => by
    have hb := b.isLt
    fin_cases a
    · show 0 + 1024 ≤ 1024; omega
    · show 512 * b.val + 512 ≤ 4096; omega)

theorem colBox_disjoint (a b : Fin 8) (h : a ≠ b) : Disjoint (colBox a).set (colBox b).set :=
  Rect.unit_disjoint (1 : Fin 2) (by
    have : a.val ≠ b.val := fun hv => h (Fin.ext hv)
    show 512 * a.val + 512 ≤ 512 * b.val ∨ 512 * b.val + 512 ≤ 512 * a.val
    omega)

theorem dyL_pairwise (d : Dev nD) : (dyL m d).Pairwise (fun p q => Disjoint p.1.set q.1.set) :=
  pairwise_of_family colBox colBox_disjoint (dyL m d) [7, 3, 6, 2, 5, 1, 4, 0] rfl (by decide)

/-- What a transfer of the 512 columns from `off` carries, at `(k, q)`: `dy` at `(k, off + q)`. -/
theorem dmaP_apply (d : Dev nD) (off : ℕ) (h : ∀ a, (![0, off] : Fin 2 → ℕ) a + S1024x512.size a ≤ S1024x4096.size a)
    (k : Fin 1024) (q : Fin 512) (col : Fin 4096) (hcol : col.val = off + q.val) :
    dmaP m d off h (ix2 k q) = m ((d : Thread nD τ).loc main_arg1) (ix2 k col) := by
  show m ((d : Thread nD τ).loc main_arg1) _ = _
  congr 1
  funext a
  apply Fin.ext
  match a with
  | ⟨0, _⟩ => show 0 + 1 * k.val = k.val; omega
  | ⟨1, _⟩ => show off + 1 * q.val = col.val; omega

/-- The copy of `dy` in fast memory, whole. -/
abbrev W0 : View sig .tc .vmem S1024x4096 .f32 := (Memref.whole cc0_scratch0 : Memref sig .tc .vmem S1024x4096 .f32).view

/-- A load of a rectangle that is one of the pairwise disjoint pieces reads that piece's payload. -/
theorem readCov_piece (L : List (View.Piece (Elt F) S1024x4096 .f32)) (hp : L.Pairwise (fun p q => Disjoint p.1.set q.1.set))
    (r : Rect S1024x4096) (w : r.shape.Idx → Elt F .f32) (hm : (⟨r, w⟩ : View.Piece (Elt F) S1024x4096 .f32) ∈ L) (x : r.shape.Idx) :
    W0.readCov L r.toLoadRect x = w x :=
  read_writes_of_mem_pairwise W0 W0.junk L r w hm hp x

/-- Block `b` of `dy` as read from the copy, at `(k, q)`: `dy` at `(k, 512 b + q)` — the transfer of that block's columns is the only
    one of the eight that covers them. -/
theorem dyBlk_apply (d : Dev nD) (b : Fin 8) (k : Fin 1024) (q : Fin 512) (col : Fin 4096) (hcol : col.val = 512 * b.val + q.val) :
    dyBlk m d b (ix2 k q) = m ((d : Thread nD τ).loc main_arg1) (ix2 k col) := by
  match b, hcol with
  | ⟨0, _⟩, hcol => exact (readCov_piece (dyL m d) (dyL_pairwise m d) _ _ (List.mem_of_getElem? (i := 7) rfl) (ix2 k q)).trans (dmaP_apply m d 0 inb_S1024x4096_S1024x512_0_0 k q col (show col.val = 0 + q.val from hcol))
  | ⟨1, _⟩, hcol => exact (readCov_piece (dyL m d) (dyL_pairwise m d) _ _ (List.mem_of_getElem? (i := 5) rfl) (ix2 k q)).trans (dmaP_apply m d 512 inb_S1024x4096_S1024x512_0_512 k q col (show col.val = 512 + q.val from hcol))
  | ⟨2, _⟩, hcol => exact (readCov_piece (dyL m d) (dyL_pairwise m d) _ _ (List.mem_of_getElem? (i := 3) rfl) (ix2 k q)).trans (dmaP_apply m d 1024 inb_S1024x4096_S1024x512_0_1024 k q col (show col.val = 1024 + q.val from hcol))
  | ⟨3, _⟩, hcol => exact (readCov_piece (dyL m d) (dyL_pairwise m d) _ _ (List.mem_of_getElem? (i := 1) rfl) (ix2 k q)).trans (dmaP_apply m d 1536 inb_S1024x4096_S1024x512_0_1536 k q col (show col.val = 1536 + q.val from hcol))
  | ⟨4, _⟩, hcol => exact (readCov_piece (dyL m d) (dyL_pairwise m d) _ _ (List.mem_of_getElem? (i := 6) rfl) (ix2 k q)).trans (dmaP_apply m d 2048 inb_S1024x4096_S1024x512_0_2048 k q col (show col.val = 2048 + q.val from hcol))
  | ⟨5, _⟩, hcol => exact (readCov_piece (dyL m d) (dyL_pairwise m d) _ _ (List.mem_of_getElem? (i := 4) rfl) (ix2 k q)).trans (dmaP_apply m d 2560 inb_S1024x4096_S1024x512_0_2560 k q col (show col.val = 2560 + q.val from hcol))
  | ⟨6, _⟩, hcol => exact (readCov_piece (dyL m d) (dyL_pairwise m d) _ _ (List.mem_of_getElem? (i := 2) rfl) (ix2 k q)).trans (dmaP_apply m d 3072 inb_S1024x4096_S1024x512_0_3072 k q col (show col.val = 3072 + q.val from hcol))
  | ⟨7, _⟩, hcol => exact (readCov_piece (dyL m d) (dyL_pairwise m d) _ _ (List.mem_of_getElem? (i := 0) rfl) (ix2 k q)).trans (dmaP_apply m d 3584 inb_S1024x4096_S1024x512_0_3584 k q col (show col.val = 3584 + q.val from hcol))

/-! ## At the extended reals -/

section AtIdeal
variable (mI : (ℓ : Loc nD τ sig) → Buf (Elt Ideal) ℓ)

/-- The other half of `x`, at `(k, p)`: `x` at `(k, 512 (1 - y) + p)`, `y` the device's second mesh coordinate. -/
theorem xOther_apply (d : Dev nD) (k : Fin 1024) (p : Fin 512) (col : Fin 1024) (hcol : col.val = 512 * (1 - d.val % 2) + p.val) :
    xOther mI d (ix2 k p) = mI ((d : Thread nD τ).loc main_arg0) (ix2 k col) := by
  unfold xOther
  rcases Nat.mod_two_eq_zero_or_one d.val with h | h
  · rw [Cert.KernelIdeal.PayIdx.k0_pay2_of_one _ _ _ (bit_of_even d h)]
    exact XB_apply mI d k p col (by rw [hcol, h])
  · rw [Cert.KernelIdeal.PayIdx.k0_pay2_of_zero _ _ _ (bit_of_odd d h)]
    exact XA_apply mI d k p col (by rw [hcol, h]; omega)

/-- The half it keeps, at `(k, p)`: `x` at `(k, 512 y + p)`. -/
theorem xMine_apply (d : Dev nD) (k : Fin 1024) (p : Fin 512) (col : Fin 1024) (hcol : col.val = 512 * (d.val % 2) + p.val) :
    xMine mI d (ix2 k p) = mI ((d : Thread nD τ).loc main_arg0) (ix2 k col) := by
  unfold xMine
  rcases Nat.mod_two_eq_zero_or_one d.val with h | h
  · rw [Cert.KernelIdeal.PayIdx.k0_pay1_of_one _ _ _ (bit_of_even d h)]
    exact XA_apply mI d k p col (by rw [hcol, h]; omega)
  · rw [Cert.KernelIdeal.PayIdx.k0_pay1_of_zero _ _ _ (bit_of_odd d h)]
    exact XB_apply mI d k p col (by rw [hcol, h])

end AtIdeal

/-- The device's block of `x` and of `dy`, as functions to the extended reals. -/
abbrev argX (mI : (ℓ : Loc nD τ sig) → Buf (Elt Ideal) ℓ) (d : Dev nD) : S1024x1024.Idx → EReal := mI ((d : Thread nD τ).loc main_arg0)
abbrev argDY (mI : (ℓ : Loc nD τ sig) → Buf (Elt Ideal) ℓ) (d : Dev nD) : S1024x4096.Idx → EReal := mI ((d : Thread nD τ).loc main_arg1)

/-! ## A chunk, entry by entry

Chunk `j` of device `d = (x, y)` at `(r, q)` is the sum over the 1024 rows `k` of `x k (512 (1 - y) + r) * dy k (2048 x + 128 j + q)`: one
statement per first coordinate and slot (each is its product's 128 columns read through the block of `dy`), then for any device and slot. -/

section ChunkAt
variable (mI : (ℓ : Loc nD τ sig) → Buf (Elt Ideal) ℓ)

theorem chunk_x0_at_0 (d : Dev nD) (h : d.val / 2 = 0) (u : Fin 1) (r : Fin 512) (q : Fin 128)
    (R : Fin 1024) (hR : R.val = 512 * (1 - d.val % 2) + r.val) (C : Fin 4096) (hC : C.val = 0 + q.val) :
    chunk mI d 0 (ix3 u r q)
      = ∑ k : Fin 1024, argX mI d (ix2 k R) * argDY mI d (ix2 k C) := by
  have hq := q.isLt
  rw [chunk_x0 mI d h]
  refine (Cert.KernelIdeal.PayIdx.k0_pay4_sum (bit d) (XB mI d) (XA mI d) (dyBlk mI d 0) u r q ⟨0 + q.val, by omega⟩ rfl).trans ?_
  exact Finset.sum_congr rfl fun k _ => by
    try rw [show k0_pay2 (F := Ideal) (bit d) (XB mI d) (XA mI d) = xOther mI d from rfl]
    rw [xOther_apply mI d k r R hR, dyBlk_apply mI d 0 k _ C (by show C.val = 512 * 0 + (0 + q.val); omega)]

theorem chunk_x0_at_1 (d : Dev nD) (h : d.val / 2 = 0) (u : Fin 1) (r : Fin 512) (q : Fin 128)
    (R : Fin 1024) (hR : R.val = 512 * (1 - d.val % 2) + r.val) (C : Fin 4096) (hC : C.val = 128 + q.val) :
    chunk mI d 1 (ix3 u r q)
      = ∑ k : Fin 1024, argX mI d (ix2 k R) * argDY mI d (ix2 k C) := by
  have hq := q.isLt
  rw [chunk_x0 mI d h]
  refine (Cert.KernelIdeal.PayIdx.k0_pay5_sum (bit d) (XB mI d) (XA mI d) (dyBlk mI d 0) u r q ⟨128 + q.val, by omega⟩ rfl).trans ?_
  exact Finset.sum_congr rfl fun k _ => by
    try rw [show k0_pay2 (F := Ideal) (bit d) (XB mI d) (XA mI d) = xOther mI d from rfl]
    rw [xOther_apply mI d k r R hR, dyBlk_apply mI d 0 k _ C (by show C.val = 512 * 0 + (128 + q.val); omega)]

theorem chunk_x0_at_2 (d : Dev nD) (h : d.val / 2 = 0) (u : Fin 1) (r : Fin 512) (q : Fin 128)
    (R : Fin 1024) (hR : R.val = 512 * (1 - d.val % 2) + r.val) (C : Fin 4096) (hC : C.val = 256 + q.val) :
    chunk mI d 2 (ix3 u r q)
      = ∑ k : Fin 1024, argX mI d (ix2 k R) * argDY mI d (ix2 k C) := by
  have hq := q.isLt
  rw [chunk_x0 mI d h]
  refine (Cert.KernelIdeal.PayIdx.k0_pay6_sum (bit d) (XB mI d) (XA mI d) (dyBlk mI d 0) u r q ⟨256 + q.val, by omega⟩ rfl).trans ?_
  exact Finset.sum_congr rfl fun k _ => by
    try rw [show k0_pay2 (F := Ideal) (bit d) (XB mI d) (XA mI d) = xOther mI d from rfl]
    rw [xOther_apply mI d k r R hR, dyBlk_apply mI d 0 k _ C (by show C.val = 512 * 0 + (256 + q.val); omega)]

theorem chunk_x0_at_3 (d : Dev nD) (h : d.val / 2 = 0) (u : Fin 1) (r : Fin 512) (q : Fin 128)
    (R : Fin 1024) (hR : R.val = 512 * (1 - d.val % 2) + r.val) (C : Fin 4096) (hC : C.val = 384 + q.val) :
    chunk mI d 3 (ix3 u r q)
      = ∑ k : Fin 1024, argX mI d (ix2 k R) * argDY mI d (ix2 k C) := by
  have hq := q.isLt
  rw [chunk_x0 mI d h]
  refine (Cert.KernelIdeal.PayIdx.k0_pay7_sum (bit d) (XB mI d) (XA mI d) (dyBlk mI d 0) u r q ⟨384 + q.val, by omega⟩ rfl).trans ?_
  exact Finset.sum_congr rfl fun k _ => by
    try rw [show k0_pay2 (F := Ideal) (bit d) (XB mI d) (XA mI d) = xOther mI d from rfl]
    rw [xOther_apply mI d k r R hR, dyBlk_apply mI d 0 k _ C (by show C.val = 512 * 0 + (384 + q.val); omega)]

theorem chunk_x0_at_4 (d : Dev nD) (h : d.val / 2 = 0) (u : Fin 1) (r : Fin 512) (q : Fin 128)
    (R : Fin 1024) (hR : R.val = 512 * (1 - d.val % 2) + r.val) (C : Fin 4096) (hC : C.val = 512 + q.val) :
    chunk mI d 4 (ix3 u r q)
      = ∑ k : Fin 1024, argX mI d (ix2 k R) * argDY mI d (ix2 k C) := by
  have hq := q.isLt
  rw [chunk_x0 mI d h]
  refine (Cert.KernelIdeal.PayIdx.k0_pay14_sum (xOther mI d) (dyBlk mI d 1) u r q ⟨0 + q.val, by omega⟩ rfl).trans ?_
  exact Finset.sum_congr rfl fun k _ => by
    try rw [show k0_pay2 (F := Ideal) (bit d) (XB mI d) (XA mI d) = xOther mI d from rfl]
    rw [xOther_apply mI d k r R hR, dyBlk_apply mI d 1 k _ C (by show C.val = 512 * 1 + (0 + q.val); omega)]

theorem chunk_x0_at_5 (d : Dev nD) (h : d.val / 2 = 0) (u : Fin 1) (r : Fin 512) (q : Fin 128)
    (R : Fin 1024) (hR : R.val = 512 * (1 - d.val % 2) + r.val) (C : Fin 4096) (hC : C.val = 640 + q.val) :
    chunk mI d 5 (ix3 u r q)
      = ∑ k : Fin 1024, argX mI d (ix2 k R) * argDY mI d (ix2 k C) := by
  have hq := q.isLt
  rw [chunk_x0 mI d h]
  refine (Cert.KernelIdeal.PayIdx.k0_pay15_sum (xOther mI d) (dyBlk mI d 1) u r q ⟨128 + q.val, by omega⟩ rfl).trans ?_
  exact Finset.sum_congr rfl fun k _ => by
    try rw [show k0_pay2 (F := Ideal) (bit d) (XB mI d) (XA mI d) = xOther mI d from rfl]
    rw [xOther_apply mI d k r R hR, dyBlk_apply mI d 1 k _ C (by show C.val = 512 * 1 + (128 + q.val); omega)]

theorem chunk_x0_at_6 (d : Dev nD) (h : d.val / 2 = 0) (u : Fin 1) (r : Fin 512) (q : Fin 128)
    (R : Fin 1024) (hR : R.val = 512 * (1 - d.val % 2) + r.val) (C : Fin 4096) (hC : C.val = 768 + q.val) :
    chunk mI d 6 (ix3 u r q)
      = ∑ k : Fin 1024, argX mI d (ix2 k R) * argDY mI d (ix2 k C) := by
  have hq := q.isLt
  rw [chunk_x0 mI d h]
  refine (Cert.KernelIdeal.PayIdx.k0_pay16_sum (xOther mI d) (dyBlk mI d 1) u r q ⟨256 + q.val, by omega⟩ rfl).trans ?_
  exact Finset.sum_congr rfl fun k _ => by
    try rw [show k0_pay2 (F := Ideal) (bit d) (XB mI d) (XA mI d) = xOther mI d from rfl]
    rw [xOther_apply mI d k r R hR, dyBlk_apply mI d 1 k _ C (by show C.val = 512 * 1 + (256 + q.val); omega)]

theorem chunk_x0_at_7 (d : Dev nD) (h : d.val / 2 = 0) (u : Fin 1) (r : Fin 512) (q : Fin 128)
    (R : Fin 1024) (hR : R.val = 512 * (1 - d.val % 2) + r.val) (C : Fin 4096) (hC : C.val = 896 + q.val) :
    chunk mI d 7 (ix3 u r q)
      = ∑ k : Fin 1024, argX mI d (ix2 k R) * argDY mI d (ix2 k C) := by
  have hq := q.isLt
  rw [chunk_x0 mI d h]
  refine (Cert.KernelIdeal.PayIdx.k0_pay17_sum (xOther mI d) (dyBlk mI d 1) u r q ⟨384 + q.val, by omega⟩ rfl).trans ?_
  exact Finset.sum_congr rfl fun k _ => by
    try rw [show k0_pay2 (F := Ideal) (bit d) (XB mI d) (XA mI d) = xOther mI d from rfl]
    rw [xOther_apply mI d k r R hR, dyBlk_apply mI d 1 k _ C (by show C.val = 512 * 1 + (384 + q.val); omega)]

theorem chunk_x0_at_8 (d : Dev nD) (h : d.val / 2 = 0) (u : Fin 1) (r : Fin 512) (q : Fin 128)
    (R : Fin 1024) (hR : R.val = 512 * (1 - d.val % 2) + r.val) (C : Fin 4096) (hC : C.val = 1024 + q.val) :
    chunk mI d 8 (ix3 u r q)
      = ∑ k : Fin 1024, argX mI d (ix2 k R) * argDY mI d (ix2 k C) := by
  have hq := q.isLt
  rw [chunk_x0 mI d h]
  refine (Cert.KernelIdeal.PayIdx.k0_pay24_sum (xOther mI d) (dyBlk mI d 2) u r q ⟨0 + q.val, by omega⟩ rfl).trans ?_
  exact Finset.sum_congr rfl fun k _ => by
    try rw [show k0_pay2 (F := Ideal) (bit d) (XB mI d) (XA mI d) = xOther mI d from rfl]
    rw [xOther_apply mI d k r R hR, dyBlk_apply mI d 2 k _ C (by show C.val = 512 * 2 + (0 + q.val); omega)]

theorem chunk_x0_at_9 (d : Dev nD) (h : d.val / 2 = 0) (u : Fin 1) (r : Fin 512) (q : Fin 128)
    (R : Fin 1024) (hR : R.val = 512 * (1 - d.val % 2) + r.val) (C : Fin 4096) (hC : C.val = 1152 + q.val) :
    chunk mI d 9 (ix3 u r q)
      = ∑ k : Fin 1024, argX mI d (ix2 k R) * argDY mI d (ix2 k C) := by
  have hq := q.isLt
  rw [chunk_x0 mI d h]
  refine (Cert.KernelIdeal.PayIdx.k0_pay25_sum (xOther mI d) (dyBlk mI d 2) u r q ⟨128 + q.val, by omega⟩ rfl).trans ?_
  exact Finset.sum_congr rfl fun k _ => by
    try rw [show k0_pay2 (F := Ideal) (bit d) (XB mI d) (XA mI d) = xOther mI d from rfl]
    rw [xOther_apply mI d k r R hR, dyBlk_apply mI d 2 k _ C (by show C.val = 512 * 2 + (128 + q.val); omega)]

theorem chunk_x0_at_10 (d : Dev nD) (h : d.val / 2 = 0) (u : Fin 1) (r : Fin 512) (q : Fin 128)
    (R : Fin 1024) (hR : R.val = 512 * (1 - d.val % 2) + r.val) (C : Fin 4096) (hC : C.val = 1280 + q.val) :
    chunk mI d 10 (ix3 u r q)
      = ∑ k : Fin 1024, argX mI d (ix2 k R) * argDY mI d (ix2 k C) := by
  have hq := q.isLt
  rw [chunk_x0 mI d h]
  refine (Cert.KernelIdeal.PayIdx.k0_pay26_sum (xOther mI d) (dyBlk mI d 2) u r q ⟨256 + q.val, by omega⟩ rfl).trans ?_
  exact Finset.sum_congr rfl fun k _ => by
    try rw [show k0_pay2 (F := Ideal) (bit d) (XB mI d) (XA mI d) = xOther mI d from rfl]
    rw [xOther_apply mI d k r R hR, dyBlk_apply mI d 2 k _ C (by show C.val = 512 * 2 + (256 + q.val); omega)]

theorem chunk_x0_at_11 (d : Dev nD) (h : d.val / 2 = 0) (u : Fin 1) (r : Fin 512) (q : Fin 128)
    (R : Fin 1024) (hR : R.val = 512 * (1 - d.val % 2) + r.val) (C : Fin 4096) (hC : C.val = 1408 + q.val) :
    chunk mI d 11 (ix3 u r q)
      = ∑ k : Fin 1024, argX mI d (ix2 k R) * argDY mI d (ix2 k C) := by
  have hq := q.isLt
  rw [chunk_x0 mI d h]
  refine (Cert.KernelIdeal.PayIdx.k0_pay27_sum (xOther mI d) (dyBlk mI d 2) u r q ⟨384 + q.val, by omega⟩ rfl).trans ?_
  exact Finset.sum_congr rfl fun k _ => by
    try rw [show k0_pay2 (F := Ideal) (bit d) (XB mI d) (XA mI d) = xOther mI d from rfl]
    rw [xOther_apply mI d k r R hR, dyBlk_apply mI d 2 k _ C (by show C.val = 512 * 2 + (384 + q.val); omega)]

theorem chunk_x0_at_12 (d : Dev nD) (h : d.val / 2 = 0) (u : Fin 1) (r : Fin 512) (q : Fin 128)
    (R : Fin 1024) (hR : R.val = 512 * (1 - d.val % 2) + r.val) (C : Fin 4096) (hC : C.val = 1536 + q.val) :
    chunk mI d 12 (ix3 u r q)
      = ∑ k : Fin 1024, argX mI d (ix2 k R) * argDY mI d (ix2 k C) := by
  have hq := q.isLt
  rw [chunk_x0 mI d h]
  refine (Cert.KernelIdeal.PayIdx.k0_pay34_sum (xOther mI d) (dyBlk mI d 3) u r q ⟨0 + q.val, by omega⟩ rfl).trans ?_
  exact Finset.sum_congr rfl fun k _ => by
    try rw [show k0_pay2 (F := Ideal) (bit d) (XB mI d) (XA mI d) = xOther mI d from rfl]
    rw [xOther_apply mI d k r R hR, dyBlk_apply mI d 3 k _ C (by show C.val = 512 * 3 + (0 + q.val); omega)]

theorem chunk_x0_at_13 (d : Dev nD) (h : d.val / 2 = 0) (u : Fin 1) (r : Fin 512) (q : Fin 128)
    (R : Fin 1024) (hR : R.val = 512 * (1 - d.val % 2) + r.val) (C : Fin 4096) (hC : C.val = 1664 + q.val) :
    chunk mI d 13 (ix3 u r q)
      = ∑ k : Fin 1024, argX mI d (ix2 k R) * argDY mI d (ix2 k C) := by
  have hq := q.isLt
  rw [chunk_x0 mI d h]
  refine (Cert.KernelIdeal.PayIdx.k0_pay35_sum (xOther mI d) (dyBlk mI d 3) u r q ⟨128 + q.val, by omega⟩ rfl).trans ?_
  exact Finset.sum_congr rfl fun k _ => by
    try rw [show k0_pay2 (F := Ideal) (bit d) (XB mI d) (XA mI d) = xOther mI d from rfl]
    rw [xOther_apply mI d k r R hR, dyBlk_apply mI d 3 k _ C (by show C.val = 512 * 3 + (128 + q.val); omega)]

theorem chunk_x0_at_14 (d : Dev nD) (h : d.val / 2 = 0) (u : Fin 1) (r : Fin 512) (q : Fin 128)
    (R : Fin 1024) (hR : R.val = 512 * (1 - d.val % 2) + r.val) (C : Fin 4096) (hC : C.val = 1792 + q.val) :
    chunk mI d 14 (ix3 u r q)
      = ∑ k : Fin 1024, argX mI d (ix2 k R) * argDY mI d (ix2 k C) := by
  have hq := q.isLt
  rw [chunk_x0 mI d h]
  refine (Cert.KernelIdeal.PayIdx.k0_pay36_sum (xOther mI d) (dyBlk mI d 3) u r q ⟨256 + q.val, by omega⟩ rfl).trans ?_
  exact Finset.sum_congr rfl fun k _ => by
    try rw [show k0_pay2 (F := Ideal) (bit d) (XB mI d) (XA mI d) = xOther mI d from rfl]
    rw [xOther_apply mI d k r R hR, dyBlk_apply mI d 3 k _ C (by show C.val = 512 * 3 + (256 + q.val); omega)]

theorem chunk_x0_at_15 (d : Dev nD) (h : d.val / 2 = 0) (u : Fin 1) (r : Fin 512) (q : Fin 128)
    (R : Fin 1024) (hR : R.val = 512 * (1 - d.val % 2) + r.val) (C : Fin 4096) (hC : C.val = 1920 + q.val) :
    chunk mI d 15 (ix3 u r q)
      = ∑ k : Fin 1024, argX mI d (ix2 k R) * argDY mI d (ix2 k C) := by
  have hq := q.isLt
  rw [chunk_x0 mI d h]
  refine (Cert.KernelIdeal.PayIdx.k0_pay37_sum (xOther mI d) (dyBlk mI d 3) u r q ⟨384 + q.val, by omega⟩ rfl).trans ?_
  exact Finset.sum_congr rfl fun k _ => by
    try rw [show k0_pay2 (F := Ideal) (bit d) (XB mI d) (XA mI d) = xOther mI d from rfl]
    rw [xOther_apply mI d k r R hR, dyBlk_apply mI d 3 k _ C (by show C.val = 512 * 3 + (384 + q.val); omega)]

theorem chunk_x1_at_0 (d : Dev nD) (h : d.val / 2 = 1) (u : Fin 1) (r : Fin 512) (q : Fin 128)
    (R : Fin 1024) (hR : R.val = 512 * (1 - d.val % 2) + r.val) (C : Fin 4096) (hC : C.val = 2048 + q.val) :
    chunk mI d 0 (ix3 u r q)
      = ∑ k : Fin 1024, argX mI d (ix2 k R) * argDY mI d (ix2 k C) := by
  have hq := q.isLt
  rw [chunk_x1 mI d h]
  refine (Cert.KernelIdeal.PayIdx.k0_pay9_sum (bit d) (XB mI d) (XA mI d) (dyBlk mI d 4) u r q ⟨0 + q.val, by omega⟩ rfl).trans ?_
  exact Finset.sum_congr rfl fun k _ => by
    try rw [show k0_pay2 (F := Ideal) (bit d) (XB mI d) (XA mI d) = xOther mI d from rfl]
    rw [xOther_apply mI d k r R hR, dyBlk_apply mI d 4 k _ C (by show C.val = 512 * 4 + (0 + q.val); omega)]

theorem chunk_x1_at_1 (d : Dev nD) (h : d.val / 2 = 1) (u : Fin 1) (r : Fin 512) (q : Fin 128)
    (R : Fin 1024) (hR : R.val = 512 * (1 - d.val % 2) + r.val) (C : Fin 4096) (hC : C.val = 2176 + q.val) :
    chunk mI d 1 (ix3 u r q)
      = ∑ k : Fin 1024, argX mI d (ix2 k R) * argDY mI d (ix2 k C) := by
  have hq := q.isLt
  rw [chunk_x1 mI d h]
  refine (Cert.KernelIdeal.PayIdx.k0_pay10_sum (bit d) (XB mI d) (XA mI d) (dyBlk mI d 4) u r q ⟨128 + q.val, by omega⟩ rfl).trans ?_
  exact Finset.sum_congr rfl fun k _ => by
    try rw [show k0_pay2 (F := Ideal) (bit d) (XB mI d) (XA mI d) = xOther mI d from rfl]
    rw [xOther_apply mI d k r R hR, dyBlk_apply mI d 4 k _ C (by show C.val = 512 * 4 + (128 + q.val); omega)]

theorem chunk_x1_at_2 (d : Dev nD) (h : d.val / 2 = 1) (u : Fin 1) (r : Fin 512) (q : Fin 128)
    (R : Fin 1024) (hR : R.val = 512 * (1 - d.val % 2) + r.val) (C : Fin 4096) (hC : C.val = 2304 + q.val) :
    chunk mI d 2 (ix3 u r q)
      = ∑ k : Fin 1024, argX mI d (ix2 k R) * argDY mI d (ix2 k C) := by
  have hq := q.isLt
  rw [chunk_x1 mI d h]
  refine (Cert.KernelIdeal.PayIdx.k0_pay11_sum (bit d) (XB mI d) (XA mI d) (dyBlk mI d 4) u r q ⟨256 + q.val, by omega⟩ rfl).trans ?_
  exact Finset.sum_congr rfl fun k _ => by
    try rw [show k0_pay2 (F := Ideal) (bit d) (XB mI d) (XA mI d) = xOther mI d from rfl]
    rw [xOther_apply mI d k r R hR, dyBlk_apply mI d 4 k _ C (by show C.val = 512 * 4 + (256 + q.val); omega)]

theorem chunk_x1_at_3 (d : Dev nD) (h : d.val / 2 = 1) (u : Fin 1) (r : Fin 512) (q : Fin 128)
    (R : Fin 1024) (hR : R.val = 512 * (1 - d.val % 2) + r.val) (C : Fin 4096) (hC : C.val = 2432 + q.val) :
    chunk mI d 3 (ix3 u r q)
      = ∑ k : Fin 1024, argX mI d (ix2 k R) * argDY mI d (ix2 k C) := by
  have hq := q.isLt
  rw [chunk_x1 mI d h]
  refine (Cert.KernelIdeal.PayIdx.k0_pay12_sum (bit d) (XB mI d) (XA mI d) (dyBlk mI d 4) u r q ⟨384 + q.val, by omega⟩ rfl).trans ?_
  exact Finset.sum_congr rfl fun k _ => by
    try rw [show k0_pay2 (F := Ideal) (bit d) (XB mI d) (XA mI d) = xOther mI d from rfl]
    rw [xOther_apply mI d k r R hR, dyBlk_apply mI d 4 k _ C (by show C.val = 512 * 4 + (384 + q.val); omega)]

theorem chunk_x1_at_4 (d : Dev nD) (h : d.val / 2 = 1) (u : Fin 1) (r : Fin 512) (q : Fin 128)
    (R : Fin 1024) (hR : R.val = 512 * (1 - d.val % 2) + r.val) (C : Fin 4096) (hC : C.val = 2560 + q.val) :
    chunk mI d 4 (ix3 u r q)
      = ∑ k : Fin 1024, argX mI d (ix2 k R) * argDY mI d (ix2 k C) := by
  have hq := q.isLt
  rw [chunk_x1 mI d h]
  refine (Cert.KernelIdeal.PayIdx.k0_pay19_sum (xOther mI d) (dyBlk mI d 5) u r q ⟨0 + q.val, by omega⟩ rfl).trans ?_
  exact Finset.sum_congr rfl fun k _ => by
    try rw [show k0_pay2 (F := Ideal) (bit d) (XB mI d) (XA mI d) = xOther mI d from rfl]
    rw [xOther_apply mI d k r R hR, dyBlk_apply mI d 5 k _ C (by show C.val = 512 * 5 + (0 + q.val); omega)]

theorem chunk_x1_at_5 (d : Dev nD) (h : d.val / 2 = 1) (u : Fin 1) (r : Fin 512) (q : Fin 128)
    (R : Fin 1024) (hR : R.val = 512 * (1 - d.val % 2) + r.val) (C : Fin 4096) (hC : C.val = 2688 + q.val) :
    chunk mI d 5 (ix3 u r q)
      = ∑ k : Fin 1024, argX mI d (ix2 k R) * argDY mI d (ix2 k C) := by
  have hq := q.isLt
  rw [chunk_x1 mI d h]
  refine (Cert.KernelIdeal.PayIdx.k0_pay20_sum (xOther mI d) (dyBlk mI d 5) u r q ⟨128 + q.val, by omega⟩ rfl).trans ?_
  exact Finset.sum_congr rfl fun k _ => by
    try rw [show k0_pay2 (F := Ideal) (bit d) (XB mI d) (XA mI d) = xOther mI d from rfl]
    rw [xOther_apply mI d k r R hR, dyBlk_apply mI d 5 k _ C (by show C.val = 512 * 5 + (128 + q.val); omega)]

theorem chunk_x1_at_6 (d : Dev nD) (h : d.val / 2 = 1) (u : Fin 1) (r : Fin 512) (q : Fin 128)
    (R : Fin 1024) (hR : R.val = 512 * (1 - d.val % 2) + r.val) (C : Fin 4096) (hC : C.val = 2816 + q.val) :
    chunk mI d 6 (ix3 u r q)
      = ∑ k : Fin 1024, argX mI d (ix2 k R) * argDY mI d (ix2 k C) := by
  have hq := q.isLt
  rw [chunk_x1 mI d h]
  refine (Cert.KernelIdeal.PayIdx.k0_pay21_sum (xOther mI d) (dyBlk mI d 5) u r q ⟨256 + q.val, by omega⟩ rfl).trans ?_
  exact Finset.sum_congr rfl fun k _ => by
    try rw [show k0_pay2 (F := Ideal) (bit d) (XB mI d) (XA mI d) = xOther mI d from rfl]
    rw [xOther_apply mI d k r R hR, dyBlk_apply mI d 5 k _ C (by show C.val = 512 * 5 + (256 + q.val); omega)]

theorem chunk_x1_at_7 (d : Dev nD) (h : d.val / 2 = 1) (u : Fin 1) (r : Fin 512) (q : Fin 128)
    (R : Fin 1024) (hR : R.val = 512 * (1 - d.val % 2) + r.val) (C : Fin 4096) (hC : C.val = 2944 + q.val) :
    chunk mI d 7 (ix3 u r q)
      = ∑ k : Fin 1024, argX mI d (ix2 k R) * argDY mI d (ix2 k C) := by
  have hq := q.isLt
  rw [chunk_x1 mI d h]
  refine (Cert.KernelIdeal.PayIdx.k0_pay22_sum (xOther mI d) (dyBlk mI d 5) u r q ⟨384 + q.val, by omega⟩ rfl).trans ?_
  exact Finset.sum_congr rfl fun k _ => by
    try rw [show k0_pay2 (F := Ideal) (bit d) (XB mI d) (XA mI d) = xOther mI d from rfl]
    rw [xOther_apply mI d k r R hR, dyBlk_apply mI d 5 k _ C (by show C.val = 512 * 5 + (384 + q.val); omega)]

theorem chunk_x1_at_8 (d : Dev nD) (h : d.val / 2 = 1) (u : Fin 1) (r : Fin 512) (q : Fin 128)
    (R : Fin 1024) (hR : R.val = 512 * (1 - d.val % 2) + r.val) (C : Fin 4096) (hC : C.val = 3072 + q.val) :
    chunk mI d 8 (ix3 u r q)
      = ∑ k : Fin 1024, argX mI d (ix2 k R) * argDY mI d (ix2 k C) := by
  have hq := q.isLt
  rw [chunk_x1 mI d h]
  refine (Cert.KernelIdeal.PayIdx.k0_pay29_sum (xOther mI d) (dyBlk mI d 6) u r q ⟨0 + q.val, by omega⟩ rfl).trans ?_
  exact Finset.sum_congr rfl fun k _ => by
    try rw [show k0_pay2 (F := Ideal) (bit d) (XB mI d) (XA mI d) = xOther mI d from rfl]
    rw [xOther_apply mI d k r R hR, dyBlk_apply mI d 6 k _ C (by show C.val = 512 * 6 + (0 + q.val); omega)]

theorem chunk_x1_at_9 (d : Dev nD) (h : d.val / 2 = 1) (u : Fin 1) (r : Fin 512) (q : Fin 128)
    (R : Fin 1024) (hR : R.val = 512 * (1 - d.val % 2) + r.val) (C : Fin 4096) (hC : C.val = 3200 + q.val) :
    chunk mI d 9 (ix3 u r q)
      = ∑ k : Fin 1024, argX mI d (ix2 k R) * argDY mI d (ix2 k C) := by
  have hq := q.isLt
  rw [chunk_x1 mI d h]
  refine (Cert.KernelIdeal.PayIdx.k0_pay30_sum (xOther mI d) (dyBlk mI d 6) u r q ⟨128 + q.val, by omega⟩ rfl).trans ?_
  exact Finset.sum_congr rfl fun k _ => by
    try rw [show k0_pay2 (F := Ideal) (bit d) (XB mI d) (XA mI d) = xOther mI d from rfl]
    rw [xOther_apply mI d k r R hR, dyBlk_apply mI d 6 k _ C (by show C.val = 512 * 6 + (128 + q.val); omega)]

theorem chunk_x1_at_10 (d : Dev nD) (h : d.val / 2 = 1) (u : Fin 1) (r : Fin 512) (q : Fin 128)
    (R : Fin 1024) (hR : R.val = 512 * (1 - d.val % 2) + r.val) (C : Fin 4096) (hC : C.val = 3328 + q.val) :
    chunk mI d 10 (ix3 u r q)
      = ∑ k : Fin 1024, argX mI d (ix2 k R) * argDY mI d (ix2 k C) := by
  have hq := q.isLt
  rw [chunk_x1 mI d h]
  refine (Cert.KernelIdeal.PayIdx.k0_pay31_sum (xOther mI d) (dyBlk mI d 6) u r q ⟨256 + q.val, by omega⟩ rfl).trans ?_
  exact Finset.sum_congr rfl fun k _ => by
    try rw [show k0_pay2 (F := Ideal) (bit d) (XB mI d) (XA mI d) = xOther mI d from rfl]
    rw [xOther_apply mI d k r R hR, dyBlk_apply mI d 6 k _ C (by show C.val = 512 * 6 + (256 + q.val); omega)]

theorem chunk_x1_at_11 (d : Dev nD) (h : d.val / 2 = 1) (u : Fin 1) (r : Fin 512) (q : Fin 128)
    (R : Fin 1024) (hR : R.val = 512 * (1 - d.val % 2) + r.val) (C : Fin 4096) (hC : C.val = 3456 + q.val) :
    chunk mI d 11 (ix3 u r q)
      = ∑ k : Fin 1024, argX mI d (ix2 k R) * argDY mI d (ix2 k C) := by
  have hq := q.isLt
  rw [chunk_x1 mI d h]
  refine (Cert.KernelIdeal.PayIdx.k0_pay32_sum (xOther mI d) (dyBlk mI d 6) u r q ⟨384 + q.val, by omega⟩ rfl).trans ?_
  exact Finset.sum_congr rfl fun k _ => by
    try rw [show k0_pay2 (F := Ideal) (bit d) (XB mI d) (XA mI d) = xOther mI d from rfl]
    rw [xOther_apply mI d k r R hR, dyBlk_apply mI d 6 k _ C (by show C.val = 512 * 6 + (384 + q.val); omega)]

theorem chunk_x1_at_12 (d : Dev nD) (h : d.val / 2 = 1) (u : Fin 1) (r : Fin 512) (q : Fin 128)
    (R : Fin 1024) (hR : R.val = 512 * (1 - d.val % 2) + r.val) (C : Fin 4096) (hC : C.val = 3584 + q.val) :
    chunk mI d 12 (ix3 u r q)
      = ∑ k : Fin 1024, argX mI d (ix2 k R) * argDY mI d (ix2 k C) := by
  have hq := q.isLt
  rw [chunk_x1 mI d h]
  refine (Cert.KernelIdeal.PayIdx.k0_pay39_sum (xOther mI d) (dyBlk mI d 7) u r q ⟨0 + q.val, by omega⟩ rfl).trans ?_
  exact Finset.sum_congr rfl fun k _ => by
    try rw [show k0_pay2 (F := Ideal) (bit d) (XB mI d) (XA mI d) = xOther mI d from rfl]
    rw [xOther_apply mI d k r R hR, dyBlk_apply mI d 7 k _ C (by show C.val = 512 * 7 + (0 + q.val); omega)]

theorem chunk_x1_at_13 (d : Dev nD) (h : d.val / 2 = 1) (u : Fin 1) (r : Fin 512) (q : Fin 128)
    (R : Fin 1024) (hR : R.val = 512 * (1 - d.val % 2) + r.val) (C : Fin 4096) (hC : C.val = 3712 + q.val) :
    chunk mI d 13 (ix3 u r q)
      = ∑ k : Fin 1024, argX mI d (ix2 k R) * argDY mI d (ix2 k C) := by
  have hq := q.isLt
  rw [chunk_x1 mI d h]
  refine (Cert.KernelIdeal.PayIdx.k0_pay40_sum (xOther mI d) (dyBlk mI d 7) u r q ⟨128 + q.val, by omega⟩ rfl).trans ?_
  exact Finset.sum_congr rfl fun k _ => by
    try rw [show k0_pay2 (F := Ideal) (bit d) (XB mI d) (XA mI d) = xOther mI d from rfl]
    rw [xOther_apply mI d k r R hR, dyBlk_apply mI d 7 k _ C (by show C.val = 512 * 7 + (128 + q.val); omega)]

theorem chunk_x1_at_14 (d : Dev nD) (h : d.val / 2 = 1) (u : Fin 1) (r : Fin 512) (q : Fin 128)
    (R : Fin 1024) (hR : R.val = 512 * (1 - d.val % 2) + r.val) (C : Fin 4096) (hC : C.val = 3840 + q.val) :
    chunk mI d 14 (ix3 u r q)
      = ∑ k : Fin 1024, argX mI d (ix2 k R) * argDY mI d (ix2 k C) := by
  have hq := q.isLt
  rw [chunk_x1 mI d h]
  refine (Cert.KernelIdeal.PayIdx.k0_pay41_sum (xOther mI d) (dyBlk mI d 7) u r q ⟨256 + q.val, by omega⟩ rfl).trans ?_
  exact Finset.sum_congr rfl fun k _ => by
    try rw [show k0_pay2 (F := Ideal) (bit d) (XB mI d) (XA mI d) = xOther mI d from rfl]
    rw [xOther_apply mI d k r R hR, dyBlk_apply mI d 7 k _ C (by show C.val = 512 * 7 + (256 + q.val); omega)]

theorem chunk_x1_at_15 (d : Dev nD) (h : d.val / 2 = 1) (u : Fin 1) (r : Fin 512) (q : Fin 128)
    (R : Fin 1024) (hR : R.val = 512 * (1 - d.val % 2) + r.val) (C : Fin 4096) (hC : C.val = 3968 + q.val) :
    chunk mI d 15 (ix3 u r q)
      = ∑ k : Fin 1024, argX mI d (ix2 k R) * argDY mI d (ix2 k C) := by
  have hq := q.isLt
  rw [chunk_x1 mI d h]
  refine (Cert.KernelIdeal.PayIdx.k0_pay42_sum (xOther mI d) (dyBlk mI d 7) u r q ⟨384 + q.val, by omega⟩ rfl).trans ?_
  exact Finset.sum_congr rfl fun k _ => by
    try rw [show k0_pay2 (F := Ideal) (bit d) (XB mI d) (XA mI d) = xOther mI d from rfl]
    rw [xOther_apply mI d k r R hR, dyBlk_apply mI d 7 k _ C (by show C.val = 512 * 7 + (384 + q.val); omega)]

theorem chunk_apply (d : Dev nD) (j : Fin 16) (u : Fin 1) (r : Fin 512) (q : Fin 128)
    (R : Fin 1024) (hR : R.val = 512 * (1 - d.val % 2) + r.val) (C : Fin 4096) (hC : C.val = 2048 * (d.val / 2) + 128 * j.val + q.val) :
    chunk mI d j (ix3 u r q)
      = ∑ k : Fin 1024, argX mI d (ix2 k R) * argDY mI d (ix2 k C) := by
  have hd : d.val / 2 = 0 ∨ d.val / 2 = 1 := by have := d.isLt; omega
  rcases hd with h | h
  · match j, hC with
    | ⟨0, _⟩, hC => exact chunk_x0_at_0 mI d h u r q R hR C (by rw [h] at hC; exact (show C.val = 0 + q.val by omega))
    | ⟨1, _⟩, hC => exact chunk_x0_at_1 mI d h u r q R hR C (by rw [h] at hC; exact (show C.val = 128 + q.val by omega))
    | ⟨2, _⟩, hC => exact chunk_x0_at_2 mI d h u r q R hR C (by rw [h] at hC; exact (show C.val = 256 + q.val by omega))
    | ⟨3, _⟩, hC => exact chunk_x0_at_3 mI d h u r q R hR C (by rw [h] at hC; exact (show C.val = 384 + q.val by omega))
    | ⟨4, _⟩, hC => exact chunk_x0_at_4 mI d h u r q R hR C (by rw [h] at hC; exact (show C.val = 512 + q.val by omega))
    | ⟨5, _⟩, hC => exact chunk_x0_at_5 mI d h u r q R hR C (by rw [h] at hC; exact (show C.val = 640 + q.val by omega))
    | ⟨6, _⟩, hC => exact chunk_x0_at_6 mI d h u r q R hR C (by rw [h] at hC; exact (show C.val = 768 + q.val by omega))
    | ⟨7, _⟩, hC => exact chunk_x0_at_7 mI d h u r q R hR C (by rw [h] at hC; exact (show C.val = 896 + q.val by omega))
    | ⟨8, _⟩, hC => exact chunk_x0_at_8 mI d h u r q R hR C (by rw [h] at hC; exact (show C.val = 1024 + q.val by omega))
    | ⟨9, _⟩, hC => exact chunk_x0_at_9 mI d h u r q R hR C (by rw [h] at hC; exact (show C.val = 1152 + q.val by omega))
    | ⟨10, _⟩, hC => exact chunk_x0_at_10 mI d h u r q R hR C (by rw [h] at hC; exact (show C.val = 1280 + q.val by omega))
    | ⟨11, _⟩, hC => exact chunk_x0_at_11 mI d h u r q R hR C (by rw [h] at hC; exact (show C.val = 1408 + q.val by omega))
    | ⟨12, _⟩, hC => exact chunk_x0_at_12 mI d h u r q R hR C (by rw [h] at hC; exact (show C.val = 1536 + q.val by omega))
    | ⟨13, _⟩, hC => exact chunk_x0_at_13 mI d h u r q R hR C (by rw [h] at hC; exact (show C.val = 1664 + q.val by omega))
    | ⟨14, _⟩, hC => exact chunk_x0_at_14 mI d h u r q R hR C (by rw [h] at hC; exact (show C.val = 1792 + q.val by omega))
    | ⟨15, _⟩, hC => exact chunk_x0_at_15 mI d h u r q R hR C (by rw [h] at hC; exact (show C.val = 1920 + q.val by omega))
    | ⟨n + 16, h16⟩, _ => exact absurd h16 (by omega)
  · match j, hC with
    | ⟨0, _⟩, hC => exact chunk_x1_at_0 mI d h u r q R hR C (by rw [h] at hC; exact (show C.val = 2048 + q.val by omega))
    | ⟨1, _⟩, hC => exact chunk_x1_at_1 mI d h u r q R hR C (by rw [h] at hC; exact (show C.val = 2176 + q.val by omega))
    | ⟨2, _⟩, hC => exact chunk_x1_at_2 mI d h u r q R hR C (by rw [h] at hC; exact (show C.val = 2304 + q.val by omega))
    | ⟨3, _⟩, hC => exact chunk_x1_at_3 mI d h u r q R hR C (by rw [h] at hC; exact (show C.val = 2432 + q.val by omega))
    | ⟨4, _⟩, hC => exact chunk_x1_at_4 mI d h u r q R hR C (by rw [h] at hC; exact (show C.val = 2560 + q.val by omega))
    | ⟨5, _⟩, hC => exact chunk_x1_at_5 mI d h u r q R hR C (by rw [h] at hC; exact (show C.val = 2688 + q.val by omega))
    | ⟨6, _⟩, hC => exact chunk_x1_at_6 mI d h u r q R hR C (by rw [h] at hC; exact (show C.val = 2816 + q.val by omega))
    | ⟨7, _⟩, hC => exact chunk_x1_at_7 mI d h u r q R hR C (by rw [h] at hC; exact (show C.val = 2944 + q.val by omega))
    | ⟨8, _⟩, hC => exact chunk_x1_at_8 mI d h u r q R hR C (by rw [h] at hC; exact (show C.val = 3072 + q.val by omega))
    | ⟨9, _⟩, hC => exact chunk_x1_at_9 mI d h u r q R hR C (by rw [h] at hC; exact (show C.val = 3200 + q.val by omega))
    | ⟨10, _⟩, hC => exact chunk_x1_at_10 mI d h u r q R hR C (by rw [h] at hC; exact (show C.val = 3328 + q.val by omega))
    | ⟨11, _⟩, hC => exact chunk_x1_at_11 mI d h u r q R hR C (by rw [h] at hC; exact (show C.val = 3456 + q.val by omega))
    | ⟨12, _⟩, hC => exact chunk_x1_at_12 mI d h u r q R hR C (by rw [h] at hC; exact (show C.val = 3584 + q.val by omega))
    | ⟨13, _⟩, hC => exact chunk_x1_at_13 mI d h u r q R hR C (by rw [h] at hC; exact (show C.val = 3712 + q.val by omega))
    | ⟨14, _⟩, hC => exact chunk_x1_at_14 mI d h u r q R hR C (by rw [h] at hC; exact (show C.val = 3840 + q.val by omega))
    | ⟨15, _⟩, hC => exact chunk_x1_at_15 mI d h u r q R hR C (by rw [h] at hC; exact (show C.val = 3968 + q.val by omega))
    | ⟨n + 16, h16⟩, _ => exact absurd h16 (by omega)

end ChunkAt

/-! ## The device's own product -/

section Own
variable (mI : (ℓ : Loc nD τ sig) → Buf (Elt Ideal) ℓ)

/-- The product of the transposed own half with block `b` of `dy`, at `(r, q)`: the sum over the rows `k` of `x k (512 y + r) * dy k (512 b + q)`. -/
theorem ownSum (d : Dev nD) (b : Fin 8) (r q : Fin 512) (R : Fin 1024) (hR : R.val = 512 * (d.val % 2) + r.val)
    (C : Fin 4096) (hC : C.val = 512 * b.val + q.val) :
    ∑ k : Fin 1024, xMine mI d (ix2 k r) * dyBlk mI d b (ix2 k q)
      = ∑ k : Fin 1024, argX mI d (ix2 k R) * argDY mI d (ix2 k C) :=
  Finset.sum_congr rfl fun k _ => by rw [xMine_apply mI d k r R hR, dyBlk_apply mI d b k q C hC]

theorem k0_pay43_own (d : Dev nD) (b : Fin 8) (r q : Fin 512) (R : Fin 1024) (hR : R.val = 512 * (d.val % 2) + r.val)
    (C : Fin 4096) (hC : C.val = 512 * b.val + q.val) :
    k0_pay43 (F := Ideal) (xMine mI d) (dyBlk mI d b) (ix2 r q)
      = ∑ k : Fin 1024, argX mI d (ix2 k R) * argDY mI d (ix2 k C) :=
  (Cert.KernelIdeal.PayIdx.k0_pay43_apply (xMine mI d) (dyBlk mI d b) r q).trans (ownSum mI d b r q R hR C hC)
theorem k0_pay44_own (d : Dev nD) (b : Fin 8) (r q : Fin 512) (R : Fin 1024) (hR : R.val = 512 * (d.val % 2) + r.val)
    (C : Fin 4096) (hC : C.val = 512 * b.val + q.val) :
    k0_pay44 (F := Ideal) (xMine mI d) (dyBlk mI d b) (ix2 r q)
      = ∑ k : Fin 1024, argX mI d (ix2 k R) * argDY mI d (ix2 k C) :=
  (Cert.KernelIdeal.PayIdx.k0_pay44_apply (xMine mI d) (dyBlk mI d b) r q).trans (ownSum mI d b r q R hR C hC)
theorem k0_pay54_own (d : Dev nD) (b : Fin 8) (r q : Fin 512) (R : Fin 1024) (hR : R.val = 512 * (d.val % 2) + r.val)
    (C : Fin 4096) (hC : C.val = 512 * b.val + q.val) :
    k0_pay54 (F := Ideal) (xMine mI d) (dyBlk mI d b) (ix2 r q)
      = ∑ k : Fin 1024, argX mI d (ix2 k R) * argDY mI d (ix2 k C) :=
  (Cert.KernelIdeal.PayIdx.k0_pay54_apply (xMine mI d) (dyBlk mI d b) r q).trans (ownSum mI d b r q R hR C hC)
theorem k0_pay55_own (d : Dev nD) (b : Fin 8) (r q : Fin 512) (R : Fin 1024) (hR : R.val = 512 * (d.val % 2) + r.val)
    (C : Fin 4096) (hC : C.val = 512 * b.val + q.val) :
    k0_pay55 (F := Ideal) (xMine mI d) (dyBlk mI d b) (ix2 r q)
      = ∑ k : Fin 1024, argX mI d (ix2 k R) * argDY mI d (ix2 k C) :=
  (Cert.KernelIdeal.PayIdx.k0_pay55_apply (xMine mI d) (dyBlk mI d b) r q).trans (ownSum mI d b r q R hR C hC)
theorem k0_pay64_own (d : Dev nD) (b : Fin 8) (r q : Fin 512) (R : Fin 1024) (hR : R.val = 512 * (d.val % 2) + r.val)
    (C : Fin 4096) (hC : C.val = 512 * b.val + q.val) :
    k0_pay64 (F := Ideal) (xMine mI d) (dyBlk mI d b) (ix2 r q)
      = ∑ k : Fin 1024, argX mI d (ix2 k R) * argDY mI d (ix2 k C) :=
  (Cert.KernelIdeal.PayIdx.k0_pay64_apply (xMine mI d) (dyBlk mI d b) r q).trans (ownSum mI d b r q R hR C hC)
theorem k0_pay65_own (d : Dev nD) (b : Fin 8) (r q : Fin 512) (R : Fin 1024) (hR : R.val = 512 * (d.val % 2) + r.val)
    (C : Fin 4096) (hC : C.val = 512 * b.val + q.val) :
    k0_pay65 (F := Ideal) (xMine mI d) (dyBlk mI d b) (ix2 r q)
      = ∑ k : Fin 1024, argX mI d (ix2 k R) * argDY mI d (ix2 k C) :=
  (Cert.KernelIdeal.PayIdx.k0_pay65_apply (xMine mI d) (dyBlk mI d b) r q).trans (ownSum mI d b r q R hR C hC)
theorem k0_pay74_own (d : Dev nD) (b : Fin 8) (r q : Fin 512) (R : Fin 1024) (hR : R.val = 512 * (d.val % 2) + r.val)
    (C : Fin 4096) (hC : C.val = 512 * b.val + q.val) :
    k0_pay74 (F := Ideal) (xMine mI d) (dyBlk mI d b) (ix2 r q)
      = ∑ k : Fin 1024, argX mI d (ix2 k R) * argDY mI d (ix2 k C) :=
  (Cert.KernelIdeal.PayIdx.k0_pay74_apply (xMine mI d) (dyBlk mI d b) r q).trans (ownSum mI d b r q R hR C hC)
theorem k0_pay75_own (d : Dev nD) (b : Fin 8) (r q : Fin 512) (R : Fin 1024) (hR : R.val = 512 * (d.val % 2) + r.val)
    (C : Fin 4096) (hC : C.val = 512 * b.val + q.val) :
    k0_pay75 (F := Ideal) (xMine mI d) (dyBlk mI d b) (ix2 r q)
      = ∑ k : Fin 1024, argX mI d (ix2 k R) * argDY mI d (ix2 k C) :=
  (Cert.KernelIdeal.PayIdx.k0_pay75_apply (xMine mI d) (dyBlk mI d b) r q).trans (ownSum mI d b r q R hR C hC)

end Own

end Cert.KernelIdeal.Hand

end
-- ==== Proof.GlueCore.lean ====
import proofs.«901046_g7700000000001047_dist_rsdw_v7x_xy2x2_y_m1024_d1024_f4096_f32_1_alg».proof.Proof.Values
import proofs.«901046_g7700000000001047_dist_rsdw_v7x_xy2x2_y_m1024_d1024_f4096_f32_1_alg».proof.Proof.ValIdx
import proofs.«901046_g7700000000001047_dist_rsdw_v7x_xy2x2_y_m1024_d1024_f4096_f32_1_alg».proof.Proof.PayIdxAll
import proofs.«901046_g7700000000001047_dist_rsdw_v7x_xy2x2_y_m1024_d1024_f4096_f32_1_alg».proof.Proof.Spec
import proofs.«901046_g7700000000001047_dist_rsdw_v7x_xy2x2_y_m1024_d1024_f4096_f32_1_alg».proof.Proof.Slots
import Idealize.ShloMosaic.Lib.ValueLayout
import Idealize.ShloMosaic.Lib.Writes

/-! From the pieces a device's body leaves in its result to the result as one function.

The result is written by eight copies, one per block of 512 columns; the staging buffer a copy reads was itself written store by store.
A buffer after a list of stores holds, at an element, the payload of the last store whose rectangle covers it; when every store's payload
agrees with one function of the buffer's index, the buffer holds that function wherever a store covers. -/

set_option maxRecDepth 16384

noncomputable section

namespace Cert.KernelIdeal.Hand

open Cert.KernelIdeal Cert.KernelIdeal.Gen
open Idealize.ShloMosaic Idealize.ShloMosaic.TcCoe Idealize.ShloMosaic.ValueIdx
open scoped BigOperators

/-! ## Reading a buffer after a list of stores -/

section Lists
variable {sig' : RefSig} {κ : Kind} {sp : Space} {s : Shape} {e : EltTy} {Val : EltTy → Type}

/-- The last store that covers an element decides it: after the stores `L₁`, none of which covers `y`, over a store `p` that does,
    over anything, `y` reads `p`'s payload. -/
theorem read_writes_skip (v : View sig' κ sp s e) (f : v.ty.Contents Val) (L₁ : List (View.Piece Val s e)) (r : Rect s)
    (w : r.shape.Idx → Val e) (L₂ : List (View.Piece Val s e)) (x : r.shape.Idx) (h₁ : ∀ p' ∈ L₁, r.emb x ∉ p'.1.set) :
    v.read Val (v.writes Val f (L₁ ++ ⟨r, w⟩ :: L₂)) (r.emb x) = w x := by
  rw [View.writes_append, View.read_writes_apply_of_forall_not_mem v _ (r.emb x) L₁ h₁]
  exact View.read_writes_cons_emb v f r w L₂ x

/-- A whole buffer after stores that all agree with one function `G` and together cover it holds `G`. -/
theorem writes_eq_of_pieces (b : Ref sig' κ) (f : b.ty.Contents Val) (L : List (View.Piece Val b.ty.shape b.ty.elt)) (G : b.ty.shape.Idx → Val b.ty.elt)
    (hG : ∀ p ∈ L, ∀ x : p.1.shape.Idx, p.2 x = G (p.1.emb x)) (hcov : ∀ y, ∃ p ∈ L, y ∈ p.1.set) :
    (View.whole b).writes Val f L = G :=
  funext fun y => View.read_writes_apply_of_pieces (View.whole b) f G L hG y (hcov y)

end Lists

/-! ## The eight column blocks of the result -/

/-- Position `(r, q)` of the block of 512 columns from `off` is position `(r, off + q)` of the 512 × 4096 array. -/
theorem blk_emb (off : ℕ) (inb : ∀ a, (![0, off] : Fin 2 → ℕ) a + S512x512.size a ≤ S512x4096.size a) (r q : Fin 512) (cq : Fin 4096)
    (hc : cq.val = off + q.val) :
    (Rect.unit (s := S512x4096) ![0, off] S512x512.size inb).emb (ix2 r q) = ix2 r cq :=
  funext fun a => Fin.ext (by
    rw [Rect.emb_apply]
    match a with
    | ⟨0, _⟩ => show 0 + 1 * r.val = r.val; omega
    | ⟨1, _⟩ => show off + 1 * q.val = cq.val; omega)

/-- The eight blocks cover the array. -/
theorem blocks_cover {Val : EltTy → Type} (P0 P1 P2 P3 P4 P5 P6 P7 : S512x512.Idx → Val .f32) :
    ∀ y : S512x4096.Idx, ∃ p ∈ ([⟨Rect.unit (s := S512x4096) ![0, 3584] S512x512.size inb_S512x4096_S512x512_0_3584, P7⟩,
        ⟨Rect.unit (s := S512x4096) ![0, 3072] S512x512.size inb_S512x4096_S512x512_0_3072, P6⟩,
        ⟨Rect.unit (s := S512x4096) ![0, 2560] S512x512.size inb_S512x4096_S512x512_0_2560, P5⟩,
        ⟨Rect.unit (s := S512x4096) ![0, 2048] S512x512.size inb_S512x4096_S512x512_0_2048, P4⟩,
        ⟨Rect.unit (s := S512x4096) ![0, 1536] S512x512.size inb_S512x4096_S512x512_0_1536, P3⟩,
        ⟨Rect.unit (s := S512x4096) ![0, 1024] S512x512.size inb_S512x4096_S512x512_0_1024, P2⟩,
        ⟨Rect.unit (s := S512x4096) ![0, 512] S512x512.size inb_S512x4096_S512x512_0_512, P1⟩,
        ⟨Rect.unit (s := S512x4096) ![0, 0] S512x512.size inb_S512x4096_S512x512_0_0, P0⟩] : List (View.Piece Val S512x4096 .f32)), y ∈ p.1.set := by
  intro y
  have h0 : (y (0 : Fin 2)).val < 512 := (y (0 : Fin 2)).isLt
  have h1 : (y (1 : Fin 2)).val < 4096 := (y (1 : Fin 2)).isLt
  have key : ∀ (off : ℕ) (inb : ∀ a, (![0, off] : Fin 2 → ℕ) a + S512x512.size a ≤ S512x4096.size a),
      off ≤ (y (1 : Fin 2)).val → (y (1 : Fin 2)).val < off + 512 → y ∈ (Rect.unit (s := S512x4096) ![0, off] S512x512.size inb).set := by
    intro off inb hlo hhi
    rw [Rect.mem_set_unit]
    intro a
    match a with
    | ⟨0, _⟩ => exact (show 0 ≤ (y (0 : Fin 2)).val ∧ (y (0 : Fin 2)).val < 0 + 512 by omega)
    | ⟨1, _⟩ => exact (show off ≤ (y (1 : Fin 2)).val ∧ (y (1 : Fin 2)).val < off + 512 by omega)
  by_cases c7 : 3584 ≤ (y (1 : Fin 2)).val
  · exact ⟨⟨Rect.unit (s := S512x4096) ![0, 3584] S512x512.size inb_S512x4096_S512x512_0_3584, P7⟩, List.mem_cons_self, key 3584 inb_S512x4096_S512x512_0_3584 c7 (by omega)⟩
  by_cases c6 : 3072 ≤ (y (1 : Fin 2)).val
  · exact ⟨⟨Rect.unit (s := S512x4096) ![0, 3072] S512x512.size inb_S512x4096_S512x512_0_3072, P6⟩, List.mem_cons_of_mem _ (List.mem_cons_self), key 3072 inb_S512x4096_S512x512_0_3072 c6 (by omega)⟩
  by_cases c5 : 2560 ≤ (y (1 : Fin 2)).val
  · exact ⟨⟨Rect.unit (s := S512x4096) ![0, 2560] S512x512.size inb_S512x4096_S512x512_0_2560, P5⟩, List.mem_cons_of_mem _ (List.mem_cons_of_mem _ (List.mem_cons_self)), key 2560 inb_S512x4096_S512x512_0_2560 c5 (by omega)⟩
  by_cases c4 : 2048 ≤ (y (1 : Fin 2)).val
  · exact ⟨⟨Rect.unit (s := S512x4096) ![0, 2048] S512x512.size inb_S512x4096_S512x512_0_2048, P4⟩, List.mem_cons_of_mem _ (List.mem_cons_of_mem _ (List.mem_cons_of_mem _ (List.mem_cons_self))), key 2048 inb_S512x4096_S512x512_0_2048 c4 (by omega)⟩
  by_cases c3 : 1536 ≤ (y (1 : Fin 2)).val
  · exact ⟨⟨Rect.unit (s := S512x4096) ![0, 1536] S512x512.size inb_S512x4096_S512x512_0_1536, P3⟩, List.mem_cons_of_mem _ (List.mem_cons_of_mem _ (List.mem_cons_of_mem _ (List.mem_cons_of_mem _ (List.mem_cons_self)))), key 1536 inb_S512x4096_S512x512_0_1536 c3 (by omega)⟩
  by_cases c2 : 1024 ≤ (y (1 : Fin 2)).val
  · exact ⟨⟨Rect.unit (s := S512x4096) ![0, 1024] S512x512.size inb_S512x4096_S512x512_0_1024, P2⟩, List.mem_cons_of_mem _ (List.mem_cons_of_mem _ (List.mem_cons_of_mem _ (List.mem_cons_of_mem _ (List.mem_cons_of_mem _ (List.mem_cons_self))))), key 1024 inb_S512x4096_S512x512_0_1024 c2 (by omega)⟩
  by_cases c1 : 512 ≤ (y (1 : Fin 2)).val
  · exact ⟨⟨Rect.unit (s := S512x4096) ![0, 512] S512x512.size inb_S512x4096_S512x512_0_512, P1⟩, List.mem_cons_of_mem _ (List.mem_cons_of_mem _ (List.mem_cons_of_mem _ (List.mem_cons_of_mem _ (List.mem_cons_of_mem _ (List.mem_cons_of_mem _ (List.mem_cons_self)))))), key 512 inb_S512x4096_S512x512_0_512 c1 (by omega)⟩
  · exact ⟨⟨Rect.unit (s := S512x4096) ![0, 0] S512x512.size inb_S512x4096_S512x512_0_0, P0⟩, List.mem_cons_of_mem _ (List.mem_cons_of_mem _ (List.mem_cons_of_mem _ (List.mem_cons_of_mem _ (List.mem_cons_of_mem _ (List.mem_cons_of_mem _ (List.mem_cons_of_mem _ (List.mem_cons_self))))))), key 0 inb_S512x4096_S512x512_0_0 (Nat.zero_le _) (by omega)⟩

/-- The result from its eight blocks: if block `b`'s copy carries, at `(r, q)`, the value `G (r, 512 b + q)`, the result is `G`. -/
theorem result_of_blocks {Val : EltTy → Type} (fo : (main_v1 : Ref sig .tc).ty.Contents Val) (P0 P1 P2 P3 P4 P5 P6 P7 : S512x512.Idx → Val .f32)
    (G : S512x4096.Idx → Val .f32)
    (h0 : ∀ (r q : Fin 512) (cq : Fin 4096), cq.val = 0 + q.val → P0 (ix2 r q) = G (ix2 r cq))
    (h1 : ∀ (r q : Fin 512) (cq : Fin 4096), cq.val = 512 + q.val → P1 (ix2 r q) = G (ix2 r cq))
    (h2 : ∀ (r q : Fin 512) (cq : Fin 4096), cq.val = 1024 + q.val → P2 (ix2 r q) = G (ix2 r cq))
    (h3 : ∀ (r q : Fin 512) (cq : Fin 4096), cq.val = 1536 + q.val → P3 (ix2 r q) = G (ix2 r cq))
    (h4 : ∀ (r q : Fin 512) (cq : Fin 4096), cq.val = 2048 + q.val → P4 (ix2 r q) = G (ix2 r cq))
    (h5 : ∀ (r q : Fin 512) (cq : Fin 4096), cq.val = 2560 + q.val → P5 (ix2 r q) = G (ix2 r cq))
    (h6 : ∀ (r q : Fin 512) (cq : Fin 4096), cq.val = 3072 + q.val → P6 (ix2 r q) = G (ix2 r cq))
    (h7 : ∀ (r q : Fin 512) (cq : Fin 4096), cq.val = 3584 + q.val → P7 (ix2 r q) = G (ix2 r cq)) :
    (Memref.whole main_v1 : Memref sig .tc .hbm S512x4096 .f32).view.writes Val fo
      [⟨Rect.unit (s := S512x4096) ![0, 3584] S512x512.size inb_S512x4096_S512x512_0_3584, P7⟩,
        ⟨Rect.unit (s := S512x4096) ![0, 3072] S512x512.size inb_S512x4096_S512x512_0_3072, P6⟩,
        ⟨Rect.unit (s := S512x4096) ![0, 2560] S512x512.size inb_S512x4096_S512x512_0_2560, P5⟩,
        ⟨Rect.unit (s := S512x4096) ![0, 2048] S512x512.size inb_S512x4096_S512x512_0_2048, P4⟩,
        ⟨Rect.unit (s := S512x4096) ![0, 1536] S512x512.size inb_S512x4096_S512x512_0_1536, P3⟩,
        ⟨Rect.unit (s := S512x4096) ![0, 1024] S512x512.size inb_S512x4096_S512x512_0_1024, P2⟩,
        ⟨Rect.unit (s := S512x4096) ![0, 512] S512x512.size inb_S512x4096_S512x512_0_512, P1⟩,
        ⟨Rect.unit (s := S512x4096) ![0, 0] S512x512.size inb_S512x4096_S512x512_0_0, P0⟩] = G := by
  have hx : ∀ (off : ℕ) (inb : ∀ a, (![0, off] : Fin 2 → ℕ) a + S512x512.size a ≤ S512x4096.size a) (P : S512x512.Idx → Val .f32),
      (∀ (r q : Fin 512) (cq : Fin 4096), cq.val = off + q.val → P (ix2 r q) = G (ix2 r cq)) → off + 512 ≤ 4096 →
      ∀ x : S512x512.Idx, P x = G ((Rect.unit (s := S512x4096) ![0, off] S512x512.size inb).emb x) := by
    intro off inb P h hoff x
    obtain ⟨r, q, rfl⟩ : ∃ r q, x = ix2 r q := ⟨x 0, x 1, eq_ix2 x⟩
    have hq : q.val < 512 := q.isLt
    rw [blk_emb off inb r q ⟨off + q.val, by omega⟩ rfl]
    exact h _ _ _ rfl
  refine writes_eq_of_pieces (main_v1 : Ref sig .tc) fo _ G ?_ (blocks_cover P0 P1 P2 P3 P4 P5 P6 P7)
  intro p hp
  simp only [List.mem_cons, List.mem_nil_iff, or_false] at hp
  rcases hp with rfl | rfl | rfl | rfl | rfl | rfl | rfl | rfl
  · exact hx 3584 inb_S512x4096_S512x512_0_3584 P7 h7 (by omega)
  · exact hx 3072 inb_S512x4096_S512x512_0_3072 P6 h6 (by omega)
  · exact hx 2560 inb_S512x4096_S512x512_0_2560 P5 h5 (by omega)
  · exact hx 2048 inb_S512x4096_S512x512_0_2048 P4 h4 (by omega)
  · exact hx 1536 inb_S512x4096_S512x512_0_1536 P3 h3 (by omega)
  · exact hx 1024 inb_S512x4096_S512x512_0_1024 P2 h2 (by omega)
  · exact hx 512 inb_S512x4096_S512x512_0_512 P1 h1 (by omega)
  · exact hx 0 inb_S512x4096_S512x512_0_0 P0 h0 (by omega)

/-! ## Reading a column of the staging buffer after its stores

Every store into the 512 × 4096 staging buffer goes through a rectangle of all 512 rows and 128 or 512 consecutive columns: whether it
covers an element is a question about the element's column alone. -/

section Columns
variable {sig' : RefSig} {κ : Kind} {sp : Space} {Val : EltTy → Type} (v : View sig' κ sp S512x4096 .f32) (f : v.ty.Contents Val)

theorem col_not_mem (off : ℕ) (sz : Fin 2 → ℕ) (inb : ∀ a, (![0, off] : Fin 2 → ℕ) a + sz a ≤ S512x4096.size a) (r : Fin 512) (cq : Fin 4096)
    (h : cq.val < off ∨ off + sz 1 ≤ cq.val) : ix2 r cq ∉ (Rect.unit (s := S512x4096) ![0, off] sz inb).set := by
  rw [Rect.mem_set_unit]
  intro hh
  have h1 : off ≤ cq.val ∧ cq.val < off + sz 1 := hh (1 : Fin 2)
  omega

theorem col_emb (off : ℕ) (sz : Fin 2 → ℕ) (inb : ∀ a, (![0, off] : Fin 2 → ℕ) a + sz a ≤ S512x4096.size a) (x : (⟨2, sz⟩ : Shape).Idx) (r : Fin 512) (cq : Fin 4096)
    (hr : r.val = (x 0).val) (hc : cq.val = off + (x 1).val) :
    (Rect.unit (s := S512x4096) ![0, off] sz inb).emb x = ix2 r cq :=
  funext fun a => Fin.ext (by
    rw [Rect.emb_apply]
    match a with
    | ⟨0, _⟩ => show 0 + 1 * (x 0).val = r.val; omega
    | ⟨1, _⟩ => show off + 1 * (x 1).val = cq.val; omega)

/-- A store of 128 columns that misses the column is not seen. -/
theorem rd_skip128 (off : ℕ) (inb : ∀ a, (![0, off] : Fin 2 → ℕ) a + S512x128.size a ≤ S512x4096.size a) (w : S512x128.Idx → Val .f32)
    (L : List (View.Piece Val S512x4096 .f32)) (r : Fin 512) (cq : Fin 4096) (h : cq.val < off ∨ off + 128 ≤ cq.val) :
    v.read Val (v.writes Val f (⟨Rect.unit (s := S512x4096) ![0, off] S512x128.size inb, w⟩ :: L)) (ix2 r cq) = v.read Val (v.writes Val f L) (ix2 r cq) := by
  rw [View.writes_cons, View.read_slice_write_of_not_mem _ _ _ _ (by rw [Rect.map_emb_univ]; exact col_not_mem off _ inb r cq h)]

/-- A store of 512 columns that misses the column is not seen. -/
theorem rd_skip512 (off : ℕ) (inb : ∀ a, (![0, off] : Fin 2 → ℕ) a + S512x512.size a ≤ S512x4096.size a) (w : S512x512.Idx → Val .f32)
    (L : List (View.Piece Val S512x4096 .f32)) (r : Fin 512) (cq : Fin 4096) (h : cq.val < off ∨ off + 512 ≤ cq.val) :
    v.read Val (v.writes Val f (⟨Rect.unit (s := S512x4096) ![0, off] S512x512.size inb, w⟩ :: L)) (ix2 r cq) = v.read Val (v.writes Val f L) (ix2 r cq) := by
  rw [View.writes_cons, View.read_slice_write_of_not_mem _ _ _ _ (by rw [Rect.map_emb_univ]; exact col_not_mem off _ inb r cq h)]

/-- The newest store, of 128 columns, covering the column: its payload. -/
theorem rd_hit128 (off : ℕ) (inb : ∀ a, (![0, off] : Fin 2 → ℕ) a + S512x128.size a ≤ S512x4096.size a) (w : S512x128.Idx → Val .f32)
    (L : List (View.Piece Val S512x4096 .f32)) (r : Fin 512) (cq : Fin 4096) (q' : Fin 128) (h : cq.val = off + q'.val) :
    v.read Val (v.writes Val f (⟨Rect.unit (s := S512x4096) ![0, off] S512x128.size inb, w⟩ :: L)) (ix2 r cq) = w (ix2 r q') := by
  exact (congrArg (v.read Val (v.writes Val f (⟨Rect.unit (s := S512x4096) ![0, off] S512x128.size inb, w⟩ :: L)))
    (col_emb off S512x128.size inb (ix2 r q') r cq rfl h).symm).trans
    (View.read_writes_cons_emb v f (Rect.unit (s := S512x4096) ![0, off] S512x128.size inb) w L (ix2 r q'))

/-- The newest store, of 512 columns, covering the column: its payload. -/
theorem rd_hit512 (off : ℕ) (inb : ∀ a, (![0, off] : Fin 2 → ℕ) a + S512x512.size a ≤ S512x4096.size a) (w : S512x512.Idx → Val .f32)
    (L : List (View.Piece Val S512x4096 .f32)) (r : Fin 512) (cq : Fin 4096) (q : Fin 512) (h : cq.val = off + q.val) :
    v.read Val (v.writes Val f (⟨Rect.unit (s := S512x4096) ![0, off] S512x512.size inb, w⟩ :: L)) (ix2 r cq) = w (ix2 r q) := by
  exact (congrArg (v.read Val (v.writes Val f (⟨Rect.unit (s := S512x4096) ![0, off] S512x512.size inb, w⟩ :: L)))
    (col_emb off S512x512.size inb (ix2 r q) r cq rfl h).symm).trans
    (View.read_writes_cons_emb v f (Rect.unit (s := S512x4096) ![0, off] S512x512.size inb) w L (ix2 r q))

/-- A load of 128 columns after listed stores, at an index: the buffer after the stores, over arbitrary contents, at that column. -/
theorem rdcov128 [∀ e, Nonempty (Val e)] (L : List (View.Piece Val S512x4096 .f32)) (off : ℕ)
    (inb : ∀ a, (![0, off] : Fin 2 → ℕ) a + S512x128.size a ≤ S512x4096.size a) (r : Fin 512) (q' : Fin 128) (cq : Fin 4096) (h : cq.val = off + q'.val) :
    v.readCov L (Rect.unit (s := S512x4096) ![0, off] S512x128.size inb).toLoadRect (ix2 r q') = v.read Val (v.writes Val v.junk L) (ix2 r cq) := by
  show v.read Val (v.writes Val v.junk L) ((Rect.unit (s := S512x4096) ![0, off] S512x128.size inb).toLoadRect.idx (ix2 r q')) = _
  congr 1
  exact funext fun a => Fin.ext (by
    match a with
    | ⟨0, _⟩ => show 0 + 1 * r.val = r.val; omega
    | ⟨1, _⟩ => show off + 1 * q'.val = cq.val; omega)

end Columns

/-- What a copy of the 512 columns from `off` of the staging buffer carries, at an index: the buffer's contents at that column. -/
theorem s1_blk_read {Val : EltTy → Type} (off : ℕ) (inb : ∀ a, (![0, off] : Fin 2 → ℕ) a + S512x512.size a ≤ S512x4096.size a)
    (hs : ∀ a, (Rect.unit (s := S512x4096) ![0, off] S512x512.size inb).stride a = 1)
    (C : (cc0_scratch1 : Ref sig .tc).ty.Contents Val) (r q : Fin 512) (cq : Fin 4096) (h : cq.val = off + q.val) :
    ReadAs.same.apply (View.read Val ((Memref.whole cc0_scratch1 : Memref sig .tc .vmem S512x4096 .f32).slice (Rect.unit (s := S512x4096) ![0, off] S512x512.size inb) hs).view C) (ix2 r q)
      = (View.whole (cc0_scratch1 : Ref sig .tc)).read Val C (ix2 r cq) :=
  congrArg ((View.whole (cc0_scratch1 : Ref sig .tc)).read Val C) (col_emb off S512x512.size inb (ix2 r q) r cq rfl h)

/-- What the body reads of slot `j` of the buffer the neighbour along the second axis wrote, -/
def rdY (mI : (ℓ : Loc nD τ sig) → Buf (Elt Ideal) ℓ) (c : Dev nD) (j : Fin 16) : S1x512x128.Idx → Elt Ideal .bf16 :=
  View.readAt (Elt Ideal) (Memref.whole cc0_scratch3 : Memref sig .tc .vmem S16x512x128 .bf16).view (box j).toLoadRect (cast (congrArg (Buf (Elt Ideal)) (yslot_loc c j)) (YcV (chunk mI) c j))
/-- and of slot `j` of the buffer the neighbour along the first axis wrote. -/
def rdX (mI : (ℓ : Loc nD τ sig) → Buf (Elt Ideal) ℓ) (c : Dev nD) (j : Fin 16) : S1x512x128.Idx → Elt Ideal .bf16 :=
  View.readAt (Elt Ideal) (Memref.whole cc0_scratch4 : Memref sig .tc .vmem S16x512x128 .bf16).view (box j).toLoadRect (cast (congrArg (Buf (Elt Ideal)) (xslot_loc c j)) (XcV (chunk mI) c j))

section Summands
variable (mI : (ℓ : Loc nD τ sig) → Buf (Elt Ideal) ℓ) (c : Dev nD)

/-! ## The two summands named

The device's own product is its own share of the sum over the contracted rows; a chunk received along the second axis is the share of the
neighbour along that axis, a forwarded chunk the share of the device diagonally opposite, which holds the same rows of the arrays whenever
the arrays are cut along the second axis only. -/

/-- A product of a half of `x` with a block of 512 columns of `dy`, entry by entry: one device's share of the sum. -/
theorem mm_part (Xm Db : FVec Ideal S1024x512 .f32) (X : (⟨2, ![1024, 1024]⟩ : Shape).Idx → EReal) (DY : (⟨2, ![1024, 4096]⟩ : Shape).Idx → EReal) (y : Fin 2) (off : ℕ)
    (hX : ∀ (k : Fin 1024) (p : Fin 512) (col : Fin 1024), col.val = 512 * y.val + p.val → Xm (ix2 k p) = X (ix2 k col))
    (hD : ∀ (k : Fin 1024) (q : Fin 512) (col : Fin 4096), col.val = off + q.val → Db (ix2 k q) = DY (ix2 k col))
    (r q : Fin 512) (cq : Fin 4096) (h : cq.val = off + q.val) :
    (∑ k : Fin 1024, Xm (ix2 k r) * Db (ix2 k q)) = Cert.Spec.part y X DY (ix2 r cq) := by
  unfold Cert.Spec.part
  refine Finset.sum_congr rfl fun k _ => ?_
  rw [hX k r ⟨512 * y.val + r.val, by have := y.isLt; have := r.isLt; omega⟩ rfl, hD k q cq h]

theorem ynb_mod (c : Dev nD) : (ynb c).val % 2 = 1 - c.val % 2 := by revert c; decide
theorem ynb_div (c : Dev nD) : (ynb c).val / 2 = c.val / 2 := by revert c; decide
theorem yxnb_mod (c : Dev nD) : (ynb (xnb c)).val % 2 = 1 - c.val % 2 := by revert c; decide
theorem yxnb_div (c : Dev nD) : (ynb (xnb c)).val / 2 = 1 - c.val / 2 := by revert c; decide

/-- A chunk of device `d`, whose second mesh coordinate is the other one, is `d`'s share of this device's rows, at the chunk's columns. -/
theorem chunk_part (d : Dev nD) (hd : d.val % 2 = 1 - c.val % 2) (j : Fin 16) (r : Fin 512) (q' : Fin 128) (cq : Fin 4096)
    (h : cq.val = 2048 * (d.val / 2) + 128 * j.val + q'.val) :
    chunk mI d j (ix3 (0 : Fin 1) r q') = Cert.Spec.part ⟨c.val % 2, Nat.mod_lt _ (by decide)⟩ (mI ((d : Thread nD τ).loc main_arg0)) (mI ((d : Thread nD τ).loc main_arg1)) (ix2 r cq) := by
  have hc := c.isLt
  rw [chunk_apply mI d j 0 r q' ⟨512 * (c.val % 2) + r.val, by have := r.isLt; omega⟩ (by show 512 * (c.val % 2) + r.val = 512 * (1 - d.val % 2) + r.val; omega) cq h]
  rfl

end Summands

/-! ## What the body reads of a received slot

A slot of a sixteen-slot buffer is the rectangle at offset (n, 0, 0) with its leading axis dropped: position (r, q) of the slot is element
(n, r, q) of the buffer. A transfer writes into the destination slot what it reads through the source slot, so element (n, r, q) of the
destination holds element (n, r, q) of the source; a forward copies it once more. The source of a chunk is the sender's outgoing slot,
which holds the sender's chunk at its own positions (0, r, q). -/

section Slots
variable {Val : EltTy → Type}

theorem unit3_emb (n : ℕ) (hn : n < 16) (inb : ∀ a, (![n, 0, 0] : Fin 3 → Nat) a + S1x512x128.size a ≤ S16x512x128.size a) (r : Fin 512) (q' : Fin 128) :
    (Rect.unit (s := S16x512x128) ![n, 0, 0] S1x512x128.size inb).emb (ix3 (⟨0, Nat.one_pos⟩ : Fin 1) r q') = ix3 (⟨n, hn⟩ : Fin 16) r q' :=
  funext fun a => Fin.ext (by
    rw [Rect.emb_apply]
    match a with
    | ⟨0, _⟩ => show n + 1 * 0 = n; omega
    | ⟨1, _⟩ => show 0 + 1 * r.val = r.val; omega
    | ⟨2, _⟩ => show 0 + 1 * q'.val = q'.val; omega)

theorem unit3_idx (n : ℕ) (hn : n < 16) (inb : ∀ a, (![n, 0, 0] : Fin 3 → Nat) a + S1x512x128.size a ≤ S16x512x128.size a) (r : Fin 512) (q' : Fin 128) :
    (Rect.unit (s := S16x512x128) ![n, 0, 0] S1x512x128.size inb).toLoadRect.idx (ix3 (0 : Fin 1) r q') = ix3 (⟨n, hn⟩ : Fin 16) r q' :=
  funext fun a => Fin.ext (by
    match a with
    | ⟨0, _⟩ => show n + 1 * 0 = n; omega
    | ⟨1, _⟩ => show 0 + 1 * r.val = r.val; omega
    | ⟨2, _⟩ => show 0 + 1 * q'.val = q'.val; omega)

theorem slot2_emb (n : ℕ) (hn : n < 16) (inb : ∀ a, (![n, 0, 0] : Fin 3 → Nat) a + S1x512x128.size a ≤ S16x512x128.size a) (r : Fin 512) (q' : Fin 128) :
    (((Memref.whole cc0_scratch2 : Memref sig .tc .vmem S16x512x128 .bf16).slice (Rect.unit (s := S16x512x128) ![n, 0, 0] S1x512x128.size inb) (fun _ => rfl)).squeeze S512x128 squeezes_S1x512x128_S512x128).view.emb (ix2 r q') = ix3 (⟨n, hn⟩ : Fin 16) r q' := by
  show (Rect.unit (s := S16x512x128) ![n, 0, 0] S1x512x128.size inb).emb (Shape.reshapeEquiv _ (ix2 r q')) = _
  rw [reshapeEquiv_ix2_1ab]
  exact unit3_emb n hn inb r q'

theorem slot2_read (n : ℕ) (hn : n < 16) (inb : ∀ a, (![n, 0, 0] : Fin 3 → Nat) a + S1x512x128.size a ≤ S16x512x128.size a) (f : (cc0_scratch2 : Ref sig .tc).ty.Contents Val) (r : Fin 512) (q' : Fin 128) :
    (((Memref.whole cc0_scratch2 : Memref sig .tc .vmem S16x512x128 .bf16).slice (Rect.unit (s := S16x512x128) ![n, 0, 0] S1x512x128.size inb) (fun _ => rfl)).squeeze S512x128 squeezes_S1x512x128_S512x128).view.read Val f (ix2 r q') = f (ix3 (⟨n, hn⟩ : Fin 16) r q') := by
  rw [View.read_apply, slot2_emb n hn inb r q']
  rfl

theorem slot2_write (n : ℕ) (hn : n < 16) (inb : ∀ a, (![n, 0, 0] : Fin 3 → Nat) a + S1x512x128.size a ≤ S16x512x128.size a) (f : (cc0_scratch2 : Ref sig .tc).ty.Contents Val) (w : S512x128.Idx → Val .bf16) (r : Fin 512) (q' : Fin 128) :
    (((Memref.whole cc0_scratch2 : Memref sig .tc .vmem S16x512x128 .bf16).slice (Rect.unit (s := S16x512x128) ![n, 0, 0] S1x512x128.size inb) (fun _ => rfl)).squeeze S512x128 squeezes_S1x512x128_S512x128).view.write Val f w Finset.univ (ix3 (⟨n, hn⟩ : Fin 16) r q') = w (ix2 r q') := by
  rw [← slot2_emb n hn inb r q', View.write_emb_of_mem _ _ (Finset.mem_univ _)]
  rfl

theorem slot3_emb (n : ℕ) (hn : n < 16) (inb : ∀ a, (![n, 0, 0] : Fin 3 → Nat) a + S1x512x128.size a ≤ S16x512x128.size a) (r : Fin 512) (q' : Fin 128) :
    (((Memref.whole cc0_scratch3 : Memref sig .tc .vmem S16x512x128 .bf16).slice (Rect.unit (s := S16x512x128) ![n, 0, 0] S1x512x128.size inb) (fun _ => rfl)).squeeze S512x128 squeezes_S1x512x128_S512x128).view.emb (ix2 r q') = ix3 (⟨n, hn⟩ : Fin 16) r q' := by
  show (Rect.unit (s := S16x512x128) ![n, 0, 0] S1x512x128.size inb).emb (Shape.reshapeEquiv _ (ix2 r q')) = _
  rw [reshapeEquiv_ix2_1ab]
  exact unit3_emb n hn inb r q'

theorem slot3_read (n : ℕ) (hn : n < 16) (inb : ∀ a, (![n, 0, 0] : Fin 3 → Nat) a + S1x512x128.size a ≤ S16x512x128.size a) (f : (cc0_scratch3 : Ref sig .tc).ty.Contents Val) (r : Fin 512) (q' : Fin 128) :
    (((Memref.whole cc0_scratch3 : Memref sig .tc .vmem S16x512x128 .bf16).slice (Rect.unit (s := S16x512x128) ![n, 0, 0] S1x512x128.size inb) (fun _ => rfl)).squeeze S512x128 squeezes_S1x512x128_S512x128).view.read Val f (ix2 r q') = f (ix3 (⟨n, hn⟩ : Fin 16) r q') := by
  rw [View.read_apply, slot3_emb n hn inb r q']
  rfl

theorem slot3_write (n : ℕ) (hn : n < 16) (inb : ∀ a, (![n, 0, 0] : Fin 3 → Nat) a + S1x512x128.size a ≤ S16x512x128.size a) (f : (cc0_scratch3 : Ref sig .tc).ty.Contents Val) (w : S512x128.Idx → Val .bf16) (r : Fin 512) (q' : Fin 128) :
    (((Memref.whole cc0_scratch3 : Memref sig .tc .vmem S16x512x128 .bf16).slice (Rect.unit (s := S16x512x128) ![n, 0, 0] S1x512x128.size inb) (fun _ => rfl)).squeeze S512x128 squeezes_S1x512x128_S512x128).view.write Val f w Finset.univ (ix3 (⟨n, hn⟩ : Fin 16) r q') = w (ix2 r q') := by
  rw [← slot3_emb n hn inb r q', View.write_emb_of_mem _ _ (Finset.mem_univ _)]
  rfl

theorem slot4_emb (n : ℕ) (hn : n < 16) (inb : ∀ a, (![n, 0, 0] : Fin 3 → Nat) a + S1x512x128.size a ≤ S16x512x128.size a) (r : Fin 512) (q' : Fin 128) :
    (((Memref.whole cc0_scratch4 : Memref sig .tc .vmem S16x512x128 .bf16).slice (Rect.unit (s := S16x512x128) ![n, 0, 0] S1x512x128.size inb) (fun _ => rfl)).squeeze S512x128 squeezes_S1x512x128_S512x128).view.emb (ix2 r q') = ix3 (⟨n, hn⟩ : Fin 16) r q' := by
  show (Rect.unit (s := S16x512x128) ![n, 0, 0] S1x512x128.size inb).emb (Shape.reshapeEquiv _ (ix2 r q')) = _
  rw [reshapeEquiv_ix2_1ab]
  exact unit3_emb n hn inb r q'

theorem slot4_read (n : ℕ) (hn : n < 16) (inb : ∀ a, (![n, 0, 0] : Fin 3 → Nat) a + S1x512x128.size a ≤ S16x512x128.size a) (f : (cc0_scratch4 : Ref sig .tc).ty.Contents Val) (r : Fin 512) (q' : Fin 128) :
    (((Memref.whole cc0_scratch4 : Memref sig .tc .vmem S16x512x128 .bf16).slice (Rect.unit (s := S16x512x128) ![n, 0, 0] S1x512x128.size inb) (fun _ => rfl)).squeeze S512x128 squeezes_S1x512x128_S512x128).view.read Val f (ix2 r q') = f (ix3 (⟨n, hn⟩ : Fin 16) r q') := by
  rw [View.read_apply, slot4_emb n hn inb r q']
  rfl

theorem slot4_write (n : ℕ) (hn : n < 16) (inb : ∀ a, (![n, 0, 0] : Fin 3 → Nat) a + S1x512x128.size a ≤ S16x512x128.size a) (f : (cc0_scratch4 : Ref sig .tc).ty.Contents Val) (w : S512x128.Idx → Val .bf16) (r : Fin 512) (q' : Fin 128) :
    (((Memref.whole cc0_scratch4 : Memref sig .tc .vmem S16x512x128 .bf16).slice (Rect.unit (s := S16x512x128) ![n, 0, 0] S1x512x128.size inb) (fun _ => rfl)).squeeze S512x128 squeezes_S1x512x128_S512x128).view.write Val f w Finset.univ (ix3 (⟨n, hn⟩ : Fin 16) r q') = w (ix2 r q') := by
  rw [← slot4_emb n hn inb r q', View.write_emb_of_mem _ _ (Finset.mem_univ _)]
  rfl

end Slots

variable {F : FTy → Type} [FloatOps F]

/-- The outgoing buffer that holds `w` in slot `j` holds it at its own positions. -/
theorem SbW_apply (d : Dev nD) (j : Fin 16) (w : FVec F S1x512x128 .bf16) (r : Fin 512) (q' : Fin 128) :
    SbW d j w (ix3 j r q') = w (ix3 (0 : Fin 1) r q') := by
  unfold SbW
  have h := View.read_writes_cons_emb W2 (junk2 (F := F)) (box j) w [] (ix3 (⟨0, Nat.one_pos⟩ : Fin 1) r q')
  rw [show (box j).emb (ix3 (⟨0, Nat.one_pos⟩ : Fin 1) r q') = ix3 j r q' from unit3_emb j.val j.isLt _ r q'] at h
  exact (congrFun (View.read_whole (Val := Elt F) (cc0_scratch2 : Ref sig .tc) _).symm _).trans h

/-! ## The received slots as the senders' chunks -/

section Received
variable (mI : (ℓ : Loc nD τ sig) → Buf (Elt Ideal) ℓ) (c : Dev nD)

/-- Element `(n, r, q)` of the buffer of received chunks, after the neighbour `d`'s transfer of its slot `n`: `d`'s chunk `n` at `(0, r, q)`. -/
theorem ycase (d : Dev nD) (n : ℕ) (hn : n < 16) (inb : ∀ a, (![n, 0, 0] : Fin 3 → Nat) a + S1x512x128.size a ≤ S16x512x128.size a) (r : Fin 512) (q' : Fin 128) :
    (((Memref.whole cc0_scratch3 : Memref sig .tc .vmem S16x512x128 .bf16).slice (Rect.unit (s := S16x512x128) ![n, 0, 0] S1x512x128.size inb) (fun _ => rfl)).squeeze S512x128 squeezes_S1x512x128_S512x128).view.write (Elt Ideal) (((Memref.whole cc0_scratch3 : Memref sig .tc .vmem S16x512x128 .bf16).slice (Rect.unit (s := S16x512x128) ![n, 0, 0] S1x512x128.size inb) (fun _ => rfl)).squeeze S512x128 squeezes_S1x512x128_S512x128).view.junk
        ((((Memref.whole cc0_scratch2 : Memref sig .tc .vmem S16x512x128 .bf16).slice (Rect.unit (s := S16x512x128) ![n, 0, 0] S1x512x128.size inb) (fun _ => rfl)).squeeze S512x128 squeezes_S1x512x128_S512x128).view.read (Elt Ideal) (SbW d ⟨n, hn⟩ (chunk mI d ⟨n, hn⟩))) Finset.univ
        ((Rect.unit (s := S16x512x128) ![n, 0, 0] S1x512x128.size inb).toLoadRect.idx (ix3 (0 : Fin 1) r q'))
      = chunk mI d ⟨n, hn⟩ (ix3 (0 : Fin 1) r q') := by
  rw [unit3_idx n hn inb r q', slot3_write n hn inb, slot2_read n hn inb, SbW_apply]

/-- The same after the forward: the buffer of forwards holds what the forwarding neighbour had received from `d`. -/
theorem xcase (d : Dev nD) (n : ℕ) (hn : n < 16) (inb : ∀ a, (![n, 0, 0] : Fin 3 → Nat) a + S1x512x128.size a ≤ S16x512x128.size a) (r : Fin 512) (q' : Fin 128) :
    (((Memref.whole cc0_scratch4 : Memref sig .tc .vmem S16x512x128 .bf16).slice (Rect.unit (s := S16x512x128) ![n, 0, 0] S1x512x128.size inb) (fun _ => rfl)).squeeze S512x128 squeezes_S1x512x128_S512x128).view.write (Elt Ideal) (((Memref.whole cc0_scratch4 : Memref sig .tc .vmem S16x512x128 .bf16).slice (Rect.unit (s := S16x512x128) ![n, 0, 0] S1x512x128.size inb) (fun _ => rfl)).squeeze S512x128 squeezes_S1x512x128_S512x128).view.junk
        ((((Memref.whole cc0_scratch3 : Memref sig .tc .vmem S16x512x128 .bf16).slice (Rect.unit (s := S16x512x128) ![n, 0, 0] S1x512x128.size inb) (fun _ => rfl)).squeeze S512x128 squeezes_S1x512x128_S512x128).view.read (Elt Ideal)
          ((((Memref.whole cc0_scratch3 : Memref sig .tc .vmem S16x512x128 .bf16).slice (Rect.unit (s := S16x512x128) ![n, 0, 0] S1x512x128.size inb) (fun _ => rfl)).squeeze S512x128 squeezes_S1x512x128_S512x128).view.write (Elt Ideal) (((Memref.whole cc0_scratch3 : Memref sig .tc .vmem S16x512x128 .bf16).slice (Rect.unit (s := S16x512x128) ![n, 0, 0] S1x512x128.size inb) (fun _ => rfl)).squeeze S512x128 squeezes_S1x512x128_S512x128).view.junk
            ((((Memref.whole cc0_scratch2 : Memref sig .tc .vmem S16x512x128 .bf16).slice (Rect.unit (s := S16x512x128) ![n, 0, 0] S1x512x128.size inb) (fun _ => rfl)).squeeze S512x128 squeezes_S1x512x128_S512x128).view.read (Elt Ideal) (SbW d ⟨n, hn⟩ (chunk mI d ⟨n, hn⟩))) Finset.univ)) Finset.univ
        ((Rect.unit (s := S16x512x128) ![n, 0, 0] S1x512x128.size inb).toLoadRect.idx (ix3 (0 : Fin 1) r q'))
      = chunk mI d ⟨n, hn⟩ (ix3 (0 : Fin 1) r q') := by
  rw [unit3_idx n hn inb r q', slot4_write n hn inb, slot3_read n hn inb, slot3_write n hn inb, slot2_read n hn inb, SbW_apply]

theorem rdY_eq : ∀ (j : Fin 16) (r : Fin 512) (q' : Fin 128), rdY mI c j (ix3 (0 : Fin 1) r q') = chunk mI (ynb c) j (ix3 (0 : Fin 1) r q')
  | 0, r, q' => ycase mI (ynb c) 0 (by decide) inb_S16x512x128_S1x512x128_0_0_0 r q'
  | 1, r, q' => ycase mI (ynb c) 1 (by decide) inb_S16x512x128_S1x512x128_1_0_0 r q'
  | 2, r, q' => ycase mI (ynb c) 2 (by decide) inb_S16x512x128_S1x512x128_2_0_0 r q'
  | 3, r, q' => ycase mI (ynb c) 3 (by decide) inb_S16x512x128_S1x512x128_3_0_0 r q'
  | 4, r, q' => ycase mI (ynb c) 4 (by decide) inb_S16x512x128_S1x512x128_4_0_0 r q'
  | 5, r, q' => ycase mI (ynb c) 5 (by decide) inb_S16x512x128_S1x512x128_5_0_0 r q'
  | 6, r, q' => ycase mI (ynb c) 6 (by decide) inb_S16x512x128_S1x512x128_6_0_0 r q'
  | 7, r, q' => ycase mI (ynb c) 7 (by decide) inb_S16x512x128_S1x512x128_7_0_0 r q'
  | 8, r, q' => ycase mI (ynb c) 8 (by decide) inb_S16x512x128_S1x512x128_8_0_0 r q'
  | 9, r, q' => ycase mI (ynb c) 9 (by decide) inb_S16x512x128_S1x512x128_9_0_0 r q'
  | 10, r, q' => ycase mI (ynb c) 10 (by decide) inb_S16x512x128_S1x512x128_10_0_0 r q'
  | 11, r, q' => ycase mI (ynb c) 11 (by decide) inb_S16x512x128_S1x512x128_11_0_0 r q'
  | 12, r, q' => ycase mI (ynb c) 12 (by decide) inb_S16x512x128_S1x512x128_12_0_0 r q'
  | 13, r, q' => ycase mI (ynb c) 13 (by decide) inb_S16x512x128_S1x512x128_13_0_0 r q'
  | 14, r, q' => ycase mI (ynb c) 14 (by decide) inb_S16x512x128_S1x512x128_14_0_0 r q'
  | 15, r, q' => ycase mI (ynb c) 15 (by decide) inb_S16x512x128_S1x512x128_15_0_0 r q'
  | ⟨_ + 16, h⟩, _, _ => absurd h (by omega)

theorem rdX_eq : ∀ (j : Fin 16) (r : Fin 512) (q' : Fin 128), rdX mI c j (ix3 (0 : Fin 1) r q') = chunk mI (ynb (xnb c)) j (ix3 (0 : Fin 1) r q')
  | 0, r, q' => xcase mI (ynb (xnb c)) 0 (by decide) inb_S16x512x128_S1x512x128_0_0_0 r q'
  | 1, r, q' => xcase mI (ynb (xnb c)) 1 (by decide) inb_S16x512x128_S1x512x128_1_0_0 r q'
  | 2, r, q' => xcase mI (ynb (xnb c)) 2 (by decide) inb_S16x512x128_S1x512x128_2_0_0 r q'
  | 3, r, q' => xcase mI (ynb (xnb c)) 3 (by decide) inb_S16x512x128_S1x512x128_3_0_0 r q'
  | 4, r, q' => xcase mI (ynb (xnb c)) 4 (by decide) inb_S16x512x128_S1x512x128_4_0_0 r q'
  | 5, r, q' => xcase mI (ynb (xnb c)) 5 (by decide) inb_S16x512x128_S1x512x128_5_0_0 r q'
  | 6, r, q' => xcase mI (ynb (xnb c)) 6 (by decide) inb_S16x512x128_S1x512x128_6_0_0 r q'
  | 7, r, q' => xcase mI (ynb (xnb c)) 7 (by decide) inb_S16x512x128_S1x512x128_7_0_0 r q'
  | 8, r, q' => xcase mI (ynb (xnb c)) 8 (by decide) inb_S16x512x128_S1x512x128_8_0_0 r q'
  | 9, r, q' => xcase mI (ynb (xnb c)) 9 (by decide) inb_S16x512x128_S1x512x128_9_0_0 r q'
  | 10, r, q' => xcase mI (ynb (xnb c)) 10 (by decide) inb_S16x512x128_S1x512x128_10_0_0 r q'
  | 11, r, q' => xcase mI (ynb (xnb c)) 11 (by decide) inb_S16x512x128_S1x512x128_11_0_0 r q'
  | 12, r, q' => xcase mI (ynb (xnb c)) 12 (by decide) inb_S16x512x128_S1x512x128_12_0_0 r q'
  | 13, r, q' => xcase mI (ynb (xnb c)) 13 (by decide) inb_S16x512x128_S1x512x128_13_0_0 r q'
  | 14, r, q' => xcase mI (ynb (xnb c)) 14 (by decide) inb_S16x512x128_S1x512x128_14_0_0 r q'
  | 15, r, q' => xcase mI (ynb (xnb c)) 15 (by decide) inb_S16x512x128_S1x512x128_15_0_0 r q'
  | ⟨_ + 16, h⟩, _, _ => absurd h (by omega)

end Received

end Cert.KernelIdeal.Hand

end
-- ==== Proof.GlueX0.lean ====
import proofs.«901046_g7700000000001047_dist_rsdw_v7x_xy2x2_y_m1024_d1024_f4096_f32_1_alg».proof.Proof.GlueCore
import proofs.«901046_g7700000000001047_dist_rsdw_v7x_xy2x2_y_m1024_d1024_f4096_f32_1_alg».proof.Proof.BodyX0

/-! The result of a device whose first mesh coordinate is 0, read off what its body leaves.

Each of the eight copies out of the staging buffer carries one block of 512 columns. A column of the block lies in one of its four chunks of
128 columns; the newest store covering it is the chunk's add, whose value is what the buffer held there before — the block's own product,
stored under it — plus the received slot. So every entry of the result is an entry of the device's own product plus an entry of a
received chunk. -/

set_option maxRecDepth 16384

noncomputable section

namespace Cert.KernelIdeal.Hand

open Cert.KernelIdeal Cert.KernelIdeal.Gen
open Idealize.ShloMosaic Idealize.ShloMosaic.TcCoe Idealize.ShloMosaic.ValueIdx
open scoped BigOperators

variable (mI : (ℓ : Loc nD τ sig) → Buf (Elt Ideal) ℓ) (c : Dev nD) (f4 : Buf (Elt Ideal) ((c : Thread nD τ).loc cc0_scratch1))

/-! ## The thirty-two chunks -/

theorem body_x0_y0 (r : Fin 512) (q' : Fin 128) (q : Fin 512) (hq : q.val = 0 + q'.val) :
    body_x0.sl.dma4 (F := Ideal) mI c f4 (ix2 r q) = (k0_pay43 (body_x0.sl.r mI c) (body_x0.sl.v278 mI c)) (ix2 r q) + (View.readAt (Elt Ideal) (Memref.whole cc0_scratch3 : Memref sig .tc .vmem S16x512x128 .bf16).view (Rect.unit (s := S16x512x128) ![0, 0, 0] S1x512x128.size inb_S16x512x128_S1x512x128_0_0_0).toLoadRect (YcV (chunk mI) c 0)) (ix3 (0 : Fin 1) r q') := by
  have hq' := q'.isLt
  obtain ⟨cq, hcq⟩ : ∃ cq : Fin 4096, cq.val = 0 + q.val := ⟨⟨0 + q.val, by omega⟩, rfl⟩
  unfold body_x0.sl.dma4
  rw [s1_blk_read 0 _ _ _ r q cq hcq]
  unfold body_x0.sl.H4_6
  rw [rd_skip128 _ _ _ _ _ _ _ _ (by omega)]
  rw [rd_skip128 _ _ _ _ _ _ _ _ (by omega)]
  rw [rd_skip128 _ _ _ _ _ _ _ _ (by omega)]
  rw [rd_hit128 _ _ _ _ _ _ r cq q' (by omega)]
  rw [Cert.KernelIdeal.PayIdx.k0_pay46_apply]
  refine congrArg₂ (· + ·) ?_ rfl
  unfold body_x0.sl.v1269
  rw [rdcov128 _ _ 0 _ r q' cq (by omega)]
  rw [rd_skip512 _ _ _ _ _ _ _ _ (by omega)]
  exact rd_hit512 _ _ _ _ _ _ r cq q (by omega)

theorem body_x0_y1 (r : Fin 512) (q' : Fin 128) (q : Fin 512) (hq : q.val = 128 + q'.val) :
    body_x0.sl.dma4 (F := Ideal) mI c f4 (ix2 r q) = (k0_pay43 (body_x0.sl.r mI c) (body_x0.sl.v278 mI c)) (ix2 r q) + (View.readAt (Elt Ideal) (Memref.whole cc0_scratch3 : Memref sig .tc .vmem S16x512x128 .bf16).view (Rect.unit (s := S16x512x128) ![1, 0, 0] S1x512x128.size inb_S16x512x128_S1x512x128_1_0_0).toLoadRect (YcV (chunk mI) c 1)) (ix3 (0 : Fin 1) r q') := by
  have hq' := q'.isLt
  obtain ⟨cq, hcq⟩ : ∃ cq : Fin 4096, cq.val = 0 + q.val := ⟨⟨0 + q.val, by omega⟩, rfl⟩
  unfold body_x0.sl.dma4
  rw [s1_blk_read 0 _ _ _ r q cq hcq]
  unfold body_x0.sl.H4_6
  rw [rd_skip128 _ _ _ _ _ _ _ _ (by omega)]
  rw [rd_skip128 _ _ _ _ _ _ _ _ (by omega)]
  rw [rd_hit128 _ _ _ _ _ _ r cq q' (by omega)]
  rw [Cert.KernelIdeal.PayIdx.k0_pay48_apply]
  refine congrArg₂ (· + ·) ?_ rfl
  unfold body_x0.sl.v1269_1
  rw [rdcov128 _ _ 128 _ r q' cq (by omega)]
  rw [rd_skip128 _ _ _ _ _ _ _ _ (by omega)]
  rw [rd_skip512 _ _ _ _ _ _ _ _ (by omega)]
  exact rd_hit512 _ _ _ _ _ _ r cq q (by omega)

theorem body_x0_y2 (r : Fin 512) (q' : Fin 128) (q : Fin 512) (hq : q.val = 256 + q'.val) :
    body_x0.sl.dma4 (F := Ideal) mI c f4 (ix2 r q) = (k0_pay43 (body_x0.sl.r mI c) (body_x0.sl.v278 mI c)) (ix2 r q) + (View.readAt (Elt Ideal) (Memref.whole cc0_scratch3 : Memref sig .tc .vmem S16x512x128 .bf16).view (Rect.unit (s := S16x512x128) ![2, 0, 0] S1x512x128.size inb_S16x512x128_S1x512x128_2_0_0).toLoadRect (YcV (chunk mI) c 2)) (ix3 (0 : Fin 1) r q') := by
  have hq' := q'.isLt
  obtain ⟨cq, hcq⟩ : ∃ cq : Fin 4096, cq.val = 0 + q.val := ⟨⟨0 + q.val, by omega⟩, rfl⟩
  unfold body_x0.sl.dma4
  rw [s1_blk_read 0 _ _ _ r q cq hcq]
  unfold body_x0.sl.H4_6
  rw [rd_skip128 _ _ _ _ _ _ _ _ (by omega)]
  rw [rd_hit128 _ _ _ _ _ _ r cq q' (by omega)]
  rw [Cert.KernelIdeal.PayIdx.k0_pay50_apply]
  refine congrArg₂ (· + ·) ?_ rfl
  unfold body_x0.sl.v1269_2
  rw [rdcov128 _ _ 256 _ r q' cq (by omega)]
  rw [rd_skip128 _ _ _ _ _ _ _ _ (by omega)]
  rw [rd_skip128 _ _ _ _ _ _ _ _ (by omega)]
  rw [rd_skip512 _ _ _ _ _ _ _ _ (by omega)]
  exact rd_hit512 _ _ _ _ _ _ r cq q (by omega)

theorem body_x0_y3 (r : Fin 512) (q' : Fin 128) (q : Fin 512) (hq : q.val = 384 + q'.val) :
    body_x0.sl.dma4 (F := Ideal) mI c f4 (ix2 r q) = (k0_pay43 (body_x0.sl.r mI c) (body_x0.sl.v278 mI c)) (ix2 r q) + (View.readAt (Elt Ideal) (Memref.whole cc0_scratch3 : Memref sig .tc .vmem S16x512x128 .bf16).view (Rect.unit (s := S16x512x128) ![3, 0, 0] S1x512x128.size inb_S16x512x128_S1x512x128_3_0_0).toLoadRect (YcV (chunk mI) c 3)) (ix3 (0 : Fin 1) r q') := by
  have hq' := q'.isLt
  obtain ⟨cq, hcq⟩ : ∃ cq : Fin 4096, cq.val = 0 + q.val := ⟨⟨0 + q.val, by omega⟩, rfl⟩
  unfold body_x0.sl.dma4
  rw [s1_blk_read 0 _ _ _ r q cq hcq]
  unfold body_x0.sl.H4_6
  rw [rd_hit128 _ _ _ _ _ _ r cq q' (by omega)]
  rw [Cert.KernelIdeal.PayIdx.k0_pay52_apply]
  refine congrArg₂ (· + ·) ?_ rfl
  unfold body_x0.sl.v1269_3
  rw [rdcov128 _ _ 384 _ r q' cq (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  exact rd_hit512 _ _ _ _ _ _ r cq q (by omega)

theorem body_x0_y4 (r : Fin 512) (q' : Fin 128) (q : Fin 512) (hq : q.val = 0 + q'.val) :
    body_x0.sl.dma4_1 (F := Ideal) mI c f4 (ix2 r q) = (k0_pay54 (body_x0.sl.r mI c) (body_x0.sl.v406 mI c)) (ix2 r q) + (View.readAt (Elt Ideal) (Memref.whole cc0_scratch3 : Memref sig .tc .vmem S16x512x128 .bf16).view (Rect.unit (s := S16x512x128) ![4, 0, 0] S1x512x128.size inb_S16x512x128_S1x512x128_4_0_0).toLoadRect (YcV (chunk mI) c 4)) (ix3 (0 : Fin 1) r q') := by
  have hq' := q'.isLt
  obtain ⟨cq, hcq⟩ : ∃ cq : Fin 4096, cq.val = 512 + q.val := ⟨⟨512 + q.val, by omega⟩, rfl⟩
  unfold body_x0.sl.dma4_1
  rw [s1_blk_read 512 _ _ _ r q cq hcq]
  unfold body_x0.sl.H4_12
  rw [rd_skip128 _ _ _ _ _ _ _ _ (by omega)]
  rw [rd_skip128 _ _ _ _ _ _ _ _ (by omega)]
  rw [rd_skip128 _ _ _ _ _ _ _ _ (by omega)]
  rw [rd_hit128 _ _ _ _ _ _ r cq q' (by omega)]
  rw [Cert.KernelIdeal.PayIdx.k0_pay56_apply]
  refine congrArg₂ (· + ·) ?_ rfl
  unfold body_x0.sl.v1269_4
  rw [rdcov128 _ _ 512 _ r q' cq (by omega)]
  rw [rd_skip512 _ _ _ _ _ _ _ _ (by omega)]
  exact rd_hit512 _ _ _ _ _ _ r cq q (by omega)

theorem body_x0_y5 (r : Fin 512) (q' : Fin 128) (q : Fin 512) (hq : q.val = 128 + q'.val) :
    body_x0.sl.dma4_1 (F := Ideal) mI c f4 (ix2 r q) = (k0_pay54 (body_x0.sl.r mI c) (body_x0.sl.v406 mI c)) (ix2 r q) + (View.readAt (Elt Ideal) (Memref.whole cc0_scratch3 : Memref sig .tc .vmem S16x512x128 .bf16).view (Rect.unit (s := S16x512x128) ![5, 0, 0] S1x512x128.size inb_S16x512x128_S1x512x128_5_0_0).toLoadRect (YcV (chunk mI) c 5)) (ix3 (0 : Fin 1) r q') := by
  have hq' := q'.isLt
  obtain ⟨cq, hcq⟩ : ∃ cq : Fin 4096, cq.val = 512 + q.val := ⟨⟨512 + q.val, by omega⟩, rfl⟩
  unfold body_x0.sl.dma4_1
  rw [s1_blk_read 512 _ _ _ r q cq hcq]
  unfold body_x0.sl.H4_12
  rw [rd_skip128 _ _ _ _ _ _ _ _ (by omega)]
  rw [rd_skip128 _ _ _ _ _ _ _ _ (by omega)]
  rw [rd_hit128 _ _ _ _ _ _ r cq q' (by omega)]
  rw [Cert.KernelIdeal.PayIdx.k0_pay58_apply]
  refine congrArg₂ (· + ·) ?_ rfl
  unfold body_x0.sl.v1269_5
  rw [rdcov128 _ _ 640 _ r q' cq (by omega)]
  rw [rd_skip128 _ _ _ _ _ _ _ _ (by omega)]
  rw [rd_skip512 _ _ _ _ _ _ _ _ (by omega)]
  exact rd_hit512 _ _ _ _ _ _ r cq q (by omega)

theorem body_x0_y6 (r : Fin 512) (q' : Fin 128) (q : Fin 512) (hq : q.val = 256 + q'.val) :
    body_x0.sl.dma4_1 (F := Ideal) mI c f4 (ix2 r q) = (k0_pay54 (body_x0.sl.r mI c) (body_x0.sl.v406 mI c)) (ix2 r q) + (View.readAt (Elt Ideal) (Memref.whole cc0_scratch3 : Memref sig .tc .vmem S16x512x128 .bf16).view (Rect.unit (s := S16x512x128) ![6, 0, 0] S1x512x128.size inb_S16x512x128_S1x512x128_6_0_0).toLoadRect (YcV (chunk mI) c 6)) (ix3 (0 : Fin 1) r q') := by
  have hq' := q'.isLt
  obtain ⟨cq, hcq⟩ : ∃ cq : Fin 4096, cq.val = 512 + q.val := ⟨⟨512 + q.val, by omega⟩, rfl⟩
  unfold body_x0.sl.dma4_1
  rw [s1_blk_read 512 _ _ _ r q cq hcq]
  unfold body_x0.sl.H4_12
  rw [rd_skip128 _ _ _ _ _ _ _ _ (by omega)]
  rw [rd_hit128 _ _ _ _ _ _ r cq q' (by omega)]
  rw [Cert.KernelIdeal.PayIdx.k0_pay60_apply]
  refine congrArg₂ (· + ·) ?_ rfl
  unfold body_x0.sl.v1269_6
  rw [rdcov128 _ _ 768 _ r q' cq (by omega)]
  rw [rd_skip128 _ _ _ _ _ _ _ _ (by omega)]
  rw [rd_skip128 _ _ _ _ _ _ _ _ (by omega)]
  rw [rd_skip512 _ _ _ _ _ _ _ _ (by omega)]
  exact rd_hit512 _ _ _ _ _ _ r cq q (by omega)

theorem body_x0_y7 (r : Fin 512) (q' : Fin 128) (q : Fin 512) (hq : q.val = 384 + q'.val) :
    body_x0.sl.dma4_1 (F := Ideal) mI c f4 (ix2 r q) = (k0_pay54 (body_x0.sl.r mI c) (body_x0.sl.v406 mI c)) (ix2 r q) + (View.readAt (Elt Ideal) (Memref.whole cc0_scratch3 : Memref sig .tc .vmem S16x512x128 .bf16).view (Rect.unit (s := S16x512x128) ![7, 0, 0] S1x512x128.size inb_S16x512x128_S1x512x128_7_0_0).toLoadRect (YcV (chunk mI) c 7)) (ix3 (0 : Fin 1) r q') := by
  have hq' := q'.isLt
  obtain ⟨cq, hcq⟩ : ∃ cq : Fin 4096, cq.val = 512 + q.val := ⟨⟨512 + q.val, by omega⟩, rfl⟩
  unfold body_x0.sl.dma4_1
  rw [s1_blk_read 512 _ _ _ r q cq hcq]
  unfold body_x0.sl.H4_12
  rw [rd_hit128 _ _ _ _ _ _ r cq q' (by omega)]
  rw [Cert.KernelIdeal.PayIdx.k0_pay62_apply]
  refine congrArg₂ (· + ·) ?_ rfl
  unfold body_x0.sl.v1269_7
  rw [rdcov128 _ _ 896 _ r q' cq (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  exact rd_hit512 _ _ _ _ _ _ r cq q (by omega)

theorem body_x0_y8 (r : Fin 512) (q' : Fin 128) (q : Fin 512) (hq : q.val = 0 + q'.val) :
    body_x0.sl.dma4_2 (F := Ideal) mI c f4 (ix2 r q) = (k0_pay64 (body_x0.sl.r mI c) (body_x0.sl.v534 mI c)) (ix2 r q) + (View.readAt (Elt Ideal) (Memref.whole cc0_scratch3 : Memref sig .tc .vmem S16x512x128 .bf16).view (Rect.unit (s := S16x512x128) ![8, 0, 0] S1x512x128.size inb_S16x512x128_S1x512x128_8_0_0).toLoadRect (YcV (chunk mI) c 8)) (ix3 (0 : Fin 1) r q') := by
  have hq' := q'.isLt
  obtain ⟨cq, hcq⟩ : ∃ cq : Fin 4096, cq.val = 1024 + q.val := ⟨⟨1024 + q.val, by omega⟩, rfl⟩
  unfold body_x0.sl.dma4_2
  rw [s1_blk_read 1024 _ _ _ r q cq hcq]
  unfold body_x0.sl.H4_18
  rw [rd_skip128 _ _ _ _ _ _ _ _ (by omega)]
  rw [rd_skip128 _ _ _ _ _ _ _ _ (by omega)]
  rw [rd_skip128 _ _ _ _ _ _ _ _ (by omega)]
  rw [rd_hit128 _ _ _ _ _ _ r cq q' (by omega)]
  rw [Cert.KernelIdeal.PayIdx.k0_pay66_apply]
  refine congrArg₂ (· + ·) ?_ rfl
  unfold body_x0.sl.v1269_8
  rw [rdcov128 _ _ 1024 _ r q' cq (by omega)]
  rw [rd_skip512 _ _ _ _ _ _ _ _ (by omega)]
  exact rd_hit512 _ _ _ _ _ _ r cq q (by omega)

theorem body_x0_y9 (r : Fin 512) (q' : Fin 128) (q : Fin 512) (hq : q.val = 128 + q'.val) :
    body_x0.sl.dma4_2 (F := Ideal) mI c f4 (ix2 r q) = (k0_pay64 (body_x0.sl.r mI c) (body_x0.sl.v534 mI c)) (ix2 r q) + (View.readAt (Elt Ideal) (Memref.whole cc0_scratch3 : Memref sig .tc .vmem S16x512x128 .bf16).view (Rect.unit (s := S16x512x128) ![9, 0, 0] S1x512x128.size inb_S16x512x128_S1x512x128_9_0_0).toLoadRect (YcV (chunk mI) c 9)) (ix3 (0 : Fin 1) r q') := by
  have hq' := q'.isLt
  obtain ⟨cq, hcq⟩ : ∃ cq : Fin 4096, cq.val = 1024 + q.val := ⟨⟨1024 + q.val, by omega⟩, rfl⟩
  unfold body_x0.sl.dma4_2
  rw [s1_blk_read 1024 _ _ _ r q cq hcq]
  unfold body_x0.sl.H4_18
  rw [rd_skip128 _ _ _ _ _ _ _ _ (by omega)]
  rw [rd_skip128 _ _ _ _ _ _ _ _ (by omega)]
  rw [rd_hit128 _ _ _ _ _ _ r cq q' (by omega)]
  rw [Cert.KernelIdeal.PayIdx.k0_pay68_apply]
  refine congrArg₂ (· + ·) ?_ rfl
  unfold body_x0.sl.v1269_9
  rw [rdcov128 _ _ 1152 _ r q' cq (by omega)]
  rw [rd_skip128 _ _ _ _ _ _ _ _ (by omega)]
  rw [rd_skip512 _ _ _ _ _ _ _ _ (by omega)]
  exact rd_hit512 _ _ _ _ _ _ r cq q (by omega)

theorem body_x0_y10 (r : Fin 512) (q' : Fin 128) (q : Fin 512) (hq : q.val = 256 + q'.val) :
    body_x0.sl.dma4_2 (F := Ideal) mI c f4 (ix2 r q) = (k0_pay64 (body_x0.sl.r mI c) (body_x0.sl.v534 mI c)) (ix2 r q) + (View.readAt (Elt Ideal) (Memref.whole cc0_scratch3 : Memref sig .tc .vmem S16x512x128 .bf16).view (Rect.unit (s := S16x512x128) ![10, 0, 0] S1x512x128.size inb_S16x512x128_S1x512x128_10_0_0).toLoadRect (YcV (chunk mI) c 10)) (ix3 (0 : Fin 1) r q') := by
  have hq' := q'.isLt
  obtain ⟨cq, hcq⟩ : ∃ cq : Fin 4096, cq.val = 1024 + q.val := ⟨⟨1024 + q.val, by omega⟩, rfl⟩
  unfold body_x0.sl.dma4_2
  rw [s1_blk_read 1024 _ _ _ r q cq hcq]
  unfold body_x0.sl.H4_18
  rw [rd_skip128 _ _ _ _ _ _ _ _ (by omega)]
  rw [rd_hit128 _ _ _ _ _ _ r cq q' (by omega)]
  rw [Cert.KernelIdeal.PayIdx.k0_pay70_apply]
  refine congrArg₂ (· + ·) ?_ rfl
  unfold body_x0.sl.v1269_10
  rw [rdcov128 _ _ 1280 _ r q' cq (by omega)]
  rw [rd_skip128 _ _ _ _ _ _ _ _ (by omega)]
  rw [rd_skip128 _ _ _ _ _ _ _ _ (by omega)]
  rw [rd_skip512 _ _ _ _ _ _ _ _ (by omega)]
  exact rd_hit512 _ _ _ _ _ _ r cq q (by omega)

theorem body_x0_y11 (r : Fin 512) (q' : Fin 128) (q : Fin 512) (hq : q.val = 384 + q'.val) :
    body_x0.sl.dma4_2 (F := Ideal) mI c f4 (ix2 r q) = (k0_pay64 (body_x0.sl.r mI c) (body_x0.sl.v534 mI c)) (ix2 r q) + (View.readAt (Elt Ideal) (Memref.whole cc0_scratch3 : Memref sig .tc .vmem S16x512x128 .bf16).view (Rect.unit (s := S16x512x128) ![11, 0, 0] S1x512x128.size inb_S16x512x128_S1x512x128_11_0_0).toLoadRect (YcV (chunk mI) c 11)) (ix3 (0 : Fin 1) r q') := by
  have hq' := q'.isLt
  obtain ⟨cq, hcq⟩ : ∃ cq : Fin 4096, cq.val = 1024 + q.val := ⟨⟨1024 + q.val, by omega⟩, rfl⟩
  unfold body_x0.sl.dma4_2
  rw [s1_blk_read 1024 _ _ _ r q cq hcq]
  unfold body_x0.sl.H4_18
  rw [rd_hit128 _ _ _ _ _ _ r cq q' (by omega)]
  rw [Cert.KernelIdeal.PayIdx.k0_pay72_apply]
  refine congrArg₂ (· + ·) ?_ rfl
  unfold body_x0.sl.v1269_11
  rw [rdcov128 _ _ 1408 _ r q' cq (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  exact rd_hit512 _ _ _ _ _ _ r cq q (by omega)

theorem body_x0_y12 (r : Fin 512) (q' : Fin 128) (q : Fin 512) (hq : q.val = 0 + q'.val) :
    body_x0.sl.dma4_3 (F := Ideal) mI c f4 (ix2 r q) = (k0_pay74 (body_x0.sl.r mI c) (body_x0.sl.v662 mI c)) (ix2 r q) + (View.readAt (Elt Ideal) (Memref.whole cc0_scratch3 : Memref sig .tc .vmem S16x512x128 .bf16).view (Rect.unit (s := S16x512x128) ![12, 0, 0] S1x512x128.size inb_S16x512x128_S1x512x128_12_0_0).toLoadRect (YcV (chunk mI) c 12)) (ix3 (0 : Fin 1) r q') := by
  have hq' := q'.isLt
  obtain ⟨cq, hcq⟩ : ∃ cq : Fin 4096, cq.val = 1536 + q.val := ⟨⟨1536 + q.val, by omega⟩, rfl⟩
  unfold body_x0.sl.dma4_3
  rw [s1_blk_read 1536 _ _ _ r q cq hcq]
  unfold body_x0.sl.H4_24
  rw [rd_skip128 _ _ _ _ _ _ _ _ (by omega)]
  rw [rd_skip128 _ _ _ _ _ _ _ _ (by omega)]
  rw [rd_skip128 _ _ _ _ _ _ _ _ (by omega)]
  rw [rd_hit128 _ _ _ _ _ _ r cq q' (by omega)]
  rw [Cert.KernelIdeal.PayIdx.k0_pay76_apply]
  refine congrArg₂ (· + ·) ?_ rfl
  unfold body_x0.sl.v1269_12
  rw [rdcov128 _ _ 1536 _ r q' cq (by omega)]
  rw [rd_skip512 _ _ _ _ _ _ _ _ (by omega)]
  exact rd_hit512 _ _ _ _ _ _ r cq q (by omega)

theorem body_x0_y13 (r : Fin 512) (q' : Fin 128) (q : Fin 512) (hq : q.val = 128 + q'.val) :
    body_x0.sl.dma4_3 (F := Ideal) mI c f4 (ix2 r q) = (k0_pay74 (body_x0.sl.r mI c) (body_x0.sl.v662 mI c)) (ix2 r q) + (View.readAt (Elt Ideal) (Memref.whole cc0_scratch3 : Memref sig .tc .vmem S16x512x128 .bf16).view (Rect.unit (s := S16x512x128) ![13, 0, 0] S1x512x128.size inb_S16x512x128_S1x512x128_13_0_0).toLoadRect (YcV (chunk mI) c 13)) (ix3 (0 : Fin 1) r q') := by
  have hq' := q'.isLt
  obtain ⟨cq, hcq⟩ : ∃ cq : Fin 4096, cq.val = 1536 + q.val := ⟨⟨1536 + q.val, by omega⟩, rfl⟩
  unfold body_x0.sl.dma4_3
  rw [s1_blk_read 1536 _ _ _ r q cq hcq]
  unfold body_x0.sl.H4_24
  rw [rd_skip128 _ _ _ _ _ _ _ _ (by omega)]
  rw [rd_skip128 _ _ _ _ _ _ _ _ (by omega)]
  rw [rd_hit128 _ _ _ _ _ _ r cq q' (by omega)]
  rw [Cert.KernelIdeal.PayIdx.k0_pay78_apply]
  refine congrArg₂ (· + ·) ?_ rfl
  unfold body_x0.sl.v1269_13
  rw [rdcov128 _ _ 1664 _ r q' cq (by omega)]
  rw [rd_skip128 _ _ _ _ _ _ _ _ (by omega)]
  rw [rd_skip512 _ _ _ _ _ _ _ _ (by omega)]
  exact rd_hit512 _ _ _ _ _ _ r cq q (by omega)

theorem body_x0_y14 (r : Fin 512) (q' : Fin 128) (q : Fin 512) (hq : q.val = 256 + q'.val) :
    body_x0.sl.dma4_3 (F := Ideal) mI c f4 (ix2 r q) = (k0_pay74 (body_x0.sl.r mI c) (body_x0.sl.v662 mI c)) (ix2 r q) + (View.readAt (Elt Ideal) (Memref.whole cc0_scratch3 : Memref sig .tc .vmem S16x512x128 .bf16).view (Rect.unit (s := S16x512x128) ![14, 0, 0] S1x512x128.size inb_S16x512x128_S1x512x128_14_0_0).toLoadRect (YcV (chunk mI) c 14)) (ix3 (0 : Fin 1) r q') := by
  have hq' := q'.isLt
  obtain ⟨cq, hcq⟩ : ∃ cq : Fin 4096, cq.val = 1536 + q.val := ⟨⟨1536 + q.val, by omega⟩, rfl⟩
  unfold body_x0.sl.dma4_3
  rw [s1_blk_read 1536 _ _ _ r q cq hcq]
  unfold body_x0.sl.H4_24
  rw [rd_skip128 _ _ _ _ _ _ _ _ (by omega)]
  rw [rd_hit128 _ _ _ _ _ _ r cq q' (by omega)]
  rw [Cert.KernelIdeal.PayIdx.k0_pay80_apply]
  refine congrArg₂ (· + ·) ?_ rfl
  unfold body_x0.sl.v1269_14
  rw [rdcov128 _ _ 1792 _ r q' cq (by omega)]
  rw [rd_skip128 _ _ _ _ _ _ _ _ (by omega)]
  rw [rd_skip128 _ _ _ _ _ _ _ _ (by omega)]
  rw [rd_skip512 _ _ _ _ _ _ _ _ (by omega)]
  exact rd_hit512 _ _ _ _ _ _ r cq q (by omega)

theorem body_x0_y15 (r : Fin 512) (q' : Fin 128) (q : Fin 512) (hq : q.val = 384 + q'.val) :
    body_x0.sl.dma4_3 (F := Ideal) mI c f4 (ix2 r q) = (k0_pay74 (body_x0.sl.r mI c) (body_x0.sl.v662 mI c)) (ix2 r q) + (View.readAt (Elt Ideal) (Memref.whole cc0_scratch3 : Memref sig .tc .vmem S16x512x128 .bf16).view (Rect.unit (s := S16x512x128) ![15, 0, 0] S1x512x128.size inb_S16x512x128_S1x512x128_15_0_0).toLoadRect (YcV (chunk mI) c 15)) (ix3 (0 : Fin 1) r q') := by
  have hq' := q'.isLt
  obtain ⟨cq, hcq⟩ : ∃ cq : Fin 4096, cq.val = 1536 + q.val := ⟨⟨1536 + q.val, by omega⟩, rfl⟩
  unfold body_x0.sl.dma4_3
  rw [s1_blk_read 1536 _ _ _ r q cq hcq]
  unfold body_x0.sl.H4_24
  rw [rd_hit128 _ _ _ _ _ _ r cq q' (by omega)]
  rw [Cert.KernelIdeal.PayIdx.k0_pay82_apply]
  refine congrArg₂ (· + ·) ?_ rfl
  unfold body_x0.sl.v1269_15
  rw [rdcov128 _ _ 1920 _ r q' cq (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  exact rd_hit512 _ _ _ _ _ _ r cq q (by omega)

theorem body_x0_x0 (r : Fin 512) (q' : Fin 128) (q : Fin 512) (hq : q.val = 0 + q'.val) :
    body_x0.sl.dma20 (F := Ideal) mI c f4 (ix2 r q) = (k0_pay45 (body_x0.sl.r_2 mI c)) (ix2 r q) + (View.readAt (Elt Ideal) (Memref.whole cc0_scratch4 : Memref sig .tc .vmem S16x512x128 .bf16).view (Rect.unit (s := S16x512x128) ![0, 0, 0] S1x512x128.size inb_S16x512x128_S1x512x128_0_0_0).toLoadRect (XcV (chunk mI) c 0)) (ix3 (0 : Fin 1) r q') := by
  have hq' := q'.isLt
  obtain ⟨cq, hcq⟩ : ∃ cq : Fin 4096, cq.val = 2048 + q.val := ⟨⟨2048 + q.val, by omega⟩, rfl⟩
  unfold body_x0.sl.dma20
  rw [s1_blk_read 2048 _ _ _ r q cq hcq]
  unfold body_x0.sl.H4_28
  rw [rd_skip128 _ _ _ _ _ _ _ _ (by omega)]
  unfold body_x0.sl.H4_27
  rw [rd_skip128 _ _ _ _ _ _ _ _ (by omega)]
  unfold body_x0.sl.H4_26
  rw [rd_skip128 _ _ _ _ _ _ _ _ (by omega)]
  unfold body_x0.sl.H4_25
  rw [rd_hit128 _ _ _ _ _ _ r cq q' (by omega)]
  rw [Cert.KernelIdeal.PayIdx.k0_pay84_apply]
  refine congrArg₂ (· + ·) ?_ rfl
  unfold body_x0.sl.v1269_16
  rw [rdcov128 _ _ 2048 _ r q' cq (by omega)]
  unfold body_x0.sl.H4_24
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  rw [rd_skip512 _ _ _ _ _ _ _ _ (by omega)]
  unfold body_x0.sl.H4_18
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  rw [rd_skip512 _ _ _ _ _ _ _ _ (by omega)]
  unfold body_x0.sl.H4_12
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  rw [rd_skip512 _ _ _ _ _ _ _ _ (by omega)]
  unfold body_x0.sl.H4_6
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  exact rd_hit512 _ _ _ _ _ _ r cq q (by omega)

theorem body_x0_x1 (r : Fin 512) (q' : Fin 128) (q : Fin 512) (hq : q.val = 128 + q'.val) :
    body_x0.sl.dma20 (F := Ideal) mI c f4 (ix2 r q) = (k0_pay45 (body_x0.sl.r_2 mI c)) (ix2 r q) + (View.readAt (Elt Ideal) (Memref.whole cc0_scratch4 : Memref sig .tc .vmem S16x512x128 .bf16).view (Rect.unit (s := S16x512x128) ![1, 0, 0] S1x512x128.size inb_S16x512x128_S1x512x128_1_0_0).toLoadRect (XcV (chunk mI) c 1)) (ix3 (0 : Fin 1) r q') := by
  have hq' := q'.isLt
  obtain ⟨cq, hcq⟩ : ∃ cq : Fin 4096, cq.val = 2048 + q.val := ⟨⟨2048 + q.val, by omega⟩, rfl⟩
  unfold body_x0.sl.dma20
  rw [s1_blk_read 2048 _ _ _ r q cq hcq]
  unfold body_x0.sl.H4_28
  rw [rd_skip128 _ _ _ _ _ _ _ _ (by omega)]
  unfold body_x0.sl.H4_27
  rw [rd_skip128 _ _ _ _ _ _ _ _ (by omega)]
  unfold body_x0.sl.H4_26
  rw [rd_hit128 _ _ _ _ _ _ r cq q' (by omega)]
  rw [Cert.KernelIdeal.PayIdx.k0_pay86_apply]
  refine congrArg₂ (· + ·) ?_ rfl
  unfold body_x0.sl.v1269_17
  rw [rdcov128 _ _ 2176 _ r q' cq (by omega)]
  unfold body_x0.sl.H4_25
  rw [rd_skip128 _ _ _ _ _ _ _ _ (by omega)]
  unfold body_x0.sl.H4_24
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  rw [rd_skip512 _ _ _ _ _ _ _ _ (by omega)]
  unfold body_x0.sl.H4_18
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  rw [rd_skip512 _ _ _ _ _ _ _ _ (by omega)]
  unfold body_x0.sl.H4_12
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  rw [rd_skip512 _ _ _ _ _ _ _ _ (by omega)]
  unfold body_x0.sl.H4_6
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  exact rd_hit512 _ _ _ _ _ _ r cq q (by omega)

theorem body_x0_x2 (r : Fin 512) (q' : Fin 128) (q : Fin 512) (hq : q.val = 256 + q'.val) :
    body_x0.sl.dma20 (F := Ideal) mI c f4 (ix2 r q) = (k0_pay45 (body_x0.sl.r_2 mI c)) (ix2 r q) + (View.readAt (Elt Ideal) (Memref.whole cc0_scratch4 : Memref sig .tc .vmem S16x512x128 .bf16).view (Rect.unit (s := S16x512x128) ![2, 0, 0] S1x512x128.size inb_S16x512x128_S1x512x128_2_0_0).toLoadRect (XcV (chunk mI) c 2)) (ix3 (0 : Fin 1) r q') := by
  have hq' := q'.isLt
  obtain ⟨cq, hcq⟩ : ∃ cq : Fin 4096, cq.val = 2048 + q.val := ⟨⟨2048 + q.val, by omega⟩, rfl⟩
  unfold body_x0.sl.dma20
  rw [s1_blk_read 2048 _ _ _ r q cq hcq]
  unfold body_x0.sl.H4_28
  rw [rd_skip128 _ _ _ _ _ _ _ _ (by omega)]
  unfold body_x0.sl.H4_27
  rw [rd_hit128 _ _ _ _ _ _ r cq q' (by omega)]
  rw [Cert.KernelIdeal.PayIdx.k0_pay88_apply]
  refine congrArg₂ (· + ·) ?_ rfl
  unfold body_x0.sl.v1269_18
  rw [rdcov128 _ _ 2304 _ r q' cq (by omega)]
  unfold body_x0.sl.H4_26
  rw [rd_skip128 _ _ _ _ _ _ _ _ (by omega)]
  unfold body_x0.sl.H4_25
  rw [rd_skip128 _ _ _ _ _ _ _ _ (by omega)]
  unfold body_x0.sl.H4_24
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  rw [rd_skip512 _ _ _ _ _ _ _ _ (by omega)]
  unfold body_x0.sl.H4_18
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  rw [rd_skip512 _ _ _ _ _ _ _ _ (by omega)]
  unfold body_x0.sl.H4_12
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  rw [rd_skip512 _ _ _ _ _ _ _ _ (by omega)]
  unfold body_x0.sl.H4_6
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  exact rd_hit512 _ _ _ _ _ _ r cq q (by omega)

theorem body_x0_x3 (r : Fin 512) (q' : Fin 128) (q : Fin 512) (hq : q.val = 384 + q'.val) :
    body_x0.sl.dma20 (F := Ideal) mI c f4 (ix2 r q) = (k0_pay45 (body_x0.sl.r_2 mI c)) (ix2 r q) + (View.readAt (Elt Ideal) (Memref.whole cc0_scratch4 : Memref sig .tc .vmem S16x512x128 .bf16).view (Rect.unit (s := S16x512x128) ![3, 0, 0] S1x512x128.size inb_S16x512x128_S1x512x128_3_0_0).toLoadRect (XcV (chunk mI) c 3)) (ix3 (0 : Fin 1) r q') := by
  have hq' := q'.isLt
  obtain ⟨cq, hcq⟩ : ∃ cq : Fin 4096, cq.val = 2048 + q.val := ⟨⟨2048 + q.val, by omega⟩, rfl⟩
  unfold body_x0.sl.dma20
  rw [s1_blk_read 2048 _ _ _ r q cq hcq]
  unfold body_x0.sl.H4_28
  rw [rd_hit128 _ _ _ _ _ _ r cq q' (by omega)]
  rw [Cert.KernelIdeal.PayIdx.k0_pay90_apply]
  refine congrArg₂ (· + ·) ?_ rfl
  unfold body_x0.sl.v1269_19
  rw [rdcov128 _ _ 2432 _ r q' cq (by omega)]
  unfold body_x0.sl.H4_27
  rw [rd_skip128 _ _ _ _ _ _ _ _ (by omega)]
  unfold body_x0.sl.H4_26
  rw [rd_skip128 _ _ _ _ _ _ _ _ (by omega)]
  unfold body_x0.sl.H4_25
  rw [rd_skip128 _ _ _ _ _ _ _ _ (by omega)]
  unfold body_x0.sl.H4_24
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  rw [rd_skip512 _ _ _ _ _ _ _ _ (by omega)]
  unfold body_x0.sl.H4_18
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  rw [rd_skip512 _ _ _ _ _ _ _ _ (by omega)]
  unfold body_x0.sl.H4_12
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  rw [rd_skip512 _ _ _ _ _ _ _ _ (by omega)]
  unfold body_x0.sl.H4_6
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  exact rd_hit512 _ _ _ _ _ _ r cq q (by omega)

theorem body_x0_x4 (r : Fin 512) (q' : Fin 128) (q : Fin 512) (hq : q.val = 0 + q'.val) :
    body_x0.sl.dma36 (F := Ideal) mI c f4 (ix2 r q) = (k0_pay55 (body_x0.sl.r mI c) (body_x0.sl.v411 mI c)) (ix2 r q) + (View.readAt (Elt Ideal) (Memref.whole cc0_scratch4 : Memref sig .tc .vmem S16x512x128 .bf16).view (Rect.unit (s := S16x512x128) ![4, 0, 0] S1x512x128.size inb_S16x512x128_S1x512x128_4_0_0).toLoadRect (XcV (chunk mI) c 4)) (ix3 (0 : Fin 1) r q') := by
  have hq' := q'.isLt
  obtain ⟨cq, hcq⟩ : ∃ cq : Fin 4096, cq.val = 2560 + q.val := ⟨⟨2560 + q.val, by omega⟩, rfl⟩
  unfold body_x0.sl.dma36
  rw [s1_blk_read 2560 _ _ _ r q cq hcq]
  unfold body_x0.sl.H4_32
  rw [rd_skip128 _ _ _ _ _ _ _ _ (by omega)]
  unfold body_x0.sl.H4_31
  rw [rd_skip128 _ _ _ _ _ _ _ _ (by omega)]
  unfold body_x0.sl.H4_30
  rw [rd_skip128 _ _ _ _ _ _ _ _ (by omega)]
  unfold body_x0.sl.H4_29
  rw [rd_hit128 _ _ _ _ _ _ r cq q' (by omega)]
  rw [Cert.KernelIdeal.PayIdx.k0_pay92_apply]
  refine congrArg₂ (· + ·) ?_ rfl
  unfold body_x0.sl.v1269_20
  rw [rdcov128 _ _ 2560 _ r q' cq (by omega)]
  unfold body_x0.sl.H4_28
  rw [rd_skip128 _ _ _ _ _ _ _ _ (by omega)]
  unfold body_x0.sl.H4_27
  rw [rd_skip128 _ _ _ _ _ _ _ _ (by omega)]
  unfold body_x0.sl.H4_26
  rw [rd_skip128 _ _ _ _ _ _ _ _ (by omega)]
  unfold body_x0.sl.H4_25
  rw [rd_skip128 _ _ _ _ _ _ _ _ (by omega)]
  unfold body_x0.sl.H4_24
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  rw [rd_skip512 _ _ _ _ _ _ _ _ (by omega)]
  unfold body_x0.sl.H4_18
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  rw [rd_skip512 _ _ _ _ _ _ _ _ (by omega)]
  unfold body_x0.sl.H4_12
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  exact rd_hit512 _ _ _ _ _ _ r cq q (by omega)

theorem body_x0_x5 (r : Fin 512) (q' : Fin 128) (q : Fin 512) (hq : q.val = 128 + q'.val) :
    body_x0.sl.dma36 (F := Ideal) mI c f4 (ix2 r q) = (k0_pay55 (body_x0.sl.r mI c) (body_x0.sl.v411 mI c)) (ix2 r q) + (View.readAt (Elt Ideal) (Memref.whole cc0_scratch4 : Memref sig .tc .vmem S16x512x128 .bf16).view (Rect.unit (s := S16x512x128) ![5, 0, 0] S1x512x128.size inb_S16x512x128_S1x512x128_5_0_0).toLoadRect (XcV (chunk mI) c 5)) (ix3 (0 : Fin 1) r q') := by
  have hq' := q'.isLt
  obtain ⟨cq, hcq⟩ : ∃ cq : Fin 4096, cq.val = 2560 + q.val := ⟨⟨2560 + q.val, by omega⟩, rfl⟩
  unfold body_x0.sl.dma36
  rw [s1_blk_read 2560 _ _ _ r q cq hcq]
  unfold body_x0.sl.H4_32
  rw [rd_skip128 _ _ _ _ _ _ _ _ (by omega)]
  unfold body_x0.sl.H4_31
  rw [rd_skip128 _ _ _ _ _ _ _ _ (by omega)]
  unfold body_x0.sl.H4_30
  rw [rd_hit128 _ _ _ _ _ _ r cq q' (by omega)]
  rw [Cert.KernelIdeal.PayIdx.k0_pay94_apply]
  refine congrArg₂ (· + ·) ?_ rfl
  unfold body_x0.sl.v1269_21
  rw [rdcov128 _ _ 2688 _ r q' cq (by omega)]
  unfold body_x0.sl.H4_29
  rw [rd_skip128 _ _ _ _ _ _ _ _ (by omega)]
  unfold body_x0.sl.H4_28
  rw [rd_skip128 _ _ _ _ _ _ _ _ (by omega)]
  unfold body_x0.sl.H4_27
  rw [rd_skip128 _ _ _ _ _ _ _ _ (by omega)]
  unfold body_x0.sl.H4_26
  rw [rd_skip128 _ _ _ _ _ _ _ _ (by omega)]
  unfold body_x0.sl.H4_25
  rw [rd_skip128 _ _ _ _ _ _ _ _ (by omega)]
  unfold body_x0.sl.H4_24
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  rw [rd_skip512 _ _ _ _ _ _ _ _ (by omega)]
  unfold body_x0.sl.H4_18
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  rw [rd_skip512 _ _ _ _ _ _ _ _ (by omega)]
  unfold body_x0.sl.H4_12
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  exact rd_hit512 _ _ _ _ _ _ r cq q (by omega)

theorem body_x0_x6 (r : Fin 512) (q' : Fin 128) (q : Fin 512) (hq : q.val = 256 + q'.val) :
    body_x0.sl.dma36 (F := Ideal) mI c f4 (ix2 r q) = (k0_pay55 (body_x0.sl.r mI c) (body_x0.sl.v411 mI c)) (ix2 r q) + (View.readAt (Elt Ideal) (Memref.whole cc0_scratch4 : Memref sig .tc .vmem S16x512x128 .bf16).view (Rect.unit (s := S16x512x128) ![6, 0, 0] S1x512x128.size inb_S16x512x128_S1x512x128_6_0_0).toLoadRect (XcV (chunk mI) c 6)) (ix3 (0 : Fin 1) r q') := by
  have hq' := q'.isLt
  obtain ⟨cq, hcq⟩ : ∃ cq : Fin 4096, cq.val = 2560 + q.val := ⟨⟨2560 + q.val, by omega⟩, rfl⟩
  unfold body_x0.sl.dma36
  rw [s1_blk_read 2560 _ _ _ r q cq hcq]
  unfold body_x0.sl.H4_32
  rw [rd_skip128 _ _ _ _ _ _ _ _ (by omega)]
  unfold body_x0.sl.H4_31
  rw [rd_hit128 _ _ _ _ _ _ r cq q' (by omega)]
  rw [Cert.KernelIdeal.PayIdx.k0_pay96_apply]
  refine congrArg₂ (· + ·) ?_ rfl
  unfold body_x0.sl.v1269_22
  rw [rdcov128 _ _ 2816 _ r q' cq (by omega)]
  unfold body_x0.sl.H4_30
  rw [rd_skip128 _ _ _ _ _ _ _ _ (by omega)]
  unfold body_x0.sl.H4_29
  rw [rd_skip128 _ _ _ _ _ _ _ _ (by omega)]
  unfold body_x0.sl.H4_28
  rw [rd_skip128 _ _ _ _ _ _ _ _ (by omega)]
  unfold body_x0.sl.H4_27
  rw [rd_skip128 _ _ _ _ _ _ _ _ (by omega)]
  unfold body_x0.sl.H4_26
  rw [rd_skip128 _ _ _ _ _ _ _ _ (by omega)]
  unfold body_x0.sl.H4_25
  rw [rd_skip128 _ _ _ _ _ _ _ _ (by omega)]
  unfold body_x0.sl.H4_24
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  rw [rd_skip512 _ _ _ _ _ _ _ _ (by omega)]
  unfold body_x0.sl.H4_18
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  rw [rd_skip512 _ _ _ _ _ _ _ _ (by omega)]
  unfold body_x0.sl.H4_12
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  exact rd_hit512 _ _ _ _ _ _ r cq q (by omega)

theorem body_x0_x7 (r : Fin 512) (q' : Fin 128) (q : Fin 512) (hq : q.val = 384 + q'.val) :
    body_x0.sl.dma36 (F := Ideal) mI c f4 (ix2 r q) = (k0_pay55 (body_x0.sl.r mI c) (body_x0.sl.v411 mI c)) (ix2 r q) + (View.readAt (Elt Ideal) (Memref.whole cc0_scratch4 : Memref sig .tc .vmem S16x512x128 .bf16).view (Rect.unit (s := S16x512x128) ![7, 0, 0] S1x512x128.size inb_S16x512x128_S1x512x128_7_0_0).toLoadRect (XcV (chunk mI) c 7)) (ix3 (0 : Fin 1) r q') := by
  have hq' := q'.isLt
  obtain ⟨cq, hcq⟩ : ∃ cq : Fin 4096, cq.val = 2560 + q.val := ⟨⟨2560 + q.val, by omega⟩, rfl⟩
  unfold body_x0.sl.dma36
  rw [s1_blk_read 2560 _ _ _ r q cq hcq]
  unfold body_x0.sl.H4_32
  rw [rd_hit128 _ _ _ _ _ _ r cq q' (by omega)]
  rw [Cert.KernelIdeal.PayIdx.k0_pay98_apply]
  refine congrArg₂ (· + ·) ?_ rfl
  unfold body_x0.sl.v1269_23
  rw [rdcov128 _ _ 2944 _ r q' cq (by omega)]
  unfold body_x0.sl.H4_31
  rw [rd_skip128 _ _ _ _ _ _ _ _ (by omega)]
  unfold body_x0.sl.H4_30
  rw [rd_skip128 _ _ _ _ _ _ _ _ (by omega)]
  unfold body_x0.sl.H4_29
  rw [rd_skip128 _ _ _ _ _ _ _ _ (by omega)]
  unfold body_x0.sl.H4_28
  rw [rd_skip128 _ _ _ _ _ _ _ _ (by omega)]
  unfold body_x0.sl.H4_27
  rw [rd_skip128 _ _ _ _ _ _ _ _ (by omega)]
  unfold body_x0.sl.H4_26
  rw [rd_skip128 _ _ _ _ _ _ _ _ (by omega)]
  unfold body_x0.sl.H4_25
  rw [rd_skip128 _ _ _ _ _ _ _ _ (by omega)]
  unfold body_x0.sl.H4_24
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  rw [rd_skip512 _ _ _ _ _ _ _ _ (by omega)]
  unfold body_x0.sl.H4_18
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  rw [rd_skip512 _ _ _ _ _ _ _ _ (by omega)]
  unfold body_x0.sl.H4_12
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  exact rd_hit512 _ _ _ _ _ _ r cq q (by omega)

theorem body_x0_x8 (r : Fin 512) (q' : Fin 128) (q : Fin 512) (hq : q.val = 0 + q'.val) :
    body_x0.sl.dma52 (F := Ideal) mI c f4 (ix2 r q) = (body_x0.sl.r_3 mI c) (ix2 r q) + (View.readAt (Elt Ideal) (Memref.whole cc0_scratch4 : Memref sig .tc .vmem S16x512x128 .bf16).view (Rect.unit (s := S16x512x128) ![8, 0, 0] S1x512x128.size inb_S16x512x128_S1x512x128_8_0_0).toLoadRect (XcV (chunk mI) c 8)) (ix3 (0 : Fin 1) r q') := by
  have hq' := q'.isLt
  obtain ⟨cq, hcq⟩ : ∃ cq : Fin 4096, cq.val = 3072 + q.val := ⟨⟨3072 + q.val, by omega⟩, rfl⟩
  unfold body_x0.sl.dma52
  rw [s1_blk_read 3072 _ _ _ r q cq hcq]
  unfold body_x0.sl.H4_36
  rw [rd_skip128 _ _ _ _ _ _ _ _ (by omega)]
  unfold body_x0.sl.H4_35
  rw [rd_skip128 _ _ _ _ _ _ _ _ (by omega)]
  unfold body_x0.sl.H4_34
  rw [rd_skip128 _ _ _ _ _ _ _ _ (by omega)]
  unfold body_x0.sl.H4_33
  rw [rd_hit128 _ _ _ _ _ _ r cq q' (by omega)]
  rw [Cert.KernelIdeal.PayIdx.k0_pay100_apply]
  refine congrArg₂ (· + ·) ?_ rfl
  unfold body_x0.sl.v1269_24
  rw [rdcov128 _ _ 3072 _ r q' cq (by omega)]
  unfold body_x0.sl.H4_32
  rw [rd_skip128 _ _ _ _ _ _ _ _ (by omega)]
  unfold body_x0.sl.H4_31
  rw [rd_skip128 _ _ _ _ _ _ _ _ (by omega)]
  unfold body_x0.sl.H4_30
  rw [rd_skip128 _ _ _ _ _ _ _ _ (by omega)]
  unfold body_x0.sl.H4_29
  rw [rd_skip128 _ _ _ _ _ _ _ _ (by omega)]
  unfold body_x0.sl.H4_28
  rw [rd_skip128 _ _ _ _ _ _ _ _ (by omega)]
  unfold body_x0.sl.H4_27
  rw [rd_skip128 _ _ _ _ _ _ _ _ (by omega)]
  unfold body_x0.sl.H4_26
  rw [rd_skip128 _ _ _ _ _ _ _ _ (by omega)]
  unfold body_x0.sl.H4_25
  rw [rd_skip128 _ _ _ _ _ _ _ _ (by omega)]
  unfold body_x0.sl.H4_24
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  rw [rd_skip512 _ _ _ _ _ _ _ _ (by omega)]
  unfold body_x0.sl.H4_18
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  exact rd_hit512 _ _ _ _ _ _ r cq q (by omega)

theorem body_x0_x9 (r : Fin 512) (q' : Fin 128) (q : Fin 512) (hq : q.val = 128 + q'.val) :
    body_x0.sl.dma52 (F := Ideal) mI c f4 (ix2 r q) = (body_x0.sl.r_3 mI c) (ix2 r q) + (View.readAt (Elt Ideal) (Memref.whole cc0_scratch4 : Memref sig .tc .vmem S16x512x128 .bf16).view (Rect.unit (s := S16x512x128) ![9, 0, 0] S1x512x128.size inb_S16x512x128_S1x512x128_9_0_0).toLoadRect (XcV (chunk mI) c 9)) (ix3 (0 : Fin 1) r q') := by
  have hq' := q'.isLt
  obtain ⟨cq, hcq⟩ : ∃ cq : Fin 4096, cq.val = 3072 + q.val := ⟨⟨3072 + q.val, by omega⟩, rfl⟩
  unfold body_x0.sl.dma52
  rw [s1_blk_read 3072 _ _ _ r q cq hcq]
  unfold body_x0.sl.H4_36
  rw [rd_skip128 _ _ _ _ _ _ _ _ (by omega)]
  unfold body_x0.sl.H4_35
  rw [rd_skip128 _ _ _ _ _ _ _ _ (by omega)]
  unfold body_x0.sl.H4_34
  rw [rd_hit128 _ _ _ _ _ _ r cq q' (by omega)]
  rw [Cert.KernelIdeal.PayIdx.k0_pay102_apply]
  refine congrArg₂ (· + ·) ?_ rfl
  unfold body_x0.sl.v1269_25
  rw [rdcov128 _ _ 3200 _ r q' cq (by omega)]
  unfold body_x0.sl.H4_33
  rw [rd_skip128 _ _ _ _ _ _ _ _ (by omega)]
  unfold body_x0.sl.H4_32
  rw [rd_skip128 _ _ _ _ _ _ _ _ (by omega)]
  unfold body_x0.sl.H4_31
  rw [rd_skip128 _ _ _ _ _ _ _ _ (by omega)]
  unfold body_x0.sl.H4_30
  rw [rd_skip128 _ _ _ _ _ _ _ _ (by omega)]
  unfold body_x0.sl.H4_29
  rw [rd_skip128 _ _ _ _ _ _ _ _ (by omega)]
  unfold body_x0.sl.H4_28
  rw [rd_skip128 _ _ _ _ _ _ _ _ (by omega)]
  unfold body_x0.sl.H4_27
  rw [rd_skip128 _ _ _ _ _ _ _ _ (by omega)]
  unfold body_x0.sl.H4_26
  rw [rd_skip128 _ _ _ _ _ _ _ _ (by omega)]
  unfold body_x0.sl.H4_25
  rw [rd_skip128 _ _ _ _ _ _ _ _ (by omega)]
  unfold body_x0.sl.H4_24
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  rw [rd_skip512 _ _ _ _ _ _ _ _ (by omega)]
  unfold body_x0.sl.H4_18
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  exact rd_hit512 _ _ _ _ _ _ r cq q (by omega)

theorem body_x0_x10 (r : Fin 512) (q' : Fin 128) (q : Fin 512) (hq : q.val = 256 + q'.val) :
    body_x0.sl.dma52 (F := Ideal) mI c f4 (ix2 r q) = (body_x0.sl.r_3 mI c) (ix2 r q) + (View.readAt (Elt Ideal) (Memref.whole cc0_scratch4 : Memref sig .tc .vmem S16x512x128 .bf16).view (Rect.unit (s := S16x512x128) ![10, 0, 0] S1x512x128.size inb_S16x512x128_S1x512x128_10_0_0).toLoadRect (XcV (chunk mI) c 10)) (ix3 (0 : Fin 1) r q') := by
  have hq' := q'.isLt
  obtain ⟨cq, hcq⟩ : ∃ cq : Fin 4096, cq.val = 3072 + q.val := ⟨⟨3072 + q.val, by omega⟩, rfl⟩
  unfold body_x0.sl.dma52
  rw [s1_blk_read 3072 _ _ _ r q cq hcq]
  unfold body_x0.sl.H4_36
  rw [rd_skip128 _ _ _ _ _ _ _ _ (by omega)]
  unfold body_x0.sl.H4_35
  rw [rd_hit128 _ _ _ _ _ _ r cq q' (by omega)]
  rw [Cert.KernelIdeal.PayIdx.k0_pay104_apply]
  refine congrArg₂ (· + ·) ?_ rfl
  unfold body_x0.sl.v1269_26
  rw [rdcov128 _ _ 3328 _ r q' cq (by omega)]
  unfold body_x0.sl.H4_34
  rw [rd_skip128 _ _ _ _ _ _ _ _ (by omega)]
  unfold body_x0.sl.H4_33
  rw [rd_skip128 _ _ _ _ _ _ _ _ (by omega)]
  unfold body_x0.sl.H4_32
  rw [rd_skip128 _ _ _ _ _ _ _ _ (by omega)]
  unfold body_x0.sl.H4_31
  rw [rd_skip128 _ _ _ _ _ _ _ _ (by omega)]
  unfold body_x0.sl.H4_30
  rw [rd_skip128 _ _ _ _ _ _ _ _ (by omega)]
  unfold body_x0.sl.H4_29
  rw [rd_skip128 _ _ _ _ _ _ _ _ (by omega)]
  unfold body_x0.sl.H4_28
  rw [rd_skip128 _ _ _ _ _ _ _ _ (by omega)]
  unfold body_x0.sl.H4_27
  rw [rd_skip128 _ _ _ _ _ _ _ _ (by omega)]
  unfold body_x0.sl.H4_26
  rw [rd_skip128 _ _ _ _ _ _ _ _ (by omega)]
  unfold body_x0.sl.H4_25
  rw [rd_skip128 _ _ _ _ _ _ _ _ (by omega)]
  unfold body_x0.sl.H4_24
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  rw [rd_skip512 _ _ _ _ _ _ _ _ (by omega)]
  unfold body_x0.sl.H4_18
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  exact rd_hit512 _ _ _ _ _ _ r cq q (by omega)

theorem body_x0_x11 (r : Fin 512) (q' : Fin 128) (q : Fin 512) (hq : q.val = 384 + q'.val) :
    body_x0.sl.dma52 (F := Ideal) mI c f4 (ix2 r q) = (body_x0.sl.r_3 mI c) (ix2 r q) + (View.readAt (Elt Ideal) (Memref.whole cc0_scratch4 : Memref sig .tc .vmem S16x512x128 .bf16).view (Rect.unit (s := S16x512x128) ![11, 0, 0] S1x512x128.size inb_S16x512x128_S1x512x128_11_0_0).toLoadRect (XcV (chunk mI) c 11)) (ix3 (0 : Fin 1) r q') := by
  have hq' := q'.isLt
  obtain ⟨cq, hcq⟩ : ∃ cq : Fin 4096, cq.val = 3072 + q.val := ⟨⟨3072 + q.val, by omega⟩, rfl⟩
  unfold body_x0.sl.dma52
  rw [s1_blk_read 3072 _ _ _ r q cq hcq]
  unfold body_x0.sl.H4_36
  rw [rd_hit128 _ _ _ _ _ _ r cq q' (by omega)]
  rw [Cert.KernelIdeal.PayIdx.k0_pay106_apply]
  refine congrArg₂ (· + ·) ?_ rfl
  unfold body_x0.sl.v1269_27
  rw [rdcov128 _ _ 3456 _ r q' cq (by omega)]
  unfold body_x0.sl.H4_35
  rw [rd_skip128 _ _ _ _ _ _ _ _ (by omega)]
  unfold body_x0.sl.H4_34
  rw [rd_skip128 _ _ _ _ _ _ _ _ (by omega)]
  unfold body_x0.sl.H4_33
  rw [rd_skip128 _ _ _ _ _ _ _ _ (by omega)]
  unfold body_x0.sl.H4_32
  rw [rd_skip128 _ _ _ _ _ _ _ _ (by omega)]
  unfold body_x0.sl.H4_31
  rw [rd_skip128 _ _ _ _ _ _ _ _ (by omega)]
  unfold body_x0.sl.H4_30
  rw [rd_skip128 _ _ _ _ _ _ _ _ (by omega)]
  unfold body_x0.sl.H4_29
  rw [rd_skip128 _ _ _ _ _ _ _ _ (by omega)]
  unfold body_x0.sl.H4_28
  rw [rd_skip128 _ _ _ _ _ _ _ _ (by omega)]
  unfold body_x0.sl.H4_27
  rw [rd_skip128 _ _ _ _ _ _ _ _ (by omega)]
  unfold body_x0.sl.H4_26
  rw [rd_skip128 _ _ _ _ _ _ _ _ (by omega)]
  unfold body_x0.sl.H4_25
  rw [rd_skip128 _ _ _ _ _ _ _ _ (by omega)]
  unfold body_x0.sl.H4_24
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  rw [rd_skip512 _ _ _ _ _ _ _ _ (by omega)]
  unfold body_x0.sl.H4_18
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  exact rd_hit512 _ _ _ _ _ _ r cq q (by omega)

theorem body_x0_x12 (r : Fin 512) (q' : Fin 128) (q : Fin 512) (hq : q.val = 0 + q'.val) :
    body_x0.sl.dma68 (F := Ideal) mI c f4 (ix2 r q) = (k0_pay75 (body_x0.sl.r mI c) (body_x0.sl.v667 mI c)) (ix2 r q) + (View.readAt (Elt Ideal) (Memref.whole cc0_scratch4 : Memref sig .tc .vmem S16x512x128 .bf16).view (Rect.unit (s := S16x512x128) ![12, 0, 0] S1x512x128.size inb_S16x512x128_S1x512x128_12_0_0).toLoadRect (XcV (chunk mI) c 12)) (ix3 (0 : Fin 1) r q') := by
  have hq' := q'.isLt
  obtain ⟨cq, hcq⟩ : ∃ cq : Fin 4096, cq.val = 3584 + q.val := ⟨⟨3584 + q.val, by omega⟩, rfl⟩
  unfold body_x0.sl.dma68
  rw [s1_blk_read 3584 _ _ _ r q cq hcq]
  unfold body_x0.sl.H4_40
  rw [rd_skip128 _ _ _ _ _ _ _ _ (by omega)]
  unfold body_x0.sl.H4_39
  rw [rd_skip128 _ _ _ _ _ _ _ _ (by omega)]
  unfold body_x0.sl.H4_38
  rw [rd_skip128 _ _ _ _ _ _ _ _ (by omega)]
  unfold body_x0.sl.H4_37
  rw [rd_hit128 _ _ _ _ _ _ r cq q' (by omega)]
  rw [Cert.KernelIdeal.PayIdx.k0_pay108_apply]
  refine congrArg₂ (· + ·) ?_ rfl
  unfold body_x0.sl.v1269_28
  rw [rdcov128 _ _ 3584 _ r q' cq (by omega)]
  unfold body_x0.sl.H4_36
  rw [rd_skip128 _ _ _ _ _ _ _ _ (by omega)]
  unfold body_x0.sl.H4_35
  rw [rd_skip128 _ _ _ _ _ _ _ _ (by omega)]
  unfold body_x0.sl.H4_34
  rw [rd_skip128 _ _ _ _ _ _ _ _ (by omega)]
  unfold body_x0.sl.H4_33
  rw [rd_skip128 _ _ _ _ _ _ _ _ (by omega)]
  unfold body_x0.sl.H4_32
  rw [rd_skip128 _ _ _ _ _ _ _ _ (by omega)]
  unfold body_x0.sl.H4_31
  rw [rd_skip128 _ _ _ _ _ _ _ _ (by omega)]
  unfold body_x0.sl.H4_30
  rw [rd_skip128 _ _ _ _ _ _ _ _ (by omega)]
  unfold body_x0.sl.H4_29
  rw [rd_skip128 _ _ _ _ _ _ _ _ (by omega)]
  unfold body_x0.sl.H4_28
  rw [rd_skip128 _ _ _ _ _ _ _ _ (by omega)]
  unfold body_x0.sl.H4_27
  rw [rd_skip128 _ _ _ _ _ _ _ _ (by omega)]
  unfold body_x0.sl.H4_26
  rw [rd_skip128 _ _ _ _ _ _ _ _ (by omega)]
  unfold body_x0.sl.H4_25
  rw [rd_skip128 _ _ _ _ _ _ _ _ (by omega)]
  unfold body_x0.sl.H4_24
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  exact rd_hit512 _ _ _ _ _ _ r cq q (by omega)

theorem body_x0_x13 (r : Fin 512) (q' : Fin 128) (q : Fin 512) (hq : q.val = 128 + q'.val) :
    body_x0.sl.dma68 (F := Ideal) mI c f4 (ix2 r q) = (k0_pay75 (body_x0.sl.r mI c) (body_x0.sl.v667 mI c)) (ix2 r q) + (View.readAt (Elt Ideal) (Memref.whole cc0_scratch4 : Memref sig .tc .vmem S16x512x128 .bf16).view (Rect.unit (s := S16x512x128) ![13, 0, 0] S1x512x128.size inb_S16x512x128_S1x512x128_13_0_0).toLoadRect (XcV (chunk mI) c 13)) (ix3 (0 : Fin 1) r q') := by
  have hq' := q'.isLt
  obtain ⟨cq, hcq⟩ : ∃ cq : Fin 4096, cq.val = 3584 + q.val := ⟨⟨3584 + q.val, by omega⟩, rfl⟩
  unfold body_x0.sl.dma68
  rw [s1_blk_read 3584 _ _ _ r q cq hcq]
  unfold body_x0.sl.H4_40
  rw [rd_skip128 _ _ _ _ _ _ _ _ (by omega)]
  unfold body_x0.sl.H4_39
  rw [rd_skip128 _ _ _ _ _ _ _ _ (by omega)]
  unfold body_x0.sl.H4_38
  rw [rd_hit128 _ _ _ _ _ _ r cq q' (by omega)]
  rw [Cert.KernelIdeal.PayIdx.k0_pay110_apply]
  refine congrArg₂ (· + ·) ?_ rfl
  unfold body_x0.sl.v1269_29
  rw [rdcov128 _ _ 3712 _ r q' cq (by omega)]
  unfold body_x0.sl.H4_37
  rw [rd_skip128 _ _ _ _ _ _ _ _ (by omega)]
  unfold body_x0.sl.H4_36
  rw [rd_skip128 _ _ _ _ _ _ _ _ (by omega)]
  unfold body_x0.sl.H4_35
  rw [rd_skip128 _ _ _ _ _ _ _ _ (by omega)]
  unfold body_x0.sl.H4_34
  rw [rd_skip128 _ _ _ _ _ _ _ _ (by omega)]
  unfold body_x0.sl.H4_33
  rw [rd_skip128 _ _ _ _ _ _ _ _ (by omega)]
  unfold body_x0.sl.H4_32
  rw [rd_skip128 _ _ _ _ _ _ _ _ (by omega)]
  unfold body_x0.sl.H4_31
  rw [rd_skip128 _ _ _ _ _ _ _ _ (by omega)]
  unfold body_x0.sl.H4_30
  rw [rd_skip128 _ _ _ _ _ _ _ _ (by omega)]
  unfold body_x0.sl.H4_29
  rw [rd_skip128 _ _ _ _ _ _ _ _ (by omega)]
  unfold body_x0.sl.H4_28
  rw [rd_skip128 _ _ _ _ _ _ _ _ (by omega)]
  unfold body_x0.sl.H4_27
  rw [rd_skip128 _ _ _ _ _ _ _ _ (by omega)]
  unfold body_x0.sl.H4_26
  rw [rd_skip128 _ _ _ _ _ _ _ _ (by omega)]
  unfold body_x0.sl.H4_25
  rw [rd_skip128 _ _ _ _ _ _ _ _ (by omega)]
  unfold body_x0.sl.H4_24
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  exact rd_hit512 _ _ _ _ _ _ r cq q (by omega)

theorem body_x0_x14 (r : Fin 512) (q' : Fin 128) (q : Fin 512) (hq : q.val = 256 + q'.val) :
    body_x0.sl.dma68 (F := Ideal) mI c f4 (ix2 r q) = (k0_pay75 (body_x0.sl.r mI c) (body_x0.sl.v667 mI c)) (ix2 r q) + (View.readAt (Elt Ideal) (Memref.whole cc0_scratch4 : Memref sig .tc .vmem S16x512x128 .bf16).view (Rect.unit (s := S16x512x128) ![14, 0, 0] S1x512x128.size inb_S16x512x128_S1x512x128_14_0_0).toLoadRect (XcV (chunk mI) c 14)) (ix3 (0 : Fin 1) r q') := by
  have hq' := q'.isLt
  obtain ⟨cq, hcq⟩ : ∃ cq : Fin 4096, cq.val = 3584 + q.val := ⟨⟨3584 + q.val, by omega⟩, rfl⟩
  unfold body_x0.sl.dma68
  rw [s1_blk_read 3584 _ _ _ r q cq hcq]
  unfold body_x0.sl.H4_40
  rw [rd_skip128 _ _ _ _ _ _ _ _ (by omega)]
  unfold body_x0.sl.H4_39
  rw [rd_hit128 _ _ _ _ _ _ r cq q' (by omega)]
  rw [Cert.KernelIdeal.PayIdx.k0_pay112_apply]
  refine congrArg₂ (· + ·) ?_ rfl
  unfold body_x0.sl.v1269_30
  rw [rdcov128 _ _ 3840 _ r q' cq (by omega)]
  unfold body_x0.sl.H4_38
  rw [rd_skip128 _ _ _ _ _ _ _ _ (by omega)]
  unfold body_x0.sl.H4_37
  rw [rd_skip128 _ _ _ _ _ _ _ _ (by omega)]
  unfold body_x0.sl.H4_36
  rw [rd_skip128 _ _ _ _ _ _ _ _ (by omega)]
  unfold body_x0.sl.H4_35
  rw [rd_skip128 _ _ _ _ _ _ _ _ (by omega)]
  unfold body_x0.sl.H4_34
  rw [rd_skip128 _ _ _ _ _ _ _ _ (by omega)]
  unfold body_x0.sl.H4_33
  rw [rd_skip128 _ _ _ _ _ _ _ _ (by omega)]
  unfold body_x0.sl.H4_32
  rw [rd_skip128 _ _ _ _ _ _ _ _ (by omega)]
  unfold body_x0.sl.H4_31
  rw [rd_skip128 _ _ _ _ _ _ _ _ (by omega)]
  unfold body_x0.sl.H4_30
  rw [rd_skip128 _ _ _ _ _ _ _ _ (by omega)]
  unfold body_x0.sl.H4_29
  rw [rd_skip128 _ _ _ _ _ _ _ _ (by omega)]
  unfold body_x0.sl.H4_28
  rw [rd_skip128 _ _ _ _ _ _ _ _ (by omega)]
  unfold body_x0.sl.H4_27
  rw [rd_skip128 _ _ _ _ _ _ _ _ (by omega)]
  unfold body_x0.sl.H4_26
  rw [rd_skip128 _ _ _ _ _ _ _ _ (by omega)]
  unfold body_x0.sl.H4_25
  rw [rd_skip128 _ _ _ _ _ _ _ _ (by omega)]
  unfold body_x0.sl.H4_24
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  exact rd_hit512 _ _ _ _ _ _ r cq q (by omega)

theorem body_x0_x15 (r : Fin 512) (q' : Fin 128) (q : Fin 512) (hq : q.val = 384 + q'.val) :
    body_x0.sl.dma68 (F := Ideal) mI c f4 (ix2 r q) = (k0_pay75 (body_x0.sl.r mI c) (body_x0.sl.v667 mI c)) (ix2 r q) + (View.readAt (Elt Ideal) (Memref.whole cc0_scratch4 : Memref sig .tc .vmem S16x512x128 .bf16).view (Rect.unit (s := S16x512x128) ![15, 0, 0] S1x512x128.size inb_S16x512x128_S1x512x128_15_0_0).toLoadRect (XcV (chunk mI) c 15)) (ix3 (0 : Fin 1) r q') := by
  have hq' := q'.isLt
  obtain ⟨cq, hcq⟩ : ∃ cq : Fin 4096, cq.val = 3584 + q.val := ⟨⟨3584 + q.val, by omega⟩, rfl⟩
  unfold body_x0.sl.dma68
  rw [s1_blk_read 3584 _ _ _ r q cq hcq]
  unfold body_x0.sl.H4_40
  rw [rd_hit128 _ _ _ _ _ _ r cq q' (by omega)]
  rw [Cert.KernelIdeal.PayIdx.k0_pay114_apply]
  refine congrArg₂ (· + ·) ?_ rfl
  unfold body_x0.sl.v1269_31
  rw [rdcov128 _ _ 3968 _ r q' cq (by omega)]
  unfold body_x0.sl.H4_39
  rw [rd_skip128 _ _ _ _ _ _ _ _ (by omega)]
  unfold body_x0.sl.H4_38
  rw [rd_skip128 _ _ _ _ _ _ _ _ (by omega)]
  unfold body_x0.sl.H4_37
  rw [rd_skip128 _ _ _ _ _ _ _ _ (by omega)]
  unfold body_x0.sl.H4_36
  rw [rd_skip128 _ _ _ _ _ _ _ _ (by omega)]
  unfold body_x0.sl.H4_35
  rw [rd_skip128 _ _ _ _ _ _ _ _ (by omega)]
  unfold body_x0.sl.H4_34
  rw [rd_skip128 _ _ _ _ _ _ _ _ (by omega)]
  unfold body_x0.sl.H4_33
  rw [rd_skip128 _ _ _ _ _ _ _ _ (by omega)]
  unfold body_x0.sl.H4_32
  rw [rd_skip128 _ _ _ _ _ _ _ _ (by omega)]
  unfold body_x0.sl.H4_31
  rw [rd_skip128 _ _ _ _ _ _ _ _ (by omega)]
  unfold body_x0.sl.H4_30
  rw [rd_skip128 _ _ _ _ _ _ _ _ (by omega)]
  unfold body_x0.sl.H4_29
  rw [rd_skip128 _ _ _ _ _ _ _ _ (by omega)]
  unfold body_x0.sl.H4_28
  rw [rd_skip128 _ _ _ _ _ _ _ _ (by omega)]
  unfold body_x0.sl.H4_27
  rw [rd_skip128 _ _ _ _ _ _ _ _ (by omega)]
  unfold body_x0.sl.H4_26
  rw [rd_skip128 _ _ _ _ _ _ _ _ (by omega)]
  unfold body_x0.sl.H4_25
  rw [rd_skip128 _ _ _ _ _ _ _ _ (by omega)]
  unfold body_x0.sl.H4_24
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  exact rd_hit512 _ _ _ _ _ _ r cq q (by omega)

/-! ## The eight blocks -/

theorem body_x0_blk0 (A N : S512x4096.Idx → EReal)
    (hMM : ∀ (r q : Fin 512) (cq : Fin 4096), cq.val = 0 + q.val → (k0_pay43 (body_x0.sl.r mI c) (body_x0.sl.v278 mI c)) (ix2 r q) = A (ix2 r cq))
    (hRD : ∀ (j : Fin 16) (r : Fin 512) (q' : Fin 128) (cq : Fin 4096), cq.val = 0 + 128 * j.val + q'.val → rdY mI c j (ix3 (0 : Fin 1) r q') = N (ix2 r cq)) :
    ∀ (r q : Fin 512) (cq : Fin 4096), cq.val = 0 + q.val → body_x0.sl.dma4 (F := Ideal) mI c f4 (ix2 r q) = A (ix2 r cq) + N (ix2 r cq) := by
  intro r q cq hcq
  have hq := q.isLt
  rcases (by omega : q.val < 128 ∨ (128 ≤ q.val ∧ q.val < 256) ∨ (256 ≤ q.val ∧ q.val < 384) ∨ 384 ≤ q.val) with h | h | h | h
  · obtain ⟨q', hq'⟩ : ∃ q' : Fin 128, q.val = 0 + q'.val := ⟨⟨q.val - 0, by omega⟩, by show q.val = 0 + (q.val - 0); omega⟩
    rw [body_x0_y0 mI c f4 r q' q hq', hMM r q cq hcq]
    exact congrArg (A (ix2 r cq) + ·) (hRD 0 r q' cq (by show cq.val = 0 + 128 * 0 + q'.val; omega))
  · obtain ⟨q', hq'⟩ : ∃ q' : Fin 128, q.val = 128 + q'.val := ⟨⟨q.val - 128, by omega⟩, by show q.val = 128 + (q.val - 128); omega⟩
    rw [body_x0_y1 mI c f4 r q' q hq', hMM r q cq hcq]
    exact congrArg (A (ix2 r cq) + ·) (hRD 1 r q' cq (by show cq.val = 0 + 128 * 1 + q'.val; omega))
  · obtain ⟨q', hq'⟩ : ∃ q' : Fin 128, q.val = 256 + q'.val := ⟨⟨q.val - 256, by omega⟩, by show q.val = 256 + (q.val - 256); omega⟩
    rw [body_x0_y2 mI c f4 r q' q hq', hMM r q cq hcq]
    exact congrArg (A (ix2 r cq) + ·) (hRD 2 r q' cq (by show cq.val = 0 + 128 * 2 + q'.val; omega))
  · obtain ⟨q', hq'⟩ : ∃ q' : Fin 128, q.val = 384 + q'.val := ⟨⟨q.val - 384, by omega⟩, by show q.val = 384 + (q.val - 384); omega⟩
    rw [body_x0_y3 mI c f4 r q' q hq', hMM r q cq hcq]
    exact congrArg (A (ix2 r cq) + ·) (hRD 3 r q' cq (by show cq.val = 0 + 128 * 3 + q'.val; omega))

theorem body_x0_blk1 (A N : S512x4096.Idx → EReal)
    (hMM : ∀ (r q : Fin 512) (cq : Fin 4096), cq.val = 512 + q.val → (k0_pay54 (body_x0.sl.r mI c) (body_x0.sl.v406 mI c)) (ix2 r q) = A (ix2 r cq))
    (hRD : ∀ (j : Fin 16) (r : Fin 512) (q' : Fin 128) (cq : Fin 4096), cq.val = 0 + 128 * j.val + q'.val → rdY mI c j (ix3 (0 : Fin 1) r q') = N (ix2 r cq)) :
    ∀ (r q : Fin 512) (cq : Fin 4096), cq.val = 512 + q.val → body_x0.sl.dma4_1 (F := Ideal) mI c f4 (ix2 r q) = A (ix2 r cq) + N (ix2 r cq) := by
  intro r q cq hcq
  have hq := q.isLt
  rcases (by omega : q.val < 128 ∨ (128 ≤ q.val ∧ q.val < 256) ∨ (256 ≤ q.val ∧ q.val < 384) ∨ 384 ≤ q.val) with h | h | h | h
  · obtain ⟨q', hq'⟩ : ∃ q' : Fin 128, q.val = 0 + q'.val := ⟨⟨q.val - 0, by omega⟩, by show q.val = 0 + (q.val - 0); omega⟩
    rw [body_x0_y4 mI c f4 r q' q hq', hMM r q cq hcq]
    exact congrArg (A (ix2 r cq) + ·) (hRD 4 r q' cq (by show cq.val = 0 + 128 * 4 + q'.val; omega))
  · obtain ⟨q', hq'⟩ : ∃ q' : Fin 128, q.val = 128 + q'.val := ⟨⟨q.val - 128, by omega⟩, by show q.val = 128 + (q.val - 128); omega⟩
    rw [body_x0_y5 mI c f4 r q' q hq', hMM r q cq hcq]
    exact congrArg (A (ix2 r cq) + ·) (hRD 5 r q' cq (by show cq.val = 0 + 128 * 5 + q'.val; omega))
  · obtain ⟨q', hq'⟩ : ∃ q' : Fin 128, q.val = 256 + q'.val := ⟨⟨q.val - 256, by omega⟩, by show q.val = 256 + (q.val - 256); omega⟩
    rw [body_x0_y6 mI c f4 r q' q hq', hMM r q cq hcq]
    exact congrArg (A (ix2 r cq) + ·) (hRD 6 r q' cq (by show cq.val = 0 + 128 * 6 + q'.val; omega))
  · obtain ⟨q', hq'⟩ : ∃ q' : Fin 128, q.val = 384 + q'.val := ⟨⟨q.val - 384, by omega⟩, by show q.val = 384 + (q.val - 384); omega⟩
    rw [body_x0_y7 mI c f4 r q' q hq', hMM r q cq hcq]
    exact congrArg (A (ix2 r cq) + ·) (hRD 7 r q' cq (by show cq.val = 0 + 128 * 7 + q'.val; omega))

theorem body_x0_blk2 (A N : S512x4096.Idx → EReal)
    (hMM : ∀ (r q : Fin 512) (cq : Fin 4096), cq.val = 1024 + q.val → (k0_pay64 (body_x0.sl.r mI c) (body_x0.sl.v534 mI c)) (ix2 r q) = A (ix2 r cq))
    (hRD : ∀ (j : Fin 16) (r : Fin 512) (q' : Fin 128) (cq : Fin 4096), cq.val = 0 + 128 * j.val + q'.val → rdY mI c j (ix3 (0 : Fin 1) r q') = N (ix2 r cq)) :
    ∀ (r q : Fin 512) (cq : Fin 4096), cq.val = 1024 + q.val → body_x0.sl.dma4_2 (F := Ideal) mI c f4 (ix2 r q) = A (ix2 r cq) + N (ix2 r cq) := by
  intro r q cq hcq
  have hq := q.isLt
  rcases (by omega : q.val < 128 ∨ (128 ≤ q.val ∧ q.val < 256) ∨ (256 ≤ q.val ∧ q.val < 384) ∨ 384 ≤ q.val) with h | h | h | h
  · obtain ⟨q', hq'⟩ : ∃ q' : Fin 128, q.val = 0 + q'.val := ⟨⟨q.val - 0, by omega⟩, by show q.val = 0 + (q.val - 0); omega⟩
    rw [body_x0_y8 mI c f4 r q' q hq', hMM r q cq hcq]
    exact congrArg (A (ix2 r cq) + ·) (hRD 8 r q' cq (by show cq.val = 0 + 128 * 8 + q'.val; omega))
  · obtain ⟨q', hq'⟩ : ∃ q' : Fin 128, q.val = 128 + q'.val := ⟨⟨q.val - 128, by omega⟩, by show q.val = 128 + (q.val - 128); omega⟩
    rw [body_x0_y9 mI c f4 r q' q hq', hMM r q cq hcq]
    exact congrArg (A (ix2 r cq) + ·) (hRD 9 r q' cq (by show cq.val = 0 + 128 * 9 + q'.val; omega))
  · obtain ⟨q', hq'⟩ : ∃ q' : Fin 128, q.val = 256 + q'.val := ⟨⟨q.val - 256, by omega⟩, by show q.val = 256 + (q.val - 256); omega⟩
    rw [body_x0_y10 mI c f4 r q' q hq', hMM r q cq hcq]
    exact congrArg (A (ix2 r cq) + ·) (hRD 10 r q' cq (by show cq.val = 0 + 128 * 10 + q'.val; omega))
  · obtain ⟨q', hq'⟩ : ∃ q' : Fin 128, q.val = 384 + q'.val := ⟨⟨q.val - 384, by omega⟩, by show q.val = 384 + (q.val - 384); omega⟩
    rw [body_x0_y11 mI c f4 r q' q hq', hMM r q cq hcq]
    exact congrArg (A (ix2 r cq) + ·) (hRD 11 r q' cq (by show cq.val = 0 + 128 * 11 + q'.val; omega))

theorem body_x0_blk3 (A N : S512x4096.Idx → EReal)
    (hMM : ∀ (r q : Fin 512) (cq : Fin 4096), cq.val = 1536 + q.val → (k0_pay74 (body_x0.sl.r mI c) (body_x0.sl.v662 mI c)) (ix2 r q) = A (ix2 r cq))
    (hRD : ∀ (j : Fin 16) (r : Fin 512) (q' : Fin 128) (cq : Fin 4096), cq.val = 0 + 128 * j.val + q'.val → rdY mI c j (ix3 (0 : Fin 1) r q') = N (ix2 r cq)) :
    ∀ (r q : Fin 512) (cq : Fin 4096), cq.val = 1536 + q.val → body_x0.sl.dma4_3 (F := Ideal) mI c f4 (ix2 r q) = A (ix2 r cq) + N (ix2 r cq) := by
  intro r q cq hcq
  have hq := q.isLt
  rcases (by omega : q.val < 128 ∨ (128 ≤ q.val ∧ q.val < 256) ∨ (256 ≤ q.val ∧ q.val < 384) ∨ 384 ≤ q.val) with h | h | h | h
  · obtain ⟨q', hq'⟩ : ∃ q' : Fin 128, q.val = 0 + q'.val := ⟨⟨q.val - 0, by omega⟩, by show q.val = 0 + (q.val - 0); omega⟩
    rw [body_x0_y12 mI c f4 r q' q hq', hMM r q cq hcq]
    exact congrArg (A (ix2 r cq) + ·) (hRD 12 r q' cq (by show cq.val = 0 + 128 * 12 + q'.val; omega))
  · obtain ⟨q', hq'⟩ : ∃ q' : Fin 128, q.val = 128 + q'.val := ⟨⟨q.val - 128, by omega⟩, by show q.val = 128 + (q.val - 128); omega⟩
    rw [body_x0_y13 mI c f4 r q' q hq', hMM r q cq hcq]
    exact congrArg (A (ix2 r cq) + ·) (hRD 13 r q' cq (by show cq.val = 0 + 128 * 13 + q'.val; omega))
  · obtain ⟨q', hq'⟩ : ∃ q' : Fin 128, q.val = 256 + q'.val := ⟨⟨q.val - 256, by omega⟩, by show q.val = 256 + (q.val - 256); omega⟩
    rw [body_x0_y14 mI c f4 r q' q hq', hMM r q cq hcq]
    exact congrArg (A (ix2 r cq) + ·) (hRD 14 r q' cq (by show cq.val = 0 + 128 * 14 + q'.val; omega))
  · obtain ⟨q', hq'⟩ : ∃ q' : Fin 128, q.val = 384 + q'.val := ⟨⟨q.val - 384, by omega⟩, by show q.val = 384 + (q.val - 384); omega⟩
    rw [body_x0_y15 mI c f4 r q' q hq', hMM r q cq hcq]
    exact congrArg (A (ix2 r cq) + ·) (hRD 15 r q' cq (by show cq.val = 0 + 128 * 15 + q'.val; omega))

theorem body_x0_blk4 (A N : S512x4096.Idx → EReal)
    (hMM : ∀ (r q : Fin 512) (cq : Fin 4096), cq.val = 2048 + q.val → (k0_pay45 (body_x0.sl.r_2 mI c)) (ix2 r q) = A (ix2 r cq))
    (hRD : ∀ (j : Fin 16) (r : Fin 512) (q' : Fin 128) (cq : Fin 4096), cq.val = 2048 + 128 * j.val + q'.val → rdX mI c j (ix3 (0 : Fin 1) r q') = N (ix2 r cq)) :
    ∀ (r q : Fin 512) (cq : Fin 4096), cq.val = 2048 + q.val → body_x0.sl.dma20 (F := Ideal) mI c f4 (ix2 r q) = A (ix2 r cq) + N (ix2 r cq) := by
  intro r q cq hcq
  have hq := q.isLt
  rcases (by omega : q.val < 128 ∨ (128 ≤ q.val ∧ q.val < 256) ∨ (256 ≤ q.val ∧ q.val < 384) ∨ 384 ≤ q.val) with h | h | h | h
  · obtain ⟨q', hq'⟩ : ∃ q' : Fin 128, q.val = 0 + q'.val := ⟨⟨q.val - 0, by omega⟩, by show q.val = 0 + (q.val - 0); omega⟩
    rw [body_x0_x0 mI c f4 r q' q hq', hMM r q cq hcq]
    exact congrArg (A (ix2 r cq) + ·) (hRD 0 r q' cq (by show cq.val = 2048 + 128 * 0 + q'.val; omega))
  · obtain ⟨q', hq'⟩ : ∃ q' : Fin 128, q.val = 128 + q'.val := ⟨⟨q.val - 128, by omega⟩, by show q.val = 128 + (q.val - 128); omega⟩
    rw [body_x0_x1 mI c f4 r q' q hq', hMM r q cq hcq]
    exact congrArg (A (ix2 r cq) + ·) (hRD 1 r q' cq (by show cq.val = 2048 + 128 * 1 + q'.val; omega))
  · obtain ⟨q', hq'⟩ : ∃ q' : Fin 128, q.val = 256 + q'.val := ⟨⟨q.val - 256, by omega⟩, by show q.val = 256 + (q.val - 256); omega⟩
    rw [body_x0_x2 mI c f4 r q' q hq', hMM r q cq hcq]
    exact congrArg (A (ix2 r cq) + ·) (hRD 2 r q' cq (by show cq.val = 2048 + 128 * 2 + q'.val; omega))
  · obtain ⟨q', hq'⟩ : ∃ q' : Fin 128, q.val = 384 + q'.val := ⟨⟨q.val - 384, by omega⟩, by show q.val = 384 + (q.val - 384); omega⟩
    rw [body_x0_x3 mI c f4 r q' q hq', hMM r q cq hcq]
    exact congrArg (A (ix2 r cq) + ·) (hRD 3 r q' cq (by show cq.val = 2048 + 128 * 3 + q'.val; omega))

theorem body_x0_blk5 (A N : S512x4096.Idx → EReal)
    (hMM : ∀ (r q : Fin 512) (cq : Fin 4096), cq.val = 2560 + q.val → (k0_pay55 (body_x0.sl.r mI c) (body_x0.sl.v411 mI c)) (ix2 r q) = A (ix2 r cq))
    (hRD : ∀ (j : Fin 16) (r : Fin 512) (q' : Fin 128) (cq : Fin 4096), cq.val = 2048 + 128 * j.val + q'.val → rdX mI c j (ix3 (0 : Fin 1) r q') = N (ix2 r cq)) :
    ∀ (r q : Fin 512) (cq : Fin 4096), cq.val = 2560 + q.val → body_x0.sl.dma36 (F := Ideal) mI c f4 (ix2 r q) = A (ix2 r cq) + N (ix2 r cq) := by
  intro r q cq hcq
  have hq := q.isLt
  rcases (by omega : q.val < 128 ∨ (128 ≤ q.val ∧ q.val < 256) ∨ (256 ≤ q.val ∧ q.val < 384) ∨ 384 ≤ q.val) with h | h | h | h
  · obtain ⟨q', hq'⟩ : ∃ q' : Fin 128, q.val = 0 + q'.val := ⟨⟨q.val - 0, by omega⟩, by show q.val = 0 + (q.val - 0); omega⟩
    rw [body_x0_x4 mI c f4 r q' q hq', hMM r q cq hcq]
    exact congrArg (A (ix2 r cq) + ·) (hRD 4 r q' cq (by show cq.val = 2048 + 128 * 4 + q'.val; omega))
  · obtain ⟨q', hq'⟩ : ∃ q' : Fin 128, q.val = 128 + q'.val := ⟨⟨q.val - 128, by omega⟩, by show q.val = 128 + (q.val - 128); omega⟩
    rw [body_x0_x5 mI c f4 r q' q hq', hMM r q cq hcq]
    exact congrArg (A (ix2 r cq) + ·) (hRD 5 r q' cq (by show cq.val = 2048 + 128 * 5 + q'.val; omega))
  · obtain ⟨q', hq'⟩ : ∃ q' : Fin 128, q.val = 256 + q'.val := ⟨⟨q.val - 256, by omega⟩, by show q.val = 256 + (q.val - 256); omega⟩
    rw [body_x0_x6 mI c f4 r q' q hq', hMM r q cq hcq]
    exact congrArg (A (ix2 r cq) + ·) (hRD 6 r q' cq (by show cq.val = 2048 + 128 * 6 + q'.val; omega))
  · obtain ⟨q', hq'⟩ : ∃ q' : Fin 128, q.val = 384 + q'.val := ⟨⟨q.val - 384, by omega⟩, by show q.val = 384 + (q.val - 384); omega⟩
    rw [body_x0_x7 mI c f4 r q' q hq', hMM r q cq hcq]
    exact congrArg (A (ix2 r cq) + ·) (hRD 7 r q' cq (by show cq.val = 2048 + 128 * 7 + q'.val; omega))

theorem body_x0_blk6 (A N : S512x4096.Idx → EReal)
    (hMM : ∀ (r q : Fin 512) (cq : Fin 4096), cq.val = 3072 + q.val → (body_x0.sl.r_3 mI c) (ix2 r q) = A (ix2 r cq))
    (hRD : ∀ (j : Fin 16) (r : Fin 512) (q' : Fin 128) (cq : Fin 4096), cq.val = 2048 + 128 * j.val + q'.val → rdX mI c j (ix3 (0 : Fin 1) r q') = N (ix2 r cq)) :
    ∀ (r q : Fin 512) (cq : Fin 4096), cq.val = 3072 + q.val → body_x0.sl.dma52 (F := Ideal) mI c f4 (ix2 r q) = A (ix2 r cq) + N (ix2 r cq) := by
  intro r q cq hcq
  have hq := q.isLt
  rcases (by omega : q.val < 128 ∨ (128 ≤ q.val ∧ q.val < 256) ∨ (256 ≤ q.val ∧ q.val < 384) ∨ 384 ≤ q.val) with h | h | h | h
  · obtain ⟨q', hq'⟩ : ∃ q' : Fin 128, q.val = 0 + q'.val := ⟨⟨q.val - 0, by omega⟩, by show q.val = 0 + (q.val - 0); omega⟩
    rw [body_x0_x8 mI c f4 r q' q hq', hMM r q cq hcq]
    exact congrArg (A (ix2 r cq) + ·) (hRD 8 r q' cq (by show cq.val = 2048 + 128 * 8 + q'.val; omega))
  · obtain ⟨q', hq'⟩ : ∃ q' : Fin 128, q.val = 128 + q'.val := ⟨⟨q.val - 128, by omega⟩, by show q.val = 128 + (q.val - 128); omega⟩
    rw [body_x0_x9 mI c f4 r q' q hq', hMM r q cq hcq]
    exact congrArg (A (ix2 r cq) + ·) (hRD 9 r q' cq (by show cq.val = 2048 + 128 * 9 + q'.val; omega))
  · obtain ⟨q', hq'⟩ : ∃ q' : Fin 128, q.val = 256 + q'.val := ⟨⟨q.val - 256, by omega⟩, by show q.val = 256 + (q.val - 256); omega⟩
    rw [body_x0_x10 mI c f4 r q' q hq', hMM r q cq hcq]
    exact congrArg (A (ix2 r cq) + ·) (hRD 10 r q' cq (by show cq.val = 2048 + 128 * 10 + q'.val; omega))
  · obtain ⟨q', hq'⟩ : ∃ q' : Fin 128, q.val = 384 + q'.val := ⟨⟨q.val - 384, by omega⟩, by show q.val = 384 + (q.val - 384); omega⟩
    rw [body_x0_x11 mI c f4 r q' q hq', hMM r q cq hcq]
    exact congrArg (A (ix2 r cq) + ·) (hRD 11 r q' cq (by show cq.val = 2048 + 128 * 11 + q'.val; omega))

theorem body_x0_blk7 (A N : S512x4096.Idx → EReal)
    (hMM : ∀ (r q : Fin 512) (cq : Fin 4096), cq.val = 3584 + q.val → (k0_pay75 (body_x0.sl.r mI c) (body_x0.sl.v667 mI c)) (ix2 r q) = A (ix2 r cq))
    (hRD : ∀ (j : Fin 16) (r : Fin 512) (q' : Fin 128) (cq : Fin 4096), cq.val = 2048 + 128 * j.val + q'.val → rdX mI c j (ix3 (0 : Fin 1) r q') = N (ix2 r cq)) :
    ∀ (r q : Fin 512) (cq : Fin 4096), cq.val = 3584 + q.val → body_x0.sl.dma68 (F := Ideal) mI c f4 (ix2 r q) = A (ix2 r cq) + N (ix2 r cq) := by
  intro r q cq hcq
  have hq := q.isLt
  rcases (by omega : q.val < 128 ∨ (128 ≤ q.val ∧ q.val < 256) ∨ (256 ≤ q.val ∧ q.val < 384) ∨ 384 ≤ q.val) with h | h | h | h
  · obtain ⟨q', hq'⟩ : ∃ q' : Fin 128, q.val = 0 + q'.val := ⟨⟨q.val - 0, by omega⟩, by show q.val = 0 + (q.val - 0); omega⟩
    rw [body_x0_x12 mI c f4 r q' q hq', hMM r q cq hcq]
    exact congrArg (A (ix2 r cq) + ·) (hRD 12 r q' cq (by show cq.val = 2048 + 128 * 12 + q'.val; omega))
  · obtain ⟨q', hq'⟩ : ∃ q' : Fin 128, q.val = 128 + q'.val := ⟨⟨q.val - 128, by omega⟩, by show q.val = 128 + (q.val - 128); omega⟩
    rw [body_x0_x13 mI c f4 r q' q hq', hMM r q cq hcq]
    exact congrArg (A (ix2 r cq) + ·) (hRD 13 r q' cq (by show cq.val = 2048 + 128 * 13 + q'.val; omega))
  · obtain ⟨q', hq'⟩ : ∃ q' : Fin 128, q.val = 256 + q'.val := ⟨⟨q.val - 256, by omega⟩, by show q.val = 256 + (q.val - 256); omega⟩
    rw [body_x0_x14 mI c f4 r q' q hq', hMM r q cq hcq]
    exact congrArg (A (ix2 r cq) + ·) (hRD 14 r q' cq (by show cq.val = 2048 + 128 * 14 + q'.val; omega))
  · obtain ⟨q', hq'⟩ : ∃ q' : Fin 128, q.val = 384 + q'.val := ⟨⟨q.val - 384, by omega⟩, by show q.val = 384 + (q.val - 384); omega⟩
    rw [body_x0_x15 mI c f4 r q' q hq', hMM r q cq hcq]
    exact congrArg (A (ix2 r cq) + ·) (hRD 15 r q' cq (by show cq.val = 2048 + 128 * 15 + q'.val; omega))

/-! ## The result -/

/-- The result of a device of this kind from the eight copies' payloads: where each block of the device's own product is `A` and each
    received chunk is `N`, at the result's columns, the result is their sum. -/
theorem glue_x0 (fo : (main_v1 : Ref sig .tc).ty.Contents (Elt Ideal)) (A N : S512x4096.Idx → EReal)
    (P0 P1 P2 P3 P4 P5 P6 P7 : S512x512.Idx → EReal)
    (hP0 : P0 = body_x0.sl.dma4 (F := Ideal) mI c f4)
    (hP1 : P1 = body_x0.sl.dma4_1 (F := Ideal) mI c f4)
    (hP2 : P2 = body_x0.sl.dma4_2 (F := Ideal) mI c f4)
    (hP3 : P3 = body_x0.sl.dma4_3 (F := Ideal) mI c f4)
    (hP4 : P4 = body_x0.sl.dma20 (F := Ideal) mI c f4)
    (hP5 : P5 = body_x0.sl.dma36 (F := Ideal) mI c f4)
    (hP6 : P6 = body_x0.sl.dma52 (F := Ideal) mI c f4)
    (hP7 : P7 = body_x0.sl.dma68 (F := Ideal) mI c f4)
    (hMM0 : ∀ (r q : Fin 512) (cq : Fin 4096), cq.val = 0 + q.val → (k0_pay43 (body_x0.sl.r mI c) (body_x0.sl.v278 mI c)) (ix2 r q) = A (ix2 r cq))
    (hMM1 : ∀ (r q : Fin 512) (cq : Fin 4096), cq.val = 512 + q.val → (k0_pay54 (body_x0.sl.r mI c) (body_x0.sl.v406 mI c)) (ix2 r q) = A (ix2 r cq))
    (hMM2 : ∀ (r q : Fin 512) (cq : Fin 4096), cq.val = 1024 + q.val → (k0_pay64 (body_x0.sl.r mI c) (body_x0.sl.v534 mI c)) (ix2 r q) = A (ix2 r cq))
    (hMM3 : ∀ (r q : Fin 512) (cq : Fin 4096), cq.val = 1536 + q.val → (k0_pay74 (body_x0.sl.r mI c) (body_x0.sl.v662 mI c)) (ix2 r q) = A (ix2 r cq))
    (hMM4 : ∀ (r q : Fin 512) (cq : Fin 4096), cq.val = 2048 + q.val → (k0_pay45 (body_x0.sl.r_2 mI c)) (ix2 r q) = A (ix2 r cq))
    (hMM5 : ∀ (r q : Fin 512) (cq : Fin 4096), cq.val = 2560 + q.val → (k0_pay55 (body_x0.sl.r mI c) (body_x0.sl.v411 mI c)) (ix2 r q) = A (ix2 r cq))
    (hMM6 : ∀ (r q : Fin 512) (cq : Fin 4096), cq.val = 3072 + q.val → (body_x0.sl.r_3 mI c) (ix2 r q) = A (ix2 r cq))
    (hMM7 : ∀ (r q : Fin 512) (cq : Fin 4096), cq.val = 3584 + q.val → (k0_pay75 (body_x0.sl.r mI c) (body_x0.sl.v667 mI c)) (ix2 r q) = A (ix2 r cq))
    (hRDY : ∀ (j : Fin 16) (r : Fin 512) (q' : Fin 128) (cq : Fin 4096), cq.val = 0 + 128 * j.val + q'.val → rdY mI c j (ix3 (0 : Fin 1) r q') = N (ix2 r cq))
    (hRDX : ∀ (j : Fin 16) (r : Fin 512) (q' : Fin 128) (cq : Fin 4096), cq.val = 2048 + 128 * j.val + q'.val → rdX mI c j (ix3 (0 : Fin 1) r q') = N (ix2 r cq)) :
    (Memref.whole main_v1 : Memref sig .tc .hbm S512x4096 .f32).view.writes (Elt Ideal) fo
      [⟨Rect.unit (s := S512x4096) ![0, 3584] S512x512.size inb_S512x4096_S512x512_0_3584, P7⟩,
        ⟨Rect.unit (s := S512x4096) ![0, 3072] S512x512.size inb_S512x4096_S512x512_0_3072, P6⟩,
        ⟨Rect.unit (s := S512x4096) ![0, 2560] S512x512.size inb_S512x4096_S512x512_0_2560, P5⟩,
        ⟨Rect.unit (s := S512x4096) ![0, 2048] S512x512.size inb_S512x4096_S512x512_0_2048, P4⟩,
        ⟨Rect.unit (s := S512x4096) ![0, 1536] S512x512.size inb_S512x4096_S512x512_0_1536, P3⟩,
        ⟨Rect.unit (s := S512x4096) ![0, 1024] S512x512.size inb_S512x4096_S512x512_0_1024, P2⟩,
        ⟨Rect.unit (s := S512x4096) ![0, 512] S512x512.size inb_S512x4096_S512x512_0_512, P1⟩,
        ⟨Rect.unit (s := S512x4096) ![0, 0] S512x512.size inb_S512x4096_S512x512_0_0, P0⟩] = fun i => A i + N i := by
  subst hP0 hP1 hP2 hP3 hP4 hP5 hP6 hP7
  exact result_of_blocks (Val := Elt Ideal) fo _ _ _ _ _ _ _ _ (fun i => A i + N i)
    (body_x0_blk0 mI c f4 A N hMM0 hRDY)
    (body_x0_blk1 mI c f4 A N hMM1 hRDY)
    (body_x0_blk2 mI c f4 A N hMM2 hRDY)
    (body_x0_blk3 mI c f4 A N hMM3 hRDY)
    (body_x0_blk4 mI c f4 A N hMM4 hRDX)
    (body_x0_blk5 mI c f4 A N hMM5 hRDX)
    (body_x0_blk6 mI c f4 A N hMM6 hRDX)
    (body_x0_blk7 mI c f4 A N hMM7 hRDX)

/-! ## The result named -/

/-- The result of a device whose first mesh coordinate is 0: its own share of the product plus, at each column, the share of the device the chunk covering it came from. -/
theorem glue_x0_spec (hx : c.val / 2 = 0)
    (fo : (main_v1 : Ref sig .tc).ty.Contents (Elt Ideal)) (P0 P1 P2 P3 P4 P5 P6 P7 : S512x512.Idx → EReal)
    (hP0 : P0 = body_x0.sl.dma4 (F := Ideal) mI c f4)
    (hP1 : P1 = body_x0.sl.dma4_1 (F := Ideal) mI c f4)
    (hP2 : P2 = body_x0.sl.dma4_2 (F := Ideal) mI c f4)
    (hP3 : P3 = body_x0.sl.dma4_3 (F := Ideal) mI c f4)
    (hP4 : P4 = body_x0.sl.dma20 (F := Ideal) mI c f4)
    (hP5 : P5 = body_x0.sl.dma36 (F := Ideal) mI c f4)
    (hP6 : P6 = body_x0.sl.dma52 (F := Ideal) mI c f4)
    (hP7 : P7 = body_x0.sl.dma68 (F := Ideal) mI c f4) :
    (Memref.whole main_v1 : Memref sig .tc .hbm S512x4096 .f32).view.writes (Elt Ideal) fo
      [⟨Rect.unit (s := S512x4096) ![0, 3584] S512x512.size inb_S512x4096_S512x512_0_3584, P7⟩,
        ⟨Rect.unit (s := S512x4096) ![0, 3072] S512x512.size inb_S512x4096_S512x512_0_3072, P6⟩,
        ⟨Rect.unit (s := S512x4096) ![0, 2560] S512x512.size inb_S512x4096_S512x512_0_2560, P5⟩,
        ⟨Rect.unit (s := S512x4096) ![0, 2048] S512x512.size inb_S512x4096_S512x512_0_2048, P4⟩,
        ⟨Rect.unit (s := S512x4096) ![0, 1536] S512x512.size inb_S512x4096_S512x512_0_1536, P3⟩,
        ⟨Rect.unit (s := S512x4096) ![0, 1024] S512x512.size inb_S512x4096_S512x512_0_1024, P2⟩,
        ⟨Rect.unit (s := S512x4096) ![0, 512] S512x512.size inb_S512x4096_S512x512_0_512, P1⟩,
        ⟨Rect.unit (s := S512x4096) ![0, 0] S512x512.size inb_S512x4096_S512x512_0_0, P0⟩]
      = Cert.Spec.kernOut2 (c.val / 2) ⟨c.val % 2, Nat.mod_lt _ (by decide)⟩ (mI ((c : Thread nD τ).loc main_arg0)) (mI ((c : Thread nD τ).loc main_arg1)) (mI ((ynb c : Thread nD τ).loc main_arg0)) (mI ((ynb c : Thread nD τ).loc main_arg1)) (mI ((ynb (xnb c) : Thread nD τ).loc main_arg0)) (mI ((ynb (xnb c) : Thread nD τ).loc main_arg1)) := by
  have hY : ∀ (j : Fin 16) (r : Fin 512) (q' : Fin 128) (cq : Fin 4096), cq.val = 0 + 128 * j.val + q'.val → rdY mI c j (ix3 (0 : Fin 1) r q') = (fun i : S512x4096.Idx => if (i 1).val / 2048 = c.val / 2 then Cert.Spec.part ⟨c.val % 2, Nat.mod_lt _ (by decide)⟩ (mI ((ynb c : Thread nD τ).loc main_arg0)) (mI ((ynb c : Thread nD τ).loc main_arg1)) i else Cert.Spec.part ⟨c.val % 2, Nat.mod_lt _ (by decide)⟩ (mI ((ynb (xnb c) : Thread nD τ).loc main_arg0)) (mI ((ynb (xnb c) : Thread nD τ).loc main_arg1)) i) (ix2 r cq) := by
    intro j r q' cq h
    have hq' := q'.isLt; have hj := j.isLt
    rw [rdY_eq mI c j r q', chunk_part mI c (ynb c) (ynb_mod c) j r q' cq (by rw [ynb_div, hx]; omega)]
    show _ = if _ then _ else _
    rw [if_pos (by show cq.val / 2048 = c.val / 2; rw [hx]; omega)]
  have hX : ∀ (j : Fin 16) (r : Fin 512) (q' : Fin 128) (cq : Fin 4096), cq.val = 2048 + 128 * j.val + q'.val → rdX mI c j (ix3 (0 : Fin 1) r q') = (fun i : S512x4096.Idx => if (i 1).val / 2048 = c.val / 2 then Cert.Spec.part ⟨c.val % 2, Nat.mod_lt _ (by decide)⟩ (mI ((ynb c : Thread nD τ).loc main_arg0)) (mI ((ynb c : Thread nD τ).loc main_arg1)) i else Cert.Spec.part ⟨c.val % 2, Nat.mod_lt _ (by decide)⟩ (mI ((ynb (xnb c) : Thread nD τ).loc main_arg0)) (mI ((ynb (xnb c) : Thread nD τ).loc main_arg1)) i) (ix2 r cq) := by
    intro j r q' cq h
    have hq' := q'.isLt; have hj := j.isLt
    rw [rdX_eq mI c j r q', chunk_part mI c (ynb (xnb c)) (yxnb_mod c) j r q' cq (by rw [yxnb_div, hx]; omega)]
    show _ = if _ then _ else _
    rw [if_neg (by show ¬ cq.val / 2048 = c.val / 2; rw [hx]; omega)]
  exact glue_x0 mI c f4 fo (Cert.Spec.part ⟨c.val % 2, Nat.mod_lt _ (by decide)⟩ (mI ((c : Thread nD τ).loc main_arg0)) (mI ((c : Thread nD τ).loc main_arg1))) (fun i : S512x4096.Idx => if (i 1).val / 2048 = c.val / 2 then Cert.Spec.part ⟨c.val % 2, Nat.mod_lt _ (by decide)⟩ (mI ((ynb c : Thread nD τ).loc main_arg0)) (mI ((ynb c : Thread nD τ).loc main_arg1)) i else Cert.Spec.part ⟨c.val % 2, Nat.mod_lt _ (by decide)⟩ (mI ((ynb (xnb c) : Thread nD τ).loc main_arg0)) (mI ((ynb (xnb c) : Thread nD τ).loc main_arg1)) i) P0 P1 P2 P3 P4 P5 P6 P7 hP0 hP1 hP2 hP3 hP4 hP5 hP6 hP7
    (fun r q cq h => (Cert.KernelIdeal.PayIdx.k0_pay43_apply _ _ r q).trans (mm_part (xMine mI c) (dyBlk mI c 0) (mI ((c : Thread nD τ).loc main_arg0)) (mI ((c : Thread nD τ).loc main_arg1)) ⟨c.val % 2, Nat.mod_lt _ (by decide)⟩ 0 (fun k p col hc => xMine_apply mI c k p col hc) (fun k q col hc => dyBlk_apply mI c 0 k q col (by show col.val = 512 * (0 : Fin 8).val + q.val; exact hc)) r q cq h))
    (fun r q cq h => (Cert.KernelIdeal.PayIdx.k0_pay54_apply _ _ r q).trans (mm_part (xMine mI c) (dyBlk mI c 1) (mI ((c : Thread nD τ).loc main_arg0)) (mI ((c : Thread nD τ).loc main_arg1)) ⟨c.val % 2, Nat.mod_lt _ (by decide)⟩ 512 (fun k p col hc => xMine_apply mI c k p col hc) (fun k q col hc => dyBlk_apply mI c 1 k q col (by show col.val = 512 * (1 : Fin 8).val + q.val; exact hc)) r q cq h))
    (fun r q cq h => (Cert.KernelIdeal.PayIdx.k0_pay64_apply _ _ r q).trans (mm_part (xMine mI c) (dyBlk mI c 2) (mI ((c : Thread nD τ).loc main_arg0)) (mI ((c : Thread nD τ).loc main_arg1)) ⟨c.val % 2, Nat.mod_lt _ (by decide)⟩ 1024 (fun k p col hc => xMine_apply mI c k p col hc) (fun k q col hc => dyBlk_apply mI c 2 k q col (by show col.val = 512 * (2 : Fin 8).val + q.val; exact hc)) r q cq h))
    (fun r q cq h => (Cert.KernelIdeal.PayIdx.k0_pay74_apply _ _ r q).trans (mm_part (xMine mI c) (dyBlk mI c 3) (mI ((c : Thread nD τ).loc main_arg0)) (mI ((c : Thread nD τ).loc main_arg1)) ⟨c.val % 2, Nat.mod_lt _ (by decide)⟩ 1536 (fun k p col hc => xMine_apply mI c k p col hc) (fun k q col hc => dyBlk_apply mI c 3 k q col (by show col.val = 512 * (3 : Fin 8).val + q.val; exact hc)) r q cq h))
    (fun r q cq h => (congrFun (Cert.KernelIdeal.PayIdx.k0_pay45_eq _) _).trans ((show body_x0.sl.r_2 mI c (ix2 r q) = _ from Cert.KernelIdeal.PayIdx.k0_pay44_apply _ _ r q).trans (mm_part (xMine mI c) (dyBlk mI c 4) (mI ((c : Thread nD τ).loc main_arg0)) (mI ((c : Thread nD τ).loc main_arg1)) ⟨c.val % 2, Nat.mod_lt _ (by decide)⟩ 2048 (fun k p col hc => xMine_apply mI c k p col hc) (fun k q col hc => dyBlk_apply mI c 4 k q col (by show col.val = 512 * (4 : Fin 8).val + q.val; exact hc)) r q cq h)))
    (fun r q cq h => (Cert.KernelIdeal.PayIdx.k0_pay55_apply _ _ r q).trans (mm_part (xMine mI c) (dyBlk mI c 5) (mI ((c : Thread nD τ).loc main_arg0)) (mI ((c : Thread nD τ).loc main_arg1)) ⟨c.val % 2, Nat.mod_lt _ (by decide)⟩ 2560 (fun k p col hc => xMine_apply mI c k p col hc) (fun k q col hc => dyBlk_apply mI c 5 k q col (by show col.val = 512 * (5 : Fin 8).val + q.val; exact hc)) r q cq h))
    (fun r q cq h => (show body_x0.sl.r_3 mI c (ix2 r q) = _ from Cert.KernelIdeal.PayIdx.k0_pay65_apply _ _ r q).trans (mm_part (xMine mI c) (dyBlk mI c 6) (mI ((c : Thread nD τ).loc main_arg0)) (mI ((c : Thread nD τ).loc main_arg1)) ⟨c.val % 2, Nat.mod_lt _ (by decide)⟩ 3072 (fun k p col hc => xMine_apply mI c k p col hc) (fun k q col hc => dyBlk_apply mI c 6 k q col (by show col.val = 512 * (6 : Fin 8).val + q.val; exact hc)) r q cq h))
    (fun r q cq h => (Cert.KernelIdeal.PayIdx.k0_pay75_apply _ _ r q).trans (mm_part (xMine mI c) (dyBlk mI c 7) (mI ((c : Thread nD τ).loc main_arg0)) (mI ((c : Thread nD τ).loc main_arg1)) ⟨c.val % 2, Nat.mod_lt _ (by decide)⟩ 3584 (fun k p col hc => xMine_apply mI c k p col hc) (fun k q col hc => dyBlk_apply mI c 7 k q col (by show col.val = 512 * (7 : Fin 8).val + q.val; exact hc)) r q cq h))
    hY hX

end Cert.KernelIdeal.Hand

end
-- ==== Proof.BodyV0.lean ====
import proofs.«901046_g7700000000001047_dist_rsdw_v7x_xy2x2_y_m1024_d1024_f4096_f32_1_alg».proof.Proof.Gen.KernelIdeal
import proofs.«901046_g7700000000001047_dist_rsdw_v7x_xy2x2_y_m1024_d1024_f4096_f32_1_alg».proof.Proof.Gen.KernelIdeal.Skeleton
import proofs.«901046_g7700000000001047_dist_rsdw_v7x_xy2x2_y_m1024_d1024_f4096_f32_1_alg».proof.Proof.Gen.KernelIdeal.Launch
import proofs.«901046_g7700000000001047_dist_rsdw_v7x_xy2x2_y_m1024_d1024_f4096_f32_1_alg».proof.Proof.Gen.KernelIdeal.Points
import proofs.«901046_g7700000000001047_dist_rsdw_v7x_xy2x2_y_m1024_d1024_f4096_f32_1_alg».proof.Proof.Proto
import proofs.«901046_g7700000000001047_dist_rsdw_v7x_xy2x2_y_m1024_d1024_f4096_f32_1_alg».proof.Proof.Slots
import proofs.«901046_g7700000000001047_dist_rsdw_v7x_xy2x2_y_m1024_d1024_f4096_f32_1_alg».proof.Proof.Rejoin
import proofs.«901046_g7700000000001047_dist_rsdw_v7x_xy2x2_y_m1024_d1024_f4096_f32_1_alg».proof.Proof.Ledger
import proofs.«901046_g7700000000001047_dist_rsdw_v7x_xy2x2_y_m1024_d1024_f4096_f32_1_alg».proof.Proof.BodyEnds
import proofs.«901046_g7700000000001047_dist_rsdw_v7x_xy2x2_y_m1024_d1024_f4096_f32_1_alg».proof.Proof.BodyExit
import proofs.«901046_g7700000000001047_dist_rsdw_v7x_xy2x2_y_m1024_d1024_f4096_f32_1_alg».proof.Proof.RulesSend
import proofs.«901046_g7700000000001047_dist_rsdw_v7x_xy2x2_y_m1024_d1024_f4096_f32_1_alg».proof.Proof.RulesWait
import proofs.«901046_g7700000000001047_dist_rsdw_v7x_xy2x2_y_m1024_d1024_f4096_f32_1_alg».proof.Proof.Values
import proofs.«901046_g7700000000001047_dist_rsdw_v7x_xy2x2_y_m1024_d1024_f4096_f32_1_alg».proof.Proof.Body
import proofs.«901046_g7700000000001047_dist_rsdw_v7x_xy2x2_y_m1024_d1024_f4096_f32_1_alg».proof.Proof.GlueX0
import Idealize.ShloMosaic.Lib.Pipeline.Launch
import Idealize.ShloMosaic.Lib.Pipeline.Kit
import Idealize.ShloMosaic.Lib.Tactic
/-! The body once more, at exact extended-real arithmetic and with the result's value kept, on a device with first mesh coordinate 0.

The device starts its eight local copies of `dy`, signals both neighbours' barrier semaphores (handing each its own receive buffer) and waits
for both. It computes, group by group, the sixteen column chunks of the product of the transposed other half of `x` with its half of `dy`
and sends each to the neighbour along the second axis; then, group by group, its own product, adding each chunk it receives and forwarding
that chunk to the neighbour along the first axis; then adds the sixteen forwarded chunks; and copies the eight column blocks of the result
out. Every step that stays on the device is run symbolically; each of the thirty-two transfers to a neighbour is the rounds discipline's
send, the source slot restated at its closed contents first. At the end every cell is closed and every buffer is whole again. -/

set_option maxRecDepth 16384

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Tactic
local notation "𝕄" => MT nD τ sig Unit (Elt Ideal) ℕ UU ℕ

variable (m : (ℓ : Loc nD τ sig) → Buf (Elt Ideal) ℓ)

attribute [local sl_rounds] duties_ysend duties_yrecv duties_fsend duties_xrecv duties_bar amount_ysend amount_yrecv amount_fsend amount_xrecv amount_bar
  expect_ysend expect_yrecv expect_fsend expect_xrecv expect_bar payload_ysend payload_yrecv payload_fsend payload_xrecv
  payload_bar_false payload_bar_true
attribute [local sl_rounds high] payload_bar_false_at payload_bar_true_at
attribute [local sl_canon] dev1_eq dev2_eq dev3_eq dev4_eq dev5_eq dev6_eq dev7_eq dev8_eq dev9_eq dev10_eq dev11_eq dev12_eq dev13_eq dev14_eq dev15_eq dev16_eq dev17_eq dev18_eq dev19_eq dev20_eq dev21_eq dev22_eq dev23_eq dev24_eq dev25_eq dev26_eq dev27_eq dev28_eq dev29_eq dev30_eq dev31_eq dev32_eq dev33_eq dev34_eq
attribute [local irreducible] ynb xnb

theorem bar_rest_v0 (Sb : (c : Dev nD) → (j : Fin 16) → Buf (Elt Ideal) ((sslot j).view.loc (c : Thread nD τ))) (Yc : (c : Dev nD) → (j : Fin 16) → Buf (Elt Ideal) ((yslot j).view.loc (c : Thread nD τ))) (Xc : (c : Dev nD) → (j : Fin 16) → Buf (Elt Ideal) ((xslot j).view.loc (c : Thread nD τ))) (c : Dev nD) : (bigSep Finset.univ (fun d : Bool => (xRd (F := Ideal) Sb Yc Xc).payload (barCell c) 0 d) : sProp 𝕄)
    = iprop((∃ f, (Memref.whole cc0_scratch3 : Memref sig .tc .vmem S16x512x128 .bf16).view.loc ((ynb c) : Thread nD τ) ↦{fullShare} f) ∗ (∃ f, (Memref.whole cc0_scratch4 : Memref sig .tc .vmem S16x512x128 .bf16).view.loc ((xnb c) : Thread nD τ) ↦{fullShare} f)) := by
  have h := rest_bar (F := Ideal) Sb Yc Xc c
  rwa [Finset.sdiff_empty, duties_bar] at h

set_option maxHeartbeats 0 in
theorem body_v0 (c : Dev nD) (hx0 : c.val / 2 = 0) : BodySpec m (SbV (chunk m)) (YcV (chunk m)) (XcV (chunk m)) (fun c o => o = Cert.Spec.kernOut2 (c.val / 2) ⟨c.val % 2, Nat.mod_lt _ (by decide)⟩ (m ((c : Thread nD τ).loc main_arg0)) (m ((c : Thread nD τ).loc main_arg1)) (m ((ynb c : Thread nD τ).loc main_arg0)) (m ((ynb c : Thread nD τ).loc main_arg1)) (m ((ynb (xnb c) : Thread nD τ).loc main_arg0)) (m ((ynb (xnb c) : Thread nD τ).loc main_arg1))) c := by
  intro K W f3 f4 f5 f6 f7 Kt
  unfold ghost creds locals0 posOwn payToks
  iintro ⟨⟨#HIown, #HIpeer, #HR, ⟨Ab, Apos⟩, ⟨Tby, Tbx, Ttoks⟩⟩, ⟨Cb, Ccr⟩, #Hlev, ⟨Lc0, Lc1, Lc2, Lc3, Lc4, Lc5, Lc6, Lc7, Lo0, Lo1, Lo2, Lo3, Lo4, Lo5, Lo6, Lo7⟩, HO, Hx, H1, Ho, H3, H4, H5, Hy, Hxr, Hk⟩
  ihave #HIb := (invsOwn_bar (SbV (chunk m)) (YcV (chunk m)) (XcV (chunk m)) K c) $$ HIown
  ihave #HPby := (invsPeer_by (SbV (chunk m)) (YcV (chunk m)) (XcV (chunk m)) K c) $$ HIpeer
  ihave #HPbx := (invsPeer_bx (SbV (chunk m)) (YcV (chunk m)) (XcV (chunk m)) K c) $$ HIpeer
  ihave #Rby := (reachedAll_by (F := Ideal) c) $$ HR
  ihave #Rbx := (reachedAll_bx (F := Ideal) c) $$ HR
  unfold O₀
  have hmw : ∀ (sm : SemLoc sig) (O : CellTallies nD τ sig Unit), Below c sm O → ((levAts L lv : sProp 𝕄) ⊢ MayWait (c : Thread nD τ) sm () O) := fun sm O h => mayWait_below c sm O h
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  -- the barrier's payloads: the two neighbours' receive buffers
  ihave Hp := (Entails.of_eq (bar_rest_v0 (SbV (chunk m)) (YcV (chunk m)) (XcV (chunk m)) c)) $$ Ab_pay1
  icases Hp with ⟨⟨%fyn, Hyn⟩, ⟨%fxn, Hxn⟩⟩
  -- the three slotted buffers, slot by slot
  ihave Hs := (sslots_split c _) $$ H5
  icases Hs with ⟨Hs0, Hs1, Hs2, Hs3, Hs4, Hs5, Hs6, Hs7, Hs8, Hs9, Hs10, Hs11, Hs12, Hs13, Hs14, Hs15⟩
  ihave Hd := (yslots_split (ynb c) fyn) $$ Hyn
  icases Hd with ⟨Hyn0, Hyn1, Hyn2, Hyn3, Hyn4, Hyn5, Hyn6, Hyn7, Hyn8, Hyn9, Hyn10, Hyn11, Hyn12, Hyn13, Hyn14, Hyn15⟩
  ihave He := (xslots_split (xnb c) fxn) $$ Hxn
  icases He with ⟨Hxn0, Hxn1, Hxn2, Hxn3, Hxn4, Hxn5, Hxn6, Hxn7, Hxn8, Hxn9, Hxn10, Hxn11, Hxn12, Hxn13, Hxn14, Hxn15⟩
  icases Ttoks with ⟨Ts0, Ty0, Ts1, Ty1, Ts2, Ty2, Ts3, Ty3, Ttoks⟩
  ihave Hr0 := (restate_lo_x0 (F := Ideal) m c hx0 0 (by decide) fullShare f5) $$ [Hs0]
  · iexact Hs0
  iapply (wp_send_y (F := Ideal) (SbV (chunk m)) (YcV (chunk m)) (XcV (chunk m)) K c _ (dev3_eq c) 0 _ _ _ _ (fun _ _ => rfl) (land_y_eq (chunk m) c 0 _)) $$ [Hr0 Hyn0 HO Ts0 Ty0]
  · isplitr; · iexact HIown
    isplitr; · iexact HIpeer
    isplitr; · iexact HR
    isplitl [Hr0]; · iexact Hr0
    isplitl [Hyn0]; · iexact Hyn0
    isplitl [HO]; · iexact HO
    isplitl [Ts0]; · iexact Ts0
    iexact Ty0
  iintro ⟨Cs0, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr1 := (restate_lo_x0 (F := Ideal) m c hx0 1 (by decide) fullShare f5) $$ [Hs1]
  · iexact Hs1
  iapply (wp_send_y (F := Ideal) (SbV (chunk m)) (YcV (chunk m)) (XcV (chunk m)) K c _ (dev4_eq c) 1 _ _ _ _ (fun _ _ => rfl) (land_y_eq (chunk m) c 1 _)) $$ [Hr1 Hyn1 HO Ts1 Ty1]
  · isplitr; · iexact HIown
    isplitr; · iexact HIpeer
    isplitr; · iexact HR
    isplitl [Hr1]; · iexact Hr1
    isplitl [Hyn1]; · iexact Hyn1
    isplitl [HO]; · iexact HO
    isplitl [Ts1]; · iexact Ts1
    iexact Ty1
  iintro ⟨Cs1, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr2 := (restate_lo_x0 (F := Ideal) m c hx0 2 (by decide) fullShare f5) $$ [Hs2]
  · iexact Hs2
  iapply (wp_send_y (F := Ideal) (SbV (chunk m)) (YcV (chunk m)) (XcV (chunk m)) K c _ (dev5_eq c) 2 _ _ _ _ (fun _ _ => rfl) (land_y_eq (chunk m) c 2 _)) $$ [Hr2 Hyn2 HO Ts2 Ty2]
  · isplitr; · iexact HIown
    isplitr; · iexact HIpeer
    isplitr; · iexact HR
    isplitl [Hr2]; · iexact Hr2
    isplitl [Hyn2]; · iexact Hyn2
    isplitl [HO]; · iexact HO
    isplitl [Ts2]; · iexact Ts2
    iexact Ty2
  iintro ⟨Cs2, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr3 := (restate_lo_x0 (F := Ideal) m c hx0 3 (by decide) fullShare f5) $$ [Hs3]
  · iexact Hs3
  iapply (wp_send_y (F := Ideal) (SbV (chunk m)) (YcV (chunk m)) (XcV (chunk m)) K c _ (dev6_eq c) 3 _ _ _ _ (fun _ _ => rfl) (land_y_eq (chunk m) c 3 _)) $$ [Hr3 Hyn3 HO Ts3 Ty3]
  · isplitr; · iexact HIown
    isplitr; · iexact HIpeer
    isplitr; · iexact HR
    isplitl [Hr3]; · iexact Hr3
    isplitl [Hyn3]; · iexact Hyn3
    isplitl [HO]; · iexact HO
    isplitl [Ts3]; · iexact Ts3
    iexact Ty3
  iintro ⟨Cs3, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  icases Ttoks with ⟨Ts4, Ty4, Ts5, Ty5, Ts6, Ty6, Ts7, Ty7, Ttoks⟩
  ihave Hr4 := (restate_hi_x0 (F := Ideal) m c hx0 4 (by decide) fullShare f5) $$ [Hs4]
  · iexact Hs4
  iapply (wp_send_y (F := Ideal) (SbV (chunk m)) (YcV (chunk m)) (XcV (chunk m)) K c _ (dev7_eq c) 4 _ _ _ _ (fun _ _ => rfl) (land_y_eq (chunk m) c 4 _)) $$ [Hr4 Hyn4 HO Ts4 Ty4]
  · isplitr; · iexact HIown
    isplitr; · iexact HIpeer
    isplitr; · iexact HR
    isplitl [Hr4]; · iexact Hr4
    isplitl [Hyn4]; · iexact Hyn4
    isplitl [HO]; · iexact HO
    isplitl [Ts4]; · iexact Ts4
    iexact Ty4
  iintro ⟨Cs4, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr5 := (restate_hi_x0 (F := Ideal) m c hx0 5 (by decide) fullShare f5) $$ [Hs5]
  · iexact Hs5
  iapply (wp_send_y (F := Ideal) (SbV (chunk m)) (YcV (chunk m)) (XcV (chunk m)) K c _ (dev8_eq c) 5 _ _ _ _ (fun _ _ => rfl) (land_y_eq (chunk m) c 5 _)) $$ [Hr5 Hyn5 HO Ts5 Ty5]
  · isplitr; · iexact HIown
    isplitr; · iexact HIpeer
    isplitr; · iexact HR
    isplitl [Hr5]; · iexact Hr5
    isplitl [Hyn5]; · iexact Hyn5
    isplitl [HO]; · iexact HO
    isplitl [Ts5]; · iexact Ts5
    iexact Ty5
  iintro ⟨Cs5, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr6 := (restate_hi_x0 (F := Ideal) m c hx0 6 (by decide) fullShare f5) $$ [Hs6]
  · iexact Hs6
  iapply (wp_send_y (F := Ideal) (SbV (chunk m)) (YcV (chunk m)) (XcV (chunk m)) K c _ (dev9_eq c) 6 _ _ _ _ (fun _ _ => rfl) (land_y_eq (chunk m) c 6 _)) $$ [Hr6 Hyn6 HO Ts6 Ty6]
  · isplitr; · iexact HIown
    isplitr; · iexact HIpeer
    isplitr; · iexact HR
    isplitl [Hr6]; · iexact Hr6
    isplitl [Hyn6]; · iexact Hyn6
    isplitl [HO]; · iexact HO
    isplitl [Ts6]; · iexact Ts6
    iexact Ty6
  iintro ⟨Cs6, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr7 := (restate_hi_x0 (F := Ideal) m c hx0 7 (by decide) fullShare f5) $$ [Hs7]
  · iexact Hs7
  iapply (wp_send_y (F := Ideal) (SbV (chunk m)) (YcV (chunk m)) (XcV (chunk m)) K c _ (dev10_eq c) 7 _ _ _ _ (fun _ _ => rfl) (land_y_eq (chunk m) c 7 _)) $$ [Hr7 Hyn7 HO Ts7 Ty7]
  · isplitr; · iexact HIown
    isplitr; · iexact HIpeer
    isplitr; · iexact HR
    isplitl [Hr7]; · iexact Hr7
    isplitl [Hyn7]; · iexact Hyn7
    isplitl [HO]; · iexact HO
    isplitl [Ts7]; · iexact Ts7
    iexact Ty7
  iintro ⟨Cs7, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  icases Ttoks with ⟨Ts8, Ty8, Ts9, Ty9, Ts10, Ty10, Ts11, Ty11, Ttoks⟩
  ihave Hr8 := (restate_hi_x0 (F := Ideal) m c hx0 8 (by decide) fullShare f5) $$ [Hs8]
  · iexact Hs8
  iapply (wp_send_y (F := Ideal) (SbV (chunk m)) (YcV (chunk m)) (XcV (chunk m)) K c _ (dev11_eq c) 8 _ _ _ _ (fun _ _ => rfl) (land_y_eq (chunk m) c 8 _)) $$ [Hr8 Hyn8 HO Ts8 Ty8]
  · isplitr; · iexact HIown
    isplitr; · iexact HIpeer
    isplitr; · iexact HR
    isplitl [Hr8]; · iexact Hr8
    isplitl [Hyn8]; · iexact Hyn8
    isplitl [HO]; · iexact HO
    isplitl [Ts8]; · iexact Ts8
    iexact Ty8
  iintro ⟨Cs8, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr9 := (restate_hi_x0 (F := Ideal) m c hx0 9 (by decide) fullShare f5) $$ [Hs9]
  · iexact Hs9
  iapply (wp_send_y (F := Ideal) (SbV (chunk m)) (YcV (chunk m)) (XcV (chunk m)) K c _ (dev12_eq c) 9 _ _ _ _ (fun _ _ => rfl) (land_y_eq (chunk m) c 9 _)) $$ [Hr9 Hyn9 HO Ts9 Ty9]
  · isplitr; · iexact HIown
    isplitr; · iexact HIpeer
    isplitr; · iexact HR
    isplitl [Hr9]; · iexact Hr9
    isplitl [Hyn9]; · iexact Hyn9
    isplitl [HO]; · iexact HO
    isplitl [Ts9]; · iexact Ts9
    iexact Ty9
  iintro ⟨Cs9, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr10 := (restate_hi_x0 (F := Ideal) m c hx0 10 (by decide) fullShare f5) $$ [Hs10]
  · iexact Hs10
  iapply (wp_send_y (F := Ideal) (SbV (chunk m)) (YcV (chunk m)) (XcV (chunk m)) K c _ (dev13_eq c) 10 _ _ _ _ (fun _ _ => rfl) (land_y_eq (chunk m) c 10 _)) $$ [Hr10 Hyn10 HO Ts10 Ty10]
  · isplitr; · iexact HIown
    isplitr; · iexact HIpeer
    isplitr; · iexact HR
    isplitl [Hr10]; · iexact Hr10
    isplitl [Hyn10]; · iexact Hyn10
    isplitl [HO]; · iexact HO
    isplitl [Ts10]; · iexact Ts10
    iexact Ty10
  iintro ⟨Cs10, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr11 := (restate_hi_x0 (F := Ideal) m c hx0 11 (by decide) fullShare f5) $$ [Hs11]
  · iexact Hs11
  iapply (wp_send_y (F := Ideal) (SbV (chunk m)) (YcV (chunk m)) (XcV (chunk m)) K c _ (dev14_eq c) 11 _ _ _ _ (fun _ _ => rfl) (land_y_eq (chunk m) c 11 _)) $$ [Hr11 Hyn11 HO Ts11 Ty11]
  · isplitr; · iexact HIown
    isplitr; · iexact HIpeer
    isplitr; · iexact HR
    isplitl [Hr11]; · iexact Hr11
    isplitl [Hyn11]; · iexact Hyn11
    isplitl [HO]; · iexact HO
    isplitl [Ts11]; · iexact Ts11
    iexact Ty11
  iintro ⟨Cs11, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  icases Ttoks with ⟨Ts12, Ty12, Ts13, Ty13, Ts14, Ty14, Ts15, Ty15, Ttoks⟩
  ihave Hr12 := (restate_hi_x0 (F := Ideal) m c hx0 12 (by decide) fullShare f5) $$ [Hs12]
  · iexact Hs12
  iapply (wp_send_y (F := Ideal) (SbV (chunk m)) (YcV (chunk m)) (XcV (chunk m)) K c _ (dev15_eq c) 12 _ _ _ _ (fun _ _ => rfl) (land_y_eq (chunk m) c 12 _)) $$ [Hr12 Hyn12 HO Ts12 Ty12]
  · isplitr; · iexact HIown
    isplitr; · iexact HIpeer
    isplitr; · iexact HR
    isplitl [Hr12]; · iexact Hr12
    isplitl [Hyn12]; · iexact Hyn12
    isplitl [HO]; · iexact HO
    isplitl [Ts12]; · iexact Ts12
    iexact Ty12
  iintro ⟨Cs12, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr13 := (restate_hi_x0 (F := Ideal) m c hx0 13 (by decide) fullShare f5) $$ [Hs13]
  · iexact Hs13
  iapply (wp_send_y (F := Ideal) (SbV (chunk m)) (YcV (chunk m)) (XcV (chunk m)) K c _ (dev16_eq c) 13 _ _ _ _ (fun _ _ => rfl) (land_y_eq (chunk m) c 13 _)) $$ [Hr13 Hyn13 HO Ts13 Ty13]
  · isplitr; · iexact HIown
    isplitr; · iexact HIpeer
    isplitr; · iexact HR
    isplitl [Hr13]; · iexact Hr13
    isplitl [Hyn13]; · iexact Hyn13
    isplitl [HO]; · iexact HO
    isplitl [Ts13]; · iexact Ts13
    iexact Ty13
  iintro ⟨Cs13, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr14 := (restate_hi_x0 (F := Ideal) m c hx0 14 (by decide) fullShare f5) $$ [Hs14]
  · iexact Hs14
  iapply (wp_send_y (F := Ideal) (SbV (chunk m)) (YcV (chunk m)) (XcV (chunk m)) K c _ (dev17_eq c) 14 _ _ _ _ (fun _ _ => rfl) (land_y_eq (chunk m) c 14 _)) $$ [Hr14 Hyn14 HO Ts14 Ty14]
  · isplitr; · iexact HIown
    isplitr; · iexact HIpeer
    isplitr; · iexact HR
    isplitl [Hr14]; · iexact Hr14
    isplitl [Hyn14]; · iexact Hyn14
    isplitl [HO]; · iexact HO
    isplitl [Ts14]; · iexact Ts14
    iexact Ty14
  iintro ⟨Cs14, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr15 := (restate_hi_x0 (F := Ideal) m c hx0 15 (by decide) fullShare f5) $$ [Hs15]
  · iexact Hs15
  iapply (wp_send_y (F := Ideal) (SbV (chunk m)) (YcV (chunk m)) (XcV (chunk m)) K c _ (dev18_eq c) 15 _ _ _ _ (fun _ _ => rfl) (land_y_eq (chunk m) c 15 _)) $$ [Hr15 Hyn15 HO Ts15 Ty15]
  · isplitr; · iexact HIown
    isplitr; · iexact HIpeer
    isplitr; · iexact HR
    isplitl [Hr15]; · iexact Hr15
    isplitl [Hyn15]; · iexact Hyn15
    isplitl [HO]; · iexact HO
    isplitl [Ts15]; · iexact Ts15
    iexact Ty15
  iintro ⟨Cs15, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave #HI1_0 := (invsOwn_yrecv (SbV (chunk m)) (YcV (chunk m)) (XcV (chunk m)) K c 0) $$ HIown
  ihave #HI1_1 := (invsOwn_yrecv (SbV (chunk m)) (YcV (chunk m)) (XcV (chunk m)) K c 1) $$ HIown
  ihave #HI1_2 := (invsOwn_yrecv (SbV (chunk m)) (YcV (chunk m)) (XcV (chunk m)) K c 2) $$ HIown
  ihave #HI1_3 := (invsOwn_yrecv (SbV (chunk m)) (YcV (chunk m)) (XcV (chunk m)) K c 3) $$ HIown
  icases Apos with ⟨A1_0, A1_1, A1_2, A1_3, Apos⟩
  icases Ccr with ⟨Cy0, Cy1, Cy2, Cy3, Ccr⟩
  icases Ttoks with ⟨Tf0, Tx0, Tf1, Tx1, Tf2, Tx2, Tf3, Tx3, Ttoks⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh0 := ((yslot_halves (F := Ideal) c 0 _).1) $$ A1_0_pay1
  icases Hh0 with ⟨Hyl0, Hyr0⟩
  iapply (wp_send_f (F := Ideal) (SbV (chunk m)) (YcV (chunk m)) (XcV (chunk m)) K c _ (dev19_eq c) 0 _ _ _ _ (fun _ _ => rfl) (land_f_eq (chunk m) c 0 _)) $$ [Hyl0 Hxn0 HO Tf0 Tx0]
  · isplitr; · iexact HIown
    isplitr; · iexact HIpeer
    isplitr; · iexact HR
    isplitl [Hyl0]; · iexact Hyl0
    isplitl [Hxn0]; · iexact Hxn0
    isplitl [HO]; · iexact HO
    isplitl [Tf0]; · iexact Tf0
    iexact Tx0
  iintro ⟨Cf0, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh1 := ((yslot_halves (F := Ideal) c 1 _).1) $$ A1_1_pay1
  icases Hh1 with ⟨Hyl1, Hyr1⟩
  iapply (wp_send_f (F := Ideal) (SbV (chunk m)) (YcV (chunk m)) (XcV (chunk m)) K c _ (dev20_eq c) 1 _ _ _ _ (fun _ _ => rfl) (land_f_eq (chunk m) c 1 _)) $$ [Hyl1 Hxn1 HO Tf1 Tx1]
  · isplitr; · iexact HIown
    isplitr; · iexact HIpeer
    isplitr; · iexact HR
    isplitl [Hyl1]; · iexact Hyl1
    isplitl [Hxn1]; · iexact Hxn1
    isplitl [HO]; · iexact HO
    isplitl [Tf1]; · iexact Tf1
    iexact Tx1
  iintro ⟨Cf1, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh2 := ((yslot_halves (F := Ideal) c 2 _).1) $$ A1_2_pay1
  icases Hh2 with ⟨Hyl2, Hyr2⟩
  iapply (wp_send_f (F := Ideal) (SbV (chunk m)) (YcV (chunk m)) (XcV (chunk m)) K c _ (dev21_eq c) 2 _ _ _ _ (fun _ _ => rfl) (land_f_eq (chunk m) c 2 _)) $$ [Hyl2 Hxn2 HO Tf2 Tx2]
  · isplitr; · iexact HIown
    isplitr; · iexact HIpeer
    isplitr; · iexact HR
    isplitl [Hyl2]; · iexact Hyl2
    isplitl [Hxn2]; · iexact Hxn2
    isplitl [HO]; · iexact HO
    isplitl [Tf2]; · iexact Tf2
    iexact Tx2
  iintro ⟨Cf2, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh3 := ((yslot_halves (F := Ideal) c 3 _).1) $$ A1_3_pay1
  icases Hh3 with ⟨Hyl3, Hyr3⟩
  iapply (wp_send_f (F := Ideal) (SbV (chunk m)) (YcV (chunk m)) (XcV (chunk m)) K c _ (dev22_eq c) 3 _ _ _ _ (fun _ _ => rfl) (land_f_eq (chunk m) c 3 _)) $$ [Hyl3 Hxn3 HO Tf3 Tx3]
  · isplitr; · iexact HIown
    isplitr; · iexact HIpeer
    isplitr; · iexact HR
    isplitl [Hyl3]; · iexact Hyl3
    isplitl [Hxn3]; · iexact Hxn3
    isplitl [HO]; · iexact HO
    isplitl [Tf3]; · iexact Tf3
    iexact Tx3
  iintro ⟨Cf3, HO⟩
  iclear HI1_0
  iclear HI1_1
  iclear HI1_2
  iclear HI1_3
  ihave #HI1_4 := (invsOwn_yrecv (SbV (chunk m)) (YcV (chunk m)) (XcV (chunk m)) K c 4) $$ HIown
  ihave #HI1_5 := (invsOwn_yrecv (SbV (chunk m)) (YcV (chunk m)) (XcV (chunk m)) K c 5) $$ HIown
  ihave #HI1_6 := (invsOwn_yrecv (SbV (chunk m)) (YcV (chunk m)) (XcV (chunk m)) K c 6) $$ HIown
  ihave #HI1_7 := (invsOwn_yrecv (SbV (chunk m)) (YcV (chunk m)) (XcV (chunk m)) K c 7) $$ HIown
  icases Apos with ⟨A1_4, A1_5, A1_6, A1_7, Apos⟩
  icases Ccr with ⟨Cy4, Cy5, Cy6, Cy7, Ccr⟩
  icases Ttoks with ⟨Tf4, Tx4, Tf5, Tx5, Tf6, Tx6, Tf7, Tx7, Ttoks⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh4 := ((yslot_halves (F := Ideal) c 4 _).1) $$ A1_4_pay1
  icases Hh4 with ⟨Hyl4, Hyr4⟩
  iapply (wp_send_f (F := Ideal) (SbV (chunk m)) (YcV (chunk m)) (XcV (chunk m)) K c _ (dev23_eq c) 4 _ _ _ _ (fun _ _ => rfl) (land_f_eq (chunk m) c 4 _)) $$ [Hyl4 Hxn4 HO Tf4 Tx4]
  · isplitr; · iexact HIown
    isplitr; · iexact HIpeer
    isplitr; · iexact HR
    isplitl [Hyl4]; · iexact Hyl4
    isplitl [Hxn4]; · iexact Hxn4
    isplitl [HO]; · iexact HO
    isplitl [Tf4]; · iexact Tf4
    iexact Tx4
  iintro ⟨Cf4, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh5 := ((yslot_halves (F := Ideal) c 5 _).1) $$ A1_5_pay1
  icases Hh5 with ⟨Hyl5, Hyr5⟩
  iapply (wp_send_f (F := Ideal) (SbV (chunk m)) (YcV (chunk m)) (XcV (chunk m)) K c _ (dev24_eq c) 5 _ _ _ _ (fun _ _ => rfl) (land_f_eq (chunk m) c 5 _)) $$ [Hyl5 Hxn5 HO Tf5 Tx5]
  · isplitr; · iexact HIown
    isplitr; · iexact HIpeer
    isplitr; · iexact HR
    isplitl [Hyl5]; · iexact Hyl5
    isplitl [Hxn5]; · iexact Hxn5
    isplitl [HO]; · iexact HO
    isplitl [Tf5]; · iexact Tf5
    iexact Tx5
  iintro ⟨Cf5, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh6 := ((yslot_halves (F := Ideal) c 6 _).1) $$ A1_6_pay1
  icases Hh6 with ⟨Hyl6, Hyr6⟩
  iapply (wp_send_f (F := Ideal) (SbV (chunk m)) (YcV (chunk m)) (XcV (chunk m)) K c _ (dev25_eq c) 6 _ _ _ _ (fun _ _ => rfl) (land_f_eq (chunk m) c 6 _)) $$ [Hyl6 Hxn6 HO Tf6 Tx6]
  · isplitr; · iexact HIown
    isplitr; · iexact HIpeer
    isplitr; · iexact HR
    isplitl [Hyl6]; · iexact Hyl6
    isplitl [Hxn6]; · iexact Hxn6
    isplitl [HO]; · iexact HO
    isplitl [Tf6]; · iexact Tf6
    iexact Tx6
  iintro ⟨Cf6, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh7 := ((yslot_halves (F := Ideal) c 7 _).1) $$ A1_7_pay1
  icases Hh7 with ⟨Hyl7, Hyr7⟩
  iapply (wp_send_f (F := Ideal) (SbV (chunk m)) (YcV (chunk m)) (XcV (chunk m)) K c _ (dev26_eq c) 7 _ _ _ _ (fun _ _ => rfl) (land_f_eq (chunk m) c 7 _)) $$ [Hyl7 Hxn7 HO Tf7 Tx7]
  · isplitr; · iexact HIown
    isplitr; · iexact HIpeer
    isplitr; · iexact HR
    isplitl [Hyl7]; · iexact Hyl7
    isplitl [Hxn7]; · iexact Hxn7
    isplitl [HO]; · iexact HO
    isplitl [Tf7]; · iexact Tf7
    iexact Tx7
  iintro ⟨Cf7, HO⟩
  iclear HI1_4
  iclear HI1_5
  iclear HI1_6
  iclear HI1_7
  ihave #HI1_8 := (invsOwn_yrecv (SbV (chunk m)) (YcV (chunk m)) (XcV (chunk m)) K c 8) $$ HIown
  ihave #HI1_9 := (invsOwn_yrecv (SbV (chunk m)) (YcV (chunk m)) (XcV (chunk m)) K c 9) $$ HIown
  ihave #HI1_10 := (invsOwn_yrecv (SbV (chunk m)) (YcV (chunk m)) (XcV (chunk m)) K c 10) $$ HIown
  ihave #HI1_11 := (invsOwn_yrecv (SbV (chunk m)) (YcV (chunk m)) (XcV (chunk m)) K c 11) $$ HIown
  icases Apos with ⟨A1_8, A1_9, A1_10, A1_11, Apos⟩
  icases Ccr with ⟨Cy8, Cy9, Cy10, Cy11, Ccr⟩
  icases Ttoks with ⟨Tf8, Tx8, Tf9, Tx9, Tf10, Tx10, Tf11, Tx11, Ttoks⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh8 := ((yslot_halves (F := Ideal) c 8 _).1) $$ A1_8_pay1
  icases Hh8 with ⟨Hyl8, Hyr8⟩
  iapply (wp_send_f (F := Ideal) (SbV (chunk m)) (YcV (chunk m)) (XcV (chunk m)) K c _ (dev27_eq c) 8 _ _ _ _ (fun _ _ => rfl) (land_f_eq (chunk m) c 8 _)) $$ [Hyl8 Hxn8 HO Tf8 Tx8]
  · isplitr; · iexact HIown
    isplitr; · iexact HIpeer
    isplitr; · iexact HR
    isplitl [Hyl8]; · iexact Hyl8
    isplitl [Hxn8]; · iexact Hxn8
    isplitl [HO]; · iexact HO
    isplitl [Tf8]; · iexact Tf8
    iexact Tx8
  iintro ⟨Cf8, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh9 := ((yslot_halves (F := Ideal) c 9 _).1) $$ A1_9_pay1
  icases Hh9 with ⟨Hyl9, Hyr9⟩
  iapply (wp_send_f (F := Ideal) (SbV (chunk m)) (YcV (chunk m)) (XcV (chunk m)) K c _ (dev28_eq c) 9 _ _ _ _ (fun _ _ => rfl) (land_f_eq (chunk m) c 9 _)) $$ [Hyl9 Hxn9 HO Tf9 Tx9]
  · isplitr; · iexact HIown
    isplitr; · iexact HIpeer
    isplitr; · iexact HR
    isplitl [Hyl9]; · iexact Hyl9
    isplitl [Hxn9]; · iexact Hxn9
    isplitl [HO]; · iexact HO
    isplitl [Tf9]; · iexact Tf9
    iexact Tx9
  iintro ⟨Cf9, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh10 := ((yslot_halves (F := Ideal) c 10 _).1) $$ A1_10_pay1
  icases Hh10 with ⟨Hyl10, Hyr10⟩
  iapply (wp_send_f (F := Ideal) (SbV (chunk m)) (YcV (chunk m)) (XcV (chunk m)) K c _ (dev29_eq c) 10 _ _ _ _ (fun _ _ => rfl) (land_f_eq (chunk m) c 10 _)) $$ [Hyl10 Hxn10 HO Tf10 Tx10]
  · isplitr; · iexact HIown
    isplitr; · iexact HIpeer
    isplitr; · iexact HR
    isplitl [Hyl10]; · iexact Hyl10
    isplitl [Hxn10]; · iexact Hxn10
    isplitl [HO]; · iexact HO
    isplitl [Tf10]; · iexact Tf10
    iexact Tx10
  iintro ⟨Cf10, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh11 := ((yslot_halves (F := Ideal) c 11 _).1) $$ A1_11_pay1
  icases Hh11 with ⟨Hyl11, Hyr11⟩
  iapply (wp_send_f (F := Ideal) (SbV (chunk m)) (YcV (chunk m)) (XcV (chunk m)) K c _ (dev30_eq c) 11 _ _ _ _ (fun _ _ => rfl) (land_f_eq (chunk m) c 11 _)) $$ [Hyl11 Hxn11 HO Tf11 Tx11]
  · isplitr; · iexact HIown
    isplitr; · iexact HIpeer
    isplitr; · iexact HR
    isplitl [Hyl11]; · iexact Hyl11
    isplitl [Hxn11]; · iexact Hxn11
    isplitl [HO]; · iexact HO
    isplitl [Tf11]; · iexact Tf11
    iexact Tx11
  iintro ⟨Cf11, HO⟩
  iclear HI1_8
  iclear HI1_9
  iclear HI1_10
  iclear HI1_11
  ihave #HI1_12 := (invsOwn_yrecv (SbV (chunk m)) (YcV (chunk m)) (XcV (chunk m)) K c 12) $$ HIown
  ihave #HI1_13 := (invsOwn_yrecv (SbV (chunk m)) (YcV (chunk m)) (XcV (chunk m)) K c 13) $$ HIown
  ihave #HI1_14 := (invsOwn_yrecv (SbV (chunk m)) (YcV (chunk m)) (XcV (chunk m)) K c 14) $$ HIown
  ihave #HI1_15 := (invsOwn_yrecv (SbV (chunk m)) (YcV (chunk m)) (XcV (chunk m)) K c 15) $$ HIown
  icases Apos with ⟨A1_12, A1_13, A1_14, A1_15, Apos⟩
  icases Ccr with ⟨Cy12, Cy13, Cy14, Cy15, Ccr⟩
  icases Ttoks with ⟨Tf12, Tx12, Tf13, Tx13, Tf14, Tx14, Tf15, Tx15⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh12 := ((yslot_halves (F := Ideal) c 12 _).1) $$ A1_12_pay1
  icases Hh12 with ⟨Hyl12, Hyr12⟩
  iapply (wp_send_f (F := Ideal) (SbV (chunk m)) (YcV (chunk m)) (XcV (chunk m)) K c _ (dev31_eq c) 12 _ _ _ _ (fun _ _ => rfl) (land_f_eq (chunk m) c 12 _)) $$ [Hyl12 Hxn12 HO Tf12 Tx12]
  · isplitr; · iexact HIown
    isplitr; · iexact HIpeer
    isplitr; · iexact HR
    isplitl [Hyl12]; · iexact Hyl12
    isplitl [Hxn12]; · iexact Hxn12
    isplitl [HO]; · iexact HO
    isplitl [Tf12]; · iexact Tf12
    iexact Tx12
  iintro ⟨Cf12, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh13 := ((yslot_halves (F := Ideal) c 13 _).1) $$ A1_13_pay1
  icases Hh13 with ⟨Hyl13, Hyr13⟩
  iapply (wp_send_f (F := Ideal) (SbV (chunk m)) (YcV (chunk m)) (XcV (chunk m)) K c _ (dev32_eq c) 13 _ _ _ _ (fun _ _ => rfl) (land_f_eq (chunk m) c 13 _)) $$ [Hyl13 Hxn13 HO Tf13 Tx13]
  · isplitr; · iexact HIown
    isplitr; · iexact HIpeer
    isplitr; · iexact HR
    isplitl [Hyl13]; · iexact Hyl13
    isplitl [Hxn13]; · iexact Hxn13
    isplitl [HO]; · iexact HO
    isplitl [Tf13]; · iexact Tf13
    iexact Tx13
  iintro ⟨Cf13, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh14 := ((yslot_halves (F := Ideal) c 14 _).1) $$ A1_14_pay1
  icases Hh14 with ⟨Hyl14, Hyr14⟩
  iapply (wp_send_f (F := Ideal) (SbV (chunk m)) (YcV (chunk m)) (XcV (chunk m)) K c _ (dev33_eq c) 14 _ _ _ _ (fun _ _ => rfl) (land_f_eq (chunk m) c 14 _)) $$ [Hyl14 Hxn14 HO Tf14 Tx14]
  · isplitr; · iexact HIown
    isplitr; · iexact HIpeer
    isplitr; · iexact HR
    isplitl [Hyl14]; · iexact Hyl14
    isplitl [Hxn14]; · iexact Hxn14
    isplitl [HO]; · iexact HO
    isplitl [Tf14]; · iexact Tf14
    iexact Tx14
  iintro ⟨Cf14, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh15 := ((yslot_halves (F := Ideal) c 15 _).1) $$ A1_15_pay1
  icases Hh15 with ⟨Hyl15, Hyr15⟩
  ihave HO := (Entails.of_eq (congrArg (fun O => (owes (c : Thread nD τ) O _ : sProp 𝕄)) (zero_add (tallyAt (xrecvCell (xnb c) 15) () N)).symm)) $$ HO
  iapply (wp_send_f (F := Ideal) (SbV (chunk m)) (YcV (chunk m)) (XcV (chunk m)) K c _ (dev34_eq c) 15 _ _ _ _ (fun _ _ => rfl) (land_f_eq (chunk m) c 15 _)) $$ [Hyl15 Hxn15 HO Tf15 Tx15]
  · isplitr; · iexact HIown
    isplitr; · iexact HIpeer
    isplitr; · iexact HR
    isplitl [Hyl15]; · iexact Hyl15
    isplitl [Hxn15]; · iexact Hxn15
    isplitl [HO]; · iexact HO
    isplitl [Tf15]; · iexact Tf15
    iexact Tx15
  iintro ⟨Cf15, HO⟩
  iclear HI1_12
  iclear HI1_13
  iclear HI1_14
  iclear HI1_15
  ihave #HI3_0 := (invsOwn_xrecv (SbV (chunk m)) (YcV (chunk m)) (XcV (chunk m)) K c 0) $$ HIown
  ihave #HI3_1 := (invsOwn_xrecv (SbV (chunk m)) (YcV (chunk m)) (XcV (chunk m)) K c 1) $$ HIown
  ihave #HI3_2 := (invsOwn_xrecv (SbV (chunk m)) (YcV (chunk m)) (XcV (chunk m)) K c 2) $$ HIown
  ihave #HI3_3 := (invsOwn_xrecv (SbV (chunk m)) (YcV (chunk m)) (XcV (chunk m)) K c 3) $$ HIown
  icases Apos with ⟨A3_0, A3_1, A3_2, A3_3, Apos⟩
  icases Ccr with ⟨Cx0, Cx1, Cx2, Cx3, Ccr⟩
  ihave #HI3_4 := (invsOwn_xrecv (SbV (chunk m)) (YcV (chunk m)) (XcV (chunk m)) K c 4) $$ HIown
  ihave #HI3_5 := (invsOwn_xrecv (SbV (chunk m)) (YcV (chunk m)) (XcV (chunk m)) K c 5) $$ HIown
  ihave #HI3_6 := (invsOwn_xrecv (SbV (chunk m)) (YcV (chunk m)) (XcV (chunk m)) K c 6) $$ HIown
  ihave #HI3_7 := (invsOwn_xrecv (SbV (chunk m)) (YcV (chunk m)) (XcV (chunk m)) K c 7) $$ HIown
  icases Apos with ⟨A3_4, A3_5, A3_6, A3_7, Apos⟩
  icases Ccr with ⟨Cx4, Cx5, Cx6, Cx7, Ccr⟩
  ihave #HI3_8 := (invsOwn_xrecv (SbV (chunk m)) (YcV (chunk m)) (XcV (chunk m)) K c 8) $$ HIown
  ihave #HI3_9 := (invsOwn_xrecv (SbV (chunk m)) (YcV (chunk m)) (XcV (chunk m)) K c 9) $$ HIown
  ihave #HI3_10 := (invsOwn_xrecv (SbV (chunk m)) (YcV (chunk m)) (XcV (chunk m)) K c 10) $$ HIown
  ihave #HI3_11 := (invsOwn_xrecv (SbV (chunk m)) (YcV (chunk m)) (XcV (chunk m)) K c 11) $$ HIown
  icases Apos with ⟨A3_8, A3_9, A3_10, A3_11, Apos⟩
  icases Ccr with ⟨Cx8, Cx9, Cx10, Cx11, Ccr⟩
  ihave #HI3_12 := (invsOwn_xrecv (SbV (chunk m)) (YcV (chunk m)) (XcV (chunk m)) K c 12) $$ HIown
  ihave #HI3_13 := (invsOwn_xrecv (SbV (chunk m)) (YcV (chunk m)) (XcV (chunk m)) K c 13) $$ HIown
  ihave #HI3_14 := (invsOwn_xrecv (SbV (chunk m)) (YcV (chunk m)) (XcV (chunk m)) K c 14) $$ HIown
  ihave #HI3_15 := (invsOwn_xrecv (SbV (chunk m)) (YcV (chunk m)) (XcV (chunk m)) K c 15) $$ HIown
  icases Apos with ⟨A3_12, A3_13, A3_14, A3_15, Apos⟩
  icases Ccr with ⟨Cx12, Cx13, Cx14, Cx15⟩
  ihave #HI0_0 := (invsOwn_ysend (SbV (chunk m)) (YcV (chunk m)) (XcV (chunk m)) K c 0) $$ HIown
  ihave #HI2_0 := (invsOwn_fsend (SbV (chunk m)) (YcV (chunk m)) (XcV (chunk m)) K c 0) $$ HIown
  ihave #HI0_1 := (invsOwn_ysend (SbV (chunk m)) (YcV (chunk m)) (XcV (chunk m)) K c 1) $$ HIown
  ihave #HI2_1 := (invsOwn_fsend (SbV (chunk m)) (YcV (chunk m)) (XcV (chunk m)) K c 1) $$ HIown
  ihave #HI0_2 := (invsOwn_ysend (SbV (chunk m)) (YcV (chunk m)) (XcV (chunk m)) K c 2) $$ HIown
  ihave #HI2_2 := (invsOwn_fsend (SbV (chunk m)) (YcV (chunk m)) (XcV (chunk m)) K c 2) $$ HIown
  ihave #HI0_3 := (invsOwn_ysend (SbV (chunk m)) (YcV (chunk m)) (XcV (chunk m)) K c 3) $$ HIown
  ihave #HI2_3 := (invsOwn_fsend (SbV (chunk m)) (YcV (chunk m)) (XcV (chunk m)) K c 3) $$ HIown
  icases Apos with ⟨A0_0, A2_0, A0_1, A2_1, A0_2, A2_2, A0_3, A2_3, Apos⟩
  ihave #HI0_4 := (invsOwn_ysend (SbV (chunk m)) (YcV (chunk m)) (XcV (chunk m)) K c 4) $$ HIown
  ihave #HI2_4 := (invsOwn_fsend (SbV (chunk m)) (YcV (chunk m)) (XcV (chunk m)) K c 4) $$ HIown
  ihave #HI0_5 := (invsOwn_ysend (SbV (chunk m)) (YcV (chunk m)) (XcV (chunk m)) K c 5) $$ HIown
  ihave #HI2_5 := (invsOwn_fsend (SbV (chunk m)) (YcV (chunk m)) (XcV (chunk m)) K c 5) $$ HIown
  ihave #HI0_6 := (invsOwn_ysend (SbV (chunk m)) (YcV (chunk m)) (XcV (chunk m)) K c 6) $$ HIown
  ihave #HI2_6 := (invsOwn_fsend (SbV (chunk m)) (YcV (chunk m)) (XcV (chunk m)) K c 6) $$ HIown
  ihave #HI0_7 := (invsOwn_ysend (SbV (chunk m)) (YcV (chunk m)) (XcV (chunk m)) K c 7) $$ HIown
  ihave #HI2_7 := (invsOwn_fsend (SbV (chunk m)) (YcV (chunk m)) (XcV (chunk m)) K c 7) $$ HIown
  icases Apos with ⟨A0_4, A2_4, A0_5, A2_5, A0_6, A2_6, A0_7, A2_7, Apos⟩
  ihave #HI0_8 := (invsOwn_ysend (SbV (chunk m)) (YcV (chunk m)) (XcV (chunk m)) K c 8) $$ HIown
  ihave #HI2_8 := (invsOwn_fsend (SbV (chunk m)) (YcV (chunk m)) (XcV (chunk m)) K c 8) $$ HIown
  ihave #HI0_9 := (invsOwn_ysend (SbV (chunk m)) (YcV (chunk m)) (XcV (chunk m)) K c 9) $$ HIown
  ihave #HI2_9 := (invsOwn_fsend (SbV (chunk m)) (YcV (chunk m)) (XcV (chunk m)) K c 9) $$ HIown
  ihave #HI0_10 := (invsOwn_ysend (SbV (chunk m)) (YcV (chunk m)) (XcV (chunk m)) K c 10) $$ HIown
  ihave #HI2_10 := (invsOwn_fsend (SbV (chunk m)) (YcV (chunk m)) (XcV (chunk m)) K c 10) $$ HIown
  ihave #HI0_11 := (invsOwn_ysend (SbV (chunk m)) (YcV (chunk m)) (XcV (chunk m)) K c 11) $$ HIown
  ihave #HI2_11 := (invsOwn_fsend (SbV (chunk m)) (YcV (chunk m)) (XcV (chunk m)) K c 11) $$ HIown
  icases Apos with ⟨A0_8, A2_8, A0_9, A2_9, A0_10, A2_10, A0_11, A2_11, Apos⟩
  ihave #HI0_12 := (invsOwn_ysend (SbV (chunk m)) (YcV (chunk m)) (XcV (chunk m)) K c 12) $$ HIown
  ihave #HI2_12 := (invsOwn_fsend (SbV (chunk m)) (YcV (chunk m)) (XcV (chunk m)) K c 12) $$ HIown
  ihave #HI0_13 := (invsOwn_ysend (SbV (chunk m)) (YcV (chunk m)) (XcV (chunk m)) K c 13) $$ HIown
  ihave #HI2_13 := (invsOwn_fsend (SbV (chunk m)) (YcV (chunk m)) (XcV (chunk m)) K c 13) $$ HIown
  ihave #HI0_14 := (invsOwn_ysend (SbV (chunk m)) (YcV (chunk m)) (XcV (chunk m)) K c 14) $$ HIown
  ihave #HI2_14 := (invsOwn_fsend (SbV (chunk m)) (YcV (chunk m)) (XcV (chunk m)) K c 14) $$ HIown
  ihave #HI0_15 := (invsOwn_ysend (SbV (chunk m)) (YcV (chunk m)) (XcV (chunk m)) K c 15) $$ HIown
  ihave #HI2_15 := (invsOwn_fsend (SbV (chunk m)) (YcV (chunk m)) (XcV (chunk m)) K c 15) $$ HIown
  icases Apos with ⟨A0_12, A2_12, A0_13, A2_13, A0_14, A2_14, A0_15, A2_15⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  -- the result's buffer back in one piece
  ihave H4e := (scratch1_rejoin0 (F := Ideal) c _ _ _ _ _) $$ [H4 H4_2 H4_3 H4_4 H4_5]
  · isplitl [H4]; · iexact H4
    isplitl [H4_2]; · iexact H4_2
    isplitl [H4_3]; · iexact H4_3
    isplitl [H4_4]; · iexact H4_4
    iexact H4_5
  icases H4e with ⟨%f4e, H4w⟩
  -- the cells closed, the buffers whole again: the post
  imod (body_exit (F := Ideal) m (SbV (chunk m)) (YcV (chunk m)) (XcV (chunk m)) (fun c o => o = Cert.Spec.kernOut2 (c.val / 2) ⟨c.val % 2, Nat.mod_lt _ (by decide)⟩ (m ((c : Thread nD τ).loc main_arg0)) (m ((c : Thread nD τ).loc main_arg1)) (m ((ynb c : Thread nD τ).loc main_arg0)) (m ((ynb c : Thread nD τ).loc main_arg1)) (m ((ynb (xnb c) : Thread nD τ).loc main_arg0)) (m ((ynb (xnb c) : Thread nD τ).loc main_arg1))) K c _ _ _ _ (glue_x0_spec m c _ hx0 _ _ _ _ _ _ _ _ _ rfl rfl rfl rfl rfl rfl rfl rfl)) $$ [A0_0 A0_1 A0_2 A0_3 A0_4 A0_5 A0_6 A0_7 A0_8 A0_9 A0_10 A0_11 A0_12 A0_13 A0_14 A0_15 A1_0 A1_1 A1_2 A1_3 A1_4 A1_5 A1_6 A1_7 A1_8 A1_9 A1_10 A1_11 A1_12 A1_13 A1_14 A1_15 A2_0 A2_1 A2_2 A2_3 A2_4 A2_5 A2_6 A2_7 A2_8 A2_9 A2_10 A2_11 A2_12 A2_13 A2_14 A2_15 A3_0 A3_1 A3_2 A3_3 A3_4 A3_5 A3_6 A3_7 A3_8 A3_9 A3_10 A3_11 A3_12 A3_13 A3_14 A3_15 Lc0 Lc1 Lc2 Lc3 Lc4 Lc5 Lc6 Lc7 Lo0 Lo1 Lo2 Lo3 Lo4 Lo5 Lo6 Lo7 HO Hx H1 Ho H3 H4w A0_0_pay1 A0_1_pay1 A0_2_pay1 A0_3_pay1 A0_4_pay1 A0_5_pay1 A0_6_pay1 A0_7_pay1 A0_8_pay1 A0_9_pay1 A0_10_pay1 A0_11_pay1 A0_12_pay1 A0_13_pay1 A0_14_pay1 A0_15_pay1 A2_0_pay1 A2_1_pay1 A2_2_pay1 A2_3_pay1 A2_4_pay1 A2_5_pay1 A2_6_pay1 A2_7_pay1 A2_8_pay1 A2_9_pay1 A2_10_pay1 A2_11_pay1 A2_12_pay1 A2_13_pay1 A2_14_pay1 A2_15_pay1 Hyr0 Hyr1 Hyr2 Hyr3 Hyr4 Hyr5 Hyr6 Hyr7 Hyr8 Hyr9 Hyr10 Hyr11 Hyr12 Hyr13 Hyr14 Hyr15 A3_0_pay1 A3_1_pay1 A3_2_pay1 A3_3_pay1 A3_4_pay1 A3_5_pay1 A3_6_pay1 A3_7_pay1 A3_8_pay1 A3_9_pay1 A3_10_pay1 A3_11_pay1 A3_12_pay1 A3_13_pay1 A3_14_pay1 A3_15_pay1] with Hpost
  · unfold posDone locals0 sDone yLeft yRight xDone
    isplitr; · iexact HIown
    isplitl [A0_0 A0_1 A0_2 A0_3 A0_4 A0_5 A0_6 A0_7 A0_8 A0_9 A0_10 A0_11 A0_12 A0_13 A0_14 A0_15 A1_0 A1_1 A1_2 A1_3 A1_4 A1_5 A1_6 A1_7 A1_8 A1_9 A1_10 A1_11 A1_12 A1_13 A1_14 A1_15 A2_0 A2_1 A2_2 A2_3 A2_4 A2_5 A2_6 A2_7 A2_8 A2_9 A2_10 A2_11 A2_12 A2_13 A2_14 A2_15 A3_0 A3_1 A3_2 A3_3 A3_4 A3_5 A3_6 A3_7 A3_8 A3_9 A3_10 A3_11 A3_12 A3_13 A3_14 A3_15]
    · isplitl [A0_0]; · iexact A0_0
      isplitl [A0_1]; · iexact A0_1
      isplitl [A0_2]; · iexact A0_2
      isplitl [A0_3]; · iexact A0_3
      isplitl [A0_4]; · iexact A0_4
      isplitl [A0_5]; · iexact A0_5
      isplitl [A0_6]; · iexact A0_6
      isplitl [A0_7]; · iexact A0_7
      isplitl [A0_8]; · iexact A0_8
      isplitl [A0_9]; · iexact A0_9
      isplitl [A0_10]; · iexact A0_10
      isplitl [A0_11]; · iexact A0_11
      isplitl [A0_12]; · iexact A0_12
      isplitl [A0_13]; · iexact A0_13
      isplitl [A0_14]; · iexact A0_14
      isplitl [A0_15]; · iexact A0_15
      isplitl [A1_0]; · iexact A1_0
      isplitl [A1_1]; · iexact A1_1
      isplitl [A1_2]; · iexact A1_2
      isplitl [A1_3]; · iexact A1_3
      isplitl [A1_4]; · iexact A1_4
      isplitl [A1_5]; · iexact A1_5
      isplitl [A1_6]; · iexact A1_6
      isplitl [A1_7]; · iexact A1_7
      isplitl [A1_8]; · iexact A1_8
      isplitl [A1_9]; · iexact A1_9
      isplitl [A1_10]; · iexact A1_10
      isplitl [A1_11]; · iexact A1_11
      isplitl [A1_12]; · iexact A1_12
      isplitl [A1_13]; · iexact A1_13
      isplitl [A1_14]; · iexact A1_14
      isplitl [A1_15]; · iexact A1_15
      isplitl [A2_0]; · iexact A2_0
      isplitl [A2_1]; · iexact A2_1
      isplitl [A2_2]; · iexact A2_2
      isplitl [A2_3]; · iexact A2_3
      isplitl [A2_4]; · iexact A2_4
      isplitl [A2_5]; · iexact A2_5
      isplitl [A2_6]; · iexact A2_6
      isplitl [A2_7]; · iexact A2_7
      isplitl [A2_8]; · iexact A2_8
      isplitl [A2_9]; · iexact A2_9
      isplitl [A2_10]; · iexact A2_10
      isplitl [A2_11]; · iexact A2_11
      isplitl [A2_12]; · iexact A2_12
      isplitl [A2_13]; · iexact A2_13
      isplitl [A2_14]; · iexact A2_14
      isplitl [A2_15]; · iexact A2_15
      isplitl [A3_0]; · iexact A3_0
      isplitl [A3_1]; · iexact A3_1
      isplitl [A3_2]; · iexact A3_2
      isplitl [A3_3]; · iexact A3_3
      isplitl [A3_4]; · iexact A3_4
      isplitl [A3_5]; · iexact A3_5
      isplitl [A3_6]; · iexact A3_6
      isplitl [A3_7]; · iexact A3_7
      isplitl [A3_8]; · iexact A3_8
      isplitl [A3_9]; · iexact A3_9
      isplitl [A3_10]; · iexact A3_10
      isplitl [A3_11]; · iexact A3_11
      isplitl [A3_12]; · iexact A3_12
      isplitl [A3_13]; · iexact A3_13
      isplitl [A3_14]; · iexact A3_14
      iexact A3_15
    isplitl [Lc0 Lc1 Lc2 Lc3 Lc4 Lc5 Lc6 Lc7 Lo0 Lo1 Lo2 Lo3 Lo4 Lo5 Lo6 Lo7]
    · isplitl [Lc0]; · iexact Lc0
      isplitl [Lc1]; · iexact Lc1
      isplitl [Lc2]; · iexact Lc2
      isplitl [Lc3]; · iexact Lc3
      isplitl [Lc4]; · iexact Lc4
      isplitl [Lc5]; · iexact Lc5
      isplitl [Lc6]; · iexact Lc6
      isplitl [Lc7]; · iexact Lc7
      isplitl [Lo0]; · iexact Lo0
      isplitl [Lo1]; · iexact Lo1
      isplitl [Lo2]; · iexact Lo2
      isplitl [Lo3]; · iexact Lo3
      isplitl [Lo4]; · iexact Lo4
      isplitl [Lo5]; · iexact Lo5
      isplitl [Lo6]; · iexact Lo6
      iexact Lo7
    isplitl [HO]; · iexact HO
    isplitl [Hx]; · iexact Hx
    isplitl [H1]; · iexact H1
    isplitl [Ho]; · iexact Ho
    isplitl [H3]; · iexact H3
    isplitl [H4w]; · iexact H4w
    isplitl [A0_0_pay1 A0_1_pay1 A0_2_pay1 A0_3_pay1 A0_4_pay1 A0_5_pay1 A0_6_pay1 A0_7_pay1 A0_8_pay1 A0_9_pay1 A0_10_pay1 A0_11_pay1 A0_12_pay1 A0_13_pay1 A0_14_pay1 A0_15_pay1]
    · isplitl [A0_0_pay1]; · iexact A0_0_pay1
      isplitl [A0_1_pay1]; · iexact A0_1_pay1
      isplitl [A0_2_pay1]; · iexact A0_2_pay1
      isplitl [A0_3_pay1]; · iexact A0_3_pay1
      isplitl [A0_4_pay1]; · iexact A0_4_pay1
      isplitl [A0_5_pay1]; · iexact A0_5_pay1
      isplitl [A0_6_pay1]; · iexact A0_6_pay1
      isplitl [A0_7_pay1]; · iexact A0_7_pay1
      isplitl [A0_8_pay1]; · iexact A0_8_pay1
      isplitl [A0_9_pay1]; · iexact A0_9_pay1
      isplitl [A0_10_pay1]; · iexact A0_10_pay1
      isplitl [A0_11_pay1]; · iexact A0_11_pay1
      isplitl [A0_12_pay1]; · iexact A0_12_pay1
      isplitl [A0_13_pay1]; · iexact A0_13_pay1
      isplitl [A0_14_pay1]; · iexact A0_14_pay1
      iexact A0_15_pay1
    isplitl [A2_0_pay1 A2_1_pay1 A2_2_pay1 A2_3_pay1 A2_4_pay1 A2_5_pay1 A2_6_pay1 A2_7_pay1 A2_8_pay1 A2_9_pay1 A2_10_pay1 A2_11_pay1 A2_12_pay1 A2_13_pay1 A2_14_pay1 A2_15_pay1]
    · isplitl [A2_0_pay1]; · iexact A2_0_pay1
      isplitl [A2_1_pay1]; · iexact A2_1_pay1
      isplitl [A2_2_pay1]; · iexact A2_2_pay1
      isplitl [A2_3_pay1]; · iexact A2_3_pay1
      isplitl [A2_4_pay1]; · iexact A2_4_pay1
      isplitl [A2_5_pay1]; · iexact A2_5_pay1
      isplitl [A2_6_pay1]; · iexact A2_6_pay1
      isplitl [A2_7_pay1]; · iexact A2_7_pay1
      isplitl [A2_8_pay1]; · iexact A2_8_pay1
      isplitl [A2_9_pay1]; · iexact A2_9_pay1
      isplitl [A2_10_pay1]; · iexact A2_10_pay1
      isplitl [A2_11_pay1]; · iexact A2_11_pay1
      isplitl [A2_12_pay1]; · iexact A2_12_pay1
      isplitl [A2_13_pay1]; · iexact A2_13_pay1
      isplitl [A2_14_pay1]; · iexact A2_14_pay1
      iexact A2_15_pay1
    isplitl [Hyr0 Hyr1 Hyr2 Hyr3 Hyr4 Hyr5 Hyr6 Hyr7 Hyr8 Hyr9 Hyr10 Hyr11 Hyr12 Hyr13 Hyr14 Hyr15]
    · isplitl [Hyr0]; · iexact Hyr0
      isplitl [Hyr1]; · iexact Hyr1
      isplitl [Hyr2]; · iexact Hyr2
      isplitl [Hyr3]; · iexact Hyr3
      isplitl [Hyr4]; · iexact Hyr4
      isplitl [Hyr5]; · iexact Hyr5
      isplitl [Hyr6]; · iexact Hyr6
      isplitl [Hyr7]; · iexact Hyr7
      isplitl [Hyr8]; · iexact Hyr8
      isplitl [Hyr9]; · iexact Hyr9
      isplitl [Hyr10]; · iexact Hyr10
      isplitl [Hyr11]; · iexact Hyr11
      isplitl [Hyr12]; · iexact Hyr12
      isplitl [Hyr13]; · iexact Hyr13
      isplitl [Hyr14]; · iexact Hyr14
      iexact Hyr15
    isplitl [A3_0_pay1]; · iexact A3_0_pay1
    isplitl [A3_1_pay1]; · iexact A3_1_pay1
    isplitl [A3_2_pay1]; · iexact A3_2_pay1
    isplitl [A3_3_pay1]; · iexact A3_3_pay1
    isplitl [A3_4_pay1]; · iexact A3_4_pay1
    isplitl [A3_5_pay1]; · iexact A3_5_pay1
    isplitl [A3_6_pay1]; · iexact A3_6_pay1
    isplitl [A3_7_pay1]; · iexact A3_7_pay1
    isplitl [A3_8_pay1]; · iexact A3_8_pay1
    isplitl [A3_9_pay1]; · iexact A3_9_pay1
    isplitl [A3_10_pay1]; · iexact A3_10_pay1
    isplitl [A3_11_pay1]; · iexact A3_11_pay1
    isplitl [A3_12_pay1]; · iexact A3_12_pay1
    isplitl [A3_13_pay1]; · iexact A3_13_pay1
    isplitl [A3_14_pay1]; · iexact A3_14_pay1
    iexact A3_15_pay1
  sl_step
  iapply Hk
  iexact Hpost

end Cert.KernelIdeal.Hand
end
-- ==== Proof.GlueX1.lean ====
import proofs.«901046_g7700000000001047_dist_rsdw_v7x_xy2x2_y_m1024_d1024_f4096_f32_1_alg».proof.Proof.GlueCore
import proofs.«901046_g7700000000001047_dist_rsdw_v7x_xy2x2_y_m1024_d1024_f4096_f32_1_alg».proof.Proof.BodyX1

/-! The result of a device whose first mesh coordinate is 1, read off what its body leaves.

Each of the eight copies out of the staging buffer carries one block of 512 columns. A column of the block lies in one of its four chunks of
128 columns; the newest store covering it is the chunk's add, whose value is what the buffer held there before — the block's own product,
stored under it — plus the received slot. So every entry of the result is an entry of the device's own product plus an entry of a
received chunk. -/

set_option maxRecDepth 16384

noncomputable section

namespace Cert.KernelIdeal.Hand

open Cert.KernelIdeal Cert.KernelIdeal.Gen
open Idealize.ShloMosaic Idealize.ShloMosaic.TcCoe Idealize.ShloMosaic.ValueIdx
open scoped BigOperators

variable (mI : (ℓ : Loc nD τ sig) → Buf (Elt Ideal) ℓ) (c : Dev nD) (f4 : Buf (Elt Ideal) ((c : Thread nD τ).loc cc0_scratch1))

/-! ## The thirty-two chunks -/

theorem body_x1_x0 (r : Fin 512) (q' : Fin 128) (q : Fin 512) (hq : q.val = 0 + q'.val) :
    body_x1.sl.dma20 (F := Ideal) mI c f4 (ix2 r q) = (k0_pay43 (body_x1.sl.r mI c) (body_x1.sl.v278 mI c)) (ix2 r q) + (View.readAt (Elt Ideal) (Memref.whole cc0_scratch4 : Memref sig .tc .vmem S16x512x128 .bf16).view (Rect.unit (s := S16x512x128) ![0, 0, 0] S1x512x128.size inb_S16x512x128_S1x512x128_0_0_0).toLoadRect (XcV (chunk mI) c 0)) (ix3 (0 : Fin 1) r q') := by
  have hq' := q'.isLt
  obtain ⟨cq, hcq⟩ : ∃ cq : Fin 4096, cq.val = 0 + q.val := ⟨⟨0 + q.val, by omega⟩, rfl⟩
  unfold body_x1.sl.dma20
  rw [s1_blk_read 0 _ _ _ r q cq hcq]
  unfold body_x1.sl.H4_28
  rw [rd_skip128 _ _ _ _ _ _ _ _ (by omega)]
  unfold body_x1.sl.H4_27
  rw [rd_skip128 _ _ _ _ _ _ _ _ (by omega)]
  unfold body_x1.sl.H4_26
  rw [rd_skip128 _ _ _ _ _ _ _ _ (by omega)]
  unfold body_x1.sl.H4_25
  rw [rd_hit128 _ _ _ _ _ _ r cq q' (by omega)]
  rw [Cert.KernelIdeal.PayIdx.k0_pay85_apply]
  refine congrArg₂ (· + ·) ?_ rfl
  unfold body_x1.sl.v1269_16
  rw [rdcov128 _ _ 0 _ r q' cq (by omega)]
  unfold body_x1.sl.H4_24
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  rw [rd_skip512 _ _ _ _ _ _ _ _ (by omega)]
  unfold body_x1.sl.H4_18
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  rw [rd_skip512 _ _ _ _ _ _ _ _ (by omega)]
  unfold body_x1.sl.H4_12
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  rw [rd_skip512 _ _ _ _ _ _ _ _ (by omega)]
  unfold body_x1.sl.H4_6
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  exact rd_hit512 _ _ _ _ _ _ r cq q (by omega)

theorem body_x1_x1 (r : Fin 512) (q' : Fin 128) (q : Fin 512) (hq : q.val = 128 + q'.val) :
    body_x1.sl.dma20 (F := Ideal) mI c f4 (ix2 r q) = (k0_pay43 (body_x1.sl.r mI c) (body_x1.sl.v278 mI c)) (ix2 r q) + (View.readAt (Elt Ideal) (Memref.whole cc0_scratch4 : Memref sig .tc .vmem S16x512x128 .bf16).view (Rect.unit (s := S16x512x128) ![1, 0, 0] S1x512x128.size inb_S16x512x128_S1x512x128_1_0_0).toLoadRect (XcV (chunk mI) c 1)) (ix3 (0 : Fin 1) r q') := by
  have hq' := q'.isLt
  obtain ⟨cq, hcq⟩ : ∃ cq : Fin 4096, cq.val = 0 + q.val := ⟨⟨0 + q.val, by omega⟩, rfl⟩
  unfold body_x1.sl.dma20
  rw [s1_blk_read 0 _ _ _ r q cq hcq]
  unfold body_x1.sl.H4_28
  rw [rd_skip128 _ _ _ _ _ _ _ _ (by omega)]
  unfold body_x1.sl.H4_27
  rw [rd_skip128 _ _ _ _ _ _ _ _ (by omega)]
  unfold body_x1.sl.H4_26
  rw [rd_hit128 _ _ _ _ _ _ r cq q' (by omega)]
  rw [Cert.KernelIdeal.PayIdx.k0_pay87_apply]
  refine congrArg₂ (· + ·) ?_ rfl
  unfold body_x1.sl.v1269_17
  rw [rdcov128 _ _ 128 _ r q' cq (by omega)]
  unfold body_x1.sl.H4_25
  rw [rd_skip128 _ _ _ _ _ _ _ _ (by omega)]
  unfold body_x1.sl.H4_24
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  rw [rd_skip512 _ _ _ _ _ _ _ _ (by omega)]
  unfold body_x1.sl.H4_18
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  rw [rd_skip512 _ _ _ _ _ _ _ _ (by omega)]
  unfold body_x1.sl.H4_12
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  rw [rd_skip512 _ _ _ _ _ _ _ _ (by omega)]
  unfold body_x1.sl.H4_6
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  exact rd_hit512 _ _ _ _ _ _ r cq q (by omega)

theorem body_x1_x2 (r : Fin 512) (q' : Fin 128) (q : Fin 512) (hq : q.val = 256 + q'.val) :
    body_x1.sl.dma20 (F := Ideal) mI c f4 (ix2 r q) = (k0_pay43 (body_x1.sl.r mI c) (body_x1.sl.v278 mI c)) (ix2 r q) + (View.readAt (Elt Ideal) (Memref.whole cc0_scratch4 : Memref sig .tc .vmem S16x512x128 .bf16).view (Rect.unit (s := S16x512x128) ![2, 0, 0] S1x512x128.size inb_S16x512x128_S1x512x128_2_0_0).toLoadRect (XcV (chunk mI) c 2)) (ix3 (0 : Fin 1) r q') := by
  have hq' := q'.isLt
  obtain ⟨cq, hcq⟩ : ∃ cq : Fin 4096, cq.val = 0 + q.val := ⟨⟨0 + q.val, by omega⟩, rfl⟩
  unfold body_x1.sl.dma20
  rw [s1_blk_read 0 _ _ _ r q cq hcq]
  unfold body_x1.sl.H4_28
  rw [rd_skip128 _ _ _ _ _ _ _ _ (by omega)]
  unfold body_x1.sl.H4_27
  rw [rd_hit128 _ _ _ _ _ _ r cq q' (by omega)]
  rw [Cert.KernelIdeal.PayIdx.k0_pay89_apply]
  refine congrArg₂ (· + ·) ?_ rfl
  unfold body_x1.sl.v1269_18
  rw [rdcov128 _ _ 256 _ r q' cq (by omega)]
  unfold body_x1.sl.H4_26
  rw [rd_skip128 _ _ _ _ _ _ _ _ (by omega)]
  unfold body_x1.sl.H4_25
  rw [rd_skip128 _ _ _ _ _ _ _ _ (by omega)]
  unfold body_x1.sl.H4_24
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  rw [rd_skip512 _ _ _ _ _ _ _ _ (by omega)]
  unfold body_x1.sl.H4_18
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  rw [rd_skip512 _ _ _ _ _ _ _ _ (by omega)]
  unfold body_x1.sl.H4_12
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  rw [rd_skip512 _ _ _ _ _ _ _ _ (by omega)]
  unfold body_x1.sl.H4_6
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  exact rd_hit512 _ _ _ _ _ _ r cq q (by omega)

theorem body_x1_x3 (r : Fin 512) (q' : Fin 128) (q : Fin 512) (hq : q.val = 384 + q'.val) :
    body_x1.sl.dma20 (F := Ideal) mI c f4 (ix2 r q) = (k0_pay43 (body_x1.sl.r mI c) (body_x1.sl.v278 mI c)) (ix2 r q) + (View.readAt (Elt Ideal) (Memref.whole cc0_scratch4 : Memref sig .tc .vmem S16x512x128 .bf16).view (Rect.unit (s := S16x512x128) ![3, 0, 0] S1x512x128.size inb_S16x512x128_S1x512x128_3_0_0).toLoadRect (XcV (chunk mI) c 3)) (ix3 (0 : Fin 1) r q') := by
  have hq' := q'.isLt
  obtain ⟨cq, hcq⟩ : ∃ cq : Fin 4096, cq.val = 0 + q.val := ⟨⟨0 + q.val, by omega⟩, rfl⟩
  unfold body_x1.sl.dma20
  rw [s1_blk_read 0 _ _ _ r q cq hcq]
  unfold body_x1.sl.H4_28
  rw [rd_hit128 _ _ _ _ _ _ r cq q' (by omega)]
  rw [Cert.KernelIdeal.PayIdx.k0_pay91_apply]
  refine congrArg₂ (· + ·) ?_ rfl
  unfold body_x1.sl.v1269_19
  rw [rdcov128 _ _ 384 _ r q' cq (by omega)]
  unfold body_x1.sl.H4_27
  rw [rd_skip128 _ _ _ _ _ _ _ _ (by omega)]
  unfold body_x1.sl.H4_26
  rw [rd_skip128 _ _ _ _ _ _ _ _ (by omega)]
  unfold body_x1.sl.H4_25
  rw [rd_skip128 _ _ _ _ _ _ _ _ (by omega)]
  unfold body_x1.sl.H4_24
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  rw [rd_skip512 _ _ _ _ _ _ _ _ (by omega)]
  unfold body_x1.sl.H4_18
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  rw [rd_skip512 _ _ _ _ _ _ _ _ (by omega)]
  unfold body_x1.sl.H4_12
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  rw [rd_skip512 _ _ _ _ _ _ _ _ (by omega)]
  unfold body_x1.sl.H4_6
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  exact rd_hit512 _ _ _ _ _ _ r cq q (by omega)

theorem body_x1_x4 (r : Fin 512) (q' : Fin 128) (q : Fin 512) (hq : q.val = 0 + q'.val) :
    body_x1.sl.dma36 (F := Ideal) mI c f4 (ix2 r q) = (k0_pay54 (body_x1.sl.r mI c) (body_x1.sl.v406 mI c)) (ix2 r q) + (View.readAt (Elt Ideal) (Memref.whole cc0_scratch4 : Memref sig .tc .vmem S16x512x128 .bf16).view (Rect.unit (s := S16x512x128) ![4, 0, 0] S1x512x128.size inb_S16x512x128_S1x512x128_4_0_0).toLoadRect (XcV (chunk mI) c 4)) (ix3 (0 : Fin 1) r q') := by
  have hq' := q'.isLt
  obtain ⟨cq, hcq⟩ : ∃ cq : Fin 4096, cq.val = 512 + q.val := ⟨⟨512 + q.val, by omega⟩, rfl⟩
  unfold body_x1.sl.dma36
  rw [s1_blk_read 512 _ _ _ r q cq hcq]
  unfold body_x1.sl.H4_32
  rw [rd_skip128 _ _ _ _ _ _ _ _ (by omega)]
  unfold body_x1.sl.H4_31
  rw [rd_skip128 _ _ _ _ _ _ _ _ (by omega)]
  unfold body_x1.sl.H4_30
  rw [rd_skip128 _ _ _ _ _ _ _ _ (by omega)]
  unfold body_x1.sl.H4_29
  rw [rd_hit128 _ _ _ _ _ _ r cq q' (by omega)]
  rw [Cert.KernelIdeal.PayIdx.k0_pay93_apply]
  refine congrArg₂ (· + ·) ?_ rfl
  unfold body_x1.sl.v1269_20
  rw [rdcov128 _ _ 512 _ r q' cq (by omega)]
  unfold body_x1.sl.H4_28
  rw [rd_skip128 _ _ _ _ _ _ _ _ (by omega)]
  unfold body_x1.sl.H4_27
  rw [rd_skip128 _ _ _ _ _ _ _ _ (by omega)]
  unfold body_x1.sl.H4_26
  rw [rd_skip128 _ _ _ _ _ _ _ _ (by omega)]
  unfold body_x1.sl.H4_25
  rw [rd_skip128 _ _ _ _ _ _ _ _ (by omega)]
  unfold body_x1.sl.H4_24
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  rw [rd_skip512 _ _ _ _ _ _ _ _ (by omega)]
  unfold body_x1.sl.H4_18
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  rw [rd_skip512 _ _ _ _ _ _ _ _ (by omega)]
  unfold body_x1.sl.H4_12
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  exact rd_hit512 _ _ _ _ _ _ r cq q (by omega)

theorem body_x1_x5 (r : Fin 512) (q' : Fin 128) (q : Fin 512) (hq : q.val = 128 + q'.val) :
    body_x1.sl.dma36 (F := Ideal) mI c f4 (ix2 r q) = (k0_pay54 (body_x1.sl.r mI c) (body_x1.sl.v406 mI c)) (ix2 r q) + (View.readAt (Elt Ideal) (Memref.whole cc0_scratch4 : Memref sig .tc .vmem S16x512x128 .bf16).view (Rect.unit (s := S16x512x128) ![5, 0, 0] S1x512x128.size inb_S16x512x128_S1x512x128_5_0_0).toLoadRect (XcV (chunk mI) c 5)) (ix3 (0 : Fin 1) r q') := by
  have hq' := q'.isLt
  obtain ⟨cq, hcq⟩ : ∃ cq : Fin 4096, cq.val = 512 + q.val := ⟨⟨512 + q.val, by omega⟩, rfl⟩
  unfold body_x1.sl.dma36
  rw [s1_blk_read 512 _ _ _ r q cq hcq]
  unfold body_x1.sl.H4_32
  rw [rd_skip128 _ _ _ _ _ _ _ _ (by omega)]
  unfold body_x1.sl.H4_31
  rw [rd_skip128 _ _ _ _ _ _ _ _ (by omega)]
  unfold body_x1.sl.H4_30
  rw [rd_hit128 _ _ _ _ _ _ r cq q' (by omega)]
  rw [Cert.KernelIdeal.PayIdx.k0_pay95_apply]
  refine congrArg₂ (· + ·) ?_ rfl
  unfold body_x1.sl.v1269_21
  rw [rdcov128 _ _ 640 _ r q' cq (by omega)]
  unfold body_x1.sl.H4_29
  rw [rd_skip128 _ _ _ _ _ _ _ _ (by omega)]
  unfold body_x1.sl.H4_28
  rw [rd_skip128 _ _ _ _ _ _ _ _ (by omega)]
  unfold body_x1.sl.H4_27
  rw [rd_skip128 _ _ _ _ _ _ _ _ (by omega)]
  unfold body_x1.sl.H4_26
  rw [rd_skip128 _ _ _ _ _ _ _ _ (by omega)]
  unfold body_x1.sl.H4_25
  rw [rd_skip128 _ _ _ _ _ _ _ _ (by omega)]
  unfold body_x1.sl.H4_24
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  rw [rd_skip512 _ _ _ _ _ _ _ _ (by omega)]
  unfold body_x1.sl.H4_18
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  rw [rd_skip512 _ _ _ _ _ _ _ _ (by omega)]
  unfold body_x1.sl.H4_12
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  exact rd_hit512 _ _ _ _ _ _ r cq q (by omega)

theorem body_x1_x6 (r : Fin 512) (q' : Fin 128) (q : Fin 512) (hq : q.val = 256 + q'.val) :
    body_x1.sl.dma36 (F := Ideal) mI c f4 (ix2 r q) = (k0_pay54 (body_x1.sl.r mI c) (body_x1.sl.v406 mI c)) (ix2 r q) + (View.readAt (Elt Ideal) (Memref.whole cc0_scratch4 : Memref sig .tc .vmem S16x512x128 .bf16).view (Rect.unit (s := S16x512x128) ![6, 0, 0] S1x512x128.size inb_S16x512x128_S1x512x128_6_0_0).toLoadRect (XcV (chunk mI) c 6)) (ix3 (0 : Fin 1) r q') := by
  have hq' := q'.isLt
  obtain ⟨cq, hcq⟩ : ∃ cq : Fin 4096, cq.val = 512 + q.val := ⟨⟨512 + q.val, by omega⟩, rfl⟩
  unfold body_x1.sl.dma36
  rw [s1_blk_read 512 _ _ _ r q cq hcq]
  unfold body_x1.sl.H4_32
  rw [rd_skip128 _ _ _ _ _ _ _ _ (by omega)]
  unfold body_x1.sl.H4_31
  rw [rd_hit128 _ _ _ _ _ _ r cq q' (by omega)]
  rw [Cert.KernelIdeal.PayIdx.k0_pay97_apply]
  refine congrArg₂ (· + ·) ?_ rfl
  unfold body_x1.sl.v1269_22
  rw [rdcov128 _ _ 768 _ r q' cq (by omega)]
  unfold body_x1.sl.H4_30
  rw [rd_skip128 _ _ _ _ _ _ _ _ (by omega)]
  unfold body_x1.sl.H4_29
  rw [rd_skip128 _ _ _ _ _ _ _ _ (by omega)]
  unfold body_x1.sl.H4_28
  rw [rd_skip128 _ _ _ _ _ _ _ _ (by omega)]
  unfold body_x1.sl.H4_27
  rw [rd_skip128 _ _ _ _ _ _ _ _ (by omega)]
  unfold body_x1.sl.H4_26
  rw [rd_skip128 _ _ _ _ _ _ _ _ (by omega)]
  unfold body_x1.sl.H4_25
  rw [rd_skip128 _ _ _ _ _ _ _ _ (by omega)]
  unfold body_x1.sl.H4_24
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  rw [rd_skip512 _ _ _ _ _ _ _ _ (by omega)]
  unfold body_x1.sl.H4_18
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  rw [rd_skip512 _ _ _ _ _ _ _ _ (by omega)]
  unfold body_x1.sl.H4_12
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  exact rd_hit512 _ _ _ _ _ _ r cq q (by omega)

theorem body_x1_x7 (r : Fin 512) (q' : Fin 128) (q : Fin 512) (hq : q.val = 384 + q'.val) :
    body_x1.sl.dma36 (F := Ideal) mI c f4 (ix2 r q) = (k0_pay54 (body_x1.sl.r mI c) (body_x1.sl.v406 mI c)) (ix2 r q) + (View.readAt (Elt Ideal) (Memref.whole cc0_scratch4 : Memref sig .tc .vmem S16x512x128 .bf16).view (Rect.unit (s := S16x512x128) ![7, 0, 0] S1x512x128.size inb_S16x512x128_S1x512x128_7_0_0).toLoadRect (XcV (chunk mI) c 7)) (ix3 (0 : Fin 1) r q') := by
  have hq' := q'.isLt
  obtain ⟨cq, hcq⟩ : ∃ cq : Fin 4096, cq.val = 512 + q.val := ⟨⟨512 + q.val, by omega⟩, rfl⟩
  unfold body_x1.sl.dma36
  rw [s1_blk_read 512 _ _ _ r q cq hcq]
  unfold body_x1.sl.H4_32
  rw [rd_hit128 _ _ _ _ _ _ r cq q' (by omega)]
  rw [Cert.KernelIdeal.PayIdx.k0_pay99_apply]
  refine congrArg₂ (· + ·) ?_ rfl
  unfold body_x1.sl.v1269_23
  rw [rdcov128 _ _ 896 _ r q' cq (by omega)]
  unfold body_x1.sl.H4_31
  rw [rd_skip128 _ _ _ _ _ _ _ _ (by omega)]
  unfold body_x1.sl.H4_30
  rw [rd_skip128 _ _ _ _ _ _ _ _ (by omega)]
  unfold body_x1.sl.H4_29
  rw [rd_skip128 _ _ _ _ _ _ _ _ (by omega)]
  unfold body_x1.sl.H4_28
  rw [rd_skip128 _ _ _ _ _ _ _ _ (by omega)]
  unfold body_x1.sl.H4_27
  rw [rd_skip128 _ _ _ _ _ _ _ _ (by omega)]
  unfold body_x1.sl.H4_26
  rw [rd_skip128 _ _ _ _ _ _ _ _ (by omega)]
  unfold body_x1.sl.H4_25
  rw [rd_skip128 _ _ _ _ _ _ _ _ (by omega)]
  unfold body_x1.sl.H4_24
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  rw [rd_skip512 _ _ _ _ _ _ _ _ (by omega)]
  unfold body_x1.sl.H4_18
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  rw [rd_skip512 _ _ _ _ _ _ _ _ (by omega)]
  unfold body_x1.sl.H4_12
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  exact rd_hit512 _ _ _ _ _ _ r cq q (by omega)

theorem body_x1_x8 (r : Fin 512) (q' : Fin 128) (q : Fin 512) (hq : q.val = 0 + q'.val) :
    body_x1.sl.dma52 (F := Ideal) mI c f4 (ix2 r q) = (k0_pay64 (body_x1.sl.r mI c) (body_x1.sl.v534 mI c)) (ix2 r q) + (View.readAt (Elt Ideal) (Memref.whole cc0_scratch4 : Memref sig .tc .vmem S16x512x128 .bf16).view (Rect.unit (s := S16x512x128) ![8, 0, 0] S1x512x128.size inb_S16x512x128_S1x512x128_8_0_0).toLoadRect (XcV (chunk mI) c 8)) (ix3 (0 : Fin 1) r q') := by
  have hq' := q'.isLt
  obtain ⟨cq, hcq⟩ : ∃ cq : Fin 4096, cq.val = 1024 + q.val := ⟨⟨1024 + q.val, by omega⟩, rfl⟩
  unfold body_x1.sl.dma52
  rw [s1_blk_read 1024 _ _ _ r q cq hcq]
  unfold body_x1.sl.H4_36
  rw [rd_skip128 _ _ _ _ _ _ _ _ (by omega)]
  unfold body_x1.sl.H4_35
  rw [rd_skip128 _ _ _ _ _ _ _ _ (by omega)]
  unfold body_x1.sl.H4_34
  rw [rd_skip128 _ _ _ _ _ _ _ _ (by omega)]
  unfold body_x1.sl.H4_33
  rw [rd_hit128 _ _ _ _ _ _ r cq q' (by omega)]
  rw [Cert.KernelIdeal.PayIdx.k0_pay101_apply]
  refine congrArg₂ (· + ·) ?_ rfl
  unfold body_x1.sl.v1269_24
  rw [rdcov128 _ _ 1024 _ r q' cq (by omega)]
  unfold body_x1.sl.H4_32
  rw [rd_skip128 _ _ _ _ _ _ _ _ (by omega)]
  unfold body_x1.sl.H4_31
  rw [rd_skip128 _ _ _ _ _ _ _ _ (by omega)]
  unfold body_x1.sl.H4_30
  rw [rd_skip128 _ _ _ _ _ _ _ _ (by omega)]
  unfold body_x1.sl.H4_29
  rw [rd_skip128 _ _ _ _ _ _ _ _ (by omega)]
  unfold body_x1.sl.H4_28
  rw [rd_skip128 _ _ _ _ _ _ _ _ (by omega)]
  unfold body_x1.sl.H4_27
  rw [rd_skip128 _ _ _ _ _ _ _ _ (by omega)]
  unfold body_x1.sl.H4_26
  rw [rd_skip128 _ _ _ _ _ _ _ _ (by omega)]
  unfold body_x1.sl.H4_25
  rw [rd_skip128 _ _ _ _ _ _ _ _ (by omega)]
  unfold body_x1.sl.H4_24
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  rw [rd_skip512 _ _ _ _ _ _ _ _ (by omega)]
  unfold body_x1.sl.H4_18
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  exact rd_hit512 _ _ _ _ _ _ r cq q (by omega)

theorem body_x1_x9 (r : Fin 512) (q' : Fin 128) (q : Fin 512) (hq : q.val = 128 + q'.val) :
    body_x1.sl.dma52 (F := Ideal) mI c f4 (ix2 r q) = (k0_pay64 (body_x1.sl.r mI c) (body_x1.sl.v534 mI c)) (ix2 r q) + (View.readAt (Elt Ideal) (Memref.whole cc0_scratch4 : Memref sig .tc .vmem S16x512x128 .bf16).view (Rect.unit (s := S16x512x128) ![9, 0, 0] S1x512x128.size inb_S16x512x128_S1x512x128_9_0_0).toLoadRect (XcV (chunk mI) c 9)) (ix3 (0 : Fin 1) r q') := by
  have hq' := q'.isLt
  obtain ⟨cq, hcq⟩ : ∃ cq : Fin 4096, cq.val = 1024 + q.val := ⟨⟨1024 + q.val, by omega⟩, rfl⟩
  unfold body_x1.sl.dma52
  rw [s1_blk_read 1024 _ _ _ r q cq hcq]
  unfold body_x1.sl.H4_36
  rw [rd_skip128 _ _ _ _ _ _ _ _ (by omega)]
  unfold body_x1.sl.H4_35
  rw [rd_skip128 _ _ _ _ _ _ _ _ (by omega)]
  unfold body_x1.sl.H4_34
  rw [rd_hit128 _ _ _ _ _ _ r cq q' (by omega)]
  rw [Cert.KernelIdeal.PayIdx.k0_pay103_apply]
  refine congrArg₂ (· + ·) ?_ rfl
  unfold body_x1.sl.v1269_25
  rw [rdcov128 _ _ 1152 _ r q' cq (by omega)]
  unfold body_x1.sl.H4_33
  rw [rd_skip128 _ _ _ _ _ _ _ _ (by omega)]
  unfold body_x1.sl.H4_32
  rw [rd_skip128 _ _ _ _ _ _ _ _ (by omega)]
  unfold body_x1.sl.H4_31
  rw [rd_skip128 _ _ _ _ _ _ _ _ (by omega)]
  unfold body_x1.sl.H4_30
  rw [rd_skip128 _ _ _ _ _ _ _ _ (by omega)]
  unfold body_x1.sl.H4_29
  rw [rd_skip128 _ _ _ _ _ _ _ _ (by omega)]
  unfold body_x1.sl.H4_28
  rw [rd_skip128 _ _ _ _ _ _ _ _ (by omega)]
  unfold body_x1.sl.H4_27
  rw [rd_skip128 _ _ _ _ _ _ _ _ (by omega)]
  unfold body_x1.sl.H4_26
  rw [rd_skip128 _ _ _ _ _ _ _ _ (by omega)]
  unfold body_x1.sl.H4_25
  rw [rd_skip128 _ _ _ _ _ _ _ _ (by omega)]
  unfold body_x1.sl.H4_24
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  rw [rd_skip512 _ _ _ _ _ _ _ _ (by omega)]
  unfold body_x1.sl.H4_18
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  exact rd_hit512 _ _ _ _ _ _ r cq q (by omega)

theorem body_x1_x10 (r : Fin 512) (q' : Fin 128) (q : Fin 512) (hq : q.val = 256 + q'.val) :
    body_x1.sl.dma52 (F := Ideal) mI c f4 (ix2 r q) = (k0_pay64 (body_x1.sl.r mI c) (body_x1.sl.v534 mI c)) (ix2 r q) + (View.readAt (Elt Ideal) (Memref.whole cc0_scratch4 : Memref sig .tc .vmem S16x512x128 .bf16).view (Rect.unit (s := S16x512x128) ![10, 0, 0] S1x512x128.size inb_S16x512x128_S1x512x128_10_0_0).toLoadRect (XcV (chunk mI) c 10)) (ix3 (0 : Fin 1) r q') := by
  have hq' := q'.isLt
  obtain ⟨cq, hcq⟩ : ∃ cq : Fin 4096, cq.val = 1024 + q.val := ⟨⟨1024 + q.val, by omega⟩, rfl⟩
  unfold body_x1.sl.dma52
  rw [s1_blk_read 1024 _ _ _ r q cq hcq]
  unfold body_x1.sl.H4_36
  rw [rd_skip128 _ _ _ _ _ _ _ _ (by omega)]
  unfold body_x1.sl.H4_35
  rw [rd_hit128 _ _ _ _ _ _ r cq q' (by omega)]
  rw [Cert.KernelIdeal.PayIdx.k0_pay105_apply]
  refine congrArg₂ (· + ·) ?_ rfl
  unfold body_x1.sl.v1269_26
  rw [rdcov128 _ _ 1280 _ r q' cq (by omega)]
  unfold body_x1.sl.H4_34
  rw [rd_skip128 _ _ _ _ _ _ _ _ (by omega)]
  unfold body_x1.sl.H4_33
  rw [rd_skip128 _ _ _ _ _ _ _ _ (by omega)]
  unfold body_x1.sl.H4_32
  rw [rd_skip128 _ _ _ _ _ _ _ _ (by omega)]
  unfold body_x1.sl.H4_31
  rw [rd_skip128 _ _ _ _ _ _ _ _ (by omega)]
  unfold body_x1.sl.H4_30
  rw [rd_skip128 _ _ _ _ _ _ _ _ (by omega)]
  unfold body_x1.sl.H4_29
  rw [rd_skip128 _ _ _ _ _ _ _ _ (by omega)]
  unfold body_x1.sl.H4_28
  rw [rd_skip128 _ _ _ _ _ _ _ _ (by omega)]
  unfold body_x1.sl.H4_27
  rw [rd_skip128 _ _ _ _ _ _ _ _ (by omega)]
  unfold body_x1.sl.H4_26
  rw [rd_skip128 _ _ _ _ _ _ _ _ (by omega)]
  unfold body_x1.sl.H4_25
  rw [rd_skip128 _ _ _ _ _ _ _ _ (by omega)]
  unfold body_x1.sl.H4_24
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  rw [rd_skip512 _ _ _ _ _ _ _ _ (by omega)]
  unfold body_x1.sl.H4_18
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  exact rd_hit512 _ _ _ _ _ _ r cq q (by omega)

theorem body_x1_x11 (r : Fin 512) (q' : Fin 128) (q : Fin 512) (hq : q.val = 384 + q'.val) :
    body_x1.sl.dma52 (F := Ideal) mI c f4 (ix2 r q) = (k0_pay64 (body_x1.sl.r mI c) (body_x1.sl.v534 mI c)) (ix2 r q) + (View.readAt (Elt Ideal) (Memref.whole cc0_scratch4 : Memref sig .tc .vmem S16x512x128 .bf16).view (Rect.unit (s := S16x512x128) ![11, 0, 0] S1x512x128.size inb_S16x512x128_S1x512x128_11_0_0).toLoadRect (XcV (chunk mI) c 11)) (ix3 (0 : Fin 1) r q') := by
  have hq' := q'.isLt
  obtain ⟨cq, hcq⟩ : ∃ cq : Fin 4096, cq.val = 1024 + q.val := ⟨⟨1024 + q.val, by omega⟩, rfl⟩
  unfold body_x1.sl.dma52
  rw [s1_blk_read 1024 _ _ _ r q cq hcq]
  unfold body_x1.sl.H4_36
  rw [rd_hit128 _ _ _ _ _ _ r cq q' (by omega)]
  rw [Cert.KernelIdeal.PayIdx.k0_pay107_apply]
  refine congrArg₂ (· + ·) ?_ rfl
  unfold body_x1.sl.v1269_27
  rw [rdcov128 _ _ 1408 _ r q' cq (by omega)]
  unfold body_x1.sl.H4_35
  rw [rd_skip128 _ _ _ _ _ _ _ _ (by omega)]
  unfold body_x1.sl.H4_34
  rw [rd_skip128 _ _ _ _ _ _ _ _ (by omega)]
  unfold body_x1.sl.H4_33
  rw [rd_skip128 _ _ _ _ _ _ _ _ (by omega)]
  unfold body_x1.sl.H4_32
  rw [rd_skip128 _ _ _ _ _ _ _ _ (by omega)]
  unfold body_x1.sl.H4_31
  rw [rd_skip128 _ _ _ _ _ _ _ _ (by omega)]
  unfold body_x1.sl.H4_30
  rw [rd_skip128 _ _ _ _ _ _ _ _ (by omega)]
  unfold body_x1.sl.H4_29
  rw [rd_skip128 _ _ _ _ _ _ _ _ (by omega)]
  unfold body_x1.sl.H4_28
  rw [rd_skip128 _ _ _ _ _ _ _ _ (by omega)]
  unfold body_x1.sl.H4_27
  rw [rd_skip128 _ _ _ _ _ _ _ _ (by omega)]
  unfold body_x1.sl.H4_26
  rw [rd_skip128 _ _ _ _ _ _ _ _ (by omega)]
  unfold body_x1.sl.H4_25
  rw [rd_skip128 _ _ _ _ _ _ _ _ (by omega)]
  unfold body_x1.sl.H4_24
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  rw [rd_skip512 _ _ _ _ _ _ _ _ (by omega)]
  unfold body_x1.sl.H4_18
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  exact rd_hit512 _ _ _ _ _ _ r cq q (by omega)

theorem body_x1_x12 (r : Fin 512) (q' : Fin 128) (q : Fin 512) (hq : q.val = 0 + q'.val) :
    body_x1.sl.dma68 (F := Ideal) mI c f4 (ix2 r q) = (k0_pay74 (body_x1.sl.r mI c) (body_x1.sl.v662 mI c)) (ix2 r q) + (View.readAt (Elt Ideal) (Memref.whole cc0_scratch4 : Memref sig .tc .vmem S16x512x128 .bf16).view (Rect.unit (s := S16x512x128) ![12, 0, 0] S1x512x128.size inb_S16x512x128_S1x512x128_12_0_0).toLoadRect (XcV (chunk mI) c 12)) (ix3 (0 : Fin 1) r q') := by
  have hq' := q'.isLt
  obtain ⟨cq, hcq⟩ : ∃ cq : Fin 4096, cq.val = 1536 + q.val := ⟨⟨1536 + q.val, by omega⟩, rfl⟩
  unfold body_x1.sl.dma68
  rw [s1_blk_read 1536 _ _ _ r q cq hcq]
  unfold body_x1.sl.H4_40
  rw [rd_skip128 _ _ _ _ _ _ _ _ (by omega)]
  unfold body_x1.sl.H4_39
  rw [rd_skip128 _ _ _ _ _ _ _ _ (by omega)]
  unfold body_x1.sl.H4_38
  rw [rd_skip128 _ _ _ _ _ _ _ _ (by omega)]
  unfold body_x1.sl.H4_37
  rw [rd_hit128 _ _ _ _ _ _ r cq q' (by omega)]
  rw [Cert.KernelIdeal.PayIdx.k0_pay109_apply]
  refine congrArg₂ (· + ·) ?_ rfl
  unfold body_x1.sl.v1269_28
  rw [rdcov128 _ _ 1536 _ r q' cq (by omega)]
  unfold body_x1.sl.H4_36
  rw [rd_skip128 _ _ _ _ _ _ _ _ (by omega)]
  unfold body_x1.sl.H4_35
  rw [rd_skip128 _ _ _ _ _ _ _ _ (by omega)]
  unfold body_x1.sl.H4_34
  rw [rd_skip128 _ _ _ _ _ _ _ _ (by omega)]
  unfold body_x1.sl.H4_33
  rw [rd_skip128 _ _ _ _ _ _ _ _ (by omega)]
  unfold body_x1.sl.H4_32
  rw [rd_skip128 _ _ _ _ _ _ _ _ (by omega)]
  unfold body_x1.sl.H4_31
  rw [rd_skip128 _ _ _ _ _ _ _ _ (by omega)]
  unfold body_x1.sl.H4_30
  rw [rd_skip128 _ _ _ _ _ _ _ _ (by omega)]
  unfold body_x1.sl.H4_29
  rw [rd_skip128 _ _ _ _ _ _ _ _ (by omega)]
  unfold body_x1.sl.H4_28
  rw [rd_skip128 _ _ _ _ _ _ _ _ (by omega)]
  unfold body_x1.sl.H4_27
  rw [rd_skip128 _ _ _ _ _ _ _ _ (by omega)]
  unfold body_x1.sl.H4_26
  rw [rd_skip128 _ _ _ _ _ _ _ _ (by omega)]
  unfold body_x1.sl.H4_25
  rw [rd_skip128 _ _ _ _ _ _ _ _ (by omega)]
  unfold body_x1.sl.H4_24
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  exact rd_hit512 _ _ _ _ _ _ r cq q (by omega)

theorem body_x1_x13 (r : Fin 512) (q' : Fin 128) (q : Fin 512) (hq : q.val = 128 + q'.val) :
    body_x1.sl.dma68 (F := Ideal) mI c f4 (ix2 r q) = (k0_pay74 (body_x1.sl.r mI c) (body_x1.sl.v662 mI c)) (ix2 r q) + (View.readAt (Elt Ideal) (Memref.whole cc0_scratch4 : Memref sig .tc .vmem S16x512x128 .bf16).view (Rect.unit (s := S16x512x128) ![13, 0, 0] S1x512x128.size inb_S16x512x128_S1x512x128_13_0_0).toLoadRect (XcV (chunk mI) c 13)) (ix3 (0 : Fin 1) r q') := by
  have hq' := q'.isLt
  obtain ⟨cq, hcq⟩ : ∃ cq : Fin 4096, cq.val = 1536 + q.val := ⟨⟨1536 + q.val, by omega⟩, rfl⟩
  unfold body_x1.sl.dma68
  rw [s1_blk_read 1536 _ _ _ r q cq hcq]
  unfold body_x1.sl.H4_40
  rw [rd_skip128 _ _ _ _ _ _ _ _ (by omega)]
  unfold body_x1.sl.H4_39
  rw [rd_skip128 _ _ _ _ _ _ _ _ (by omega)]
  unfold body_x1.sl.H4_38
  rw [rd_hit128 _ _ _ _ _ _ r cq q' (by omega)]
  rw [Cert.KernelIdeal.PayIdx.k0_pay111_apply]
  refine congrArg₂ (· + ·) ?_ rfl
  unfold body_x1.sl.v1269_29
  rw [rdcov128 _ _ 1664 _ r q' cq (by omega)]
  unfold body_x1.sl.H4_37
  rw [rd_skip128 _ _ _ _ _ _ _ _ (by omega)]
  unfold body_x1.sl.H4_36
  rw [rd_skip128 _ _ _ _ _ _ _ _ (by omega)]
  unfold body_x1.sl.H4_35
  rw [rd_skip128 _ _ _ _ _ _ _ _ (by omega)]
  unfold body_x1.sl.H4_34
  rw [rd_skip128 _ _ _ _ _ _ _ _ (by omega)]
  unfold body_x1.sl.H4_33
  rw [rd_skip128 _ _ _ _ _ _ _ _ (by omega)]
  unfold body_x1.sl.H4_32
  rw [rd_skip128 _ _ _ _ _ _ _ _ (by omega)]
  unfold body_x1.sl.H4_31
  rw [rd_skip128 _ _ _ _ _ _ _ _ (by omega)]
  unfold body_x1.sl.H4_30
  rw [rd_skip128 _ _ _ _ _ _ _ _ (by omega)]
  unfold body_x1.sl.H4_29
  rw [rd_skip128 _ _ _ _ _ _ _ _ (by omega)]
  unfold body_x1.sl.H4_28
  rw [rd_skip128 _ _ _ _ _ _ _ _ (by omega)]
  unfold body_x1.sl.H4_27
  rw [rd_skip128 _ _ _ _ _ _ _ _ (by omega)]
  unfold body_x1.sl.H4_26
  rw [rd_skip128 _ _ _ _ _ _ _ _ (by omega)]
  unfold body_x1.sl.H4_25
  rw [rd_skip128 _ _ _ _ _ _ _ _ (by omega)]
  unfold body_x1.sl.H4_24
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  exact rd_hit512 _ _ _ _ _ _ r cq q (by omega)

theorem body_x1_x14 (r : Fin 512) (q' : Fin 128) (q : Fin 512) (hq : q.val = 256 + q'.val) :
    body_x1.sl.dma68 (F := Ideal) mI c f4 (ix2 r q) = (k0_pay74 (body_x1.sl.r mI c) (body_x1.sl.v662 mI c)) (ix2 r q) + (View.readAt (Elt Ideal) (Memref.whole cc0_scratch4 : Memref sig .tc .vmem S16x512x128 .bf16).view (Rect.unit (s := S16x512x128) ![14, 0, 0] S1x512x128.size inb_S16x512x128_S1x512x128_14_0_0).toLoadRect (XcV (chunk mI) c 14)) (ix3 (0 : Fin 1) r q') := by
  have hq' := q'.isLt
  obtain ⟨cq, hcq⟩ : ∃ cq : Fin 4096, cq.val = 1536 + q.val := ⟨⟨1536 + q.val, by omega⟩, rfl⟩
  unfold body_x1.sl.dma68
  rw [s1_blk_read 1536 _ _ _ r q cq hcq]
  unfold body_x1.sl.H4_40
  rw [rd_skip128 _ _ _ _ _ _ _ _ (by omega)]
  unfold body_x1.sl.H4_39
  rw [rd_hit128 _ _ _ _ _ _ r cq q' (by omega)]
  rw [Cert.KernelIdeal.PayIdx.k0_pay113_apply]
  refine congrArg₂ (· + ·) ?_ rfl
  unfold body_x1.sl.v1269_30
  rw [rdcov128 _ _ 1792 _ r q' cq (by omega)]
  unfold body_x1.sl.H4_38
  rw [rd_skip128 _ _ _ _ _ _ _ _ (by omega)]
  unfold body_x1.sl.H4_37
  rw [rd_skip128 _ _ _ _ _ _ _ _ (by omega)]
  unfold body_x1.sl.H4_36
  rw [rd_skip128 _ _ _ _ _ _ _ _ (by omega)]
  unfold body_x1.sl.H4_35
  rw [rd_skip128 _ _ _ _ _ _ _ _ (by omega)]
  unfold body_x1.sl.H4_34
  rw [rd_skip128 _ _ _ _ _ _ _ _ (by omega)]
  unfold body_x1.sl.H4_33
  rw [rd_skip128 _ _ _ _ _ _ _ _ (by omega)]
  unfold body_x1.sl.H4_32
  rw [rd_skip128 _ _ _ _ _ _ _ _ (by omega)]
  unfold body_x1.sl.H4_31
  rw [rd_skip128 _ _ _ _ _ _ _ _ (by omega)]
  unfold body_x1.sl.H4_30
  rw [rd_skip128 _ _ _ _ _ _ _ _ (by omega)]
  unfold body_x1.sl.H4_29
  rw [rd_skip128 _ _ _ _ _ _ _ _ (by omega)]
  unfold body_x1.sl.H4_28
  rw [rd_skip128 _ _ _ _ _ _ _ _ (by omega)]
  unfold body_x1.sl.H4_27
  rw [rd_skip128 _ _ _ _ _ _ _ _ (by omega)]
  unfold body_x1.sl.H4_26
  rw [rd_skip128 _ _ _ _ _ _ _ _ (by omega)]
  unfold body_x1.sl.H4_25
  rw [rd_skip128 _ _ _ _ _ _ _ _ (by omega)]
  unfold body_x1.sl.H4_24
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  exact rd_hit512 _ _ _ _ _ _ r cq q (by omega)

theorem body_x1_x15 (r : Fin 512) (q' : Fin 128) (q : Fin 512) (hq : q.val = 384 + q'.val) :
    body_x1.sl.dma68 (F := Ideal) mI c f4 (ix2 r q) = (k0_pay74 (body_x1.sl.r mI c) (body_x1.sl.v662 mI c)) (ix2 r q) + (View.readAt (Elt Ideal) (Memref.whole cc0_scratch4 : Memref sig .tc .vmem S16x512x128 .bf16).view (Rect.unit (s := S16x512x128) ![15, 0, 0] S1x512x128.size inb_S16x512x128_S1x512x128_15_0_0).toLoadRect (XcV (chunk mI) c 15)) (ix3 (0 : Fin 1) r q') := by
  have hq' := q'.isLt
  obtain ⟨cq, hcq⟩ : ∃ cq : Fin 4096, cq.val = 1536 + q.val := ⟨⟨1536 + q.val, by omega⟩, rfl⟩
  unfold body_x1.sl.dma68
  rw [s1_blk_read 1536 _ _ _ r q cq hcq]
  unfold body_x1.sl.H4_40
  rw [rd_hit128 _ _ _ _ _ _ r cq q' (by omega)]
  rw [Cert.KernelIdeal.PayIdx.k0_pay115_apply]
  refine congrArg₂ (· + ·) ?_ rfl
  unfold body_x1.sl.v1269_31
  rw [rdcov128 _ _ 1920 _ r q' cq (by omega)]
  unfold body_x1.sl.H4_39
  rw [rd_skip128 _ _ _ _ _ _ _ _ (by omega)]
  unfold body_x1.sl.H4_38
  rw [rd_skip128 _ _ _ _ _ _ _ _ (by omega)]
  unfold body_x1.sl.H4_37
  rw [rd_skip128 _ _ _ _ _ _ _ _ (by omega)]
  unfold body_x1.sl.H4_36
  rw [rd_skip128 _ _ _ _ _ _ _ _ (by omega)]
  unfold body_x1.sl.H4_35
  rw [rd_skip128 _ _ _ _ _ _ _ _ (by omega)]
  unfold body_x1.sl.H4_34
  rw [rd_skip128 _ _ _ _ _ _ _ _ (by omega)]
  unfold body_x1.sl.H4_33
  rw [rd_skip128 _ _ _ _ _ _ _ _ (by omega)]
  unfold body_x1.sl.H4_32
  rw [rd_skip128 _ _ _ _ _ _ _ _ (by omega)]
  unfold body_x1.sl.H4_31
  rw [rd_skip128 _ _ _ _ _ _ _ _ (by omega)]
  unfold body_x1.sl.H4_30
  rw [rd_skip128 _ _ _ _ _ _ _ _ (by omega)]
  unfold body_x1.sl.H4_29
  rw [rd_skip128 _ _ _ _ _ _ _ _ (by omega)]
  unfold body_x1.sl.H4_28
  rw [rd_skip128 _ _ _ _ _ _ _ _ (by omega)]
  unfold body_x1.sl.H4_27
  rw [rd_skip128 _ _ _ _ _ _ _ _ (by omega)]
  unfold body_x1.sl.H4_26
  rw [rd_skip128 _ _ _ _ _ _ _ _ (by omega)]
  unfold body_x1.sl.H4_25
  rw [rd_skip128 _ _ _ _ _ _ _ _ (by omega)]
  unfold body_x1.sl.H4_24
  rw [rd_skip128 _ _ _ _ _ _ _ _ (by omega)]
  rw [rd_skip128 _ _ _ _ _ _ _ _ (by omega)]
  rw [rd_skip128 _ _ _ _ _ _ _ _ (by omega)]
  rw [rd_skip128 _ _ _ _ _ _ _ _ (by omega)]
  rw [rd_skip512 _ _ _ _ _ _ _ _ (by omega)]
  exact rd_hit512 _ _ _ _ _ _ r cq q (by omega)

theorem body_x1_y0 (r : Fin 512) (q' : Fin 128) (q : Fin 512) (hq : q.val = 0 + q'.val) :
    body_x1.sl.dma4 (F := Ideal) mI c f4 (ix2 r q) = (k0_pay45 (body_x1.sl.r_2 mI c)) (ix2 r q) + (View.readAt (Elt Ideal) (Memref.whole cc0_scratch3 : Memref sig .tc .vmem S16x512x128 .bf16).view (Rect.unit (s := S16x512x128) ![0, 0, 0] S1x512x128.size inb_S16x512x128_S1x512x128_0_0_0).toLoadRect (YcV (chunk mI) c 0)) (ix3 (0 : Fin 1) r q') := by
  have hq' := q'.isLt
  obtain ⟨cq, hcq⟩ : ∃ cq : Fin 4096, cq.val = 2048 + q.val := ⟨⟨2048 + q.val, by omega⟩, rfl⟩
  unfold body_x1.sl.dma4
  rw [s1_blk_read 2048 _ _ _ r q cq hcq]
  unfold body_x1.sl.H4_6
  rw [rd_skip128 _ _ _ _ _ _ _ _ (by omega)]
  rw [rd_skip128 _ _ _ _ _ _ _ _ (by omega)]
  rw [rd_skip128 _ _ _ _ _ _ _ _ (by omega)]
  rw [rd_hit128 _ _ _ _ _ _ r cq q' (by omega)]
  rw [Cert.KernelIdeal.PayIdx.k0_pay47_apply]
  refine congrArg₂ (· + ·) ?_ rfl
  unfold body_x1.sl.v1269
  rw [rdcov128 _ _ 2048 _ r q' cq (by omega)]
  exact rd_hit512 _ _ _ _ _ _ r cq q (by omega)

theorem body_x1_y1 (r : Fin 512) (q' : Fin 128) (q : Fin 512) (hq : q.val = 128 + q'.val) :
    body_x1.sl.dma4 (F := Ideal) mI c f4 (ix2 r q) = (k0_pay45 (body_x1.sl.r_2 mI c)) (ix2 r q) + (View.readAt (Elt Ideal) (Memref.whole cc0_scratch3 : Memref sig .tc .vmem S16x512x128 .bf16).view (Rect.unit (s := S16x512x128) ![1, 0, 0] S1x512x128.size inb_S16x512x128_S1x512x128_1_0_0).toLoadRect (YcV (chunk mI) c 1)) (ix3 (0 : Fin 1) r q') := by
  have hq' := q'.isLt
  obtain ⟨cq, hcq⟩ : ∃ cq : Fin 4096, cq.val = 2048 + q.val := ⟨⟨2048 + q.val, by omega⟩, rfl⟩
  unfold body_x1.sl.dma4
  rw [s1_blk_read 2048 _ _ _ r q cq hcq]
  unfold body_x1.sl.H4_6
  rw [rd_skip128 _ _ _ _ _ _ _ _ (by omega)]
  rw [rd_skip128 _ _ _ _ _ _ _ _ (by omega)]
  rw [rd_hit128 _ _ _ _ _ _ r cq q' (by omega)]
  rw [Cert.KernelIdeal.PayIdx.k0_pay49_apply]
  refine congrArg₂ (· + ·) ?_ rfl
  unfold body_x1.sl.v1269_1
  rw [rdcov128 _ _ 2176 _ r q' cq (by omega)]
  rw [rd_skip128 _ _ _ _ _ _ _ _ (by omega)]
  exact rd_hit512 _ _ _ _ _ _ r cq q (by omega)

theorem body_x1_y2 (r : Fin 512) (q' : Fin 128) (q : Fin 512) (hq : q.val = 256 + q'.val) :
    body_x1.sl.dma4 (F := Ideal) mI c f4 (ix2 r q) = (k0_pay45 (body_x1.sl.r_2 mI c)) (ix2 r q) + (View.readAt (Elt Ideal) (Memref.whole cc0_scratch3 : Memref sig .tc .vmem S16x512x128 .bf16).view (Rect.unit (s := S16x512x128) ![2, 0, 0] S1x512x128.size inb_S16x512x128_S1x512x128_2_0_0).toLoadRect (YcV (chunk mI) c 2)) (ix3 (0 : Fin 1) r q') := by
  have hq' := q'.isLt
  obtain ⟨cq, hcq⟩ : ∃ cq : Fin 4096, cq.val = 2048 + q.val := ⟨⟨2048 + q.val, by omega⟩, rfl⟩
  unfold body_x1.sl.dma4
  rw [s1_blk_read 2048 _ _ _ r q cq hcq]
  unfold body_x1.sl.H4_6
  rw [rd_skip128 _ _ _ _ _ _ _ _ (by omega)]
  rw [rd_hit128 _ _ _ _ _ _ r cq q' (by omega)]
  rw [Cert.KernelIdeal.PayIdx.k0_pay51_apply]
  refine congrArg₂ (· + ·) ?_ rfl
  unfold body_x1.sl.v1269_2
  rw [rdcov128 _ _ 2304 _ r q' cq (by omega)]
  rw [rd_skip128 _ _ _ _ _ _ _ _ (by omega)]
  rw [rd_skip128 _ _ _ _ _ _ _ _ (by omega)]
  exact rd_hit512 _ _ _ _ _ _ r cq q (by omega)

theorem body_x1_y3 (r : Fin 512) (q' : Fin 128) (q : Fin 512) (hq : q.val = 384 + q'.val) :
    body_x1.sl.dma4 (F := Ideal) mI c f4 (ix2 r q) = (k0_pay45 (body_x1.sl.r_2 mI c)) (ix2 r q) + (View.readAt (Elt Ideal) (Memref.whole cc0_scratch3 : Memref sig .tc .vmem S16x512x128 .bf16).view (Rect.unit (s := S16x512x128) ![3, 0, 0] S1x512x128.size inb_S16x512x128_S1x512x128_3_0_0).toLoadRect (YcV (chunk mI) c 3)) (ix3 (0 : Fin 1) r q') := by
  have hq' := q'.isLt
  obtain ⟨cq, hcq⟩ : ∃ cq : Fin 4096, cq.val = 2048 + q.val := ⟨⟨2048 + q.val, by omega⟩, rfl⟩
  unfold body_x1.sl.dma4
  rw [s1_blk_read 2048 _ _ _ r q cq hcq]
  unfold body_x1.sl.H4_6
  rw [rd_hit128 _ _ _ _ _ _ r cq q' (by omega)]
  rw [Cert.KernelIdeal.PayIdx.k0_pay53_apply]
  refine congrArg₂ (· + ·) ?_ rfl
  unfold body_x1.sl.v1269_3
  rw [rdcov128 _ _ 2432 _ r q' cq (by omega)]
  rw [rd_skip128 _ _ _ _ _ _ _ _ (by omega)]
  rw [rd_skip128 _ _ _ _ _ _ _ _ (by omega)]
  rw [rd_skip128 _ _ _ _ _ _ _ _ (by omega)]
  exact rd_hit512 _ _ _ _ _ _ r cq q (by omega)

theorem body_x1_y4 (r : Fin 512) (q' : Fin 128) (q : Fin 512) (hq : q.val = 0 + q'.val) :
    body_x1.sl.dma4_1 (F := Ideal) mI c f4 (ix2 r q) = (k0_pay55 (body_x1.sl.r mI c) (body_x1.sl.v411 mI c)) (ix2 r q) + (View.readAt (Elt Ideal) (Memref.whole cc0_scratch3 : Memref sig .tc .vmem S16x512x128 .bf16).view (Rect.unit (s := S16x512x128) ![4, 0, 0] S1x512x128.size inb_S16x512x128_S1x512x128_4_0_0).toLoadRect (YcV (chunk mI) c 4)) (ix3 (0 : Fin 1) r q') := by
  have hq' := q'.isLt
  obtain ⟨cq, hcq⟩ : ∃ cq : Fin 4096, cq.val = 2560 + q.val := ⟨⟨2560 + q.val, by omega⟩, rfl⟩
  unfold body_x1.sl.dma4_1
  rw [s1_blk_read 2560 _ _ _ r q cq hcq]
  unfold body_x1.sl.H4_12
  rw [rd_skip128 _ _ _ _ _ _ _ _ (by omega)]
  rw [rd_skip128 _ _ _ _ _ _ _ _ (by omega)]
  rw [rd_skip128 _ _ _ _ _ _ _ _ (by omega)]
  rw [rd_hit128 _ _ _ _ _ _ r cq q' (by omega)]
  rw [Cert.KernelIdeal.PayIdx.k0_pay57_apply]
  refine congrArg₂ (· + ·) ?_ rfl
  unfold body_x1.sl.v1269_4
  rw [rdcov128 _ _ 2560 _ r q' cq (by omega)]
  exact rd_hit512 _ _ _ _ _ _ r cq q (by omega)

theorem body_x1_y5 (r : Fin 512) (q' : Fin 128) (q : Fin 512) (hq : q.val = 128 + q'.val) :
    body_x1.sl.dma4_1 (F := Ideal) mI c f4 (ix2 r q) = (k0_pay55 (body_x1.sl.r mI c) (body_x1.sl.v411 mI c)) (ix2 r q) + (View.readAt (Elt Ideal) (Memref.whole cc0_scratch3 : Memref sig .tc .vmem S16x512x128 .bf16).view (Rect.unit (s := S16x512x128) ![5, 0, 0] S1x512x128.size inb_S16x512x128_S1x512x128_5_0_0).toLoadRect (YcV (chunk mI) c 5)) (ix3 (0 : Fin 1) r q') := by
  have hq' := q'.isLt
  obtain ⟨cq, hcq⟩ : ∃ cq : Fin 4096, cq.val = 2560 + q.val := ⟨⟨2560 + q.val, by omega⟩, rfl⟩
  unfold body_x1.sl.dma4_1
  rw [s1_blk_read 2560 _ _ _ r q cq hcq]
  unfold body_x1.sl.H4_12
  rw [rd_skip128 _ _ _ _ _ _ _ _ (by omega)]
  rw [rd_skip128 _ _ _ _ _ _ _ _ (by omega)]
  rw [rd_hit128 _ _ _ _ _ _ r cq q' (by omega)]
  rw [Cert.KernelIdeal.PayIdx.k0_pay59_apply]
  refine congrArg₂ (· + ·) ?_ rfl
  unfold body_x1.sl.v1269_5
  rw [rdcov128 _ _ 2688 _ r q' cq (by omega)]
  rw [rd_skip128 _ _ _ _ _ _ _ _ (by omega)]
  exact rd_hit512 _ _ _ _ _ _ r cq q (by omega)

theorem body_x1_y6 (r : Fin 512) (q' : Fin 128) (q : Fin 512) (hq : q.val = 256 + q'.val) :
    body_x1.sl.dma4_1 (F := Ideal) mI c f4 (ix2 r q) = (k0_pay55 (body_x1.sl.r mI c) (body_x1.sl.v411 mI c)) (ix2 r q) + (View.readAt (Elt Ideal) (Memref.whole cc0_scratch3 : Memref sig .tc .vmem S16x512x128 .bf16).view (Rect.unit (s := S16x512x128) ![6, 0, 0] S1x512x128.size inb_S16x512x128_S1x512x128_6_0_0).toLoadRect (YcV (chunk mI) c 6)) (ix3 (0 : Fin 1) r q') := by
  have hq' := q'.isLt
  obtain ⟨cq, hcq⟩ : ∃ cq : Fin 4096, cq.val = 2560 + q.val := ⟨⟨2560 + q.val, by omega⟩, rfl⟩
  unfold body_x1.sl.dma4_1
  rw [s1_blk_read 2560 _ _ _ r q cq hcq]
  unfold body_x1.sl.H4_12
  rw [rd_skip128 _ _ _ _ _ _ _ _ (by omega)]
  rw [rd_hit128 _ _ _ _ _ _ r cq q' (by omega)]
  rw [Cert.KernelIdeal.PayIdx.k0_pay61_apply]
  refine congrArg₂ (· + ·) ?_ rfl
  unfold body_x1.sl.v1269_6
  rw [rdcov128 _ _ 2816 _ r q' cq (by omega)]
  rw [rd_skip128 _ _ _ _ _ _ _ _ (by omega)]
  rw [rd_skip128 _ _ _ _ _ _ _ _ (by omega)]
  exact rd_hit512 _ _ _ _ _ _ r cq q (by omega)

theorem body_x1_y7 (r : Fin 512) (q' : Fin 128) (q : Fin 512) (hq : q.val = 384 + q'.val) :
    body_x1.sl.dma4_1 (F := Ideal) mI c f4 (ix2 r q) = (k0_pay55 (body_x1.sl.r mI c) (body_x1.sl.v411 mI c)) (ix2 r q) + (View.readAt (Elt Ideal) (Memref.whole cc0_scratch3 : Memref sig .tc .vmem S16x512x128 .bf16).view (Rect.unit (s := S16x512x128) ![7, 0, 0] S1x512x128.size inb_S16x512x128_S1x512x128_7_0_0).toLoadRect (YcV (chunk mI) c 7)) (ix3 (0 : Fin 1) r q') := by
  have hq' := q'.isLt
  obtain ⟨cq, hcq⟩ : ∃ cq : Fin 4096, cq.val = 2560 + q.val := ⟨⟨2560 + q.val, by omega⟩, rfl⟩
  unfold body_x1.sl.dma4_1
  rw [s1_blk_read 2560 _ _ _ r q cq hcq]
  unfold body_x1.sl.H4_12
  rw [rd_hit128 _ _ _ _ _ _ r cq q' (by omega)]
  rw [Cert.KernelIdeal.PayIdx.k0_pay63_apply]
  refine congrArg₂ (· + ·) ?_ rfl
  unfold body_x1.sl.v1269_7
  rw [rdcov128 _ _ 2944 _ r q' cq (by omega)]
  rw [rd_skip128 _ _ _ _ _ _ _ _ (by omega)]
  rw [rd_skip128 _ _ _ _ _ _ _ _ (by omega)]
  rw [rd_skip128 _ _ _ _ _ _ _ _ (by omega)]
  exact rd_hit512 _ _ _ _ _ _ r cq q (by omega)

theorem body_x1_y8 (r : Fin 512) (q' : Fin 128) (q : Fin 512) (hq : q.val = 0 + q'.val) :
    body_x1.sl.dma4_2 (F := Ideal) mI c f4 (ix2 r q) = (body_x1.sl.r_3 mI c) (ix2 r q) + (View.readAt (Elt Ideal) (Memref.whole cc0_scratch3 : Memref sig .tc .vmem S16x512x128 .bf16).view (Rect.unit (s := S16x512x128) ![8, 0, 0] S1x512x128.size inb_S16x512x128_S1x512x128_8_0_0).toLoadRect (YcV (chunk mI) c 8)) (ix3 (0 : Fin 1) r q') := by
  have hq' := q'.isLt
  obtain ⟨cq, hcq⟩ : ∃ cq : Fin 4096, cq.val = 3072 + q.val := ⟨⟨3072 + q.val, by omega⟩, rfl⟩
  unfold body_x1.sl.dma4_2
  rw [s1_blk_read 3072 _ _ _ r q cq hcq]
  unfold body_x1.sl.H4_18
  rw [rd_skip128 _ _ _ _ _ _ _ _ (by omega)]
  rw [rd_skip128 _ _ _ _ _ _ _ _ (by omega)]
  rw [rd_skip128 _ _ _ _ _ _ _ _ (by omega)]
  rw [rd_hit128 _ _ _ _ _ _ r cq q' (by omega)]
  rw [Cert.KernelIdeal.PayIdx.k0_pay67_apply]
  refine congrArg₂ (· + ·) ?_ rfl
  unfold body_x1.sl.v1269_8
  rw [rdcov128 _ _ 3072 _ r q' cq (by omega)]
  exact rd_hit512 _ _ _ _ _ _ r cq q (by omega)

theorem body_x1_y9 (r : Fin 512) (q' : Fin 128) (q : Fin 512) (hq : q.val = 128 + q'.val) :
    body_x1.sl.dma4_2 (F := Ideal) mI c f4 (ix2 r q) = (body_x1.sl.r_3 mI c) (ix2 r q) + (View.readAt (Elt Ideal) (Memref.whole cc0_scratch3 : Memref sig .tc .vmem S16x512x128 .bf16).view (Rect.unit (s := S16x512x128) ![9, 0, 0] S1x512x128.size inb_S16x512x128_S1x512x128_9_0_0).toLoadRect (YcV (chunk mI) c 9)) (ix3 (0 : Fin 1) r q') := by
  have hq' := q'.isLt
  obtain ⟨cq, hcq⟩ : ∃ cq : Fin 4096, cq.val = 3072 + q.val := ⟨⟨3072 + q.val, by omega⟩, rfl⟩
  unfold body_x1.sl.dma4_2
  rw [s1_blk_read 3072 _ _ _ r q cq hcq]
  unfold body_x1.sl.H4_18
  rw [rd_skip128 _ _ _ _ _ _ _ _ (by omega)]
  rw [rd_skip128 _ _ _ _ _ _ _ _ (by omega)]
  rw [rd_hit128 _ _ _ _ _ _ r cq q' (by omega)]
  rw [Cert.KernelIdeal.PayIdx.k0_pay69_apply]
  refine congrArg₂ (· + ·) ?_ rfl
  unfold body_x1.sl.v1269_9
  rw [rdcov128 _ _ 3200 _ r q' cq (by omega)]
  rw [rd_skip128 _ _ _ _ _ _ _ _ (by omega)]
  exact rd_hit512 _ _ _ _ _ _ r cq q (by omega)

theorem body_x1_y10 (r : Fin 512) (q' : Fin 128) (q : Fin 512) (hq : q.val = 256 + q'.val) :
    body_x1.sl.dma4_2 (F := Ideal) mI c f4 (ix2 r q) = (body_x1.sl.r_3 mI c) (ix2 r q) + (View.readAt (Elt Ideal) (Memref.whole cc0_scratch3 : Memref sig .tc .vmem S16x512x128 .bf16).view (Rect.unit (s := S16x512x128) ![10, 0, 0] S1x512x128.size inb_S16x512x128_S1x512x128_10_0_0).toLoadRect (YcV (chunk mI) c 10)) (ix3 (0 : Fin 1) r q') := by
  have hq' := q'.isLt
  obtain ⟨cq, hcq⟩ : ∃ cq : Fin 4096, cq.val = 3072 + q.val := ⟨⟨3072 + q.val, by omega⟩, rfl⟩
  unfold body_x1.sl.dma4_2
  rw [s1_blk_read 3072 _ _ _ r q cq hcq]
  unfold body_x1.sl.H4_18
  rw [rd_skip128 _ _ _ _ _ _ _ _ (by omega)]
  rw [rd_hit128 _ _ _ _ _ _ r cq q' (by omega)]
  rw [Cert.KernelIdeal.PayIdx.k0_pay71_apply]
  refine congrArg₂ (· + ·) ?_ rfl
  unfold body_x1.sl.v1269_10
  rw [rdcov128 _ _ 3328 _ r q' cq (by omega)]
  rw [rd_skip128 _ _ _ _ _ _ _ _ (by omega)]
  rw [rd_skip128 _ _ _ _ _ _ _ _ (by omega)]
  exact rd_hit512 _ _ _ _ _ _ r cq q (by omega)

theorem body_x1_y11 (r : Fin 512) (q' : Fin 128) (q : Fin 512) (hq : q.val = 384 + q'.val) :
    body_x1.sl.dma4_2 (F := Ideal) mI c f4 (ix2 r q) = (body_x1.sl.r_3 mI c) (ix2 r q) + (View.readAt (Elt Ideal) (Memref.whole cc0_scratch3 : Memref sig .tc .vmem S16x512x128 .bf16).view (Rect.unit (s := S16x512x128) ![11, 0, 0] S1x512x128.size inb_S16x512x128_S1x512x128_11_0_0).toLoadRect (YcV (chunk mI) c 11)) (ix3 (0 : Fin 1) r q') := by
  have hq' := q'.isLt
  obtain ⟨cq, hcq⟩ : ∃ cq : Fin 4096, cq.val = 3072 + q.val := ⟨⟨3072 + q.val, by omega⟩, rfl⟩
  unfold body_x1.sl.dma4_2
  rw [s1_blk_read 3072 _ _ _ r q cq hcq]
  unfold body_x1.sl.H4_18
  rw [rd_hit128 _ _ _ _ _ _ r cq q' (by omega)]
  rw [Cert.KernelIdeal.PayIdx.k0_pay73_apply]
  refine congrArg₂ (· + ·) ?_ rfl
  unfold body_x1.sl.v1269_11
  rw [rdcov128 _ _ 3456 _ r q' cq (by omega)]
  rw [rd_skip128 _ _ _ _ _ _ _ _ (by omega)]
  rw [rd_skip128 _ _ _ _ _ _ _ _ (by omega)]
  rw [rd_skip128 _ _ _ _ _ _ _ _ (by omega)]
  exact rd_hit512 _ _ _ _ _ _ r cq q (by omega)

theorem body_x1_y12 (r : Fin 512) (q' : Fin 128) (q : Fin 512) (hq : q.val = 0 + q'.val) :
    body_x1.sl.dma4_3 (F := Ideal) mI c f4 (ix2 r q) = (k0_pay75 (body_x1.sl.r mI c) (body_x1.sl.v667 mI c)) (ix2 r q) + (View.readAt (Elt Ideal) (Memref.whole cc0_scratch3 : Memref sig .tc .vmem S16x512x128 .bf16).view (Rect.unit (s := S16x512x128) ![12, 0, 0] S1x512x128.size inb_S16x512x128_S1x512x128_12_0_0).toLoadRect (YcV (chunk mI) c 12)) (ix3 (0 : Fin 1) r q') := by
  have hq' := q'.isLt
  obtain ⟨cq, hcq⟩ : ∃ cq : Fin 4096, cq.val = 3584 + q.val := ⟨⟨3584 + q.val, by omega⟩, rfl⟩
  unfold body_x1.sl.dma4_3
  rw [s1_blk_read 3584 _ _ _ r q cq hcq]
  unfold body_x1.sl.H4_24
  rw [rd_skip128 _ _ _ _ _ _ _ _ (by omega)]
  rw [rd_skip128 _ _ _ _ _ _ _ _ (by omega)]
  rw [rd_skip128 _ _ _ _ _ _ _ _ (by omega)]
  rw [rd_hit128 _ _ _ _ _ _ r cq q' (by omega)]
  rw [Cert.KernelIdeal.PayIdx.k0_pay77_apply]
  refine congrArg₂ (· + ·) ?_ rfl
  unfold body_x1.sl.v1269_12
  rw [rdcov128 _ _ 3584 _ r q' cq (by omega)]
  exact rd_hit512 _ _ _ _ _ _ r cq q (by omega)

theorem body_x1_y13 (r : Fin 512) (q' : Fin 128) (q : Fin 512) (hq : q.val = 128 + q'.val) :
    body_x1.sl.dma4_3 (F := Ideal) mI c f4 (ix2 r q) = (k0_pay75 (body_x1.sl.r mI c) (body_x1.sl.v667 mI c)) (ix2 r q) + (View.readAt (Elt Ideal) (Memref.whole cc0_scratch3 : Memref sig .tc .vmem S16x512x128 .bf16).view (Rect.unit (s := S16x512x128) ![13, 0, 0] S1x512x128.size inb_S16x512x128_S1x512x128_13_0_0).toLoadRect (YcV (chunk mI) c 13)) (ix3 (0 : Fin 1) r q') := by
  have hq' := q'.isLt
  obtain ⟨cq, hcq⟩ : ∃ cq : Fin 4096, cq.val = 3584 + q.val := ⟨⟨3584 + q.val, by omega⟩, rfl⟩
  unfold body_x1.sl.dma4_3
  rw [s1_blk_read 3584 _ _ _ r q cq hcq]
  unfold body_x1.sl.H4_24
  rw [rd_skip128 _ _ _ _ _ _ _ _ (by omega)]
  rw [rd_skip128 _ _ _ _ _ _ _ _ (by omega)]
  rw [rd_hit128 _ _ _ _ _ _ r cq q' (by omega)]
  rw [Cert.KernelIdeal.PayIdx.k0_pay79_apply]
  refine congrArg₂ (· + ·) ?_ rfl
  unfold body_x1.sl.v1269_13
  rw [rdcov128 _ _ 3712 _ r q' cq (by omega)]
  rw [rd_skip128 _ _ _ _ _ _ _ _ (by omega)]
  exact rd_hit512 _ _ _ _ _ _ r cq q (by omega)

theorem body_x1_y14 (r : Fin 512) (q' : Fin 128) (q : Fin 512) (hq : q.val = 256 + q'.val) :
    body_x1.sl.dma4_3 (F := Ideal) mI c f4 (ix2 r q) = (k0_pay75 (body_x1.sl.r mI c) (body_x1.sl.v667 mI c)) (ix2 r q) + (View.readAt (Elt Ideal) (Memref.whole cc0_scratch3 : Memref sig .tc .vmem S16x512x128 .bf16).view (Rect.unit (s := S16x512x128) ![14, 0, 0] S1x512x128.size inb_S16x512x128_S1x512x128_14_0_0).toLoadRect (YcV (chunk mI) c 14)) (ix3 (0 : Fin 1) r q') := by
  have hq' := q'.isLt
  obtain ⟨cq, hcq⟩ : ∃ cq : Fin 4096, cq.val = 3584 + q.val := ⟨⟨3584 + q.val, by omega⟩, rfl⟩
  unfold body_x1.sl.dma4_3
  rw [s1_blk_read 3584 _ _ _ r q cq hcq]
  unfold body_x1.sl.H4_24
  rw [rd_skip128 _ _ _ _ _ _ _ _ (by omega)]
  rw [rd_hit128 _ _ _ _ _ _ r cq q' (by omega)]
  rw [Cert.KernelIdeal.PayIdx.k0_pay81_apply]
  refine congrArg₂ (· + ·) ?_ rfl
  unfold body_x1.sl.v1269_14
  rw [rdcov128 _ _ 3840 _ r q' cq (by omega)]
  rw [rd_skip128 _ _ _ _ _ _ _ _ (by omega)]
  rw [rd_skip128 _ _ _ _ _ _ _ _ (by omega)]
  exact rd_hit512 _ _ _ _ _ _ r cq q (by omega)

theorem body_x1_y15 (r : Fin 512) (q' : Fin 128) (q : Fin 512) (hq : q.val = 384 + q'.val) :
    body_x1.sl.dma4_3 (F := Ideal) mI c f4 (ix2 r q) = (k0_pay75 (body_x1.sl.r mI c) (body_x1.sl.v667 mI c)) (ix2 r q) + (View.readAt (Elt Ideal) (Memref.whole cc0_scratch3 : Memref sig .tc .vmem S16x512x128 .bf16).view (Rect.unit (s := S16x512x128) ![15, 0, 0] S1x512x128.size inb_S16x512x128_S1x512x128_15_0_0).toLoadRect (YcV (chunk mI) c 15)) (ix3 (0 : Fin 1) r q') := by
  have hq' := q'.isLt
  obtain ⟨cq, hcq⟩ : ∃ cq : Fin 4096, cq.val = 3584 + q.val := ⟨⟨3584 + q.val, by omega⟩, rfl⟩
  unfold body_x1.sl.dma4_3
  rw [s1_blk_read 3584 _ _ _ r q cq hcq]
  unfold body_x1.sl.H4_24
  rw [rd_hit128 _ _ _ _ _ _ r cq q' (by omega)]
  rw [Cert.KernelIdeal.PayIdx.k0_pay83_apply]
  refine congrArg₂ (· + ·) ?_ rfl
  unfold body_x1.sl.v1269_15
  rw [rdcov128 _ _ 3968 _ r q' cq (by omega)]
  rw [rd_skip128 _ _ _ _ _ _ _ _ (by omega)]
  rw [rd_skip128 _ _ _ _ _ _ _ _ (by omega)]
  rw [rd_skip128 _ _ _ _ _ _ _ _ (by omega)]
  exact rd_hit512 _ _ _ _ _ _ r cq q (by omega)

/-! ## The eight blocks -/

theorem body_x1_blk0 (A N : S512x4096.Idx → EReal)
    (hMM : ∀ (r q : Fin 512) (cq : Fin 4096), cq.val = 0 + q.val → (k0_pay43 (body_x1.sl.r mI c) (body_x1.sl.v278 mI c)) (ix2 r q) = A (ix2 r cq))
    (hRD : ∀ (j : Fin 16) (r : Fin 512) (q' : Fin 128) (cq : Fin 4096), cq.val = 0 + 128 * j.val + q'.val → rdX mI c j (ix3 (0 : Fin 1) r q') = N (ix2 r cq)) :
    ∀ (r q : Fin 512) (cq : Fin 4096), cq.val = 0 + q.val → body_x1.sl.dma20 (F := Ideal) mI c f4 (ix2 r q) = A (ix2 r cq) + N (ix2 r cq) := by
  intro r q cq hcq
  have hq := q.isLt
  rcases (by omega : q.val < 128 ∨ (128 ≤ q.val ∧ q.val < 256) ∨ (256 ≤ q.val ∧ q.val < 384) ∨ 384 ≤ q.val) with h | h | h | h
  · obtain ⟨q', hq'⟩ : ∃ q' : Fin 128, q.val = 0 + q'.val := ⟨⟨q.val - 0, by omega⟩, by show q.val = 0 + (q.val - 0); omega⟩
    rw [body_x1_x0 mI c f4 r q' q hq', hMM r q cq hcq]
    exact congrArg (A (ix2 r cq) + ·) (hRD 0 r q' cq (by show cq.val = 0 + 128 * 0 + q'.val; omega))
  · obtain ⟨q', hq'⟩ : ∃ q' : Fin 128, q.val = 128 + q'.val := ⟨⟨q.val - 128, by omega⟩, by show q.val = 128 + (q.val - 128); omega⟩
    rw [body_x1_x1 mI c f4 r q' q hq', hMM r q cq hcq]
    exact congrArg (A (ix2 r cq) + ·) (hRD 1 r q' cq (by show cq.val = 0 + 128 * 1 + q'.val; omega))
  · obtain ⟨q', hq'⟩ : ∃ q' : Fin 128, q.val = 256 + q'.val := ⟨⟨q.val - 256, by omega⟩, by show q.val = 256 + (q.val - 256); omega⟩
    rw [body_x1_x2 mI c f4 r q' q hq', hMM r q cq hcq]
    exact congrArg (A (ix2 r cq) + ·) (hRD 2 r q' cq (by show cq.val = 0 + 128 * 2 + q'.val; omega))
  · obtain ⟨q', hq'⟩ : ∃ q' : Fin 128, q.val = 384 + q'.val := ⟨⟨q.val - 384, by omega⟩, by show q.val = 384 + (q.val - 384); omega⟩
    rw [body_x1_x3 mI c f4 r q' q hq', hMM r q cq hcq]
    exact congrArg (A (ix2 r cq) + ·) (hRD 3 r q' cq (by show cq.val = 0 + 128 * 3 + q'.val; omega))

theorem body_x1_blk1 (A N : S512x4096.Idx → EReal)
    (hMM : ∀ (r q : Fin 512) (cq : Fin 4096), cq.val = 512 + q.val → (k0_pay54 (body_x1.sl.r mI c) (body_x1.sl.v406 mI c)) (ix2 r q) = A (ix2 r cq))
    (hRD : ∀ (j : Fin 16) (r : Fin 512) (q' : Fin 128) (cq : Fin 4096), cq.val = 0 + 128 * j.val + q'.val → rdX mI c j (ix3 (0 : Fin 1) r q') = N (ix2 r cq)) :
    ∀ (r q : Fin 512) (cq : Fin 4096), cq.val = 512 + q.val → body_x1.sl.dma36 (F := Ideal) mI c f4 (ix2 r q) = A (ix2 r cq) + N (ix2 r cq) := by
  intro r q cq hcq
  have hq := q.isLt
  rcases (by omega : q.val < 128 ∨ (128 ≤ q.val ∧ q.val < 256) ∨ (256 ≤ q.val ∧ q.val < 384) ∨ 384 ≤ q.val) with h | h | h | h
  · obtain ⟨q', hq'⟩ : ∃ q' : Fin 128, q.val = 0 + q'.val := ⟨⟨q.val - 0, by omega⟩, by show q.val = 0 + (q.val - 0); omega⟩
    rw [body_x1_x4 mI c f4 r q' q hq', hMM r q cq hcq]
    exact congrArg (A (ix2 r cq) + ·) (hRD 4 r q' cq (by show cq.val = 0 + 128 * 4 + q'.val; omega))
  · obtain ⟨q', hq'⟩ : ∃ q' : Fin 128, q.val = 128 + q'.val := ⟨⟨q.val - 128, by omega⟩, by show q.val = 128 + (q.val - 128); omega⟩
    rw [body_x1_x5 mI c f4 r q' q hq', hMM r q cq hcq]
    exact congrArg (A (ix2 r cq) + ·) (hRD 5 r q' cq (by show cq.val = 0 + 128 * 5 + q'.val; omega))
  · obtain ⟨q', hq'⟩ : ∃ q' : Fin 128, q.val = 256 + q'.val := ⟨⟨q.val - 256, by omega⟩, by show q.val = 256 + (q.val - 256); omega⟩
    rw [body_x1_x6 mI c f4 r q' q hq', hMM r q cq hcq]
    exact congrArg (A (ix2 r cq) + ·) (hRD 6 r q' cq (by show cq.val = 0 + 128 * 6 + q'.val; omega))
  · obtain ⟨q', hq'⟩ : ∃ q' : Fin 128, q.val = 384 + q'.val := ⟨⟨q.val - 384, by omega⟩, by show q.val = 384 + (q.val - 384); omega⟩
    rw [body_x1_x7 mI c f4 r q' q hq', hMM r q cq hcq]
    exact congrArg (A (ix2 r cq) + ·) (hRD 7 r q' cq (by show cq.val = 0 + 128 * 7 + q'.val; omega))

theorem body_x1_blk2 (A N : S512x4096.Idx → EReal)
    (hMM : ∀ (r q : Fin 512) (cq : Fin 4096), cq.val = 1024 + q.val → (k0_pay64 (body_x1.sl.r mI c) (body_x1.sl.v534 mI c)) (ix2 r q) = A (ix2 r cq))
    (hRD : ∀ (j : Fin 16) (r : Fin 512) (q' : Fin 128) (cq : Fin 4096), cq.val = 0 + 128 * j.val + q'.val → rdX mI c j (ix3 (0 : Fin 1) r q') = N (ix2 r cq)) :
    ∀ (r q : Fin 512) (cq : Fin 4096), cq.val = 1024 + q.val → body_x1.sl.dma52 (F := Ideal) mI c f4 (ix2 r q) = A (ix2 r cq) + N (ix2 r cq) := by
  intro r q cq hcq
  have hq := q.isLt
  rcases (by omega : q.val < 128 ∨ (128 ≤ q.val ∧ q.val < 256) ∨ (256 ≤ q.val ∧ q.val < 384) ∨ 384 ≤ q.val) with h | h | h | h
  · obtain ⟨q', hq'⟩ : ∃ q' : Fin 128, q.val = 0 + q'.val := ⟨⟨q.val - 0, by omega⟩, by show q.val = 0 + (q.val - 0); omega⟩
    rw [body_x1_x8 mI c f4 r q' q hq', hMM r q cq hcq]
    exact congrArg (A (ix2 r cq) + ·) (hRD 8 r q' cq (by show cq.val = 0 + 128 * 8 + q'.val; omega))
  · obtain ⟨q', hq'⟩ : ∃ q' : Fin 128, q.val = 128 + q'.val := ⟨⟨q.val - 128, by omega⟩, by show q.val = 128 + (q.val - 128); omega⟩
    rw [body_x1_x9 mI c f4 r q' q hq', hMM r q cq hcq]
    exact congrArg (A (ix2 r cq) + ·) (hRD 9 r q' cq (by show cq.val = 0 + 128 * 9 + q'.val; omega))
  · obtain ⟨q', hq'⟩ : ∃ q' : Fin 128, q.val = 256 + q'.val := ⟨⟨q.val - 256, by omega⟩, by show q.val = 256 + (q.val - 256); omega⟩
    rw [body_x1_x10 mI c f4 r q' q hq', hMM r q cq hcq]
    exact congrArg (A (ix2 r cq) + ·) (hRD 10 r q' cq (by show cq.val = 0 + 128 * 10 + q'.val; omega))
  · obtain ⟨q', hq'⟩ : ∃ q' : Fin 128, q.val = 384 + q'.val := ⟨⟨q.val - 384, by omega⟩, by show q.val = 384 + (q.val - 384); omega⟩
    rw [body_x1_x11 mI c f4 r q' q hq', hMM r q cq hcq]
    exact congrArg (A (ix2 r cq) + ·) (hRD 11 r q' cq (by show cq.val = 0 + 128 * 11 + q'.val; omega))

theorem body_x1_blk3 (A N : S512x4096.Idx → EReal)
    (hMM : ∀ (r q : Fin 512) (cq : Fin 4096), cq.val = 1536 + q.val → (k0_pay74 (body_x1.sl.r mI c) (body_x1.sl.v662 mI c)) (ix2 r q) = A (ix2 r cq))
    (hRD : ∀ (j : Fin 16) (r : Fin 512) (q' : Fin 128) (cq : Fin 4096), cq.val = 0 + 128 * j.val + q'.val → rdX mI c j (ix3 (0 : Fin 1) r q') = N (ix2 r cq)) :
    ∀ (r q : Fin 512) (cq : Fin 4096), cq.val = 1536 + q.val → body_x1.sl.dma68 (F := Ideal) mI c f4 (ix2 r q) = A (ix2 r cq) + N (ix2 r cq) := by
  intro r q cq hcq
  have hq := q.isLt
  rcases (by omega : q.val < 128 ∨ (128 ≤ q.val ∧ q.val < 256) ∨ (256 ≤ q.val ∧ q.val < 384) ∨ 384 ≤ q.val) with h | h | h | h
  · obtain ⟨q', hq'⟩ : ∃ q' : Fin 128, q.val = 0 + q'.val := ⟨⟨q.val - 0, by omega⟩, by show q.val = 0 + (q.val - 0); omega⟩
    rw [body_x1_x12 mI c f4 r q' q hq', hMM r q cq hcq]
    exact congrArg (A (ix2 r cq) + ·) (hRD 12 r q' cq (by show cq.val = 0 + 128 * 12 + q'.val; omega))
  · obtain ⟨q', hq'⟩ : ∃ q' : Fin 128, q.val = 128 + q'.val := ⟨⟨q.val - 128, by omega⟩, by show q.val = 128 + (q.val - 128); omega⟩
    rw [body_x1_x13 mI c f4 r q' q hq', hMM r q cq hcq]
    exact congrArg (A (ix2 r cq) + ·) (hRD 13 r q' cq (by show cq.val = 0 + 128 * 13 + q'.val; omega))
  · obtain ⟨q', hq'⟩ : ∃ q' : Fin 128, q.val = 256 + q'.val := ⟨⟨q.val - 256, by omega⟩, by show q.val = 256 + (q.val - 256); omega⟩
    rw [body_x1_x14 mI c f4 r q' q hq', hMM r q cq hcq]
    exact congrArg (A (ix2 r cq) + ·) (hRD 14 r q' cq (by show cq.val = 0 + 128 * 14 + q'.val; omega))
  · obtain ⟨q', hq'⟩ : ∃ q' : Fin 128, q.val = 384 + q'.val := ⟨⟨q.val - 384, by omega⟩, by show q.val = 384 + (q.val - 384); omega⟩
    rw [body_x1_x15 mI c f4 r q' q hq', hMM r q cq hcq]
    exact congrArg (A (ix2 r cq) + ·) (hRD 15 r q' cq (by show cq.val = 0 + 128 * 15 + q'.val; omega))

theorem body_x1_blk4 (A N : S512x4096.Idx → EReal)
    (hMM : ∀ (r q : Fin 512) (cq : Fin 4096), cq.val = 2048 + q.val → (k0_pay45 (body_x1.sl.r_2 mI c)) (ix2 r q) = A (ix2 r cq))
    (hRD : ∀ (j : Fin 16) (r : Fin 512) (q' : Fin 128) (cq : Fin 4096), cq.val = 2048 + 128 * j.val + q'.val → rdY mI c j (ix3 (0 : Fin 1) r q') = N (ix2 r cq)) :
    ∀ (r q : Fin 512) (cq : Fin 4096), cq.val = 2048 + q.val → body_x1.sl.dma4 (F := Ideal) mI c f4 (ix2 r q) = A (ix2 r cq) + N (ix2 r cq) := by
  intro r q cq hcq
  have hq := q.isLt
  rcases (by omega : q.val < 128 ∨ (128 ≤ q.val ∧ q.val < 256) ∨ (256 ≤ q.val ∧ q.val < 384) ∨ 384 ≤ q.val) with h | h | h | h
  · obtain ⟨q', hq'⟩ : ∃ q' : Fin 128, q.val = 0 + q'.val := ⟨⟨q.val - 0, by omega⟩, by show q.val = 0 + (q.val - 0); omega⟩
    rw [body_x1_y0 mI c f4 r q' q hq', hMM r q cq hcq]
    exact congrArg (A (ix2 r cq) + ·) (hRD 0 r q' cq (by show cq.val = 2048 + 128 * 0 + q'.val; omega))
  · obtain ⟨q', hq'⟩ : ∃ q' : Fin 128, q.val = 128 + q'.val := ⟨⟨q.val - 128, by omega⟩, by show q.val = 128 + (q.val - 128); omega⟩
    rw [body_x1_y1 mI c f4 r q' q hq', hMM r q cq hcq]
    exact congrArg (A (ix2 r cq) + ·) (hRD 1 r q' cq (by show cq.val = 2048 + 128 * 1 + q'.val; omega))
  · obtain ⟨q', hq'⟩ : ∃ q' : Fin 128, q.val = 256 + q'.val := ⟨⟨q.val - 256, by omega⟩, by show q.val = 256 + (q.val - 256); omega⟩
    rw [body_x1_y2 mI c f4 r q' q hq', hMM r q cq hcq]
    exact congrArg (A (ix2 r cq) + ·) (hRD 2 r q' cq (by show cq.val = 2048 + 128 * 2 + q'.val; omega))
  · obtain ⟨q', hq'⟩ : ∃ q' : Fin 128, q.val = 384 + q'.val := ⟨⟨q.val - 384, by omega⟩, by show q.val = 384 + (q.val - 384); omega⟩
    rw [body_x1_y3 mI c f4 r q' q hq', hMM r q cq hcq]
    exact congrArg (A (ix2 r cq) + ·) (hRD 3 r q' cq (by show cq.val = 2048 + 128 * 3 + q'.val; omega))

theorem body_x1_blk5 (A N : S512x4096.Idx → EReal)
    (hMM : ∀ (r q : Fin 512) (cq : Fin 4096), cq.val = 2560 + q.val → (k0_pay55 (body_x1.sl.r mI c) (body_x1.sl.v411 mI c)) (ix2 r q) = A (ix2 r cq))
    (hRD : ∀ (j : Fin 16) (r : Fin 512) (q' : Fin 128) (cq : Fin 4096), cq.val = 2048 + 128 * j.val + q'.val → rdY mI c j (ix3 (0 : Fin 1) r q') = N (ix2 r cq)) :
    ∀ (r q : Fin 512) (cq : Fin 4096), cq.val = 2560 + q.val → body_x1.sl.dma4_1 (F := Ideal) mI c f4 (ix2 r q) = A (ix2 r cq) + N (ix2 r cq) := by
  intro r q cq hcq
  have hq := q.isLt
  rcases (by omega : q.val < 128 ∨ (128 ≤ q.val ∧ q.val < 256) ∨ (256 ≤ q.val ∧ q.val < 384) ∨ 384 ≤ q.val) with h | h | h | h
  · obtain ⟨q', hq'⟩ : ∃ q' : Fin 128, q.val = 0 + q'.val := ⟨⟨q.val - 0, by omega⟩, by show q.val = 0 + (q.val - 0); omega⟩
    rw [body_x1_y4 mI c f4 r q' q hq', hMM r q cq hcq]
    exact congrArg (A (ix2 r cq) + ·) (hRD 4 r q' cq (by show cq.val = 2048 + 128 * 4 + q'.val; omega))
  · obtain ⟨q', hq'⟩ : ∃ q' : Fin 128, q.val = 128 + q'.val := ⟨⟨q.val - 128, by omega⟩, by show q.val = 128 + (q.val - 128); omega⟩
    rw [body_x1_y5 mI c f4 r q' q hq', hMM r q cq hcq]
    exact congrArg (A (ix2 r cq) + ·) (hRD 5 r q' cq (by show cq.val = 2048 + 128 * 5 + q'.val; omega))
  · obtain ⟨q', hq'⟩ : ∃ q' : Fin 128, q.val = 256 + q'.val := ⟨⟨q.val - 256, by omega⟩, by show q.val = 256 + (q.val - 256); omega⟩
    rw [body_x1_y6 mI c f4 r q' q hq', hMM r q cq hcq]
    exact congrArg (A (ix2 r cq) + ·) (hRD 6 r q' cq (by show cq.val = 2048 + 128 * 6 + q'.val; omega))
  · obtain ⟨q', hq'⟩ : ∃ q' : Fin 128, q.val = 384 + q'.val := ⟨⟨q.val - 384, by omega⟩, by show q.val = 384 + (q.val - 384); omega⟩
    rw [body_x1_y7 mI c f4 r q' q hq', hMM r q cq hcq]
    exact congrArg (A (ix2 r cq) + ·) (hRD 7 r q' cq (by show cq.val = 2048 + 128 * 7 + q'.val; omega))

theorem body_x1_blk6 (A N : S512x4096.Idx → EReal)
    (hMM : ∀ (r q : Fin 512) (cq : Fin 4096), cq.val = 3072 + q.val → (body_x1.sl.r_3 mI c) (ix2 r q) = A (ix2 r cq))
    (hRD : ∀ (j : Fin 16) (r : Fin 512) (q' : Fin 128) (cq : Fin 4096), cq.val = 2048 + 128 * j.val + q'.val → rdY mI c j (ix3 (0 : Fin 1) r q') = N (ix2 r cq)) :
    ∀ (r q : Fin 512) (cq : Fin 4096), cq.val = 3072 + q.val → body_x1.sl.dma4_2 (F := Ideal) mI c f4 (ix2 r q) = A (ix2 r cq) + N (ix2 r cq) := by
  intro r q cq hcq
  have hq := q.isLt
  rcases (by omega : q.val < 128 ∨ (128 ≤ q.val ∧ q.val < 256) ∨ (256 ≤ q.val ∧ q.val < 384) ∨ 384 ≤ q.val) with h | h | h | h
  · obtain ⟨q', hq'⟩ : ∃ q' : Fin 128, q.val = 0 + q'.val := ⟨⟨q.val - 0, by omega⟩, by show q.val = 0 + (q.val - 0); omega⟩
    rw [body_x1_y8 mI c f4 r q' q hq', hMM r q cq hcq]
    exact congrArg (A (ix2 r cq) + ·) (hRD 8 r q' cq (by show cq.val = 2048 + 128 * 8 + q'.val; omega))
  · obtain ⟨q', hq'⟩ : ∃ q' : Fin 128, q.val = 128 + q'.val := ⟨⟨q.val - 128, by omega⟩, by show q.val = 128 + (q.val - 128); omega⟩
    rw [body_x1_y9 mI c f4 r q' q hq', hMM r q cq hcq]
    exact congrArg (A (ix2 r cq) + ·) (hRD 9 r q' cq (by show cq.val = 2048 + 128 * 9 + q'.val; omega))
  · obtain ⟨q', hq'⟩ : ∃ q' : Fin 128, q.val = 256 + q'.val := ⟨⟨q.val - 256, by omega⟩, by show q.val = 256 + (q.val - 256); omega⟩
    rw [body_x1_y10 mI c f4 r q' q hq', hMM r q cq hcq]
    exact congrArg (A (ix2 r cq) + ·) (hRD 10 r q' cq (by show cq.val = 2048 + 128 * 10 + q'.val; omega))
  · obtain ⟨q', hq'⟩ : ∃ q' : Fin 128, q.val = 384 + q'.val := ⟨⟨q.val - 384, by omega⟩, by show q.val = 384 + (q.val - 384); omega⟩
    rw [body_x1_y11 mI c f4 r q' q hq', hMM r q cq hcq]
    exact congrArg (A (ix2 r cq) + ·) (hRD 11 r q' cq (by show cq.val = 2048 + 128 * 11 + q'.val; omega))

theorem body_x1_blk7 (A N : S512x4096.Idx → EReal)
    (hMM : ∀ (r q : Fin 512) (cq : Fin 4096), cq.val = 3584 + q.val → (k0_pay75 (body_x1.sl.r mI c) (body_x1.sl.v667 mI c)) (ix2 r q) = A (ix2 r cq))
    (hRD : ∀ (j : Fin 16) (r : Fin 512) (q' : Fin 128) (cq : Fin 4096), cq.val = 2048 + 128 * j.val + q'.val → rdY mI c j (ix3 (0 : Fin 1) r q') = N (ix2 r cq)) :
    ∀ (r q : Fin 512) (cq : Fin 4096), cq.val = 3584 + q.val → body_x1.sl.dma4_3 (F := Ideal) mI c f4 (ix2 r q) = A (ix2 r cq) + N (ix2 r cq) := by
  intro r q cq hcq
  have hq := q.isLt
  rcases (by omega : q.val < 128 ∨ (128 ≤ q.val ∧ q.val < 256) ∨ (256 ≤ q.val ∧ q.val < 384) ∨ 384 ≤ q.val) with h | h | h | h
  · obtain ⟨q', hq'⟩ : ∃ q' : Fin 128, q.val = 0 + q'.val := ⟨⟨q.val - 0, by omega⟩, by show q.val = 0 + (q.val - 0); omega⟩
    rw [body_x1_y12 mI c f4 r q' q hq', hMM r q cq hcq]
    exact congrArg (A (ix2 r cq) + ·) (hRD 12 r q' cq (by show cq.val = 2048 + 128 * 12 + q'.val; omega))
  · obtain ⟨q', hq'⟩ : ∃ q' : Fin 128, q.val = 128 + q'.val := ⟨⟨q.val - 128, by omega⟩, by show q.val = 128 + (q.val - 128); omega⟩
    rw [body_x1_y13 mI c f4 r q' q hq', hMM r q cq hcq]
    exact congrArg (A (ix2 r cq) + ·) (hRD 13 r q' cq (by show cq.val = 2048 + 128 * 13 + q'.val; omega))
  · obtain ⟨q', hq'⟩ : ∃ q' : Fin 128, q.val = 256 + q'.val := ⟨⟨q.val - 256, by omega⟩, by show q.val = 256 + (q.val - 256); omega⟩
    rw [body_x1_y14 mI c f4 r q' q hq', hMM r q cq hcq]
    exact congrArg (A (ix2 r cq) + ·) (hRD 14 r q' cq (by show cq.val = 2048 + 128 * 14 + q'.val; omega))
  · obtain ⟨q', hq'⟩ : ∃ q' : Fin 128, q.val = 384 + q'.val := ⟨⟨q.val - 384, by omega⟩, by show q.val = 384 + (q.val - 384); omega⟩
    rw [body_x1_y15 mI c f4 r q' q hq', hMM r q cq hcq]
    exact congrArg (A (ix2 r cq) + ·) (hRD 15 r q' cq (by show cq.val = 2048 + 128 * 15 + q'.val; omega))

/-! ## The result -/

/-- The result from its eight blocks, the copies listed in the order this kind of device issues them. -/
theorem result_of_blocks_x1 {Val : EltTy → Type} (fo : (main_v1 : Ref sig .tc).ty.Contents Val) (P0 P1 P2 P3 P4 P5 P6 P7 : S512x512.Idx → Val .f32)
    (G : S512x4096.Idx → Val .f32)
    (h0 : ∀ (r q : Fin 512) (cq : Fin 4096), cq.val = 0 + q.val → P0 (ix2 r q) = G (ix2 r cq))
    (h1 : ∀ (r q : Fin 512) (cq : Fin 4096), cq.val = 512 + q.val → P1 (ix2 r q) = G (ix2 r cq))
    (h2 : ∀ (r q : Fin 512) (cq : Fin 4096), cq.val = 1024 + q.val → P2 (ix2 r q) = G (ix2 r cq))
    (h3 : ∀ (r q : Fin 512) (cq : Fin 4096), cq.val = 1536 + q.val → P3 (ix2 r q) = G (ix2 r cq))
    (h4 : ∀ (r q : Fin 512) (cq : Fin 4096), cq.val = 2048 + q.val → P4 (ix2 r q) = G (ix2 r cq))
    (h5 : ∀ (r q : Fin 512) (cq : Fin 4096), cq.val = 2560 + q.val → P5 (ix2 r q) = G (ix2 r cq))
    (h6 : ∀ (r q : Fin 512) (cq : Fin 4096), cq.val = 3072 + q.val → P6 (ix2 r q) = G (ix2 r cq))
    (h7 : ∀ (r q : Fin 512) (cq : Fin 4096), cq.val = 3584 + q.val → P7 (ix2 r q) = G (ix2 r cq)) :
    (Memref.whole main_v1 : Memref sig .tc .hbm S512x4096 .f32).view.writes Val fo
      [⟨Rect.unit (s := S512x4096) ![0, 1536] S512x512.size inb_S512x4096_S512x512_0_1536, P3⟩,
        ⟨Rect.unit (s := S512x4096) ![0, 1024] S512x512.size inb_S512x4096_S512x512_0_1024, P2⟩,
        ⟨Rect.unit (s := S512x4096) ![0, 512] S512x512.size inb_S512x4096_S512x512_0_512, P1⟩,
        ⟨Rect.unit (s := S512x4096) ![0, 0] S512x512.size inb_S512x4096_S512x512_0_0, P0⟩,
        ⟨Rect.unit (s := S512x4096) ![0, 3584] S512x512.size inb_S512x4096_S512x512_0_3584, P7⟩,
        ⟨Rect.unit (s := S512x4096) ![0, 3072] S512x512.size inb_S512x4096_S512x512_0_3072, P6⟩,
        ⟨Rect.unit (s := S512x4096) ![0, 2560] S512x512.size inb_S512x4096_S512x512_0_2560, P5⟩,
        ⟨Rect.unit (s := S512x4096) ![0, 2048] S512x512.size inb_S512x4096_S512x512_0_2048, P4⟩] = G := by
  have hx : ∀ (off : ℕ) (inb : ∀ a, (![0, off] : Fin 2 → ℕ) a + S512x512.size a ≤ S512x4096.size a) (P : S512x512.Idx → Val .f32),
      (∀ (r q : Fin 512) (cq : Fin 4096), cq.val = off + q.val → P (ix2 r q) = G (ix2 r cq)) → off + 512 ≤ 4096 →
      ∀ x : S512x512.Idx, P x = G ((Rect.unit (s := S512x4096) ![0, off] S512x512.size inb).emb x) := by
    intro off inb P h hoff x
    obtain ⟨r, q, rfl⟩ : ∃ r q, x = ix2 r q := ⟨x 0, x 1, eq_ix2 x⟩
    have hq : q.val < 512 := q.isLt
    rw [blk_emb off inb r q ⟨off + q.val, by omega⟩ rfl]
    exact h _ _ _ rfl
  refine writes_eq_of_pieces (main_v1 : Ref sig .tc) fo _ G ?_ ?_
  · intro p hp
    simp only [List.mem_cons, List.mem_nil_iff, or_false] at hp
    rcases hp with rfl | rfl | rfl | rfl | rfl | rfl | rfl | rfl
    · exact hx 1536 inb_S512x4096_S512x512_0_1536 P3 h3 (by omega)
    · exact hx 1024 inb_S512x4096_S512x512_0_1024 P2 h2 (by omega)
    · exact hx 512 inb_S512x4096_S512x512_0_512 P1 h1 (by omega)
    · exact hx 0 inb_S512x4096_S512x512_0_0 P0 h0 (by omega)
    · exact hx 3584 inb_S512x4096_S512x512_0_3584 P7 h7 (by omega)
    · exact hx 3072 inb_S512x4096_S512x512_0_3072 P6 h6 (by omega)
    · exact hx 2560 inb_S512x4096_S512x512_0_2560 P5 h5 (by omega)
    · exact hx 2048 inb_S512x4096_S512x512_0_2048 P4 h4 (by omega)
  · intro y
    obtain ⟨p, hp, hy⟩ := blocks_cover P0 P1 P2 P3 P4 P5 P6 P7 y
    simp only [List.mem_cons, List.mem_nil_iff, or_false] at hp
    rcases hp with rfl | rfl | rfl | rfl | rfl | rfl | rfl | rfl
    · exact ⟨_, List.mem_cons_of_mem _ (List.mem_cons_of_mem _ (List.mem_cons_of_mem _ (List.mem_cons_of_mem _ (List.mem_cons_self)))), hy⟩
    · exact ⟨_, List.mem_cons_of_mem _ (List.mem_cons_of_mem _ (List.mem_cons_of_mem _ (List.mem_cons_of_mem _ (List.mem_cons_of_mem _ (List.mem_cons_self))))), hy⟩
    · exact ⟨_, List.mem_cons_of_mem _ (List.mem_cons_of_mem _ (List.mem_cons_of_mem _ (List.mem_cons_of_mem _ (List.mem_cons_of_mem _ (List.mem_cons_of_mem _ (List.mem_cons_self)))))), hy⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), hy⟩
    · exact ⟨_, List.mem_cons_self, hy⟩
    · exact ⟨_, List.mem_cons_of_mem _ (List.mem_cons_self), hy⟩
    · exact ⟨_, List.mem_cons_of_mem _ (List.mem_cons_of_mem _ (List.mem_cons_self)), hy⟩
    · exact ⟨_, List.mem_cons_of_mem _ (List.mem_cons_of_mem _ (List.mem_cons_of_mem _ (List.mem_cons_self))), hy⟩

/-- The result of a device of this kind from the eight copies' payloads: where each block of the device's own product is `A` and each
    received chunk is `N`, at the result's columns, the result is their sum. -/
theorem glue_x1 (fo : (main_v1 : Ref sig .tc).ty.Contents (Elt Ideal)) (A N : S512x4096.Idx → EReal)
    (P0 P1 P2 P3 P4 P5 P6 P7 : S512x512.Idx → EReal)
    (hP0 : P0 = body_x1.sl.dma20 (F := Ideal) mI c f4)
    (hP1 : P1 = body_x1.sl.dma36 (F := Ideal) mI c f4)
    (hP2 : P2 = body_x1.sl.dma52 (F := Ideal) mI c f4)
    (hP3 : P3 = body_x1.sl.dma68 (F := Ideal) mI c f4)
    (hP4 : P4 = body_x1.sl.dma4 (F := Ideal) mI c f4)
    (hP5 : P5 = body_x1.sl.dma4_1 (F := Ideal) mI c f4)
    (hP6 : P6 = body_x1.sl.dma4_2 (F := Ideal) mI c f4)
    (hP7 : P7 = body_x1.sl.dma4_3 (F := Ideal) mI c f4)
    (hMM0 : ∀ (r q : Fin 512) (cq : Fin 4096), cq.val = 0 + q.val → (k0_pay43 (body_x1.sl.r mI c) (body_x1.sl.v278 mI c)) (ix2 r q) = A (ix2 r cq))
    (hMM1 : ∀ (r q : Fin 512) (cq : Fin 4096), cq.val = 512 + q.val → (k0_pay54 (body_x1.sl.r mI c) (body_x1.sl.v406 mI c)) (ix2 r q) = A (ix2 r cq))
    (hMM2 : ∀ (r q : Fin 512) (cq : Fin 4096), cq.val = 1024 + q.val → (k0_pay64 (body_x1.sl.r mI c) (body_x1.sl.v534 mI c)) (ix2 r q) = A (ix2 r cq))
    (hMM3 : ∀ (r q : Fin 512) (cq : Fin 4096), cq.val = 1536 + q.val → (k0_pay74 (body_x1.sl.r mI c) (body_x1.sl.v662 mI c)) (ix2 r q) = A (ix2 r cq))
    (hMM4 : ∀ (r q : Fin 512) (cq : Fin 4096), cq.val = 2048 + q.val → (k0_pay45 (body_x1.sl.r_2 mI c)) (ix2 r q) = A (ix2 r cq))
    (hMM5 : ∀ (r q : Fin 512) (cq : Fin 4096), cq.val = 2560 + q.val → (k0_pay55 (body_x1.sl.r mI c) (body_x1.sl.v411 mI c)) (ix2 r q) = A (ix2 r cq))
    (hMM6 : ∀ (r q : Fin 512) (cq : Fin 4096), cq.val = 3072 + q.val → (body_x1.sl.r_3 mI c) (ix2 r q) = A (ix2 r cq))
    (hMM7 : ∀ (r q : Fin 512) (cq : Fin 4096), cq.val = 3584 + q.val → (k0_pay75 (body_x1.sl.r mI c) (body_x1.sl.v667 mI c)) (ix2 r q) = A (ix2 r cq))
    (hRDY : ∀ (j : Fin 16) (r : Fin 512) (q' : Fin 128) (cq : Fin 4096), cq.val = 2048 + 128 * j.val + q'.val → rdY mI c j (ix3 (0 : Fin 1) r q') = N (ix2 r cq))
    (hRDX : ∀ (j : Fin 16) (r : Fin 512) (q' : Fin 128) (cq : Fin 4096), cq.val = 0 + 128 * j.val + q'.val → rdX mI c j (ix3 (0 : Fin 1) r q') = N (ix2 r cq)) :
    (Memref.whole main_v1 : Memref sig .tc .hbm S512x4096 .f32).view.writes (Elt Ideal) fo
      [⟨Rect.unit (s := S512x4096) ![0, 1536] S512x512.size inb_S512x4096_S512x512_0_1536, P3⟩,
        ⟨Rect.unit (s := S512x4096) ![0, 1024] S512x512.size inb_S512x4096_S512x512_0_1024, P2⟩,
        ⟨Rect.unit (s := S512x4096) ![0, 512] S512x512.size inb_S512x4096_S512x512_0_512, P1⟩,
        ⟨Rect.unit (s := S512x4096) ![0, 0] S512x512.size inb_S512x4096_S512x512_0_0, P0⟩,
        ⟨Rect.unit (s := S512x4096) ![0, 3584] S512x512.size inb_S512x4096_S512x512_0_3584, P7⟩,
        ⟨Rect.unit (s := S512x4096) ![0, 3072] S512x512.size inb_S512x4096_S512x512_0_3072, P6⟩,
        ⟨Rect.unit (s := S512x4096) ![0, 2560] S512x512.size inb_S512x4096_S512x512_0_2560, P5⟩,
        ⟨Rect.unit (s := S512x4096) ![0, 2048] S512x512.size inb_S512x4096_S512x512_0_2048, P4⟩] = fun i => A i + N i := by
  subst hP0 hP1 hP2 hP3 hP4 hP5 hP6 hP7
  exact result_of_blocks_x1 (Val := Elt Ideal) fo _ _ _ _ _ _ _ _ (fun i => A i + N i)
    (body_x1_blk0 mI c f4 A N hMM0 hRDX)
    (body_x1_blk1 mI c f4 A N hMM1 hRDX)
    (body_x1_blk2 mI c f4 A N hMM2 hRDX)
    (body_x1_blk3 mI c f4 A N hMM3 hRDX)
    (body_x1_blk4 mI c f4 A N hMM4 hRDY)
    (body_x1_blk5 mI c f4 A N hMM5 hRDY)
    (body_x1_blk6 mI c f4 A N hMM6 hRDY)
    (body_x1_blk7 mI c f4 A N hMM7 hRDY)

/-! ## The result named -/

/-- The result of a device whose first mesh coordinate is 1: its own share of the product plus, at each column, the share of the device the chunk covering it came from. -/
theorem glue_x1_spec (hx : c.val / 2 = 1)
    (fo : (main_v1 : Ref sig .tc).ty.Contents (Elt Ideal)) (P0 P1 P2 P3 P4 P5 P6 P7 : S512x512.Idx → EReal)
    (hP0 : P0 = body_x1.sl.dma20 (F := Ideal) mI c f4)
    (hP1 : P1 = body_x1.sl.dma36 (F := Ideal) mI c f4)
    (hP2 : P2 = body_x1.sl.dma52 (F := Ideal) mI c f4)
    (hP3 : P3 = body_x1.sl.dma68 (F := Ideal) mI c f4)
    (hP4 : P4 = body_x1.sl.dma4 (F := Ideal) mI c f4)
    (hP5 : P5 = body_x1.sl.dma4_1 (F := Ideal) mI c f4)
    (hP6 : P6 = body_x1.sl.dma4_2 (F := Ideal) mI c f4)
    (hP7 : P7 = body_x1.sl.dma4_3 (F := Ideal) mI c f4) :
    (Memref.whole main_v1 : Memref sig .tc .hbm S512x4096 .f32).view.writes (Elt Ideal) fo
      [⟨Rect.unit (s := S512x4096) ![0, 1536] S512x512.size inb_S512x4096_S512x512_0_1536, P3⟩,
        ⟨Rect.unit (s := S512x4096) ![0, 1024] S512x512.size inb_S512x4096_S512x512_0_1024, P2⟩,
        ⟨Rect.unit (s := S512x4096) ![0, 512] S512x512.size inb_S512x4096_S512x512_0_512, P1⟩,
        ⟨Rect.unit (s := S512x4096) ![0, 0] S512x512.size inb_S512x4096_S512x512_0_0, P0⟩,
        ⟨Rect.unit (s := S512x4096) ![0, 3584] S512x512.size inb_S512x4096_S512x512_0_3584, P7⟩,
        ⟨Rect.unit (s := S512x4096) ![0, 3072] S512x512.size inb_S512x4096_S512x512_0_3072, P6⟩,
        ⟨Rect.unit (s := S512x4096) ![0, 2560] S512x512.size inb_S512x4096_S512x512_0_2560, P5⟩,
        ⟨Rect.unit (s := S512x4096) ![0, 2048] S512x512.size inb_S512x4096_S512x512_0_2048, P4⟩]
      = Cert.Spec.kernOut2 (c.val / 2) ⟨c.val % 2, Nat.mod_lt _ (by decide)⟩ (mI ((c : Thread nD τ).loc main_arg0)) (mI ((c : Thread nD τ).loc main_arg1)) (mI ((ynb c : Thread nD τ).loc main_arg0)) (mI ((ynb c : Thread nD τ).loc main_arg1)) (mI ((ynb (xnb c) : Thread nD τ).loc main_arg0)) (mI ((ynb (xnb c) : Thread nD τ).loc main_arg1)) := by
  have hY : ∀ (j : Fin 16) (r : Fin 512) (q' : Fin 128) (cq : Fin 4096), cq.val = 2048 + 128 * j.val + q'.val → rdY mI c j (ix3 (0 : Fin 1) r q') = (fun i : S512x4096.Idx => if (i 1).val / 2048 = c.val / 2 then Cert.Spec.part ⟨c.val % 2, Nat.mod_lt _ (by decide)⟩ (mI ((ynb c : Thread nD τ).loc main_arg0)) (mI ((ynb c : Thread nD τ).loc main_arg1)) i else Cert.Spec.part ⟨c.val % 2, Nat.mod_lt _ (by decide)⟩ (mI ((ynb (xnb c) : Thread nD τ).loc main_arg0)) (mI ((ynb (xnb c) : Thread nD τ).loc main_arg1)) i) (ix2 r cq) := by
    intro j r q' cq h
    have hq' := q'.isLt; have hj := j.isLt
    rw [rdY_eq mI c j r q', chunk_part mI c (ynb c) (ynb_mod c) j r q' cq (by rw [ynb_div, hx]; omega)]
    show _ = if _ then _ else _
    rw [if_pos (by show cq.val / 2048 = c.val / 2; rw [hx]; omega)]
  have hX : ∀ (j : Fin 16) (r : Fin 512) (q' : Fin 128) (cq : Fin 4096), cq.val = 0 + 128 * j.val + q'.val → rdX mI c j (ix3 (0 : Fin 1) r q') = (fun i : S512x4096.Idx => if (i 1).val / 2048 = c.val / 2 then Cert.Spec.part ⟨c.val % 2, Nat.mod_lt _ (by decide)⟩ (mI ((ynb c : Thread nD τ).loc main_arg0)) (mI ((ynb c : Thread nD τ).loc main_arg1)) i else Cert.Spec.part ⟨c.val % 2, Nat.mod_lt _ (by decide)⟩ (mI ((ynb (xnb c) : Thread nD τ).loc main_arg0)) (mI ((ynb (xnb c) : Thread nD τ).loc main_arg1)) i) (ix2 r cq) := by
    intro j r q' cq h
    have hq' := q'.isLt; have hj := j.isLt
    rw [rdX_eq mI c j r q', chunk_part mI c (ynb (xnb c)) (yxnb_mod c) j r q' cq (by rw [yxnb_div, hx]; omega)]
    show _ = if _ then _ else _
    rw [if_neg (by show ¬ cq.val / 2048 = c.val / 2; rw [hx]; omega)]
  exact glue_x1 mI c f4 fo (Cert.Spec.part ⟨c.val % 2, Nat.mod_lt _ (by decide)⟩ (mI ((c : Thread nD τ).loc main_arg0)) (mI ((c : Thread nD τ).loc main_arg1))) (fun i : S512x4096.Idx => if (i 1).val / 2048 = c.val / 2 then Cert.Spec.part ⟨c.val % 2, Nat.mod_lt _ (by decide)⟩ (mI ((ynb c : Thread nD τ).loc main_arg0)) (mI ((ynb c : Thread nD τ).loc main_arg1)) i else Cert.Spec.part ⟨c.val % 2, Nat.mod_lt _ (by decide)⟩ (mI ((ynb (xnb c) : Thread nD τ).loc main_arg0)) (mI ((ynb (xnb c) : Thread nD τ).loc main_arg1)) i) P0 P1 P2 P3 P4 P5 P6 P7 hP0 hP1 hP2 hP3 hP4 hP5 hP6 hP7
    (fun r q cq h => (Cert.KernelIdeal.PayIdx.k0_pay43_apply _ _ r q).trans (mm_part (xMine mI c) (dyBlk mI c 0) (mI ((c : Thread nD τ).loc main_arg0)) (mI ((c : Thread nD τ).loc main_arg1)) ⟨c.val % 2, Nat.mod_lt _ (by decide)⟩ 0 (fun k p col hc => xMine_apply mI c k p col hc) (fun k q col hc => dyBlk_apply mI c 0 k q col (by show col.val = 512 * (0 : Fin 8).val + q.val; exact hc)) r q cq h))
    (fun r q cq h => (Cert.KernelIdeal.PayIdx.k0_pay54_apply _ _ r q).trans (mm_part (xMine mI c) (dyBlk mI c 1) (mI ((c : Thread nD τ).loc main_arg0)) (mI ((c : Thread nD τ).loc main_arg1)) ⟨c.val % 2, Nat.mod_lt _ (by decide)⟩ 512 (fun k p col hc => xMine_apply mI c k p col hc) (fun k q col hc => dyBlk_apply mI c 1 k q col (by show col.val = 512 * (1 : Fin 8).val + q.val; exact hc)) r q cq h))
    (fun r q cq h => (Cert.KernelIdeal.PayIdx.k0_pay64_apply _ _ r q).trans (mm_part (xMine mI c) (dyBlk mI c 2) (mI ((c : Thread nD τ).loc main_arg0)) (mI ((c : Thread nD τ).loc main_arg1)) ⟨c.val % 2, Nat.mod_lt _ (by decide)⟩ 1024 (fun k p col hc => xMine_apply mI c k p col hc) (fun k q col hc => dyBlk_apply mI c 2 k q col (by show col.val = 512 * (2 : Fin 8).val + q.val; exact hc)) r q cq h))
    (fun r q cq h => (Cert.KernelIdeal.PayIdx.k0_pay74_apply _ _ r q).trans (mm_part (xMine mI c) (dyBlk mI c 3) (mI ((c : Thread nD τ).loc main_arg0)) (mI ((c : Thread nD τ).loc main_arg1)) ⟨c.val % 2, Nat.mod_lt _ (by decide)⟩ 1536 (fun k p col hc => xMine_apply mI c k p col hc) (fun k q col hc => dyBlk_apply mI c 3 k q col (by show col.val = 512 * (3 : Fin 8).val + q.val; exact hc)) r q cq h))
    (fun r q cq h => (congrFun (Cert.KernelIdeal.PayIdx.k0_pay45_eq _) _).trans ((show body_x1.sl.r_2 mI c (ix2 r q) = _ from Cert.KernelIdeal.PayIdx.k0_pay44_apply _ _ r q).trans (mm_part (xMine mI c) (dyBlk mI c 4) (mI ((c : Thread nD τ).loc main_arg0)) (mI ((c : Thread nD τ).loc main_arg1)) ⟨c.val % 2, Nat.mod_lt _ (by decide)⟩ 2048 (fun k p col hc => xMine_apply mI c k p col hc) (fun k q col hc => dyBlk_apply mI c 4 k q col (by show col.val = 512 * (4 : Fin 8).val + q.val; exact hc)) r q cq h)))
    (fun r q cq h => (Cert.KernelIdeal.PayIdx.k0_pay55_apply _ _ r q).trans (mm_part (xMine mI c) (dyBlk mI c 5) (mI ((c : Thread nD τ).loc main_arg0)) (mI ((c : Thread nD τ).loc main_arg1)) ⟨c.val % 2, Nat.mod_lt _ (by decide)⟩ 2560 (fun k p col hc => xMine_apply mI c k p col hc) (fun k q col hc => dyBlk_apply mI c 5 k q col (by show col.val = 512 * (5 : Fin 8).val + q.val; exact hc)) r q cq h))
    (fun r q cq h => (show body_x1.sl.r_3 mI c (ix2 r q) = _ from Cert.KernelIdeal.PayIdx.k0_pay65_apply _ _ r q).trans (mm_part (xMine mI c) (dyBlk mI c 6) (mI ((c : Thread nD τ).loc main_arg0)) (mI ((c : Thread nD τ).loc main_arg1)) ⟨c.val % 2, Nat.mod_lt _ (by decide)⟩ 3072 (fun k p col hc => xMine_apply mI c k p col hc) (fun k q col hc => dyBlk_apply mI c 6 k q col (by show col.val = 512 * (6 : Fin 8).val + q.val; exact hc)) r q cq h))
    (fun r q cq h => (Cert.KernelIdeal.PayIdx.k0_pay75_apply _ _ r q).trans (mm_part (xMine mI c) (dyBlk mI c 7) (mI ((c : Thread nD τ).loc main_arg0)) (mI ((c : Thread nD τ).loc main_arg1)) ⟨c.val % 2, Nat.mod_lt _ (by decide)⟩ 3584 (fun k p col hc => xMine_apply mI c k p col hc) (fun k q col hc => dyBlk_apply mI c 7 k q col (by show col.val = 512 * (7 : Fin 8).val + q.val; exact hc)) r q cq h))
    hY hX

end Cert.KernelIdeal.Hand

end
-- ==== Proof.BodyV1.lean ====
import proofs.«901046_g7700000000001047_dist_rsdw_v7x_xy2x2_y_m1024_d1024_f4096_f32_1_alg».proof.Proof.Gen.KernelIdeal
import proofs.«901046_g7700000000001047_dist_rsdw_v7x_xy2x2_y_m1024_d1024_f4096_f32_1_alg».proof.Proof.Gen.KernelIdeal.Skeleton
import proofs.«901046_g7700000000001047_dist_rsdw_v7x_xy2x2_y_m1024_d1024_f4096_f32_1_alg».proof.Proof.Gen.KernelIdeal.Launch
import proofs.«901046_g7700000000001047_dist_rsdw_v7x_xy2x2_y_m1024_d1024_f4096_f32_1_alg».proof.Proof.Gen.KernelIdeal.Points
import proofs.«901046_g7700000000001047_dist_rsdw_v7x_xy2x2_y_m1024_d1024_f4096_f32_1_alg».proof.Proof.Proto
import proofs.«901046_g7700000000001047_dist_rsdw_v7x_xy2x2_y_m1024_d1024_f4096_f32_1_alg».proof.Proof.Slots
import proofs.«901046_g7700000000001047_dist_rsdw_v7x_xy2x2_y_m1024_d1024_f4096_f32_1_alg».proof.Proof.Rejoin
import proofs.«901046_g7700000000001047_dist_rsdw_v7x_xy2x2_y_m1024_d1024_f4096_f32_1_alg».proof.Proof.Ledger
import proofs.«901046_g7700000000001047_dist_rsdw_v7x_xy2x2_y_m1024_d1024_f4096_f32_1_alg».proof.Proof.BodyEnds
import proofs.«901046_g7700000000001047_dist_rsdw_v7x_xy2x2_y_m1024_d1024_f4096_f32_1_alg».proof.Proof.BodyExit
import proofs.«901046_g7700000000001047_dist_rsdw_v7x_xy2x2_y_m1024_d1024_f4096_f32_1_alg».proof.Proof.RulesSend
import proofs.«901046_g7700000000001047_dist_rsdw_v7x_xy2x2_y_m1024_d1024_f4096_f32_1_alg».proof.Proof.RulesWait
import proofs.«901046_g7700000000001047_dist_rsdw_v7x_xy2x2_y_m1024_d1024_f4096_f32_1_alg».proof.Proof.Values
import proofs.«901046_g7700000000001047_dist_rsdw_v7x_xy2x2_y_m1024_d1024_f4096_f32_1_alg».proof.Proof.Body
import proofs.«901046_g7700000000001047_dist_rsdw_v7x_xy2x2_y_m1024_d1024_f4096_f32_1_alg».proof.Proof.GlueX1
import Idealize.ShloMosaic.Lib.Pipeline.Launch
import Idealize.ShloMosaic.Lib.Pipeline.Kit
import Idealize.ShloMosaic.Lib.Tactic
/-! The body once more, at exact extended-real arithmetic and with the result's value kept, on a device with first mesh coordinate 1.

The device starts its eight local copies of `dy`, signals both neighbours' barrier semaphores (handing each its own receive buffer) and waits
for both. It computes, group by group, the sixteen column chunks of the product of the transposed other half of `x` with its half of `dy`
and sends each to the neighbour along the second axis; then, group by group, its own product, adding each chunk it receives and forwarding
that chunk to the neighbour along the first axis; then adds the sixteen forwarded chunks; and copies the eight column blocks of the result
out. Every step that stays on the device is run symbolically; each of the thirty-two transfers to a neighbour is the rounds discipline's
send, the source slot restated at its closed contents first. At the end every cell is closed and every buffer is whole again. -/

set_option maxRecDepth 16384

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Tactic
local notation "𝕄" => MT nD τ sig Unit (Elt Ideal) ℕ UU ℕ

variable (m : (ℓ : Loc nD τ sig) → Buf (Elt Ideal) ℓ)

attribute [local sl_rounds] duties_ysend duties_yrecv duties_fsend duties_xrecv duties_bar amount_ysend amount_yrecv amount_fsend amount_xrecv amount_bar
  expect_ysend expect_yrecv expect_fsend expect_xrecv expect_bar payload_ysend payload_yrecv payload_fsend payload_xrecv
  payload_bar_false payload_bar_true
attribute [local sl_rounds high] payload_bar_false_at payload_bar_true_at
attribute [local sl_canon] dev1_eq dev2_eq dev3_eq dev4_eq dev5_eq dev6_eq dev7_eq dev8_eq dev9_eq dev10_eq dev11_eq dev12_eq dev13_eq dev14_eq dev15_eq dev16_eq dev17_eq dev18_eq dev19_eq dev20_eq dev21_eq dev22_eq dev23_eq dev24_eq dev25_eq dev26_eq dev27_eq dev28_eq dev29_eq dev30_eq dev31_eq dev32_eq dev33_eq dev34_eq
attribute [local irreducible] ynb xnb

theorem bar_rest_v1 (Sb : (c : Dev nD) → (j : Fin 16) → Buf (Elt Ideal) ((sslot j).view.loc (c : Thread nD τ))) (Yc : (c : Dev nD) → (j : Fin 16) → Buf (Elt Ideal) ((yslot j).view.loc (c : Thread nD τ))) (Xc : (c : Dev nD) → (j : Fin 16) → Buf (Elt Ideal) ((xslot j).view.loc (c : Thread nD τ))) (c : Dev nD) : (bigSep Finset.univ (fun d : Bool => (xRd (F := Ideal) Sb Yc Xc).payload (barCell c) 0 d) : sProp 𝕄)
    = iprop((∃ f, (Memref.whole cc0_scratch3 : Memref sig .tc .vmem S16x512x128 .bf16).view.loc ((ynb c) : Thread nD τ) ↦{fullShare} f) ∗ (∃ f, (Memref.whole cc0_scratch4 : Memref sig .tc .vmem S16x512x128 .bf16).view.loc ((xnb c) : Thread nD τ) ↦{fullShare} f)) := by
  have h := rest_bar (F := Ideal) Sb Yc Xc c
  rwa [Finset.sdiff_empty, duties_bar] at h

set_option maxHeartbeats 0 in
theorem body_v1 (c : Dev nD) (hx0 : c.val / 2 = 1) : BodySpec m (SbV (chunk m)) (YcV (chunk m)) (XcV (chunk m)) (fun c o => o = Cert.Spec.kernOut2 (c.val / 2) ⟨c.val % 2, Nat.mod_lt _ (by decide)⟩ (m ((c : Thread nD τ).loc main_arg0)) (m ((c : Thread nD τ).loc main_arg1)) (m ((ynb c : Thread nD τ).loc main_arg0)) (m ((ynb c : Thread nD τ).loc main_arg1)) (m ((ynb (xnb c) : Thread nD τ).loc main_arg0)) (m ((ynb (xnb c) : Thread nD τ).loc main_arg1))) c := by
  intro K W f3 f4 f5 f6 f7 Kt
  unfold ghost creds locals0 posOwn payToks
  iintro ⟨⟨#HIown, #HIpeer, #HR, ⟨Ab, Apos⟩, ⟨Tby, Tbx, Ttoks⟩⟩, ⟨Cb, Ccr⟩, #Hlev, ⟨Lc0, Lc1, Lc2, Lc3, Lc4, Lc5, Lc6, Lc7, Lo0, Lo1, Lo2, Lo3, Lo4, Lo5, Lo6, Lo7⟩, HO, Hx, H1, Ho, H3, H4, H5, Hy, Hxr, Hk⟩
  ihave #HIb := (invsOwn_bar (SbV (chunk m)) (YcV (chunk m)) (XcV (chunk m)) K c) $$ HIown
  ihave #HPby := (invsPeer_by (SbV (chunk m)) (YcV (chunk m)) (XcV (chunk m)) K c) $$ HIpeer
  ihave #HPbx := (invsPeer_bx (SbV (chunk m)) (YcV (chunk m)) (XcV (chunk m)) K c) $$ HIpeer
  ihave #Rby := (reachedAll_by (F := Ideal) c) $$ HR
  ihave #Rbx := (reachedAll_bx (F := Ideal) c) $$ HR
  unfold O₀
  have hmw : ∀ (sm : SemLoc sig) (O : CellTallies nD τ sig Unit), Below c sm O → ((levAts L lv : sProp 𝕄) ⊢ MayWait (c : Thread nD τ) sm () O) := fun sm O h => mayWait_below c sm O h
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  -- the barrier's payloads: the two neighbours' receive buffers
  ihave Hp := (Entails.of_eq (bar_rest_v1 (SbV (chunk m)) (YcV (chunk m)) (XcV (chunk m)) c)) $$ Ab_pay1
  icases Hp with ⟨⟨%fyn, Hyn⟩, ⟨%fxn, Hxn⟩⟩
  -- the three slotted buffers, slot by slot
  ihave Hs := (sslots_split c _) $$ H5
  icases Hs with ⟨Hs0, Hs1, Hs2, Hs3, Hs4, Hs5, Hs6, Hs7, Hs8, Hs9, Hs10, Hs11, Hs12, Hs13, Hs14, Hs15⟩
  ihave Hd := (yslots_split (ynb c) fyn) $$ Hyn
  icases Hd with ⟨Hyn0, Hyn1, Hyn2, Hyn3, Hyn4, Hyn5, Hyn6, Hyn7, Hyn8, Hyn9, Hyn10, Hyn11, Hyn12, Hyn13, Hyn14, Hyn15⟩
  ihave He := (xslots_split (xnb c) fxn) $$ Hxn
  icases He with ⟨Hxn0, Hxn1, Hxn2, Hxn3, Hxn4, Hxn5, Hxn6, Hxn7, Hxn8, Hxn9, Hxn10, Hxn11, Hxn12, Hxn13, Hxn14, Hxn15⟩
  icases Ttoks with ⟨Ts0, Ty0, Ts1, Ty1, Ts2, Ty2, Ts3, Ty3, Ttoks⟩
  ihave Hr0 := (restate_lo_x1 (F := Ideal) m c hx0 0 (by decide) fullShare f5) $$ [Hs0]
  · iexact Hs0
  iapply (wp_send_y (F := Ideal) (SbV (chunk m)) (YcV (chunk m)) (XcV (chunk m)) K c _ (dev3_eq c) 0 _ _ _ _ (fun _ _ => rfl) (land_y_eq (chunk m) c 0 _)) $$ [Hr0 Hyn0 HO Ts0 Ty0]
  · isplitr; · iexact HIown
    isplitr; · iexact HIpeer
    isplitr; · iexact HR
    isplitl [Hr0]; · iexact Hr0
    isplitl [Hyn0]; · iexact Hyn0
    isplitl [HO]; · iexact HO
    isplitl [Ts0]; · iexact Ts0
    iexact Ty0
  iintro ⟨Cs0, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr1 := (restate_lo_x1 (F := Ideal) m c hx0 1 (by decide) fullShare f5) $$ [Hs1]
  · iexact Hs1
  iapply (wp_send_y (F := Ideal) (SbV (chunk m)) (YcV (chunk m)) (XcV (chunk m)) K c _ (dev4_eq c) 1 _ _ _ _ (fun _ _ => rfl) (land_y_eq (chunk m) c 1 _)) $$ [Hr1 Hyn1 HO Ts1 Ty1]
  · isplitr; · iexact HIown
    isplitr; · iexact HIpeer
    isplitr; · iexact HR
    isplitl [Hr1]; · iexact Hr1
    isplitl [Hyn1]; · iexact Hyn1
    isplitl [HO]; · iexact HO
    isplitl [Ts1]; · iexact Ts1
    iexact Ty1
  iintro ⟨Cs1, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr2 := (restate_lo_x1 (F := Ideal) m c hx0 2 (by decide) fullShare f5) $$ [Hs2]
  · iexact Hs2
  iapply (wp_send_y (F := Ideal) (SbV (chunk m)) (YcV (chunk m)) (XcV (chunk m)) K c _ (dev5_eq c) 2 _ _ _ _ (fun _ _ => rfl) (land_y_eq (chunk m) c 2 _)) $$ [Hr2 Hyn2 HO Ts2 Ty2]
  · isplitr; · iexact HIown
    isplitr; · iexact HIpeer
    isplitr; · iexact HR
    isplitl [Hr2]; · iexact Hr2
    isplitl [Hyn2]; · iexact Hyn2
    isplitl [HO]; · iexact HO
    isplitl [Ts2]; · iexact Ts2
    iexact Ty2
  iintro ⟨Cs2, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr3 := (restate_lo_x1 (F := Ideal) m c hx0 3 (by decide) fullShare f5) $$ [Hs3]
  · iexact Hs3
  iapply (wp_send_y (F := Ideal) (SbV (chunk m)) (YcV (chunk m)) (XcV (chunk m)) K c _ (dev6_eq c) 3 _ _ _ _ (fun _ _ => rfl) (land_y_eq (chunk m) c 3 _)) $$ [Hr3 Hyn3 HO Ts3 Ty3]
  · isplitr; · iexact HIown
    isplitr; · iexact HIpeer
    isplitr; · iexact HR
    isplitl [Hr3]; · iexact Hr3
    isplitl [Hyn3]; · iexact Hyn3
    isplitl [HO]; · iexact HO
    isplitl [Ts3]; · iexact Ts3
    iexact Ty3
  iintro ⟨Cs3, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  icases Ttoks with ⟨Ts4, Ty4, Ts5, Ty5, Ts6, Ty6, Ts7, Ty7, Ttoks⟩
  ihave Hr4 := (restate_hi_x1 (F := Ideal) m c hx0 4 (by decide) fullShare f5) $$ [Hs4]
  · iexact Hs4
  iapply (wp_send_y (F := Ideal) (SbV (chunk m)) (YcV (chunk m)) (XcV (chunk m)) K c _ (dev7_eq c) 4 _ _ _ _ (fun _ _ => rfl) (land_y_eq (chunk m) c 4 _)) $$ [Hr4 Hyn4 HO Ts4 Ty4]
  · isplitr; · iexact HIown
    isplitr; · iexact HIpeer
    isplitr; · iexact HR
    isplitl [Hr4]; · iexact Hr4
    isplitl [Hyn4]; · iexact Hyn4
    isplitl [HO]; · iexact HO
    isplitl [Ts4]; · iexact Ts4
    iexact Ty4
  iintro ⟨Cs4, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr5 := (restate_hi_x1 (F := Ideal) m c hx0 5 (by decide) fullShare f5) $$ [Hs5]
  · iexact Hs5
  iapply (wp_send_y (F := Ideal) (SbV (chunk m)) (YcV (chunk m)) (XcV (chunk m)) K c _ (dev8_eq c) 5 _ _ _ _ (fun _ _ => rfl) (land_y_eq (chunk m) c 5 _)) $$ [Hr5 Hyn5 HO Ts5 Ty5]
  · isplitr; · iexact HIown
    isplitr; · iexact HIpeer
    isplitr; · iexact HR
    isplitl [Hr5]; · iexact Hr5
    isplitl [Hyn5]; · iexact Hyn5
    isplitl [HO]; · iexact HO
    isplitl [Ts5]; · iexact Ts5
    iexact Ty5
  iintro ⟨Cs5, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr6 := (restate_hi_x1 (F := Ideal) m c hx0 6 (by decide) fullShare f5) $$ [Hs6]
  · iexact Hs6
  iapply (wp_send_y (F := Ideal) (SbV (chunk m)) (YcV (chunk m)) (XcV (chunk m)) K c _ (dev9_eq c) 6 _ _ _ _ (fun _ _ => rfl) (land_y_eq (chunk m) c 6 _)) $$ [Hr6 Hyn6 HO Ts6 Ty6]
  · isplitr; · iexact HIown
    isplitr; · iexact HIpeer
    isplitr; · iexact HR
    isplitl [Hr6]; · iexact Hr6
    isplitl [Hyn6]; · iexact Hyn6
    isplitl [HO]; · iexact HO
    isplitl [Ts6]; · iexact Ts6
    iexact Ty6
  iintro ⟨Cs6, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr7 := (restate_hi_x1 (F := Ideal) m c hx0 7 (by decide) fullShare f5) $$ [Hs7]
  · iexact Hs7
  iapply (wp_send_y (F := Ideal) (SbV (chunk m)) (YcV (chunk m)) (XcV (chunk m)) K c _ (dev10_eq c) 7 _ _ _ _ (fun _ _ => rfl) (land_y_eq (chunk m) c 7 _)) $$ [Hr7 Hyn7 HO Ts7 Ty7]
  · isplitr; · iexact HIown
    isplitr; · iexact HIpeer
    isplitr; · iexact HR
    isplitl [Hr7]; · iexact Hr7
    isplitl [Hyn7]; · iexact Hyn7
    isplitl [HO]; · iexact HO
    isplitl [Ts7]; · iexact Ts7
    iexact Ty7
  iintro ⟨Cs7, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  icases Ttoks with ⟨Ts8, Ty8, Ts9, Ty9, Ts10, Ty10, Ts11, Ty11, Ttoks⟩
  ihave Hr8 := (restate_hi_x1 (F := Ideal) m c hx0 8 (by decide) fullShare f5) $$ [Hs8]
  · iexact Hs8
  iapply (wp_send_y (F := Ideal) (SbV (chunk m)) (YcV (chunk m)) (XcV (chunk m)) K c _ (dev11_eq c) 8 _ _ _ _ (fun _ _ => rfl) (land_y_eq (chunk m) c 8 _)) $$ [Hr8 Hyn8 HO Ts8 Ty8]
  · isplitr; · iexact HIown
    isplitr; · iexact HIpeer
    isplitr; · iexact HR
    isplitl [Hr8]; · iexact Hr8
    isplitl [Hyn8]; · iexact Hyn8
    isplitl [HO]; · iexact HO
    isplitl [Ts8]; · iexact Ts8
    iexact Ty8
  iintro ⟨Cs8, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr9 := (restate_hi_x1 (F := Ideal) m c hx0 9 (by decide) fullShare f5) $$ [Hs9]
  · iexact Hs9
  iapply (wp_send_y (F := Ideal) (SbV (chunk m)) (YcV (chunk m)) (XcV (chunk m)) K c _ (dev12_eq c) 9 _ _ _ _ (fun _ _ => rfl) (land_y_eq (chunk m) c 9 _)) $$ [Hr9 Hyn9 HO Ts9 Ty9]
  · isplitr; · iexact HIown
    isplitr; · iexact HIpeer
    isplitr; · iexact HR
    isplitl [Hr9]; · iexact Hr9
    isplitl [Hyn9]; · iexact Hyn9
    isplitl [HO]; · iexact HO
    isplitl [Ts9]; · iexact Ts9
    iexact Ty9
  iintro ⟨Cs9, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr10 := (restate_hi_x1 (F := Ideal) m c hx0 10 (by decide) fullShare f5) $$ [Hs10]
  · iexact Hs10
  iapply (wp_send_y (F := Ideal) (SbV (chunk m)) (YcV (chunk m)) (XcV (chunk m)) K c _ (dev13_eq c) 10 _ _ _ _ (fun _ _ => rfl) (land_y_eq (chunk m) c 10 _)) $$ [Hr10 Hyn10 HO Ts10 Ty10]
  · isplitr; · iexact HIown
    isplitr; · iexact HIpeer
    isplitr; · iexact HR
    isplitl [Hr10]; · iexact Hr10
    isplitl [Hyn10]; · iexact Hyn10
    isplitl [HO]; · iexact HO
    isplitl [Ts10]; · iexact Ts10
    iexact Ty10
  iintro ⟨Cs10, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr11 := (restate_hi_x1 (F := Ideal) m c hx0 11 (by decide) fullShare f5) $$ [Hs11]
  · iexact Hs11
  iapply (wp_send_y (F := Ideal) (SbV (chunk m)) (YcV (chunk m)) (XcV (chunk m)) K c _ (dev14_eq c) 11 _ _ _ _ (fun _ _ => rfl) (land_y_eq (chunk m) c 11 _)) $$ [Hr11 Hyn11 HO Ts11 Ty11]
  · isplitr; · iexact HIown
    isplitr; · iexact HIpeer
    isplitr; · iexact HR
    isplitl [Hr11]; · iexact Hr11
    isplitl [Hyn11]; · iexact Hyn11
    isplitl [HO]; · iexact HO
    isplitl [Ts11]; · iexact Ts11
    iexact Ty11
  iintro ⟨Cs11, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  icases Ttoks with ⟨Ts12, Ty12, Ts13, Ty13, Ts14, Ty14, Ts15, Ty15, Ttoks⟩
  ihave Hr12 := (restate_hi_x1 (F := Ideal) m c hx0 12 (by decide) fullShare f5) $$ [Hs12]
  · iexact Hs12
  iapply (wp_send_y (F := Ideal) (SbV (chunk m)) (YcV (chunk m)) (XcV (chunk m)) K c _ (dev15_eq c) 12 _ _ _ _ (fun _ _ => rfl) (land_y_eq (chunk m) c 12 _)) $$ [Hr12 Hyn12 HO Ts12 Ty12]
  · isplitr; · iexact HIown
    isplitr; · iexact HIpeer
    isplitr; · iexact HR
    isplitl [Hr12]; · iexact Hr12
    isplitl [Hyn12]; · iexact Hyn12
    isplitl [HO]; · iexact HO
    isplitl [Ts12]; · iexact Ts12
    iexact Ty12
  iintro ⟨Cs12, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr13 := (restate_hi_x1 (F := Ideal) m c hx0 13 (by decide) fullShare f5) $$ [Hs13]
  · iexact Hs13
  iapply (wp_send_y (F := Ideal) (SbV (chunk m)) (YcV (chunk m)) (XcV (chunk m)) K c _ (dev16_eq c) 13 _ _ _ _ (fun _ _ => rfl) (land_y_eq (chunk m) c 13 _)) $$ [Hr13 Hyn13 HO Ts13 Ty13]
  · isplitr; · iexact HIown
    isplitr; · iexact HIpeer
    isplitr; · iexact HR
    isplitl [Hr13]; · iexact Hr13
    isplitl [Hyn13]; · iexact Hyn13
    isplitl [HO]; · iexact HO
    isplitl [Ts13]; · iexact Ts13
    iexact Ty13
  iintro ⟨Cs13, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr14 := (restate_hi_x1 (F := Ideal) m c hx0 14 (by decide) fullShare f5) $$ [Hs14]
  · iexact Hs14
  iapply (wp_send_y (F := Ideal) (SbV (chunk m)) (YcV (chunk m)) (XcV (chunk m)) K c _ (dev17_eq c) 14 _ _ _ _ (fun _ _ => rfl) (land_y_eq (chunk m) c 14 _)) $$ [Hr14 Hyn14 HO Ts14 Ty14]
  · isplitr; · iexact HIown
    isplitr; · iexact HIpeer
    isplitr; · iexact HR
    isplitl [Hr14]; · iexact Hr14
    isplitl [Hyn14]; · iexact Hyn14
    isplitl [HO]; · iexact HO
    isplitl [Ts14]; · iexact Ts14
    iexact Ty14
  iintro ⟨Cs14, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hr15 := (restate_hi_x1 (F := Ideal) m c hx0 15 (by decide) fullShare f5) $$ [Hs15]
  · iexact Hs15
  iapply (wp_send_y (F := Ideal) (SbV (chunk m)) (YcV (chunk m)) (XcV (chunk m)) K c _ (dev18_eq c) 15 _ _ _ _ (fun _ _ => rfl) (land_y_eq (chunk m) c 15 _)) $$ [Hr15 Hyn15 HO Ts15 Ty15]
  · isplitr; · iexact HIown
    isplitr; · iexact HIpeer
    isplitr; · iexact HR
    isplitl [Hr15]; · iexact Hr15
    isplitl [Hyn15]; · iexact Hyn15
    isplitl [HO]; · iexact HO
    isplitl [Ts15]; · iexact Ts15
    iexact Ty15
  iintro ⟨Cs15, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave #HI1_0 := (invsOwn_yrecv (SbV (chunk m)) (YcV (chunk m)) (XcV (chunk m)) K c 0) $$ HIown
  ihave #HI1_1 := (invsOwn_yrecv (SbV (chunk m)) (YcV (chunk m)) (XcV (chunk m)) K c 1) $$ HIown
  ihave #HI1_2 := (invsOwn_yrecv (SbV (chunk m)) (YcV (chunk m)) (XcV (chunk m)) K c 2) $$ HIown
  ihave #HI1_3 := (invsOwn_yrecv (SbV (chunk m)) (YcV (chunk m)) (XcV (chunk m)) K c 3) $$ HIown
  icases Apos with ⟨A1_0, A1_1, A1_2, A1_3, Apos⟩
  icases Ccr with ⟨Cy0, Cy1, Cy2, Cy3, Ccr⟩
  icases Ttoks with ⟨Tf0, Tx0, Tf1, Tx1, Tf2, Tx2, Tf3, Tx3, Ttoks⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh0 := ((yslot_halves (F := Ideal) c 0 _).1) $$ A1_0_pay1
  icases Hh0 with ⟨Hyl0, Hyr0⟩
  iapply (wp_send_f (F := Ideal) (SbV (chunk m)) (YcV (chunk m)) (XcV (chunk m)) K c _ (dev19_eq c) 0 _ _ _ _ (fun _ _ => rfl) (land_f_eq (chunk m) c 0 _)) $$ [Hyl0 Hxn0 HO Tf0 Tx0]
  · isplitr; · iexact HIown
    isplitr; · iexact HIpeer
    isplitr; · iexact HR
    isplitl [Hyl0]; · iexact Hyl0
    isplitl [Hxn0]; · iexact Hxn0
    isplitl [HO]; · iexact HO
    isplitl [Tf0]; · iexact Tf0
    iexact Tx0
  iintro ⟨Cf0, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh1 := ((yslot_halves (F := Ideal) c 1 _).1) $$ A1_1_pay1
  icases Hh1 with ⟨Hyl1, Hyr1⟩
  iapply (wp_send_f (F := Ideal) (SbV (chunk m)) (YcV (chunk m)) (XcV (chunk m)) K c _ (dev20_eq c) 1 _ _ _ _ (fun _ _ => rfl) (land_f_eq (chunk m) c 1 _)) $$ [Hyl1 Hxn1 HO Tf1 Tx1]
  · isplitr; · iexact HIown
    isplitr; · iexact HIpeer
    isplitr; · iexact HR
    isplitl [Hyl1]; · iexact Hyl1
    isplitl [Hxn1]; · iexact Hxn1
    isplitl [HO]; · iexact HO
    isplitl [Tf1]; · iexact Tf1
    iexact Tx1
  iintro ⟨Cf1, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh2 := ((yslot_halves (F := Ideal) c 2 _).1) $$ A1_2_pay1
  icases Hh2 with ⟨Hyl2, Hyr2⟩
  iapply (wp_send_f (F := Ideal) (SbV (chunk m)) (YcV (chunk m)) (XcV (chunk m)) K c _ (dev21_eq c) 2 _ _ _ _ (fun _ _ => rfl) (land_f_eq (chunk m) c 2 _)) $$ [Hyl2 Hxn2 HO Tf2 Tx2]
  · isplitr; · iexact HIown
    isplitr; · iexact HIpeer
    isplitr; · iexact HR
    isplitl [Hyl2]; · iexact Hyl2
    isplitl [Hxn2]; · iexact Hxn2
    isplitl [HO]; · iexact HO
    isplitl [Tf2]; · iexact Tf2
    iexact Tx2
  iintro ⟨Cf2, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh3 := ((yslot_halves (F := Ideal) c 3 _).1) $$ A1_3_pay1
  icases Hh3 with ⟨Hyl3, Hyr3⟩
  iapply (wp_send_f (F := Ideal) (SbV (chunk m)) (YcV (chunk m)) (XcV (chunk m)) K c _ (dev22_eq c) 3 _ _ _ _ (fun _ _ => rfl) (land_f_eq (chunk m) c 3 _)) $$ [Hyl3 Hxn3 HO Tf3 Tx3]
  · isplitr; · iexact HIown
    isplitr; · iexact HIpeer
    isplitr; · iexact HR
    isplitl [Hyl3]; · iexact Hyl3
    isplitl [Hxn3]; · iexact Hxn3
    isplitl [HO]; · iexact HO
    isplitl [Tf3]; · iexact Tf3
    iexact Tx3
  iintro ⟨Cf3, HO⟩
  iclear HI1_0
  iclear HI1_1
  iclear HI1_2
  iclear HI1_3
  ihave #HI1_4 := (invsOwn_yrecv (SbV (chunk m)) (YcV (chunk m)) (XcV (chunk m)) K c 4) $$ HIown
  ihave #HI1_5 := (invsOwn_yrecv (SbV (chunk m)) (YcV (chunk m)) (XcV (chunk m)) K c 5) $$ HIown
  ihave #HI1_6 := (invsOwn_yrecv (SbV (chunk m)) (YcV (chunk m)) (XcV (chunk m)) K c 6) $$ HIown
  ihave #HI1_7 := (invsOwn_yrecv (SbV (chunk m)) (YcV (chunk m)) (XcV (chunk m)) K c 7) $$ HIown
  icases Apos with ⟨A1_4, A1_5, A1_6, A1_7, Apos⟩
  icases Ccr with ⟨Cy4, Cy5, Cy6, Cy7, Ccr⟩
  icases Ttoks with ⟨Tf4, Tx4, Tf5, Tx5, Tf6, Tx6, Tf7, Tx7, Ttoks⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh4 := ((yslot_halves (F := Ideal) c 4 _).1) $$ A1_4_pay1
  icases Hh4 with ⟨Hyl4, Hyr4⟩
  iapply (wp_send_f (F := Ideal) (SbV (chunk m)) (YcV (chunk m)) (XcV (chunk m)) K c _ (dev23_eq c) 4 _ _ _ _ (fun _ _ => rfl) (land_f_eq (chunk m) c 4 _)) $$ [Hyl4 Hxn4 HO Tf4 Tx4]
  · isplitr; · iexact HIown
    isplitr; · iexact HIpeer
    isplitr; · iexact HR
    isplitl [Hyl4]; · iexact Hyl4
    isplitl [Hxn4]; · iexact Hxn4
    isplitl [HO]; · iexact HO
    isplitl [Tf4]; · iexact Tf4
    iexact Tx4
  iintro ⟨Cf4, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh5 := ((yslot_halves (F := Ideal) c 5 _).1) $$ A1_5_pay1
  icases Hh5 with ⟨Hyl5, Hyr5⟩
  iapply (wp_send_f (F := Ideal) (SbV (chunk m)) (YcV (chunk m)) (XcV (chunk m)) K c _ (dev24_eq c) 5 _ _ _ _ (fun _ _ => rfl) (land_f_eq (chunk m) c 5 _)) $$ [Hyl5 Hxn5 HO Tf5 Tx5]
  · isplitr; · iexact HIown
    isplitr; · iexact HIpeer
    isplitr; · iexact HR
    isplitl [Hyl5]; · iexact Hyl5
    isplitl [Hxn5]; · iexact Hxn5
    isplitl [HO]; · iexact HO
    isplitl [Tf5]; · iexact Tf5
    iexact Tx5
  iintro ⟨Cf5, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh6 := ((yslot_halves (F := Ideal) c 6 _).1) $$ A1_6_pay1
  icases Hh6 with ⟨Hyl6, Hyr6⟩
  iapply (wp_send_f (F := Ideal) (SbV (chunk m)) (YcV (chunk m)) (XcV (chunk m)) K c _ (dev25_eq c) 6 _ _ _ _ (fun _ _ => rfl) (land_f_eq (chunk m) c 6 _)) $$ [Hyl6 Hxn6 HO Tf6 Tx6]
  · isplitr; · iexact HIown
    isplitr; · iexact HIpeer
    isplitr; · iexact HR
    isplitl [Hyl6]; · iexact Hyl6
    isplitl [Hxn6]; · iexact Hxn6
    isplitl [HO]; · iexact HO
    isplitl [Tf6]; · iexact Tf6
    iexact Tx6
  iintro ⟨Cf6, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh7 := ((yslot_halves (F := Ideal) c 7 _).1) $$ A1_7_pay1
  icases Hh7 with ⟨Hyl7, Hyr7⟩
  iapply (wp_send_f (F := Ideal) (SbV (chunk m)) (YcV (chunk m)) (XcV (chunk m)) K c _ (dev26_eq c) 7 _ _ _ _ (fun _ _ => rfl) (land_f_eq (chunk m) c 7 _)) $$ [Hyl7 Hxn7 HO Tf7 Tx7]
  · isplitr; · iexact HIown
    isplitr; · iexact HIpeer
    isplitr; · iexact HR
    isplitl [Hyl7]; · iexact Hyl7
    isplitl [Hxn7]; · iexact Hxn7
    isplitl [HO]; · iexact HO
    isplitl [Tf7]; · iexact Tf7
    iexact Tx7
  iintro ⟨Cf7, HO⟩
  iclear HI1_4
  iclear HI1_5
  iclear HI1_6
  iclear HI1_7
  ihave #HI1_8 := (invsOwn_yrecv (SbV (chunk m)) (YcV (chunk m)) (XcV (chunk m)) K c 8) $$ HIown
  ihave #HI1_9 := (invsOwn_yrecv (SbV (chunk m)) (YcV (chunk m)) (XcV (chunk m)) K c 9) $$ HIown
  ihave #HI1_10 := (invsOwn_yrecv (SbV (chunk m)) (YcV (chunk m)) (XcV (chunk m)) K c 10) $$ HIown
  ihave #HI1_11 := (invsOwn_yrecv (SbV (chunk m)) (YcV (chunk m)) (XcV (chunk m)) K c 11) $$ HIown
  icases Apos with ⟨A1_8, A1_9, A1_10, A1_11, Apos⟩
  icases Ccr with ⟨Cy8, Cy9, Cy10, Cy11, Ccr⟩
  icases Ttoks with ⟨Tf8, Tx8, Tf9, Tx9, Tf10, Tx10, Tf11, Tx11, Ttoks⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh8 := ((yslot_halves (F := Ideal) c 8 _).1) $$ A1_8_pay1
  icases Hh8 with ⟨Hyl8, Hyr8⟩
  iapply (wp_send_f (F := Ideal) (SbV (chunk m)) (YcV (chunk m)) (XcV (chunk m)) K c _ (dev27_eq c) 8 _ _ _ _ (fun _ _ => rfl) (land_f_eq (chunk m) c 8 _)) $$ [Hyl8 Hxn8 HO Tf8 Tx8]
  · isplitr; · iexact HIown
    isplitr; · iexact HIpeer
    isplitr; · iexact HR
    isplitl [Hyl8]; · iexact Hyl8
    isplitl [Hxn8]; · iexact Hxn8
    isplitl [HO]; · iexact HO
    isplitl [Tf8]; · iexact Tf8
    iexact Tx8
  iintro ⟨Cf8, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh9 := ((yslot_halves (F := Ideal) c 9 _).1) $$ A1_9_pay1
  icases Hh9 with ⟨Hyl9, Hyr9⟩
  iapply (wp_send_f (F := Ideal) (SbV (chunk m)) (YcV (chunk m)) (XcV (chunk m)) K c _ (dev28_eq c) 9 _ _ _ _ (fun _ _ => rfl) (land_f_eq (chunk m) c 9 _)) $$ [Hyl9 Hxn9 HO Tf9 Tx9]
  · isplitr; · iexact HIown
    isplitr; · iexact HIpeer
    isplitr; · iexact HR
    isplitl [Hyl9]; · iexact Hyl9
    isplitl [Hxn9]; · iexact Hxn9
    isplitl [HO]; · iexact HO
    isplitl [Tf9]; · iexact Tf9
    iexact Tx9
  iintro ⟨Cf9, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh10 := ((yslot_halves (F := Ideal) c 10 _).1) $$ A1_10_pay1
  icases Hh10 with ⟨Hyl10, Hyr10⟩
  iapply (wp_send_f (F := Ideal) (SbV (chunk m)) (YcV (chunk m)) (XcV (chunk m)) K c _ (dev29_eq c) 10 _ _ _ _ (fun _ _ => rfl) (land_f_eq (chunk m) c 10 _)) $$ [Hyl10 Hxn10 HO Tf10 Tx10]
  · isplitr; · iexact HIown
    isplitr; · iexact HIpeer
    isplitr; · iexact HR
    isplitl [Hyl10]; · iexact Hyl10
    isplitl [Hxn10]; · iexact Hxn10
    isplitl [HO]; · iexact HO
    isplitl [Tf10]; · iexact Tf10
    iexact Tx10
  iintro ⟨Cf10, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh11 := ((yslot_halves (F := Ideal) c 11 _).1) $$ A1_11_pay1
  icases Hh11 with ⟨Hyl11, Hyr11⟩
  iapply (wp_send_f (F := Ideal) (SbV (chunk m)) (YcV (chunk m)) (XcV (chunk m)) K c _ (dev30_eq c) 11 _ _ _ _ (fun _ _ => rfl) (land_f_eq (chunk m) c 11 _)) $$ [Hyl11 Hxn11 HO Tf11 Tx11]
  · isplitr; · iexact HIown
    isplitr; · iexact HIpeer
    isplitr; · iexact HR
    isplitl [Hyl11]; · iexact Hyl11
    isplitl [Hxn11]; · iexact Hxn11
    isplitl [HO]; · iexact HO
    isplitl [Tf11]; · iexact Tf11
    iexact Tx11
  iintro ⟨Cf11, HO⟩
  iclear HI1_8
  iclear HI1_9
  iclear HI1_10
  iclear HI1_11
  ihave #HI1_12 := (invsOwn_yrecv (SbV (chunk m)) (YcV (chunk m)) (XcV (chunk m)) K c 12) $$ HIown
  ihave #HI1_13 := (invsOwn_yrecv (SbV (chunk m)) (YcV (chunk m)) (XcV (chunk m)) K c 13) $$ HIown
  ihave #HI1_14 := (invsOwn_yrecv (SbV (chunk m)) (YcV (chunk m)) (XcV (chunk m)) K c 14) $$ HIown
  ihave #HI1_15 := (invsOwn_yrecv (SbV (chunk m)) (YcV (chunk m)) (XcV (chunk m)) K c 15) $$ HIown
  icases Apos with ⟨A1_12, A1_13, A1_14, A1_15, Apos⟩
  icases Ccr with ⟨Cy12, Cy13, Cy14, Cy15, Ccr⟩
  icases Ttoks with ⟨Tf12, Tx12, Tf13, Tx13, Tf14, Tx14, Tf15, Tx15⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh12 := ((yslot_halves (F := Ideal) c 12 _).1) $$ A1_12_pay1
  icases Hh12 with ⟨Hyl12, Hyr12⟩
  iapply (wp_send_f (F := Ideal) (SbV (chunk m)) (YcV (chunk m)) (XcV (chunk m)) K c _ (dev31_eq c) 12 _ _ _ _ (fun _ _ => rfl) (land_f_eq (chunk m) c 12 _)) $$ [Hyl12 Hxn12 HO Tf12 Tx12]
  · isplitr; · iexact HIown
    isplitr; · iexact HIpeer
    isplitr; · iexact HR
    isplitl [Hyl12]; · iexact Hyl12
    isplitl [Hxn12]; · iexact Hxn12
    isplitl [HO]; · iexact HO
    isplitl [Tf12]; · iexact Tf12
    iexact Tx12
  iintro ⟨Cf12, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh13 := ((yslot_halves (F := Ideal) c 13 _).1) $$ A1_13_pay1
  icases Hh13 with ⟨Hyl13, Hyr13⟩
  iapply (wp_send_f (F := Ideal) (SbV (chunk m)) (YcV (chunk m)) (XcV (chunk m)) K c _ (dev32_eq c) 13 _ _ _ _ (fun _ _ => rfl) (land_f_eq (chunk m) c 13 _)) $$ [Hyl13 Hxn13 HO Tf13 Tx13]
  · isplitr; · iexact HIown
    isplitr; · iexact HIpeer
    isplitr; · iexact HR
    isplitl [Hyl13]; · iexact Hyl13
    isplitl [Hxn13]; · iexact Hxn13
    isplitl [HO]; · iexact HO
    isplitl [Tf13]; · iexact Tf13
    iexact Tx13
  iintro ⟨Cf13, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh14 := ((yslot_halves (F := Ideal) c 14 _).1) $$ A1_14_pay1
  icases Hh14 with ⟨Hyl14, Hyr14⟩
  iapply (wp_send_f (F := Ideal) (SbV (chunk m)) (YcV (chunk m)) (XcV (chunk m)) K c _ (dev33_eq c) 14 _ _ _ _ (fun _ _ => rfl) (land_f_eq (chunk m) c 14 _)) $$ [Hyl14 Hxn14 HO Tf14 Tx14]
  · isplitr; · iexact HIown
    isplitr; · iexact HIpeer
    isplitr; · iexact HR
    isplitl [Hyl14]; · iexact Hyl14
    isplitl [Hxn14]; · iexact Hxn14
    isplitl [HO]; · iexact HO
    isplitl [Tf14]; · iexact Tf14
    iexact Tx14
  iintro ⟨Cf14, HO⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  ihave Hh15 := ((yslot_halves (F := Ideal) c 15 _).1) $$ A1_15_pay1
  icases Hh15 with ⟨Hyl15, Hyr15⟩
  ihave HO := (Entails.of_eq (congrArg (fun O => (owes (c : Thread nD τ) O _ : sProp 𝕄)) (zero_add (tallyAt (xrecvCell (xnb c) 15) () N)).symm)) $$ HO
  iapply (wp_send_f (F := Ideal) (SbV (chunk m)) (YcV (chunk m)) (XcV (chunk m)) K c _ (dev34_eq c) 15 _ _ _ _ (fun _ _ => rfl) (land_f_eq (chunk m) c 15 _)) $$ [Hyl15 Hxn15 HO Tf15 Tx15]
  · isplitr; · iexact HIown
    isplitr; · iexact HIpeer
    isplitr; · iexact HR
    isplitl [Hyl15]; · iexact Hyl15
    isplitl [Hxn15]; · iexact Hxn15
    isplitl [HO]; · iexact HO
    isplitl [Tf15]; · iexact Tf15
    iexact Tx15
  iintro ⟨Cf15, HO⟩
  iclear HI1_12
  iclear HI1_13
  iclear HI1_14
  iclear HI1_15
  ihave #HI3_0 := (invsOwn_xrecv (SbV (chunk m)) (YcV (chunk m)) (XcV (chunk m)) K c 0) $$ HIown
  ihave #HI3_1 := (invsOwn_xrecv (SbV (chunk m)) (YcV (chunk m)) (XcV (chunk m)) K c 1) $$ HIown
  ihave #HI3_2 := (invsOwn_xrecv (SbV (chunk m)) (YcV (chunk m)) (XcV (chunk m)) K c 2) $$ HIown
  ihave #HI3_3 := (invsOwn_xrecv (SbV (chunk m)) (YcV (chunk m)) (XcV (chunk m)) K c 3) $$ HIown
  icases Apos with ⟨A3_0, A3_1, A3_2, A3_3, Apos⟩
  icases Ccr with ⟨Cx0, Cx1, Cx2, Cx3, Ccr⟩
  ihave #HI3_4 := (invsOwn_xrecv (SbV (chunk m)) (YcV (chunk m)) (XcV (chunk m)) K c 4) $$ HIown
  ihave #HI3_5 := (invsOwn_xrecv (SbV (chunk m)) (YcV (chunk m)) (XcV (chunk m)) K c 5) $$ HIown
  ihave #HI3_6 := (invsOwn_xrecv (SbV (chunk m)) (YcV (chunk m)) (XcV (chunk m)) K c 6) $$ HIown
  ihave #HI3_7 := (invsOwn_xrecv (SbV (chunk m)) (YcV (chunk m)) (XcV (chunk m)) K c 7) $$ HIown
  icases Apos with ⟨A3_4, A3_5, A3_6, A3_7, Apos⟩
  icases Ccr with ⟨Cx4, Cx5, Cx6, Cx7, Ccr⟩
  ihave #HI3_8 := (invsOwn_xrecv (SbV (chunk m)) (YcV (chunk m)) (XcV (chunk m)) K c 8) $$ HIown
  ihave #HI3_9 := (invsOwn_xrecv (SbV (chunk m)) (YcV (chunk m)) (XcV (chunk m)) K c 9) $$ HIown
  ihave #HI3_10 := (invsOwn_xrecv (SbV (chunk m)) (YcV (chunk m)) (XcV (chunk m)) K c 10) $$ HIown
  ihave #HI3_11 := (invsOwn_xrecv (SbV (chunk m)) (YcV (chunk m)) (XcV (chunk m)) K c 11) $$ HIown
  icases Apos with ⟨A3_8, A3_9, A3_10, A3_11, Apos⟩
  icases Ccr with ⟨Cx8, Cx9, Cx10, Cx11, Ccr⟩
  ihave #HI3_12 := (invsOwn_xrecv (SbV (chunk m)) (YcV (chunk m)) (XcV (chunk m)) K c 12) $$ HIown
  ihave #HI3_13 := (invsOwn_xrecv (SbV (chunk m)) (YcV (chunk m)) (XcV (chunk m)) K c 13) $$ HIown
  ihave #HI3_14 := (invsOwn_xrecv (SbV (chunk m)) (YcV (chunk m)) (XcV (chunk m)) K c 14) $$ HIown
  ihave #HI3_15 := (invsOwn_xrecv (SbV (chunk m)) (YcV (chunk m)) (XcV (chunk m)) K c 15) $$ HIown
  icases Apos with ⟨A3_12, A3_13, A3_14, A3_15, Apos⟩
  icases Ccr with ⟨Cx12, Cx13, Cx14, Cx15⟩
  ihave #HI0_0 := (invsOwn_ysend (SbV (chunk m)) (YcV (chunk m)) (XcV (chunk m)) K c 0) $$ HIown
  ihave #HI2_0 := (invsOwn_fsend (SbV (chunk m)) (YcV (chunk m)) (XcV (chunk m)) K c 0) $$ HIown
  ihave #HI0_1 := (invsOwn_ysend (SbV (chunk m)) (YcV (chunk m)) (XcV (chunk m)) K c 1) $$ HIown
  ihave #HI2_1 := (invsOwn_fsend (SbV (chunk m)) (YcV (chunk m)) (XcV (chunk m)) K c 1) $$ HIown
  ihave #HI0_2 := (invsOwn_ysend (SbV (chunk m)) (YcV (chunk m)) (XcV (chunk m)) K c 2) $$ HIown
  ihave #HI2_2 := (invsOwn_fsend (SbV (chunk m)) (YcV (chunk m)) (XcV (chunk m)) K c 2) $$ HIown
  ihave #HI0_3 := (invsOwn_ysend (SbV (chunk m)) (YcV (chunk m)) (XcV (chunk m)) K c 3) $$ HIown
  ihave #HI2_3 := (invsOwn_fsend (SbV (chunk m)) (YcV (chunk m)) (XcV (chunk m)) K c 3) $$ HIown
  icases Apos with ⟨A0_0, A2_0, A0_1, A2_1, A0_2, A2_2, A0_3, A2_3, Apos⟩
  ihave #HI0_4 := (invsOwn_ysend (SbV (chunk m)) (YcV (chunk m)) (XcV (chunk m)) K c 4) $$ HIown
  ihave #HI2_4 := (invsOwn_fsend (SbV (chunk m)) (YcV (chunk m)) (XcV (chunk m)) K c 4) $$ HIown
  ihave #HI0_5 := (invsOwn_ysend (SbV (chunk m)) (YcV (chunk m)) (XcV (chunk m)) K c 5) $$ HIown
  ihave #HI2_5 := (invsOwn_fsend (SbV (chunk m)) (YcV (chunk m)) (XcV (chunk m)) K c 5) $$ HIown
  ihave #HI0_6 := (invsOwn_ysend (SbV (chunk m)) (YcV (chunk m)) (XcV (chunk m)) K c 6) $$ HIown
  ihave #HI2_6 := (invsOwn_fsend (SbV (chunk m)) (YcV (chunk m)) (XcV (chunk m)) K c 6) $$ HIown
  ihave #HI0_7 := (invsOwn_ysend (SbV (chunk m)) (YcV (chunk m)) (XcV (chunk m)) K c 7) $$ HIown
  ihave #HI2_7 := (invsOwn_fsend (SbV (chunk m)) (YcV (chunk m)) (XcV (chunk m)) K c 7) $$ HIown
  icases Apos with ⟨A0_4, A2_4, A0_5, A2_5, A0_6, A2_6, A0_7, A2_7, Apos⟩
  ihave #HI0_8 := (invsOwn_ysend (SbV (chunk m)) (YcV (chunk m)) (XcV (chunk m)) K c 8) $$ HIown
  ihave #HI2_8 := (invsOwn_fsend (SbV (chunk m)) (YcV (chunk m)) (XcV (chunk m)) K c 8) $$ HIown
  ihave #HI0_9 := (invsOwn_ysend (SbV (chunk m)) (YcV (chunk m)) (XcV (chunk m)) K c 9) $$ HIown
  ihave #HI2_9 := (invsOwn_fsend (SbV (chunk m)) (YcV (chunk m)) (XcV (chunk m)) K c 9) $$ HIown
  ihave #HI0_10 := (invsOwn_ysend (SbV (chunk m)) (YcV (chunk m)) (XcV (chunk m)) K c 10) $$ HIown
  ihave #HI2_10 := (invsOwn_fsend (SbV (chunk m)) (YcV (chunk m)) (XcV (chunk m)) K c 10) $$ HIown
  ihave #HI0_11 := (invsOwn_ysend (SbV (chunk m)) (YcV (chunk m)) (XcV (chunk m)) K c 11) $$ HIown
  ihave #HI2_11 := (invsOwn_fsend (SbV (chunk m)) (YcV (chunk m)) (XcV (chunk m)) K c 11) $$ HIown
  icases Apos with ⟨A0_8, A2_8, A0_9, A2_9, A0_10, A2_10, A0_11, A2_11, Apos⟩
  ihave #HI0_12 := (invsOwn_ysend (SbV (chunk m)) (YcV (chunk m)) (XcV (chunk m)) K c 12) $$ HIown
  ihave #HI2_12 := (invsOwn_fsend (SbV (chunk m)) (YcV (chunk m)) (XcV (chunk m)) K c 12) $$ HIown
  ihave #HI0_13 := (invsOwn_ysend (SbV (chunk m)) (YcV (chunk m)) (XcV (chunk m)) K c 13) $$ HIown
  ihave #HI2_13 := (invsOwn_fsend (SbV (chunk m)) (YcV (chunk m)) (XcV (chunk m)) K c 13) $$ HIown
  ihave #HI0_14 := (invsOwn_ysend (SbV (chunk m)) (YcV (chunk m)) (XcV (chunk m)) K c 14) $$ HIown
  ihave #HI2_14 := (invsOwn_fsend (SbV (chunk m)) (YcV (chunk m)) (XcV (chunk m)) K c 14) $$ HIown
  ihave #HI0_15 := (invsOwn_ysend (SbV (chunk m)) (YcV (chunk m)) (XcV (chunk m)) K c 15) $$ HIown
  ihave #HI2_15 := (invsOwn_fsend (SbV (chunk m)) (YcV (chunk m)) (XcV (chunk m)) K c 15) $$ HIown
  icases Apos with ⟨A0_12, A2_12, A0_13, A2_13, A0_14, A2_14, A0_15, A2_15⟩
  set_option sl_exec.dmaWindow true in
  set_option sl_exec.stepHeartbeats 400000 in
  sl_exec (disch := (first | (clear * - hx0; decide +revert) | below | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq])))
  -- the result's buffer back in one piece
  ihave H4e := (scratch1_rejoin1 (F := Ideal) c _ _ _ _ _) $$ [H4 H4_2 H4_3 H4_4 H4_5]
  · isplitl [H4]; · iexact H4
    isplitl [H4_2]; · iexact H4_2
    isplitl [H4_3]; · iexact H4_3
    isplitl [H4_4]; · iexact H4_4
    iexact H4_5
  icases H4e with ⟨%f4e, H4w⟩
  -- the cells closed, the buffers whole again: the post
  imod (body_exit (F := Ideal) m (SbV (chunk m)) (YcV (chunk m)) (XcV (chunk m)) (fun c o => o = Cert.Spec.kernOut2 (c.val / 2) ⟨c.val % 2, Nat.mod_lt _ (by decide)⟩ (m ((c : Thread nD τ).loc main_arg0)) (m ((c : Thread nD τ).loc main_arg1)) (m ((ynb c : Thread nD τ).loc main_arg0)) (m ((ynb c : Thread nD τ).loc main_arg1)) (m ((ynb (xnb c) : Thread nD τ).loc main_arg0)) (m ((ynb (xnb c) : Thread nD τ).loc main_arg1))) K c _ _ _ _ (glue_x1_spec m c _ hx0 _ _ _ _ _ _ _ _ _ rfl rfl rfl rfl rfl rfl rfl rfl)) $$ [A0_0 A0_1 A0_2 A0_3 A0_4 A0_5 A0_6 A0_7 A0_8 A0_9 A0_10 A0_11 A0_12 A0_13 A0_14 A0_15 A1_0 A1_1 A1_2 A1_3 A1_4 A1_5 A1_6 A1_7 A1_8 A1_9 A1_10 A1_11 A1_12 A1_13 A1_14 A1_15 A2_0 A2_1 A2_2 A2_3 A2_4 A2_5 A2_6 A2_7 A2_8 A2_9 A2_10 A2_11 A2_12 A2_13 A2_14 A2_15 A3_0 A3_1 A3_2 A3_3 A3_4 A3_5 A3_6 A3_7 A3_8 A3_9 A3_10 A3_11 A3_12 A3_13 A3_14 A3_15 Lc0 Lc1 Lc2 Lc3 Lc4 Lc5 Lc6 Lc7 Lo0 Lo1 Lo2 Lo3 Lo4 Lo5 Lo6 Lo7 HO Hx H1 Ho H3 H4w A0_0_pay1 A0_1_pay1 A0_2_pay1 A0_3_pay1 A0_4_pay1 A0_5_pay1 A0_6_pay1 A0_7_pay1 A0_8_pay1 A0_9_pay1 A0_10_pay1 A0_11_pay1 A0_12_pay1 A0_13_pay1 A0_14_pay1 A0_15_pay1 A2_0_pay1 A2_1_pay1 A2_2_pay1 A2_3_pay1 A2_4_pay1 A2_5_pay1 A2_6_pay1 A2_7_pay1 A2_8_pay1 A2_9_pay1 A2_10_pay1 A2_11_pay1 A2_12_pay1 A2_13_pay1 A2_14_pay1 A2_15_pay1 Hyr0 Hyr1 Hyr2 Hyr3 Hyr4 Hyr5 Hyr6 Hyr7 Hyr8 Hyr9 Hyr10 Hyr11 Hyr12 Hyr13 Hyr14 Hyr15 A3_0_pay1 A3_1_pay1 A3_2_pay1 A3_3_pay1 A3_4_pay1 A3_5_pay1 A3_6_pay1 A3_7_pay1 A3_8_pay1 A3_9_pay1 A3_10_pay1 A3_11_pay1 A3_12_pay1 A3_13_pay1 A3_14_pay1 A3_15_pay1] with Hpost
  · unfold posDone locals0 sDone yLeft yRight xDone
    isplitr; · iexact HIown
    isplitl [A0_0 A0_1 A0_2 A0_3 A0_4 A0_5 A0_6 A0_7 A0_8 A0_9 A0_10 A0_11 A0_12 A0_13 A0_14 A0_15 A1_0 A1_1 A1_2 A1_3 A1_4 A1_5 A1_6 A1_7 A1_8 A1_9 A1_10 A1_11 A1_12 A1_13 A1_14 A1_15 A2_0 A2_1 A2_2 A2_3 A2_4 A2_5 A2_6 A2_7 A2_8 A2_9 A2_10 A2_11 A2_12 A2_13 A2_14 A2_15 A3_0 A3_1 A3_2 A3_3 A3_4 A3_5 A3_6 A3_7 A3_8 A3_9 A3_10 A3_11 A3_12 A3_13 A3_14 A3_15]
    · isplitl [A0_0]; · iexact A0_0
      isplitl [A0_1]; · iexact A0_1
      isplitl [A0_2]; · iexact A0_2
      isplitl [A0_3]; · iexact A0_3
      isplitl [A0_4]; · iexact A0_4
      isplitl [A0_5]; · iexact A0_5
      isplitl [A0_6]; · iexact A0_6
      isplitl [A0_7]; · iexact A0_7
      isplitl [A0_8]; · iexact A0_8
      isplitl [A0_9]; · iexact A0_9
      isplitl [A0_10]; · iexact A0_10
      isplitl [A0_11]; · iexact A0_11
      isplitl [A0_12]; · iexact A0_12
      isplitl [A0_13]; · iexact A0_13
      isplitl [A0_14]; · iexact A0_14
      isplitl [A0_15]; · iexact A0_15
      isplitl [A1_0]; · iexact A1_0
      isplitl [A1_1]; · iexact A1_1
      isplitl [A1_2]; · iexact A1_2
      isplitl [A1_3]; · iexact A1_3
      isplitl [A1_4]; · iexact A1_4
      isplitl [A1_5]; · iexact A1_5
      isplitl [A1_6]; · iexact A1_6
      isplitl [A1_7]; · iexact A1_7
      isplitl [A1_8]; · iexact A1_8
      isplitl [A1_9]; · iexact A1_9
      isplitl [A1_10]; · iexact A1_10
      isplitl [A1_11]; · iexact A1_11
      isplitl [A1_12]; · iexact A1_12
      isplitl [A1_13]; · iexact A1_13
      isplitl [A1_14]; · iexact A1_14
      isplitl [A1_15]; · iexact A1_15
      isplitl [A2_0]; · iexact A2_0
      isplitl [A2_1]; · iexact A2_1
      isplitl [A2_2]; · iexact A2_2
      isplitl [A2_3]; · iexact A2_3
      isplitl [A2_4]; · iexact A2_4
      isplitl [A2_5]; · iexact A2_5
      isplitl [A2_6]; · iexact A2_6
      isplitl [A2_7]; · iexact A2_7
      isplitl [A2_8]; · iexact A2_8
      isplitl [A2_9]; · iexact A2_9
      isplitl [A2_10]; · iexact A2_10
      isplitl [A2_11]; · iexact A2_11
      isplitl [A2_12]; · iexact A2_12
      isplitl [A2_13]; · iexact A2_13
      isplitl [A2_14]; · iexact A2_14
      isplitl [A2_15]; · iexact A2_15
      isplitl [A3_0]; · iexact A3_0
      isplitl [A3_1]; · iexact A3_1
      isplitl [A3_2]; · iexact A3_2
      isplitl [A3_3]; · iexact A3_3
      isplitl [A3_4]; · iexact A3_4
      isplitl [A3_5]; · iexact A3_5
      isplitl [A3_6]; · iexact A3_6
      isplitl [A3_7]; · iexact A3_7
      isplitl [A3_8]; · iexact A3_8
      isplitl [A3_9]; · iexact A3_9
      isplitl [A3_10]; · iexact A3_10
      isplitl [A3_11]; · iexact A3_11
      isplitl [A3_12]; · iexact A3_12
      isplitl [A3_13]; · iexact A3_13
      isplitl [A3_14]; · iexact A3_14
      iexact A3_15
    isplitl [Lc0 Lc1 Lc2 Lc3 Lc4 Lc5 Lc6 Lc7 Lo0 Lo1 Lo2 Lo3 Lo4 Lo5 Lo6 Lo7]
    · isplitl [Lc0]; · iexact Lc0
      isplitl [Lc1]; · iexact Lc1
      isplitl [Lc2]; · iexact Lc2
      isplitl [Lc3]; · iexact Lc3
      isplitl [Lc4]; · iexact Lc4
      isplitl [Lc5]; · iexact Lc5
      isplitl [Lc6]; · iexact Lc6
      isplitl [Lc7]; · iexact Lc7
      isplitl [Lo0]; · iexact Lo0
      isplitl [Lo1]; · iexact Lo1
      isplitl [Lo2]; · iexact Lo2
      isplitl [Lo3]; · iexact Lo3
      isplitl [Lo4]; · iexact Lo4
      isplitl [Lo5]; · iexact Lo5
      isplitl [Lo6]; · iexact Lo6
      iexact Lo7
    isplitl [HO]; · iexact HO
    isplitl [Hx]; · iexact Hx
    isplitl [H1]; · iexact H1
    isplitl [Ho]; · iexact Ho
    isplitl [H3]; · iexact H3
    isplitl [H4w]; · iexact H4w
    isplitl [A0_0_pay1 A0_1_pay1 A0_2_pay1 A0_3_pay1 A0_4_pay1 A0_5_pay1 A0_6_pay1 A0_7_pay1 A0_8_pay1 A0_9_pay1 A0_10_pay1 A0_11_pay1 A0_12_pay1 A0_13_pay1 A0_14_pay1 A0_15_pay1]
    · isplitl [A0_0_pay1]; · iexact A0_0_pay1
      isplitl [A0_1_pay1]; · iexact A0_1_pay1
      isplitl [A0_2_pay1]; · iexact A0_2_pay1
      isplitl [A0_3_pay1]; · iexact A0_3_pay1
      isplitl [A0_4_pay1]; · iexact A0_4_pay1
      isplitl [A0_5_pay1]; · iexact A0_5_pay1
      isplitl [A0_6_pay1]; · iexact A0_6_pay1
      isplitl [A0_7_pay1]; · iexact A0_7_pay1
      isplitl [A0_8_pay1]; · iexact A0_8_pay1
      isplitl [A0_9_pay1]; · iexact A0_9_pay1
      isplitl [A0_10_pay1]; · iexact A0_10_pay1
      isplitl [A0_11_pay1]; · iexact A0_11_pay1
      isplitl [A0_12_pay1]; · iexact A0_12_pay1
      isplitl [A0_13_pay1]; · iexact A0_13_pay1
      isplitl [A0_14_pay1]; · iexact A0_14_pay1
      iexact A0_15_pay1
    isplitl [A2_0_pay1 A2_1_pay1 A2_2_pay1 A2_3_pay1 A2_4_pay1 A2_5_pay1 A2_6_pay1 A2_7_pay1 A2_8_pay1 A2_9_pay1 A2_10_pay1 A2_11_pay1 A2_12_pay1 A2_13_pay1 A2_14_pay1 A2_15_pay1]
    · isplitl [A2_0_pay1]; · iexact A2_0_pay1
      isplitl [A2_1_pay1]; · iexact A2_1_pay1
      isplitl [A2_2_pay1]; · iexact A2_2_pay1
      isplitl [A2_3_pay1]; · iexact A2_3_pay1
      isplitl [A2_4_pay1]; · iexact A2_4_pay1
      isplitl [A2_5_pay1]; · iexact A2_5_pay1
      isplitl [A2_6_pay1]; · iexact A2_6_pay1
      isplitl [A2_7_pay1]; · iexact A2_7_pay1
      isplitl [A2_8_pay1]; · iexact A2_8_pay1
      isplitl [A2_9_pay1]; · iexact A2_9_pay1
      isplitl [A2_10_pay1]; · iexact A2_10_pay1
      isplitl [A2_11_pay1]; · iexact A2_11_pay1
      isplitl [A2_12_pay1]; · iexact A2_12_pay1
      isplitl [A2_13_pay1]; · iexact A2_13_pay1
      isplitl [A2_14_pay1]; · iexact A2_14_pay1
      iexact A2_15_pay1
    isplitl [Hyr0 Hyr1 Hyr2 Hyr3 Hyr4 Hyr5 Hyr6 Hyr7 Hyr8 Hyr9 Hyr10 Hyr11 Hyr12 Hyr13 Hyr14 Hyr15]
    · isplitl [Hyr0]; · iexact Hyr0
      isplitl [Hyr1]; · iexact Hyr1
      isplitl [Hyr2]; · iexact Hyr2
      isplitl [Hyr3]; · iexact Hyr3
      isplitl [Hyr4]; · iexact Hyr4
      isplitl [Hyr5]; · iexact Hyr5
      isplitl [Hyr6]; · iexact Hyr6
      isplitl [Hyr7]; · iexact Hyr7
      isplitl [Hyr8]; · iexact Hyr8
      isplitl [Hyr9]; · iexact Hyr9
      isplitl [Hyr10]; · iexact Hyr10
      isplitl [Hyr11]; · iexact Hyr11
      isplitl [Hyr12]; · iexact Hyr12
      isplitl [Hyr13]; · iexact Hyr13
      isplitl [Hyr14]; · iexact Hyr14
      iexact Hyr15
    isplitl [A3_0_pay1]; · iexact A3_0_pay1
    isplitl [A3_1_pay1]; · iexact A3_1_pay1
    isplitl [A3_2_pay1]; · iexact A3_2_pay1
    isplitl [A3_3_pay1]; · iexact A3_3_pay1
    isplitl [A3_4_pay1]; · iexact A3_4_pay1
    isplitl [A3_5_pay1]; · iexact A3_5_pay1
    isplitl [A3_6_pay1]; · iexact A3_6_pay1
    isplitl [A3_7_pay1]; · iexact A3_7_pay1
    isplitl [A3_8_pay1]; · iexact A3_8_pay1
    isplitl [A3_9_pay1]; · iexact A3_9_pay1
    isplitl [A3_10_pay1]; · iexact A3_10_pay1
    isplitl [A3_11_pay1]; · iexact A3_11_pay1
    isplitl [A3_12_pay1]; · iexact A3_12_pay1
    isplitl [A3_13_pay1]; · iexact A3_13_pay1
    isplitl [A3_14_pay1]; · iexact A3_14_pay1
    iexact A3_15_pay1
  sl_step
  iapply Hk
  iexact Hpost

end Cert.KernelIdeal.Hand
end
-- ==== Proof.BodyV.lean ====
import proofs.«901046_g7700000000001047_dist_rsdw_v7x_xy2x2_y_m1024_d1024_f4096_f32_1_alg».proof.Proof.Gen.KernelIdeal
import proofs.«901046_g7700000000001047_dist_rsdw_v7x_xy2x2_y_m1024_d1024_f4096_f32_1_alg».proof.Proof.Gen.KernelIdeal.Skeleton
import proofs.«901046_g7700000000001047_dist_rsdw_v7x_xy2x2_y_m1024_d1024_f4096_f32_1_alg».proof.Proof.Gen.KernelIdeal.Launch
import proofs.«901046_g7700000000001047_dist_rsdw_v7x_xy2x2_y_m1024_d1024_f4096_f32_1_alg».proof.Proof.Gen.KernelIdeal.Points
import proofs.«901046_g7700000000001047_dist_rsdw_v7x_xy2x2_y_m1024_d1024_f4096_f32_1_alg».proof.Proof.Proto
import proofs.«901046_g7700000000001047_dist_rsdw_v7x_xy2x2_y_m1024_d1024_f4096_f32_1_alg».proof.Proof.Ledger
import proofs.«901046_g7700000000001047_dist_rsdw_v7x_xy2x2_y_m1024_d1024_f4096_f32_1_alg».proof.Proof.BodyEnds
import proofs.«901046_g7700000000001047_dist_rsdw_v7x_xy2x2_y_m1024_d1024_f4096_f32_1_alg».proof.Proof.Values
import proofs.«901046_g7700000000001047_dist_rsdw_v7x_xy2x2_y_m1024_d1024_f4096_f32_1_alg».proof.Proof.Spec
import proofs.«901046_g7700000000001047_dist_rsdw_v7x_xy2x2_y_m1024_d1024_f4096_f32_1_alg».proof.Proof.Body
import proofs.«901046_g7700000000001047_dist_rsdw_v7x_xy2x2_y_m1024_d1024_f4096_f32_1_alg».proof.Proof.BodyV0
import proofs.«901046_g7700000000001047_dist_rsdw_v7x_xy2x2_y_m1024_d1024_f4096_f32_1_alg».proof.Proof.BodyV1
import proofs.«901046_g7700000000001047_dist_rsdw_v7x_xy2x2_y_m1024_d1024_f4096_f32_1_alg».proof.Proof.Launch
import Idealize.ShloMosaic.Lib.Pipeline.Launch
import Idealize.ShloMosaic.Lib.Pipeline.Kit
import Idealize.ShloMosaic.Lib.Tactic

/-! The run of the mesh at exact extended-real arithmetic, with the result named.

On every device the body ends with the result array holding the device's own share of the product — the sum over its block's contracted
rows — plus the other share: on half of the columns the share of its neighbour along the second mesh axis, received straight from it, on
the other half the share forwarded by its neighbour along the first axis, which that one received from its own neighbour along the second;
all as a function of the six argument blocks as launched. The launch
carries that predicate from the bodies to the final state: every weakly fair execution terminates, every device's result is that sum, and
both argument arrays end as they were. -/

set_option maxRecDepth 16384

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The body's own statement on every device with the result's value kept: the two cases of the first mesh coordinate. -/
theorem value_body (c : Dev nD) : BodySpec m (SbV (chunk m)) (YcV (chunk m)) (XcV (chunk m))
    (fun c o => o = Cert.Spec.kernOut2 (c.val / 2) ⟨c.val % 2, Nat.mod_lt _ (by decide)⟩ (m ((c : Thread nD τ).loc main_arg0)) (m ((c : Thread nD τ).loc main_arg1)) (m ((ynb c : Thread nD τ).loc main_arg0)) (m ((ynb c : Thread nD τ).loc main_arg1)) (m ((ynb (xnb c) : Thread nD τ).loc main_arg0)) (m ((ynb (xnb c) : Thread nD τ).loc main_arg1))) c := by
  rcases half_cases c with h | h
  · exact body_v0 m c h
  · exact body_v1 m c h

/-- At the compiled mesh of four devices, at exact arithmetic, from any memory with zero counters: every weakly fair execution of @main
    terminates, and every final state has each device's result array at its own share of the product plus the other share, column half by
    column half from the device it came from, and both argument arrays unchanged. -/
theorem kern_value_run : θ_run (defs (F := Ideal)) (onTc (τ := τ) (main (F := Ideal))) (s₀ m ρ)
    (fun r => ∀ c : Dev nD,
      r.2.mem ((c.tc : Thread nD τ).loc main_v1) = Cert.Spec.kernOut2 (c.val / 2) ⟨c.val % 2, Nat.mod_lt _ (by decide)⟩
          (m ((c.tc : Thread nD τ).loc main_arg0)) (m ((c.tc : Thread nD τ).loc main_arg1))
          (m (((ynb c).tc : Thread nD τ).loc main_arg0)) (m (((ynb c).tc : Thread nD τ).loc main_arg1))
          (m (((ynb (xnb c)).tc : Thread nD τ).loc main_arg0)) (m (((ynb (xnb c)).tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_main m ρ (SbV (chunk m)) (YcV (chunk m)) (XcV (chunk m))
    (fun c o => o = Cert.Spec.kernOut2 (c.val / 2) ⟨c.val % 2, Nat.mod_lt _ (by decide)⟩ (m ((c : Thread nD τ).loc main_arg0)) (m ((c : Thread nD τ).loc main_arg1)) (m ((ynb c : Thread nD τ).loc main_arg0)) (m ((ynb c : Thread nD τ).loc main_arg1)) (m ((ynb (xnb c) : Thread nD τ).loc main_arg0)) (m ((ynb (xnb c) : Thread nD τ).loc main_arg1)))
    (fun c => body_wrap m (SbV (chunk m)) (YcV (chunk m)) (XcV (chunk m))
      (fun c o => o = Cert.Spec.kernOut2 (c.val / 2) ⟨c.val % 2, Nat.mod_lt _ (by decide)⟩ (m ((c : Thread nD τ).loc main_arg0)) (m ((c : Thread nD τ).loc main_arg1)) (m ((ynb c : Thread nD τ).loc main_arg0)) (m ((ynb c : Thread nD τ).loc main_arg1)) (m ((ynb (xnb c) : Thread nD τ).loc main_arg0)) (m ((ynb (xnb c) : Thread nD τ).loc main_arg1))) c (value_body m c))

/-- info: 'Cert.KernelIdeal.Hand.kern_value_run' depends on axioms: [propext, Classical.choice, Quot.sound] -/
#guard_msgs in #print axioms kern_value_run

end Cert.KernelIdeal.Hand

end
-- ==== Proof.lean ====
/- The proof of `Cert.Claim`: the program as printed and its idealization both run on the four devices of the 2 × 2 mesh and leave their
   arguments as they were; the one-device program runs and leaves its arguments as they were; the idealization rewrites no operation; and at
   exact arithmetic every device's result is its block of the one-device program's: the transposed first argument times the second, the
   sum over the contracted rows split between the two devices of a column of the mesh. Hand-written, untrusted. -/
import proofs.«901046_g7700000000001047_dist_rsdw_v7x_xy2x2_y_m1024_d1024_f4096_f32_1_alg».proof.Defs
import proofs.«901046_g7700000000001047_dist_rsdw_v7x_xy2x2_y_m1024_d1024_f4096_f32_1_alg».proof.Proof.Gen.Kernel
import proofs.«901046_g7700000000001047_dist_rsdw_v7x_xy2x2_y_m1024_d1024_f4096_f32_1_alg».proof.Proof.Gen.KernelIdeal
import proofs.«901046_g7700000000001047_dist_rsdw_v7x_xy2x2_y_m1024_d1024_f4096_f32_1_alg».proof.Proof.Gen.ReferenceIdeal
import proofs.«901046_g7700000000001047_dist_rsdw_v7x_xy2x2_y_m1024_d1024_f4096_f32_1_alg».proof.Proof.Gen.Pre_finite_inputs_Kernel
import proofs.«901046_g7700000000001047_dist_rsdw_v7x_xy2x2_y_m1024_d1024_f4096_f32_1_alg».proof.Proof.Gen.Pre_finite_inputs_ReferenceIdeal
import proofs.«901046_g7700000000001047_dist_rsdw_v7x_xy2x2_y_m1024_d1024_f4096_f32_1_alg».proof.Proof.RefValue
import proofs.«901046_g7700000000001047_dist_rsdw_v7x_xy2x2_y_m1024_d1024_f4096_f32_1_alg».proof.Proof.BodyK
import proofs.«901046_g7700000000001047_dist_rsdw_v7x_xy2x2_y_m1024_d1024_f4096_f32_1_alg».proof.Proof.BodyV
import Idealize.ShloMosaic.Adequacy
import Idealize.ShloMosaic.Init

/-! The five claims from the three runs.

The bit-level program and its idealization both run on the four devices and leave their arguments as they were; at the ideal instance
every device ends with its own share of the product plus that of its neighbour along the second mesh axis. The one-device program ends
with the whole product. Each device's argument blocks are blocks of the whole arrays, and the two shares add up to the device's rows of
the whole product, so the device's result is its block of the one-device program's. -/

noncomputable section

namespace Cert.Proof

open Idealize.ShloMosaic Idealize.SL.Sem
open Cert.KernelIdeal.Hand (ynb xnb)

/-- The program as printed runs and leaves its arguments as they were. -/
theorem frame_k : Cert.frame_Kernel := fun m g _ =>
  (θ_run Cert.Kernel.defs _ _).mono (fun _ h c => (h c).2) (Cert.Kernel.Hand.kern_frame_run (F := Bits) m g)

/-- So does its idealization. -/
theorem frame_ki : Cert.frame_KernelIdeal := fun m g _ =>
  (θ_run Cert.KernelIdeal.defs _ _).mono (fun _ h c => (h c).2) (Cert.KernelIdeal.Hand.kern_frame_run (F := Ideal) m g)

/-- The two devices that hold a device's other share sit in the same place along the second mesh axis, so they hold the same blocks of the
    whole arrays (which are cut along that axis only). -/
theorem same_block (c : Dev Cert.KernelIdeal.nD) :
    Layout.meshBlock [2, 2] ![[1], []] (ynb (xnb c)) = Layout.meshBlock [2, 2] ![[1], []] (ynb c) := by
  funext b; apply Fin.ext
  show Layout.meshLin [2, 2] (ynb (xnb c)).val ((![[1], []] : Fin 2 → List Nat) b) = Layout.meshLin [2, 2] (ynb c).val ((![[1], []] : Fin 2 → List Nat) b)
  revert c b; decide

/-- Every device's result is its block of the whole product: its own share of the sum over the contracted rows plus the other share is the
    device's rows of the product of the whole arrays, of which the devices' argument buffers hold the blocks. -/
theorem algebraic : Cert.algebraic_KernelIdeal_ReferenceIdeal := by
  intro m g m' g' _ hagree
  refine ⟨Cert.Spec.refOut (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)), ?_, Cert.RefValue.ref_run m' g'⟩
  refine (θ_run Cert.KernelIdeal.defs _ _).mono (fun _ h c => ⟨(h c).1.trans ?_, (h c).2⟩) (Cert.KernelIdeal.Hand.kern_value_run m g)
  have e := Cert.RefValue.ref_block (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) c (ynb c) rfl
  have h5 := (hagree (ynb (xnb c))).1
  have h6 := (hagree (ynb (xnb c))).2
  rw [same_block c] at h5 h6
  refine Eq.trans (congr (congr (congr (congr (congr (congrArg (Cert.Spec.kernOut2 (c.val / 2) ⟨c.val % 2, Nat.mod_lt _ (by decide)⟩) (hagree c).1) (hagree c).2)
    (hagree (ynb c)).1) (hagree (ynb c)).2) h5) h6) ?_
  exact (Cert.Spec.kernOut2_same _ _ _ _ _ _).trans e.symm

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    frame_k, frame_ki, Cert.RefValue.frame_ref, trivial, algebraic⟩

end Cert.Proof

end
